-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v316)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v316) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v193) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x85x128x128 : Shape := ⟨4, ![16, 85, 128, 128]⟩
abbrev S16x64x5 : Shape := ⟨3, ![16, 64, 5]⟩
abbrev S16x64x1 : Shape := ⟨3, ![16, 64, 1]⟩
abbrev S16x64 : Shape := ⟨2, ![16, 64]⟩
abbrev S_ : Shape := ⟨0, ![]⟩

class Facts : Prop where
  slices_S16x64x5_S16x64x1_0_0_0 : S16x64x5.Slices ![0, 0, 0] S16x64x1
  shapeCasts_S16x64x1_S16x64 : S16x64x1.ShapeCasts S16x64
  slices_S16x64x5_S16x64x1_0_0_1 : S16x64x5.Slices ![0, 0, 1] S16x64x1
  bcast_S_S16x64 : S_.BroadcastsInDim S16x64 (![] : Fin 0 → Fin S16x64.rank)
  slices_S16x64x5_S16x64x1_0_0_2 : S16x64x5.Slices ![0, 0, 2] S16x64x1
  bcast_S_S16x85x128x128 : S_.BroadcastsInDim S16x85x128x128 (![] : Fin 0 → Fin S16x85x128x128.rank)
  reducesTo_S16x85x128x128_S_d0_1_2_3 : S16x85x128x128.ReducesTo [0, 1, 2, 3] S_
  h_S_ : 0 < S_.numel
  bcast_S_S16x64x5 : S_.BroadcastsInDim S16x64x5 (![] : Fin 0 → Fin S16x64x5.rank)
  reducesTo_S16x64x5_S_d0_1_2 : S16x64x5.ReducesTo [0, 1, 2] S_
  reducesTo_S16x64_S_d0_1 : S16x64.ReducesTo [0, 1] S_

variable [Facts]

def fn_part2 {F : FTy → Type} [FloatOps F] (main_v7 : IVec S16x64 32) (main_v12 : IVec S16x64 32) (main_v33 : IVec S_ 1) (main_v34 : IVec S16x64 32) : IVec S_ 1 :=
  let main_v35 : IVec S16x64 1 := cmpi .slt main_v7 main_v34
  let main_c_11 : IVec S_ 1 := constantI S_ 1 1#1
  let main_v36 : IVec S_ 1 := (fun x v => Host.reduce IntOp.andi x v reducesTo_S16x64_S_d0_1 h_S_) main_v35 main_c_11
  let main_v37 : IVec S_ 1 := andi main_v33 main_v36
  let main_c_12 : IVec S_ 32 := constantI S_ 32 0#32
  let main_v38 : IVec S16x64 32 := broadcastInDim S16x64 ![] bcast_S_S16x64 main_c_12
  let main_v39 : IVec S16x64 1 := cmpi .sge main_v12 main_v38
  let main_c_13 : IVec S_ 1 := constantI S_ 1 1#1
  let main_v40 : IVec S_ 1 := (fun x v => Host.reduce IntOp.andi x v reducesTo_S16x64_S_d0_1 h_S_) main_v39 main_c_13
  let main_v41 : IVec S_ 1 := andi main_v37 main_v40
  let main_c_14 : IVec S_ 32 := constantI S_ 32 128#32
  let main_v42 : IVec S16x64 32 := broadcastInDim S16x64 ![] bcast_S_S16x64 main_c_14
  let main_v43 : IVec S16x64 1 := cmpi .slt main_v12 main_v42
  let main_c_15 : IVec S_ 1 := constantI S_ 1 1#1
  let main_v44 : IVec S_ 1 := (fun x v => Host.reduce IntOp.andi x v reducesTo_S16x64_S_d0_1 h_S_) main_v43 main_c_15
  let main_v45 : IVec S_ 1 := andi main_v41 main_v44
  main_v45

def fn_part1 {F : FTy → Type} [FloatOps F] (main_v2 : IVec S16x64 32) (main_v7 : IVec S16x64 32) (main_v12 : IVec S16x64 32) (main_v16 : IVec S_ 1) (main_v17 : FVec F S16x64x5 .f32) (main_v18 : FVec F S16x64x5 .f32) : IVec S_ 1 :=
  let main_v19 : IVec S16x64x5 1 := cmpf .olt main_v17 main_v18
  let main_c_3 : IVec S_ 1 := constantI S_ 1 1#1
  let main_v20 : IVec S_ 1 := (fun x v => Host.reduce IntOp.andi x v reducesTo_S16x64x5_S_d0_1_2 h_S_) main_v19 main_c_3
  let main_v21 : IVec S_ 1 := andi main_v16 main_v20
  let main_c_4 : IVec S_ 32 := constantI S_ 32 0#32
  let main_v22 : IVec S16x64 32 := broadcastInDim S16x64 ![] bcast_S_S16x64 main_c_4
  let main_v23 : IVec S16x64 1 := cmpi .sge main_v2 main_v22
  let main_c_5 : IVec S_ 1 := constantI S_ 1 1#1
  let main_v24 : IVec S_ 1 := (fun x v => Host.reduce IntOp.andi x v reducesTo_S16x64_S_d0_1 h_S_) main_v23 main_c_5
  let main_v25 : IVec S_ 1 := andi main_v21 main_v24
  let main_c_6 : IVec S_ 32 := constantI S_ 32 80#32
  let main_v26 : IVec S16x64 32 := broadcastInDim S16x64 ![] bcast_S_S16x64 main_c_6
  let main_v27 : IVec S16x64 1 := cmpi .slt main_v2 main_v26
  let main_c_7 : IVec S_ 1 := constantI S_ 1 1#1
  let main_v28 : IVec S_ 1 := (fun x v => Host.reduce IntOp.andi x v reducesTo_S16x64_S_d0_1 h_S_) main_v27 main_c_7
  let main_v29 : IVec S_ 1 := andi main_v25 main_v28
  let main_c_8 : IVec S_ 32 := constantI S_ 32 0#32
  let main_v30 : IVec S16x64 32 := broadcastInDim S16x64 ![] bcast_S_S16x64 main_c_8
  let main_v31 : IVec S16x64 1 := cmpi .sge main_v7 main_v30
  let main_c_9 : IVec S_ 1 := constantI S_ 1 1#1
  let main_v32 : IVec S_ 1 := (fun x v => Host.reduce IntOp.andi x v reducesTo_S16x64_S_d0_1 h_S_) main_v31 main_c_9
  let main_v33 : IVec S_ 1 := andi main_v29 main_v32
  let main_c_10 : IVec S_ 32 := constantI S_ 32 128#32
  let main_v34 : IVec S16x64 32 := broadcastInDim S16x64 ![] bcast_S_S16x64 main_c_10
  fn_part2 (F := F) main_v7 main_v12 main_v33 main_v34

def fn {F : FTy → Type} [FloatOps F] (main_arg0 : FVec F S16x85x128x128 .f32) (main_arg1 : FVec F S16x64x5 .f32) : IVec S_ 1 :=
  let main_v0 : FVec F S16x64x1 .f32 := (extractStridedSlice S16x64x1 ![0, 0, 0] · slices_S16x64x5_S16x64x1_0_0_0) main_arg1
  let main_v1 : FVec F S16x64 .f32 := shapeCast S16x64 main_v0 shapeCasts_S16x64x1_S16x64
  let main_v2 : IVec S16x64 32 := fptosi 32 main_v1
  let main_v3 : FVec F S16x64x1 .f32 := (extractStridedSlice S16x64x1 ![0, 0, 1] · slices_S16x64x5_S16x64x1_0_0_1) main_arg1
  let main_v4 : FVec F S16x64 .f32 := shapeCast S16x64 main_v3 shapeCasts_S16x64x1_S16x64
  let main_cst : FVec F S_ .f32 := constant S_ .f32 0x43000000#32
  let main_v5 : FVec F S16x64 .f32 := broadcastInDim S16x64 ![] bcast_S_S16x64 main_cst
  let main_v6 : FVec F S16x64 .f32 := mulf main_v4 main_v5
  let main_v7 : IVec S16x64 32 := fptosi 32 main_v6
  let main_v8 : FVec F S16x64x1 .f32 := (extractStridedSlice S16x64x1 ![0, 0, 2] · slices_S16x64x5_S16x64x1_0_0_2) main_arg1
  let main_v9 : FVec F S16x64 .f32 := shapeCast S16x64 main_v8 shapeCasts_S16x64x1_S16x64
  let main_cst_0 : FVec F S_ .f32 := constant S_ .f32 0x43000000#32
  let main_v10 : FVec F S16x64 .f32 := broadcastInDim S16x64 ![] bcast_S_S16x64 main_cst_0
  let main_v11 : FVec F S16x64 .f32 := mulf main_v9 main_v10
  let main_v12 : IVec S16x64 32 := fptosi 32 main_v11
  let main_v13 : FVec F S16x85x128x128 .f32 := Host.absf main_arg0
  let main_cst_1 : FVec F S_ .f32 := constant S_ .f32 0x7F800000#32
  let main_v14 : FVec F S16x85x128x128 .f32 := broadcastInDim S16x85x128x128 ![] bcast_S_S16x85x128x128 main_cst_1
  let main_v15 : IVec S16x85x128x128 1 := cmpf .olt main_v13 main_v14
  let main_c : IVec S_ 1 := constantI S_ 1 1#1
  let main_v16 : IVec S_ 1 := (fun x v => Host.reduce IntOp.andi x v reducesTo_S16x85x128x128_S_d0_1_2_3 h_S_) main_v15 main_c
  let main_v17 : FVec F S16x64x5 .f32 := Host.absf main_arg1
  let main_cst_2 : FVec F S_ .f32 := constant S_ .f32 0x7F800000#32
  let main_v18 : FVec F S16x64x5 .f32 := broadcastInDim S16x64x5 ![] bcast_S_S16x64x5 main_cst_2
  fn_part1 (F := F) main_v2 main_v7 main_v12 main_v16 main_v17 main_v18
-- ==== Kernel.lean ====
abbrev S16x85x128x128 : Shape := ⟨4, ![16, 85, 128, 128]⟩
abbrev S16x64x5 : Shape := ⟨3, ![16, 64, 5]⟩
abbrev S1x2 : Shape := ⟨2, ![1, 2]⟩
abbrev S1x85x128x128 : Shape := ⟨4, ![1, 85, 128, 128]⟩
abbrev S1x1x128x128 : Shape := ⟨4, ![1, 1, 128, 128]⟩
abbrev S128x128 : Shape := ⟨2, ![128, 128]⟩
abbrev S1x80x128x128 : Shape := ⟨4, ![1, 80, 128, 128]⟩
abbrev S80x128x128 : Shape := ⟨3, ![80, 128, 128]⟩
abbrev S128 : Shape := ⟨1, ![128]⟩
abbrev S128x1 : Shape := ⟨2, ![128, 1]⟩
abbrev S1 : Shape := ⟨1, ![1]⟩
abbrev S1x1 : Shape := ⟨2, ![1, 1]⟩
abbrev S80x128 : Shape := ⟨2, ![80, 128]⟩
abbrev S80x128x1 : Shape := ⟨3, ![80, 128, 1]⟩
abbrev S80x1 : Shape := ⟨2, ![80, 1]⟩
abbrev S80x1x1 : Shape := ⟨3, ![80, 1, 1]⟩
abbrev S1x1x1 : Shape := ⟨3, ![1, 1, 1]⟩
abbrev S_ : Shape := ⟨0, ![]⟩
abbrev S16x64x1 : Shape := ⟨3, ![16, 64, 1]⟩
abbrev S16x64 : Shape := ⟨2, ![16, 64]⟩
abbrev S16 : Shape := ⟨1, ![16]⟩
abbrev S16x1 : Shape := ⟨2, ![16, 1]⟩
abbrev S16x64x4 : Shape := ⟨3, ![16, 64, 4]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S16x1x64 : Shape := ⟨3, ![16, 1, 64]⟩
abbrev S16x64x64 : Shape := ⟨3, ![16, 64, 64]⟩
abbrev S1x64x64 : Shape := ⟨3, ![1, 64, 64]⟩

abbrev nBuf : Space → Nat
  | .hbm => 406
  | .vmem => 4
  | .smem => 0
  | _ => 0

abbrev hbmTy0_0 (i : Nat) : BufTy := match i % 128 with
  | 0 => ⟨S16x85x128x128, .f32⟩
  | 1 => ⟨S16x64x5, .f32⟩
  | 2 => ⟨S1x2, .f32⟩
  | 3 => ⟨S1x1, .f32⟩
  | 4 => ⟨S_, .f32⟩
  | 5 => ⟨S1x1, .f32⟩
  | 6 => ⟨S_, .f32⟩
  | 7 => ⟨S16x64x1, .f32⟩
  | 8 => ⟨S16x64, .f32⟩
  | 9 => ⟨S16x64, .i32⟩
  | 10 => ⟨S16x64x1, .f32⟩
  | 11 => ⟨S16x64, .f32⟩
  | 12 => ⟨S16x64x1, .f32⟩
  | 13 => ⟨S16x64, .f32⟩
  | 14 => ⟨S16x64x1, .f32⟩
  | 15 => ⟨S16x64, .f32⟩
  | 16 => ⟨S16x64x1, .f32⟩
  | 17 => ⟨S16x64, .f32⟩
  | 18 => ⟨S_, .f32⟩
  | 19 => ⟨S16x64, .f32⟩
  | 20 => ⟨S16x64, .f32⟩
  | 21 => ⟨S16x64, .i32⟩
  | 22 => ⟨S_, .f32⟩
  | 23 => ⟨S16x64, .f32⟩
  | 24 => ⟨S16x64, .f32⟩
  | 25 => ⟨S16x64, .i32⟩
  | 26 => ⟨S_, .i32⟩
  | 27 => ⟨S16x64, .i32⟩
  | 28 => ⟨S16x64, .i32⟩
  | 29 => ⟨S16x64, .i32⟩
  | 30 => ⟨S16, .i32⟩
  | 31 => ⟨S16x1, .i32⟩
  | 32 => ⟨S16x64, .i32⟩
  | 33 => ⟨S_, .i32⟩
  | 34 => ⟨S16x64, .i32⟩
  | 35 => ⟨S16x64, .i1⟩
  | 36 => ⟨S_, .i32⟩
  | 37 => ⟨S16x64, .i32⟩
  | 38 => ⟨S16x64, .i32⟩
  | 39 => ⟨S16x64, .i32⟩
  | 40 => ⟨S_, .i32⟩
  | 41 => ⟨S16x64, .i32⟩
  | 42 => ⟨S16x64, .i1⟩
  | 43 => ⟨S_, .i32⟩
  | 44 => ⟨S16x64, .i32⟩
  | 45 => ⟨S16x64, .i32⟩
  | 46 => ⟨S16x64, .i32⟩
  | 47 => ⟨S_, .i32⟩
  | 48 => ⟨S16x64, .i32⟩
  | 49 => ⟨S16x64, .i1⟩
  | 50 => ⟨S_, .i32⟩
  | 51 => ⟨S16x64, .i32⟩
  | 52 => ⟨S16x64, .i32⟩
  | 53 => ⟨S16x64, .i32⟩
  | 54 => ⟨S_, .i32⟩
  | 55 => ⟨S16x64, .i32⟩
  | 56 => ⟨S16x64, .i32⟩
  | 57 => ⟨S16x64x1, .i32⟩
  | 58 => ⟨S16x64x1, .i32⟩
  | 59 => ⟨S16x64x1, .i32⟩
  | 60 => ⟨S16x64x1, .i32⟩
  | 61 => ⟨S16x64x4, .i32⟩
  | 62 => ⟨S16x64, .f32⟩
  | 63 => ⟨S_, .i32⟩
  | 64 => ⟨S16x64, .i32⟩
  | 65 => ⟨S16x64, .i32⟩
  | 66 => ⟨S_, .i32⟩
  | 67 => ⟨S16x64, .i32⟩
  | 68 => ⟨S16x64, .i1⟩
  | 69 => ⟨S_, .i32⟩
  | 70 => ⟨S16x64, .i32⟩
  | 71 => ⟨S16x64, .i32⟩
  | 72 => ⟨S16x64, .i32⟩
  | 73 => ⟨S_, .i32⟩
  | 74 => ⟨S16x64, .i32⟩
  | 75 => ⟨S16x64, .i1⟩
  | 76 => ⟨S_, .i32⟩
  | 77 => ⟨S16x64, .i32⟩
  | 78 => ⟨S16x64, .i32⟩
  | 79 => ⟨S16x64, .i32⟩
  | 80 => ⟨S_, .i32⟩
  | 81 => ⟨S16x64, .i32⟩
  | 82 => ⟨S16x64, .i1⟩
  | 83 => ⟨S_, .i32⟩
  | 84 => ⟨S16x64, .i32⟩
  | 85 => ⟨S16x64, .i32⟩
  | 86 => ⟨S16x64, .i32⟩
  | 87 => ⟨S_, .i32⟩
  | 88 => ⟨S16x64, .i32⟩
  | 89 => ⟨S16x64, .i1⟩
  | 90 => ⟨S_, .i32⟩
  | 91 => ⟨S16x64, .i32⟩
  | 92 => ⟨S16x64, .i32⟩
  | 93 => ⟨S16x64, .i32⟩
  | 94 => ⟨S16x64x1, .i32⟩
  | 95 => ⟨S16x64x1, .i32⟩
  | 96 => ⟨S16x64x1, .i32⟩
  | 97 => ⟨S16x64x1, .i32⟩
  | 98 => ⟨S16x64x4, .i32⟩
  | 99 => ⟨S16x64, .f32⟩
  | 100 => ⟨S_, .i32⟩
  | 101 => ⟨S16x64, .i32⟩
  | 102 => ⟨S16x64, .i1⟩
  | 103 => ⟨S_, .i32⟩
  | 104 => ⟨S16x64, .i32⟩
  | 105 => ⟨S16x64, .i32⟩
  | 106 => ⟨S16x64, .i32⟩
  | 107 => ⟨S_, .i32⟩
  | 108 => ⟨S16x64, .i32⟩
  | 109 => ⟨S16x64, .i1⟩
  | 110 => ⟨S_, .i32⟩
  | 111 => ⟨S16x64, .i32⟩
  | 112 => ⟨S16x64, .i32⟩
  | 113 => ⟨S16x64, .i32⟩
  | 114 => ⟨S_, .i32⟩
  | 115 => ⟨S16x64, .i32⟩
  | 116 => ⟨S16x64, .i1⟩
  | 117 => ⟨S_, .i32⟩
  | 118 => ⟨S16x64, .i32⟩
  | 119 => ⟨S16x64, .i32⟩
  | 120 => ⟨S16x64, .i32⟩
  | 121 => ⟨S_, .i32⟩
  | 122 => ⟨S16x64, .i32⟩
  | 123 => ⟨S16x64, .i32⟩
  | 124 => ⟨S16x64x1, .i32⟩
  | 125 => ⟨S16x64x1, .i32⟩
  | 126 => ⟨S16x64x1, .i32⟩
  | 127 => ⟨S16x64x1, .i32⟩
  | _ => ⟨S16x85x128x128, .f32⟩

abbrev hbmTy0_1 (i : Nat) : BufTy := match i % 128 with
  | 0 => ⟨S16x64x4, .i32⟩
  | 1 => ⟨S16x64, .f32⟩
  | 2 => ⟨S_, .i32⟩
  | 3 => ⟨S16x64, .i32⟩
  | 4 => ⟨S16x64, .i1⟩
  | 5 => ⟨S_, .i32⟩
  | 6 => ⟨S16x64, .i32⟩
  | 7 => ⟨S16x64, .i32⟩
  | 8 => ⟨S16x64, .i32⟩
  | 9 => ⟨S_, .i32⟩
  | 10 => ⟨S16x64, .i32⟩
  | 11 => ⟨S16x64, .i1⟩
  | 12 => ⟨S_, .i32⟩
  | 13 => ⟨S16x64, .i32⟩
  | 14 => ⟨S16x64, .i32⟩
  | 15 => ⟨S16x64, .i32⟩
  | 16 => ⟨S_, .i32⟩
  | 17 => ⟨S16x64, .i32⟩
  | 18 => ⟨S16x64, .i1⟩
  | 19 => ⟨S_, .i32⟩
  | 20 => ⟨S16x64, .i32⟩
  | 21 => ⟨S16x64, .i32⟩
  | 22 => ⟨S16x64, .i32⟩
  | 23 => ⟨S_, .i32⟩
  | 24 => ⟨S16x64, .i32⟩
  | 25 => ⟨S16x64, .i32⟩
  | 26 => ⟨S16x64x1, .i32⟩
  | 27 => ⟨S16x64x1, .i32⟩
  | 28 => ⟨S16x64x1, .i32⟩
  | 29 => ⟨S16x64x1, .i32⟩
  | 30 => ⟨S16x64x4, .i32⟩
  | 31 => ⟨S16x64, .f32⟩
  | 32 => ⟨S_, .i32⟩
  | 33 => ⟨S16x64, .i32⟩
  | 34 => ⟨S16x64, .i1⟩
  | 35 => ⟨S_, .i32⟩
  | 36 => ⟨S16x64, .i32⟩
  | 37 => ⟨S16x64, .i32⟩
  | 38 => ⟨S16x64, .i32⟩
  | 39 => ⟨S_, .i32⟩
  | 40 => ⟨S16x64, .i32⟩
  | 41 => ⟨S16x64, .i1⟩
  | 42 => ⟨S_, .i32⟩
  | 43 => ⟨S16x64, .i32⟩
  | 44 => ⟨S16x64, .i32⟩
  | 45 => ⟨S16x64, .i32⟩
  | 46 => ⟨S_, .i32⟩
  | 47 => ⟨S16x64, .i32⟩
  | 48 => ⟨S16x64, .i1⟩
  | 49 => ⟨S_, .i32⟩
  | 50 => ⟨S16x64, .i32⟩
  | 51 => ⟨S16x64, .i32⟩
  | 52 => ⟨S16x64, .i32⟩
  | 53 => ⟨S_, .i32⟩
  | 54 => ⟨S16x64, .i32⟩
  | 55 => ⟨S16x64, .i32⟩
  | 56 => ⟨S16x64x1, .i32⟩
  | 57 => ⟨S16x64x1, .i32⟩
  | 58 => ⟨S16x64x1, .i32⟩
  | 59 => ⟨S16x64x1, .i32⟩
  | 60 => ⟨S16x64x4, .i32⟩
  | 61 => ⟨S16x64, .f32⟩
  | 62 => ⟨S_, .i32⟩
  | 63 => ⟨S16x64, .i32⟩
  | 64 => ⟨S16x64, .i1⟩
  | 65 => ⟨S_, .i32⟩
  | 66 => ⟨S16x64, .i32⟩
  | 67 => ⟨S16x64, .i32⟩
  | 68 => ⟨S16x64, .i32⟩
  | 69 => ⟨S_, .i32⟩
  | 70 => ⟨S16x64, .i32⟩
  | 71 => ⟨S16x64, .i1⟩
  | 72 => ⟨S_, .i32⟩
  | 73 => ⟨S16x64, .i32⟩
  | 74 => ⟨S16x64, .i32⟩
  | 75 => ⟨S16x64, .i32⟩
  | 76 => ⟨S_, .i32⟩
  | 77 => ⟨S16x64, .i32⟩
  | 78 => ⟨S16x64, .i1⟩
  | 79 => ⟨S_, .i32⟩
  | 80 => ⟨S16x64, .i32⟩
  | 81 => ⟨S16x64, .i32⟩
  | 82 => ⟨S16x64, .i32⟩
  | 83 => ⟨S_, .i32⟩
  | 84 => ⟨S16x64, .i32⟩
  | 85 => ⟨S16x64, .i32⟩
  | 86 => ⟨S16x64x1, .i32⟩
  | 87 => ⟨S16x64x1, .i32⟩
  | 88 => ⟨S16x64x1, .i32⟩
  | 89 => ⟨S16x64x1, .i32⟩
  | 90 => ⟨S16x64x4, .i32⟩
  | 91 => ⟨S16x64, .f32⟩
  | 92 => ⟨S64, .i32⟩
  | 93 => ⟨S64x1, .i32⟩
  | 94 => ⟨S64, .i32⟩
  | 95 => ⟨S1x64, .i32⟩
  | 96 => ⟨S64x64, .i32⟩
  | 97 => ⟨S64x64, .i32⟩
  | 98 => ⟨S64x64, .i1⟩
  | 99 => ⟨S16x64x1, .i32⟩
  | 100 => ⟨S16x1x64, .i32⟩
  | 101 => ⟨S16x64x64, .i32⟩
  | 102 => ⟨S16x64x64, .i32⟩
  | 103 => ⟨S16x64x64, .i1⟩
  | 104 => ⟨S1x64x64, .i1⟩
  | 105 => ⟨S16x64x64, .i1⟩
  | 106 => ⟨S16x64x64, .i1⟩
  | 107 => ⟨S_, .i32⟩
  | 108 => ⟨S_, .i32⟩
  | 109 => ⟨S16x64x64, .i32⟩
  | 110 => ⟨S16x64x64, .i32⟩
  | 111 => ⟨S16x64x64, .i32⟩
  | 112 => ⟨S16x64x64, .i32⟩
  | 113 => ⟨S_, .i32⟩
  | 114 => ⟨S16x64, .i32⟩
  | 115 => ⟨S_, .i32⟩
  | 116 => ⟨S16x64, .i32⟩
  | 117 => ⟨S16x64, .i1⟩
  | 118 => ⟨S16x64, .f32⟩
  | 119 => ⟨S16x64x1, .i32⟩
  | 120 => ⟨S16x1x64, .i32⟩
  | 121 => ⟨S16x64x64, .i32⟩
  | 122 => ⟨S16x64x64, .i32⟩
  | 123 => ⟨S16x64x64, .i1⟩
  | 124 => ⟨S16x64x64, .i1⟩
  | 125 => ⟨S1x64x64, .i1⟩
  | 126 => ⟨S16x64x64, .i1⟩
  | 127 => ⟨S16x64x64, .i1⟩
  | _ => ⟨S16x85x128x128, .f32⟩

abbrev hbmTy0_2 (i : Nat) : BufTy := match i % 128 with
  | 0 => ⟨S_, .i32⟩
  | 1 => ⟨S_, .i32⟩
  | 2 => ⟨S16x64x64, .i32⟩
  | 3 => ⟨S16x64x64, .i32⟩
  | 4 => ⟨S16x64x64, .i32⟩
  | 5 => ⟨S16x64x64, .i32⟩
  | 6 => ⟨S_, .i32⟩
  | 7 => ⟨S16x64, .i32⟩
  | 8 => ⟨S_, .i32⟩
  | 9 => ⟨S16x64, .i32⟩
  | 10 => ⟨S16x64, .i1⟩
  | 11 => ⟨S16x64, .f32⟩
  | 12 => ⟨S16x64, .f32⟩
  | 13 => ⟨S_, .f32⟩
  | 14 => ⟨S_, .f32⟩
  | 15 => ⟨S16x64, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S16x64, .f32⟩
  | 26 => ⟨S16x64, .f32⟩
  | 27 => ⟨S16x64, .f32⟩
  | 28 => ⟨S_, .f32⟩
  | 29 => ⟨S16x64, .f32⟩
  | 30 => ⟨S16x64, .f32⟩
  | 31 => ⟨S16x64, .f32⟩
  | 32 => ⟨S_, .f32⟩
  | 33 => ⟨S16x64, .f32⟩
  | 34 => ⟨S16x64, .f32⟩
  | 35 => ⟨S16x64, .f32⟩
  | 36 => ⟨S_, .f32⟩
  | 37 => ⟨S16x64, .f32⟩
  | 38 => ⟨S16x64, .f32⟩
  | 39 => ⟨S16x64, .f32⟩
  | 40 => ⟨S16x64x1, .f32⟩
  | 41 => ⟨S16x64x1, .f32⟩
  | 42 => ⟨S16x64x1, .f32⟩
  | 43 => ⟨S16x64x1, .f32⟩
  | 44 => ⟨S16x64x4, .f32⟩
  | 45 => ⟨S_, .f32⟩
  | 46 => ⟨S16x64, .f32⟩
  | 47 => ⟨S16x64, .f32⟩
  | 48 => ⟨S16x64, .f32⟩
  | 49 => ⟨S_, .f32⟩
  | 50 => ⟨S16x64, .f32⟩
  | 51 => ⟨S16x64, .f32⟩
  | 52 => ⟨S_, .f32⟩
  | 53 => ⟨S16x64, .f32⟩
  | 54 => ⟨S16x64, .f32⟩
  | 55 => ⟨S16x64, .f32⟩
  | 56 => ⟨S_, .f32⟩
  | 57 => ⟨S16x64, .f32⟩
  | 58 => ⟨S16x64, .f32⟩
  | 59 => ⟨S_, .f32⟩
  | 60 => ⟨S16x64, .f32⟩
  | 61 => ⟨S16x64, .f32⟩
  | 62 => ⟨S16x64, .f32⟩
  | 63 => ⟨S_, .f32⟩
  | 64 => ⟨S16x64, .f32⟩
  | 65 => ⟨S16x64, .f32⟩
  | 66 => ⟨S_, .f32⟩
  | 67 => ⟨S16x64, .f32⟩
  | 68 => ⟨S16x64, .f32⟩
  | 69 => ⟨S16x64, .f32⟩
  | 70 => ⟨S_, .f32⟩
  | 71 => ⟨S16x64, .f32⟩
  | 72 => ⟨S16x64, .f32⟩
  | 73 => ⟨S16x64x1, .f32⟩
  | 74 => ⟨S16x64x1, .f32⟩
  | 75 => ⟨S16x64x1, .f32⟩
  | 76 => ⟨S16x64x1, .f32⟩
  | 77 => ⟨S16x64x4, .f32⟩
  | 78 => ⟨S16x64x1, .f32⟩
  | 79 => ⟨S16x64, .f32⟩
  | 80 => ⟨S16x64x1, .f32⟩
  | 81 => ⟨S16x64, .f32⟩
  | 82 => ⟨S16x64, .f32⟩
  | 83 => ⟨S16x64x1, .f32⟩
  | 84 => ⟨S16x64, .f32⟩
  | 85 => ⟨S16x64x1, .f32⟩
  | 86 => ⟨S16x64, .f32⟩
  | 87 => ⟨S16x64, .f32⟩
  | 88 => ⟨S16x64x1, .f32⟩
  | 89 => ⟨S16x64, .f32⟩
  | 90 => ⟨S16x64x1, .f32⟩
  | 91 => ⟨S16x64, .f32⟩
  | 92 => ⟨S16x64, .f32⟩
  | 93 => ⟨S16x64x1, .f32⟩
  | 94 => ⟨S16x64, .f32⟩
  | 95 => ⟨S16x64x1, .f32⟩
  | 96 => ⟨S16x64, .f32⟩
  | 97 => ⟨S16x64, .f32⟩
  | 98 => ⟨S16x64, .f32⟩
  | 99 => ⟨S_, .i32⟩
  | 100 => ⟨S_, .f32⟩
  | 101 => ⟨S16x64, .f32⟩
  | 102 => ⟨S16x64, .f32⟩
  | 103 => ⟨S16x64, .f32⟩
  | 104 => ⟨S_, .i32⟩
  | 105 => ⟨S_, .f32⟩
  | 106 => ⟨S16x64, .f32⟩
  | 107 => ⟨S16x64, .f32⟩
  | 108 => ⟨S16x64, .f32⟩
  | 109 => ⟨S16x64x1, .f32⟩
  | 110 => ⟨S16x64, .f32⟩
  | 111 => ⟨S16x64x1, .f32⟩
  | 112 => ⟨S16x64, .f32⟩
  | 113 => ⟨S16x64, .f32⟩
  | 114 => ⟨S16x64x1, .f32⟩
  | 115 => ⟨S16x64, .f32⟩
  | 116 => ⟨S16x64x1, .f32⟩
  | 117 => ⟨S16x64, .f32⟩
  | 118 => ⟨S16x64, .f32⟩
  | 119 => ⟨S16x64, .f32⟩
  | 120 => ⟨S16x64x1, .f32⟩
  | 121 => ⟨S16x64, .f32⟩
  | 122 => ⟨S16x64x1, .f32⟩
  | 123 => ⟨S16x64, .f32⟩
  | 124 => ⟨S16x64, .f32⟩
  | 125 => ⟨S16x64x1, .f32⟩
  | 126 => ⟨S16x64, .f32⟩
  | 127 => ⟨S16x64x1, .f32⟩
  | _ => ⟨S16x85x128x128, .f32⟩

abbrev hbmTy0_3 (i : Nat) : BufTy := match i % 128 with
  | 0 => ⟨S16x64, .f32⟩
  | 1 => ⟨S16x64, .f32⟩
  | 2 => ⟨S16x64, .f32⟩
  | 3 => ⟨S16x64, .f32⟩
  | 4 => ⟨S16x64, .f32⟩
  | 5 => ⟨S_, .f32⟩
  | 6 => ⟨S16x64, .f32⟩
  | 7 => ⟨S16x64, .f32⟩
  | 8 => ⟨S16x64, .f32⟩
  | 9 => ⟨S_, .f32⟩
  | 10 => ⟨S16x64, .f32⟩
  | 11 => ⟨S16x64, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | _ => ⟨S16x85x128x128, .f32⟩

abbrev hbmTy (i : Nat) : BufTy := match i / 128 with
  | 0 => hbmTy0_0 i
  | 1 => hbmTy0_1 i
  | 2 => hbmTy0_2 i
  | 3 => hbmTy0_3 i
  | _ => ⟨S16x85x128x128, .f32⟩

abbrev bufTy : (tb : Table) → Fin (tcTables nBuf tb) → BufTy
  | .hbm, ⟨i, _⟩ => hbmTy i
  | .local _ .vmem, ⟨0, _⟩ => ⟨S1x85x128x128, .f32⟩
  | .local _ .vmem, ⟨1, _⟩ => ⟨S1x85x128x128, .f32⟩
  | .local _ .vmem, ⟨2, _⟩ => ⟨S1x2, .f32⟩
  | .local _ .vmem, ⟨3, _⟩ => ⟨S1x2, .f32⟩
  | _, _ => ⟨S16x85x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_cst : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_cst_0 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_c : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_c_1 : Ref sig .tc := ⟨.hbm, 33, rfl⟩
abbrev main_v28 : Ref sig .tc := ⟨.hbm, 34, rfl⟩
abbrev main_v29 : Ref sig .tc := ⟨.hbm, 35, rfl⟩
abbrev main_c_2 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_c_3 : Ref sig .tc := ⟨.hbm, 40, rfl⟩
abbrev main_v33 : Ref sig .tc := ⟨.hbm, 41, rfl⟩
abbrev main_v34 : Ref sig .tc := ⟨.hbm, 42, rfl⟩
abbrev main_c_4 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_c_5 : Ref sig .tc := ⟨.hbm, 47, rfl⟩
abbrev main_v38 : Ref sig .tc := ⟨.hbm, 48, rfl⟩
abbrev main_v39 : Ref sig .tc := ⟨.hbm, 49, rfl⟩
abbrev main_c_6 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_c_7 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_c_8 : Ref sig .tc := ⟨.hbm, 63, rfl⟩
abbrev main_v51 : Ref sig .tc := ⟨.hbm, 64, rfl⟩
abbrev main_v52 : Ref sig .tc := ⟨.hbm, 65, rfl⟩
abbrev main_c_9 : Ref sig .tc := ⟨.hbm, 66, rfl⟩
abbrev main_v53 : Ref sig .tc := ⟨.hbm, 67, rfl⟩
abbrev main_v54 : Ref sig .tc := ⟨.hbm, 68, rfl⟩
abbrev main_c_10 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_c_11 : Ref sig .tc := ⟨.hbm, 73, rfl⟩
abbrev main_v58 : Ref sig .tc := ⟨.hbm, 74, rfl⟩
abbrev main_v59 : Ref sig .tc := ⟨.hbm, 75, rfl⟩
abbrev main_c_12 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_c_13 : Ref sig .tc := ⟨.hbm, 80, rfl⟩
abbrev main_v63 : Ref sig .tc := ⟨.hbm, 81, rfl⟩
abbrev main_v64 : Ref sig .tc := ⟨.hbm, 82, rfl⟩
abbrev main_c_14 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_c_15 : Ref sig .tc := ⟨.hbm, 87, rfl⟩
abbrev main_v68 : Ref sig .tc := ⟨.hbm, 88, rfl⟩
abbrev main_v69 : Ref sig .tc := ⟨.hbm, 89, rfl⟩
abbrev main_c_16 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_c_17 : Ref sig .tc := ⟨.hbm, 100, rfl⟩
abbrev main_v79 : Ref sig .tc := ⟨.hbm, 101, rfl⟩
abbrev main_v80 : Ref sig .tc := ⟨.hbm, 102, rfl⟩
abbrev main_c_18 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_c_19 : Ref sig .tc := ⟨.hbm, 107, rfl⟩
abbrev main_v84 : Ref sig .tc := ⟨.hbm, 108, rfl⟩
abbrev main_v85 : Ref sig .tc := ⟨.hbm, 109, rfl⟩
abbrev main_c_20 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_c_21 : Ref sig .tc := ⟨.hbm, 114, rfl⟩
abbrev main_v89 : Ref sig .tc := ⟨.hbm, 115, rfl⟩
abbrev main_v90 : Ref sig .tc := ⟨.hbm, 116, rfl⟩
abbrev main_c_22 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_c_23 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_c_24 : Ref sig .tc := ⟨.hbm, 130, rfl⟩
abbrev main_v102 : Ref sig .tc := ⟨.hbm, 131, rfl⟩
abbrev main_v103 : Ref sig .tc := ⟨.hbm, 132, rfl⟩
abbrev main_c_25 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_c_26 : Ref sig .tc := ⟨.hbm, 137, rfl⟩
abbrev main_v107 : Ref sig .tc := ⟨.hbm, 138, rfl⟩
abbrev main_v108 : Ref sig .tc := ⟨.hbm, 139, rfl⟩
abbrev main_c_27 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_c_28 : Ref sig .tc := ⟨.hbm, 144, rfl⟩
abbrev main_v112 : Ref sig .tc := ⟨.hbm, 145, rfl⟩
abbrev main_v113 : Ref sig .tc := ⟨.hbm, 146, rfl⟩
abbrev main_c_29 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_c_30 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_c_31 : Ref sig .tc := ⟨.hbm, 160, rfl⟩
abbrev main_v125 : Ref sig .tc := ⟨.hbm, 161, rfl⟩
abbrev main_v126 : Ref sig .tc := ⟨.hbm, 162, rfl⟩
abbrev main_c_32 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_c_33 : Ref sig .tc := ⟨.hbm, 167, rfl⟩
abbrev main_v130 : Ref sig .tc := ⟨.hbm, 168, rfl⟩
abbrev main_v131 : Ref sig .tc := ⟨.hbm, 169, rfl⟩
abbrev main_c_34 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_c_35 : Ref sig .tc := ⟨.hbm, 174, rfl⟩
abbrev main_v135 : Ref sig .tc := ⟨.hbm, 175, rfl⟩
abbrev main_v136 : Ref sig .tc := ⟨.hbm, 176, rfl⟩
abbrev main_c_36 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_c_37 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_c_38 : Ref sig .tc := ⟨.hbm, 190, rfl⟩
abbrev main_v148 : Ref sig .tc := ⟨.hbm, 191, rfl⟩
abbrev main_v149 : Ref sig .tc := ⟨.hbm, 192, rfl⟩
abbrev main_c_39 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_c_40 : Ref sig .tc := ⟨.hbm, 197, rfl⟩
abbrev main_v153 : Ref sig .tc := ⟨.hbm, 198, rfl⟩
abbrev main_v154 : Ref sig .tc := ⟨.hbm, 199, rfl⟩
abbrev main_c_41 : Ref sig .tc := ⟨.hbm, 200, rfl⟩
abbrev main_v155 : Ref sig .tc := ⟨.hbm, 201, rfl⟩
abbrev main_v156 : Ref sig .tc := ⟨.hbm, 202, rfl⟩
abbrev main_v157 : Ref sig .tc := ⟨.hbm, 203, rfl⟩
abbrev main_c_42 : Ref sig .tc := ⟨.hbm, 204, rfl⟩
abbrev main_v158 : Ref sig .tc := ⟨.hbm, 205, rfl⟩
abbrev main_v159 : Ref sig .tc := ⟨.hbm, 206, rfl⟩
abbrev main_c_43 : Ref sig .tc := ⟨.hbm, 207, rfl⟩
abbrev main_v160 : Ref sig .tc := ⟨.hbm, 208, rfl⟩
abbrev main_v161 : Ref sig .tc := ⟨.hbm, 209, rfl⟩
abbrev main_v162 : Ref sig .tc := ⟨.hbm, 210, rfl⟩
abbrev main_c_44 : Ref sig .tc := ⟨.hbm, 211, rfl⟩
abbrev main_v163 : Ref sig .tc := ⟨.hbm, 212, rfl⟩
abbrev main_v164 : Ref sig .tc := ⟨.hbm, 213, rfl⟩
abbrev main_v165 : Ref sig .tc := ⟨.hbm, 214, rfl⟩
abbrev main_v166 : Ref sig .tc := ⟨.hbm, 215, rfl⟩
abbrev main_v167 : Ref sig .tc := ⟨.hbm, 216, rfl⟩
abbrev main_v168 : Ref sig .tc := ⟨.hbm, 217, rfl⟩
abbrev main_v169 : Ref sig .tc := ⟨.hbm, 218, rfl⟩
abbrev main_v170 : Ref sig .tc := ⟨.hbm, 219, rfl⟩
abbrev main_v171 : Ref sig .tc := ⟨.hbm, 220, rfl⟩
abbrev main_v172 : Ref sig .tc := ⟨.hbm, 221, rfl⟩
abbrev main_v173 : Ref sig .tc := ⟨.hbm, 222, rfl⟩
abbrev main_v174 : Ref sig .tc := ⟨.hbm, 223, rfl⟩
abbrev main_v175 : Ref sig .tc := ⟨.hbm, 224, rfl⟩
abbrev main_v176 : Ref sig .tc := ⟨.hbm, 225, rfl⟩
abbrev main_v177 : Ref sig .tc := ⟨.hbm, 226, rfl⟩
abbrev main_v178 : Ref sig .tc := ⟨.hbm, 227, rfl⟩
abbrev main_v179 : Ref sig .tc := ⟨.hbm, 228, rfl⟩
abbrev main_v180 : Ref sig .tc := ⟨.hbm, 229, rfl⟩
abbrev main_v181 : Ref sig .tc := ⟨.hbm, 230, rfl⟩
abbrev main_v182 : Ref sig .tc := ⟨.hbm, 231, rfl⟩
abbrev main_v183 : Ref sig .tc := ⟨.hbm, 232, rfl⟩
abbrev main_v184 : Ref sig .tc := ⟨.hbm, 233, rfl⟩
abbrev main_v185 : Ref sig .tc := ⟨.hbm, 234, rfl⟩
abbrev main_c_45 : Ref sig .tc := ⟨.hbm, 235, rfl⟩
abbrev main_c_46 : Ref sig .tc := ⟨.hbm, 236, rfl⟩
abbrev main_call0_v0 : Ref sig .tc := ⟨.hbm, 237, rfl⟩
abbrev main_call0_v1 : Ref sig .tc := ⟨.hbm, 238, rfl⟩
abbrev main_v186 : Ref sig .tc := ⟨.hbm, 239, rfl⟩
abbrev main_v187 : Ref sig .tc := ⟨.hbm, 240, rfl⟩
abbrev main_c_47 : Ref sig .tc := ⟨.hbm, 241, rfl⟩
abbrev main_v188 : Ref sig .tc := ⟨.hbm, 242, rfl⟩
abbrev main_c_48 : Ref sig .tc := ⟨.hbm, 243, rfl⟩
abbrev main_v189 : Ref sig .tc := ⟨.hbm, 244, rfl⟩
abbrev main_v190 : Ref sig .tc := ⟨.hbm, 245, rfl⟩
abbrev main_v191 : Ref sig .tc := ⟨.hbm, 246, rfl⟩
abbrev main_v192 : Ref sig .tc := ⟨.hbm, 247, rfl⟩
abbrev main_v193 : Ref sig .tc := ⟨.hbm, 248, rfl⟩
abbrev main_v194 : Ref sig .tc := ⟨.hbm, 249, rfl⟩
abbrev main_v195 : Ref sig .tc := ⟨.hbm, 250, rfl⟩
abbrev main_v196 : Ref sig .tc := ⟨.hbm, 251, rfl⟩
abbrev main_v197 : Ref sig .tc := ⟨.hbm, 252, rfl⟩
abbrev main_v198 : Ref sig .tc := ⟨.hbm, 253, rfl⟩
abbrev main_v199 : Ref sig .tc := ⟨.hbm, 254, rfl⟩
abbrev main_v200 : Ref sig .tc := ⟨.hbm, 255, rfl⟩
abbrev main_c_49 : Ref sig .tc := ⟨.hbm, 256, rfl⟩
abbrev main_c_50 : Ref sig .tc := ⟨.hbm, 257, rfl⟩
abbrev main_call1_v0 : Ref sig .tc := ⟨.hbm, 258, rfl⟩
abbrev main_call1_v1 : Ref sig .tc := ⟨.hbm, 259, rfl⟩
abbrev main_v201 : Ref sig .tc := ⟨.hbm, 260, rfl⟩
abbrev main_v202 : Ref sig .tc := ⟨.hbm, 261, rfl⟩
abbrev main_c_51 : Ref sig .tc := ⟨.hbm, 262, rfl⟩
abbrev main_v203 : Ref sig .tc := ⟨.hbm, 263, rfl⟩
abbrev main_c_52 : Ref sig .tc := ⟨.hbm, 264, rfl⟩
abbrev main_v204 : Ref sig .tc := ⟨.hbm, 265, rfl⟩
abbrev main_v205 : Ref sig .tc := ⟨.hbm, 266, rfl⟩
abbrev main_v206 : Ref sig .tc := ⟨.hbm, 267, rfl⟩
abbrev main_v207 : Ref sig .tc := ⟨.hbm, 268, rfl⟩
abbrev main_cst_53 : Ref sig .tc := ⟨.hbm, 269, rfl⟩
abbrev main_v208 : Ref sig .tc := ⟨.hbm, 270, rfl⟩
abbrev main_v209 : Ref sig .tc := ⟨.hbm, 271, rfl⟩
abbrev main_cst_54 : Ref sig .tc := ⟨.hbm, 272, rfl⟩
abbrev main_v210 : Ref sig .tc := ⟨.hbm, 273, rfl⟩
abbrev main_v211 : Ref sig .tc := ⟨.hbm, 274, rfl⟩
abbrev main_cst_55 : Ref sig .tc := ⟨.hbm, 275, rfl⟩
abbrev main_v212 : Ref sig .tc := ⟨.hbm, 276, rfl⟩
abbrev main_v213 : Ref sig .tc := ⟨.hbm, 277, rfl⟩
abbrev main_cst_56 : Ref sig .tc := ⟨.hbm, 278, rfl⟩
abbrev main_v214 : Ref sig .tc := ⟨.hbm, 279, rfl⟩
abbrev main_cst_57 : Ref sig .tc := ⟨.hbm, 280, rfl⟩
abbrev main_v215 : Ref sig .tc := ⟨.hbm, 281, rfl⟩
abbrev main_v216 : Ref sig .tc := ⟨.hbm, 282, rfl⟩
abbrev main_v217 : Ref sig .tc := ⟨.hbm, 283, rfl⟩
abbrev main_cst_58 : Ref sig .tc := ⟨.hbm, 284, rfl⟩
abbrev main_v218 : Ref sig .tc := ⟨.hbm, 285, rfl⟩
abbrev main_v219 : Ref sig .tc := ⟨.hbm, 286, rfl⟩
abbrev main_v220 : Ref sig .tc := ⟨.hbm, 287, rfl⟩
abbrev main_cst_59 : Ref sig .tc := ⟨.hbm, 288, rfl⟩
abbrev main_v221 : Ref sig .tc := ⟨.hbm, 289, rfl⟩
abbrev main_v222 : Ref sig .tc := ⟨.hbm, 290, rfl⟩
abbrev main_v223 : Ref sig .tc := ⟨.hbm, 291, rfl⟩
abbrev main_cst_60 : Ref sig .tc := ⟨.hbm, 292, rfl⟩
abbrev main_v224 : Ref sig .tc := ⟨.hbm, 293, rfl⟩
abbrev main_v225 : Ref sig .tc := ⟨.hbm, 294, rfl⟩
abbrev main_v226 : Ref sig .tc := ⟨.hbm, 295, rfl⟩
abbrev main_v227 : Ref sig .tc := ⟨.hbm, 296, rfl⟩
abbrev main_v228 : Ref sig .tc := ⟨.hbm, 297, rfl⟩
abbrev main_v229 : Ref sig .tc := ⟨.hbm, 298, rfl⟩
abbrev main_v230 : Ref sig .tc := ⟨.hbm, 299, rfl⟩
abbrev main_v231 : Ref sig .tc := ⟨.hbm, 300, rfl⟩
abbrev main_cst_61 : Ref sig .tc := ⟨.hbm, 301, rfl⟩
abbrev main_v232 : Ref sig .tc := ⟨.hbm, 302, rfl⟩
abbrev main_v233 : Ref sig .tc := ⟨.hbm, 303, rfl⟩
abbrev main_v234 : Ref sig .tc := ⟨.hbm, 304, rfl⟩
abbrev main_cst_62 : Ref sig .tc := ⟨.hbm, 305, rfl⟩
abbrev main_v235 : Ref sig .tc := ⟨.hbm, 306, rfl⟩
abbrev main_v236 : Ref sig .tc := ⟨.hbm, 307, rfl⟩
abbrev main_cst_63 : Ref sig .tc := ⟨.hbm, 308, rfl⟩
abbrev main_v237 : Ref sig .tc := ⟨.hbm, 309, rfl⟩
abbrev main_v238 : Ref sig .tc := ⟨.hbm, 310, rfl⟩
abbrev main_v239 : Ref sig .tc := ⟨.hbm, 311, rfl⟩
abbrev main_cst_64 : Ref sig .tc := ⟨.hbm, 312, rfl⟩
abbrev main_v240 : Ref sig .tc := ⟨.hbm, 313, rfl⟩
abbrev main_v241 : Ref sig .tc := ⟨.hbm, 314, rfl⟩
abbrev main_cst_65 : Ref sig .tc := ⟨.hbm, 315, rfl⟩
abbrev main_v242 : Ref sig .tc := ⟨.hbm, 316, rfl⟩
abbrev main_v243 : Ref sig .tc := ⟨.hbm, 317, rfl⟩
abbrev main_v244 : Ref sig .tc := ⟨.hbm, 318, rfl⟩
abbrev main_cst_66 : Ref sig .tc := ⟨.hbm, 319, rfl⟩
abbrev main_v245 : Ref sig .tc := ⟨.hbm, 320, rfl⟩
abbrev main_v246 : Ref sig .tc := ⟨.hbm, 321, rfl⟩
abbrev main_cst_67 : Ref sig .tc := ⟨.hbm, 322, rfl⟩
abbrev main_v247 : Ref sig .tc := ⟨.hbm, 323, rfl⟩
abbrev main_v248 : Ref sig .tc := ⟨.hbm, 324, rfl⟩
abbrev main_v249 : Ref sig .tc := ⟨.hbm, 325, rfl⟩
abbrev main_cst_68 : Ref sig .tc := ⟨.hbm, 326, rfl⟩
abbrev main_v250 : Ref sig .tc := ⟨.hbm, 327, rfl⟩
abbrev main_v251 : Ref sig .tc := ⟨.hbm, 328, rfl⟩
abbrev main_v252 : Ref sig .tc := ⟨.hbm, 329, rfl⟩
abbrev main_v253 : Ref sig .tc := ⟨.hbm, 330, rfl⟩
abbrev main_v254 : Ref sig .tc := ⟨.hbm, 331, rfl⟩
abbrev main_v255 : Ref sig .tc := ⟨.hbm, 332, rfl⟩
abbrev main_v256 : Ref sig .tc := ⟨.hbm, 333, rfl⟩
abbrev main_v257 : Ref sig .tc := ⟨.hbm, 334, rfl⟩
abbrev main_v258 : Ref sig .tc := ⟨.hbm, 335, rfl⟩
abbrev main_v259 : Ref sig .tc := ⟨.hbm, 336, rfl⟩
abbrev main_v260 : Ref sig .tc := ⟨.hbm, 337, rfl⟩
abbrev main_v261 : Ref sig .tc := ⟨.hbm, 338, rfl⟩
abbrev main_v262 : Ref sig .tc := ⟨.hbm, 339, rfl⟩
abbrev main_v263 : Ref sig .tc := ⟨.hbm, 340, rfl⟩
abbrev main_v264 : Ref sig .tc := ⟨.hbm, 341, rfl⟩
abbrev main_v265 : Ref sig .tc := ⟨.hbm, 342, rfl⟩
abbrev main_v266 : Ref sig .tc := ⟨.hbm, 343, rfl⟩
abbrev main_v267 : Ref sig .tc := ⟨.hbm, 344, rfl⟩
abbrev main_v268 : Ref sig .tc := ⟨.hbm, 345, rfl⟩
abbrev main_v269 : Ref sig .tc := ⟨.hbm, 346, rfl⟩
abbrev main_v270 : Ref sig .tc := ⟨.hbm, 347, rfl⟩
abbrev main_v271 : Ref sig .tc := ⟨.hbm, 348, rfl⟩
abbrev main_v272 : Ref sig .tc := ⟨.hbm, 349, rfl⟩
abbrev main_v273 : Ref sig .tc := ⟨.hbm, 350, rfl⟩
abbrev main_v274 : Ref sig .tc := ⟨.hbm, 351, rfl⟩
abbrev main_v275 : Ref sig .tc := ⟨.hbm, 352, rfl⟩
abbrev main_v276 : Ref sig .tc := ⟨.hbm, 353, rfl⟩
abbrev main_v277 : Ref sig .tc := ⟨.hbm, 354, rfl⟩
abbrev main_c_69 : Ref sig .tc := ⟨.hbm, 355, rfl⟩
abbrev main_call2_v0 : Ref sig .tc := ⟨.hbm, 356, rfl⟩
abbrev main_call2_v1 : Ref sig .tc := ⟨.hbm, 357, rfl⟩
abbrev main_v278 : Ref sig .tc := ⟨.hbm, 358, rfl⟩
abbrev main_v279 : Ref sig .tc := ⟨.hbm, 359, rfl⟩
abbrev main_c_70 : Ref sig .tc := ⟨.hbm, 360, rfl⟩
abbrev main_call3_v0 : Ref sig .tc := ⟨.hbm, 361, rfl⟩
abbrev main_call3_v1 : Ref sig .tc := ⟨.hbm, 362, rfl⟩
abbrev main_v280 : Ref sig .tc := ⟨.hbm, 363, rfl⟩
abbrev main_v281 : Ref sig .tc := ⟨.hbm, 364, rfl⟩
abbrev main_v282 : Ref sig .tc := ⟨.hbm, 365, rfl⟩
abbrev main_v283 : Ref sig .tc := ⟨.hbm, 366, rfl⟩
abbrev main_v284 : Ref sig .tc := ⟨.hbm, 367, rfl⟩
abbrev main_v285 : Ref sig .tc := ⟨.hbm, 368, rfl⟩
abbrev main_v286 : Ref sig .tc := ⟨.hbm, 369, rfl⟩
abbrev main_v287 : Ref sig .tc := ⟨.hbm, 370, rfl⟩
abbrev main_v288 : Ref sig .tc := ⟨.hbm, 371, rfl⟩
abbrev main_v289 : Ref sig .tc := ⟨.hbm, 372, rfl⟩
abbrev main_v290 : Ref sig .tc := ⟨.hbm, 373, rfl⟩
abbrev main_v291 : Ref sig .tc := ⟨.hbm, 374, rfl⟩
abbrev main_v292 : Ref sig .tc := ⟨.hbm, 375, rfl⟩
abbrev main_v293 : Ref sig .tc := ⟨.hbm, 376, rfl⟩
abbrev main_v294 : Ref sig .tc := ⟨.hbm, 377, rfl⟩
abbrev main_v295 : Ref sig .tc := ⟨.hbm, 378, rfl⟩
abbrev main_v296 : Ref sig .tc := ⟨.hbm, 379, rfl⟩
abbrev main_v297 : Ref sig .tc := ⟨.hbm, 380, rfl⟩
abbrev main_v298 : Ref sig .tc := ⟨.hbm, 381, rfl⟩
abbrev main_v299 : Ref sig .tc := ⟨.hbm, 382, rfl⟩
abbrev main_v300 : Ref sig .tc := ⟨.hbm, 383, rfl⟩
abbrev main_v301 : Ref sig .tc := ⟨.hbm, 384, rfl⟩
abbrev main_v302 : Ref sig .tc := ⟨.hbm, 385, rfl⟩
abbrev main_v303 : Ref sig .tc := ⟨.hbm, 386, rfl⟩
abbrev main_v304 : Ref sig .tc := ⟨.hbm, 387, rfl⟩
abbrev main_v305 : Ref sig .tc := ⟨.hbm, 388, rfl⟩
abbrev main_cst_71 : Ref sig .tc := ⟨.hbm, 389, rfl⟩
abbrev main_v306 : Ref sig .tc := ⟨.hbm, 390, rfl⟩
abbrev main_v307 : Ref sig .tc := ⟨.hbm, 391, rfl⟩
abbrev main_v308 : Ref sig .tc := ⟨.hbm, 392, rfl⟩
abbrev main_cst_72 : Ref sig .tc := ⟨.hbm, 393, rfl⟩
abbrev main_v309 : Ref sig .tc := ⟨.hbm, 394, rfl⟩
abbrev main_v310 : Ref sig .tc := ⟨.hbm, 395, rfl⟩
abbrev main_cst_73 : Ref sig .tc := ⟨.hbm, 396, rfl⟩
abbrev main_v311 : Ref sig .tc := ⟨.hbm, 397, rfl⟩
abbrev main_cst_74 : Ref sig .tc := ⟨.hbm, 398, rfl⟩
abbrev main_v312 : Ref sig .tc := ⟨.hbm, 399, rfl⟩
abbrev main_cst_75 : Ref sig .tc := ⟨.hbm, 400, rfl⟩
abbrev main_v313 : Ref sig .tc := ⟨.hbm, 401, rfl⟩
abbrev main_v314 : Ref sig .tc := ⟨.hbm, 402, rfl⟩
abbrev main_cst_76 : Ref sig .tc := ⟨.hbm, 403, rfl⟩
abbrev main_v315 : Ref sig .tc := ⟨.hbm, 404, rfl⟩
abbrev main_v316 : Ref sig .tc := ⟨.hbm, 405, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v53 : BitVec 1 := Scalar.cmpi .eq arg0 c15_i32
  let v54 : BitVec 32 := Scalar.extui v53
  let c0_i32_16 : BitVec 32 := 0#32
  let v55 : BitVec 1 := Scalar.cmpi .ne v54 c0_i32_16
  v55

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x85x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

class Facts₀ : Prop where
  inb_S1x2_S1x2_0_0 : ∀ a, (![0, 0] : Fin 2 → Nat) a + S1x2.size a ≤ S1x2.size a
  h_S1x2 : 0 < S1x2.numel
  shapeCasts_S1x2_S1x2 : S1x2.ShapeCasts S1x2
  inb_S1x85x128x128_S1x85x128x128_0_0_0_0 : ∀ a, (![0, 0, 0, 0] : Fin 4 → Nat) a + S1x85x128x128.size a ≤ S1x85x128x128.size a
  h_S1x85x128x128 : 0 < S1x85x128x128.numel
  slices_S1x85x128x128_o0_4_0_0_S1x1x128x128 : S1x85x128x128.Slices ![0, 4, 0, 0] S1x1x128x128
  shapeCasts_S1x1x128x128_S128x128 : S1x1x128x128.ShapeCasts S128x128
  slices_S1x85x128x128_o0_5_0_0_S1x80x128x128 : S1x85x128x128.Slices ![0, 5, 0, 0] S1x80x128x128
  shapeCasts_S1x80x128x128_S80x128x128 : S1x80x128x128.ShapeCasts S80x128x128
  reduces_S128x128_S128 : S128x128.Reduces [1] S128
  shapeCasts_S128_S128x1 : S128.ShapeCasts S128x1
  reduces_S128x1_S1 : S128x1.Reduces [0] S1
  shapeCasts_S1_S1x1 : S1.ShapeCasts S1x1
  reduces_S80x128x128_S80x128 : S80x128x128.Reduces [2] S80x128
  shapeCasts_S80x128_S80x128x1 : S80x128.ShapeCasts S80x128x1
  reduces_S80x128x1_S80x1 : S80x128x1.Reduces [1] S80x1
  shapeCasts_S80x1_S80x1x1 : S80x1.ShapeCasts S80x1x1
  reduces_S80x1x1_S1x1 : S80x1x1.Reduces [0] S1x1
  shapeCasts_S1x1_S1x1x1 : S1x1.ShapeCasts S1x1x1
  shapeCasts_S1x1x1_S1x1 : S1x1x1.ShapeCasts S1x1
  concatenates_S1x1_S1x1_S1x2_d1 : Shape.Concatenates [S1x1, S1x1] S1x2 1
  slices_S1x2_S1x1_0_0 : S1x2.Slices ![0, 0] S1x1
  shapeCasts_S1x1_S_ : S1x1.ShapeCasts S_
  slices_S1x2_S1x1_0_1 : S1x2.Slices ![0, 1] S1x1
  slices_S16x64x5_S16x64x1_0_0_0 : S16x64x5.Slices ![0, 0, 0] S16x64x1
  shapeCasts_S16x64x1_S16x64 : S16x64x1.ShapeCasts S16x64
  slices_S16x64x5_S16x64x1_0_0_1 : S16x64x5.Slices ![0, 0, 1] S16x64x1
  slices_S16x64x5_S16x64x1_0_0_2 : S16x64x5.Slices ![0, 0, 2] S16x64x1
  slices_S16x64x5_S16x64x1_0_0_3 : S16x64x5.Slices ![0, 0, 3] S16x64x1
  slices_S16x64x5_S16x64x1_0_0_4 : S16x64x5.Slices ![0, 0, 4] S16x64x1
  bcast_S_S16x64 : S_.BroadcastsInDim S16x64 (![] : Fin 0 → Fin S16x64.rank)
  bcast_S16_S16x1_0 : S16.BroadcastsInDim S16x1 (![0] : Fin 1 → Fin S16x1.rank)
  bcast_S16x1_S16x64_0_1 : S16x1.BroadcastsInDim S16x64 (![0, 1] : Fin 2 → Fin S16x64.rank)
  bcast_S16x64_S16x64x1_0_1 : S16x64.BroadcastsInDim S16x64x1 (![0, 1] : Fin 2 → Fin S16x64x1.rank)
  concatenates_S16x64x1_S16x64x1_S16x64x1_S16x64x1_S16x64x4_d2 : Shape.Concatenates [S16x64x1, S16x64x1, S16x64x1, S16x64x1] S16x64x4 2
  bcast_S64_S64x1_0 : S64.BroadcastsInDim S64x1 (![0] : Fin 1 → Fin S64x1.rank)
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  bcast_S64x1_S64x64_0_1 : S64x1.BroadcastsInDim S64x64 (![0, 1] : Fin 2 → Fin S64x64.rank)
  bcast_S16x64_S16x1x64_0_2 : S16x64.BroadcastsInDim S16x1x64 (![0, 2] : Fin 2 → Fin S16x1x64.rank)
  bcast_S16x64x1_S16x64x64_0_1_2 : S16x64x1.BroadcastsInDim S16x64x64 (![0, 1, 2] : Fin 3 → Fin S16x64x64.rank)
  bcast_S16x1x64_S16x64x64_0_1_2 : S16x1x64.BroadcastsInDim S16x64x64 (![0, 1, 2] : Fin 3 → Fin S16x64x64.rank)
  bcast_S64x64_S1x64x64_1_2 : S64x64.BroadcastsInDim S1x64x64 (![1, 2] : Fin 2 → Fin S1x64x64.rank)
  bcast_S1x64x64_S16x64x64_0_1_2 : S1x64x64.BroadcastsInDim S16x64x64 (![0, 1, 2] : Fin 3 → Fin S16x64x64.rank)
  bcast_S_S16x64x64 : S_.BroadcastsInDim S16x64x64 (![] : Fin 0 → Fin S16x64x64.rank)
  reducesTo_S16x64x64_S16x64_d2 : S16x64x64.ReducesTo [2] S16x64
  h_S_ : 0 < S_.numel
  reducesTo_S16x64_S_d0_1 : S16x64.ReducesTo [0, 1] S_
  slices_S16x64x4_S16x64x1_0_0_0 : S16x64x4.Slices ![0, 0, 0] S16x64x1
  slices_S16x64x4_S16x64x1_0_0_1 : S16x64x4.Slices ![0, 0, 1] S16x64x1
  slices_S16x64x4_S16x64x1_0_0_2 : S16x64x4.Slices ![0, 0, 2] S16x64x1
  slices_S16x64x4_S16x64x1_0_0_3 : S16x64x4.Slices ![0, 0, 3] S16x64x1
  gather_S16x85x128x128_S16x64x4_S16x64_n_0123_n_n_0123_2_1111_wf : GatherDims.WF S16x85x128x128 S16x64x4 S16x64 [] [0, 1, 2, 3] [] [0, 1, 2, 3] [] 2 ![1, 1, 1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x85x128x128.size a ≤ S16x85x128x128.size a
  hwx0_0 : ∀ i : grid0.Coords, EltTy.bits .f32 = 32 ∨ (Rect.block (s := S16x85x128x128) S1x85x128x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2.size a ≤ S1x2.size a
  hwx0_1 : ∀ i : grid0.Coords, EltTy.bits .f32 = 32 ∨ (Rect.block (s := S1x2) S1x2.size (cc0_transform_1 i) (hinb0_1 i)).WholeWords (EltTy.packing .f32)

variable [Facts₀]

def gather_S16x85x128x128_S16x64x4_S16x64_n_0123_n_n_0123_2_1111 : GatherDims S16x85x128x128 S16x64x4 S16x64 where
  offsetDims := []
  collapsedSliceDims := [0, 1, 2, 3]
  operandBatchingDims := []
  startIndicesBatchingDims := []
  startIndexMap := [0, 1, 2, 3]
  indexVectorDim := 2
  sliceSizes := ![1, 1, 1, 1]
  wf := gather_S16x85x128x128_S16x64x4_S16x64_n_0123_n_n_0123_2_1111_wf

abbrev win0_0 : Pipeline.Window sig grid0 :=
  Pipeline.Window.ofSpec (Memref.whole main_arg0) S1x85x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x2.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S16x85x128x128 : Shape := ⟨4, ![16, 85, 128, 128]⟩
abbrev S16x64x5 : Shape := ⟨3, ![16, 64, 5]⟩
abbrev S16x128x128x85 : Shape := ⟨4, ![16, 128, 128, 85]⟩
abbrev S16x16384x85 : Shape := ⟨3, ![16, 16384, 85]⟩
abbrev S16x64x1 : Shape := ⟨3, ![16, 64, 1]⟩
abbrev S16x64 : Shape := ⟨2, ![16, 64]⟩
abbrev S_ : Shape := ⟨0, ![]⟩
abbrev S16 : Shape := ⟨1, ![16]⟩
abbrev S16x1 : Shape := ⟨2, ![16, 1]⟩
abbrev S16x16384 : Shape := ⟨2, ![16, 16384]⟩
abbrev S16x64x2 : Shape := ⟨3, ![16, 64, 2]⟩
abbrev S16x16384x80 : Shape := ⟨3, ![16, 16384, 80]⟩
abbrev S16x64x3 : Shape := ⟨3, ![16, 64, 3]⟩
abbrev S16x16384x4 : Shape := ⟨3, ![16, 16384, 4]⟩
abbrev S1 : Shape := ⟨1, ![1]⟩
abbrev S1x1x1 : Shape := ⟨3, ![1, 1, 1]⟩
abbrev S16x64x4 : Shape := ⟨3, ![16, 64, 4]⟩
abbrev S16x16384x1 : Shape := ⟨3, ![16, 16384, 1]⟩

abbrev nBuf : Space → Nat
  | .hbm => 290
  | .vmem => 0
  | .smem => 0
  | _ => 0

abbrev hbmTy0_0 (i : Nat) : BufTy := match i % 128 with
  | 0 => ⟨S16x85x128x128, .f32⟩
  | 1 => ⟨S16x64x5, .f32⟩
  | 2 => ⟨S16x128x128x85, .f32⟩
  | 3 => ⟨S16x16384x85, .f32⟩
  | 4 => ⟨S16x64x1, .f32⟩
  | 5 => ⟨S16x64, .f32⟩
  | 6 => ⟨S16x64, .i32⟩
  | 7 => ⟨S16x64x1, .f32⟩
  | 8 => ⟨S16x64, .f32⟩
  | 9 => ⟨S16x64x1, .f32⟩
  | 10 => ⟨S16x64, .f32⟩
  | 11 => ⟨S16x64x1, .f32⟩
  | 12 => ⟨S16x64, .f32⟩
  | 13 => ⟨S16x64x1, .f32⟩
  | 14 => ⟨S16x64, .f32⟩
  | 15 => ⟨S_, .f32⟩
  | 16 => ⟨S16x64, .f32⟩
  | 17 => ⟨S16x64, .f32⟩
  | 18 => ⟨S16x64, .i32⟩
  | 19 => ⟨S_, .f32⟩
  | 20 => ⟨S16x64, .f32⟩
  | 21 => ⟨S16x64, .f32⟩
  | 22 => ⟨S16x64, .i32⟩
  | 23 => ⟨S_, .i32⟩
  | 24 => ⟨S16x64, .i32⟩
  | 25 => ⟨S16x64, .i32⟩
  | 26 => ⟨S16x64, .i32⟩
  | 27 => ⟨S16, .i32⟩
  | 28 => ⟨S16x1, .i32⟩
  | 29 => ⟨S_, .f32⟩
  | 30 => ⟨S16x16384, .f32⟩
  | 31 => ⟨S_, .i32⟩
  | 32 => ⟨S16x1, .i32⟩
  | 33 => ⟨S16x1, .i1⟩
  | 34 => ⟨S_, .i32⟩
  | 35 => ⟨S16x1, .i32⟩
  | 36 => ⟨S16x1, .i32⟩
  | 37 => ⟨S16x1, .i32⟩
  | 38 => ⟨S_, .i32⟩
  | 39 => ⟨S16x64, .i32⟩
  | 40 => ⟨S16x64, .i1⟩
  | 41 => ⟨S_, .i32⟩
  | 42 => ⟨S16x64, .i32⟩
  | 43 => ⟨S16x64, .i32⟩
  | 44 => ⟨S16x64, .i32⟩
  | 45 => ⟨S16x64, .i32⟩
  | 46 => ⟨S16x64x1, .i32⟩
  | 47 => ⟨S16x64x1, .i32⟩
  | 48 => ⟨S16x64x2, .i32⟩
  | 49 => ⟨S_, .f32⟩
  | 50 => ⟨S16x64, .f32⟩
  | 51 => ⟨S16x16384, .f32⟩
  | 52 => ⟨S_, .f32⟩
  | 53 => ⟨S16x16384x80, .f32⟩
  | 54 => ⟨S_, .i32⟩
  | 55 => ⟨S16x1, .i32⟩
  | 56 => ⟨S16x1, .i1⟩
  | 57 => ⟨S_, .i32⟩
  | 58 => ⟨S16x1, .i32⟩
  | 59 => ⟨S16x1, .i32⟩
  | 60 => ⟨S16x1, .i32⟩
  | 61 => ⟨S_, .i32⟩
  | 62 => ⟨S16x64, .i32⟩
  | 63 => ⟨S16x64, .i1⟩
  | 64 => ⟨S_, .i32⟩
  | 65 => ⟨S16x64, .i32⟩
  | 66 => ⟨S16x64, .i32⟩
  | 67 => ⟨S16x64, .i32⟩
  | 68 => ⟨S_, .i32⟩
  | 69 => ⟨S16x64, .i32⟩
  | 70 => ⟨S16x64, .i1⟩
  | 71 => ⟨S_, .i32⟩
  | 72 => ⟨S16x64, .i32⟩
  | 73 => ⟨S16x64, .i32⟩
  | 74 => ⟨S16x64, .i32⟩
  | 75 => ⟨S16x64, .i32⟩
  | 76 => ⟨S16x64x1, .i32⟩
  | 77 => ⟨S16x64x1, .i32⟩
  | 78 => ⟨S16x64x1, .i32⟩
  | 79 => ⟨S16x64x3, .i32⟩
  | 80 => ⟨S_, .f32⟩
  | 81 => ⟨S16x64, .f32⟩
  | 82 => ⟨S16x16384x80, .f32⟩
  | 83 => ⟨S16x16384x4, .f32⟩
  | 84 => ⟨S16x64x1, .i32⟩
  | 85 => ⟨S_, .i32⟩
  | 86 => ⟨S16x64x1, .i32⟩
  | 87 => ⟨S16x64x1, .i1⟩
  | 88 => ⟨S_, .i32⟩
  | 89 => ⟨S16x64x1, .i32⟩
  | 90 => ⟨S16x64x1, .i32⟩
  | 91 => ⟨S16x64x1, .i32⟩
  | 92 => ⟨S1, .i32⟩
  | 93 => ⟨S_, .i32⟩
  | 94 => ⟨S16x64x1, .i32⟩
  | 95 => ⟨S16x64x1, .i1⟩
  | 96 => ⟨S1x1x1, .i32⟩
  | 97 => ⟨S16x64x1, .i32⟩
  | 98 => ⟨S16x64x1, .i1⟩
  | 99 => ⟨S16x64x1, .i1⟩
  | 100 => ⟨S_, .i1⟩
  | 101 => ⟨S16x64, .i1⟩
  | 102 => ⟨S16x64x4, .f32⟩
  | 103 => ⟨S16x64x4, .i1⟩
  | 104 => ⟨S_, .f32⟩
  | 105 => ⟨S16x64x4, .f32⟩
  | 106 => ⟨S16x64x4, .f32⟩
  | 107 => ⟨S16x64x1, .f32⟩
  | 108 => ⟨S16x64, .f32⟩
  | 109 => ⟨S16x64x1, .f32⟩
  | 110 => ⟨S16x64, .f32⟩
  | 111 => ⟨S16x64x1, .f32⟩
  | 112 => ⟨S16x64, .f32⟩
  | 113 => ⟨S16x64x1, .f32⟩
  | 114 => ⟨S16x64, .f32⟩
  | 115 => ⟨S_, .f32⟩
  | 116 => ⟨S16x64, .f32⟩
  | 117 => ⟨S16x64, .f32⟩
  | 118 => ⟨S16x64, .f32⟩
  | 119 => ⟨S_, .f32⟩
  | 120 => ⟨S16x64, .f32⟩
  | 121 => ⟨S16x64, .f32⟩
  | 122 => ⟨S16x64, .f32⟩
  | 123 => ⟨S_, .f32⟩
  | 124 => ⟨S16x64, .f32⟩
  | 125 => ⟨S16x64, .f32⟩
  | 126 => ⟨S16x64, .f32⟩
  | 127 => ⟨S_, .f32⟩
  | _ => ⟨S16x85x128x128, .f32⟩

abbrev hbmTy0_1 (i : Nat) : BufTy := match i % 128 with
  | 0 => ⟨S16x64, .f32⟩
  | 1 => ⟨S16x64, .f32⟩
  | 2 => ⟨S16x64, .f32⟩
  | 3 => ⟨S16x64x1, .f32⟩
  | 4 => ⟨S16x64x1, .f32⟩
  | 5 => ⟨S16x64x1, .f32⟩
  | 6 => ⟨S16x64x1, .f32⟩
  | 7 => ⟨S16x64x4, .f32⟩
  | 8 => ⟨S_, .f32⟩
  | 9 => ⟨S16x64, .f32⟩
  | 10 => ⟨S16x64, .f32⟩
  | 11 => ⟨S16x64, .f32⟩
  | 12 => ⟨S_, .f32⟩
  | 13 => ⟨S16x64, .f32⟩
  | 14 => ⟨S16x64, .f32⟩
  | 15 => ⟨S_, .f32⟩
  | 16 => ⟨S16x64, .f32⟩
  | 17 => ⟨S16x64, .f32⟩
  | 18 => ⟨S16x64, .f32⟩
  | 19 => ⟨S_, .f32⟩
  | 20 => ⟨S16x64, .f32⟩
  | 21 => ⟨S16x64, .f32⟩
  | 22 => ⟨S_, .f32⟩
  | 23 => ⟨S16x64, .f32⟩
  | 24 => ⟨S16x64, .f32⟩
  | 25 => ⟨S16x64, .f32⟩
  | 26 => ⟨S_, .f32⟩
  | 27 => ⟨S16x64, .f32⟩
  | 28 => ⟨S16x64, .f32⟩
  | 29 => ⟨S_, .f32⟩
  | 30 => ⟨S16x64, .f32⟩
  | 31 => ⟨S16x64, .f32⟩
  | 32 => ⟨S16x64, .f32⟩
  | 33 => ⟨S_, .f32⟩
  | 34 => ⟨S16x64, .f32⟩
  | 35 => ⟨S16x64, .f32⟩
  | 36 => ⟨S16x64x1, .f32⟩
  | 37 => ⟨S16x64x1, .f32⟩
  | 38 => ⟨S16x64x1, .f32⟩
  | 39 => ⟨S16x64x1, .f32⟩
  | 40 => ⟨S16x64x4, .f32⟩
  | 41 => ⟨S16x64x1, .f32⟩
  | 42 => ⟨S16x64, .f32⟩
  | 43 => ⟨S16x64x1, .f32⟩
  | 44 => ⟨S16x64, .f32⟩
  | 45 => ⟨S16x64, .f32⟩
  | 46 => ⟨S16x64x1, .f32⟩
  | 47 => ⟨S16x64, .f32⟩
  | 48 => ⟨S16x64x1, .f32⟩
  | 49 => ⟨S16x64, .f32⟩
  | 50 => ⟨S16x64, .f32⟩
  | 51 => ⟨S16x64x1, .f32⟩
  | 52 => ⟨S16x64, .f32⟩
  | 53 => ⟨S16x64x1, .f32⟩
  | 54 => ⟨S16x64, .f32⟩
  | 55 => ⟨S16x64, .f32⟩
  | 56 => ⟨S16x64x1, .f32⟩
  | 57 => ⟨S16x64, .f32⟩
  | 58 => ⟨S16x64x1, .f32⟩
  | 59 => ⟨S16x64, .f32⟩
  | 60 => ⟨S16x64, .f32⟩
  | 61 => ⟨S16x64, .f32⟩
  | 62 => ⟨S_, .i32⟩
  | 63 => ⟨S_, .f32⟩
  | 64 => ⟨S16x64, .f32⟩
  | 65 => ⟨S16x64, .f32⟩
  | 66 => ⟨S16x64, .f32⟩
  | 67 => ⟨S_, .i32⟩
  | 68 => ⟨S_, .f32⟩
  | 69 => ⟨S16x64, .f32⟩
  | 70 => ⟨S16x64, .f32⟩
  | 71 => ⟨S16x64, .f32⟩
  | 72 => ⟨S16x64x1, .f32⟩
  | 73 => ⟨S16x64, .f32⟩
  | 74 => ⟨S16x64x1, .f32⟩
  | 75 => ⟨S16x64, .f32⟩
  | 76 => ⟨S16x64, .f32⟩
  | 77 => ⟨S16x64x1, .f32⟩
  | 78 => ⟨S16x64, .f32⟩
  | 79 => ⟨S16x64x1, .f32⟩
  | 80 => ⟨S16x64, .f32⟩
  | 81 => ⟨S16x64, .f32⟩
  | 82 => ⟨S16x64, .f32⟩
  | 83 => ⟨S16x64x1, .f32⟩
  | 84 => ⟨S16x64, .f32⟩
  | 85 => ⟨S16x64x1, .f32⟩
  | 86 => ⟨S16x64, .f32⟩
  | 87 => ⟨S16x64, .f32⟩
  | 88 => ⟨S16x64x1, .f32⟩
  | 89 => ⟨S16x64, .f32⟩
  | 90 => ⟨S16x64x1, .f32⟩
  | 91 => ⟨S16x64, .f32⟩
  | 92 => ⟨S16x64, .f32⟩
  | 93 => ⟨S16x64, .f32⟩
  | 94 => ⟨S16x64, .f32⟩
  | 95 => ⟨S16x64, .f32⟩
  | 96 => ⟨S_, .f32⟩
  | 97 => ⟨S16x64, .f32⟩
  | 98 => ⟨S16x64, .f32⟩
  | 99 => ⟨S16x64, .f32⟩
  | 100 => ⟨S_, .f32⟩
  | 101 => ⟨S16x64, .f32⟩
  | 102 => ⟨S16x64, .f32⟩
  | 103 => ⟨S_, .f32⟩
  | 104 => ⟨S_, .f32⟩
  | 105 => ⟨S16x16384x1, .f32⟩
  | 106 => ⟨S16x16384, .f32⟩
  | 107 => ⟨S_, .f32⟩
  | 108 => ⟨S16x16384, .f32⟩
  | 109 => ⟨S16x16384, .f32⟩
  | 110 => ⟨S16x16384, .f32⟩
  | 111 => ⟨S16x16384, .f32⟩
  | 112 => ⟨S16x16384, .i1⟩
  | 113 => ⟨S16x16384, .f32⟩
  | 114 => ⟨S16x16384, .f32⟩
  | 115 => ⟨S16x16384, .f32⟩
  | 116 => ⟨S16x16384, .f32⟩
  | 117 => ⟨S16x16384, .f32⟩
  | 118 => ⟨S16x16384, .f32⟩
  | 119 => ⟨S16x16384, .f32⟩
  | 120 => ⟨S16x16384, .f32⟩
  | 121 => ⟨S16x16384, .f32⟩
  | 122 => ⟨S16x16384, .f32⟩
  | 123 => ⟨S_, .f32⟩
  | 124 => ⟨S16, .f32⟩
  | 125 => ⟨S_, .f32⟩
  | 126 => ⟨S16, .f32⟩
  | 127 => ⟨S16, .f32⟩
  | _ => ⟨S16x85x128x128, .f32⟩

abbrev hbmTy0_2 (i : Nat) : BufTy := match i % 128 with
  | 0 => ⟨S_, .f32⟩
  | 1 => ⟨S_, .f32⟩
  | 2 => ⟨S16x16384x80, .f32⟩
  | 3 => ⟨S_, .f32⟩
  | 4 => ⟨S16x16384x80, .f32⟩
  | 5 => ⟨S16x16384x80, .f32⟩
  | 6 => ⟨S16x16384x80, .f32⟩
  | 7 => ⟨S16x16384x80, .f32⟩
  | 8 => ⟨S16x16384x80, .i1⟩
  | 9 => ⟨S16x16384x80, .f32⟩
  | 10 => ⟨S16x16384x80, .f32⟩
  | 11 => ⟨S16x16384x80, .f32⟩
  | 12 => ⟨S16x16384x80, .f32⟩
  | 13 => ⟨S16x16384x80, .f32⟩
  | 14 => ⟨S16x16384x80, .f32⟩
  | 15 => ⟨S16x16384x80, .f32⟩
  | 16 => ⟨S16x16384x80, .f32⟩
  | 17 => ⟨S16x16384x80, .f32⟩
  | 18 => ⟨S16x16384x80, .f32⟩
  | 19 => ⟨S_, .f32⟩
  | 20 => ⟨S16, .f32⟩
  | 21 => ⟨S_, .f32⟩
  | 22 => ⟨S16, .f32⟩
  | 23 => ⟨S16, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | _ => ⟨S16x85x128x128, .f32⟩

abbrev hbmTy (i : Nat) : BufTy := match i / 128 with
  | 0 => hbmTy0_0 i
  | 1 => hbmTy0_1 i
  | 2 => hbmTy0_2 i
  | _ => ⟨S16x85x128x128, .f32⟩

abbrev bufTy : (tb : Table) → Fin (tcTables nBuf tb) → BufTy
  | .hbm, ⟨i, _⟩ => hbmTy i
  | _, _ => ⟨S16x85x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst_0 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_c : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_1 : Ref sig .tc := ⟨.hbm, 29, rfl⟩
abbrev main_v24 : Ref sig .tc := ⟨.hbm, 30, rfl⟩
abbrev main_c_2 : Ref sig .tc := ⟨.hbm, 31, rfl⟩
abbrev main_v25 : Ref sig .tc := ⟨.hbm, 32, rfl⟩
abbrev main_v26 : Ref sig .tc := ⟨.hbm, 33, rfl⟩
abbrev main_c_3 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_c_4 : Ref sig .tc := ⟨.hbm, 38, rfl⟩
abbrev main_v30 : Ref sig .tc := ⟨.hbm, 39, rfl⟩
abbrev main_v31 : Ref sig .tc := ⟨.hbm, 40, rfl⟩
abbrev main_c_5 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_6 : Ref sig .tc := ⟨.hbm, 49, rfl⟩
abbrev main_v39 : Ref sig .tc := ⟨.hbm, 50, rfl⟩
abbrev main_v40 : Ref sig .tc := ⟨.hbm, 51, rfl⟩
abbrev main_cst_7 : Ref sig .tc := ⟨.hbm, 52, rfl⟩
abbrev main_v41 : Ref sig .tc := ⟨.hbm, 53, rfl⟩
abbrev main_c_8 : Ref sig .tc := ⟨.hbm, 54, rfl⟩
abbrev main_v42 : Ref sig .tc := ⟨.hbm, 55, rfl⟩
abbrev main_v43 : Ref sig .tc := ⟨.hbm, 56, rfl⟩
abbrev main_c_9 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_c_10 : Ref sig .tc := ⟨.hbm, 61, rfl⟩
abbrev main_v47 : Ref sig .tc := ⟨.hbm, 62, rfl⟩
abbrev main_v48 : Ref sig .tc := ⟨.hbm, 63, rfl⟩
abbrev main_c_11 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_c_12 : Ref sig .tc := ⟨.hbm, 68, rfl⟩
abbrev main_v52 : Ref sig .tc := ⟨.hbm, 69, rfl⟩
abbrev main_v53 : Ref sig .tc := ⟨.hbm, 70, rfl⟩
abbrev main_c_13 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_14 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_call0_c : Ref sig .tc := ⟨.hbm, 85, rfl⟩
abbrev main_call0_v0 : Ref sig .tc := ⟨.hbm, 86, rfl⟩
abbrev main_call0_v1 : Ref sig .tc := ⟨.hbm, 87, rfl⟩
abbrev main_call0_c_0 : Ref sig .tc := ⟨.hbm, 88, rfl⟩
abbrev main_call0_v2 : Ref sig .tc := ⟨.hbm, 89, rfl⟩
abbrev main_call0_v3 : Ref sig .tc := ⟨.hbm, 90, rfl⟩
abbrev main_call0_v4 : Ref sig .tc := ⟨.hbm, 91, rfl⟩
abbrev main_call0_c_1 : Ref sig .tc := ⟨.hbm, 92, rfl⟩
abbrev main_call0_c_2 : Ref sig .tc := ⟨.hbm, 93, rfl⟩
abbrev main_call0_v5 : Ref sig .tc := ⟨.hbm, 94, rfl⟩
abbrev main_call0_v6 : Ref sig .tc := ⟨.hbm, 95, rfl⟩
abbrev main_call0_v7 : Ref sig .tc := ⟨.hbm, 96, rfl⟩
abbrev main_call0_v8 : Ref sig .tc := ⟨.hbm, 97, rfl⟩
abbrev main_call0_v9 : Ref sig .tc := ⟨.hbm, 98, rfl⟩
abbrev main_call0_v10 : Ref sig .tc := ⟨.hbm, 99, rfl⟩
abbrev main_call0_c_3 : Ref sig .tc := ⟨.hbm, 100, rfl⟩
abbrev main_call0_v11 : Ref sig .tc := ⟨.hbm, 101, rfl⟩
abbrev main_call0_v12 : Ref sig .tc := ⟨.hbm, 102, rfl⟩
abbrev main_call0_v13 : Ref sig .tc := ⟨.hbm, 103, rfl⟩
abbrev main_call0_cst : Ref sig .tc := ⟨.hbm, 104, rfl⟩
abbrev main_call0_v14 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_cst_15 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_cst_16 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_cst_17 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_cst_18 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_cst_19 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_cst_20 : Ref sig .tc := ⟨.hbm, 140, rfl⟩
abbrev main_v95 : Ref sig .tc := ⟨.hbm, 141, rfl⟩
abbrev main_v96 : Ref sig .tc := ⟨.hbm, 142, rfl⟩
abbrev main_cst_21 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_cst_22 : Ref sig .tc := ⟨.hbm, 147, rfl⟩
abbrev main_v100 : Ref sig .tc := ⟨.hbm, 148, rfl⟩
abbrev main_v101 : Ref sig .tc := ⟨.hbm, 149, rfl⟩
abbrev main_cst_23 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_cst_24 : Ref sig .tc := ⟨.hbm, 154, rfl⟩
abbrev main_v105 : Ref sig .tc := ⟨.hbm, 155, rfl⟩
abbrev main_v106 : Ref sig .tc := ⟨.hbm, 156, rfl⟩
abbrev main_cst_25 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_cst_26 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_c_27 : Ref sig .tc := ⟨.hbm, 190, rfl⟩
abbrev main_call1_v0 : Ref sig .tc := ⟨.hbm, 191, rfl⟩
abbrev main_call1_v1 : Ref sig .tc := ⟨.hbm, 192, rfl⟩
abbrev main_v138 : Ref sig .tc := ⟨.hbm, 193, rfl⟩
abbrev main_v139 : Ref sig .tc := ⟨.hbm, 194, rfl⟩
abbrev main_c_28 : Ref sig .tc := ⟨.hbm, 195, rfl⟩
abbrev main_call2_v0 : Ref sig .tc := ⟨.hbm, 196, rfl⟩
abbrev main_call2_v1 : Ref sig .tc := ⟨.hbm, 197, rfl⟩
abbrev main_v140 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_v149 : Ref sig .tc := ⟨.hbm, 207, rfl⟩
abbrev main_v150 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_v154 : Ref sig .tc := ⟨.hbm, 212, rfl⟩
abbrev main_v155 : Ref sig .tc := ⟨.hbm, 213, rfl⟩
abbrev main_v156 : Ref sig .tc := ⟨.hbm, 214, rfl⟩
abbrev main_v157 : Ref sig .tc := ⟨.hbm, 215, rfl⟩
abbrev main_v158 : Ref sig .tc := ⟨.hbm, 216, rfl⟩
abbrev main_v159 : Ref sig .tc := ⟨.hbm, 217, rfl⟩
abbrev main_v160 : Ref sig .tc := ⟨.hbm, 218, rfl⟩
abbrev main_v161 : Ref sig .tc := ⟨.hbm, 219, rfl⟩
abbrev main_v162 : Ref sig .tc := ⟨.hbm, 220, rfl⟩
abbrev main_v163 : Ref sig .tc := ⟨.hbm, 221, rfl⟩
abbrev main_v164 : Ref sig .tc := ⟨.hbm, 222, rfl⟩
abbrev main_v165 : Ref sig .tc := ⟨.hbm, 223, rfl⟩
abbrev main_cst_29 : Ref sig .tc := ⟨.hbm, 224, rfl⟩
abbrev main_v166 : Ref sig .tc := ⟨.hbm, 225, rfl⟩
abbrev main_v167 : Ref sig .tc := ⟨.hbm, 226, rfl⟩
abbrev main_v168 : Ref sig .tc := ⟨.hbm, 227, rfl⟩
abbrev main_cst_30 : Ref sig .tc := ⟨.hbm, 228, rfl⟩
abbrev main_v169 : Ref sig .tc := ⟨.hbm, 229, rfl⟩
abbrev main_v170 : Ref sig .tc := ⟨.hbm, 230, rfl⟩
abbrev main_cst_31 : Ref sig .tc := ⟨.hbm, 231, rfl⟩
abbrev main_v171 : Ref sig .tc := ⟨.hbm, 232, rfl⟩
abbrev main_v172 : Ref sig .tc := ⟨.hbm, 233, rfl⟩
abbrev main_v173 : Ref sig .tc := ⟨.hbm, 234, rfl⟩
abbrev main_call3_cst : Ref sig .tc := ⟨.hbm, 235, rfl⟩
abbrev main_call3_v0 : Ref sig .tc := ⟨.hbm, 236, rfl⟩
abbrev main_call3_v1 : Ref sig .tc := ⟨.hbm, 237, rfl⟩
abbrev main_call3_v2 : Ref sig .tc := ⟨.hbm, 238, rfl⟩
abbrev main_call3_v3 : Ref sig .tc := ⟨.hbm, 239, rfl⟩
abbrev main_call3_v4 : Ref sig .tc := ⟨.hbm, 240, rfl⟩
abbrev main_call3_v5 : Ref sig .tc := ⟨.hbm, 241, rfl⟩
abbrev main_call3_v6 : Ref sig .tc := ⟨.hbm, 242, rfl⟩
abbrev main_call3_v7 : Ref sig .tc := ⟨.hbm, 243, rfl⟩
abbrev main_call3_v8 : Ref sig .tc := ⟨.hbm, 244, rfl⟩
abbrev main_call3_v9 : Ref sig .tc := ⟨.hbm, 245, rfl⟩
abbrev main_call3_v10 : Ref sig .tc := ⟨.hbm, 246, rfl⟩
abbrev main_call3_v11 : Ref sig .tc := ⟨.hbm, 247, rfl⟩
abbrev main_v174 : Ref sig .tc := ⟨.hbm, 248, rfl⟩
abbrev main_v175 : Ref sig .tc := ⟨.hbm, 249, rfl⟩
abbrev main_v176 : Ref sig .tc := ⟨.hbm, 250, rfl⟩
abbrev main_cst_32 : Ref sig .tc := ⟨.hbm, 251, rfl⟩
abbrev main_v177 : Ref sig .tc := ⟨.hbm, 252, rfl⟩
abbrev main_cst_33 : Ref sig .tc := ⟨.hbm, 253, rfl⟩
abbrev main_v178 : Ref sig .tc := ⟨.hbm, 254, rfl⟩
abbrev main_v179 : Ref sig .tc := ⟨.hbm, 255, rfl⟩
abbrev main_cst_34 : Ref sig .tc := ⟨.hbm, 256, rfl⟩
abbrev main_v180 : Ref sig .tc := ⟨.hbm, 257, rfl⟩
abbrev main_v181 : Ref sig .tc := ⟨.hbm, 258, rfl⟩
abbrev main_call4_cst : Ref sig .tc := ⟨.hbm, 259, rfl⟩
abbrev main_call4_v0 : Ref sig .tc := ⟨.hbm, 260, rfl⟩
abbrev main_call4_v1 : Ref sig .tc := ⟨.hbm, 261, rfl⟩
abbrev main_call4_v2 : Ref sig .tc := ⟨.hbm, 262, rfl⟩
abbrev main_call4_v3 : Ref sig .tc := ⟨.hbm, 263, rfl⟩
abbrev main_call4_v4 : Ref sig .tc := ⟨.hbm, 264, rfl⟩
abbrev main_call4_v5 : Ref sig .tc := ⟨.hbm, 265, rfl⟩
abbrev main_call4_v6 : Ref sig .tc := ⟨.hbm, 266, rfl⟩
abbrev main_call4_v7 : Ref sig .tc := ⟨.hbm, 267, rfl⟩
abbrev main_call4_v8 : Ref sig .tc := ⟨.hbm, 268, rfl⟩
abbrev main_call4_v9 : Ref sig .tc := ⟨.hbm, 269, rfl⟩
abbrev main_call4_v10 : Ref sig .tc := ⟨.hbm, 270, rfl⟩
abbrev main_call4_v11 : Ref sig .tc := ⟨.hbm, 271, rfl⟩
abbrev main_v182 : Ref sig .tc := ⟨.hbm, 272, rfl⟩
abbrev main_v183 : Ref sig .tc := ⟨.hbm, 273, rfl⟩
abbrev main_v184 : Ref sig .tc := ⟨.hbm, 274, rfl⟩
abbrev main_cst_35 : Ref sig .tc := ⟨.hbm, 275, rfl⟩
abbrev main_v185 : Ref sig .tc := ⟨.hbm, 276, rfl⟩
abbrev main_cst_36 : Ref sig .tc := ⟨.hbm, 277, rfl⟩
abbrev main_v186 : Ref sig .tc := ⟨.hbm, 278, rfl⟩
abbrev main_v187 : Ref sig .tc := ⟨.hbm, 279, rfl⟩
abbrev main_cst_37 : Ref sig .tc := ⟨.hbm, 280, rfl⟩
abbrev main_v188 : Ref sig .tc := ⟨.hbm, 281, rfl⟩
abbrev main_cst_38 : Ref sig .tc := ⟨.hbm, 282, rfl⟩
abbrev main_v189 : Ref sig .tc := ⟨.hbm, 283, rfl⟩
abbrev main_cst_39 : Ref sig .tc := ⟨.hbm, 284, rfl⟩
abbrev main_v190 : Ref sig .tc := ⟨.hbm, 285, rfl⟩
abbrev main_v191 : Ref sig .tc := ⟨.hbm, 286, rfl⟩
abbrev main_cst_40 : Ref sig .tc := ⟨.hbm, 287, rfl⟩
abbrev main_v192 : Ref sig .tc := ⟨.hbm, 288, rfl⟩
abbrev main_v193 : Ref sig .tc := ⟨.hbm, 289, rfl⟩

abbrev nD : Nat := 1
abbrev τ : Topo := Topo.v7x

variable {F : FTy → Type} [FloatOps F]

class Facts₀ : Prop where
  transposes_S16x85x128x128_S16x128x128x85_0_2_3_1 : S16x85x128x128.Transposes [0, 2, 3, 1] S16x128x128x85
  shapeCasts_S16x128x128x85_S16x16384x85 : S16x128x128x85.ShapeCasts S16x16384x85
  slices_S16x64x5_S16x64x1_0_0_0 : S16x64x5.Slices ![0, 0, 0] S16x64x1
  shapeCasts_S16x64x1_S16x64 : S16x64x1.ShapeCasts S16x64
  slices_S16x64x5_S16x64x1_0_0_1 : S16x64x5.Slices ![0, 0, 1] S16x64x1
  slices_S16x64x5_S16x64x1_0_0_2 : S16x64x5.Slices ![0, 0, 2] S16x64x1
  slices_S16x64x5_S16x64x1_0_0_3 : S16x64x5.Slices ![0, 0, 3] S16x64x1
  slices_S16x64x5_S16x64x1_0_0_4 : S16x64x5.Slices ![0, 0, 4] S16x64x1
  bcast_S_S16x64 : S_.BroadcastsInDim S16x64 (![] : Fin 0 → Fin S16x64.rank)
  bcast_S16_S16x1_0 : S16.BroadcastsInDim S16x1 (![0] : Fin 1 → Fin S16x1.rank)
  bcast_S_S16x16384 : S_.BroadcastsInDim S16x16384 (![] : Fin 0 → Fin S16x16384.rank)
  bcast_S_S16x1 : S_.BroadcastsInDim S16x1 (![] : Fin 0 → Fin S16x1.rank)
  bcast_S16x1_S16x64_0_1 : S16x1.BroadcastsInDim S16x64 (![0, 1] : Fin 2 → Fin S16x64.rank)
  bcast_S16x64_S16x64x1_0_1 : S16x64.BroadcastsInDim S16x64x1 (![0, 1] : Fin 2 → Fin S16x64x1.rank)
  concatenates_S16x64x1_S16x64x1_S16x64x2_d2 : Shape.Concatenates [S16x64x1, S16x64x1] S16x64x2 2
  bcast_S_S16x16384x80 : S_.BroadcastsInDim S16x16384x80 (![] : Fin 0 → Fin S16x16384x80.rank)
  concatenates_S16x64x1_S16x64x1_S16x64x1_S16x64x3_d2 : Shape.Concatenates [S16x64x1, S16x64x1, S16x64x1] S16x64x3 2
  slices_S16x16384x85_S16x16384x4_0_0_0 : S16x16384x85.Slices ![0, 0, 0] S16x16384x4
  bcast_S_S16x64x1 : S_.BroadcastsInDim S16x64x1 (![] : Fin 0 → Fin S16x64x1.rank)
  bcast_S1_S1x1x1_2 : S1.BroadcastsInDim S1x1x1 (![2] : Fin 1 → Fin S1x1x1.rank)
  bcast_S1x1x1_S16x64x1_0_1_2 : S1x1x1.BroadcastsInDim S16x64x1 (![0, 1, 2] : Fin 3 → Fin S16x64x1.rank)
  reducesTo_S16x64x1_S16x64_d2 : S16x64x1.ReducesTo [2] S16x64
  h_S_ : 0 < S_.numel
  bcast_S16x64_S16x64x4_0_1 : S16x64.BroadcastsInDim S16x64x4 (![0, 1] : Fin 2 → Fin S16x64x4.rank)
  bcast_S_S16x64x4 : S_.BroadcastsInDim S16x64x4 (![] : Fin 0 → Fin S16x64x4.rank)
  slices_S16x64x4_S16x64x1_0_0_0 : S16x64x4.Slices ![0, 0, 0] S16x64x1
  slices_S16x64x4_S16x64x1_0_0_1 : S16x64x4.Slices ![0, 0, 1] S16x64x1
  slices_S16x64x4_S16x64x1_0_0_2 : S16x64x4.Slices ![0, 0, 2] S16x64x1
  slices_S16x64x4_S16x64x1_0_0_3 : S16x64x4.Slices ![0, 0, 3] S16x64x1
  concatenates_S16x64x1_S16x64x1_S16x64x1_S16x64x1_S16x64x4_d2 : Shape.Concatenates [S16x64x1, S16x64x1, S16x64x1, S16x64x1] S16x64x4 2
  reducesTo_S16x64_S_d0_1 : S16x64.ReducesTo [0, 1] S_
  slices_S16x16384x85_S16x16384x1_0_0_4 : S16x16384x85.Slices ![0, 0, 4] S16x16384x1
  shapeCasts_S16x16384x1_S16x16384 : S16x16384x1.ShapeCasts S16x16384
  reducesTo_S16x16384_S16_d1 : S16x16384.ReducesTo [1] S16
  bcast_S_S16 : S_.BroadcastsInDim S16 (![] : Fin 0 → Fin S16.rank)
  reducesTo_S16_S_d0 : S16.ReducesTo [0] S_
  slices_S16x16384x85_S16x16384x80_0_0_5 : S16x16384x85.Slices ![0, 0, 5] S16x16384x80
  reducesTo_S16x16384x80_S16_d1_2 : S16x16384x80.ReducesTo [1, 2] S16
  scatter_S16x16384_S16x64x2_S16x64_n_01_01_2_wf : ScatterDims.WF S16x16384 S16x64x2 S16x64 [] [0, 1] [0, 1] 2
  scatter_S16x16384x80_S16x64x3_S16x64_n_012_012_2_wf : ScatterDims.WF S16x16384x80 S16x64x3 S16x64 [] [0, 1, 2] [0, 1, 2] 2
  gather_S16x16384x4_S16x64x1_S16x64x4_2_1_0_0_1_2_114_wf : GatherDims.WF S16x16384x4 S16x64x1 S16x64x4 [2] [1] [0] [1] [0] 2 ![1, 1, 4]

variable [Facts₀]

def scatter_S16x16384_S16x64x2_S16x64_n_01_01_2 : ScatterDims S16x16384 S16x64x2 S16x64 where
  updateWindowDims := []
  insertedWindowDims := [0, 1]
  scatterDimsToOperandDims := [0, 1]
  indexVectorDim := 2
  wf := scatter_S16x16384_S16x64x2_S16x64_n_01_01_2_wf
def scatter_S16x16384x80_S16x64x3_S16x64_n_012_012_2 : ScatterDims S16x16384x80 S16x64x3 S16x64 where
  updateWindowDims := []
  insertedWindowDims := [0, 1, 2]
  scatterDimsToOperandDims := [0, 1, 2]
  indexVectorDim := 2
  wf := scatter_S16x16384x80_S16x64x3_S16x64_n_012_012_2_wf
def gather_S16x16384x4_S16x64x1_S16x64x4_2_1_0_0_1_2_114 : GatherDims S16x16384x4 S16x64x1 S16x64x4 where
  offsetDims := [2]
  collapsedSliceDims := [1]
  operandBatchingDims := [0]
  startIndicesBatchingDims := [0]
  startIndexMap := [1]
  indexVectorDim := 2
  sliceSizes := ![1, 1, 4]
  wf := gather_S16x16384x4_S16x64x1_S16x64x4_2_1_0_0_1_2_114_wf

class Facts : Prop extends Facts₀ where

variable [Facts]
-- ==== Proof.LibCarry.lean ====
/-
  A buffer that no operation of a stretch of host operations writes holds after the stretch what it held before it.
  `keep_host ops` closes a goal `StableHlo.after ops V b = V b` (also when the left side is an abbreviation for it) for a
  literal list `ops` and a literal buffer `b`: it unfolds the list, reads off what each operation writes, and tells each
  written buffer from `b` by deciding that the two references differ.
-/
import Idealize.ShloMosaic.Lib.StableHlo.Run

open Idealize.ShloMosaic

/-- `keep_host ops`: the stretch `ops` does not write the goal's buffer. -/
macro "keep_host " ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))
-- ==== Proof.KB.FrameKit.lean ====
/-
  The frame kit of the kernel program: one pipelined region on a grid of sixteen points, entered first in the
  entry function and followed by host operations only.

  What is stated here, generic in the float interpretation:
  * the entry function reduces to the region continued by the later host operations, cut into the fifteen
    stretches the windows of its text give; every operation of those stretches touches unscoped TensorCore
    references only, allocates nothing, and writes neither array of the pipeline (the first argument, read
    block by block, and the region's result) nor the second argument, which bypasses the region;
  * hence a run to the pipeline's frame post leaves both arguments as they were: the first is an input
    array, never written back, the second keeps its contents through the region and through every later line;
  * the two branch conditions of the body as functions of the grid point, with their closed forms
    (the scratch is reset exactly at point 0, the output is stored exactly at point 15), and where the
    output window is idle and not written back;
  * the staging and scratch memrefs the body is called with, and the region invariant spelt over the scratch.
-/
import proofs.«175006_j89550068121905_1_alg».proof.Proof.Gen.Kernel.Launch
import proofs.«175006_j89550068121905_1_alg».proof.Proof.Gen.Kernel.Skeleton
import proofs.«175006_j89550068121905_1_alg».proof.Proof.Gen.Kernel.Points
import proofs.«175006_j89550068121905_1_alg».proof.Proof.LibCarry
import Idealize.ShloMosaic.Lib.Pipeline.FrameBody
import Idealize.ShloMosaic.Lib.Pipeline.FrameSuffix
import Idealize.ShloMosaic.Lib.Ring
import Idealize.ShloMosaic.Lib.Tactic

-- membership in a rectangle of large extents: the elaborator's structural look recurses once per coordinate
set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The entry function around the region -/

/-- Core `c`'s TensorCore buffer contents when the region is entered, as a valuation: no host operation comes
    before the region, so they are the launch contents. -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

/-- The host operations after the region, as the stretches the text's windows cut them into, in order. -/
abbrev tailOps : List (List (HloOp τ sig (Elt F))) :=
  [main_part0_ops0, main_part1_ops0, main_part2_ops0, main_part3_ops0, main_part3_ops1, main_part3_ops2, main_part4_ops0, main_part4_ops1, main_part4_ops2, main_part5_ops0, main_part5_ops1, main_part5_ops2, main_part5_ops3, main_part5_ops4, main_part6_ops0]

/-! ### Per stretch: nothing allocated, no array of the pipeline written, the second argument not written

Each operation writes its own result buffer only, and no result buffer is the first argument, the region's
result or the second argument: decided reference by reference. -/

theorem main_part0_ops0_fresh : (main_part0_ops0 : List (HloOp τ sig (Elt F))).Forall fun op => op.fresh = ∅ := by
  simp only [List.Forall]; repeat' constructor
theorem main_part0_ops0_keeps : (main_part0_ops0 : List (HloOp τ sig (Elt F))).Forall fun op =>
    ∀ w, Proc.devRef .tc (Pipeline.arrRef spec0 w) ∉ op.writes := by
  simp only [List.Forall]; repeat' constructor
  all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)
theorem main_part0_ops0_keeps1 : (main_part0_ops0 : List (HloOp τ sig (Elt F))).Forall fun op =>
    Proc.devRef .tc main_arg1 ∉ op.writes := by
  simp only [List.Forall]; repeat' constructor
  all_goals simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)

theorem main_part1_ops0_fresh : (main_part1_ops0 : List (HloOp τ sig (Elt F))).Forall fun op => op.fresh = ∅ := by
  simp only [List.Forall]; repeat' constructor
theorem main_part1_ops0_keeps : (main_part1_ops0 : List (HloOp τ sig (Elt F))).Forall fun op =>
    ∀ w, Proc.devRef .tc (Pipeline.arrRef spec0 w) ∉ op.writes := by
  simp only [List.Forall]; repeat' constructor
  all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)
theorem main_part1_ops0_keeps1 : (main_part1_ops0 : List (HloOp τ sig (Elt F))).Forall fun op =>
    Proc.devRef .tc main_arg1 ∉ op.writes := by
  simp only [List.Forall]; repeat' constructor
  all_goals simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)

theorem main_part2_ops0_fresh : (main_part2_ops0 : List (HloOp τ sig (Elt F))).Forall fun op => op.fresh = ∅ := by
  simp only [List.Forall]; repeat' constructor
theorem main_part2_ops0_keeps : (main_part2_ops0 : List (HloOp τ sig (Elt F))).Forall fun op =>
    ∀ w, Proc.devRef .tc (Pipeline.arrRef spec0 w) ∉ op.writes := by
  simp only [List.Forall]; repeat' constructor
  all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)
theorem main_part2_ops0_keeps1 : (main_part2_ops0 : List (HloOp τ sig (Elt F))).Forall fun op =>
    Proc.devRef .tc main_arg1 ∉ op.writes := by
  simp only [List.Forall]; repeat' constructor
  all_goals simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)

theorem main_part3_ops0_fresh : (main_part3_ops0 : List (HloOp τ sig (Elt F))).Forall fun op => op.fresh = ∅ := by
  simp only [List.Forall]; repeat' constructor
theorem main_part3_ops0_keeps : (main_part3_ops0 : List (HloOp τ sig (Elt F))).Forall fun op =>
    ∀ w, Proc.devRef .tc (Pipeline.arrRef spec0 w) ∉ op.writes := by
  simp only [List.Forall]; repeat' constructor
  all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)
theorem main_part3_ops0_keeps1 : (main_part3_ops0 : List (HloOp τ sig (Elt F))).Forall fun op =>
    Proc.devRef .tc main_arg1 ∉ op.writes := by
  simp only [List.Forall]; repeat' constructor
  all_goals simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)

theorem main_part3_ops1_fresh : (main_part3_ops1 : List (HloOp τ sig (Elt F))).Forall fun op => op.fresh = ∅ := by
  simp only [List.Forall]; repeat' constructor
theorem main_part3_ops1_keeps : (main_part3_ops1 : List (HloOp τ sig (Elt F))).Forall fun op =>
    ∀ w, Proc.devRef .tc (Pipeline.arrRef spec0 w) ∉ op.writes := by
  simp only [List.Forall]; repeat' constructor
  all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)
theorem main_part3_ops1_keeps1 : (main_part3_ops1 : List (HloOp τ sig (Elt F))).Forall fun op =>
    Proc.devRef .tc main_arg1 ∉ op.writes := by
  simp only [List.Forall]; repeat' constructor
  all_goals simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)

theorem main_part3_ops2_fresh : (main_part3_ops2 : List (HloOp τ sig (Elt F))).Forall fun op => op.fresh = ∅ := by
  simp only [List.Forall]; repeat' constructor
theorem main_part3_ops2_keeps : (main_part3_ops2 : List (HloOp τ sig (Elt F))).Forall fun op =>
    ∀ w, Proc.devRef .tc (Pipeline.arrRef spec0 w) ∉ op.writes := by
  simp only [List.Forall]; repeat' constructor
  all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)
theorem main_part3_ops2_keeps1 : (main_part3_ops2 : List (HloOp τ sig (Elt F))).Forall fun op =>
    Proc.devRef .tc main_arg1 ∉ op.writes := by
  simp only [List.Forall]; repeat' constructor
  all_goals simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)

theorem main_part4_ops0_fresh : (main_part4_ops0 : List (HloOp τ sig (Elt F))).Forall fun op => op.fresh = ∅ := by
  simp only [List.Forall]; repeat' constructor
theorem main_part4_ops0_keeps : (main_part4_ops0 : List (HloOp τ sig (Elt F))).Forall fun op =>
    ∀ w, Proc.devRef .tc (Pipeline.arrRef spec0 w) ∉ op.writes := by
  simp only [List.Forall]; repeat' constructor
  all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)
theorem main_part4_ops0_keeps1 : (main_part4_ops0 : List (HloOp τ sig (Elt F))).Forall fun op =>
    Proc.devRef .tc main_arg1 ∉ op.writes := by
  simp only [List.Forall]; repeat' constructor
  all_goals simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)

theorem main_part4_ops1_fresh : (main_part4_ops1 : List (HloOp τ sig (Elt F))).Forall fun op => op.fresh = ∅ := by
  simp only [List.Forall]; repeat' constructor
theorem main_part4_ops1_keeps : (main_part4_ops1 : List (HloOp τ sig (Elt F))).Forall fun op =>
    ∀ w, Proc.devRef .tc (Pipeline.arrRef spec0 w) ∉ op.writes := by
  simp only [List.Forall]; repeat' constructor
  all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)
theorem main_part4_ops1_keeps1 : (main_part4_ops1 : List (HloOp τ sig (Elt F))).Forall fun op =>
    Proc.devRef .tc main_arg1 ∉ op.writes := by
  simp only [List.Forall]; repeat' constructor
  all_goals simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)

theorem main_part4_ops2_fresh : (main_part4_ops2 : List (HloOp τ sig (Elt F))).Forall fun op => op.fresh = ∅ := by
  simp only [List.Forall]; repeat' constructor
theorem main_part4_ops2_keeps : (main_part4_ops2 : List (HloOp τ sig (Elt F))).Forall fun op =>
    ∀ w, Proc.devRef .tc (Pipeline.arrRef spec0 w) ∉ op.writes := by
  simp only [List.Forall]; repeat' constructor
  all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)
theorem main_part4_ops2_keeps1 : (main_part4_ops2 : List (HloOp τ sig (Elt F))).Forall fun op =>
    Proc.devRef .tc main_arg1 ∉ op.writes := by
  simp only [List.Forall]; repeat' constructor
  all_goals simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)

theorem main_part5_ops0_fresh : (main_part5_ops0 : List (HloOp τ sig (Elt F))).Forall fun op => op.fresh = ∅ := by
  simp only [List.Forall]; repeat' constructor
theorem main_part5_ops0_keeps : (main_part5_ops0 : List (HloOp τ sig (Elt F))).Forall fun op =>
    ∀ w, Proc.devRef .tc (Pipeline.arrRef spec0 w) ∉ op.writes := by
  simp only [List.Forall]; repeat' constructor
  all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)
theorem main_part5_ops0_keeps1 : (main_part5_ops0 : List (HloOp τ sig (Elt F))).Forall fun op =>
    Proc.devRef .tc main_arg1 ∉ op.writes := by
  simp only [List.Forall]; repeat' constructor
  all_goals simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)

theorem main_part5_ops1_fresh : (main_part5_ops1 : List (HloOp τ sig (Elt F))).Forall fun op => op.fresh = ∅ := by
  simp only [List.Forall]; repeat' constructor
theorem main_part5_ops1_keeps : (main_part5_ops1 : List (HloOp τ sig (Elt F))).Forall fun op =>
    ∀ w, Proc.devRef .tc (Pipeline.arrRef spec0 w) ∉ op.writes := by
  simp only [List.Forall]; repeat' constructor
  all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)
theorem main_part5_ops1_keeps1 : (main_part5_ops1 : List (HloOp τ sig (Elt F))).Forall fun op =>
    Proc.devRef .tc main_arg1 ∉ op.writes := by
  simp only [List.Forall]; repeat' constructor
  all_goals simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)

theorem main_part5_ops2_fresh : (main_part5_ops2 : List (HloOp τ sig (Elt F))).Forall fun op => op.fresh = ∅ := by
  simp only [List.Forall]; repeat' constructor
theorem main_part5_ops2_keeps : (main_part5_ops2 : List (HloOp τ sig (Elt F))).Forall fun op =>
    ∀ w, Proc.devRef .tc (Pipeline.arrRef spec0 w) ∉ op.writes := by
  simp only [List.Forall]; repeat' constructor
  all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)
theorem main_part5_ops2_keeps1 : (main_part5_ops2 : List (HloOp τ sig (Elt F))).Forall fun op =>
    Proc.devRef .tc main_arg1 ∉ op.writes := by
  simp only [List.Forall]; repeat' constructor
  all_goals simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)

theorem main_part5_ops3_fresh : (main_part5_ops3 : List (HloOp τ sig (Elt F))).Forall fun op => op.fresh = ∅ := by
  simp only [List.Forall]; repeat' constructor
theorem main_part5_ops3_keeps : (main_part5_ops3 : List (HloOp τ sig (Elt F))).Forall fun op =>
    ∀ w, Proc.devRef .tc (Pipeline.arrRef spec0 w) ∉ op.writes := by
  simp only [List.Forall]; repeat' constructor
  all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)
theorem main_part5_ops3_keeps1 : (main_part5_ops3 : List (HloOp τ sig (Elt F))).Forall fun op =>
    Proc.devRef .tc main_arg1 ∉ op.writes := by
  simp only [List.Forall]; repeat' constructor
  all_goals simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)

theorem main_part5_ops4_fresh : (main_part5_ops4 : List (HloOp τ sig (Elt F))).Forall fun op => op.fresh = ∅ := by
  simp only [List.Forall]; repeat' constructor
theorem main_part5_ops4_keeps : (main_part5_ops4 : List (HloOp τ sig (Elt F))).Forall fun op =>
    ∀ w, Proc.devRef .tc (Pipeline.arrRef spec0 w) ∉ op.writes := by
  simp only [List.Forall]; repeat' constructor
  all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)
theorem main_part5_ops4_keeps1 : (main_part5_ops4 : List (HloOp τ sig (Elt F))).Forall fun op =>
    Proc.devRef .tc main_arg1 ∉ op.writes := by
  simp only [List.Forall]; repeat' constructor
  all_goals simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)

theorem main_part6_ops0_fresh : (main_part6_ops0 : List (HloOp τ sig (Elt F))).Forall fun op => op.fresh = ∅ := by
  simp only [List.Forall]; repeat' constructor
theorem main_part6_ops0_keeps : (main_part6_ops0 : List (HloOp τ sig (Elt F))).Forall fun op =>
    ∀ w, Proc.devRef .tc (Pipeline.arrRef spec0 w) ∉ op.writes := by
  simp only [List.Forall]; repeat' constructor
  all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)
theorem main_part6_ops0_keeps1 : (main_part6_ops0 : List (HloOp τ sig (Elt F))).Forall fun op =>
    Proc.devRef .tc main_arg1 ∉ op.writes := by
  simp only [List.Forall]; repeat' constructor
  all_goals simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)

/-- The entry function around the region: it is the region CONTINUED BY the later stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [] tailOps (by simp only [List.Forall])
    (by simp only [List.Forall]) main_chain_windows

/-- The later stretches touch the pipeline's arrays and the bypassing buffers only (each operation's buffers are
    unscoped TensorCore references, and with nothing prefetched every such reference is one or the other). -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl | rfl | rfl | rfl | rfl | rfl | rfl | rfl | rfl
  · exact Pipeline.sub_ucRefs op ((List.forall_iff_forall_mem.mp main_part0_ops0_sub) op hop)
  · exact Pipeline.sub_ucRefs op ((List.forall_iff_forall_mem.mp main_part1_ops0_sub) op hop)
  · exact Pipeline.sub_ucRefs op ((List.forall_iff_forall_mem.mp main_part2_ops0_sub) op hop)
  · exact Pipeline.sub_ucRefs op ((List.forall_iff_forall_mem.mp main_part3_ops0_sub) op hop)
  · exact Pipeline.sub_ucRefs op ((List.forall_iff_forall_mem.mp main_part3_ops1_sub) op hop)
  · exact Pipeline.sub_ucRefs op ((List.forall_iff_forall_mem.mp main_part3_ops2_sub) op hop)
  · exact Pipeline.sub_ucRefs op ((List.forall_iff_forall_mem.mp main_part4_ops0_sub) op hop)
  · exact Pipeline.sub_ucRefs op ((List.forall_iff_forall_mem.mp main_part4_ops1_sub) op hop)
  · exact Pipeline.sub_ucRefs op ((List.forall_iff_forall_mem.mp main_part4_ops2_sub) op hop)
  · exact Pipeline.sub_ucRefs op ((List.forall_iff_forall_mem.mp main_part5_ops0_sub) op hop)
  · exact Pipeline.sub_ucRefs op ((List.forall_iff_forall_mem.mp main_part5_ops1_sub) op hop)
  · exact Pipeline.sub_ucRefs op ((List.forall_iff_forall_mem.mp main_part5_ops2_sub) op hop)
  · exact Pipeline.sub_ucRefs op ((List.forall_iff_forall_mem.mp main_part5_ops3_sub) op hop)
  · exact Pipeline.sub_ucRefs op ((List.forall_iff_forall_mem.mp main_part5_ops4_sub) op hop)
  · exact Pipeline.sub_ucRefs op ((List.forall_iff_forall_mem.mp main_part6_ops0_sub) op hop)
/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl | rfl | rfl | rfl | rfl | rfl | rfl | rfl | rfl | rfl | rfl
  · exact (List.forall_iff_forall_mem.mp main_part0_ops0_fresh) op hop
  · exact (List.forall_iff_forall_mem.mp main_part1_ops0_fresh) op hop
  · exact (List.forall_iff_forall_mem.mp main_part2_ops0_fresh) op hop
  · exact (List.forall_iff_forall_mem.mp main_part3_ops0_fresh) op hop
  · exact (List.forall_iff_forall_mem.mp main_part3_ops1_fresh) op hop
  · exact (List.forall_iff_forall_mem.mp main_part3_ops2_fresh) op hop
  · exact (List.forall_iff_forall_mem.mp main_part4_ops0_fresh) op hop
  · exact (List.forall_iff_forall_mem.mp main_part4_ops1_fresh) op hop
  · exact (List.forall_iff_forall_mem.mp main_part4_ops2_fresh) op hop
  · exact (List.forall_iff_forall_mem.mp main_part5_ops0_fresh) op hop
  · exact (List.forall_iff_forall_mem.mp main_part5_ops1_fresh) op hop
  · exact (List.forall_iff_forall_mem.mp main_part5_ops2_fresh) op hop
  · exact (List.forall_iff_forall_mem.mp main_part5_ops3_fresh) op hop
  · exact (List.forall_iff_forall_mem.mp main_part5_ops4_fresh) op hop
  · exact (List.forall_iff_forall_mem.mp main_part6_ops0_fresh) op hop
/-- They write no array of the pipeline (each writes only its own result buffer, which is no array). -/
theorem sfx_keeps : ∀ ops ∈ (tailOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl | rfl | rfl | rfl | rfl | rfl | rfl | rfl | rfl | rfl | rfl
  · exact (List.forall_iff_forall_mem.mp main_part0_ops0_keeps) op hop
  · exact (List.forall_iff_forall_mem.mp main_part1_ops0_keeps) op hop
  · exact (List.forall_iff_forall_mem.mp main_part2_ops0_keeps) op hop
  · exact (List.forall_iff_forall_mem.mp main_part3_ops0_keeps) op hop
  · exact (List.forall_iff_forall_mem.mp main_part3_ops1_keeps) op hop
  · exact (List.forall_iff_forall_mem.mp main_part3_ops2_keeps) op hop
  · exact (List.forall_iff_forall_mem.mp main_part4_ops0_keeps) op hop
  · exact (List.forall_iff_forall_mem.mp main_part4_ops1_keeps) op hop
  · exact (List.forall_iff_forall_mem.mp main_part4_ops2_keeps) op hop
  · exact (List.forall_iff_forall_mem.mp main_part5_ops0_keeps) op hop
  · exact (List.forall_iff_forall_mem.mp main_part5_ops1_keeps) op hop
  · exact (List.forall_iff_forall_mem.mp main_part5_ops2_keeps) op hop
  · exact (List.forall_iff_forall_mem.mp main_part5_ops3_keeps) op hop
  · exact (List.forall_iff_forall_mem.mp main_part5_ops4_keeps) op hop
  · exact (List.forall_iff_forall_mem.mp main_part6_ops0_keeps) op hop
/-- Nor the second argument. -/
theorem sfx_keeps1 : ∀ ops ∈ (tailOps : List (List (HloOp τ sig (Elt F)))), ∀ op ∈ ops,
    Proc.devRef .tc main_arg1 ∉ op.writes := by
  intro ops hops op hop
  simp only [List.mem_cons, List.mem_nil_iff, or_false] at hops
  rcases hops with rfl | rfl | rfl | rfl | rfl | rfl | rfl | rfl | rfl | rfl | rfl | rfl | rfl | rfl | rfl
  · exact (List.forall_iff_forall_mem.mp main_part0_ops0_keeps1) op hop
  · exact (List.forall_iff_forall_mem.mp main_part1_ops0_keeps1) op hop
  · exact (List.forall_iff_forall_mem.mp main_part2_ops0_keeps1) op hop
  · exact (List.forall_iff_forall_mem.mp main_part3_ops0_keeps1) op hop
  · exact (List.forall_iff_forall_mem.mp main_part3_ops1_keeps1) op hop
  · exact (List.forall_iff_forall_mem.mp main_part3_ops2_keeps1) op hop
  · exact (List.forall_iff_forall_mem.mp main_part4_ops0_keeps1) op hop
  · exact (List.forall_iff_forall_mem.mp main_part4_ops1_keeps1) op hop
  · exact (List.forall_iff_forall_mem.mp main_part4_ops2_keeps1) op hop
  · exact (List.forall_iff_forall_mem.mp main_part5_ops0_keeps1) op hop
  · exact (List.forall_iff_forall_mem.mp main_part5_ops1_keeps1) op hop
  · exact (List.forall_iff_forall_mem.mp main_part5_ops2_keeps1) op hop
  · exact (List.forall_iff_forall_mem.mp main_part5_ops3_keeps1) op hop
  · exact (List.forall_iff_forall_mem.mp main_part5_ops4_keeps1) op hop
  · exact (List.forall_iff_forall_mem.mp main_part6_ops0_keeps1) op hop

theorem V_main_arg0 (c : Dev nD) : V m c main_arg0 = m ((c : Thread nD τ).loc main_arg0) := rfl
theorem V_main_arg1 (c : Dev nD) : V m c main_arg1 = m ((c : Thread nD τ).loc main_arg1) := rfl

/-- The second argument after the later stretches, from ANY exit contents of the region that have the region-entry
    contents outside the arrays: it is no array of the pipeline and no later operation writes it, so it holds what the
    launch gave it. -/
theorem tail_main_arg1 (dats : (p : Fin 1) → (c : Dev nD) → Dat τ (Elt F) Unit ℕ (UR sig nD τ) ℕ (cfgs p) c) (c : Dev nD) :
    Pipeline.afterTail₀ cfgs dats 0 (V0 m) (tailOps (F := F)) c main_arg1 = m ((c.tc : Thread nD τ).loc main_arg1) := by
  unfold Pipeline.afterTail₀
  rw [StableHlo.after_of_forall_not_mem _ _ (fun op hop => by
        obtain ⟨ops, hops, hop'⟩ := List.mem_flatten.mp hop
        exact sfx_keeps1 ops hops op hop'),
    Pipeline.withArrays_of_ne _ c _ _ main_arg1 (by decide)]
  rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): unfetched, the index has
    not moved; the window is uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to the
    pipeline's frame post read at the two arguments — the first a staged input, whose array is never written back; the
    second no array of the pipeline, kept by the region and by every later stretch — is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (tail_main_arg1 m dats c)⟩) h

/-! ## The body's branch conditions -/

/-- The condition of the body's first branch (the scratch is reset), from the grid coordinates. -/
abbrev cond0_0 (i : grid0.Coords) : Prop := (Scalar.cmpi .ne (Scalar.extui (Scalar.cmpi .eq (BitVec.ofNat 32 (i 0).val) 0#32)) 0#32) = 1#1
/-- It holds at point 0 only — decided over the grid. -/
theorem hcond0_0 : ∀ t : Fin cfg0.N, cond0_0 (grid0.coords t) ↔ t.val % 16 = 0 :=
  (by decide +kernel : ∀ t : Fin grid0.N, cond0_0 (grid0.coords t) ↔ t.val % 16 = 0)

/-- The condition of the body's second branch (the scratch is copied to the output), from the grid coordinates. -/
abbrev cond0_1 (i : grid0.Coords) : Prop := k0_cond2 i = 1#1
/-- It holds at point 15 only — decided over the grid. -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

/-- Window 0 is never idle (an input). -/
theorem liveAt0_0 : ∀ t : Fin cfg0.N, cfg0.idle 0 (grid0.coords t) = false := by decide +kernel
/-- At the point of case A the configuration calls output 1 idle: the case stores nothing into it. -/
theorem idleAt0_1_A : ∀ t : Fin cfg0.N, cond0_0 (grid0.coords t) → ¬cond0_1 (grid0.coords t) → cfg0.idle 1 (grid0.coords t) = true := by decide +kernel
/-- At the point of case A the pipeline does not write output 1's block back. -/
theorem noFlush0_1_A : ∀ t : Fin cfg0.N, cond0_0 (grid0.coords t) → ¬cond0_1 (grid0.coords t) → (cfg0.win 1).flush t = false := by decide +kernel
/-- At the points of case B the configuration calls output 1 idle: the case stores nothing into it. -/
theorem idleAt0_1_B : ∀ t : Fin cfg0.N, ¬cond0_0 (grid0.coords t) → ¬cond0_1 (grid0.coords t) → cfg0.idle 1 (grid0.coords t) = true := by decide +kernel
/-- At the points of case B the pipeline does not write output 1's block back. -/
theorem noFlush0_1_B : ∀ t : Fin cfg0.N, ¬cond0_0 (grid0.coords t) → ¬cond0_1 (grid0.coords t) → (cfg0.win 1).flush t = false := by decide +kernel
/-- At the point of case C the configuration calls output 1 live: the case stores into it. -/
theorem liveAt0_1_C : ∀ t : Fin cfg0.N, ¬cond0_0 (grid0.coords t) → cond0_1 (grid0.coords t) → cfg0.idle 1 (grid0.coords t) = false := by decide +kernel

/-! ## The kernel body on any staging memrefs -/

/-- One staging buffer of output window 1, through which its contents are stated (the choice does not matter). -/
abbrev VO0_1 : View sig .tc .vmem S1x2 .f32 := (Memref.whole cc0_stg1_0 : Memref sig .tc .vmem S1x2 .f32).view
/-- Each window's current staging memref at point `t`, spelled as the pipeline passes it, and its wholeness. -/
abbrev ms0_0 (t : Fin cfg0.N) : Memref sig .tc .vmem S1x85x128x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2 .f32 := win0_1.stage (cfg0.slots t 1)
abbrev hs0_1 (t : Fin cfg0.N) : (ms0_1 t).IsWhole := hstage0_1 ((cfg0.slots t 1).cast nbuf0_1)
/-- The scratch operand: a whole scoped buffer of the kernel's own, passed beside the windows. -/
abbrev scM0_0 : Memref sig .tc .vmem S1x2 .f32 := Memref.whole cc0_scratch0
/-- The scratch the kernel carries between points, as a view: what it holds is stated through it. -/
abbrev VS0_0 : View sig .tc .vmem S1x2 .f32 := scM0_0.view

/-- The region invariant with the scratch operand as a memref owned at some contents: what the body obligation hands
    the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Fr

end
-- ==== Proof.KB.RunA.lean ====
/-
  The whole-body run of the kernel at the first grid point (case A: the first branch is taken and resets the
  scratch, the second is not taken).

  On whole staging memrefs — the input block at its contents, the output's buffer at contents handed back untouched
  (the case stores nothing into it), the scratch at anything — the body runs to a continuation that holds the input
  block as it was, the output's buffer as it was, and the scratch with the pieces the case's two stores wrote: the
  zero fill, then the point's two partial sums added to it. The pieces are found by the run itself.
-/
import proofs.«175006_j89550068121905_1_alg».proof.Proof.KB.FrameKit

-- membership in a rectangle of large extents: the elaborator's structural look recurses once per coordinate
set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue walks it past the default budget)
set_option maxHeartbeats 1000000 in
/-- What the body's stores leave in each output's staging memref, as pieces (last first) IN CASE A (first branch taken,
    second not: point 0), WITH the proof that on whole staging memrefs — the input's at its contents `x0`, output 1's
    (no store: idle and not written back at the case's point) at contents `xi1` handed back untouched, the carried
    scratch at anything — the body runs to the continuation holding the input's as it was, output 1's as it was, and
    the scratch with its pieces written (`LS0`). Each branch is decided by the case's hypotheses. -/
noncomputable def kernelRun0_A (c : Dev nD) (i : grid0.Coords) (arg1 : Memref sig .tc .vmem S1x85x128x128 .f32) (harg1 : arg1.IsWhole) (arg2 : Memref sig .tc .vmem S1x2 .f32) (harg2 : arg2.IsWhole) (arg3 : Memref sig .tc .vmem S1x2 .f32) (harg3 : arg3.IsWhole) (hc0 : cond0_0 i) (hc1 : ¬cond0_1 i)
    (x0 : Vec F S1x85x128x128 .f32) :
    Σ' (L1 : List (View.Piece (Elt F) S1x2 .f32)), { LS0 : List (View.Piece (Elt F) S1x2 .f32) //
      ∀ (xi1 : Vec F S1x2 .f32) (E : Set ℕ) (K : PUnit → sProp 𝕄),
        iprop(owns (c : Thread nD τ) arg1 fullShare x0 ∗ owns (c : Thread nD τ) arg2 fullShare xi1 ∗ (∃ d, owns (c : Thread nD τ) arg3 fullShare d)
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc0__sums_kernel i arg1 harg1 arg2 harg2 arg3 harg3) K } := by
  refine ⟨[], ?_, fun xi1 E K => ?run⟩
  case run =>
    simp only [cc0__sums_kernel_eq_skeleton]; unfold cc0__sums_kernel_skel
    simp only [k0_part1_eq_skeleton]
    unfold owns
    iintro ⟨⟨%f0, %hf0, H0⟩, ⟨%f1, %hf1, H1⟩, ⟨%ds0, %fs0, -, HS0⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

end Cert.Kernel.Fr

end
-- ==== Proof.KB.RunB.lean ====
/-
  The whole-body run of the kernel at the inner grid points (case B: neither branch is taken).

  On whole staging memrefs — the input block at its contents, the output's buffer at contents handed back untouched
  (the case stores nothing into it), the scratch at the contents the point before left — the body runs to a
  continuation that holds the input block as it was, the output's buffer as it was, and the scratch with the piece the
  case's one store wrote: the point's two partial sums added to what the scratch held.
-/
import proofs.«175006_j89550068121905_1_alg».proof.Proof.KB.RunA

-- membership in a rectangle of large extents: the elaborator's structural look recurses once per coordinate
set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue walks it past the default budget)
set_option maxHeartbeats 1000000 in
/-- What the body's stores leave in each output's staging memref, as pieces (last first) IN CASE B (neither branch
    taken: points 1 to 14), WITH the proof that on whole staging memrefs — the input's at its contents `x0`, output 1's
    (no store: idle and not written back at the case's points) at contents `xi1` handed back untouched, the carried
    scratch at the contents `xs0` the point before left — the body runs to the continuation holding the input's as it
    was, output 1's as it was, and the scratch with its pieces written (`LS0`). -/
noncomputable def kernelRun0_B (c : Dev nD) (i : grid0.Coords) (arg1 : Memref sig .tc .vmem S1x85x128x128 .f32) (harg1 : arg1.IsWhole) (arg2 : Memref sig .tc .vmem S1x2 .f32) (harg2 : arg2.IsWhole) (arg3 : Memref sig .tc .vmem S1x2 .f32) (harg3 : arg3.IsWhole) (hc0 : ¬cond0_0 i) (hc1 : ¬cond0_1 i)
    (x0 : Vec F S1x85x128x128 .f32) (xs0 : Vec F S1x2 .f32) :
    Σ' (L1 : List (View.Piece (Elt F) S1x2 .f32)), { LS0 : List (View.Piece (Elt F) S1x2 .f32) //
      ∀ (xi1 : Vec F S1x2 .f32) (E : Set ℕ) (K : PUnit → sProp 𝕄),
        iprop(owns (c : Thread nD τ) arg1 fullShare x0 ∗ owns (c : Thread nD τ) arg2 fullShare xi1 ∗ owns (c : Thread nD τ) arg3 fullShare xs0
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc0__sums_kernel i arg1 harg1 arg2 harg2 arg3 harg3) K } := by
  refine ⟨[], ?_, fun xi1 E K => ?run⟩
  case run =>
    simp only [cc0__sums_kernel_eq_skeleton]; unfold cc0__sums_kernel_skel
    simp only [k0_part1_eq_skeleton]
    unfold owns
    iintro ⟨⟨%f0, %hf0, H0⟩, ⟨%f1, %hf1, H1⟩, ⟨%fs0, %hfs0, HS0⟩, Hk⟩
    obtain rfl := harg1.eq_unread hf0; obtain rfl := harg2.eq_unread hf1; obtain rfl := harg3.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

end Cert.Kernel.Fr

end
-- ==== Proof.KB.RunC.lean ====
/-
  The whole-body run of the kernel at the last grid point (case C: the first branch is not taken, the second is and
  copies the scratch to the output).

  On whole staging memrefs — the input block at its contents, the output's buffer at anything, the scratch at the
  contents the point before left — the body runs to a continuation that holds the input block as it was, the output's
  buffer with the piece the case's store wrote (the finished scratch), and the scratch with the piece its own store
  wrote: the point's two partial sums added to what the scratch held.
-/
import proofs.«175006_j89550068121905_1_alg».proof.Proof.KB.RunB

-- membership in a rectangle of large extents: the elaborator's structural look recurses once per coordinate
set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue walks it past the default budget)
set_option maxHeartbeats 1000000 in
/-- What the body's stores leave in each output's staging memref, as pieces (last first) IN CASE C (first branch not
    taken, second taken: point 15), WITH the proof that on whole staging memrefs — the input's at its contents `x0`,
    output 1's at anything, the carried scratch at the contents `xs0` the point before left — the body runs to the
    continuation holding the input's as it was, output 1's buffer with its pieces written (`L1`), and the scratch with
    its pieces written (`LS0`). -/
noncomputable def kernelRun0_C (c : Dev nD) (i : grid0.Coords) (arg1 : Memref sig .tc .vmem S1x85x128x128 .f32) (harg1 : arg1.IsWhole) (arg2 : Memref sig .tc .vmem S1x2 .f32) (harg2 : arg2.IsWhole) (arg3 : Memref sig .tc .vmem S1x2 .f32) (harg3 : arg3.IsWhole) (hc0 : ¬cond0_0 i) (hc1 : cond0_1 i)
    (x0 : Vec F S1x85x128x128 .f32) (xs0 : Vec F S1x2 .f32) :
    Σ' (L1 : List (View.Piece (Elt F) S1x2 .f32)), { LS0 : List (View.Piece (Elt F) S1x2 .f32) //
      ∀ (E : Set ℕ) (K : PUnit → sProp 𝕄),
        iprop(owns (c : Thread nD τ) arg1 fullShare x0 ∗ (∃ d, owns (c : Thread nD τ) arg2 fullShare d) ∗ owns (c : Thread nD τ) arg3 fullShare xs0
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f LS0)) -∗ K ⟨⟩))
          ⊢ wp frame (wpE (defs₀ (F := F)) Variants.none c none) E (cc0__sums_kernel i arg1 harg1 arg2 harg2 arg3 harg3) K } := by
  refine ⟨?_, ?_, fun E K => ?run⟩
  case run =>
    simp only [cc0__sums_kernel_eq_skeleton]; unfold cc0__sums_kernel_skel
    simp only [k0_part1_eq_skeleton]
    unfold owns
    iintro ⟨⟨%f0, %hf0, H0⟩, ⟨%d1, %f1, -, H1⟩, ⟨%fs0, %hfs0, HS0⟩, Hk⟩
    obtain rfl := harg1.eq_unread hf0; obtain rfl := harg3.eq_unread hfs0
    sl_exec (disch := first | exact hc0 | exact hc1)
    sl_step
    iapply Hk
    isplitl [H0]
    · iexists _; isplitr; · ipureintro; exact harg1.read_unread _
      iexact H0
    isplitl [H1]; · iexists _; iexact H1
    iexists _; iexact HS0

end Cert.Kernel.Fr

end
-- ==== Proof.KB.Frame.lean ====
/- The frame certificate of the program's one TensorCore kernel, for any float model `F`.

   The kernel runs on a grid of 16 points. At every point it loads the point's input block (`1x85x128x128`), loads a
   `1x2` accumulator that lives in scratch memory and is carried from point to point, adds to it a pair of sums
   reduced from the block, and stores it back; at point 0 it first stores zeros into the accumulator, and at point 15
   it finally copies the accumulator into the `1x2` output block, which is written back to its array there and
   nowhere else. So a point is in one of three cases:
   A (point 0: reset, no copy), B (points 1 to 14: neither), C (point 15: copy, no reset).

   This module states, case by case, what the body's stores leave in the output block and in the accumulator
   (the stored pieces read back, and that the pieces cover the buffer); defines by recursion on the point what the
   two buffers hold after each point (`outsAt0`: the case selected by the point's residue mod 16, run over what the
   point before left in the accumulator); gives the invariant between points (`PhiS`: the accumulator owned at
   exactly those contents), the proof data of the pipeline (`dats`), the body's triple at a generic point
   (`sound_body`), the run of the whole program (`run_main`) and the frame claim (`frame`): every weakly fair execution
   terminates, nothing faulting, and both argument arrays end as they began. -/
import proofs.«175006_j89550068121905_1_alg».proof.Proof.KB.RunC

-- deciding membership in a literal rectangle recurses once per coordinate of its long axes
set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the output block and in the accumulator -/

/-- In case A the body stores nothing into the output block (its window rests at these points and is not written
    back): the value named here is the empty list of pieces read back over arbitrary contents, a placeholder no later
    statement depends on. -/
def out0_A_1 (c : Dev nD) (i : grid0.Coords) (arg1 : Memref sig .tc .vmem S1x85x128x128 .f32) (harg1 : arg1.IsWhole) (arg2 : Memref sig .tc .vmem S1x2 .f32) (harg2 : arg2.IsWhole) (arg3 : Memref sig .tc .vmem S1x2 .f32) (harg3 : arg3.IsWhole) (hc0 : cond0_0 i) (hc1 : ¬cond0_1 i)
    (x0 : Vec F S1x85x128x128 .f32) : Vec F S1x2 .f32 :=
  VO0_1.read (Elt F) (VO0_1.writes (Elt F) VO0_1.junk (kernelRun0_A c i arg1 harg1 arg2 harg2 arg3 harg3 hc0 hc1 x0).1)

/-- In case A the pieces stored into the carried accumulator tile it (whole `S1x2` rectangles), so every index of
    the accumulator lies in some piece. -/
theorem scover0_A_0 (c : Dev nD) (i : grid0.Coords) (arg1 : Memref sig .tc .vmem S1x85x128x128 .f32) (harg1 : arg1.IsWhole) (arg2 : Memref sig .tc .vmem S1x2 .f32) (harg2 : arg2.IsWhole) (arg3 : Memref sig .tc .vmem S1x2 .f32) (harg3 : arg3.IsWhole) (hc0 : cond0_0 i) (hc1 : ¬cond0_1 i)
    (x0 : Vec F S1x85x128x128 .f32) (y : S1x2.Idx) :
    ∃ pc ∈ (kernelRun0_A c i arg1 harg1 arg2 harg2 arg3 harg3 hc0 hc1 x0).2.1, y ∈ pc.1.set :=
  View.cover_of_tiledL (kernelRun0_A c i arg1 harg1 arg2 harg2 arg3 harg3 hc0 hc1 x0).2.1 S1x2.size (by sl_kernel_rfl) y

/-- What case A leaves in the carried accumulator: its pieces read back. -/
def sout0_A_0 (c : Dev nD) (i : grid0.Coords) (arg1 : Memref sig .tc .vmem S1x85x128x128 .f32) (harg1 : arg1.IsWhole) (arg2 : Memref sig .tc .vmem S1x2 .f32) (harg2 : arg2.IsWhole) (arg3 : Memref sig .tc .vmem S1x2 .f32) (harg3 : arg3.IsWhole) (hc0 : cond0_0 i) (hc1 : ¬cond0_1 i)
    (x0 : Vec F S1x85x128x128 .f32) : Vec F S1x2 .f32 :=
  VS0_0.read (Elt F) (VS0_0.writes (Elt F) VS0_0.junk (kernelRun0_A c i arg1 harg1 arg2 harg2 arg3 harg3 hc0 hc1 x0).2.1)

/-- In case B the body stores nothing into the output block (its window rests at these points and is not written
    back): the value named here is the empty list of pieces read back over arbitrary contents, a placeholder no later
    statement depends on. -/
def out0_B_1 (c : Dev nD) (i : grid0.Coords) (arg1 : Memref sig .tc .vmem S1x85x128x128 .f32) (harg1 : arg1.IsWhole) (arg2 : Memref sig .tc .vmem S1x2 .f32) (harg2 : arg2.IsWhole) (arg3 : Memref sig .tc .vmem S1x2 .f32) (harg3 : arg3.IsWhole) (hc0 : ¬cond0_0 i) (hc1 : ¬cond0_1 i)
    (x0 : Vec F S1x85x128x128 .f32) (xs0 : Vec F S1x2 .f32) : Vec F S1x2 .f32 :=
  VO0_1.read (Elt F) (VO0_1.writes (Elt F) VO0_1.junk (kernelRun0_B c i arg1 harg1 arg2 harg2 arg3 harg3 hc0 hc1 x0 xs0).1)

/-- In case B the pieces stored into the carried accumulator tile it (whole `S1x2` rectangles), so every index of
    the accumulator lies in some piece. -/
theorem scover0_B_0 (c : Dev nD) (i : grid0.Coords) (arg1 : Memref sig .tc .vmem S1x85x128x128 .f32) (harg1 : arg1.IsWhole) (arg2 : Memref sig .tc .vmem S1x2 .f32) (harg2 : arg2.IsWhole) (arg3 : Memref sig .tc .vmem S1x2 .f32) (harg3 : arg3.IsWhole) (hc0 : ¬cond0_0 i) (hc1 : ¬cond0_1 i)
    (x0 : Vec F S1x85x128x128 .f32) (xs0 : Vec F S1x2 .f32) (y : S1x2.Idx) :
    ∃ pc ∈ (kernelRun0_B c i arg1 harg1 arg2 harg2 arg3 harg3 hc0 hc1 x0 xs0).2.1, y ∈ pc.1.set :=
  View.cover_of_tiledL (kernelRun0_B c i arg1 harg1 arg2 harg2 arg3 harg3 hc0 hc1 x0 xs0).2.1 S1x2.size (by sl_kernel_rfl) y

/-- What case B leaves in the carried accumulator: its pieces read back. -/
def sout0_B_0 (c : Dev nD) (i : grid0.Coords) (arg1 : Memref sig .tc .vmem S1x85x128x128 .f32) (harg1 : arg1.IsWhole) (arg2 : Memref sig .tc .vmem S1x2 .f32) (harg2 : arg2.IsWhole) (arg3 : Memref sig .tc .vmem S1x2 .f32) (harg3 : arg3.IsWhole) (hc0 : ¬cond0_0 i) (hc1 : ¬cond0_1 i)
    (x0 : Vec F S1x85x128x128 .f32) (xs0 : Vec F S1x2 .f32) : Vec F S1x2 .f32 :=
  VS0_0.read (Elt F) (VS0_0.writes (Elt F) VS0_0.junk (kernelRun0_B c i arg1 harg1 arg2 harg2 arg3 harg3 hc0 hc1 x0 xs0).2.1)

/-- In case C the pieces stored into the output block tile it (one store of the whole `S1x2` rectangle), so every
    index of the block lies in some piece. -/
theorem cover0_C_1 (c : Dev nD) (i : grid0.Coords) (arg1 : Memref sig .tc .vmem S1x85x128x128 .f32) (harg1 : arg1.IsWhole) (arg2 : Memref sig .tc .vmem S1x2 .f32) (harg2 : arg2.IsWhole) (arg3 : Memref sig .tc .vmem S1x2 .f32) (harg3 : arg3.IsWhole) (hc0 : ¬cond0_0 i) (hc1 : cond0_1 i)
    (x0 : Vec F S1x85x128x128 .f32) (xs0 : Vec F S1x2 .f32) (y : S1x2.Idx) :
    ∃ pc ∈ (kernelRun0_C c i arg1 harg1 arg2 harg2 arg3 harg3 hc0 hc1 x0 xs0).1, y ∈ pc.1.set :=
  View.cover_of_tiledL (kernelRun0_C c i arg1 harg1 arg2 harg2 arg3 harg3 hc0 hc1 x0 xs0).1 S1x2.size (by sl_kernel_rfl) y

/-- What case C leaves in the output block: its pieces read back (the arbitrary contents underneath are covered). -/
def out0_C_1 (c : Dev nD) (i : grid0.Coords) (arg1 : Memref sig .tc .vmem S1x85x128x128 .f32) (harg1 : arg1.IsWhole) (arg2 : Memref sig .tc .vmem S1x2 .f32) (harg2 : arg2.IsWhole) (arg3 : Memref sig .tc .vmem S1x2 .f32) (harg3 : arg3.IsWhole) (hc0 : ¬cond0_0 i) (hc1 : cond0_1 i)
    (x0 : Vec F S1x85x128x128 .f32) (xs0 : Vec F S1x2 .f32) : Vec F S1x2 .f32 :=
  VO0_1.read (Elt F) (VO0_1.writes (Elt F) VO0_1.junk (kernelRun0_C c i arg1 harg1 arg2 harg2 arg3 harg3 hc0 hc1 x0 xs0).1)

/-- In case C the pieces stored into the carried accumulator tile it (whole `S1x2` rectangles), so every index of
    the accumulator lies in some piece. -/
theorem scover0_C_0 (c : Dev nD) (i : grid0.Coords) (arg1 : Memref sig .tc .vmem S1x85x128x128 .f32) (harg1 : arg1.IsWhole) (arg2 : Memref sig .tc .vmem S1x2 .f32) (harg2 : arg2.IsWhole) (arg3 : Memref sig .tc .vmem S1x2 .f32) (harg3 : arg3.IsWhole) (hc0 : ¬cond0_0 i) (hc1 : cond0_1 i)
    (x0 : Vec F S1x85x128x128 .f32) (xs0 : Vec F S1x2 .f32) (y : S1x2.Idx) :
    ∃ pc ∈ (kernelRun0_C c i arg1 harg1 arg2 harg2 arg3 harg3 hc0 hc1 x0 xs0).2.1, y ∈ pc.1.set :=
  View.cover_of_tiledL (kernelRun0_C c i arg1 harg1 arg2 harg2 arg3 harg3 hc0 hc1 x0 xs0).2.1 S1x2.size (by sl_kernel_rfl) y

/-- What case C leaves in the carried accumulator: its pieces read back. -/
def sout0_C_0 (c : Dev nD) (i : grid0.Coords) (arg1 : Memref sig .tc .vmem S1x85x128x128 .f32) (harg1 : arg1.IsWhole) (arg2 : Memref sig .tc .vmem S1x2 .f32) (harg2 : arg2.IsWhole) (arg3 : Memref sig .tc .vmem S1x2 .f32) (harg3 : arg3.IsWhole) (hc0 : ¬cond0_0 i) (hc1 : cond0_1 i)
    (x0 : Vec F S1x85x128x128 .f32) (xs0 : Vec F S1x2 .f32) : Vec F S1x2 .f32 :=
  VS0_0.read (Elt F) (VS0_0.writes (Elt F) VS0_0.junk (kernelRun0_C c i arg1 harg1 arg2 harg2 arg3 harg3 hc0 hc1 x0 xs0).2.1)

/-! ## What the buffers hold after each point -/

/-- THE ACCUMULATION. The pair (output block, accumulator) after the body at position `n`: the case selected by
    `n mod 16` (0: case A; 15: case C; otherwise case B), run at the point's staging memrefs and input block, and, in
    cases B and C, over the accumulator the point before left (the second component at `n - 1`). Both residues at once
    is no point of the grid. -/
def outsAt0 (c : Dev nD) : (n : ℕ) → n < cfg0.N → Vec F S1x2 .f32 × Vec F S1x2 .f32
  | 0, hn => (out0_A_1 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩), sout0_A_0 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩))
  | n + 1, hn =>
    if h0 : (n + 1) % 16 = 0 then
      if h1 : (n + 1) % 16 = 15 then
        False.elim (by have hN : n + 1 < 16 := lt_of_lt_of_eq hn (show cfg0.N = 16 from N_0); omega)
      else
        (out0_A_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩))
    else
      if h1 : (n + 1) % 16 = 15 then
        (out0_C_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (outsAt0 c n (Nat.lt_of_succ_lt hn)).2)
      else
        (out0_B_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (outsAt0 c n (Nat.lt_of_succ_lt hn)).2)

/-- `outsAt0` at a point of case A. -/
theorem outsAt0_A (c : Dev nD) (t : Fin cfg0.N) (h0 : t.val % 16 = 0) (h1 : ¬t.val % 16 = 15) :
    outsAt0 m c t.val t.isLt = (out0_A_1 c (grid0.coords t) (ms0_0 t) (hs0_0 t) (ms0_1 t) (hs0_1 t) scM0_0 (Memref.isWhole_whole _) ((hcond0_0 t).mpr h0) (fun h => h1 ((hcond0_1 t).mp h)) (iblk m c 0 t), sout0_A_0 c (grid0.coords t) (ms0_0 t) (hs0_0 t) (ms0_1 t) (hs0_1 t) scM0_0 (Memref.isWhole_whole _) ((hcond0_0 t).mpr h0) (fun h => h1 ((hcond0_1 t).mp h)) (iblk m c 0 t)) := by
  obtain ⟨n, hn⟩ := t
  cases n with
  | zero => exact rfl
  | succ n => exact (dif_pos h0).trans ((dif_neg h1).trans rfl)

/-- `outsAt0` at a point of case B: the case's contents over the accumulator of the point before. -/
theorem outsAt0_B (c : Dev nD) (t : Fin cfg0.N) (h0 : ¬t.val % 16 = 0) (h1 : ¬t.val % 16 = 15) :
    outsAt0 m c t.val t.isLt = (out0_B_1 c (grid0.coords t) (ms0_0 t) (hs0_0 t) (ms0_1 t) (hs0_1 t) scM0_0 (Memref.isWhole_whole _) (fun h => h0 ((hcond0_0 t).mp h)) (fun h => h1 ((hcond0_1 t).mp h)) (iblk m c 0 t) (outsAt0 m c (t.val - 1) (Nat.lt_of_le_of_lt (Nat.sub_le _ _) t.isLt)).2, sout0_B_0 c (grid0.coords t) (ms0_0 t) (hs0_0 t) (ms0_1 t) (hs0_1 t) scM0_0 (Memref.isWhole_whole _) (fun h => h0 ((hcond0_0 t).mp h)) (fun h => h1 ((hcond0_1 t).mp h)) (iblk m c 0 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: the case's contents over the accumulator of the point before. -/
theorem outsAt0_C (c : Dev nD) (t : Fin cfg0.N) (h0 : ¬t.val % 16 = 0) (h1 : t.val % 16 = 15) :
    outsAt0 m c t.val t.isLt = (out0_C_1 c (grid0.coords t) (ms0_0 t) (hs0_0 t) (ms0_1 t) (hs0_1 t) scM0_0 (Memref.isWhole_whole _) (fun h => h0 ((hcond0_0 t).mp h)) ((hcond0_1 t).mpr h1) (iblk m c 0 t) (outsAt0 m c (t.val - 1) (Nat.lt_of_le_of_lt (Nat.sub_le _ _) t.isLt)).2, sout0_C_0 c (grid0.coords t) (ms0_0 t) (hs0_0 t) (ms0_1 t) (hs0_1 t) scM0_0 (Memref.isWhole_whole _) (fun h => h0 ((hcond0_0 t).mp h)) ((hcond0_1 t).mpr h1) (iblk m c 0 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The invariant before position `n`. Before the first point: the scoped rest as the launch hands it over (the
    accumulator at arbitrary contents). Afterwards: the accumulator owned at exactly what the point before left in it
    (`outsAt0`'s second component), and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the accumulator at that point's contents. -/
theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

/-- Before a point that is not the first: the accumulator at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The proof data of the one pipeline on core `c`: the arrays as the region finds them (`V`); after the body at point
    `t` the input window's buffer at its block and the output window's at `outsAt0`'s first component; the invariant
    `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (outsAt0 m c t.val t.isLt).1
  Φ t := PhiS m c t.val (Nat.le_of_lt_succ t.isLt)
  q _ := fullShare
  owed _ := 0

/-- The proof data's arrays are the region-entry contents (the definition projected; `V` itself stays folded). -/
theorem A_eq (c : Dev nD) (w : Fin cfg0.W) : (dats m 0 c).A w = V m c (Pipeline.arrRef spec0 w) := by
  dsimp only [dats]

/-- The invariant at a point's start, restated at the point's position. -/
theorem PhiS_castSucc (c : Dev nD) (t : Fin cfg0.N) :
    (dats m 0 c).Φ t.castSucc = PhiS m c t.val (Nat.le_of_lt t.isLt) := by
  dsimp only [dats]; simp only [Fin.coe_castSucc]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = (outsAt0 m c t.val t.isLt).1 := by dsimp only [dats]

/-- The input window's current staging buffer holds the point's block at every point. -/
theorem before0_0 (c : Dev nD) (t : Fin cfg0.N) (d) : (dats m 0 c).before 0 t d = iblk m c 0 t :=
  before0_0_of m (dats m 0 c) (A_eq m c 0) (after0_0 m c) t d

/-! ## The body obligation, at a generic point -/

/-- What the body is called with at point `t`: the invariant, what is owed, and the two windows' staging buffers, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t)

set_option maxHeartbeats 4800000 in
/-- The body at any point. The input's staging buffer holds the point's block; the point's residue mod 16 says which
    case it is in, so that case's run applies. The invariant hands the body the accumulator at what the point before
    left (at arbitrary contents at point 0) and the generator register, and takes the accumulator back at this point's
    contents, its pieces covering it. Where the output window rests (cases A and B) its buffer is handed back
    untouched; in case C it is returned at its covering pieces. Nothing is owed throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  by_cases h0 : t.val % 16 = 0
  · by_cases h1 : t.val % 16 = 15
    · exfalso; omega
    · rw [show (dats m 0 c).leavesExact 0 t = owns (c : Thread nD τ) (ms0_0 t) fullShare ((dats m 0 c).after 0 t) from by
      unfold Dat.leavesExact; rw [liveAt0_0 t], after0_0]
      rw [Dat.leavesExact_idle (dats m 0 c) 1 t (idleAt0_1_A t ((hcond0_0 t).mpr h0) (fun h => h1 ((hcond0_1 t).mp h))) (noFlush0_1_A t ((hcond0_0 t).mpr h0) (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩⟩
        iapply ((kernelRun0_A c (grid0.coords t) _ _ _ _ _ _ ((hcond0_0 t).mpr h0) (fun h => h1 ((hcond0_1 t).mp h)) (iblk m c 0 t)).2.2 _ Set.univ _)
        isplitl [H0]; · iexact H0
        isplitl [H1]; · iexact H1
        isplitl [HS0]; · iexact HS0
        iintro ⟨H0, H1, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _)
          iexact Hg
        isplitl [Ho]; · iexact Ho
        isplitl [H0]; · iexact H0
        iexists _; iexact H1
      · exfalso; omega
  · by_cases h1 : t.val % 16 = 15
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1_C t (fun h => h0 ((hcond0_0 t).mp h)) ((hcond0_1 t).mpr h1)], after0_1]
      rw [outsAt0_C m c t h0 h1]
      unfold out0_C_1 sout0_C_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩⟩
        iapply ((kernelRun0_C c (grid0.coords t) _ _ _ _ _ _ (fun h => h0 ((hcond0_0 t).mp h)) ((hcond0_1 t).mpr h1) (iblk m c 0 t) _).2.2 Set.univ _)
        isplitl [H0]; · iexact H0
        isplitl [H1]; · iexists _; iexact H1
        isplitl [HS0]; · iexact HS0
        iintro ⟨H0, ⟨%e1, H1⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _)
          iexact Hg
        isplitl [Ho]; · iexact Ho
        isplitl [H0]; · iexact H0
        unfold owns; iexists _; isplitr
        swap; · iexact H1
        ipureintro; exact View.read_writes_of_cover _ _ _ _ _ (cover0_C_1 c _ _ _ _ _ _ _ _ _ _ _)
    · rw [show (dats m 0 c).leavesExact 0 t = owns (c : Thread nD τ) (ms0_0 t) fullShare ((dats m 0 c).after 0 t) from by
      unfold Dat.leavesExact; rw [liveAt0_0 t], after0_0]
      rw [Dat.leavesExact_idle (dats m 0 c) 1 t (idleAt0_1_B t (fun h => h0 ((hcond0_0 t).mp h)) (fun h => h1 ((hcond0_1 t).mp h))) (noFlush0_1_B t (fun h => h0 ((hcond0_0 t).mp h)) (fun h => h1 ((hcond0_1 t).mp h)))]
      rw [outsAt0_B m c t h0 h1]
      unfold sout0_B_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩⟩
        iapply ((kernelRun0_B c (grid0.coords t) _ _ _ _ _ _ (fun h => h0 ((hcond0_0 t).mp h)) (fun h => h1 ((hcond0_1 t).mp h)) (iblk m c 0 t) _).2.2 _ Set.univ _)
        isplitl [H0]; · iexact H0
        isplitl [H1]; · iexact H1
        isplitl [HS0]; · iexact HS0
        iintro ⟨H0, H1, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _)
          iexact Hg
        isplitl [Ho]; · iexact Ho
        isplitl [H0]; · iexact H0
        iexists _; iexact H1

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the scoped rest back: the accumulator's named contents are
    forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 16 := N_0; omega)

/-! ## The run and the frame -/

-- the launch theorem's implicit arguments are found by unifying its conclusion with this statement, which takes
-- unfolding plain definitions in a metavariable's type
set_option backward.isDefEq.respectTransparency.types false in
/-- At the compiled mesh, for any values, from any memory with zero counters: every weakly fair execution of the
    program on the TensorCores terminates, and in every final state each array of the pipeline holds what the proof
    data determine and every other unscoped buffer is as the host operations after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

/-- info: 'Cert.Kernel.Fr.run_main' depends on axioms: [propext, Classical.choice, Quot.sound] -/
#guard_msgs in #print axioms run_main

/-- THE FRAME, at any `F`: every weakly fair execution of the program terminates without fault, and both argument
    arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Fr

end
-- ==== Proof.KI.FrameKit.lean ====
/-
  The frame kit of the kernel program: one pipelined region on a grid of sixteen points, entered first in the
  entry function and followed by host operations only.

  What is stated here, generic in the float interpretation:
  * the entry function reduces to the region continued by the later host operations, cut into the fifteen
    stretches the windows of its text give; every operation of those stretches touches unscoped TensorCore
    references only, allocates nothing, and writes neither array of the pipeline (the first argument, read
    block by block, and the region's result) nor the second argument, which bypasses the region;
  * hence a run to the pipeline's frame post leaves both arguments as they were: the first is an input
    array, never written back, the second keeps its contents through the region and through every later line;
  * the two branch conditions of the body as functions of the grid point, with their closed forms
    (the scratch is reset exactly at point 0, the output is stored exactly at point 15), and where the
    output window is idle and not written back;
  * the staging and scratch memrefs the body is called with, and the region invariant spelt over the scratch.
-/
import proofs.«175006_j89550068121905_1_alg».proof.Proof.Gen.KernelIdeal.Launch
import proofs.«175006_j89550068121905_1_alg».proof.Proof.Gen.KernelIdeal.Skeleton
import proofs.«175006_j89550068121905_1_alg».proof.Proof.Gen.KernelIdeal.Points
import proofs.«175006_j89550068121905_1_alg».proof.Proof.LibCarry
import Idealize.ShloMosaic.Lib.Pipeline.FrameBody
import Idealize.ShloMosaic.Lib.Pipeline.FrameSuffix
import Idealize.ShloMosaic.Lib.Ring
import Idealize.ShloMosaic.Lib.Tactic

-- membership in a rectangle of large extents: the elaborator's structural look recurses once per coordinate
set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The entry function around the region -/

/-- Core `c`'s TensorCore buffer contents when the region is entered, as a valuation: no host operation comes
    before the region, so they are the launch contents. -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

/-- The host operations after the region, as the stretches the text's windows cut them into, in order. -/
abbrev tailOps : List (List (HloOp τ sig (Elt F))) :=
  [main_part0_ops0, main_part1_ops0, main_part2_ops0, main_part3_ops0, main_part3_ops1, main_part3_ops2, main_part4_ops0, main_part4_ops1, main_part4_ops2, main_part5_ops0, main_part5_ops1, main_part5_ops2, main_part5_ops3, main_part5_ops4, main_part6_ops0]

/-! ### Per stretch: nothing allocated, no array of the pipeline written, the second argument not written

Each operation writes its own result buffer only, and no result buffer is the first argument, the region's
result or the second argument: decided reference by reference. -/

theorem main_part0_ops0_fresh : (main_part0_ops0 : List (HloOp τ sig (Elt F))).Forall fun op => op.fresh = ∅ := by
  simp only [List.Forall]; repeat' constructor
theorem main_part0_ops0_keeps : (main_part0_ops0 : List (HloOp τ sig (Elt F))).Forall fun op =>
    ∀ w, Proc.devRef .tc (Pipeline.arrRef spec0 w) ∉ op.writes := by
  simp only [List.Forall]; repeat' constructor
  all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)
theorem main_part0_ops0_keeps1 : (main_part0_ops0 : List (HloOp τ sig (Elt F))).Forall fun op =>
    Proc.devRef .tc main_arg1 ∉ op.writes := by
  simp only [List.Forall]; repeat' constructor
  all_goals simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)

theorem main_part1_ops0_fresh : (main_part1_ops0 : List (HloOp τ sig (Elt F))).Forall fun op => op.fresh = ∅ := by
  simp only [List.Forall]; repeat' constructor
theorem main_part1_ops0_keeps : (main_part1_ops0 : List (HloOp τ sig (Elt F))).Forall fun op =>
    ∀ w, Proc.devRef .tc (Pipeline.arrRef spec0 w) ∉ op.writes := by
  simp only [List.Forall]; repeat' constructor
  all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)
theorem main_part1_ops0_keeps1 : (main_part1_ops0 : List (HloOp τ sig (Elt F))).Forall fun op =>
    Proc.devRef .tc main_arg1 ∉ op.writes := by
  simp only [List.Forall]; repeat' constructor
  all_goals simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)

theorem main_part2_ops0_fresh : (main_part2_ops0 : List (HloOp τ sig (Elt F))).Forall fun op => op.fresh = ∅ := by
  simp only [List.Forall]; repeat' constructor
theorem main_part2_ops0_keeps : (main_part2_ops0 : List (HloOp τ sig (Elt F))).Forall fun op =>
    ∀ w, Proc.devRef .tc (Pipeline.arrRef spec0 w) ∉ op.writes := by
  simp only [List.Forall]; repeat' constructor
  all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)
theorem main_part2_ops0_keeps1 : (main_part2_ops0 : List (HloOp τ sig (Elt F))).Forall fun op =>
    Proc.devRef .tc main_arg1 ∉ op.writes := by
  simp only [List.Forall]; repeat' constructor
  all_goals simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)

theorem main_part3_ops0_fresh : (main_part3_ops0 : List (HloOp τ sig (Elt F))).Forall fun op => op.fresh = ∅ := by
  simp only [List.Forall]; repeat' constructor
theorem main_part3_ops0_keeps : (main_part3_ops0 : List (HloOp τ sig (Elt F))).Forall fun op =>
    ∀ w, Proc.devRef .tc (Pipeline.arrRef spec0 w) ∉ op.writes := by
  simp only [List.Forall]; repeat' constructor
  all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)
theorem main_part3_ops0_keeps1 : (main_part3_ops0 : List (HloOp τ sig (Elt F))).Forall fun op =>
    Proc.devRef .tc main_arg1 ∉ op.writes := by
  simp only [List.Forall]; repeat' constructor
  all_goals simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)

theorem main_part3_ops1_fresh : (main_part3_ops1 : List (HloOp τ sig (Elt F))).Forall fun op => op.fresh = ∅ := by
  simp only [List.Forall]; repeat' constructor
theorem main_part3_ops1_keeps : (main_part3_ops1 : List (HloOp τ sig (Elt F))).Forall fun op =>
    ∀ w, Proc.devRef .tc (Pipeline.arrRef spec0 w) ∉ op.writes := by
  simp only [List.Forall]; repeat' constructor
  all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)
theorem main_part3_ops1_keeps1 : (main_part3_ops1 : List (HloOp τ sig (Elt F))).Forall fun op =>
    Proc.devRef .tc main_arg1 ∉ op.writes := by
  simp only [List.Forall]; repeat' constructor
  all_goals simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)

theorem main_part3_ops2_fresh : (main_part3_ops2 : List (HloOp τ sig (Elt F))).Forall fun op => op.fresh = ∅ := by
  simp only [List.Forall]; repeat' constructor
theorem main_part3_ops2_keeps : (main_part3_ops2 : List (HloOp τ sig (Elt F))).Forall fun op =>
    ∀ w, Proc.devRef .tc (Pipeline.arrRef spec0 w) ∉ op.writes := by
  simp only [List.Forall]; repeat' constructor
  all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)
theorem main_part3_ops2_keeps1 : (main_part3_ops2 : List (HloOp τ sig (Elt F))).Forall fun op =>
    Proc.devRef .tc main_arg1 ∉ op.writes := by
  simp only [List.Forall]; repeat' constructor
  all_goals simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)

theorem main_part4_ops0_fresh : (main_part4_ops0 : List (HloOp τ sig (Elt F))).Forall fun op => op.fresh = ∅ := by
  simp only [List.Forall]; repeat' constructor
theorem main_part4_ops0_keeps : (main_part4_ops0 : List (HloOp τ sig (Elt F))).Forall fun op =>
    ∀ w, Proc.devRef .tc (Pipeline.arrRef spec0 w) ∉ op.writes := by
  simp only [List.Forall]; repeat' constructor
  all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)
theorem main_part4_ops0_keeps1 : (main_part4_ops0 : List (HloOp τ sig (Elt F))).Forall fun op =>
    Proc.devRef .tc main_arg1 ∉ op.writes := by
  simp only [List.Forall]; repeat' constructor
  all_goals simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)

theorem main_part4_ops1_fresh : (main_part4_ops1 : List (HloOp τ sig (Elt F))).Forall fun op => op.fresh = ∅ := by
  simp only [List.Forall]; repeat' constructor
theorem main_part4_ops1_keeps : (main_part4_ops1 : List (HloOp τ sig (Elt F))).Forall fun op =>
    ∀ w, Proc.devRef .tc (Pipeline.arrRef spec0 w) ∉ op.writes := by
  simp only [List.Forall]; repeat' constructor
  all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)
theorem main_part4_ops1_keeps1 : (main_part4_ops1 : List (HloOp τ sig (Elt F))).Forall fun op =>
    Proc.devRef .tc main_arg1 ∉ op.writes := by
  simp only [List.Forall]; repeat' constructor
  all_goals simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)

theorem main_part4_ops2_fresh : (main_part4_ops2 : List (HloOp τ sig (Elt F))).Forall fun op => op.fresh = ∅ := by
  simp only [List.Forall]; repeat' constructor
theorem main_part4_ops2_keeps : (main_part4_ops2 : List (HloOp τ sig (Elt F))).Forall fun op =>
    ∀ w, Proc.devRef .tc (Pipeline.arrRef spec0 w) ∉ op.writes := by
  simp only [List.Forall]; repeat' constructor
  all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)
theorem main_part4_ops2_keeps1 : (main_part4_ops2 : List (HloOp τ sig (Elt F))).Forall fun op =>
    Proc.devRef .tc main_arg1 ∉ op.writes := by
  simp only [List.Forall]; repeat' constructor
  all_goals simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)

theorem main_part5_ops0_fresh : (main_part5_ops0 : List (HloOp τ sig (Elt F))).Forall fun op => op.fresh = ∅ := by
  simp only [List.Forall]; repeat' constructor
theorem main_part5_ops0_keeps : (main_part5_ops0 : List (HloOp τ sig (Elt F))).Forall fun op =>
    ∀ w, Proc.devRef .tc (Pipeline.arrRef spec0 w) ∉ op.writes := by
  simp only [List.Forall]; repeat' constructor
  all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)
theorem main_part5_ops0_keeps1 : (main_part5_ops0 : List (HloOp τ sig (Elt F))).Forall fun op =>
    Proc.devRef .tc main_arg1 ∉ op.writes := by
  simp only [List.Forall]; repeat' constructor
  all_goals simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)

theorem main_part5_ops1_fresh : (main_part5_ops1 : List (HloOp τ sig (Elt F))).Forall fun op => op.fresh = ∅ := by
  simp only [List.Forall]; repeat' constructor
theorem main_part5_ops1_keeps : (main_part5_ops1 : List (HloOp τ sig (Elt F))).Forall fun op =>
    ∀ w, Proc.devRef .tc (Pipeline.arrRef spec0 w) ∉ op.writes := by
  simp only [List.Forall]; repeat' constructor
  all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)
theorem main_part5_ops1_keeps1 : (main_part5_ops1 : List (HloOp τ sig (Elt F))).Forall fun op =>
    Proc.devRef .tc main_arg1 ∉ op.writes := by
  simp only [List.Forall]; repeat' constructor
  all_goals simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)

theorem main_part5_ops2_fresh : (main_part5_ops2 : List (HloOp τ sig (Elt F))).Forall fun op => op.fresh = ∅ := by
  simp only [List.Forall]; repeat' constructor
theorem main_part5_ops2_keeps : (main_part5_ops2 : List (HloOp τ sig (Elt F))).Forall fun op =>
    ∀ w, Proc.devRef .tc (Pipeline.arrRef spec0 w) ∉ op.writes := by
  simp only [List.Forall]; repeat' constructor
  all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)
theorem main_part5_ops2_keeps1 : (main_part5_ops2 : List (HloOp τ sig (Elt F))).Forall fun op =>
    Proc.devRef .tc main_arg1 ∉ op.writes := by
  simp only [List.Forall]; repeat' constructor
  all_goals simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)

theorem main_part5_ops3_fresh : (main_part5_ops3 : List (HloOp τ sig (Elt F))).Forall fun op => op.fresh = ∅ := by
  simp only [List.Forall]; repeat' constructor
theorem main_part5_ops3_keeps : (main_part5_ops3 : List (HloOp τ sig (Elt F))).Forall fun op =>
    ∀ w, Proc.devRef .tc (Pipeline.arrRef spec0 w) ∉ op.writes := by
  simp only [List.Forall]; repeat' constructor
  all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)
theorem main_part5_ops3_keeps1 : (main_part5_ops3 : List (HloOp τ sig (Elt F))).Forall fun op =>
    Proc.devRef .tc main_arg1 ∉ op.writes := by
  simp only [List.Forall]; repeat' constructor
  all_goals simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)

theorem main_part5_ops4_fresh : (main_part5_ops4 : List (HloOp τ sig (Elt F))).Forall fun op => op.fresh = ∅ := by
  simp only [List.Forall]; repeat' constructor
theorem main_part5_ops4_keeps : (main_part5_ops4 : List (HloOp τ sig (Elt F))).Forall fun op =>
    ∀ w, Proc.devRef .tc (Pipeline.arrRef spec0 w) ∉ op.writes := by
  simp only [List.Forall]; repeat' constructor
  all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)
theorem main_part5_ops4_keeps1 : (main_part5_ops4 : List (HloOp τ sig (Elt F))).Forall fun op =>
    Proc.devRef .tc main_arg1 ∉ op.writes := by
  simp only [List.Forall]; repeat' constructor
  all_goals simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)

theorem main_part6_ops0_fresh : (main_part6_ops0 : List (HloOp τ sig (Elt F))).Forall fun op => op.fresh = ∅ := by
  simp only [List.Forall]; repeat' constructor
theorem main_part6_ops0_keeps : (main_part6_ops0 : List (HloOp τ sig (Elt F))).Forall fun op =>
    ∀ w, Proc.devRef .tc (Pipeline.arrRef spec0 w) ∉ op.writes := by
  simp only [List.Forall]; repeat' constructor
  all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)
theorem main_part6_ops0_keeps1 : (main_part6_ops0 : List (HloOp τ sig (Elt F))).Forall fun op =>
    Proc.devRef .tc main_arg1 ∉ op.writes := by
  simp only [List.Forall]; repeat' constructor
  all_goals simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)

/-- The entry function around the region: it is the region CONTINUED BY the later stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [] tailOps (by simp only [List.Forall])
    (by simp only [List.Forall]) main_chain_windows

/-- The later stretches touch the pipeline's arrays and the bypassing buffers only (each operation's buffers are
    unscoped TensorCore references, and with nothing prefetched every such reference is one or the other). -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl | rfl | rfl | rfl | rfl | rfl | rfl | rfl | rfl
  · exact Pipeline.sub_ucRefs op ((List.forall_iff_forall_mem.mp main_part0_ops0_sub) op hop)
  · exact Pipeline.sub_ucRefs op ((List.forall_iff_forall_mem.mp main_part1_ops0_sub) op hop)
  · exact Pipeline.sub_ucRefs op ((List.forall_iff_forall_mem.mp main_part2_ops0_sub) op hop)
  · exact Pipeline.sub_ucRefs op ((List.forall_iff_forall_mem.mp main_part3_ops0_sub) op hop)
  · exact Pipeline.sub_ucRefs op ((List.forall_iff_forall_mem.mp main_part3_ops1_sub) op hop)
  · exact Pipeline.sub_ucRefs op ((List.forall_iff_forall_mem.mp main_part3_ops2_sub) op hop)
  · exact Pipeline.sub_ucRefs op ((List.forall_iff_forall_mem.mp main_part4_ops0_sub) op hop)
  · exact Pipeline.sub_ucRefs op ((List.forall_iff_forall_mem.mp main_part4_ops1_sub) op hop)
  · exact Pipeline.sub_ucRefs op ((List.forall_iff_forall_mem.mp main_part4_ops2_sub) op hop)
  · exact Pipeline.sub_ucRefs op ((List.forall_iff_forall_mem.mp main_part5_ops0_sub) op hop)
  · exact Pipeline.sub_ucRefs op ((List.forall_iff_forall_mem.mp main_part5_ops1_sub) op hop)
  · exact Pipeline.sub_ucRefs op ((List.forall_iff_forall_mem.mp main_part5_ops2_sub) op hop)
  · exact Pipeline.sub_ucRefs op ((List.forall_iff_forall_mem.mp main_part5_ops3_sub) op hop)
  · exact Pipeline.sub_ucRefs op ((List.forall_iff_forall_mem.mp main_part5_ops4_sub) op hop)
  · exact Pipeline.sub_ucRefs op ((List.forall_iff_forall_mem.mp main_part6_ops0_sub) op hop)
/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl | rfl | rfl | rfl | rfl | rfl | rfl | rfl | rfl | rfl | rfl
  · exact (List.forall_iff_forall_mem.mp main_part0_ops0_fresh) op hop
  · exact (List.forall_iff_forall_mem.mp main_part1_ops0_fresh) op hop
  · exact (List.forall_iff_forall_mem.mp main_part2_ops0_fresh) op hop
  · exact (List.forall_iff_forall_mem.mp main_part3_ops0_fresh) op hop
  · exact (List.forall_iff_forall_mem.mp main_part3_ops1_fresh) op hop
  · exact (List.forall_iff_forall_mem.mp main_part3_ops2_fresh) op hop
  · exact (List.forall_iff_forall_mem.mp main_part4_ops0_fresh) op hop
  · exact (List.forall_iff_forall_mem.mp main_part4_ops1_fresh) op hop
  · exact (List.forall_iff_forall_mem.mp main_part4_ops2_fresh) op hop
  · exact (List.forall_iff_forall_mem.mp main_part5_ops0_fresh) op hop
  · exact (List.forall_iff_forall_mem.mp main_part5_ops1_fresh) op hop
  · exact (List.forall_iff_forall_mem.mp main_part5_ops2_fresh) op hop
  · exact (List.forall_iff_forall_mem.mp main_part5_ops3_fresh) op hop
  · exact (List.forall_iff_forall_mem.mp main_part5_ops4_fresh) op hop
  · exact (List.forall_iff_forall_mem.mp main_part6_ops0_fresh) op hop
/-- They write no array of the pipeline (each writes only its own result buffer, which is no array). -/
theorem sfx_keeps : ∀ ops ∈ (tailOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl | rfl | rfl | rfl | rfl | rfl | rfl | rfl | rfl | rfl | rfl
  · exact (List.forall_iff_forall_mem.mp main_part0_ops0_keeps) op hop
  · exact (List.forall_iff_forall_mem.mp main_part1_ops0_keeps) op hop
  · exact (List.forall_iff_forall_mem.mp main_part2_ops0_keeps) op hop
  · exact (List.forall_iff_forall_mem.mp main_part3_ops0_keeps) op hop
  · exact (List.forall_iff_forall_mem.mp main_part3_ops1_keeps) op hop
  · exact (List.forall_iff_forall_mem.mp main_part3_ops2_keeps) op hop
  · exact (List.forall_iff_forall_mem.mp main_part4_ops0_keeps) op hop
  · exact (List.forall_iff_forall_mem.mp main_part4_ops1_keeps) op hop
  · exact (List.forall_iff_forall_mem.mp main_part4_ops2_keeps) op hop
  · exact (List.forall_iff_forall_mem.mp main_part5_ops0_keeps) op hop
  · exact (List.forall_iff_forall_mem.mp main_part5_ops1_keeps) op hop
  · exact (List.forall_iff_forall_mem.mp main_part5_ops2_keeps) op hop
  · exact (List.forall_iff_forall_mem.mp main_part5_ops3_keeps) op hop
  · exact (List.forall_iff_forall_mem.mp main_part5_ops4_keeps) op hop
  · exact (List.forall_iff_forall_mem.mp main_part6_ops0_keeps) op hop
/-- Nor the second argument. -/
theorem sfx_keeps1 : ∀ ops ∈ (tailOps : List (List (HloOp τ sig (Elt F)))), ∀ op ∈ ops,
    Proc.devRef .tc main_arg1 ∉ op.writes := by
  intro ops hops op hop
  simp only [List.mem_cons, List.mem_nil_iff, or_false] at hops
  rcases hops with rfl | rfl | rfl | rfl | rfl | rfl | rfl | rfl | rfl | rfl | rfl | rfl | rfl | rfl | rfl
  · exact (List.forall_iff_forall_mem.mp main_part0_ops0_keeps1) op hop
  · exact (List.forall_iff_forall_mem.mp main_part1_ops0_keeps1) op hop
  · exact (List.forall_iff_forall_mem.mp main_part2_ops0_keeps1) op hop
  · exact (List.forall_iff_forall_mem.mp main_part3_ops0_keeps1) op hop
  · exact (List.forall_iff_forall_mem.mp main_part3_ops1_keeps1) op hop
  · exact (List.forall_iff_forall_mem.mp main_part3_ops2_keeps1) op hop
  · exact (List.forall_iff_forall_mem.mp main_part4_ops0_keeps1) op hop
  · exact (List.forall_iff_forall_mem.mp main_part4_ops1_keeps1) op hop
  · exact (List.forall_iff_forall_mem.mp main_part4_ops2_keeps1) op hop
  · exact (List.forall_iff_forall_mem.mp main_part5_ops0_keeps1) op hop
  · exact (List.forall_iff_forall_mem.mp main_part5_ops1_keeps1) op hop
  · exact (List.forall_iff_forall_mem.mp main_part5_ops2_keeps1) op hop
  · exact (List.forall_iff_forall_mem.mp main_part5_ops3_keeps1) op hop
  · exact (List.forall_iff_forall_mem.mp main_part5_ops4_keeps1) op hop
  · exact (List.forall_iff_forall_mem.mp main_part6_ops0_keeps1) op hop

theorem V_main_arg0 (c : Dev nD) : V m c main_arg0 = m ((c : Thread nD τ).loc main_arg0) := rfl
theorem V_main_arg1 (c : Dev nD) : V m c main_arg1 = m ((c : Thread nD τ).loc main_arg1) := rfl

/-- The second argument after the later stretches, from ANY exit contents of the region that have the region-entry
    contents outside the arrays: it is no array of the pipeline and no later operation writes it, so it holds what the
    launch gave it. -/
theorem tail_main_arg1 (dats : (p : Fin 1) → (c : Dev nD) → Dat τ (Elt F) Unit ℕ (UR sig nD τ) ℕ (cfgs p) c) (c : Dev nD) :
    Pipeline.afterTail₀ cfgs dats 0 (V0 m) (tailOps (F := F)) c main_arg1 = m ((c.tc : Thread nD τ).loc main_arg1) := by
  unfold Pipeline.afterTail₀
  rw [StableHlo.after_of_forall_not_mem _ _ (fun op hop => by
        obtain ⟨ops, hops, hop'⟩ := List.mem_flatten.mp hop
        exact sfx_keeps1 ops hops op hop'),
    Pipeline.withArrays_of_ne _ c _ _ main_arg1 (by decide)]
  rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): unfetched, the index has
    not moved; the window is uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to the
    pipeline's frame post read at the two arguments — the first a staged input, whose array is never written back; the
    second no array of the pipeline, kept by the region and by every later stretch — is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (tail_main_arg1 m dats c)⟩) h

/-! ## The body's branch conditions -/

/-- The condition of the body's first branch (the scratch is reset), from the grid coordinates. -/
abbrev cond0_0 (i : grid0.Coords) : Prop := (Scalar.cmpi .ne (Scalar.extui (Scalar.cmpi .eq (BitVec.ofNat 32 (i 0).val) 0#32)) 0#32) = 1#1
/-- It holds at point 0 only — decided over the grid. -/
theorem hcond0_0 : ∀ t : Fin cfg0.N, cond0_0 (grid0.coords t) ↔ t.val % 16 = 0 :=
  (by decide +kernel : ∀ t : Fin grid0.N, cond0_0 (grid0.coords t) ↔ t.val % 16 = 0)

/-- The condition of the body's second branch (the scratch is copied to the output), from the grid coordinates. -/
abbrev cond0_1 (i : grid0.Coords) : Prop := k0_cond2 i = 1#1
/-- It holds at point 15 only — decided over the grid. -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

/-- Window 0 is never idle (an input). -/
theorem liveAt0_0 : ∀ t : Fin cfg0.N, cfg0.idle 0 (grid0.coords t) = false := by decide +kernel
/-- At the point of case A the configuration calls output 1 idle: the case stores nothing into it. -/
theorem idleAt0_1_A : ∀ t : Fin cfg0.N, cond0_0 (grid0.coords t) → ¬cond0_1 (grid0.coords t) → cfg0.idle 1 (grid0.coords t) = true := by decide +kernel
/-- At the point of case A the pipeline does not write output 1's block back. -/
theorem noFlush0_1_A : ∀ t : Fin cfg0.N, cond0_0 (grid0.coords t) → ¬cond0_1 (grid0.coords t) → (cfg0.win 1).flush t = false := by decide +kernel
/-- At the points of case B the configuration calls output 1 idle: the case stores nothing into it. -/
theorem idleAt0_1_B : ∀ t : Fin cfg0.N, ¬cond0_0 (grid0.coords t) → ¬cond0_1 (grid0.coords t) → cfg0.idle 1 (grid0.coords t) = true := by decide +kernel
/-- At the points of case B the pipeline does not write output 1's block back. -/
theorem noFlush0_1_B : ∀ t : Fin cfg0.N, ¬cond0_0 (grid0.coords t) → ¬cond0_1 (grid0.coords t) → (cfg0.win 1).flush t = false := by decide +kernel
/-- At the point of case C the configuration calls output 1 live: the case stores into it. -/
theorem liveAt0_1_C : ∀ t : Fin cfg0.N, ¬cond0_0 (grid0.coords t) → cond0_1 (grid0.coords t) → cfg0.idle 1 (grid0.coords t) = false := by decide +kernel

/-! ## The kernel body on any staging memrefs -/

/-- One staging buffer of output window 1, through which its contents are stated (the choice does not matter). -/
abbrev VO0_1 : View sig .tc .vmem S1x2 .f32 := (Memref.whole cc0_stg1_0 : Memref sig .tc .vmem S1x2 .f32).view
/-- Each window's current staging memref at point `t`, spelled as the pipeline passes it, and its wholeness. -/
abbrev ms0_0 (t : Fin cfg0.N) : Memref sig .tc .vmem S1x85x128x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2 .f32 := win0_1.stage (cfg0.slots t 1)
abbrev hs0_1 (t : Fin cfg0.N) : (ms0_1 t).IsWhole := hstage0_1 ((cfg0.slots t 1).cast nbuf0_1)
/-- The scratch operand: a whole scoped buffer of the kernel's own, passed beside the windows. -/
abbrev scM0_0 : Memref sig .tc .vmem S1x2 .f32 := Memref.whole cc0_scratch0
/-- The scratch the kernel carries between points, as a view: what it holds is stated through it. -/
abbrev VS0_0 : View sig .tc .vmem S1x2 .f32 := scM0_0.view

/-- The region invariant with the scratch operand as a memref owned at some contents: what the body obligation hands
    the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Fr

end
-- ==== Proof.KI.RunA.lean ====
/-
  The whole-body run of the kernel at the first grid point (case A: the first branch is taken and resets the
  scratch, the second is not taken).

  On whole staging memrefs — the input block at its contents, the output's buffer at contents handed back untouched
  (the case stores nothing into it), the scratch at anything — the body runs to a continuation that holds the input
  block as it was, the output's buffer as it was, and the scratch with the pieces the case's two stores wrote: the
  zero fill, then the point's two partial sums added to it. The pieces are found by the run itself.
-/
import proofs.«175006_j89550068121905_1_alg».proof.Proof.KI.FrameKit

-- membership in a rectangle of large extents: the elaborator's structural look recurses once per coordinate
set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue walks it past the default budget)
set_option maxHeartbeats 1000000 in
/-- What the body's stores leave in each output's staging memref, as pieces (last first) IN CASE A (first branch taken,
    second not: point 0), WITH the proof that on whole staging memrefs — the input's at its contents `x0`, output 1's
    (no store: idle and not written back at the case's point) at contents `xi1` handed back untouched, the carried
    scratch at anything — the body runs to the continuation holding the input's as it was, output 1's as it was, and
    the scratch with its pieces written (`LS0`). Each branch is decided by the case's hypotheses. -/
noncomputable def kernelRun0_A (c : Dev nD) (i : grid0.Coords) (arg1 : Memref sig .tc .vmem S1x85x128x128 .f32) (harg1 : arg1.IsWhole) (arg2 : Memref sig .tc .vmem S1x2 .f32) (harg2 : arg2.IsWhole) (arg3 : Memref sig .tc .vmem S1x2 .f32) (harg3 : arg3.IsWhole) (hc0 : cond0_0 i) (hc1 : ¬cond0_1 i)
    (x0 : Vec F S1x85x128x128 .f32) :
    Σ' (L1 : List (View.Piece (Elt F) S1x2 .f32)), { LS0 : List (View.Piece (Elt F) S1x2 .f32) //
      ∀ (xi1 : Vec F S1x2 .f32) (E : Set ℕ) (K : PUnit → sProp 𝕄),
        iprop(owns (c : Thread nD τ) arg1 fullShare x0 ∗ owns (c : Thread nD τ) arg2 fullShare xi1 ∗ (∃ d, owns (c : Thread nD τ) arg3 fullShare d)
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc0__sums_kernel i arg1 harg1 arg2 harg2 arg3 harg3) K } := by
  refine ⟨[], ?_, fun xi1 E K => ?run⟩
  case run =>
    simp only [cc0__sums_kernel_eq_skeleton]; unfold cc0__sums_kernel_skel
    simp only [k0_part1_eq_skeleton]
    unfold owns
    iintro ⟨⟨%f0, %hf0, H0⟩, ⟨%f1, %hf1, H1⟩, ⟨%ds0, %fs0, -, HS0⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

end Cert.KernelIdeal.Fr

end
-- ==== Proof.KI.RunB.lean ====
/-
  The whole-body run of the kernel at the inner grid points (case B: neither branch is taken).

  On whole staging memrefs — the input block at its contents, the output's buffer at contents handed back untouched
  (the case stores nothing into it), the scratch at the contents the point before left — the body runs to a
  continuation that holds the input block as it was, the output's buffer as it was, and the scratch with the piece the
  case's one store wrote: the point's two partial sums added to what the scratch held.
-/
import proofs.«175006_j89550068121905_1_alg».proof.Proof.KI.RunA

-- membership in a rectangle of large extents: the elaborator's structural look recurses once per coordinate
set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue walks it past the default budget)
set_option maxHeartbeats 1000000 in
/-- What the body's stores leave in each output's staging memref, as pieces (last first) IN CASE B (neither branch
    taken: points 1 to 14), WITH the proof that on whole staging memrefs — the input's at its contents `x0`, output 1's
    (no store: idle and not written back at the case's points) at contents `xi1` handed back untouched, the carried
    scratch at the contents `xs0` the point before left — the body runs to the continuation holding the input's as it
    was, output 1's as it was, and the scratch with its pieces written (`LS0`). -/
noncomputable def kernelRun0_B (c : Dev nD) (i : grid0.Coords) (arg1 : Memref sig .tc .vmem S1x85x128x128 .f32) (harg1 : arg1.IsWhole) (arg2 : Memref sig .tc .vmem S1x2 .f32) (harg2 : arg2.IsWhole) (arg3 : Memref sig .tc .vmem S1x2 .f32) (harg3 : arg3.IsWhole) (hc0 : ¬cond0_0 i) (hc1 : ¬cond0_1 i)
    (x0 : Vec F S1x85x128x128 .f32) (xs0 : Vec F S1x2 .f32) :
    Σ' (L1 : List (View.Piece (Elt F) S1x2 .f32)), { LS0 : List (View.Piece (Elt F) S1x2 .f32) //
      ∀ (xi1 : Vec F S1x2 .f32) (E : Set ℕ) (K : PUnit → sProp 𝕄),
        iprop(owns (c : Thread nD τ) arg1 fullShare x0 ∗ owns (c : Thread nD τ) arg2 fullShare xi1 ∗ owns (c : Thread nD τ) arg3 fullShare xs0
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc0__sums_kernel i arg1 harg1 arg2 harg2 arg3 harg3) K } := by
  refine ⟨[], ?_, fun xi1 E K => ?run⟩
  case run =>
    simp only [cc0__sums_kernel_eq_skeleton]; unfold cc0__sums_kernel_skel
    simp only [k0_part1_eq_skeleton]
    unfold owns
    iintro ⟨⟨%f0, %hf0, H0⟩, ⟨%f1, %hf1, H1⟩, ⟨%fs0, %hfs0, HS0⟩, Hk⟩
    obtain rfl := harg1.eq_unread hf0; obtain rfl := harg2.eq_unread hf1; obtain rfl := harg3.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

end Cert.KernelIdeal.Fr

end
-- ==== Proof.KI.RunC.lean ====
/-
  The whole-body run of the kernel at the last grid point (case C: the first branch is not taken, the second is and
  copies the scratch to the output).

  On whole staging memrefs — the input block at its contents, the output's buffer at anything, the scratch at the
  contents the point before left — the body runs to a continuation that holds the input block as it was, the output's
  buffer with the piece the case's store wrote (the finished scratch), and the scratch with the piece its own store
  wrote: the point's two partial sums added to what the scratch held.
-/
import proofs.«175006_j89550068121905_1_alg».proof.Proof.KI.RunB

-- membership in a rectangle of large extents: the elaborator's structural look recurses once per coordinate
set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue walks it past the default budget)
set_option maxHeartbeats 1000000 in
/-- What the body's stores leave in each output's staging memref, as pieces (last first) IN CASE C (first branch not
    taken, second taken: point 15), WITH the proof that on whole staging memrefs — the input's at its contents `x0`,
    output 1's at anything, the carried scratch at the contents `xs0` the point before left — the body runs to the
    continuation holding the input's as it was, output 1's buffer with its pieces written (`L1`), and the scratch with
    its pieces written (`LS0`). -/
noncomputable def kernelRun0_C (c : Dev nD) (i : grid0.Coords) (arg1 : Memref sig .tc .vmem S1x85x128x128 .f32) (harg1 : arg1.IsWhole) (arg2 : Memref sig .tc .vmem S1x2 .f32) (harg2 : arg2.IsWhole) (arg3 : Memref sig .tc .vmem S1x2 .f32) (harg3 : arg3.IsWhole) (hc0 : ¬cond0_0 i) (hc1 : cond0_1 i)
    (x0 : Vec F S1x85x128x128 .f32) (xs0 : Vec F S1x2 .f32) :
    Σ' (L1 : List (View.Piece (Elt F) S1x2 .f32)), { LS0 : List (View.Piece (Elt F) S1x2 .f32) //
      ∀ (E : Set ℕ) (K : PUnit → sProp 𝕄),
        iprop(owns (c : Thread nD τ) arg1 fullShare x0 ∗ (∃ d, owns (c : Thread nD τ) arg2 fullShare d) ∗ owns (c : Thread nD τ) arg3 fullShare xs0
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f LS0)) -∗ K ⟨⟩))
          ⊢ wp frame (wpE (defs₀ (F := F)) Variants.none c none) E (cc0__sums_kernel i arg1 harg1 arg2 harg2 arg3 harg3) K } := by
  refine ⟨?_, ?_, fun E K => ?run⟩
  case run =>
    simp only [cc0__sums_kernel_eq_skeleton]; unfold cc0__sums_kernel_skel
    simp only [k0_part1_eq_skeleton]
    unfold owns
    iintro ⟨⟨%f0, %hf0, H0⟩, ⟨%d1, %f1, -, H1⟩, ⟨%fs0, %hfs0, HS0⟩, Hk⟩
    obtain rfl := harg1.eq_unread hf0; obtain rfl := harg3.eq_unread hfs0
    sl_exec (disch := first | exact hc0 | exact hc1)
    sl_step
    iapply Hk
    isplitl [H0]
    · iexists _; isplitr; · ipureintro; exact harg1.read_unread _
      iexact H0
    isplitl [H1]; · iexists _; iexact H1
    iexists _; iexact HS0

end Cert.KernelIdeal.Fr

end
-- ==== Proof.KI.Frame.lean ====
/- The frame certificate of the program's one TensorCore kernel, for any float model `F`.

   The kernel runs on a grid of 16 points. At every point it loads the point's input block (`1x85x128x128`), loads a
   `1x2` accumulator that lives in scratch memory and is carried from point to point, adds to it a pair of sums
   reduced from the block, and stores it back; at point 0 it first stores zeros into the accumulator, and at point 15
   it finally copies the accumulator into the `1x2` output block, which is written back to its array there and
   nowhere else. So a point is in one of three cases:
   A (point 0: reset, no copy), B (points 1 to 14: neither), C (point 15: copy, no reset).

   This module states, case by case, what the body's stores leave in the output block and in the accumulator
   (the stored pieces read back, and that the pieces cover the buffer); defines by recursion on the point what the
   two buffers hold after each point (`outsAt0`: the case selected by the point's residue mod 16, run over what the
   point before left in the accumulator); gives the invariant between points (`PhiS`: the accumulator owned at
   exactly those contents), the proof data of the pipeline (`dats`), the body's triple at a generic point
   (`sound_body`), the run of the whole program (`run_main`) and the frame claim (`frame`): every weakly fair execution
   terminates, nothing faulting, and both argument arrays end as they began. -/
import proofs.«175006_j89550068121905_1_alg».proof.Proof.KI.RunC

-- deciding membership in a literal rectangle recurses once per coordinate of its long axes
set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the output block and in the accumulator -/

/-- In case A the body stores nothing into the output block (its window rests at these points and is not written
    back): the value named here is the empty list of pieces read back over arbitrary contents, a placeholder no later
    statement depends on. -/
def out0_A_1 (c : Dev nD) (i : grid0.Coords) (arg1 : Memref sig .tc .vmem S1x85x128x128 .f32) (harg1 : arg1.IsWhole) (arg2 : Memref sig .tc .vmem S1x2 .f32) (harg2 : arg2.IsWhole) (arg3 : Memref sig .tc .vmem S1x2 .f32) (harg3 : arg3.IsWhole) (hc0 : cond0_0 i) (hc1 : ¬cond0_1 i)
    (x0 : Vec F S1x85x128x128 .f32) : Vec F S1x2 .f32 :=
  VO0_1.read (Elt F) (VO0_1.writes (Elt F) VO0_1.junk (kernelRun0_A c i arg1 harg1 arg2 harg2 arg3 harg3 hc0 hc1 x0).1)

/-- In case A the pieces stored into the carried accumulator tile it (whole `S1x2` rectangles), so every index of
    the accumulator lies in some piece. -/
theorem scover0_A_0 (c : Dev nD) (i : grid0.Coords) (arg1 : Memref sig .tc .vmem S1x85x128x128 .f32) (harg1 : arg1.IsWhole) (arg2 : Memref sig .tc .vmem S1x2 .f32) (harg2 : arg2.IsWhole) (arg3 : Memref sig .tc .vmem S1x2 .f32) (harg3 : arg3.IsWhole) (hc0 : cond0_0 i) (hc1 : ¬cond0_1 i)
    (x0 : Vec F S1x85x128x128 .f32) (y : S1x2.Idx) :
    ∃ pc ∈ (kernelRun0_A c i arg1 harg1 arg2 harg2 arg3 harg3 hc0 hc1 x0).2.1, y ∈ pc.1.set :=
  View.cover_of_tiledL (kernelRun0_A c i arg1 harg1 arg2 harg2 arg3 harg3 hc0 hc1 x0).2.1 S1x2.size (by sl_kernel_rfl) y

/-- What case A leaves in the carried accumulator: its pieces read back. -/
def sout0_A_0 (c : Dev nD) (i : grid0.Coords) (arg1 : Memref sig .tc .vmem S1x85x128x128 .f32) (harg1 : arg1.IsWhole) (arg2 : Memref sig .tc .vmem S1x2 .f32) (harg2 : arg2.IsWhole) (arg3 : Memref sig .tc .vmem S1x2 .f32) (harg3 : arg3.IsWhole) (hc0 : cond0_0 i) (hc1 : ¬cond0_1 i)
    (x0 : Vec F S1x85x128x128 .f32) : Vec F S1x2 .f32 :=
  VS0_0.read (Elt F) (VS0_0.writes (Elt F) VS0_0.junk (kernelRun0_A c i arg1 harg1 arg2 harg2 arg3 harg3 hc0 hc1 x0).2.1)

/-- In case B the body stores nothing into the output block (its window rests at these points and is not written
    back): the value named here is the empty list of pieces read back over arbitrary contents, a placeholder no later
    statement depends on. -/
def out0_B_1 (c : Dev nD) (i : grid0.Coords) (arg1 : Memref sig .tc .vmem S1x85x128x128 .f32) (harg1 : arg1.IsWhole) (arg2 : Memref sig .tc .vmem S1x2 .f32) (harg2 : arg2.IsWhole) (arg3 : Memref sig .tc .vmem S1x2 .f32) (harg3 : arg3.IsWhole) (hc0 : ¬cond0_0 i) (hc1 : ¬cond0_1 i)
    (x0 : Vec F S1x85x128x128 .f32) (xs0 : Vec F S1x2 .f32) : Vec F S1x2 .f32 :=
  VO0_1.read (Elt F) (VO0_1.writes (Elt F) VO0_1.junk (kernelRun0_B c i arg1 harg1 arg2 harg2 arg3 harg3 hc0 hc1 x0 xs0).1)

/-- In case B the pieces stored into the carried accumulator tile it (whole `S1x2` rectangles), so every index of
    the accumulator lies in some piece. -/
theorem scover0_B_0 (c : Dev nD) (i : grid0.Coords) (arg1 : Memref sig .tc .vmem S1x85x128x128 .f32) (harg1 : arg1.IsWhole) (arg2 : Memref sig .tc .vmem S1x2 .f32) (harg2 : arg2.IsWhole) (arg3 : Memref sig .tc .vmem S1x2 .f32) (harg3 : arg3.IsWhole) (hc0 : ¬cond0_0 i) (hc1 : ¬cond0_1 i)
    (x0 : Vec F S1x85x128x128 .f32) (xs0 : Vec F S1x2 .f32) (y : S1x2.Idx) :
    ∃ pc ∈ (kernelRun0_B c i arg1 harg1 arg2 harg2 arg3 harg3 hc0 hc1 x0 xs0).2.1, y ∈ pc.1.set :=
  View.cover_of_tiledL (kernelRun0_B c i arg1 harg1 arg2 harg2 arg3 harg3 hc0 hc1 x0 xs0).2.1 S1x2.size (by sl_kernel_rfl) y

/-- What case B leaves in the carried accumulator: its pieces read back. -/
def sout0_B_0 (c : Dev nD) (i : grid0.Coords) (arg1 : Memref sig .tc .vmem S1x85x128x128 .f32) (harg1 : arg1.IsWhole) (arg2 : Memref sig .tc .vmem S1x2 .f32) (harg2 : arg2.IsWhole) (arg3 : Memref sig .tc .vmem S1x2 .f32) (harg3 : arg3.IsWhole) (hc0 : ¬cond0_0 i) (hc1 : ¬cond0_1 i)
    (x0 : Vec F S1x85x128x128 .f32) (xs0 : Vec F S1x2 .f32) : Vec F S1x2 .f32 :=
  VS0_0.read (Elt F) (VS0_0.writes (Elt F) VS0_0.junk (kernelRun0_B c i arg1 harg1 arg2 harg2 arg3 harg3 hc0 hc1 x0 xs0).2.1)

/-- In case C the pieces stored into the output block tile it (one store of the whole `S1x2` rectangle), so every
    index of the block lies in some piece. -/
theorem cover0_C_1 (c : Dev nD) (i : grid0.Coords) (arg1 : Memref sig .tc .vmem S1x85x128x128 .f32) (harg1 : arg1.IsWhole) (arg2 : Memref sig .tc .vmem S1x2 .f32) (harg2 : arg2.IsWhole) (arg3 : Memref sig .tc .vmem S1x2 .f32) (harg3 : arg3.IsWhole) (hc0 : ¬cond0_0 i) (hc1 : cond0_1 i)
    (x0 : Vec F S1x85x128x128 .f32) (xs0 : Vec F S1x2 .f32) (y : S1x2.Idx) :
    ∃ pc ∈ (kernelRun0_C c i arg1 harg1 arg2 harg2 arg3 harg3 hc0 hc1 x0 xs0).1, y ∈ pc.1.set :=
  View.cover_of_tiledL (kernelRun0_C c i arg1 harg1 arg2 harg2 arg3 harg3 hc0 hc1 x0 xs0).1 S1x2.size (by sl_kernel_rfl) y

/-- What case C leaves in the output block: its pieces read back (the arbitrary contents underneath are covered). -/
def out0_C_1 (c : Dev nD) (i : grid0.Coords) (arg1 : Memref sig .tc .vmem S1x85x128x128 .f32) (harg1 : arg1.IsWhole) (arg2 : Memref sig .tc .vmem S1x2 .f32) (harg2 : arg2.IsWhole) (arg3 : Memref sig .tc .vmem S1x2 .f32) (harg3 : arg3.IsWhole) (hc0 : ¬cond0_0 i) (hc1 : cond0_1 i)
    (x0 : Vec F S1x85x128x128 .f32) (xs0 : Vec F S1x2 .f32) : Vec F S1x2 .f32 :=
  VO0_1.read (Elt F) (VO0_1.writes (Elt F) VO0_1.junk (kernelRun0_C c i arg1 harg1 arg2 harg2 arg3 harg3 hc0 hc1 x0 xs0).1)

/-- In case C the pieces stored into the carried accumulator tile it (whole `S1x2` rectangles), so every index of
    the accumulator lies in some piece. -/
theorem scover0_C_0 (c : Dev nD) (i : grid0.Coords) (arg1 : Memref sig .tc .vmem S1x85x128x128 .f32) (harg1 : arg1.IsWhole) (arg2 : Memref sig .tc .vmem S1x2 .f32) (harg2 : arg2.IsWhole) (arg3 : Memref sig .tc .vmem S1x2 .f32) (harg3 : arg3.IsWhole) (hc0 : ¬cond0_0 i) (hc1 : cond0_1 i)
    (x0 : Vec F S1x85x128x128 .f32) (xs0 : Vec F S1x2 .f32) (y : S1x2.Idx) :
    ∃ pc ∈ (kernelRun0_C c i arg1 harg1 arg2 harg2 arg3 harg3 hc0 hc1 x0 xs0).2.1, y ∈ pc.1.set :=
  View.cover_of_tiledL (kernelRun0_C c i arg1 harg1 arg2 harg2 arg3 harg3 hc0 hc1 x0 xs0).2.1 S1x2.size (by sl_kernel_rfl) y

/-- What case C leaves in the carried accumulator: its pieces read back. -/
def sout0_C_0 (c : Dev nD) (i : grid0.Coords) (arg1 : Memref sig .tc .vmem S1x85x128x128 .f32) (harg1 : arg1.IsWhole) (arg2 : Memref sig .tc .vmem S1x2 .f32) (harg2 : arg2.IsWhole) (arg3 : Memref sig .tc .vmem S1x2 .f32) (harg3 : arg3.IsWhole) (hc0 : ¬cond0_0 i) (hc1 : cond0_1 i)
    (x0 : Vec F S1x85x128x128 .f32) (xs0 : Vec F S1x2 .f32) : Vec F S1x2 .f32 :=
  VS0_0.read (Elt F) (VS0_0.writes (Elt F) VS0_0.junk (kernelRun0_C c i arg1 harg1 arg2 harg2 arg3 harg3 hc0 hc1 x0 xs0).2.1)

/-! ## What the buffers hold after each point -/

/-- THE ACCUMULATION. The pair (output block, accumulator) after the body at position `n`: the case selected by
    `n mod 16` (0: case A; 15: case C; otherwise case B), run at the point's staging memrefs and input block, and, in
    cases B and C, over the accumulator the point before left (the second component at `n - 1`). Both residues at once
    is no point of the grid. -/
def outsAt0 (c : Dev nD) : (n : ℕ) → n < cfg0.N → Vec F S1x2 .f32 × Vec F S1x2 .f32
  | 0, hn => (out0_A_1 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩), sout0_A_0 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩))
  | n + 1, hn =>
    if h0 : (n + 1) % 16 = 0 then
      if h1 : (n + 1) % 16 = 15 then
        False.elim (by have hN : n + 1 < 16 := lt_of_lt_of_eq hn (show cfg0.N = 16 from N_0); omega)
      else
        (out0_A_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩))
    else
      if h1 : (n + 1) % 16 = 15 then
        (out0_C_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (outsAt0 c n (Nat.lt_of_succ_lt hn)).2)
      else
        (out0_B_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (outsAt0 c n (Nat.lt_of_succ_lt hn)).2)

/-- `outsAt0` at a point of case A. -/
theorem outsAt0_A (c : Dev nD) (t : Fin cfg0.N) (h0 : t.val % 16 = 0) (h1 : ¬t.val % 16 = 15) :
    outsAt0 m c t.val t.isLt = (out0_A_1 c (grid0.coords t) (ms0_0 t) (hs0_0 t) (ms0_1 t) (hs0_1 t) scM0_0 (Memref.isWhole_whole _) ((hcond0_0 t).mpr h0) (fun h => h1 ((hcond0_1 t).mp h)) (iblk m c 0 t), sout0_A_0 c (grid0.coords t) (ms0_0 t) (hs0_0 t) (ms0_1 t) (hs0_1 t) scM0_0 (Memref.isWhole_whole _) ((hcond0_0 t).mpr h0) (fun h => h1 ((hcond0_1 t).mp h)) (iblk m c 0 t)) := by
  obtain ⟨n, hn⟩ := t
  cases n with
  | zero => exact rfl
  | succ n => exact (dif_pos h0).trans ((dif_neg h1).trans rfl)

/-- `outsAt0` at a point of case B: the case's contents over the accumulator of the point before. -/
theorem outsAt0_B (c : Dev nD) (t : Fin cfg0.N) (h0 : ¬t.val % 16 = 0) (h1 : ¬t.val % 16 = 15) :
    outsAt0 m c t.val t.isLt = (out0_B_1 c (grid0.coords t) (ms0_0 t) (hs0_0 t) (ms0_1 t) (hs0_1 t) scM0_0 (Memref.isWhole_whole _) (fun h => h0 ((hcond0_0 t).mp h)) (fun h => h1 ((hcond0_1 t).mp h)) (iblk m c 0 t) (outsAt0 m c (t.val - 1) (Nat.lt_of_le_of_lt (Nat.sub_le _ _) t.isLt)).2, sout0_B_0 c (grid0.coords t) (ms0_0 t) (hs0_0 t) (ms0_1 t) (hs0_1 t) scM0_0 (Memref.isWhole_whole _) (fun h => h0 ((hcond0_0 t).mp h)) (fun h => h1 ((hcond0_1 t).mp h)) (iblk m c 0 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: the case's contents over the accumulator of the point before. -/
theorem outsAt0_C (c : Dev nD) (t : Fin cfg0.N) (h0 : ¬t.val % 16 = 0) (h1 : t.val % 16 = 15) :
    outsAt0 m c t.val t.isLt = (out0_C_1 c (grid0.coords t) (ms0_0 t) (hs0_0 t) (ms0_1 t) (hs0_1 t) scM0_0 (Memref.isWhole_whole _) (fun h => h0 ((hcond0_0 t).mp h)) ((hcond0_1 t).mpr h1) (iblk m c 0 t) (outsAt0 m c (t.val - 1) (Nat.lt_of_le_of_lt (Nat.sub_le _ _) t.isLt)).2, sout0_C_0 c (grid0.coords t) (ms0_0 t) (hs0_0 t) (ms0_1 t) (hs0_1 t) scM0_0 (Memref.isWhole_whole _) (fun h => h0 ((hcond0_0 t).mp h)) ((hcond0_1 t).mpr h1) (iblk m c 0 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The invariant before position `n`. Before the first point: the scoped rest as the launch hands it over (the
    accumulator at arbitrary contents). Afterwards: the accumulator owned at exactly what the point before left in it
    (`outsAt0`'s second component), and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the accumulator at that point's contents. -/
theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

/-- Before a point that is not the first: the accumulator at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The proof data of the one pipeline on core `c`: the arrays as the region finds them (`V`); after the body at point
    `t` the input window's buffer at its block and the output window's at `outsAt0`'s first component; the invariant
    `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (outsAt0 m c t.val t.isLt).1
  Φ t := PhiS m c t.val (Nat.le_of_lt_succ t.isLt)
  q _ := fullShare
  owed _ := 0

/-- The proof data's arrays are the region-entry contents (the definition projected; `V` itself stays folded). -/
theorem A_eq (c : Dev nD) (w : Fin cfg0.W) : (dats m 0 c).A w = V m c (Pipeline.arrRef spec0 w) := by
  dsimp only [dats]

/-- The invariant at a point's start, restated at the point's position. -/
theorem PhiS_castSucc (c : Dev nD) (t : Fin cfg0.N) :
    (dats m 0 c).Φ t.castSucc = PhiS m c t.val (Nat.le_of_lt t.isLt) := by
  dsimp only [dats]; simp only [Fin.coe_castSucc]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = (outsAt0 m c t.val t.isLt).1 := by dsimp only [dats]

/-- The input window's current staging buffer holds the point's block at every point. -/
theorem before0_0 (c : Dev nD) (t : Fin cfg0.N) (d) : (dats m 0 c).before 0 t d = iblk m c 0 t :=
  before0_0_of m (dats m 0 c) (A_eq m c 0) (after0_0 m c) t d

/-! ## The body obligation, at a generic point -/

/-- What the body is called with at point `t`: the invariant, what is owed, and the two windows' staging buffers, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t)

set_option maxHeartbeats 4800000 in
/-- The body at any point. The input's staging buffer holds the point's block; the point's residue mod 16 says which
    case it is in, so that case's run applies. The invariant hands the body the accumulator at what the point before
    left (at arbitrary contents at point 0) and the generator register, and takes the accumulator back at this point's
    contents, its pieces covering it. Where the output window rests (cases A and B) its buffer is handed back
    untouched; in case C it is returned at its covering pieces. Nothing is owed throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  by_cases h0 : t.val % 16 = 0
  · by_cases h1 : t.val % 16 = 15
    · exfalso; omega
    · rw [show (dats m 0 c).leavesExact 0 t = owns (c : Thread nD τ) (ms0_0 t) fullShare ((dats m 0 c).after 0 t) from by
      unfold Dat.leavesExact; rw [liveAt0_0 t], after0_0]
      rw [Dat.leavesExact_idle (dats m 0 c) 1 t (idleAt0_1_A t ((hcond0_0 t).mpr h0) (fun h => h1 ((hcond0_1 t).mp h))) (noFlush0_1_A t ((hcond0_0 t).mpr h0) (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩⟩
        iapply ((kernelRun0_A c (grid0.coords t) _ _ _ _ _ _ ((hcond0_0 t).mpr h0) (fun h => h1 ((hcond0_1 t).mp h)) (iblk m c 0 t)).2.2 _ Set.univ _)
        isplitl [H0]; · iexact H0
        isplitl [H1]; · iexact H1
        isplitl [HS0]; · iexact HS0
        iintro ⟨H0, H1, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _)
          iexact Hg
        isplitl [Ho]; · iexact Ho
        isplitl [H0]; · iexact H0
        iexists _; iexact H1
      · exfalso; omega
  · by_cases h1 : t.val % 16 = 15
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1_C t (fun h => h0 ((hcond0_0 t).mp h)) ((hcond0_1 t).mpr h1)], after0_1]
      rw [outsAt0_C m c t h0 h1]
      unfold out0_C_1 sout0_C_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩⟩
        iapply ((kernelRun0_C c (grid0.coords t) _ _ _ _ _ _ (fun h => h0 ((hcond0_0 t).mp h)) ((hcond0_1 t).mpr h1) (iblk m c 0 t) _).2.2 Set.univ _)
        isplitl [H0]; · iexact H0
        isplitl [H1]; · iexists _; iexact H1
        isplitl [HS0]; · iexact HS0
        iintro ⟨H0, ⟨%e1, H1⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _)
          iexact Hg
        isplitl [Ho]; · iexact Ho
        isplitl [H0]; · iexact H0
        unfold owns; iexists _; isplitr
        swap; · iexact H1
        ipureintro; exact View.read_writes_of_cover _ _ _ _ _ (cover0_C_1 c _ _ _ _ _ _ _ _ _ _ _)
    · rw [show (dats m 0 c).leavesExact 0 t = owns (c : Thread nD τ) (ms0_0 t) fullShare ((dats m 0 c).after 0 t) from by
      unfold Dat.leavesExact; rw [liveAt0_0 t], after0_0]
      rw [Dat.leavesExact_idle (dats m 0 c) 1 t (idleAt0_1_B t (fun h => h0 ((hcond0_0 t).mp h)) (fun h => h1 ((hcond0_1 t).mp h))) (noFlush0_1_B t (fun h => h0 ((hcond0_0 t).mp h)) (fun h => h1 ((hcond0_1 t).mp h)))]
      rw [outsAt0_B m c t h0 h1]
      unfold sout0_B_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩⟩
        iapply ((kernelRun0_B c (grid0.coords t) _ _ _ _ _ _ (fun h => h0 ((hcond0_0 t).mp h)) (fun h => h1 ((hcond0_1 t).mp h)) (iblk m c 0 t) _).2.2 _ Set.univ _)
        isplitl [H0]; · iexact H0
        isplitl [H1]; · iexact H1
        isplitl [HS0]; · iexact HS0
        iintro ⟨H0, H1, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _)
          iexact Hg
        isplitl [Ho]; · iexact Ho
        isplitl [H0]; · iexact H0
        iexists _; iexact H1

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the scoped rest back: the accumulator's named contents are
    forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 16 := N_0; omega)

/-! ## The run and the frame -/

-- the launch theorem's implicit arguments are found by unifying its conclusion with this statement, which takes
-- unfolding plain definitions in a metavariable's type
set_option backward.isDefEq.respectTransparency.types false in
/-- At the compiled mesh, for any values, from any memory with zero counters: every weakly fair execution of the
    program on the TensorCores terminates, and in every final state each array of the pipeline holds what the proof
    data determine and every other unscoped buffer is as the host operations after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

/-- info: 'Cert.KernelIdeal.Fr.run_main' depends on axioms: [propext, Classical.choice, Quot.sound] -/
#guard_msgs in #print axioms run_main

/-- THE FRAME, at any `F`: every weakly fair execution of the program terminates without fault, and both argument
    arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Fr

end
-- ==== Proof.KTailStages.lean ====
/- The 403 host operations that follow the region in the kernel program's @main, one definition each, in program
   order: the stage kt_<buffer> is the value the operation writes into <buffer>, as a function of the region's result o
   (the two sums, f32[1,2]) and of @main's arguments x0 (preds) and x1 (targets); an operand that an earlier operation
   wrote is that operation's stage. The table is read off the launch module's operation lists: each stage applies
   the operation's printed function to its operands' stages. -/
import proofs.«175006_j89550068121905_1_alg».proof.Proof.Gen.KernelIdeal
import Idealize.ShloMosaic.Lib.StableHlo.Run

noncomputable section

namespace Cert.KernelIdeal.Tail

open Cert.KernelIdeal Cert.KernelIdeal.Gen Idealize.ShloMosaic Idealize.ShloMosaic.TcCoe Idealize.SL.Sem Idealize.ShloMosaic.StableHlo

variable {F : FTy → Type} [FloatOps F]

-- %1 = stablehlo.slice %0 [0:1, 0:1] : (tensor<1x2xf32>) -> tensor<1x1xf32>
def kt_main_v1 (o : (⟨S1x2, .f32⟩ : BufTy).Contents (Elt F)) (x0 : (⟨S16x85x128x128, .f32⟩ : BufTy).Contents (Elt F)) (x1 : (⟨S16x64x5, .f32⟩ : BufTy).Contents (Elt F)) : (⟨S1x1, .f32⟩ : BufTy).Contents (Elt F) :=
  ((extractStridedSlice S1x1 ![0, 0] · slices_S1x2_S1x1_0_0) : (⟨S1x2, .f32⟩ : BufTy).Contents (Elt F) → (⟨S1x1, .f32⟩ : BufTy).Contents (Elt F)) o

-- %2 = stablehlo.reshape %1 : (tensor<1x1xf32>) -> tensor<f32>
def kt_main_v2 (o : (⟨S1x2, .f32⟩ : BufTy).Contents (Elt F)) (x0 : (⟨S16x85x128x128, .f32⟩ : BufTy).Contents (Elt F)) (x1 : (⟨S16x64x5, .f32⟩ : BufTy).Contents (Elt F)) : (⟨S_, .f32⟩ : BufTy).Contents (Elt F) :=
  shapeCast _ (kt_main_v1 (F := F) o x0 x1) shapeCasts_S1x1_S_

-- %3 = stablehlo.slice %0 [0:1, 1:2] : (tensor<1x2xf32>) -> tensor<1x1xf32>
def kt_main_v3 (o : (⟨S1x2, .f32⟩ : BufTy).Contents (Elt F)) (x0 : (⟨S16x85x128x128, .f32⟩ : BufTy).Contents (Elt F)) (x1 : (⟨S16x64x5, .f32⟩ : BufTy).Contents (Elt F)) : (⟨S1x1, .f32⟩ : BufTy).Contents (Elt F) :=
  ((extractStridedSlice S1x1 ![0, 1] · slices_S1x2_S1x1_0_1) : (⟨S1x2, .f32⟩ : BufTy).Contents (Elt F) → (⟨S1x1, .f32⟩ : BufTy).Contents (Elt F)) o

-- %4 = stablehlo.reshape %3 : (tensor<1x1xf32>) -> tensor<f32>
def kt_main_v4 (o : (⟨S1x2, .f32⟩ : BufTy).Contents (Elt F)) (x0 : (⟨S16x85x128x128, .f32⟩ : BufTy).Contents (Elt F)) (x1 : (⟨S16x64x5, .f32⟩ : BufTy).Contents (Elt F)) : (⟨S_, .f32⟩ : BufTy).Contents (Elt F) :=
  shapeCast _ (kt_main_v3 (F := F) o x0 x1) shapeCasts_S1x1_S_

-- %5 = stablehlo.slice %arg1 [0:16, 0:64, 0:1] : (tensor<16x64x5xf32>) -> tensor<16x64x1xf32>
def kt_main_v5 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64x1, .f32⟩ : BufTy).Contents (Elt F) :=
  ((extractStridedSlice S16x64x1 ![0, 0, 0] · slices_S16x64x5_S16x64x1_0_0_0) : (⟨S16x64x5, .f32⟩ : BufTy).Contents (Elt F) → (⟨S16x64x1, .f32⟩ : BufTy).Contents (Elt F)) x1

-- %6 = stablehlo.reshape %5 : (tensor<16x64x1xf32>) -> tensor<16x64xf32>
def kt_main_v6 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .f32⟩ : BufTy).Contents (Elt F) :=
  shapeCast _ (kt_main_v5 (F := F) o x0 x1) shapeCasts_S16x64x1_S16x64

-- %7 = stablehlo.convert %6 : (tensor<16x64xf32>) -> tensor<16x64xi32>
def kt_main_v7 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i32⟩ : BufTy).Contents (Elt F) :=
  (fptosi 32 : (⟨S16x64, .f32⟩ : BufTy).Contents (Elt F) → (⟨S16x64, .i32⟩ : BufTy).Contents (Elt F)) (kt_main_v6 (F := F) o x0 x1)

-- %8 = stablehlo.slice %arg1 [0:16, 0:64, 1:2] : (tensor<16x64x5xf32>) -> tensor<16x64x1xf32>
def kt_main_v8 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64x1, .f32⟩ : BufTy).Contents (Elt F) :=
  ((extractStridedSlice S16x64x1 ![0, 0, 1] · slices_S16x64x5_S16x64x1_0_0_1) : (⟨S16x64x5, .f32⟩ : BufTy).Contents (Elt F) → (⟨S16x64x1, .f32⟩ : BufTy).Contents (Elt F)) x1

-- %9 = stablehlo.reshape %8 : (tensor<16x64x1xf32>) -> tensor<16x64xf32>
def kt_main_v9 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .f32⟩ : BufTy).Contents (Elt F) :=
  shapeCast _ (kt_main_v8 (F := F) o x0 x1) shapeCasts_S16x64x1_S16x64

-- %10 = stablehlo.slice %arg1 [0:16, 0:64, 2:3] : (tensor<16x64x5xf32>) -> tensor<16x64x1xf32>
def kt_main_v10 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64x1, .f32⟩ : BufTy).Contents (Elt F) :=
  ((extractStridedSlice S16x64x1 ![0, 0, 2] · slices_S16x64x5_S16x64x1_0_0_2) : (⟨S16x64x5, .f32⟩ : BufTy).Contents (Elt F) → (⟨S16x64x1, .f32⟩ : BufTy).Contents (Elt F)) x1

-- %11 = stablehlo.reshape %10 : (tensor<16x64x1xf32>) -> tensor<16x64xf32>
def kt_main_v11 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .f32⟩ : BufTy).Contents (Elt F) :=
  shapeCast _ (kt_main_v10 (F := F) o x0 x1) shapeCasts_S16x64x1_S16x64

-- %12 = stablehlo.slice %arg1 [0:16, 0:64, 3:4] : (tensor<16x64x5xf32>) -> tensor<16x64x1xf32>
def kt_main_v12 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64x1, .f32⟩ : BufTy).Contents (Elt F) :=
  ((extractStridedSlice S16x64x1 ![0, 0, 3] · slices_S16x64x5_S16x64x1_0_0_3) : (⟨S16x64x5, .f32⟩ : BufTy).Contents (Elt F) → (⟨S16x64x1, .f32⟩ : BufTy).Contents (Elt F)) x1

-- %13 = stablehlo.reshape %12 : (tensor<16x64x1xf32>) -> tensor<16x64xf32>
def kt_main_v13 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .f32⟩ : BufTy).Contents (Elt F) :=
  shapeCast _ (kt_main_v12 (F := F) o x0 x1) shapeCasts_S16x64x1_S16x64

-- %14 = stablehlo.slice %arg1 [0:16, 0:64, 4:5] : (tensor<16x64x5xf32>) -> tensor<16x64x1xf32>
def kt_main_v14 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64x1, .f32⟩ : BufTy).Contents (Elt F) :=
  ((extractStridedSlice S16x64x1 ![0, 0, 4] · slices_S16x64x5_S16x64x1_0_0_4) : (⟨S16x64x5, .f32⟩ : BufTy).Contents (Elt F) → (⟨S16x64x1, .f32⟩ : BufTy).Contents (Elt F)) x1

-- %15 = stablehlo.reshape %14 : (tensor<16x64x1xf32>) -> tensor<16x64xf32>
def kt_main_v15 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .f32⟩ : BufTy).Contents (Elt F) :=
  shapeCast _ (kt_main_v14 (F := F) o x0 x1) shapeCasts_S16x64x1_S16x64

-- %cst = stablehlo.constant dense<1.280000e+02> : tensor<f32>
def kt_main_cst (o : (⟨S1x2, .f32⟩ : BufTy).Contents (Elt F)) (x0 : (⟨S16x85x128x128, .f32⟩ : BufTy).Contents (Elt F)) (x1 : (⟨S16x64x5, .f32⟩ : BufTy).Contents (Elt F)) : (⟨S_, .f32⟩ : BufTy).Contents (Elt F) :=
  constant S_ .f32 0x43000000#32

-- %16 = stablehlo.broadcast_in_dim %cst, dims = [] : (tensor<f32>) -> tensor<16x64xf32>
def kt_main_v16 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .f32⟩ : BufTy).Contents (Elt F) :=
  (broadcastInDim S16x64 ![] bcast_S_S16x64 : (⟨S_, .f32⟩ : BufTy).Contents (Elt F) → (⟨S16x64, .f32⟩ : BufTy).Contents (Elt F)) (kt_main_cst (F := F) o x0 x1)

-- %17 = stablehlo.multiply %9, %16 : tensor<16x64xf32>
def kt_main_v17 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .f32⟩ : BufTy).Contents (Elt F) :=
  (mulf : (⟨S16x64, .f32⟩ : BufTy).Contents (Elt F) → (⟨S16x64, .f32⟩ : BufTy).Contents (Elt F) → (⟨S16x64, .f32⟩ : BufTy).Contents (Elt F)) (kt_main_v9 (F := F) o x0 x1) (kt_main_v16 (F := F) o x0 x1)

-- %18 = stablehlo.convert %17 : (tensor<16x64xf32>) -> tensor<16x64xi32>
def kt_main_v18 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i32⟩ : BufTy).Contents (Elt F) :=
  (fptosi 32 : (⟨S16x64, .f32⟩ : BufTy).Contents (Elt F) → (⟨S16x64, .i32⟩ : BufTy).Contents (Elt F)) (kt_main_v17 (F := F) o x0 x1)

-- %cst_0 = stablehlo.constant dense<1.280000e+02> : tensor<f32>
def kt_main_cst_0 (o : (⟨S1x2, .f32⟩ : BufTy).Contents (Elt F)) (x0 : (⟨S16x85x128x128, .f32⟩ : BufTy).Contents (Elt F)) (x1 : (⟨S16x64x5, .f32⟩ : BufTy).Contents (Elt F)) : (⟨S_, .f32⟩ : BufTy).Contents (Elt F) :=
  constant S_ .f32 0x43000000#32

-- %19 = stablehlo.broadcast_in_dim %cst_0, dims = [] : (tensor<f32>) -> tensor<16x64xf32>
def kt_main_v19 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .f32⟩ : BufTy).Contents (Elt F) :=
  (broadcastInDim S16x64 ![] bcast_S_S16x64 : (⟨S_, .f32⟩ : BufTy).Contents (Elt F) → (⟨S16x64, .f32⟩ : BufTy).Contents (Elt F)) (kt_main_cst_0 (F := F) o x0 x1)

-- %20 = stablehlo.multiply %11, %19 : tensor<16x64xf32>
def kt_main_v20 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .f32⟩ : BufTy).Contents (Elt F) :=
  (mulf : (⟨S16x64, .f32⟩ : BufTy).Contents (Elt F) → (⟨S16x64, .f32⟩ : BufTy).Contents (Elt F) → (⟨S16x64, .f32⟩ : BufTy).Contents (Elt F)) (kt_main_v11 (F := F) o x0 x1) (kt_main_v19 (F := F) o x0 x1)

-- %21 = stablehlo.convert %20 : (tensor<16x64xf32>) -> tensor<16x64xi32>
def kt_main_v21 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i32⟩ : BufTy).Contents (Elt F) :=
  (fptosi 32 : (⟨S16x64, .f32⟩ : BufTy).Contents (Elt F) → (⟨S16x64, .i32⟩ : BufTy).Contents (Elt F)) (kt_main_v20 (F := F) o x0 x1)

-- %c = stablehlo.constant dense<128> : tensor<i32>
def kt_main_c (o : (⟨S1x2, .f32⟩ : BufTy).Contents (Elt F)) (x0 : (⟨S16x85x128x128, .f32⟩ : BufTy).Contents (Elt F)) (x1 : (⟨S16x64x5, .f32⟩ : BufTy).Contents (Elt F)) : (⟨S_, .i32⟩ : BufTy).Contents (Elt F) :=
  constantI S_ 32 128#32

-- %22 = stablehlo.broadcast_in_dim %c, dims = [] : (tensor<i32>) -> tensor<16x64xi32>
def kt_main_v22 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i32⟩ : BufTy).Contents (Elt F) :=
  (broadcastInDim S16x64 ![] bcast_S_S16x64 : (⟨S_, .i32⟩ : BufTy).Contents (Elt F) → (⟨S16x64, .i32⟩ : BufTy).Contents (Elt F)) (kt_main_c (F := F) o x0 x1)

-- %23 = stablehlo.multiply %21, %22 : tensor<16x64xi32>
def kt_main_v23 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i32⟩ : BufTy).Contents (Elt F) :=
  (muli : (⟨S16x64, .i32⟩ : BufTy).Contents (Elt F) → (⟨S16x64, .i32⟩ : BufTy).Contents (Elt F) → (⟨S16x64, .i32⟩ : BufTy).Contents (Elt F)) (kt_main_v21 (F := F) o x0 x1) (kt_main_v22 (F := F) o x0 x1)

-- %24 = stablehlo.add %23, %18 : tensor<16x64xi32>
def kt_main_v24 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i32⟩ : BufTy).Contents (Elt F) :=
  (addi : (⟨S16x64, .i32⟩ : BufTy).Contents (Elt F) → (⟨S16x64, .i32⟩ : BufTy).Contents (Elt F) → (⟨S16x64, .i32⟩ : BufTy).Contents (Elt F)) (kt_main_v23 (F := F) o x0 x1) (kt_main_v18 (F := F) o x0 x1)

-- %25 = stablehlo.iota dim = 0 : tensor<16xi32>
def kt_main_v25 (o : (⟨S1x2, .f32⟩ : BufTy).Contents (Elt F)) (x0 : (⟨S16x85x128x128, .f32⟩ : BufTy).Contents (Elt F)) (x1 : (⟨S16x64x5, .f32⟩ : BufTy).Contents (Elt F)) : (⟨S16, .i32⟩ : BufTy).Contents (Elt F) :=
  iotaInDim S16 32 0

-- %26 = stablehlo.broadcast_in_dim %25, dims = [0] : (tensor<16xi32>) -> tensor<16x1xi32>
def kt_main_v26 (o : (⟨S1x2, .f32⟩ : BufTy).Contents (Elt F)) (x0 : (⟨S16x85x128x128, .f32⟩ : BufTy).Contents (Elt F)) (x1 : (⟨S16x64x5, .f32⟩ : BufTy).Contents (Elt F)) : (⟨S16x1, .i32⟩ : BufTy).Contents (Elt F) :=
  (broadcastInDim S16x1 ![0] bcast_S16_S16x1_0 : (⟨S16, .i32⟩ : BufTy).Contents (Elt F) → (⟨S16x1, .i32⟩ : BufTy).Contents (Elt F)) (kt_main_v25 (F := F) o x0 x1)

-- %27 = stablehlo.broadcast_in_dim %26, dims = [0, 1] : (tensor<16x1xi32>) -> tensor<16x64xi32>
def kt_main_v27 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i32⟩ : BufTy).Contents (Elt F) :=
  (broadcastInDim S16x64 ![0, 1] bcast_S16x1_S16x64_0_1 : (⟨S16x1, .i32⟩ : BufTy).Contents (Elt F) → (⟨S16x64, .i32⟩ : BufTy).Contents (Elt F)) (kt_main_v26 (F := F) o x0 x1)

-- %c_1 = stablehlo.constant dense<0> : tensor<i32>
def kt_main_c_1 (o : (⟨S1x2, .f32⟩ : BufTy).Contents (Elt F)) (x0 : (⟨S16x85x128x128, .f32⟩ : BufTy).Contents (Elt F)) (x1 : (⟨S16x64x5, .f32⟩ : BufTy).Contents (Elt F)) : (⟨S_, .i32⟩ : BufTy).Contents (Elt F) :=
  constantI S_ 32 0#32

-- %28 = stablehlo.broadcast_in_dim %c_1, dims = [] : (tensor<i32>) -> tensor<16x64xi32>
def kt_main_v28 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i32⟩ : BufTy).Contents (Elt F) :=
  (broadcastInDim S16x64 ![] bcast_S_S16x64 : (⟨S_, .i32⟩ : BufTy).Contents (Elt F) → (⟨S16x64, .i32⟩ : BufTy).Contents (Elt F)) (kt_main_c_1 (F := F) o x0 x1)

-- %29 = stablehlo.compare LT, %27, %28, SIGNED : (tensor<16x64xi32>, tensor<16x64xi32>) -> tensor<16x64xi1>
def kt_main_v29 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i1⟩ : BufTy).Contents (Elt F) :=
  (cmpi .slt : (⟨S16x64, .i32⟩ : BufTy).Contents (Elt F) → (⟨S16x64, .i32⟩ : BufTy).Contents (Elt F) → (⟨S16x64, .i1⟩ : BufTy).Contents (Elt F)) (kt_main_v27 (F := F) o x0 x1) (kt_main_v28 (F := F) o x0 x1)

-- %c_2 = stablehlo.constant dense<16> : tensor<i32>
def kt_main_c_2 (o : (⟨S1x2, .f32⟩ : BufTy).Contents (Elt F)) (x0 : (⟨S16x85x128x128, .f32⟩ : BufTy).Contents (Elt F)) (x1 : (⟨S16x64x5, .f32⟩ : BufTy).Contents (Elt F)) : (⟨S_, .i32⟩ : BufTy).Contents (Elt F) :=
  constantI S_ 32 16#32

-- %30 = stablehlo.broadcast_in_dim %c_2, dims = [] : (tensor<i32>) -> tensor<16x64xi32>
def kt_main_v30 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i32⟩ : BufTy).Contents (Elt F) :=
  (broadcastInDim S16x64 ![] bcast_S_S16x64 : (⟨S_, .i32⟩ : BufTy).Contents (Elt F) → (⟨S16x64, .i32⟩ : BufTy).Contents (Elt F)) (kt_main_c_2 (F := F) o x0 x1)

-- %31 = stablehlo.add %27, %30 : tensor<16x64xi32>
def kt_main_v31 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i32⟩ : BufTy).Contents (Elt F) :=
  (addi : (⟨S16x64, .i32⟩ : BufTy).Contents (Elt F) → (⟨S16x64, .i32⟩ : BufTy).Contents (Elt F) → (⟨S16x64, .i32⟩ : BufTy).Contents (Elt F)) (kt_main_v27 (F := F) o x0 x1) (kt_main_v30 (F := F) o x0 x1)

-- %32 = stablehlo.select %29, %31, %27 : tensor<16x64xi1>, tensor<16x64xi32>
def kt_main_v32 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i32⟩ : BufTy).Contents (Elt F) :=
  (select : (⟨S16x64, .i1⟩ : BufTy).Contents (Elt F) → (⟨S16x64, .i32⟩ : BufTy).Contents (Elt F) → (⟨S16x64, .i32⟩ : BufTy).Contents (Elt F) → (⟨S16x64, .i32⟩ : BufTy).Contents (Elt F)) (kt_main_v29 (F := F) o x0 x1) (kt_main_v31 (F := F) o x0 x1) (kt_main_v27 (F := F) o x0 x1)

-- %c_3 = stablehlo.constant dense<0> : tensor<i32>
def kt_main_c_3 (o : (⟨S1x2, .f32⟩ : BufTy).Contents (Elt F)) (x0 : (⟨S16x85x128x128, .f32⟩ : BufTy).Contents (Elt F)) (x1 : (⟨S16x64x5, .f32⟩ : BufTy).Contents (Elt F)) : (⟨S_, .i32⟩ : BufTy).Contents (Elt F) :=
  constantI S_ 32 0#32

-- %33 = stablehlo.broadcast_in_dim %c_3, dims = [] : (tensor<i32>) -> tensor<16x64xi32>
def kt_main_v33 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i32⟩ : BufTy).Contents (Elt F) :=
  (broadcastInDim S16x64 ![] bcast_S_S16x64 : (⟨S_, .i32⟩ : BufTy).Contents (Elt F) → (⟨S16x64, .i32⟩ : BufTy).Contents (Elt F)) (kt_main_c_3 (F := F) o x0 x1)

-- %34 = stablehlo.compare LT, %21, %33, SIGNED : (tensor<16x64xi32>, tensor<16x64xi32>) -> tensor<16x64xi1>
def kt_main_v34 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i1⟩ : BufTy).Contents (Elt F) :=
  (cmpi .slt : (⟨S16x64, .i32⟩ : BufTy).Contents (Elt F) → (⟨S16x64, .i32⟩ : BufTy).Contents (Elt F) → (⟨S16x64, .i1⟩ : BufTy).Contents (Elt F)) (kt_main_v21 (F := F) o x0 x1) (kt_main_v33 (F := F) o x0 x1)

-- %c_4 = stablehlo.constant dense<128> : tensor<i32>
def kt_main_c_4 (o : (⟨S1x2, .f32⟩ : BufTy).Contents (Elt F)) (x0 : (⟨S16x85x128x128, .f32⟩ : BufTy).Contents (Elt F)) (x1 : (⟨S16x64x5, .f32⟩ : BufTy).Contents (Elt F)) : (⟨S_, .i32⟩ : BufTy).Contents (Elt F) :=
  constantI S_ 32 128#32

-- %35 = stablehlo.broadcast_in_dim %c_4, dims = [] : (tensor<i32>) -> tensor<16x64xi32>
def kt_main_v35 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i32⟩ : BufTy).Contents (Elt F) :=
  (broadcastInDim S16x64 ![] bcast_S_S16x64 : (⟨S_, .i32⟩ : BufTy).Contents (Elt F) → (⟨S16x64, .i32⟩ : BufTy).Contents (Elt F)) (kt_main_c_4 (F := F) o x0 x1)

-- %36 = stablehlo.add %21, %35 : tensor<16x64xi32>
def kt_main_v36 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i32⟩ : BufTy).Contents (Elt F) :=
  (addi : (⟨S16x64, .i32⟩ : BufTy).Contents (Elt F) → (⟨S16x64, .i32⟩ : BufTy).Contents (Elt F) → (⟨S16x64, .i32⟩ : BufTy).Contents (Elt F)) (kt_main_v21 (F := F) o x0 x1) (kt_main_v35 (F := F) o x0 x1)

-- %37 = stablehlo.select %34, %36, %21 : tensor<16x64xi1>, tensor<16x64xi32>
def kt_main_v37 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i32⟩ : BufTy).Contents (Elt F) :=
  (select : (⟨S16x64, .i1⟩ : BufTy).Contents (Elt F) → (⟨S16x64, .i32⟩ : BufTy).Contents (Elt F) → (⟨S16x64, .i32⟩ : BufTy).Contents (Elt F) → (⟨S16x64, .i32⟩ : BufTy).Contents (Elt F)) (kt_main_v34 (F := F) o x0 x1) (kt_main_v36 (F := F) o x0 x1) (kt_main_v21 (F := F) o x0 x1)

-- %c_5 = stablehlo.constant dense<0> : tensor<i32>
def kt_main_c_5 (o : (⟨S1x2, .f32⟩ : BufTy).Contents (Elt F)) (x0 : (⟨S16x85x128x128, .f32⟩ : BufTy).Contents (Elt F)) (x1 : (⟨S16x64x5, .f32⟩ : BufTy).Contents (Elt F)) : (⟨S_, .i32⟩ : BufTy).Contents (Elt F) :=
  constantI S_ 32 0#32

-- %38 = stablehlo.broadcast_in_dim %c_5, dims = [] : (tensor<i32>) -> tensor<16x64xi32>
def kt_main_v38 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i32⟩ : BufTy).Contents (Elt F) :=
  (broadcastInDim S16x64 ![] bcast_S_S16x64 : (⟨S_, .i32⟩ : BufTy).Contents (Elt F) → (⟨S16x64, .i32⟩ : BufTy).Contents (Elt F)) (kt_main_c_5 (F := F) o x0 x1)

-- %39 = stablehlo.compare LT, %18, %38, SIGNED : (tensor<16x64xi32>, tensor<16x64xi32>) -> tensor<16x64xi1>
def kt_main_v39 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i1⟩ : BufTy).Contents (Elt F) :=
  (cmpi .slt : (⟨S16x64, .i32⟩ : BufTy).Contents (Elt F) → (⟨S16x64, .i32⟩ : BufTy).Contents (Elt F) → (⟨S16x64, .i1⟩ : BufTy).Contents (Elt F)) (kt_main_v18 (F := F) o x0 x1) (kt_main_v38 (F := F) o x0 x1)

-- %c_6 = stablehlo.constant dense<128> : tensor<i32>
def kt_main_c_6 (o : (⟨S1x2, .f32⟩ : BufTy).Contents (Elt F)) (x0 : (⟨S16x85x128x128, .f32⟩ : BufTy).Contents (Elt F)) (x1 : (⟨S16x64x5, .f32⟩ : BufTy).Contents (Elt F)) : (⟨S_, .i32⟩ : BufTy).Contents (Elt F) :=
  constantI S_ 32 128#32

-- %40 = stablehlo.broadcast_in_dim %c_6, dims = [] : (tensor<i32>) -> tensor<16x64xi32>
def kt_main_v40 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i32⟩ : BufTy).Contents (Elt F) :=
  (broadcastInDim S16x64 ![] bcast_S_S16x64 : (⟨S_, .i32⟩ : BufTy).Contents (Elt F) → (⟨S16x64, .i32⟩ : BufTy).Contents (Elt F)) (kt_main_c_6 (F := F) o x0 x1)

-- %41 = stablehlo.add %18, %40 : tensor<16x64xi32>
def kt_main_v41 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i32⟩ : BufTy).Contents (Elt F) :=
  (addi : (⟨S16x64, .i32⟩ : BufTy).Contents (Elt F) → (⟨S16x64, .i32⟩ : BufTy).Contents (Elt F) → (⟨S16x64, .i32⟩ : BufTy).Contents (Elt F)) (kt_main_v18 (F := F) o x0 x1) (kt_main_v40 (F := F) o x0 x1)

-- %42 = stablehlo.select %39, %41, %18 : tensor<16x64xi1>, tensor<16x64xi32>
def kt_main_v42 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i32⟩ : BufTy).Contents (Elt F) :=
  (select : (⟨S16x64, .i1⟩ : BufTy).Contents (Elt F) → (⟨S16x64, .i32⟩ : BufTy).Contents (Elt F) → (⟨S16x64, .i32⟩ : BufTy).Contents (Elt F) → (⟨S16x64, .i32⟩ : BufTy).Contents (Elt F)) (kt_main_v39 (F := F) o x0 x1) (kt_main_v41 (F := F) o x0 x1) (kt_main_v18 (F := F) o x0 x1)

-- %c_7 = stablehlo.constant dense<4> : tensor<i32>
def kt_main_c_7 (o : (⟨S1x2, .f32⟩ : BufTy).Contents (Elt F)) (x0 : (⟨S16x85x128x128, .f32⟩ : BufTy).Contents (Elt F)) (x1 : (⟨S16x64x5, .f32⟩ : BufTy).Contents (Elt F)) : (⟨S_, .i32⟩ : BufTy).Contents (Elt F) :=
  constantI S_ 32 4#32

-- %43 = stablehlo.broadcast_in_dim %c_7, dims = [] : (tensor<i32>) -> tensor<16x64xi32>
def kt_main_v43 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i32⟩ : BufTy).Contents (Elt F) :=
  (broadcastInDim S16x64 ![] bcast_S_S16x64 : (⟨S_, .i32⟩ : BufTy).Contents (Elt F) → (⟨S16x64, .i32⟩ : BufTy).Contents (Elt F)) (kt_main_c_7 (F := F) o x0 x1)

-- %44 = stablehlo.convert %43 : tensor<16x64xi32>
def kt_main_v44 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i32⟩ : BufTy).Contents (Elt F) :=
  (id : (⟨S16x64, .i32⟩ : BufTy).Contents (Elt F) → (⟨S16x64, .i32⟩ : BufTy).Contents (Elt F)) (kt_main_v43 (F := F) o x0 x1)

-- %45 = stablehlo.broadcast_in_dim %32, dims = [0, 1] : (tensor<16x64xi32>) -> tensor<16x64x1xi32>
def kt_main_v45 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64x1, .i32⟩ : BufTy).Contents (Elt F) :=
  (broadcastInDim S16x64x1 ![0, 1] bcast_S16x64_S16x64x1_0_1 : (⟨S16x64, .i32⟩ : BufTy).Contents (Elt F) → (⟨S16x64x1, .i32⟩ : BufTy).Contents (Elt F)) (kt_main_v32 (F := F) o x0 x1)

-- %46 = stablehlo.broadcast_in_dim %44, dims = [0, 1] : (tensor<16x64xi32>) -> tensor<16x64x1xi32>
def kt_main_v46 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64x1, .i32⟩ : BufTy).Contents (Elt F) :=
  (broadcastInDim S16x64x1 ![0, 1] bcast_S16x64_S16x64x1_0_1 : (⟨S16x64, .i32⟩ : BufTy).Contents (Elt F) → (⟨S16x64x1, .i32⟩ : BufTy).Contents (Elt F)) (kt_main_v44 (F := F) o x0 x1)

-- %47 = stablehlo.broadcast_in_dim %37, dims = [0, 1] : (tensor<16x64xi32>) -> tensor<16x64x1xi32>
def kt_main_v47 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64x1, .i32⟩ : BufTy).Contents (Elt F) :=
  (broadcastInDim S16x64x1 ![0, 1] bcast_S16x64_S16x64x1_0_1 : (⟨S16x64, .i32⟩ : BufTy).Contents (Elt F) → (⟨S16x64x1, .i32⟩ : BufTy).Contents (Elt F)) (kt_main_v37 (F := F) o x0 x1)

-- %48 = stablehlo.broadcast_in_dim %42, dims = [0, 1] : (tensor<16x64xi32>) -> tensor<16x64x1xi32>
def kt_main_v48 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64x1, .i32⟩ : BufTy).Contents (Elt F) :=
  (broadcastInDim S16x64x1 ![0, 1] bcast_S16x64_S16x64x1_0_1 : (⟨S16x64, .i32⟩ : BufTy).Contents (Elt F) → (⟨S16x64x1, .i32⟩ : BufTy).Contents (Elt F)) (kt_main_v42 (F := F) o x0 x1)

-- %49 = stablehlo.concatenate %45, %46, %47, %48, dim = 2 : (tensor<16x64x1xi32>, tensor<16x64x1xi32>, tensor<16x64x1xi32>, tensor<16x64x1xi32>) -> tensor<16x64x4xi32>
def kt_main_v49 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64x4, .i32⟩ : BufTy).Contents (Elt F) :=
  concatenate S16x64x4 2 [⟨S16x64x1, (kt_main_v45 (F := F) o x0 x1)⟩, ⟨S16x64x1, (kt_main_v46 (F := F) o x0 x1)⟩, ⟨S16x64x1, (kt_main_v47 (F := F) o x0 x1)⟩, ⟨S16x64x1, (kt_main_v48 (F := F) o x0 x1)⟩] concatenates_S16x64x1_S16x64x1_S16x64x1_S16x64x1_S16x64x4_d2

-- %50 = "stablehlo.gather"(%arg0, %49) <{dimension_numbers = #stablehlo.gather<collapsed_slice_dims = [0, 1, 2, 3], start_index_map = [0, 1, 2, 3], index_vector_dim = 2>, indices_are_sorted = false, slice_sizes = array<i64: 1, 1, 1, 1>}> : (tensor<16x85x128x128xf32>, tensor<16x64x4xi32>) -> tensor<16x64xf32>
def kt_main_v50 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .f32⟩ : BufTy).Contents (Elt F) :=
  ((fun x i => Host.gather gather_S16x85x128x128_S16x64x4_S16x64_n_0123_n_n_0123_2_1111 x i) : (⟨S16x85x128x128, .f32⟩ : BufTy).Contents (Elt F) → (⟨S16x64x4, .i32⟩ : BufTy).Contents (Elt F) → (⟨S16x64, .f32⟩ : BufTy).Contents (Elt F)) x0 (kt_main_v49 (F := F) o x0 x1)

-- %c_8 = stablehlo.constant dense<5> : tensor<i32>
def kt_main_c_8 (o : (⟨S1x2, .f32⟩ : BufTy).Contents (Elt F)) (x0 : (⟨S16x85x128x128, .f32⟩ : BufTy).Contents (Elt F)) (x1 : (⟨S16x64x5, .f32⟩ : BufTy).Contents (Elt F)) : (⟨S_, .i32⟩ : BufTy).Contents (Elt F) :=
  constantI S_ 32 5#32

-- %51 = stablehlo.broadcast_in_dim %c_8, dims = [] : (tensor<i32>) -> tensor<16x64xi32>
def kt_main_v51 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i32⟩ : BufTy).Contents (Elt F) :=
  (broadcastInDim S16x64 ![] bcast_S_S16x64 : (⟨S_, .i32⟩ : BufTy).Contents (Elt F) → (⟨S16x64, .i32⟩ : BufTy).Contents (Elt F)) (kt_main_c_8 (F := F) o x0 x1)

-- %52 = stablehlo.add %51, %7 : tensor<16x64xi32>
def kt_main_v52 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i32⟩ : BufTy).Contents (Elt F) :=
  (addi : (⟨S16x64, .i32⟩ : BufTy).Contents (Elt F) → (⟨S16x64, .i32⟩ : BufTy).Contents (Elt F) → (⟨S16x64, .i32⟩ : BufTy).Contents (Elt F)) (kt_main_v51 (F := F) o x0 x1) (kt_main_v7 (F := F) o x0 x1)

-- %c_9 = stablehlo.constant dense<0> : tensor<i32>
def kt_main_c_9 (o : (⟨S1x2, .f32⟩ : BufTy).Contents (Elt F)) (x0 : (⟨S16x85x128x128, .f32⟩ : BufTy).Contents (Elt F)) (x1 : (⟨S16x64x5, .f32⟩ : BufTy).Contents (Elt F)) : (⟨S_, .i32⟩ : BufTy).Contents (Elt F) :=
  constantI S_ 32 0#32

-- %53 = stablehlo.broadcast_in_dim %c_9, dims = [] : (tensor<i32>) -> tensor<16x64xi32>
def kt_main_v53 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i32⟩ : BufTy).Contents (Elt F) :=
  (broadcastInDim S16x64 ![] bcast_S_S16x64 : (⟨S_, .i32⟩ : BufTy).Contents (Elt F) → (⟨S16x64, .i32⟩ : BufTy).Contents (Elt F)) (kt_main_c_9 (F := F) o x0 x1)

-- %54 = stablehlo.compare LT, %27, %53, SIGNED : (tensor<16x64xi32>, tensor<16x64xi32>) -> tensor<16x64xi1>
def kt_main_v54 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i1⟩ : BufTy).Contents (Elt F) :=
  (cmpi .slt : (⟨S16x64, .i32⟩ : BufTy).Contents (Elt F) → (⟨S16x64, .i32⟩ : BufTy).Contents (Elt F) → (⟨S16x64, .i1⟩ : BufTy).Contents (Elt F)) (kt_main_v27 (F := F) o x0 x1) (kt_main_v53 (F := F) o x0 x1)

-- %c_10 = stablehlo.constant dense<16> : tensor<i32>
def kt_main_c_10 (o : (⟨S1x2, .f32⟩ : BufTy).Contents (Elt F)) (x0 : (⟨S16x85x128x128, .f32⟩ : BufTy).Contents (Elt F)) (x1 : (⟨S16x64x5, .f32⟩ : BufTy).Contents (Elt F)) : (⟨S_, .i32⟩ : BufTy).Contents (Elt F) :=
  constantI S_ 32 16#32

-- %55 = stablehlo.broadcast_in_dim %c_10, dims = [] : (tensor<i32>) -> tensor<16x64xi32>
def kt_main_v55 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i32⟩ : BufTy).Contents (Elt F) :=
  (broadcastInDim S16x64 ![] bcast_S_S16x64 : (⟨S_, .i32⟩ : BufTy).Contents (Elt F) → (⟨S16x64, .i32⟩ : BufTy).Contents (Elt F)) (kt_main_c_10 (F := F) o x0 x1)

-- %56 = stablehlo.add %27, %55 : tensor<16x64xi32>
def kt_main_v56 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i32⟩ : BufTy).Contents (Elt F) :=
  (addi : (⟨S16x64, .i32⟩ : BufTy).Contents (Elt F) → (⟨S16x64, .i32⟩ : BufTy).Contents (Elt F) → (⟨S16x64, .i32⟩ : BufTy).Contents (Elt F)) (kt_main_v27 (F := F) o x0 x1) (kt_main_v55 (F := F) o x0 x1)

-- %57 = stablehlo.select %54, %56, %27 : tensor<16x64xi1>, tensor<16x64xi32>
def kt_main_v57 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i32⟩ : BufTy).Contents (Elt F) :=
  (select : (⟨S16x64, .i1⟩ : BufTy).Contents (Elt F) → (⟨S16x64, .i32⟩ : BufTy).Contents (Elt F) → (⟨S16x64, .i32⟩ : BufTy).Contents (Elt F) → (⟨S16x64, .i32⟩ : BufTy).Contents (Elt F)) (kt_main_v54 (F := F) o x0 x1) (kt_main_v56 (F := F) o x0 x1) (kt_main_v27 (F := F) o x0 x1)

-- %c_11 = stablehlo.constant dense<0> : tensor<i32>
def kt_main_c_11 (o : (⟨S1x2, .f32⟩ : BufTy).Contents (Elt F)) (x0 : (⟨S16x85x128x128, .f32⟩ : BufTy).Contents (Elt F)) (x1 : (⟨S16x64x5, .f32⟩ : BufTy).Contents (Elt F)) : (⟨S_, .i32⟩ : BufTy).Contents (Elt F) :=
  constantI S_ 32 0#32

-- %58 = stablehlo.broadcast_in_dim %c_11, dims = [] : (tensor<i32>) -> tensor<16x64xi32>
def kt_main_v58 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i32⟩ : BufTy).Contents (Elt F) :=
  (broadcastInDim S16x64 ![] bcast_S_S16x64 : (⟨S_, .i32⟩ : BufTy).Contents (Elt F) → (⟨S16x64, .i32⟩ : BufTy).Contents (Elt F)) (kt_main_c_11 (F := F) o x0 x1)

-- %59 = stablehlo.compare LT, %52, %58, SIGNED : (tensor<16x64xi32>, tensor<16x64xi32>) -> tensor<16x64xi1>
def kt_main_v59 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i1⟩ : BufTy).Contents (Elt F) :=
  (cmpi .slt : (⟨S16x64, .i32⟩ : BufTy).Contents (Elt F) → (⟨S16x64, .i32⟩ : BufTy).Contents (Elt F) → (⟨S16x64, .i1⟩ : BufTy).Contents (Elt F)) (kt_main_v52 (F := F) o x0 x1) (kt_main_v58 (F := F) o x0 x1)

-- %c_12 = stablehlo.constant dense<85> : tensor<i32>
def kt_main_c_12 (o : (⟨S1x2, .f32⟩ : BufTy).Contents (Elt F)) (x0 : (⟨S16x85x128x128, .f32⟩ : BufTy).Contents (Elt F)) (x1 : (⟨S16x64x5, .f32⟩ : BufTy).Contents (Elt F)) : (⟨S_, .i32⟩ : BufTy).Contents (Elt F) :=
  constantI S_ 32 85#32

-- %60 = stablehlo.broadcast_in_dim %c_12, dims = [] : (tensor<i32>) -> tensor<16x64xi32>
def kt_main_v60 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i32⟩ : BufTy).Contents (Elt F) :=
  (broadcastInDim S16x64 ![] bcast_S_S16x64 : (⟨S_, .i32⟩ : BufTy).Contents (Elt F) → (⟨S16x64, .i32⟩ : BufTy).Contents (Elt F)) (kt_main_c_12 (F := F) o x0 x1)

-- %61 = stablehlo.add %52, %60 : tensor<16x64xi32>
def kt_main_v61 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i32⟩ : BufTy).Contents (Elt F) :=
  (addi : (⟨S16x64, .i32⟩ : BufTy).Contents (Elt F) → (⟨S16x64, .i32⟩ : BufTy).Contents (Elt F) → (⟨S16x64, .i32⟩ : BufTy).Contents (Elt F)) (kt_main_v52 (F := F) o x0 x1) (kt_main_v60 (F := F) o x0 x1)

-- %62 = stablehlo.select %59, %61, %52 : tensor<16x64xi1>, tensor<16x64xi32>
def kt_main_v62 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i32⟩ : BufTy).Contents (Elt F) :=
  (select : (⟨S16x64, .i1⟩ : BufTy).Contents (Elt F) → (⟨S16x64, .i32⟩ : BufTy).Contents (Elt F) → (⟨S16x64, .i32⟩ : BufTy).Contents (Elt F) → (⟨S16x64, .i32⟩ : BufTy).Contents (Elt F)) (kt_main_v59 (F := F) o x0 x1) (kt_main_v61 (F := F) o x0 x1) (kt_main_v52 (F := F) o x0 x1)

-- %c_13 = stablehlo.constant dense<0> : tensor<i32>
def kt_main_c_13 (o : (⟨S1x2, .f32⟩ : BufTy).Contents (Elt F)) (x0 : (⟨S16x85x128x128, .f32⟩ : BufTy).Contents (Elt F)) (x1 : (⟨S16x64x5, .f32⟩ : BufTy).Contents (Elt F)) : (⟨S_, .i32⟩ : BufTy).Contents (Elt F) :=
  constantI S_ 32 0#32

-- %63 = stablehlo.broadcast_in_dim %c_13, dims = [] : (tensor<i32>) -> tensor<16x64xi32>
def kt_main_v63 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i32⟩ : BufTy).Contents (Elt F) :=
  (broadcastInDim S16x64 ![] bcast_S_S16x64 : (⟨S_, .i32⟩ : BufTy).Contents (Elt F) → (⟨S16x64, .i32⟩ : BufTy).Contents (Elt F)) (kt_main_c_13 (F := F) o x0 x1)

-- %64 = stablehlo.compare LT, %21, %63, SIGNED : (tensor<16x64xi32>, tensor<16x64xi32>) -> tensor<16x64xi1>
def kt_main_v64 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i1⟩ : BufTy).Contents (Elt F) :=
  (cmpi .slt : (⟨S16x64, .i32⟩ : BufTy).Contents (Elt F) → (⟨S16x64, .i32⟩ : BufTy).Contents (Elt F) → (⟨S16x64, .i1⟩ : BufTy).Contents (Elt F)) (kt_main_v21 (F := F) o x0 x1) (kt_main_v63 (F := F) o x0 x1)

-- %c_14 = stablehlo.constant dense<128> : tensor<i32>
def kt_main_c_14 (o : (⟨S1x2, .f32⟩ : BufTy).Contents (Elt F)) (x0 : (⟨S16x85x128x128, .f32⟩ : BufTy).Contents (Elt F)) (x1 : (⟨S16x64x5, .f32⟩ : BufTy).Contents (Elt F)) : (⟨S_, .i32⟩ : BufTy).Contents (Elt F) :=
  constantI S_ 32 128#32

-- %65 = stablehlo.broadcast_in_dim %c_14, dims = [] : (tensor<i32>) -> tensor<16x64xi32>
def kt_main_v65 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i32⟩ : BufTy).Contents (Elt F) :=
  (broadcastInDim S16x64 ![] bcast_S_S16x64 : (⟨S_, .i32⟩ : BufTy).Contents (Elt F) → (⟨S16x64, .i32⟩ : BufTy).Contents (Elt F)) (kt_main_c_14 (F := F) o x0 x1)

-- %66 = stablehlo.add %21, %65 : tensor<16x64xi32>
def kt_main_v66 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i32⟩ : BufTy).Contents (Elt F) :=
  (addi : (⟨S16x64, .i32⟩ : BufTy).Contents (Elt F) → (⟨S16x64, .i32⟩ : BufTy).Contents (Elt F) → (⟨S16x64, .i32⟩ : BufTy).Contents (Elt F)) (kt_main_v21 (F := F) o x0 x1) (kt_main_v65 (F := F) o x0 x1)

-- %67 = stablehlo.select %64, %66, %21 : tensor<16x64xi1>, tensor<16x64xi32>
def kt_main_v67 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i32⟩ : BufTy).Contents (Elt F) :=
  (select : (⟨S16x64, .i1⟩ : BufTy).Contents (Elt F) → (⟨S16x64, .i32⟩ : BufTy).Contents (Elt F) → (⟨S16x64, .i32⟩ : BufTy).Contents (Elt F) → (⟨S16x64, .i32⟩ : BufTy).Contents (Elt F)) (kt_main_v64 (F := F) o x0 x1) (kt_main_v66 (F := F) o x0 x1) (kt_main_v21 (F := F) o x0 x1)

-- %c_15 = stablehlo.constant dense<0> : tensor<i32>
def kt_main_c_15 (o : (⟨S1x2, .f32⟩ : BufTy).Contents (Elt F)) (x0 : (⟨S16x85x128x128, .f32⟩ : BufTy).Contents (Elt F)) (x1 : (⟨S16x64x5, .f32⟩ : BufTy).Contents (Elt F)) : (⟨S_, .i32⟩ : BufTy).Contents (Elt F) :=
  constantI S_ 32 0#32

-- %68 = stablehlo.broadcast_in_dim %c_15, dims = [] : (tensor<i32>) -> tensor<16x64xi32>
def kt_main_v68 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i32⟩ : BufTy).Contents (Elt F) :=
  (broadcastInDim S16x64 ![] bcast_S_S16x64 : (⟨S_, .i32⟩ : BufTy).Contents (Elt F) → (⟨S16x64, .i32⟩ : BufTy).Contents (Elt F)) (kt_main_c_15 (F := F) o x0 x1)

-- %69 = stablehlo.compare LT, %18, %68, SIGNED : (tensor<16x64xi32>, tensor<16x64xi32>) -> tensor<16x64xi1>
def kt_main_v69 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i1⟩ : BufTy).Contents (Elt F) :=
  (cmpi .slt : (⟨S16x64, .i32⟩ : BufTy).Contents (Elt F) → (⟨S16x64, .i32⟩ : BufTy).Contents (Elt F) → (⟨S16x64, .i1⟩ : BufTy).Contents (Elt F)) (kt_main_v18 (F := F) o x0 x1) (kt_main_v68 (F := F) o x0 x1)

-- %c_16 = stablehlo.constant dense<128> : tensor<i32>
def kt_main_c_16 (o : (⟨S1x2, .f32⟩ : BufTy).Contents (Elt F)) (x0 : (⟨S16x85x128x128, .f32⟩ : BufTy).Contents (Elt F)) (x1 : (⟨S16x64x5, .f32⟩ : BufTy).Contents (Elt F)) : (⟨S_, .i32⟩ : BufTy).Contents (Elt F) :=
  constantI S_ 32 128#32

-- %70 = stablehlo.broadcast_in_dim %c_16, dims = [] : (tensor<i32>) -> tensor<16x64xi32>
def kt_main_v70 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i32⟩ : BufTy).Contents (Elt F) :=
  (broadcastInDim S16x64 ![] bcast_S_S16x64 : (⟨S_, .i32⟩ : BufTy).Contents (Elt F) → (⟨S16x64, .i32⟩ : BufTy).Contents (Elt F)) (kt_main_c_16 (F := F) o x0 x1)

-- %71 = stablehlo.add %18, %70 : tensor<16x64xi32>
def kt_main_v71 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i32⟩ : BufTy).Contents (Elt F) :=
  (addi : (⟨S16x64, .i32⟩ : BufTy).Contents (Elt F) → (⟨S16x64, .i32⟩ : BufTy).Contents (Elt F) → (⟨S16x64, .i32⟩ : BufTy).Contents (Elt F)) (kt_main_v18 (F := F) o x0 x1) (kt_main_v70 (F := F) o x0 x1)

-- %72 = stablehlo.select %69, %71, %18 : tensor<16x64xi1>, tensor<16x64xi32>
def kt_main_v72 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i32⟩ : BufTy).Contents (Elt F) :=
  (select : (⟨S16x64, .i1⟩ : BufTy).Contents (Elt F) → (⟨S16x64, .i32⟩ : BufTy).Contents (Elt F) → (⟨S16x64, .i32⟩ : BufTy).Contents (Elt F) → (⟨S16x64, .i32⟩ : BufTy).Contents (Elt F)) (kt_main_v69 (F := F) o x0 x1) (kt_main_v71 (F := F) o x0 x1) (kt_main_v18 (F := F) o x0 x1)

-- %73 = stablehlo.broadcast_in_dim %57, dims = [0, 1] : (tensor<16x64xi32>) -> tensor<16x64x1xi32>
def kt_main_v73 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64x1, .i32⟩ : BufTy).Contents (Elt F) :=
  (broadcastInDim S16x64x1 ![0, 1] bcast_S16x64_S16x64x1_0_1 : (⟨S16x64, .i32⟩ : BufTy).Contents (Elt F) → (⟨S16x64x1, .i32⟩ : BufTy).Contents (Elt F)) (kt_main_v57 (F := F) o x0 x1)

-- %74 = stablehlo.broadcast_in_dim %62, dims = [0, 1] : (tensor<16x64xi32>) -> tensor<16x64x1xi32>
def kt_main_v74 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64x1, .i32⟩ : BufTy).Contents (Elt F) :=
  (broadcastInDim S16x64x1 ![0, 1] bcast_S16x64_S16x64x1_0_1 : (⟨S16x64, .i32⟩ : BufTy).Contents (Elt F) → (⟨S16x64x1, .i32⟩ : BufTy).Contents (Elt F)) (kt_main_v62 (F := F) o x0 x1)

-- %75 = stablehlo.broadcast_in_dim %67, dims = [0, 1] : (tensor<16x64xi32>) -> tensor<16x64x1xi32>
def kt_main_v75 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64x1, .i32⟩ : BufTy).Contents (Elt F) :=
  (broadcastInDim S16x64x1 ![0, 1] bcast_S16x64_S16x64x1_0_1 : (⟨S16x64, .i32⟩ : BufTy).Contents (Elt F) → (⟨S16x64x1, .i32⟩ : BufTy).Contents (Elt F)) (kt_main_v67 (F := F) o x0 x1)

-- %76 = stablehlo.broadcast_in_dim %72, dims = [0, 1] : (tensor<16x64xi32>) -> tensor<16x64x1xi32>
def kt_main_v76 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64x1, .i32⟩ : BufTy).Contents (Elt F) :=
  (broadcastInDim S16x64x1 ![0, 1] bcast_S16x64_S16x64x1_0_1 : (⟨S16x64, .i32⟩ : BufTy).Contents (Elt F) → (⟨S16x64x1, .i32⟩ : BufTy).Contents (Elt F)) (kt_main_v72 (F := F) o x0 x1)

-- %77 = stablehlo.concatenate %73, %74, %75, %76, dim = 2 : (tensor<16x64x1xi32>, tensor<16x64x1xi32>, tensor<16x64x1xi32>, tensor<16x64x1xi32>) -> tensor<16x64x4xi32>
def kt_main_v77 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64x4, .i32⟩ : BufTy).Contents (Elt F) :=
  concatenate S16x64x4 2 [⟨S16x64x1, (kt_main_v73 (F := F) o x0 x1)⟩, ⟨S16x64x1, (kt_main_v74 (F := F) o x0 x1)⟩, ⟨S16x64x1, (kt_main_v75 (F := F) o x0 x1)⟩, ⟨S16x64x1, (kt_main_v76 (F := F) o x0 x1)⟩] concatenates_S16x64x1_S16x64x1_S16x64x1_S16x64x1_S16x64x4_d2

-- %78 = "stablehlo.gather"(%arg0, %77) <{dimension_numbers = #stablehlo.gather<collapsed_slice_dims = [0, 1, 2, 3], start_index_map = [0, 1, 2, 3], index_vector_dim = 2>, indices_are_sorted = false, slice_sizes = array<i64: 1, 1, 1, 1>}> : (tensor<16x85x128x128xf32>, tensor<16x64x4xi32>) -> tensor<16x64xf32>
def kt_main_v78 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .f32⟩ : BufTy).Contents (Elt F) :=
  ((fun x i => Host.gather gather_S16x85x128x128_S16x64x4_S16x64_n_0123_n_n_0123_2_1111 x i) : (⟨S16x85x128x128, .f32⟩ : BufTy).Contents (Elt F) → (⟨S16x64x4, .i32⟩ : BufTy).Contents (Elt F) → (⟨S16x64, .f32⟩ : BufTy).Contents (Elt F)) x0 (kt_main_v77 (F := F) o x0 x1)

-- %c_17 = stablehlo.constant dense<0> : tensor<i32>
def kt_main_c_17 (o : (⟨S1x2, .f32⟩ : BufTy).Contents (Elt F)) (x0 : (⟨S16x85x128x128, .f32⟩ : BufTy).Contents (Elt F)) (x1 : (⟨S16x64x5, .f32⟩ : BufTy).Contents (Elt F)) : (⟨S_, .i32⟩ : BufTy).Contents (Elt F) :=
  constantI S_ 32 0#32

-- %79 = stablehlo.broadcast_in_dim %c_17, dims = [] : (tensor<i32>) -> tensor<16x64xi32>
def kt_main_v79 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i32⟩ : BufTy).Contents (Elt F) :=
  (broadcastInDim S16x64 ![] bcast_S_S16x64 : (⟨S_, .i32⟩ : BufTy).Contents (Elt F) → (⟨S16x64, .i32⟩ : BufTy).Contents (Elt F)) (kt_main_c_17 (F := F) o x0 x1)

-- %80 = stablehlo.compare LT, %27, %79, SIGNED : (tensor<16x64xi32>, tensor<16x64xi32>) -> tensor<16x64xi1>
def kt_main_v80 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i1⟩ : BufTy).Contents (Elt F) :=
  (cmpi .slt : (⟨S16x64, .i32⟩ : BufTy).Contents (Elt F) → (⟨S16x64, .i32⟩ : BufTy).Contents (Elt F) → (⟨S16x64, .i1⟩ : BufTy).Contents (Elt F)) (kt_main_v27 (F := F) o x0 x1) (kt_main_v79 (F := F) o x0 x1)

-- %c_18 = stablehlo.constant dense<16> : tensor<i32>
def kt_main_c_18 (o : (⟨S1x2, .f32⟩ : BufTy).Contents (Elt F)) (x0 : (⟨S16x85x128x128, .f32⟩ : BufTy).Contents (Elt F)) (x1 : (⟨S16x64x5, .f32⟩ : BufTy).Contents (Elt F)) : (⟨S_, .i32⟩ : BufTy).Contents (Elt F) :=
  constantI S_ 32 16#32

-- %81 = stablehlo.broadcast_in_dim %c_18, dims = [] : (tensor<i32>) -> tensor<16x64xi32>
def kt_main_v81 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i32⟩ : BufTy).Contents (Elt F) :=
  (broadcastInDim S16x64 ![] bcast_S_S16x64 : (⟨S_, .i32⟩ : BufTy).Contents (Elt F) → (⟨S16x64, .i32⟩ : BufTy).Contents (Elt F)) (kt_main_c_18 (F := F) o x0 x1)

-- %82 = stablehlo.add %27, %81 : tensor<16x64xi32>
def kt_main_v82 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i32⟩ : BufTy).Contents (Elt F) :=
  (addi : (⟨S16x64, .i32⟩ : BufTy).Contents (Elt F) → (⟨S16x64, .i32⟩ : BufTy).Contents (Elt F) → (⟨S16x64, .i32⟩ : BufTy).Contents (Elt F)) (kt_main_v27 (F := F) o x0 x1) (kt_main_v81 (F := F) o x0 x1)

-- %83 = stablehlo.select %80, %82, %27 : tensor<16x64xi1>, tensor<16x64xi32>
def kt_main_v83 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i32⟩ : BufTy).Contents (Elt F) :=
  (select : (⟨S16x64, .i1⟩ : BufTy).Contents (Elt F) → (⟨S16x64, .i32⟩ : BufTy).Contents (Elt F) → (⟨S16x64, .i32⟩ : BufTy).Contents (Elt F) → (⟨S16x64, .i32⟩ : BufTy).Contents (Elt F)) (kt_main_v80 (F := F) o x0 x1) (kt_main_v82 (F := F) o x0 x1) (kt_main_v27 (F := F) o x0 x1)

-- %c_19 = stablehlo.constant dense<0> : tensor<i32>
def kt_main_c_19 (o : (⟨S1x2, .f32⟩ : BufTy).Contents (Elt F)) (x0 : (⟨S16x85x128x128, .f32⟩ : BufTy).Contents (Elt F)) (x1 : (⟨S16x64x5, .f32⟩ : BufTy).Contents (Elt F)) : (⟨S_, .i32⟩ : BufTy).Contents (Elt F) :=
  constantI S_ 32 0#32

-- %84 = stablehlo.broadcast_in_dim %c_19, dims = [] : (tensor<i32>) -> tensor<16x64xi32>
def kt_main_v84 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i32⟩ : BufTy).Contents (Elt F) :=
  (broadcastInDim S16x64 ![] bcast_S_S16x64 : (⟨S_, .i32⟩ : BufTy).Contents (Elt F) → (⟨S16x64, .i32⟩ : BufTy).Contents (Elt F)) (kt_main_c_19 (F := F) o x0 x1)

-- %85 = stablehlo.compare LT, %21, %84, SIGNED : (tensor<16x64xi32>, tensor<16x64xi32>) -> tensor<16x64xi1>
def kt_main_v85 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i1⟩ : BufTy).Contents (Elt F) :=
  (cmpi .slt : (⟨S16x64, .i32⟩ : BufTy).Contents (Elt F) → (⟨S16x64, .i32⟩ : BufTy).Contents (Elt F) → (⟨S16x64, .i1⟩ : BufTy).Contents (Elt F)) (kt_main_v21 (F := F) o x0 x1) (kt_main_v84 (F := F) o x0 x1)

-- %c_20 = stablehlo.constant dense<128> : tensor<i32>
def kt_main_c_20 (o : (⟨S1x2, .f32⟩ : BufTy).Contents (Elt F)) (x0 : (⟨S16x85x128x128, .f32⟩ : BufTy).Contents (Elt F)) (x1 : (⟨S16x64x5, .f32⟩ : BufTy).Contents (Elt F)) : (⟨S_, .i32⟩ : BufTy).Contents (Elt F) :=
  constantI S_ 32 128#32

-- %86 = stablehlo.broadcast_in_dim %c_20, dims = [] : (tensor<i32>) -> tensor<16x64xi32>
def kt_main_v86 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i32⟩ : BufTy).Contents (Elt F) :=
  (broadcastInDim S16x64 ![] bcast_S_S16x64 : (⟨S_, .i32⟩ : BufTy).Contents (Elt F) → (⟨S16x64, .i32⟩ : BufTy).Contents (Elt F)) (kt_main_c_20 (F := F) o x0 x1)

-- %87 = stablehlo.add %21, %86 : tensor<16x64xi32>
def kt_main_v87 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i32⟩ : BufTy).Contents (Elt F) :=
  (addi : (⟨S16x64, .i32⟩ : BufTy).Contents (Elt F) → (⟨S16x64, .i32⟩ : BufTy).Contents (Elt F) → (⟨S16x64, .i32⟩ : BufTy).Contents (Elt F)) (kt_main_v21 (F := F) o x0 x1) (kt_main_v86 (F := F) o x0 x1)

-- %88 = stablehlo.select %85, %87, %21 : tensor<16x64xi1>, tensor<16x64xi32>
def kt_main_v88 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i32⟩ : BufTy).Contents (Elt F) :=
  (select : (⟨S16x64, .i1⟩ : BufTy).Contents (Elt F) → (⟨S16x64, .i32⟩ : BufTy).Contents (Elt F) → (⟨S16x64, .i32⟩ : BufTy).Contents (Elt F) → (⟨S16x64, .i32⟩ : BufTy).Contents (Elt F)) (kt_main_v85 (F := F) o x0 x1) (kt_main_v87 (F := F) o x0 x1) (kt_main_v21 (F := F) o x0 x1)

-- %c_21 = stablehlo.constant dense<0> : tensor<i32>
def kt_main_c_21 (o : (⟨S1x2, .f32⟩ : BufTy).Contents (Elt F)) (x0 : (⟨S16x85x128x128, .f32⟩ : BufTy).Contents (Elt F)) (x1 : (⟨S16x64x5, .f32⟩ : BufTy).Contents (Elt F)) : (⟨S_, .i32⟩ : BufTy).Contents (Elt F) :=
  constantI S_ 32 0#32

-- %89 = stablehlo.broadcast_in_dim %c_21, dims = [] : (tensor<i32>) -> tensor<16x64xi32>
def kt_main_v89 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i32⟩ : BufTy).Contents (Elt F) :=
  (broadcastInDim S16x64 ![] bcast_S_S16x64 : (⟨S_, .i32⟩ : BufTy).Contents (Elt F) → (⟨S16x64, .i32⟩ : BufTy).Contents (Elt F)) (kt_main_c_21 (F := F) o x0 x1)

-- %90 = stablehlo.compare LT, %18, %89, SIGNED : (tensor<16x64xi32>, tensor<16x64xi32>) -> tensor<16x64xi1>
def kt_main_v90 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i1⟩ : BufTy).Contents (Elt F) :=
  (cmpi .slt : (⟨S16x64, .i32⟩ : BufTy).Contents (Elt F) → (⟨S16x64, .i32⟩ : BufTy).Contents (Elt F) → (⟨S16x64, .i1⟩ : BufTy).Contents (Elt F)) (kt_main_v18 (F := F) o x0 x1) (kt_main_v89 (F := F) o x0 x1)

-- %c_22 = stablehlo.constant dense<128> : tensor<i32>
def kt_main_c_22 (o : (⟨S1x2, .f32⟩ : BufTy).Contents (Elt F)) (x0 : (⟨S16x85x128x128, .f32⟩ : BufTy).Contents (Elt F)) (x1 : (⟨S16x64x5, .f32⟩ : BufTy).Contents (Elt F)) : (⟨S_, .i32⟩ : BufTy).Contents (Elt F) :=
  constantI S_ 32 128#32

-- %91 = stablehlo.broadcast_in_dim %c_22, dims = [] : (tensor<i32>) -> tensor<16x64xi32>
def kt_main_v91 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i32⟩ : BufTy).Contents (Elt F) :=
  (broadcastInDim S16x64 ![] bcast_S_S16x64 : (⟨S_, .i32⟩ : BufTy).Contents (Elt F) → (⟨S16x64, .i32⟩ : BufTy).Contents (Elt F)) (kt_main_c_22 (F := F) o x0 x1)

-- %92 = stablehlo.add %18, %91 : tensor<16x64xi32>
def kt_main_v92 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i32⟩ : BufTy).Contents (Elt F) :=
  (addi : (⟨S16x64, .i32⟩ : BufTy).Contents (Elt F) → (⟨S16x64, .i32⟩ : BufTy).Contents (Elt F) → (⟨S16x64, .i32⟩ : BufTy).Contents (Elt F)) (kt_main_v18 (F := F) o x0 x1) (kt_main_v91 (F := F) o x0 x1)

-- %93 = stablehlo.select %90, %92, %18 : tensor<16x64xi1>, tensor<16x64xi32>
def kt_main_v93 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i32⟩ : BufTy).Contents (Elt F) :=
  (select : (⟨S16x64, .i1⟩ : BufTy).Contents (Elt F) → (⟨S16x64, .i32⟩ : BufTy).Contents (Elt F) → (⟨S16x64, .i32⟩ : BufTy).Contents (Elt F) → (⟨S16x64, .i32⟩ : BufTy).Contents (Elt F)) (kt_main_v90 (F := F) o x0 x1) (kt_main_v92 (F := F) o x0 x1) (kt_main_v18 (F := F) o x0 x1)

-- %c_23 = stablehlo.constant dense<0> : tensor<i32>
def kt_main_c_23 (o : (⟨S1x2, .f32⟩ : BufTy).Contents (Elt F)) (x0 : (⟨S16x85x128x128, .f32⟩ : BufTy).Contents (Elt F)) (x1 : (⟨S16x64x5, .f32⟩ : BufTy).Contents (Elt F)) : (⟨S_, .i32⟩ : BufTy).Contents (Elt F) :=
  constantI S_ 32 0#32

-- %94 = stablehlo.broadcast_in_dim %c_23, dims = [] : (tensor<i32>) -> tensor<16x64xi32>
def kt_main_v94 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i32⟩ : BufTy).Contents (Elt F) :=
  (broadcastInDim S16x64 ![] bcast_S_S16x64 : (⟨S_, .i32⟩ : BufTy).Contents (Elt F) → (⟨S16x64, .i32⟩ : BufTy).Contents (Elt F)) (kt_main_c_23 (F := F) o x0 x1)

-- %95 = stablehlo.convert %94 : tensor<16x64xi32>
def kt_main_v95 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i32⟩ : BufTy).Contents (Elt F) :=
  (id : (⟨S16x64, .i32⟩ : BufTy).Contents (Elt F) → (⟨S16x64, .i32⟩ : BufTy).Contents (Elt F)) (kt_main_v94 (F := F) o x0 x1)

-- %96 = stablehlo.broadcast_in_dim %83, dims = [0, 1] : (tensor<16x64xi32>) -> tensor<16x64x1xi32>
def kt_main_v96 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64x1, .i32⟩ : BufTy).Contents (Elt F) :=
  (broadcastInDim S16x64x1 ![0, 1] bcast_S16x64_S16x64x1_0_1 : (⟨S16x64, .i32⟩ : BufTy).Contents (Elt F) → (⟨S16x64x1, .i32⟩ : BufTy).Contents (Elt F)) (kt_main_v83 (F := F) o x0 x1)

-- %97 = stablehlo.broadcast_in_dim %95, dims = [0, 1] : (tensor<16x64xi32>) -> tensor<16x64x1xi32>
def kt_main_v97 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64x1, .i32⟩ : BufTy).Contents (Elt F) :=
  (broadcastInDim S16x64x1 ![0, 1] bcast_S16x64_S16x64x1_0_1 : (⟨S16x64, .i32⟩ : BufTy).Contents (Elt F) → (⟨S16x64x1, .i32⟩ : BufTy).Contents (Elt F)) (kt_main_v95 (F := F) o x0 x1)

-- %98 = stablehlo.broadcast_in_dim %88, dims = [0, 1] : (tensor<16x64xi32>) -> tensor<16x64x1xi32>
def kt_main_v98 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64x1, .i32⟩ : BufTy).Contents (Elt F) :=
  (broadcastInDim S16x64x1 ![0, 1] bcast_S16x64_S16x64x1_0_1 : (⟨S16x64, .i32⟩ : BufTy).Contents (Elt F) → (⟨S16x64x1, .i32⟩ : BufTy).Contents (Elt F)) (kt_main_v88 (F := F) o x0 x1)

-- %99 = stablehlo.broadcast_in_dim %93, dims = [0, 1] : (tensor<16x64xi32>) -> tensor<16x64x1xi32>
def kt_main_v99 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64x1, .i32⟩ : BufTy).Contents (Elt F) :=
  (broadcastInDim S16x64x1 ![0, 1] bcast_S16x64_S16x64x1_0_1 : (⟨S16x64, .i32⟩ : BufTy).Contents (Elt F) → (⟨S16x64x1, .i32⟩ : BufTy).Contents (Elt F)) (kt_main_v93 (F := F) o x0 x1)

-- %100 = stablehlo.concatenate %96, %97, %98, %99, dim = 2 : (tensor<16x64x1xi32>, tensor<16x64x1xi32>, tensor<16x64x1xi32>, tensor<16x64x1xi32>) -> tensor<16x64x4xi32>
def kt_main_v100 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64x4, .i32⟩ : BufTy).Contents (Elt F) :=
  concatenate S16x64x4 2 [⟨S16x64x1, (kt_main_v96 (F := F) o x0 x1)⟩, ⟨S16x64x1, (kt_main_v97 (F := F) o x0 x1)⟩, ⟨S16x64x1, (kt_main_v98 (F := F) o x0 x1)⟩, ⟨S16x64x1, (kt_main_v99 (F := F) o x0 x1)⟩] concatenates_S16x64x1_S16x64x1_S16x64x1_S16x64x1_S16x64x4_d2

-- %101 = "stablehlo.gather"(%arg0, %100) <{dimension_numbers = #stablehlo.gather<collapsed_slice_dims = [0, 1, 2, 3], start_index_map = [0, 1, 2, 3], index_vector_dim = 2>, indices_are_sorted = false, slice_sizes = array<i64: 1, 1, 1, 1>}> : (tensor<16x85x128x128xf32>, tensor<16x64x4xi32>) -> tensor<16x64xf32>
def kt_main_v101 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .f32⟩ : BufTy).Contents (Elt F) :=
  ((fun x i => Host.gather gather_S16x85x128x128_S16x64x4_S16x64_n_0123_n_n_0123_2_1111 x i) : (⟨S16x85x128x128, .f32⟩ : BufTy).Contents (Elt F) → (⟨S16x64x4, .i32⟩ : BufTy).Contents (Elt F) → (⟨S16x64, .f32⟩ : BufTy).Contents (Elt F)) x0 (kt_main_v100 (F := F) o x0 x1)

-- %c_24 = stablehlo.constant dense<0> : tensor<i32>
def kt_main_c_24 (o : (⟨S1x2, .f32⟩ : BufTy).Contents (Elt F)) (x0 : (⟨S16x85x128x128, .f32⟩ : BufTy).Contents (Elt F)) (x1 : (⟨S16x64x5, .f32⟩ : BufTy).Contents (Elt F)) : (⟨S_, .i32⟩ : BufTy).Contents (Elt F) :=
  constantI S_ 32 0#32

-- %102 = stablehlo.broadcast_in_dim %c_24, dims = [] : (tensor<i32>) -> tensor<16x64xi32>
def kt_main_v102 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i32⟩ : BufTy).Contents (Elt F) :=
  (broadcastInDim S16x64 ![] bcast_S_S16x64 : (⟨S_, .i32⟩ : BufTy).Contents (Elt F) → (⟨S16x64, .i32⟩ : BufTy).Contents (Elt F)) (kt_main_c_24 (F := F) o x0 x1)

-- %103 = stablehlo.compare LT, %27, %102, SIGNED : (tensor<16x64xi32>, tensor<16x64xi32>) -> tensor<16x64xi1>
def kt_main_v103 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i1⟩ : BufTy).Contents (Elt F) :=
  (cmpi .slt : (⟨S16x64, .i32⟩ : BufTy).Contents (Elt F) → (⟨S16x64, .i32⟩ : BufTy).Contents (Elt F) → (⟨S16x64, .i1⟩ : BufTy).Contents (Elt F)) (kt_main_v27 (F := F) o x0 x1) (kt_main_v102 (F := F) o x0 x1)

-- %c_25 = stablehlo.constant dense<16> : tensor<i32>
def kt_main_c_25 (o : (⟨S1x2, .f32⟩ : BufTy).Contents (Elt F)) (x0 : (⟨S16x85x128x128, .f32⟩ : BufTy).Contents (Elt F)) (x1 : (⟨S16x64x5, .f32⟩ : BufTy).Contents (Elt F)) : (⟨S_, .i32⟩ : BufTy).Contents (Elt F) :=
  constantI S_ 32 16#32

-- %104 = stablehlo.broadcast_in_dim %c_25, dims = [] : (tensor<i32>) -> tensor<16x64xi32>
def kt_main_v104 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i32⟩ : BufTy).Contents (Elt F) :=
  (broadcastInDim S16x64 ![] bcast_S_S16x64 : (⟨S_, .i32⟩ : BufTy).Contents (Elt F) → (⟨S16x64, .i32⟩ : BufTy).Contents (Elt F)) (kt_main_c_25 (F := F) o x0 x1)

-- %105 = stablehlo.add %27, %104 : tensor<16x64xi32>
def kt_main_v105 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i32⟩ : BufTy).Contents (Elt F) :=
  (addi : (⟨S16x64, .i32⟩ : BufTy).Contents (Elt F) → (⟨S16x64, .i32⟩ : BufTy).Contents (Elt F) → (⟨S16x64, .i32⟩ : BufTy).Contents (Elt F)) (kt_main_v27 (F := F) o x0 x1) (kt_main_v104 (F := F) o x0 x1)

-- %106 = stablehlo.select %103, %105, %27 : tensor<16x64xi1>, tensor<16x64xi32>
def kt_main_v106 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i32⟩ : BufTy).Contents (Elt F) :=
  (select : (⟨S16x64, .i1⟩ : BufTy).Contents (Elt F) → (⟨S16x64, .i32⟩ : BufTy).Contents (Elt F) → (⟨S16x64, .i32⟩ : BufTy).Contents (Elt F) → (⟨S16x64, .i32⟩ : BufTy).Contents (Elt F)) (kt_main_v103 (F := F) o x0 x1) (kt_main_v105 (F := F) o x0 x1) (kt_main_v27 (F := F) o x0 x1)

-- %c_26 = stablehlo.constant dense<0> : tensor<i32>
def kt_main_c_26 (o : (⟨S1x2, .f32⟩ : BufTy).Contents (Elt F)) (x0 : (⟨S16x85x128x128, .f32⟩ : BufTy).Contents (Elt F)) (x1 : (⟨S16x64x5, .f32⟩ : BufTy).Contents (Elt F)) : (⟨S_, .i32⟩ : BufTy).Contents (Elt F) :=
  constantI S_ 32 0#32

-- %107 = stablehlo.broadcast_in_dim %c_26, dims = [] : (tensor<i32>) -> tensor<16x64xi32>
def kt_main_v107 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i32⟩ : BufTy).Contents (Elt F) :=
  (broadcastInDim S16x64 ![] bcast_S_S16x64 : (⟨S_, .i32⟩ : BufTy).Contents (Elt F) → (⟨S16x64, .i32⟩ : BufTy).Contents (Elt F)) (kt_main_c_26 (F := F) o x0 x1)

-- %108 = stablehlo.compare LT, %21, %107, SIGNED : (tensor<16x64xi32>, tensor<16x64xi32>) -> tensor<16x64xi1>
def kt_main_v108 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i1⟩ : BufTy).Contents (Elt F) :=
  (cmpi .slt : (⟨S16x64, .i32⟩ : BufTy).Contents (Elt F) → (⟨S16x64, .i32⟩ : BufTy).Contents (Elt F) → (⟨S16x64, .i1⟩ : BufTy).Contents (Elt F)) (kt_main_v21 (F := F) o x0 x1) (kt_main_v107 (F := F) o x0 x1)

-- %c_27 = stablehlo.constant dense<128> : tensor<i32>
def kt_main_c_27 (o : (⟨S1x2, .f32⟩ : BufTy).Contents (Elt F)) (x0 : (⟨S16x85x128x128, .f32⟩ : BufTy).Contents (Elt F)) (x1 : (⟨S16x64x5, .f32⟩ : BufTy).Contents (Elt F)) : (⟨S_, .i32⟩ : BufTy).Contents (Elt F) :=
  constantI S_ 32 128#32

-- %109 = stablehlo.broadcast_in_dim %c_27, dims = [] : (tensor<i32>) -> tensor<16x64xi32>
def kt_main_v109 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i32⟩ : BufTy).Contents (Elt F) :=
  (broadcastInDim S16x64 ![] bcast_S_S16x64 : (⟨S_, .i32⟩ : BufTy).Contents (Elt F) → (⟨S16x64, .i32⟩ : BufTy).Contents (Elt F)) (kt_main_c_27 (F := F) o x0 x1)

-- %110 = stablehlo.add %21, %109 : tensor<16x64xi32>
def kt_main_v110 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i32⟩ : BufTy).Contents (Elt F) :=
  (addi : (⟨S16x64, .i32⟩ : BufTy).Contents (Elt F) → (⟨S16x64, .i32⟩ : BufTy).Contents (Elt F) → (⟨S16x64, .i32⟩ : BufTy).Contents (Elt F)) (kt_main_v21 (F := F) o x0 x1) (kt_main_v109 (F := F) o x0 x1)

-- %111 = stablehlo.select %108, %110, %21 : tensor<16x64xi1>, tensor<16x64xi32>
def kt_main_v111 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i32⟩ : BufTy).Contents (Elt F) :=
  (select : (⟨S16x64, .i1⟩ : BufTy).Contents (Elt F) → (⟨S16x64, .i32⟩ : BufTy).Contents (Elt F) → (⟨S16x64, .i32⟩ : BufTy).Contents (Elt F) → (⟨S16x64, .i32⟩ : BufTy).Contents (Elt F)) (kt_main_v108 (F := F) o x0 x1) (kt_main_v110 (F := F) o x0 x1) (kt_main_v21 (F := F) o x0 x1)

-- %c_28 = stablehlo.constant dense<0> : tensor<i32>
def kt_main_c_28 (o : (⟨S1x2, .f32⟩ : BufTy).Contents (Elt F)) (x0 : (⟨S16x85x128x128, .f32⟩ : BufTy).Contents (Elt F)) (x1 : (⟨S16x64x5, .f32⟩ : BufTy).Contents (Elt F)) : (⟨S_, .i32⟩ : BufTy).Contents (Elt F) :=
  constantI S_ 32 0#32

-- %112 = stablehlo.broadcast_in_dim %c_28, dims = [] : (tensor<i32>) -> tensor<16x64xi32>
def kt_main_v112 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i32⟩ : BufTy).Contents (Elt F) :=
  (broadcastInDim S16x64 ![] bcast_S_S16x64 : (⟨S_, .i32⟩ : BufTy).Contents (Elt F) → (⟨S16x64, .i32⟩ : BufTy).Contents (Elt F)) (kt_main_c_28 (F := F) o x0 x1)

-- %113 = stablehlo.compare LT, %18, %112, SIGNED : (tensor<16x64xi32>, tensor<16x64xi32>) -> tensor<16x64xi1>
def kt_main_v113 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i1⟩ : BufTy).Contents (Elt F) :=
  (cmpi .slt : (⟨S16x64, .i32⟩ : BufTy).Contents (Elt F) → (⟨S16x64, .i32⟩ : BufTy).Contents (Elt F) → (⟨S16x64, .i1⟩ : BufTy).Contents (Elt F)) (kt_main_v18 (F := F) o x0 x1) (kt_main_v112 (F := F) o x0 x1)

-- %c_29 = stablehlo.constant dense<128> : tensor<i32>
def kt_main_c_29 (o : (⟨S1x2, .f32⟩ : BufTy).Contents (Elt F)) (x0 : (⟨S16x85x128x128, .f32⟩ : BufTy).Contents (Elt F)) (x1 : (⟨S16x64x5, .f32⟩ : BufTy).Contents (Elt F)) : (⟨S_, .i32⟩ : BufTy).Contents (Elt F) :=
  constantI S_ 32 128#32

-- %114 = stablehlo.broadcast_in_dim %c_29, dims = [] : (tensor<i32>) -> tensor<16x64xi32>
def kt_main_v114 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i32⟩ : BufTy).Contents (Elt F) :=
  (broadcastInDim S16x64 ![] bcast_S_S16x64 : (⟨S_, .i32⟩ : BufTy).Contents (Elt F) → (⟨S16x64, .i32⟩ : BufTy).Contents (Elt F)) (kt_main_c_29 (F := F) o x0 x1)

-- %115 = stablehlo.add %18, %114 : tensor<16x64xi32>
def kt_main_v115 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i32⟩ : BufTy).Contents (Elt F) :=
  (addi : (⟨S16x64, .i32⟩ : BufTy).Contents (Elt F) → (⟨S16x64, .i32⟩ : BufTy).Contents (Elt F) → (⟨S16x64, .i32⟩ : BufTy).Contents (Elt F)) (kt_main_v18 (F := F) o x0 x1) (kt_main_v114 (F := F) o x0 x1)

-- %116 = stablehlo.select %113, %115, %18 : tensor<16x64xi1>, tensor<16x64xi32>
def kt_main_v116 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i32⟩ : BufTy).Contents (Elt F) :=
  (select : (⟨S16x64, .i1⟩ : BufTy).Contents (Elt F) → (⟨S16x64, .i32⟩ : BufTy).Contents (Elt F) → (⟨S16x64, .i32⟩ : BufTy).Contents (Elt F) → (⟨S16x64, .i32⟩ : BufTy).Contents (Elt F)) (kt_main_v113 (F := F) o x0 x1) (kt_main_v115 (F := F) o x0 x1) (kt_main_v18 (F := F) o x0 x1)

-- %c_30 = stablehlo.constant dense<1> : tensor<i32>
def kt_main_c_30 (o : (⟨S1x2, .f32⟩ : BufTy).Contents (Elt F)) (x0 : (⟨S16x85x128x128, .f32⟩ : BufTy).Contents (Elt F)) (x1 : (⟨S16x64x5, .f32⟩ : BufTy).Contents (Elt F)) : (⟨S_, .i32⟩ : BufTy).Contents (Elt F) :=
  constantI S_ 32 1#32

-- %117 = stablehlo.broadcast_in_dim %c_30, dims = [] : (tensor<i32>) -> tensor<16x64xi32>
def kt_main_v117 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i32⟩ : BufTy).Contents (Elt F) :=
  (broadcastInDim S16x64 ![] bcast_S_S16x64 : (⟨S_, .i32⟩ : BufTy).Contents (Elt F) → (⟨S16x64, .i32⟩ : BufTy).Contents (Elt F)) (kt_main_c_30 (F := F) o x0 x1)

-- %118 = stablehlo.convert %117 : tensor<16x64xi32>
def kt_main_v118 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i32⟩ : BufTy).Contents (Elt F) :=
  (id : (⟨S16x64, .i32⟩ : BufTy).Contents (Elt F) → (⟨S16x64, .i32⟩ : BufTy).Contents (Elt F)) (kt_main_v117 (F := F) o x0 x1)

-- %119 = stablehlo.broadcast_in_dim %106, dims = [0, 1] : (tensor<16x64xi32>) -> tensor<16x64x1xi32>
def kt_main_v119 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64x1, .i32⟩ : BufTy).Contents (Elt F) :=
  (broadcastInDim S16x64x1 ![0, 1] bcast_S16x64_S16x64x1_0_1 : (⟨S16x64, .i32⟩ : BufTy).Contents (Elt F) → (⟨S16x64x1, .i32⟩ : BufTy).Contents (Elt F)) (kt_main_v106 (F := F) o x0 x1)

-- %120 = stablehlo.broadcast_in_dim %118, dims = [0, 1] : (tensor<16x64xi32>) -> tensor<16x64x1xi32>
def kt_main_v120 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64x1, .i32⟩ : BufTy).Contents (Elt F) :=
  (broadcastInDim S16x64x1 ![0, 1] bcast_S16x64_S16x64x1_0_1 : (⟨S16x64, .i32⟩ : BufTy).Contents (Elt F) → (⟨S16x64x1, .i32⟩ : BufTy).Contents (Elt F)) (kt_main_v118 (F := F) o x0 x1)

-- %121 = stablehlo.broadcast_in_dim %111, dims = [0, 1] : (tensor<16x64xi32>) -> tensor<16x64x1xi32>
def kt_main_v121 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64x1, .i32⟩ : BufTy).Contents (Elt F) :=
  (broadcastInDim S16x64x1 ![0, 1] bcast_S16x64_S16x64x1_0_1 : (⟨S16x64, .i32⟩ : BufTy).Contents (Elt F) → (⟨S16x64x1, .i32⟩ : BufTy).Contents (Elt F)) (kt_main_v111 (F := F) o x0 x1)

-- %122 = stablehlo.broadcast_in_dim %116, dims = [0, 1] : (tensor<16x64xi32>) -> tensor<16x64x1xi32>
def kt_main_v122 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64x1, .i32⟩ : BufTy).Contents (Elt F) :=
  (broadcastInDim S16x64x1 ![0, 1] bcast_S16x64_S16x64x1_0_1 : (⟨S16x64, .i32⟩ : BufTy).Contents (Elt F) → (⟨S16x64x1, .i32⟩ : BufTy).Contents (Elt F)) (kt_main_v116 (F := F) o x0 x1)

-- %123 = stablehlo.concatenate %119, %120, %121, %122, dim = 2 : (tensor<16x64x1xi32>, tensor<16x64x1xi32>, tensor<16x64x1xi32>, tensor<16x64x1xi32>) -> tensor<16x64x4xi32>
def kt_main_v123 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64x4, .i32⟩ : BufTy).Contents (Elt F) :=
  concatenate S16x64x4 2 [⟨S16x64x1, (kt_main_v119 (F := F) o x0 x1)⟩, ⟨S16x64x1, (kt_main_v120 (F := F) o x0 x1)⟩, ⟨S16x64x1, (kt_main_v121 (F := F) o x0 x1)⟩, ⟨S16x64x1, (kt_main_v122 (F := F) o x0 x1)⟩] concatenates_S16x64x1_S16x64x1_S16x64x1_S16x64x1_S16x64x4_d2

-- %124 = "stablehlo.gather"(%arg0, %123) <{dimension_numbers = #stablehlo.gather<collapsed_slice_dims = [0, 1, 2, 3], start_index_map = [0, 1, 2, 3], index_vector_dim = 2>, indices_are_sorted = false, slice_sizes = array<i64: 1, 1, 1, 1>}> : (tensor<16x85x128x128xf32>, tensor<16x64x4xi32>) -> tensor<16x64xf32>
def kt_main_v124 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .f32⟩ : BufTy).Contents (Elt F) :=
  ((fun x i => Host.gather gather_S16x85x128x128_S16x64x4_S16x64_n_0123_n_n_0123_2_1111 x i) : (⟨S16x85x128x128, .f32⟩ : BufTy).Contents (Elt F) → (⟨S16x64x4, .i32⟩ : BufTy).Contents (Elt F) → (⟨S16x64, .f32⟩ : BufTy).Contents (Elt F)) x0 (kt_main_v123 (F := F) o x0 x1)

-- %c_31 = stablehlo.constant dense<0> : tensor<i32>
def kt_main_c_31 (o : (⟨S1x2, .f32⟩ : BufTy).Contents (Elt F)) (x0 : (⟨S16x85x128x128, .f32⟩ : BufTy).Contents (Elt F)) (x1 : (⟨S16x64x5, .f32⟩ : BufTy).Contents (Elt F)) : (⟨S_, .i32⟩ : BufTy).Contents (Elt F) :=
  constantI S_ 32 0#32

-- %125 = stablehlo.broadcast_in_dim %c_31, dims = [] : (tensor<i32>) -> tensor<16x64xi32>
def kt_main_v125 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i32⟩ : BufTy).Contents (Elt F) :=
  (broadcastInDim S16x64 ![] bcast_S_S16x64 : (⟨S_, .i32⟩ : BufTy).Contents (Elt F) → (⟨S16x64, .i32⟩ : BufTy).Contents (Elt F)) (kt_main_c_31 (F := F) o x0 x1)

-- %126 = stablehlo.compare LT, %27, %125, SIGNED : (tensor<16x64xi32>, tensor<16x64xi32>) -> tensor<16x64xi1>
def kt_main_v126 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i1⟩ : BufTy).Contents (Elt F) :=
  (cmpi .slt : (⟨S16x64, .i32⟩ : BufTy).Contents (Elt F) → (⟨S16x64, .i32⟩ : BufTy).Contents (Elt F) → (⟨S16x64, .i1⟩ : BufTy).Contents (Elt F)) (kt_main_v27 (F := F) o x0 x1) (kt_main_v125 (F := F) o x0 x1)

-- %c_32 = stablehlo.constant dense<16> : tensor<i32>
def kt_main_c_32 (o : (⟨S1x2, .f32⟩ : BufTy).Contents (Elt F)) (x0 : (⟨S16x85x128x128, .f32⟩ : BufTy).Contents (Elt F)) (x1 : (⟨S16x64x5, .f32⟩ : BufTy).Contents (Elt F)) : (⟨S_, .i32⟩ : BufTy).Contents (Elt F) :=
  constantI S_ 32 16#32

-- %127 = stablehlo.broadcast_in_dim %c_32, dims = [] : (tensor<i32>) -> tensor<16x64xi32>
def kt_main_v127 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i32⟩ : BufTy).Contents (Elt F) :=
  (broadcastInDim S16x64 ![] bcast_S_S16x64 : (⟨S_, .i32⟩ : BufTy).Contents (Elt F) → (⟨S16x64, .i32⟩ : BufTy).Contents (Elt F)) (kt_main_c_32 (F := F) o x0 x1)

-- %128 = stablehlo.add %27, %127 : tensor<16x64xi32>
def kt_main_v128 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i32⟩ : BufTy).Contents (Elt F) :=
  (addi : (⟨S16x64, .i32⟩ : BufTy).Contents (Elt F) → (⟨S16x64, .i32⟩ : BufTy).Contents (Elt F) → (⟨S16x64, .i32⟩ : BufTy).Contents (Elt F)) (kt_main_v27 (F := F) o x0 x1) (kt_main_v127 (F := F) o x0 x1)

-- %129 = stablehlo.select %126, %128, %27 : tensor<16x64xi1>, tensor<16x64xi32>
def kt_main_v129 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i32⟩ : BufTy).Contents (Elt F) :=
  (select : (⟨S16x64, .i1⟩ : BufTy).Contents (Elt F) → (⟨S16x64, .i32⟩ : BufTy).Contents (Elt F) → (⟨S16x64, .i32⟩ : BufTy).Contents (Elt F) → (⟨S16x64, .i32⟩ : BufTy).Contents (Elt F)) (kt_main_v126 (F := F) o x0 x1) (kt_main_v128 (F := F) o x0 x1) (kt_main_v27 (F := F) o x0 x1)

-- %c_33 = stablehlo.constant dense<0> : tensor<i32>
def kt_main_c_33 (o : (⟨S1x2, .f32⟩ : BufTy).Contents (Elt F)) (x0 : (⟨S16x85x128x128, .f32⟩ : BufTy).Contents (Elt F)) (x1 : (⟨S16x64x5, .f32⟩ : BufTy).Contents (Elt F)) : (⟨S_, .i32⟩ : BufTy).Contents (Elt F) :=
  constantI S_ 32 0#32

-- %130 = stablehlo.broadcast_in_dim %c_33, dims = [] : (tensor<i32>) -> tensor<16x64xi32>
def kt_main_v130 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i32⟩ : BufTy).Contents (Elt F) :=
  (broadcastInDim S16x64 ![] bcast_S_S16x64 : (⟨S_, .i32⟩ : BufTy).Contents (Elt F) → (⟨S16x64, .i32⟩ : BufTy).Contents (Elt F)) (kt_main_c_33 (F := F) o x0 x1)

-- %131 = stablehlo.compare LT, %21, %130, SIGNED : (tensor<16x64xi32>, tensor<16x64xi32>) -> tensor<16x64xi1>
def kt_main_v131 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i1⟩ : BufTy).Contents (Elt F) :=
  (cmpi .slt : (⟨S16x64, .i32⟩ : BufTy).Contents (Elt F) → (⟨S16x64, .i32⟩ : BufTy).Contents (Elt F) → (⟨S16x64, .i1⟩ : BufTy).Contents (Elt F)) (kt_main_v21 (F := F) o x0 x1) (kt_main_v130 (F := F) o x0 x1)

-- %c_34 = stablehlo.constant dense<128> : tensor<i32>
def kt_main_c_34 (o : (⟨S1x2, .f32⟩ : BufTy).Contents (Elt F)) (x0 : (⟨S16x85x128x128, .f32⟩ : BufTy).Contents (Elt F)) (x1 : (⟨S16x64x5, .f32⟩ : BufTy).Contents (Elt F)) : (⟨S_, .i32⟩ : BufTy).Contents (Elt F) :=
  constantI S_ 32 128#32

-- %132 = stablehlo.broadcast_in_dim %c_34, dims = [] : (tensor<i32>) -> tensor<16x64xi32>
def kt_main_v132 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i32⟩ : BufTy).Contents (Elt F) :=
  (broadcastInDim S16x64 ![] bcast_S_S16x64 : (⟨S_, .i32⟩ : BufTy).Contents (Elt F) → (⟨S16x64, .i32⟩ : BufTy).Contents (Elt F)) (kt_main_c_34 (F := F) o x0 x1)

-- %133 = stablehlo.add %21, %132 : tensor<16x64xi32>
def kt_main_v133 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i32⟩ : BufTy).Contents (Elt F) :=
  (addi : (⟨S16x64, .i32⟩ : BufTy).Contents (Elt F) → (⟨S16x64, .i32⟩ : BufTy).Contents (Elt F) → (⟨S16x64, .i32⟩ : BufTy).Contents (Elt F)) (kt_main_v21 (F := F) o x0 x1) (kt_main_v132 (F := F) o x0 x1)

-- %134 = stablehlo.select %131, %133, %21 : tensor<16x64xi1>, tensor<16x64xi32>
def kt_main_v134 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i32⟩ : BufTy).Contents (Elt F) :=
  (select : (⟨S16x64, .i1⟩ : BufTy).Contents (Elt F) → (⟨S16x64, .i32⟩ : BufTy).Contents (Elt F) → (⟨S16x64, .i32⟩ : BufTy).Contents (Elt F) → (⟨S16x64, .i32⟩ : BufTy).Contents (Elt F)) (kt_main_v131 (F := F) o x0 x1) (kt_main_v133 (F := F) o x0 x1) (kt_main_v21 (F := F) o x0 x1)

-- %c_35 = stablehlo.constant dense<0> : tensor<i32>
def kt_main_c_35 (o : (⟨S1x2, .f32⟩ : BufTy).Contents (Elt F)) (x0 : (⟨S16x85x128x128, .f32⟩ : BufTy).Contents (Elt F)) (x1 : (⟨S16x64x5, .f32⟩ : BufTy).Contents (Elt F)) : (⟨S_, .i32⟩ : BufTy).Contents (Elt F) :=
  constantI S_ 32 0#32

-- %135 = stablehlo.broadcast_in_dim %c_35, dims = [] : (tensor<i32>) -> tensor<16x64xi32>
def kt_main_v135 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i32⟩ : BufTy).Contents (Elt F) :=
  (broadcastInDim S16x64 ![] bcast_S_S16x64 : (⟨S_, .i32⟩ : BufTy).Contents (Elt F) → (⟨S16x64, .i32⟩ : BufTy).Contents (Elt F)) (kt_main_c_35 (F := F) o x0 x1)

-- %136 = stablehlo.compare LT, %18, %135, SIGNED : (tensor<16x64xi32>, tensor<16x64xi32>) -> tensor<16x64xi1>
def kt_main_v136 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i1⟩ : BufTy).Contents (Elt F) :=
  (cmpi .slt : (⟨S16x64, .i32⟩ : BufTy).Contents (Elt F) → (⟨S16x64, .i32⟩ : BufTy).Contents (Elt F) → (⟨S16x64, .i1⟩ : BufTy).Contents (Elt F)) (kt_main_v18 (F := F) o x0 x1) (kt_main_v135 (F := F) o x0 x1)

-- %c_36 = stablehlo.constant dense<128> : tensor<i32>
def kt_main_c_36 (o : (⟨S1x2, .f32⟩ : BufTy).Contents (Elt F)) (x0 : (⟨S16x85x128x128, .f32⟩ : BufTy).Contents (Elt F)) (x1 : (⟨S16x64x5, .f32⟩ : BufTy).Contents (Elt F)) : (⟨S_, .i32⟩ : BufTy).Contents (Elt F) :=
  constantI S_ 32 128#32

-- %137 = stablehlo.broadcast_in_dim %c_36, dims = [] : (tensor<i32>) -> tensor<16x64xi32>
def kt_main_v137 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i32⟩ : BufTy).Contents (Elt F) :=
  (broadcastInDim S16x64 ![] bcast_S_S16x64 : (⟨S_, .i32⟩ : BufTy).Contents (Elt F) → (⟨S16x64, .i32⟩ : BufTy).Contents (Elt F)) (kt_main_c_36 (F := F) o x0 x1)

-- %138 = stablehlo.add %18, %137 : tensor<16x64xi32>
def kt_main_v138 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i32⟩ : BufTy).Contents (Elt F) :=
  (addi : (⟨S16x64, .i32⟩ : BufTy).Contents (Elt F) → (⟨S16x64, .i32⟩ : BufTy).Contents (Elt F) → (⟨S16x64, .i32⟩ : BufTy).Contents (Elt F)) (kt_main_v18 (F := F) o x0 x1) (kt_main_v137 (F := F) o x0 x1)

-- %139 = stablehlo.select %136, %138, %18 : tensor<16x64xi1>, tensor<16x64xi32>
def kt_main_v139 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i32⟩ : BufTy).Contents (Elt F) :=
  (select : (⟨S16x64, .i1⟩ : BufTy).Contents (Elt F) → (⟨S16x64, .i32⟩ : BufTy).Contents (Elt F) → (⟨S16x64, .i32⟩ : BufTy).Contents (Elt F) → (⟨S16x64, .i32⟩ : BufTy).Contents (Elt F)) (kt_main_v136 (F := F) o x0 x1) (kt_main_v138 (F := F) o x0 x1) (kt_main_v18 (F := F) o x0 x1)

-- %c_37 = stablehlo.constant dense<2> : tensor<i32>
def kt_main_c_37 (o : (⟨S1x2, .f32⟩ : BufTy).Contents (Elt F)) (x0 : (⟨S16x85x128x128, .f32⟩ : BufTy).Contents (Elt F)) (x1 : (⟨S16x64x5, .f32⟩ : BufTy).Contents (Elt F)) : (⟨S_, .i32⟩ : BufTy).Contents (Elt F) :=
  constantI S_ 32 2#32

-- %140 = stablehlo.broadcast_in_dim %c_37, dims = [] : (tensor<i32>) -> tensor<16x64xi32>
def kt_main_v140 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i32⟩ : BufTy).Contents (Elt F) :=
  (broadcastInDim S16x64 ![] bcast_S_S16x64 : (⟨S_, .i32⟩ : BufTy).Contents (Elt F) → (⟨S16x64, .i32⟩ : BufTy).Contents (Elt F)) (kt_main_c_37 (F := F) o x0 x1)

-- %141 = stablehlo.convert %140 : tensor<16x64xi32>
def kt_main_v141 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i32⟩ : BufTy).Contents (Elt F) :=
  (id : (⟨S16x64, .i32⟩ : BufTy).Contents (Elt F) → (⟨S16x64, .i32⟩ : BufTy).Contents (Elt F)) (kt_main_v140 (F := F) o x0 x1)

-- %142 = stablehlo.broadcast_in_dim %129, dims = [0, 1] : (tensor<16x64xi32>) -> tensor<16x64x1xi32>
def kt_main_v142 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64x1, .i32⟩ : BufTy).Contents (Elt F) :=
  (broadcastInDim S16x64x1 ![0, 1] bcast_S16x64_S16x64x1_0_1 : (⟨S16x64, .i32⟩ : BufTy).Contents (Elt F) → (⟨S16x64x1, .i32⟩ : BufTy).Contents (Elt F)) (kt_main_v129 (F := F) o x0 x1)

-- %143 = stablehlo.broadcast_in_dim %141, dims = [0, 1] : (tensor<16x64xi32>) -> tensor<16x64x1xi32>
def kt_main_v143 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64x1, .i32⟩ : BufTy).Contents (Elt F) :=
  (broadcastInDim S16x64x1 ![0, 1] bcast_S16x64_S16x64x1_0_1 : (⟨S16x64, .i32⟩ : BufTy).Contents (Elt F) → (⟨S16x64x1, .i32⟩ : BufTy).Contents (Elt F)) (kt_main_v141 (F := F) o x0 x1)

-- %144 = stablehlo.broadcast_in_dim %134, dims = [0, 1] : (tensor<16x64xi32>) -> tensor<16x64x1xi32>
def kt_main_v144 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64x1, .i32⟩ : BufTy).Contents (Elt F) :=
  (broadcastInDim S16x64x1 ![0, 1] bcast_S16x64_S16x64x1_0_1 : (⟨S16x64, .i32⟩ : BufTy).Contents (Elt F) → (⟨S16x64x1, .i32⟩ : BufTy).Contents (Elt F)) (kt_main_v134 (F := F) o x0 x1)

-- %145 = stablehlo.broadcast_in_dim %139, dims = [0, 1] : (tensor<16x64xi32>) -> tensor<16x64x1xi32>
def kt_main_v145 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64x1, .i32⟩ : BufTy).Contents (Elt F) :=
  (broadcastInDim S16x64x1 ![0, 1] bcast_S16x64_S16x64x1_0_1 : (⟨S16x64, .i32⟩ : BufTy).Contents (Elt F) → (⟨S16x64x1, .i32⟩ : BufTy).Contents (Elt F)) (kt_main_v139 (F := F) o x0 x1)

-- %146 = stablehlo.concatenate %142, %143, %144, %145, dim = 2 : (tensor<16x64x1xi32>, tensor<16x64x1xi32>, tensor<16x64x1xi32>, tensor<16x64x1xi32>) -> tensor<16x64x4xi32>
def kt_main_v146 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64x4, .i32⟩ : BufTy).Contents (Elt F) :=
  concatenate S16x64x4 2 [⟨S16x64x1, (kt_main_v142 (F := F) o x0 x1)⟩, ⟨S16x64x1, (kt_main_v143 (F := F) o x0 x1)⟩, ⟨S16x64x1, (kt_main_v144 (F := F) o x0 x1)⟩, ⟨S16x64x1, (kt_main_v145 (F := F) o x0 x1)⟩] concatenates_S16x64x1_S16x64x1_S16x64x1_S16x64x1_S16x64x4_d2

-- %147 = "stablehlo.gather"(%arg0, %146) <{dimension_numbers = #stablehlo.gather<collapsed_slice_dims = [0, 1, 2, 3], start_index_map = [0, 1, 2, 3], index_vector_dim = 2>, indices_are_sorted = false, slice_sizes = array<i64: 1, 1, 1, 1>}> : (tensor<16x85x128x128xf32>, tensor<16x64x4xi32>) -> tensor<16x64xf32>
def kt_main_v147 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .f32⟩ : BufTy).Contents (Elt F) :=
  ((fun x i => Host.gather gather_S16x85x128x128_S16x64x4_S16x64_n_0123_n_n_0123_2_1111 x i) : (⟨S16x85x128x128, .f32⟩ : BufTy).Contents (Elt F) → (⟨S16x64x4, .i32⟩ : BufTy).Contents (Elt F) → (⟨S16x64, .f32⟩ : BufTy).Contents (Elt F)) x0 (kt_main_v146 (F := F) o x0 x1)

-- %c_38 = stablehlo.constant dense<0> : tensor<i32>
def kt_main_c_38 (o : (⟨S1x2, .f32⟩ : BufTy).Contents (Elt F)) (x0 : (⟨S16x85x128x128, .f32⟩ : BufTy).Contents (Elt F)) (x1 : (⟨S16x64x5, .f32⟩ : BufTy).Contents (Elt F)) : (⟨S_, .i32⟩ : BufTy).Contents (Elt F) :=
  constantI S_ 32 0#32

-- %148 = stablehlo.broadcast_in_dim %c_38, dims = [] : (tensor<i32>) -> tensor<16x64xi32>
def kt_main_v148 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i32⟩ : BufTy).Contents (Elt F) :=
  (broadcastInDim S16x64 ![] bcast_S_S16x64 : (⟨S_, .i32⟩ : BufTy).Contents (Elt F) → (⟨S16x64, .i32⟩ : BufTy).Contents (Elt F)) (kt_main_c_38 (F := F) o x0 x1)

-- %149 = stablehlo.compare LT, %27, %148, SIGNED : (tensor<16x64xi32>, tensor<16x64xi32>) -> tensor<16x64xi1>
def kt_main_v149 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i1⟩ : BufTy).Contents (Elt F) :=
  (cmpi .slt : (⟨S16x64, .i32⟩ : BufTy).Contents (Elt F) → (⟨S16x64, .i32⟩ : BufTy).Contents (Elt F) → (⟨S16x64, .i1⟩ : BufTy).Contents (Elt F)) (kt_main_v27 (F := F) o x0 x1) (kt_main_v148 (F := F) o x0 x1)

-- %c_39 = stablehlo.constant dense<16> : tensor<i32>
def kt_main_c_39 (o : (⟨S1x2, .f32⟩ : BufTy).Contents (Elt F)) (x0 : (⟨S16x85x128x128, .f32⟩ : BufTy).Contents (Elt F)) (x1 : (⟨S16x64x5, .f32⟩ : BufTy).Contents (Elt F)) : (⟨S_, .i32⟩ : BufTy).Contents (Elt F) :=
  constantI S_ 32 16#32

-- %150 = stablehlo.broadcast_in_dim %c_39, dims = [] : (tensor<i32>) -> tensor<16x64xi32>
def kt_main_v150 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i32⟩ : BufTy).Contents (Elt F) :=
  (broadcastInDim S16x64 ![] bcast_S_S16x64 : (⟨S_, .i32⟩ : BufTy).Contents (Elt F) → (⟨S16x64, .i32⟩ : BufTy).Contents (Elt F)) (kt_main_c_39 (F := F) o x0 x1)

-- %151 = stablehlo.add %27, %150 : tensor<16x64xi32>
def kt_main_v151 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i32⟩ : BufTy).Contents (Elt F) :=
  (addi : (⟨S16x64, .i32⟩ : BufTy).Contents (Elt F) → (⟨S16x64, .i32⟩ : BufTy).Contents (Elt F) → (⟨S16x64, .i32⟩ : BufTy).Contents (Elt F)) (kt_main_v27 (F := F) o x0 x1) (kt_main_v150 (F := F) o x0 x1)

-- %152 = stablehlo.select %149, %151, %27 : tensor<16x64xi1>, tensor<16x64xi32>
def kt_main_v152 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i32⟩ : BufTy).Contents (Elt F) :=
  (select : (⟨S16x64, .i1⟩ : BufTy).Contents (Elt F) → (⟨S16x64, .i32⟩ : BufTy).Contents (Elt F) → (⟨S16x64, .i32⟩ : BufTy).Contents (Elt F) → (⟨S16x64, .i32⟩ : BufTy).Contents (Elt F)) (kt_main_v149 (F := F) o x0 x1) (kt_main_v151 (F := F) o x0 x1) (kt_main_v27 (F := F) o x0 x1)

-- %c_40 = stablehlo.constant dense<0> : tensor<i32>
def kt_main_c_40 (o : (⟨S1x2, .f32⟩ : BufTy).Contents (Elt F)) (x0 : (⟨S16x85x128x128, .f32⟩ : BufTy).Contents (Elt F)) (x1 : (⟨S16x64x5, .f32⟩ : BufTy).Contents (Elt F)) : (⟨S_, .i32⟩ : BufTy).Contents (Elt F) :=
  constantI S_ 32 0#32

-- %153 = stablehlo.broadcast_in_dim %c_40, dims = [] : (tensor<i32>) -> tensor<16x64xi32>
def kt_main_v153 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i32⟩ : BufTy).Contents (Elt F) :=
  (broadcastInDim S16x64 ![] bcast_S_S16x64 : (⟨S_, .i32⟩ : BufTy).Contents (Elt F) → (⟨S16x64, .i32⟩ : BufTy).Contents (Elt F)) (kt_main_c_40 (F := F) o x0 x1)

-- %154 = stablehlo.compare LT, %21, %153, SIGNED : (tensor<16x64xi32>, tensor<16x64xi32>) -> tensor<16x64xi1>
def kt_main_v154 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i1⟩ : BufTy).Contents (Elt F) :=
  (cmpi .slt : (⟨S16x64, .i32⟩ : BufTy).Contents (Elt F) → (⟨S16x64, .i32⟩ : BufTy).Contents (Elt F) → (⟨S16x64, .i1⟩ : BufTy).Contents (Elt F)) (kt_main_v21 (F := F) o x0 x1) (kt_main_v153 (F := F) o x0 x1)

-- %c_41 = stablehlo.constant dense<128> : tensor<i32>
def kt_main_c_41 (o : (⟨S1x2, .f32⟩ : BufTy).Contents (Elt F)) (x0 : (⟨S16x85x128x128, .f32⟩ : BufTy).Contents (Elt F)) (x1 : (⟨S16x64x5, .f32⟩ : BufTy).Contents (Elt F)) : (⟨S_, .i32⟩ : BufTy).Contents (Elt F) :=
  constantI S_ 32 128#32

-- %155 = stablehlo.broadcast_in_dim %c_41, dims = [] : (tensor<i32>) -> tensor<16x64xi32>
def kt_main_v155 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i32⟩ : BufTy).Contents (Elt F) :=
  (broadcastInDim S16x64 ![] bcast_S_S16x64 : (⟨S_, .i32⟩ : BufTy).Contents (Elt F) → (⟨S16x64, .i32⟩ : BufTy).Contents (Elt F)) (kt_main_c_41 (F := F) o x0 x1)

-- %156 = stablehlo.add %21, %155 : tensor<16x64xi32>
def kt_main_v156 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i32⟩ : BufTy).Contents (Elt F) :=
  (addi : (⟨S16x64, .i32⟩ : BufTy).Contents (Elt F) → (⟨S16x64, .i32⟩ : BufTy).Contents (Elt F) → (⟨S16x64, .i32⟩ : BufTy).Contents (Elt F)) (kt_main_v21 (F := F) o x0 x1) (kt_main_v155 (F := F) o x0 x1)

-- %157 = stablehlo.select %154, %156, %21 : tensor<16x64xi1>, tensor<16x64xi32>
def kt_main_v157 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i32⟩ : BufTy).Contents (Elt F) :=
  (select : (⟨S16x64, .i1⟩ : BufTy).Contents (Elt F) → (⟨S16x64, .i32⟩ : BufTy).Contents (Elt F) → (⟨S16x64, .i32⟩ : BufTy).Contents (Elt F) → (⟨S16x64, .i32⟩ : BufTy).Contents (Elt F)) (kt_main_v154 (F := F) o x0 x1) (kt_main_v156 (F := F) o x0 x1) (kt_main_v21 (F := F) o x0 x1)

-- %c_42 = stablehlo.constant dense<0> : tensor<i32>
def kt_main_c_42 (o : (⟨S1x2, .f32⟩ : BufTy).Contents (Elt F)) (x0 : (⟨S16x85x128x128, .f32⟩ : BufTy).Contents (Elt F)) (x1 : (⟨S16x64x5, .f32⟩ : BufTy).Contents (Elt F)) : (⟨S_, .i32⟩ : BufTy).Contents (Elt F) :=
  constantI S_ 32 0#32

-- %158 = stablehlo.broadcast_in_dim %c_42, dims = [] : (tensor<i32>) -> tensor<16x64xi32>
def kt_main_v158 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i32⟩ : BufTy).Contents (Elt F) :=
  (broadcastInDim S16x64 ![] bcast_S_S16x64 : (⟨S_, .i32⟩ : BufTy).Contents (Elt F) → (⟨S16x64, .i32⟩ : BufTy).Contents (Elt F)) (kt_main_c_42 (F := F) o x0 x1)

-- %159 = stablehlo.compare LT, %18, %158, SIGNED : (tensor<16x64xi32>, tensor<16x64xi32>) -> tensor<16x64xi1>
def kt_main_v159 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i1⟩ : BufTy).Contents (Elt F) :=
  (cmpi .slt : (⟨S16x64, .i32⟩ : BufTy).Contents (Elt F) → (⟨S16x64, .i32⟩ : BufTy).Contents (Elt F) → (⟨S16x64, .i1⟩ : BufTy).Contents (Elt F)) (kt_main_v18 (F := F) o x0 x1) (kt_main_v158 (F := F) o x0 x1)

-- %c_43 = stablehlo.constant dense<128> : tensor<i32>
def kt_main_c_43 (o : (⟨S1x2, .f32⟩ : BufTy).Contents (Elt F)) (x0 : (⟨S16x85x128x128, .f32⟩ : BufTy).Contents (Elt F)) (x1 : (⟨S16x64x5, .f32⟩ : BufTy).Contents (Elt F)) : (⟨S_, .i32⟩ : BufTy).Contents (Elt F) :=
  constantI S_ 32 128#32

-- %160 = stablehlo.broadcast_in_dim %c_43, dims = [] : (tensor<i32>) -> tensor<16x64xi32>
def kt_main_v160 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i32⟩ : BufTy).Contents (Elt F) :=
  (broadcastInDim S16x64 ![] bcast_S_S16x64 : (⟨S_, .i32⟩ : BufTy).Contents (Elt F) → (⟨S16x64, .i32⟩ : BufTy).Contents (Elt F)) (kt_main_c_43 (F := F) o x0 x1)

-- %161 = stablehlo.add %18, %160 : tensor<16x64xi32>
def kt_main_v161 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i32⟩ : BufTy).Contents (Elt F) :=
  (addi : (⟨S16x64, .i32⟩ : BufTy).Contents (Elt F) → (⟨S16x64, .i32⟩ : BufTy).Contents (Elt F) → (⟨S16x64, .i32⟩ : BufTy).Contents (Elt F)) (kt_main_v18 (F := F) o x0 x1) (kt_main_v160 (F := F) o x0 x1)

-- %162 = stablehlo.select %159, %161, %18 : tensor<16x64xi1>, tensor<16x64xi32>
def kt_main_v162 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i32⟩ : BufTy).Contents (Elt F) :=
  (select : (⟨S16x64, .i1⟩ : BufTy).Contents (Elt F) → (⟨S16x64, .i32⟩ : BufTy).Contents (Elt F) → (⟨S16x64, .i32⟩ : BufTy).Contents (Elt F) → (⟨S16x64, .i32⟩ : BufTy).Contents (Elt F)) (kt_main_v159 (F := F) o x0 x1) (kt_main_v161 (F := F) o x0 x1) (kt_main_v18 (F := F) o x0 x1)

-- %c_44 = stablehlo.constant dense<3> : tensor<i32>
def kt_main_c_44 (o : (⟨S1x2, .f32⟩ : BufTy).Contents (Elt F)) (x0 : (⟨S16x85x128x128, .f32⟩ : BufTy).Contents (Elt F)) (x1 : (⟨S16x64x5, .f32⟩ : BufTy).Contents (Elt F)) : (⟨S_, .i32⟩ : BufTy).Contents (Elt F) :=
  constantI S_ 32 3#32

-- %163 = stablehlo.broadcast_in_dim %c_44, dims = [] : (tensor<i32>) -> tensor<16x64xi32>
def kt_main_v163 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i32⟩ : BufTy).Contents (Elt F) :=
  (broadcastInDim S16x64 ![] bcast_S_S16x64 : (⟨S_, .i32⟩ : BufTy).Contents (Elt F) → (⟨S16x64, .i32⟩ : BufTy).Contents (Elt F)) (kt_main_c_44 (F := F) o x0 x1)

-- %164 = stablehlo.convert %163 : tensor<16x64xi32>
def kt_main_v164 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i32⟩ : BufTy).Contents (Elt F) :=
  (id : (⟨S16x64, .i32⟩ : BufTy).Contents (Elt F) → (⟨S16x64, .i32⟩ : BufTy).Contents (Elt F)) (kt_main_v163 (F := F) o x0 x1)

-- %165 = stablehlo.broadcast_in_dim %152, dims = [0, 1] : (tensor<16x64xi32>) -> tensor<16x64x1xi32>
def kt_main_v165 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64x1, .i32⟩ : BufTy).Contents (Elt F) :=
  (broadcastInDim S16x64x1 ![0, 1] bcast_S16x64_S16x64x1_0_1 : (⟨S16x64, .i32⟩ : BufTy).Contents (Elt F) → (⟨S16x64x1, .i32⟩ : BufTy).Contents (Elt F)) (kt_main_v152 (F := F) o x0 x1)

-- %166 = stablehlo.broadcast_in_dim %164, dims = [0, 1] : (tensor<16x64xi32>) -> tensor<16x64x1xi32>
def kt_main_v166 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64x1, .i32⟩ : BufTy).Contents (Elt F) :=
  (broadcastInDim S16x64x1 ![0, 1] bcast_S16x64_S16x64x1_0_1 : (⟨S16x64, .i32⟩ : BufTy).Contents (Elt F) → (⟨S16x64x1, .i32⟩ : BufTy).Contents (Elt F)) (kt_main_v164 (F := F) o x0 x1)

-- %167 = stablehlo.broadcast_in_dim %157, dims = [0, 1] : (tensor<16x64xi32>) -> tensor<16x64x1xi32>
def kt_main_v167 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64x1, .i32⟩ : BufTy).Contents (Elt F) :=
  (broadcastInDim S16x64x1 ![0, 1] bcast_S16x64_S16x64x1_0_1 : (⟨S16x64, .i32⟩ : BufTy).Contents (Elt F) → (⟨S16x64x1, .i32⟩ : BufTy).Contents (Elt F)) (kt_main_v157 (F := F) o x0 x1)

-- %168 = stablehlo.broadcast_in_dim %162, dims = [0, 1] : (tensor<16x64xi32>) -> tensor<16x64x1xi32>
def kt_main_v168 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64x1, .i32⟩ : BufTy).Contents (Elt F) :=
  (broadcastInDim S16x64x1 ![0, 1] bcast_S16x64_S16x64x1_0_1 : (⟨S16x64, .i32⟩ : BufTy).Contents (Elt F) → (⟨S16x64x1, .i32⟩ : BufTy).Contents (Elt F)) (kt_main_v162 (F := F) o x0 x1)

-- %169 = stablehlo.concatenate %165, %166, %167, %168, dim = 2 : (tensor<16x64x1xi32>, tensor<16x64x1xi32>, tensor<16x64x1xi32>, tensor<16x64x1xi32>) -> tensor<16x64x4xi32>
def kt_main_v169 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64x4, .i32⟩ : BufTy).Contents (Elt F) :=
  concatenate S16x64x4 2 [⟨S16x64x1, (kt_main_v165 (F := F) o x0 x1)⟩, ⟨S16x64x1, (kt_main_v166 (F := F) o x0 x1)⟩, ⟨S16x64x1, (kt_main_v167 (F := F) o x0 x1)⟩, ⟨S16x64x1, (kt_main_v168 (F := F) o x0 x1)⟩] concatenates_S16x64x1_S16x64x1_S16x64x1_S16x64x1_S16x64x4_d2

-- %170 = "stablehlo.gather"(%arg0, %169) <{dimension_numbers = #stablehlo.gather<collapsed_slice_dims = [0, 1, 2, 3], start_index_map = [0, 1, 2, 3], index_vector_dim = 2>, indices_are_sorted = false, slice_sizes = array<i64: 1, 1, 1, 1>}> : (tensor<16x85x128x128xf32>, tensor<16x64x4xi32>) -> tensor<16x64xf32>
def kt_main_v170 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .f32⟩ : BufTy).Contents (Elt F) :=
  ((fun x i => Host.gather gather_S16x85x128x128_S16x64x4_S16x64_n_0123_n_n_0123_2_1111 x i) : (⟨S16x85x128x128, .f32⟩ : BufTy).Contents (Elt F) → (⟨S16x64x4, .i32⟩ : BufTy).Contents (Elt F) → (⟨S16x64, .f32⟩ : BufTy).Contents (Elt F)) x0 (kt_main_v169 (F := F) o x0 x1)

-- %171 = stablehlo.iota dim = 0 : tensor<64xi32>
def kt_main_v171 (o : (⟨S1x2, .f32⟩ : BufTy).Contents (Elt F)) (x0 : (⟨S16x85x128x128, .f32⟩ : BufTy).Contents (Elt F)) (x1 : (⟨S16x64x5, .f32⟩ : BufTy).Contents (Elt F)) : (⟨S64, .i32⟩ : BufTy).Contents (Elt F) :=
  iotaInDim S64 32 0

-- %172 = stablehlo.broadcast_in_dim %171, dims = [0] : (tensor<64xi32>) -> tensor<64x1xi32>
def kt_main_v172 (o : (⟨S1x2, .f32⟩ : BufTy).Contents (Elt F)) (x0 : (⟨S16x85x128x128, .f32⟩ : BufTy).Contents (Elt F)) (x1 : (⟨S16x64x5, .f32⟩ : BufTy).Contents (Elt F)) : (⟨S64x1, .i32⟩ : BufTy).Contents (Elt F) :=
  (broadcastInDim S64x1 ![0] bcast_S64_S64x1_0 : (⟨S64, .i32⟩ : BufTy).Contents (Elt F) → (⟨S64x1, .i32⟩ : BufTy).Contents (Elt F)) (kt_main_v171 (F := F) o x0 x1)

-- %173 = stablehlo.iota dim = 0 : tensor<64xi32>
def kt_main_v173 (o : (⟨S1x2, .f32⟩ : BufTy).Contents (Elt F)) (x0 : (⟨S16x85x128x128, .f32⟩ : BufTy).Contents (Elt F)) (x1 : (⟨S16x64x5, .f32⟩ : BufTy).Contents (Elt F)) : (⟨S64, .i32⟩ : BufTy).Contents (Elt F) :=
  iotaInDim S64 32 0

-- %174 = stablehlo.broadcast_in_dim %173, dims = [1] : (tensor<64xi32>) -> tensor<1x64xi32>
def kt_main_v174 (o : (⟨S1x2, .f32⟩ : BufTy).Contents (Elt F)) (x0 : (⟨S16x85x128x128, .f32⟩ : BufTy).Contents (Elt F)) (x1 : (⟨S16x64x5, .f32⟩ : BufTy).Contents (Elt F)) : (⟨S1x64, .i32⟩ : BufTy).Contents (Elt F) :=
  (broadcastInDim S1x64 ![1] bcast_S64_S1x64_1 : (⟨S64, .i32⟩ : BufTy).Contents (Elt F) → (⟨S1x64, .i32⟩ : BufTy).Contents (Elt F)) (kt_main_v173 (F := F) o x0 x1)

-- %175 = stablehlo.broadcast_in_dim %174, dims = [0, 1] : (tensor<1x64xi32>) -> tensor<64x64xi32>
def kt_main_v175 (o : (⟨S1x2, .f32⟩ : BufTy).Contents (Elt F)) (x0 : (⟨S16x85x128x128, .f32⟩ : BufTy).Contents (Elt F)) (x1 : (⟨S16x64x5, .f32⟩ : BufTy).Contents (Elt F)) : (⟨S64x64, .i32⟩ : BufTy).Contents (Elt F) :=
  (broadcastInDim S64x64 ![0, 1] bcast_S1x64_S64x64_0_1 : (⟨S1x64, .i32⟩ : BufTy).Contents (Elt F) → (⟨S64x64, .i32⟩ : BufTy).Contents (Elt F)) (kt_main_v174 (F := F) o x0 x1)

-- %176 = stablehlo.broadcast_in_dim %172, dims = [0, 1] : (tensor<64x1xi32>) -> tensor<64x64xi32>
def kt_main_v176 (o : (⟨S1x2, .f32⟩ : BufTy).Contents (Elt F)) (x0 : (⟨S16x85x128x128, .f32⟩ : BufTy).Contents (Elt F)) (x1 : (⟨S16x64x5, .f32⟩ : BufTy).Contents (Elt F)) : (⟨S64x64, .i32⟩ : BufTy).Contents (Elt F) :=
  (broadcastInDim S64x64 ![0, 1] bcast_S64x1_S64x64_0_1 : (⟨S64x1, .i32⟩ : BufTy).Contents (Elt F) → (⟨S64x64, .i32⟩ : BufTy).Contents (Elt F)) (kt_main_v172 (F := F) o x0 x1)

-- %177 = stablehlo.compare LE, %175, %176, SIGNED : (tensor<64x64xi32>, tensor<64x64xi32>) -> tensor<64x64xi1>
def kt_main_v177 (o : (⟨S1x2, .f32⟩ : BufTy).Contents (Elt F)) (x0 : (⟨S16x85x128x128, .f32⟩ : BufTy).Contents (Elt F)) (x1 : (⟨S16x64x5, .f32⟩ : BufTy).Contents (Elt F)) : (⟨S64x64, .i1⟩ : BufTy).Contents (Elt F) :=
  (cmpi .sle : (⟨S64x64, .i32⟩ : BufTy).Contents (Elt F) → (⟨S64x64, .i32⟩ : BufTy).Contents (Elt F) → (⟨S64x64, .i1⟩ : BufTy).Contents (Elt F)) (kt_main_v175 (F := F) o x0 x1) (kt_main_v176 (F := F) o x0 x1)

-- %178 = stablehlo.broadcast_in_dim %24, dims = [0, 1] : (tensor<16x64xi32>) -> tensor<16x64x1xi32>
def kt_main_v178 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64x1, .i32⟩ : BufTy).Contents (Elt F) :=
  (broadcastInDim S16x64x1 ![0, 1] bcast_S16x64_S16x64x1_0_1 : (⟨S16x64, .i32⟩ : BufTy).Contents (Elt F) → (⟨S16x64x1, .i32⟩ : BufTy).Contents (Elt F)) (kt_main_v24 (F := F) o x0 x1)

-- %179 = stablehlo.broadcast_in_dim %24, dims = [0, 2] : (tensor<16x64xi32>) -> tensor<16x1x64xi32>
def kt_main_v179 (o : (⟨S1x2, .f32⟩ : BufTy).Contents (Elt F)) (x0 : (⟨S16x85x128x128, .f32⟩ : BufTy).Contents (Elt F)) (x1 : (⟨S16x64x5, .f32⟩ : BufTy).Contents (Elt F)) : (⟨S16x1x64, .i32⟩ : BufTy).Contents (Elt F) :=
  (broadcastInDim S16x1x64 ![0, 2] bcast_S16x64_S16x1x64_0_2 : (⟨S16x64, .i32⟩ : BufTy).Contents (Elt F) → (⟨S16x1x64, .i32⟩ : BufTy).Contents (Elt F)) (kt_main_v24 (F := F) o x0 x1)

-- %180 = stablehlo.broadcast_in_dim %178, dims = [0, 1, 2] : (tensor<16x64x1xi32>) -> tensor<16x64x64xi32>
def kt_main_v180 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64x64, .i32⟩ : BufTy).Contents (Elt F) :=
  (broadcastInDim S16x64x64 ![0, 1, 2] bcast_S16x64x1_S16x64x64_0_1_2 : (⟨S16x64x1, .i32⟩ : BufTy).Contents (Elt F) → (⟨S16x64x64, .i32⟩ : BufTy).Contents (Elt F)) (kt_main_v178 (F := F) o x0 x1)

-- %181 = stablehlo.broadcast_in_dim %179, dims = [0, 1, 2] : (tensor<16x1x64xi32>) -> tensor<16x64x64xi32>
def kt_main_v181 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64x64, .i32⟩ : BufTy).Contents (Elt F) :=
  (broadcastInDim S16x64x64 ![0, 1, 2] bcast_S16x1x64_S16x64x64_0_1_2 : (⟨S16x1x64, .i32⟩ : BufTy).Contents (Elt F) → (⟨S16x64x64, .i32⟩ : BufTy).Contents (Elt F)) (kt_main_v179 (F := F) o x0 x1)

-- %182 = stablehlo.compare EQ, %180, %181, SIGNED : (tensor<16x64x64xi32>, tensor<16x64x64xi32>) -> tensor<16x64x64xi1>
def kt_main_v182 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64x64, .i1⟩ : BufTy).Contents (Elt F) :=
  (cmpi .eq : (⟨S16x64x64, .i32⟩ : BufTy).Contents (Elt F) → (⟨S16x64x64, .i32⟩ : BufTy).Contents (Elt F) → (⟨S16x64x64, .i1⟩ : BufTy).Contents (Elt F)) (kt_main_v180 (F := F) o x0 x1) (kt_main_v181 (F := F) o x0 x1)

-- %183 = stablehlo.broadcast_in_dim %177, dims = [1, 2] : (tensor<64x64xi1>) -> tensor<1x64x64xi1>
def kt_main_v183 (o : (⟨S1x2, .f32⟩ : BufTy).Contents (Elt F)) (x0 : (⟨S16x85x128x128, .f32⟩ : BufTy).Contents (Elt F)) (x1 : (⟨S16x64x5, .f32⟩ : BufTy).Contents (Elt F)) : (⟨S1x64x64, .i1⟩ : BufTy).Contents (Elt F) :=
  (broadcastInDim S1x64x64 ![1, 2] bcast_S64x64_S1x64x64_1_2 : (⟨S64x64, .i1⟩ : BufTy).Contents (Elt F) → (⟨S1x64x64, .i1⟩ : BufTy).Contents (Elt F)) (kt_main_v177 (F := F) o x0 x1)

-- %184 = stablehlo.broadcast_in_dim %183, dims = [0, 1, 2] : (tensor<1x64x64xi1>) -> tensor<16x64x64xi1>
def kt_main_v184 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64x64, .i1⟩ : BufTy).Contents (Elt F) :=
  (broadcastInDim S16x64x64 ![0, 1, 2] bcast_S1x64x64_S16x64x64_0_1_2 : (⟨S1x64x64, .i1⟩ : BufTy).Contents (Elt F) → (⟨S16x64x64, .i1⟩ : BufTy).Contents (Elt F)) (kt_main_v183 (F := F) o x0 x1)

-- %185 = stablehlo.and %182, %184 : tensor<16x64x64xi1>
def kt_main_v185 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64x64, .i1⟩ : BufTy).Contents (Elt F) :=
  (andi : (⟨S16x64x64, .i1⟩ : BufTy).Contents (Elt F) → (⟨S16x64x64, .i1⟩ : BufTy).Contents (Elt F) → (⟨S16x64x64, .i1⟩ : BufTy).Contents (Elt F)) (kt_main_v182 (F := F) o x0 x1) (kt_main_v184 (F := F) o x0 x1)

-- %c_45 = stablehlo.constant dense<1> : tensor<i32>
def kt_main_c_45 (o : (⟨S1x2, .f32⟩ : BufTy).Contents (Elt F)) (x0 : (⟨S16x85x128x128, .f32⟩ : BufTy).Contents (Elt F)) (x1 : (⟨S16x64x5, .f32⟩ : BufTy).Contents (Elt F)) : (⟨S_, .i32⟩ : BufTy).Contents (Elt F) :=
  constantI S_ 32 1#32

-- %c_46 = stablehlo.constant dense<0> : tensor<i32>
def kt_main_c_46 (o : (⟨S1x2, .f32⟩ : BufTy).Contents (Elt F)) (x0 : (⟨S16x85x128x128, .f32⟩ : BufTy).Contents (Elt F)) (x1 : (⟨S16x64x5, .f32⟩ : BufTy).Contents (Elt F)) : (⟨S_, .i32⟩ : BufTy).Contents (Elt F) :=
  constantI S_ 32 0#32

-- @_where's %0 = stablehlo.broadcast_in_dim %arg1, dims = [] : (tensor<i32>) -> tensor<16x64x64xi32>, in %186 = func.call @_where(…) (record main_call0)
def kt_main_call0_v0 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64x64, .i32⟩ : BufTy).Contents (Elt F) :=
  ((broadcastInDim S16x64x64 ![] bcast_S_S16x64x64)) (kt_main_c_45 (F := F) o x0 x1)

-- @_where's %1 = stablehlo.broadcast_in_dim %arg2, dims = [] : (tensor<i32>) -> tensor<16x64x64xi32>, in %186 = func.call @_where(…) (record main_call0)
def kt_main_call0_v1 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64x64, .i32⟩ : BufTy).Contents (Elt F) :=
  ((broadcastInDim S16x64x64 ![] bcast_S_S16x64x64)) (kt_main_c_46 (F := F) o x0 x1)

-- %186 = func.call @_where(…) (record main_call0) result 0: @_where's %2 = stablehlo.select %arg0, %0, %1 : tensor<16x64x64xi1>, tensor<16x64x64xi32>
def kt_main_v186 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64x64, .i32⟩ : BufTy).Contents (Elt F) :=
  (select) (kt_main_v185 (F := F) o x0 x1) (kt_main_call0_v0 (F := F) o x0 x1) (kt_main_call0_v1 (F := F) o x0 x1)

-- %187 = stablehlo.convert %186 : tensor<16x64x64xi32>
def kt_main_v187 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64x64, .i32⟩ : BufTy).Contents (Elt F) :=
  (id : (⟨S16x64x64, .i32⟩ : BufTy).Contents (Elt F) → (⟨S16x64x64, .i32⟩ : BufTy).Contents (Elt F)) (kt_main_v186 (F := F) o x0 x1)

-- %c_47 = stablehlo.constant dense<0> : tensor<i32>
def kt_main_c_47 (o : (⟨S1x2, .f32⟩ : BufTy).Contents (Elt F)) (x0 : (⟨S16x85x128x128, .f32⟩ : BufTy).Contents (Elt F)) (x1 : (⟨S16x64x5, .f32⟩ : BufTy).Contents (Elt F)) : (⟨S_, .i32⟩ : BufTy).Contents (Elt F) :=
  constantI S_ 32 0#32

-- %188 = stablehlo.reduce(%187 init: %c_47) applies stablehlo.add across dimensions = [2] : (tensor<16x64x64xi32>, tensor<i32>) -> tensor<16x64xi32> {
def kt_main_v188 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i32⟩ : BufTy).Contents (Elt F) :=
  ((fun x v => Host.reduce IntOp.addi x v reducesTo_S16x64x64_S16x64_d2 h_S_) : (⟨S16x64x64, .i32⟩ : BufTy).Contents (Elt F) → (⟨S_, .i32⟩ : BufTy).Contents (Elt F) → (⟨S16x64, .i32⟩ : BufTy).Contents (Elt F)) (kt_main_v187 (F := F) o x0 x1) (kt_main_c_47 (F := F) o x0 x1)

-- %c_48 = stablehlo.constant dense<1> : tensor<i32>
def kt_main_c_48 (o : (⟨S1x2, .f32⟩ : BufTy).Contents (Elt F)) (x0 : (⟨S16x85x128x128, .f32⟩ : BufTy).Contents (Elt F)) (x1 : (⟨S16x64x5, .f32⟩ : BufTy).Contents (Elt F)) : (⟨S_, .i32⟩ : BufTy).Contents (Elt F) :=
  constantI S_ 32 1#32

-- %189 = stablehlo.broadcast_in_dim %c_48, dims = [] : (tensor<i32>) -> tensor<16x64xi32>
def kt_main_v189 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i32⟩ : BufTy).Contents (Elt F) :=
  (broadcastInDim S16x64 ![] bcast_S_S16x64 : (⟨S_, .i32⟩ : BufTy).Contents (Elt F) → (⟨S16x64, .i32⟩ : BufTy).Contents (Elt F)) (kt_main_c_48 (F := F) o x0 x1)

-- %190 = stablehlo.compare EQ, %188, %189, SIGNED : (tensor<16x64xi32>, tensor<16x64xi32>) -> tensor<16x64xi1>
def kt_main_v190 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i1⟩ : BufTy).Contents (Elt F) :=
  (cmpi .eq : (⟨S16x64, .i32⟩ : BufTy).Contents (Elt F) → (⟨S16x64, .i32⟩ : BufTy).Contents (Elt F) → (⟨S16x64, .i1⟩ : BufTy).Contents (Elt F)) (kt_main_v188 (F := F) o x0 x1) (kt_main_v189 (F := F) o x0 x1)

-- %191 = stablehlo.convert %190 : (tensor<16x64xi1>) -> tensor<16x64xf32>
def kt_main_v191 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .f32⟩ : BufTy).Contents (Elt F) :=
  (uitofp .f32 : (⟨S16x64, .i1⟩ : BufTy).Contents (Elt F) → (⟨S16x64, .f32⟩ : BufTy).Contents (Elt F)) (kt_main_v190 (F := F) o x0 x1)

-- %192 = stablehlo.broadcast_in_dim %7, dims = [0, 1] : (tensor<16x64xi32>) -> tensor<16x64x1xi32>
def kt_main_v192 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64x1, .i32⟩ : BufTy).Contents (Elt F) :=
  (broadcastInDim S16x64x1 ![0, 1] bcast_S16x64_S16x64x1_0_1 : (⟨S16x64, .i32⟩ : BufTy).Contents (Elt F) → (⟨S16x64x1, .i32⟩ : BufTy).Contents (Elt F)) (kt_main_v7 (F := F) o x0 x1)

-- %193 = stablehlo.broadcast_in_dim %7, dims = [0, 2] : (tensor<16x64xi32>) -> tensor<16x1x64xi32>
def kt_main_v193 (o : (⟨S1x2, .f32⟩ : BufTy).Contents (Elt F)) (x0 : (⟨S16x85x128x128, .f32⟩ : BufTy).Contents (Elt F)) (x1 : (⟨S16x64x5, .f32⟩ : BufTy).Contents (Elt F)) : (⟨S16x1x64, .i32⟩ : BufTy).Contents (Elt F) :=
  (broadcastInDim S16x1x64 ![0, 2] bcast_S16x64_S16x1x64_0_2 : (⟨S16x64, .i32⟩ : BufTy).Contents (Elt F) → (⟨S16x1x64, .i32⟩ : BufTy).Contents (Elt F)) (kt_main_v7 (F := F) o x0 x1)

-- %194 = stablehlo.broadcast_in_dim %192, dims = [0, 1, 2] : (tensor<16x64x1xi32>) -> tensor<16x64x64xi32>
def kt_main_v194 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64x64, .i32⟩ : BufTy).Contents (Elt F) :=
  (broadcastInDim S16x64x64 ![0, 1, 2] bcast_S16x64x1_S16x64x64_0_1_2 : (⟨S16x64x1, .i32⟩ : BufTy).Contents (Elt F) → (⟨S16x64x64, .i32⟩ : BufTy).Contents (Elt F)) (kt_main_v192 (F := F) o x0 x1)

-- %195 = stablehlo.broadcast_in_dim %193, dims = [0, 1, 2] : (tensor<16x1x64xi32>) -> tensor<16x64x64xi32>
def kt_main_v195 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64x64, .i32⟩ : BufTy).Contents (Elt F) :=
  (broadcastInDim S16x64x64 ![0, 1, 2] bcast_S16x1x64_S16x64x64_0_1_2 : (⟨S16x1x64, .i32⟩ : BufTy).Contents (Elt F) → (⟨S16x64x64, .i32⟩ : BufTy).Contents (Elt F)) (kt_main_v193 (F := F) o x0 x1)

-- %196 = stablehlo.compare EQ, %194, %195, SIGNED : (tensor<16x64x64xi32>, tensor<16x64x64xi32>) -> tensor<16x64x64xi1>
def kt_main_v196 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64x64, .i1⟩ : BufTy).Contents (Elt F) :=
  (cmpi .eq : (⟨S16x64x64, .i32⟩ : BufTy).Contents (Elt F) → (⟨S16x64x64, .i32⟩ : BufTy).Contents (Elt F) → (⟨S16x64x64, .i1⟩ : BufTy).Contents (Elt F)) (kt_main_v194 (F := F) o x0 x1) (kt_main_v195 (F := F) o x0 x1)

-- %197 = stablehlo.and %182, %196 : tensor<16x64x64xi1>
def kt_main_v197 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64x64, .i1⟩ : BufTy).Contents (Elt F) :=
  (andi : (⟨S16x64x64, .i1⟩ : BufTy).Contents (Elt F) → (⟨S16x64x64, .i1⟩ : BufTy).Contents (Elt F) → (⟨S16x64x64, .i1⟩ : BufTy).Contents (Elt F)) (kt_main_v182 (F := F) o x0 x1) (kt_main_v196 (F := F) o x0 x1)

-- %198 = stablehlo.broadcast_in_dim %177, dims = [1, 2] : (tensor<64x64xi1>) -> tensor<1x64x64xi1>
def kt_main_v198 (o : (⟨S1x2, .f32⟩ : BufTy).Contents (Elt F)) (x0 : (⟨S16x85x128x128, .f32⟩ : BufTy).Contents (Elt F)) (x1 : (⟨S16x64x5, .f32⟩ : BufTy).Contents (Elt F)) : (⟨S1x64x64, .i1⟩ : BufTy).Contents (Elt F) :=
  (broadcastInDim S1x64x64 ![1, 2] bcast_S64x64_S1x64x64_1_2 : (⟨S64x64, .i1⟩ : BufTy).Contents (Elt F) → (⟨S1x64x64, .i1⟩ : BufTy).Contents (Elt F)) (kt_main_v177 (F := F) o x0 x1)

-- %199 = stablehlo.broadcast_in_dim %198, dims = [0, 1, 2] : (tensor<1x64x64xi1>) -> tensor<16x64x64xi1>
def kt_main_v199 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64x64, .i1⟩ : BufTy).Contents (Elt F) :=
  (broadcastInDim S16x64x64 ![0, 1, 2] bcast_S1x64x64_S16x64x64_0_1_2 : (⟨S1x64x64, .i1⟩ : BufTy).Contents (Elt F) → (⟨S16x64x64, .i1⟩ : BufTy).Contents (Elt F)) (kt_main_v198 (F := F) o x0 x1)

-- %200 = stablehlo.and %197, %199 : tensor<16x64x64xi1>
def kt_main_v200 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64x64, .i1⟩ : BufTy).Contents (Elt F) :=
  (andi : (⟨S16x64x64, .i1⟩ : BufTy).Contents (Elt F) → (⟨S16x64x64, .i1⟩ : BufTy).Contents (Elt F) → (⟨S16x64x64, .i1⟩ : BufTy).Contents (Elt F)) (kt_main_v197 (F := F) o x0 x1) (kt_main_v199 (F := F) o x0 x1)

-- %c_49 = stablehlo.constant dense<1> : tensor<i32>
def kt_main_c_49 (o : (⟨S1x2, .f32⟩ : BufTy).Contents (Elt F)) (x0 : (⟨S16x85x128x128, .f32⟩ : BufTy).Contents (Elt F)) (x1 : (⟨S16x64x5, .f32⟩ : BufTy).Contents (Elt F)) : (⟨S_, .i32⟩ : BufTy).Contents (Elt F) :=
  constantI S_ 32 1#32

-- %c_50 = stablehlo.constant dense<0> : tensor<i32>
def kt_main_c_50 (o : (⟨S1x2, .f32⟩ : BufTy).Contents (Elt F)) (x0 : (⟨S16x85x128x128, .f32⟩ : BufTy).Contents (Elt F)) (x1 : (⟨S16x64x5, .f32⟩ : BufTy).Contents (Elt F)) : (⟨S_, .i32⟩ : BufTy).Contents (Elt F) :=
  constantI S_ 32 0#32

-- @_where's %0 = stablehlo.broadcast_in_dim %arg1, dims = [] : (tensor<i32>) -> tensor<16x64x64xi32>, in %201 = func.call @_where(…) (record main_call1)
def kt_main_call1_v0 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64x64, .i32⟩ : BufTy).Contents (Elt F) :=
  ((broadcastInDim S16x64x64 ![] bcast_S_S16x64x64)) (kt_main_c_49 (F := F) o x0 x1)

-- @_where's %1 = stablehlo.broadcast_in_dim %arg2, dims = [] : (tensor<i32>) -> tensor<16x64x64xi32>, in %201 = func.call @_where(…) (record main_call1)
def kt_main_call1_v1 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64x64, .i32⟩ : BufTy).Contents (Elt F) :=
  ((broadcastInDim S16x64x64 ![] bcast_S_S16x64x64)) (kt_main_c_50 (F := F) o x0 x1)

-- %201 = func.call @_where(…) (record main_call1) result 0: @_where's %2 = stablehlo.select %arg0, %0, %1 : tensor<16x64x64xi1>, tensor<16x64x64xi32>
def kt_main_v201 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64x64, .i32⟩ : BufTy).Contents (Elt F) :=
  (select) (kt_main_v200 (F := F) o x0 x1) (kt_main_call1_v0 (F := F) o x0 x1) (kt_main_call1_v1 (F := F) o x0 x1)

-- %202 = stablehlo.convert %201 : tensor<16x64x64xi32>
def kt_main_v202 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64x64, .i32⟩ : BufTy).Contents (Elt F) :=
  (id : (⟨S16x64x64, .i32⟩ : BufTy).Contents (Elt F) → (⟨S16x64x64, .i32⟩ : BufTy).Contents (Elt F)) (kt_main_v201 (F := F) o x0 x1)

-- %c_51 = stablehlo.constant dense<0> : tensor<i32>
def kt_main_c_51 (o : (⟨S1x2, .f32⟩ : BufTy).Contents (Elt F)) (x0 : (⟨S16x85x128x128, .f32⟩ : BufTy).Contents (Elt F)) (x1 : (⟨S16x64x5, .f32⟩ : BufTy).Contents (Elt F)) : (⟨S_, .i32⟩ : BufTy).Contents (Elt F) :=
  constantI S_ 32 0#32

-- %203 = stablehlo.reduce(%202 init: %c_51) applies stablehlo.add across dimensions = [2] : (tensor<16x64x64xi32>, tensor<i32>) -> tensor<16x64xi32> {
def kt_main_v203 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i32⟩ : BufTy).Contents (Elt F) :=
  ((fun x v => Host.reduce IntOp.addi x v reducesTo_S16x64x64_S16x64_d2 h_S_) : (⟨S16x64x64, .i32⟩ : BufTy).Contents (Elt F) → (⟨S_, .i32⟩ : BufTy).Contents (Elt F) → (⟨S16x64, .i32⟩ : BufTy).Contents (Elt F)) (kt_main_v202 (F := F) o x0 x1) (kt_main_c_51 (F := F) o x0 x1)

-- %c_52 = stablehlo.constant dense<1> : tensor<i32>
def kt_main_c_52 (o : (⟨S1x2, .f32⟩ : BufTy).Contents (Elt F)) (x0 : (⟨S16x85x128x128, .f32⟩ : BufTy).Contents (Elt F)) (x1 : (⟨S16x64x5, .f32⟩ : BufTy).Contents (Elt F)) : (⟨S_, .i32⟩ : BufTy).Contents (Elt F) :=
  constantI S_ 32 1#32

-- %204 = stablehlo.broadcast_in_dim %c_52, dims = [] : (tensor<i32>) -> tensor<16x64xi32>
def kt_main_v204 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i32⟩ : BufTy).Contents (Elt F) :=
  (broadcastInDim S16x64 ![] bcast_S_S16x64 : (⟨S_, .i32⟩ : BufTy).Contents (Elt F) → (⟨S16x64, .i32⟩ : BufTy).Contents (Elt F)) (kt_main_c_52 (F := F) o x0 x1)

-- %205 = stablehlo.compare EQ, %203, %204, SIGNED : (tensor<16x64xi32>, tensor<16x64xi32>) -> tensor<16x64xi1>
def kt_main_v205 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .i1⟩ : BufTy).Contents (Elt F) :=
  (cmpi .eq : (⟨S16x64, .i32⟩ : BufTy).Contents (Elt F) → (⟨S16x64, .i32⟩ : BufTy).Contents (Elt F) → (⟨S16x64, .i1⟩ : BufTy).Contents (Elt F)) (kt_main_v203 (F := F) o x0 x1) (kt_main_v204 (F := F) o x0 x1)

-- %206 = stablehlo.convert %205 : (tensor<16x64xi1>) -> tensor<16x64xf32>
def kt_main_v206 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .f32⟩ : BufTy).Contents (Elt F) :=
  (uitofp .f32 : (⟨S16x64, .i1⟩ : BufTy).Contents (Elt F) → (⟨S16x64, .f32⟩ : BufTy).Contents (Elt F)) (kt_main_v205 (F := F) o x0 x1)

-- %207 = stablehlo.multiply %191, %50 : tensor<16x64xf32>
def kt_main_v207 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .f32⟩ : BufTy).Contents (Elt F) :=
  (mulf : (⟨S16x64, .f32⟩ : BufTy).Contents (Elt F) → (⟨S16x64, .f32⟩ : BufTy).Contents (Elt F) → (⟨S16x64, .f32⟩ : BufTy).Contents (Elt F)) (kt_main_v191 (F := F) o x0 x1) (kt_main_v50 (F := F) o x0 x1)

-- %cst_53 = stablehlo.constant dense<0.000000e+00> : tensor<f32>
def kt_main_cst_53 (o : (⟨S1x2, .f32⟩ : BufTy).Contents (Elt F)) (x0 : (⟨S16x85x128x128, .f32⟩ : BufTy).Contents (Elt F)) (x1 : (⟨S16x64x5, .f32⟩ : BufTy).Contents (Elt F)) : (⟨S_, .f32⟩ : BufTy).Contents (Elt F) :=
  constant S_ .f32 0x00000000#32

-- %208 = stablehlo.reduce(%207 init: %cst_53) applies stablehlo.add across dimensions = [0, 1] : (tensor<16x64xf32>, tensor<f32>) -> tensor<f32> {
def kt_main_v208 (o : (⟨S1x2, .f32⟩ : BufTy).Contents (Elt F)) (x0 : (⟨S16x85x128x128, .f32⟩ : BufTy).Contents (Elt F)) (x1 : (⟨S16x64x5, .f32⟩ : BufTy).Contents (Elt F)) : (⟨S_, .f32⟩ : BufTy).Contents (Elt F) :=
  ((fun x v => Host.reduceAdd x v reducesTo_S16x64_S_d0_1 h_S_) : (⟨S16x64, .f32⟩ : BufTy).Contents (Elt F) → (⟨S_, .f32⟩ : BufTy).Contents (Elt F) → (⟨S_, .f32⟩ : BufTy).Contents (Elt F)) (kt_main_v207 (F := F) o x0 x1) (kt_main_cst_53 (F := F) o x0 x1)

-- %209 = stablehlo.multiply %206, %78 : tensor<16x64xf32>
def kt_main_v209 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .f32⟩ : BufTy).Contents (Elt F) :=
  (mulf : (⟨S16x64, .f32⟩ : BufTy).Contents (Elt F) → (⟨S16x64, .f32⟩ : BufTy).Contents (Elt F) → (⟨S16x64, .f32⟩ : BufTy).Contents (Elt F)) (kt_main_v206 (F := F) o x0 x1) (kt_main_v78 (F := F) o x0 x1)

-- %cst_54 = stablehlo.constant dense<0.000000e+00> : tensor<f32>
def kt_main_cst_54 (o : (⟨S1x2, .f32⟩ : BufTy).Contents (Elt F)) (x0 : (⟨S16x85x128x128, .f32⟩ : BufTy).Contents (Elt F)) (x1 : (⟨S16x64x5, .f32⟩ : BufTy).Contents (Elt F)) : (⟨S_, .f32⟩ : BufTy).Contents (Elt F) :=
  constant S_ .f32 0x00000000#32

-- %210 = stablehlo.reduce(%209 init: %cst_54) applies stablehlo.add across dimensions = [0, 1] : (tensor<16x64xf32>, tensor<f32>) -> tensor<f32> {
def kt_main_v210 (o : (⟨S1x2, .f32⟩ : BufTy).Contents (Elt F)) (x0 : (⟨S16x85x128x128, .f32⟩ : BufTy).Contents (Elt F)) (x1 : (⟨S16x64x5, .f32⟩ : BufTy).Contents (Elt F)) : (⟨S_, .f32⟩ : BufTy).Contents (Elt F) :=
  ((fun x v => Host.reduceAdd x v reducesTo_S16x64_S_d0_1 h_S_) : (⟨S16x64, .f32⟩ : BufTy).Contents (Elt F) → (⟨S_, .f32⟩ : BufTy).Contents (Elt F) → (⟨S_, .f32⟩ : BufTy).Contents (Elt F)) (kt_main_v209 (F := F) o x0 x1) (kt_main_cst_54 (F := F) o x0 x1)

-- %211 = stablehlo.subtract %2, %208 : tensor<f32>
def kt_main_v211 (o : (⟨S1x2, .f32⟩ : BufTy).Contents (Elt F)) (x0 : (⟨S16x85x128x128, .f32⟩ : BufTy).Contents (Elt F)) (x1 : (⟨S16x64x5, .f32⟩ : BufTy).Contents (Elt F)) : (⟨S_, .f32⟩ : BufTy).Contents (Elt F) :=
  (subf : (⟨S_, .f32⟩ : BufTy).Contents (Elt F) → (⟨S_, .f32⟩ : BufTy).Contents (Elt F) → (⟨S_, .f32⟩ : BufTy).Contents (Elt F)) (kt_main_v2 (F := F) o x0 x1) (kt_main_v208 (F := F) o x0 x1)

-- %cst_55 = stablehlo.constant dense<1.638400e+04> : tensor<f32>
def kt_main_cst_55 (o : (⟨S1x2, .f32⟩ : BufTy).Contents (Elt F)) (x0 : (⟨S16x85x128x128, .f32⟩ : BufTy).Contents (Elt F)) (x1 : (⟨S16x64x5, .f32⟩ : BufTy).Contents (Elt F)) : (⟨S_, .f32⟩ : BufTy).Contents (Elt F) :=
  constant S_ .f32 0x46800000#32

-- %212 = stablehlo.divide %211, %cst_55 : tensor<f32>
def kt_main_v212 (o : (⟨S1x2, .f32⟩ : BufTy).Contents (Elt F)) (x0 : (⟨S16x85x128x128, .f32⟩ : BufTy).Contents (Elt F)) (x1 : (⟨S16x64x5, .f32⟩ : BufTy).Contents (Elt F)) : (⟨S_, .f32⟩ : BufTy).Contents (Elt F) :=
  (Host.divf : (⟨S_, .f32⟩ : BufTy).Contents (Elt F) → (⟨S_, .f32⟩ : BufTy).Contents (Elt F) → (⟨S_, .f32⟩ : BufTy).Contents (Elt F)) (kt_main_v211 (F := F) o x0 x1) (kt_main_cst_55 (F := F) o x0 x1)

-- %213 = stablehlo.subtract %4, %210 : tensor<f32>
def kt_main_v213 (o : (⟨S1x2, .f32⟩ : BufTy).Contents (Elt F)) (x0 : (⟨S16x85x128x128, .f32⟩ : BufTy).Contents (Elt F)) (x1 : (⟨S16x64x5, .f32⟩ : BufTy).Contents (Elt F)) : (⟨S_, .f32⟩ : BufTy).Contents (Elt F) :=
  (subf : (⟨S_, .f32⟩ : BufTy).Contents (Elt F) → (⟨S_, .f32⟩ : BufTy).Contents (Elt F) → (⟨S_, .f32⟩ : BufTy).Contents (Elt F)) (kt_main_v4 (F := F) o x0 x1) (kt_main_v210 (F := F) o x0 x1)

-- %cst_56 = stablehlo.constant dense<1.310720e+06> : tensor<f32>
def kt_main_cst_56 (o : (⟨S1x2, .f32⟩ : BufTy).Contents (Elt F)) (x0 : (⟨S16x85x128x128, .f32⟩ : BufTy).Contents (Elt F)) (x1 : (⟨S16x64x5, .f32⟩ : BufTy).Contents (Elt F)) : (⟨S_, .f32⟩ : BufTy).Contents (Elt F) :=
  constant S_ .f32 0x49A00000#32

-- %214 = stablehlo.divide %213, %cst_56 : tensor<f32>
def kt_main_v214 (o : (⟨S1x2, .f32⟩ : BufTy).Contents (Elt F)) (x0 : (⟨S16x85x128x128, .f32⟩ : BufTy).Contents (Elt F)) (x1 : (⟨S16x64x5, .f32⟩ : BufTy).Contents (Elt F)) : (⟨S_, .f32⟩ : BufTy).Contents (Elt F) :=
  (Host.divf : (⟨S_, .f32⟩ : BufTy).Contents (Elt F) → (⟨S_, .f32⟩ : BufTy).Contents (Elt F) → (⟨S_, .f32⟩ : BufTy).Contents (Elt F)) (kt_main_v213 (F := F) o x0 x1) (kt_main_cst_56 (F := F) o x0 x1)

-- %cst_57 = stablehlo.constant dense<2.000000e+00> : tensor<f32>
def kt_main_cst_57 (o : (⟨S1x2, .f32⟩ : BufTy).Contents (Elt F)) (x0 : (⟨S16x85x128x128, .f32⟩ : BufTy).Contents (Elt F)) (x1 : (⟨S16x64x5, .f32⟩ : BufTy).Contents (Elt F)) : (⟨S_, .f32⟩ : BufTy).Contents (Elt F) :=
  constant S_ .f32 0x40000000#32

-- %215 = stablehlo.broadcast_in_dim %cst_57, dims = [] : (tensor<f32>) -> tensor<16x64xf32>
def kt_main_v215 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .f32⟩ : BufTy).Contents (Elt F) :=
  (broadcastInDim S16x64 ![] bcast_S_S16x64 : (⟨S_, .f32⟩ : BufTy).Contents (Elt F) → (⟨S16x64, .f32⟩ : BufTy).Contents (Elt F)) (kt_main_cst_57 (F := F) o x0 x1)

-- %216 = stablehlo.divide %147, %215 : tensor<16x64xf32>
def kt_main_v216 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .f32⟩ : BufTy).Contents (Elt F) :=
  (Host.divf : (⟨S16x64, .f32⟩ : BufTy).Contents (Elt F) → (⟨S16x64, .f32⟩ : BufTy).Contents (Elt F) → (⟨S16x64, .f32⟩ : BufTy).Contents (Elt F)) (kt_main_v147 (F := F) o x0 x1) (kt_main_v215 (F := F) o x0 x1)

-- %217 = stablehlo.subtract %101, %216 : tensor<16x64xf32>
def kt_main_v217 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .f32⟩ : BufTy).Contents (Elt F) :=
  (subf : (⟨S16x64, .f32⟩ : BufTy).Contents (Elt F) → (⟨S16x64, .f32⟩ : BufTy).Contents (Elt F) → (⟨S16x64, .f32⟩ : BufTy).Contents (Elt F)) (kt_main_v101 (F := F) o x0 x1) (kt_main_v216 (F := F) o x0 x1)

-- %cst_58 = stablehlo.constant dense<2.000000e+00> : tensor<f32>
def kt_main_cst_58 (o : (⟨S1x2, .f32⟩ : BufTy).Contents (Elt F)) (x0 : (⟨S16x85x128x128, .f32⟩ : BufTy).Contents (Elt F)) (x1 : (⟨S16x64x5, .f32⟩ : BufTy).Contents (Elt F)) : (⟨S_, .f32⟩ : BufTy).Contents (Elt F) :=
  constant S_ .f32 0x40000000#32

-- %218 = stablehlo.broadcast_in_dim %cst_58, dims = [] : (tensor<f32>) -> tensor<16x64xf32>
def kt_main_v218 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .f32⟩ : BufTy).Contents (Elt F) :=
  (broadcastInDim S16x64 ![] bcast_S_S16x64 : (⟨S_, .f32⟩ : BufTy).Contents (Elt F) → (⟨S16x64, .f32⟩ : BufTy).Contents (Elt F)) (kt_main_cst_58 (F := F) o x0 x1)

-- %219 = stablehlo.divide %170, %218 : tensor<16x64xf32>
def kt_main_v219 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .f32⟩ : BufTy).Contents (Elt F) :=
  (Host.divf : (⟨S16x64, .f32⟩ : BufTy).Contents (Elt F) → (⟨S16x64, .f32⟩ : BufTy).Contents (Elt F) → (⟨S16x64, .f32⟩ : BufTy).Contents (Elt F)) (kt_main_v170 (F := F) o x0 x1) (kt_main_v218 (F := F) o x0 x1)

-- %220 = stablehlo.subtract %124, %219 : tensor<16x64xf32>
def kt_main_v220 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .f32⟩ : BufTy).Contents (Elt F) :=
  (subf : (⟨S16x64, .f32⟩ : BufTy).Contents (Elt F) → (⟨S16x64, .f32⟩ : BufTy).Contents (Elt F) → (⟨S16x64, .f32⟩ : BufTy).Contents (Elt F)) (kt_main_v124 (F := F) o x0 x1) (kt_main_v219 (F := F) o x0 x1)

-- %cst_59 = stablehlo.constant dense<2.000000e+00> : tensor<f32>
def kt_main_cst_59 (o : (⟨S1x2, .f32⟩ : BufTy).Contents (Elt F)) (x0 : (⟨S16x85x128x128, .f32⟩ : BufTy).Contents (Elt F)) (x1 : (⟨S16x64x5, .f32⟩ : BufTy).Contents (Elt F)) : (⟨S_, .f32⟩ : BufTy).Contents (Elt F) :=
  constant S_ .f32 0x40000000#32

-- %221 = stablehlo.broadcast_in_dim %cst_59, dims = [] : (tensor<f32>) -> tensor<16x64xf32>
def kt_main_v221 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .f32⟩ : BufTy).Contents (Elt F) :=
  (broadcastInDim S16x64 ![] bcast_S_S16x64 : (⟨S_, .f32⟩ : BufTy).Contents (Elt F) → (⟨S16x64, .f32⟩ : BufTy).Contents (Elt F)) (kt_main_cst_59 (F := F) o x0 x1)

-- %222 = stablehlo.divide %147, %221 : tensor<16x64xf32>
def kt_main_v222 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .f32⟩ : BufTy).Contents (Elt F) :=
  (Host.divf : (⟨S16x64, .f32⟩ : BufTy).Contents (Elt F) → (⟨S16x64, .f32⟩ : BufTy).Contents (Elt F) → (⟨S16x64, .f32⟩ : BufTy).Contents (Elt F)) (kt_main_v147 (F := F) o x0 x1) (kt_main_v221 (F := F) o x0 x1)

-- %223 = stablehlo.add %101, %222 : tensor<16x64xf32>
def kt_main_v223 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .f32⟩ : BufTy).Contents (Elt F) :=
  (addf : (⟨S16x64, .f32⟩ : BufTy).Contents (Elt F) → (⟨S16x64, .f32⟩ : BufTy).Contents (Elt F) → (⟨S16x64, .f32⟩ : BufTy).Contents (Elt F)) (kt_main_v101 (F := F) o x0 x1) (kt_main_v222 (F := F) o x0 x1)

-- %cst_60 = stablehlo.constant dense<2.000000e+00> : tensor<f32>
def kt_main_cst_60 (o : (⟨S1x2, .f32⟩ : BufTy).Contents (Elt F)) (x0 : (⟨S16x85x128x128, .f32⟩ : BufTy).Contents (Elt F)) (x1 : (⟨S16x64x5, .f32⟩ : BufTy).Contents (Elt F)) : (⟨S_, .f32⟩ : BufTy).Contents (Elt F) :=
  constant S_ .f32 0x40000000#32

-- %224 = stablehlo.broadcast_in_dim %cst_60, dims = [] : (tensor<f32>) -> tensor<16x64xf32>
def kt_main_v224 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .f32⟩ : BufTy).Contents (Elt F) :=
  (broadcastInDim S16x64 ![] bcast_S_S16x64 : (⟨S_, .f32⟩ : BufTy).Contents (Elt F) → (⟨S16x64, .f32⟩ : BufTy).Contents (Elt F)) (kt_main_cst_60 (F := F) o x0 x1)

-- %225 = stablehlo.divide %170, %224 : tensor<16x64xf32>
def kt_main_v225 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .f32⟩ : BufTy).Contents (Elt F) :=
  (Host.divf : (⟨S16x64, .f32⟩ : BufTy).Contents (Elt F) → (⟨S16x64, .f32⟩ : BufTy).Contents (Elt F) → (⟨S16x64, .f32⟩ : BufTy).Contents (Elt F)) (kt_main_v170 (F := F) o x0 x1) (kt_main_v224 (F := F) o x0 x1)

-- %226 = stablehlo.add %124, %225 : tensor<16x64xf32>
def kt_main_v226 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .f32⟩ : BufTy).Contents (Elt F) :=
  (addf : (⟨S16x64, .f32⟩ : BufTy).Contents (Elt F) → (⟨S16x64, .f32⟩ : BufTy).Contents (Elt F) → (⟨S16x64, .f32⟩ : BufTy).Contents (Elt F)) (kt_main_v124 (F := F) o x0 x1) (kt_main_v225 (F := F) o x0 x1)

-- %227 = stablehlo.broadcast_in_dim %217, dims = [0, 1] : (tensor<16x64xf32>) -> tensor<16x64x1xf32>
def kt_main_v227 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64x1, .f32⟩ : BufTy).Contents (Elt F) :=
  (broadcastInDim S16x64x1 ![0, 1] bcast_S16x64_S16x64x1_0_1 : (⟨S16x64, .f32⟩ : BufTy).Contents (Elt F) → (⟨S16x64x1, .f32⟩ : BufTy).Contents (Elt F)) (kt_main_v217 (F := F) o x0 x1)

-- %228 = stablehlo.broadcast_in_dim %220, dims = [0, 1] : (tensor<16x64xf32>) -> tensor<16x64x1xf32>
def kt_main_v228 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64x1, .f32⟩ : BufTy).Contents (Elt F) :=
  (broadcastInDim S16x64x1 ![0, 1] bcast_S16x64_S16x64x1_0_1 : (⟨S16x64, .f32⟩ : BufTy).Contents (Elt F) → (⟨S16x64x1, .f32⟩ : BufTy).Contents (Elt F)) (kt_main_v220 (F := F) o x0 x1)

-- %229 = stablehlo.broadcast_in_dim %223, dims = [0, 1] : (tensor<16x64xf32>) -> tensor<16x64x1xf32>
def kt_main_v229 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64x1, .f32⟩ : BufTy).Contents (Elt F) :=
  (broadcastInDim S16x64x1 ![0, 1] bcast_S16x64_S16x64x1_0_1 : (⟨S16x64, .f32⟩ : BufTy).Contents (Elt F) → (⟨S16x64x1, .f32⟩ : BufTy).Contents (Elt F)) (kt_main_v223 (F := F) o x0 x1)

-- %230 = stablehlo.broadcast_in_dim %226, dims = [0, 1] : (tensor<16x64xf32>) -> tensor<16x64x1xf32>
def kt_main_v230 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64x1, .f32⟩ : BufTy).Contents (Elt F) :=
  (broadcastInDim S16x64x1 ![0, 1] bcast_S16x64_S16x64x1_0_1 : (⟨S16x64, .f32⟩ : BufTy).Contents (Elt F) → (⟨S16x64x1, .f32⟩ : BufTy).Contents (Elt F)) (kt_main_v226 (F := F) o x0 x1)

-- %231 = stablehlo.concatenate %227, %228, %229, %230, dim = 2 : (tensor<16x64x1xf32>, tensor<16x64x1xf32>, tensor<16x64x1xf32>, tensor<16x64x1xf32>) -> tensor<16x64x4xf32>
def kt_main_v231 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64x4, .f32⟩ : BufTy).Contents (Elt F) :=
  concatenate S16x64x4 2 [⟨S16x64x1, (kt_main_v227 (F := F) o x0 x1)⟩, ⟨S16x64x1, (kt_main_v228 (F := F) o x0 x1)⟩, ⟨S16x64x1, (kt_main_v229 (F := F) o x0 x1)⟩, ⟨S16x64x1, (kt_main_v230 (F := F) o x0 x1)⟩] concatenates_S16x64x1_S16x64x1_S16x64x1_S16x64x1_S16x64x4_d2

-- %cst_61 = stablehlo.constant dense<2.000000e+00> : tensor<f32>
def kt_main_cst_61 (o : (⟨S1x2, .f32⟩ : BufTy).Contents (Elt F)) (x0 : (⟨S16x85x128x128, .f32⟩ : BufTy).Contents (Elt F)) (x1 : (⟨S16x64x5, .f32⟩ : BufTy).Contents (Elt F)) : (⟨S_, .f32⟩ : BufTy).Contents (Elt F) :=
  constant S_ .f32 0x40000000#32

-- %232 = stablehlo.broadcast_in_dim %cst_61, dims = [] : (tensor<f32>) -> tensor<16x64xf32>
def kt_main_v232 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .f32⟩ : BufTy).Contents (Elt F) :=
  (broadcastInDim S16x64 ![] bcast_S_S16x64 : (⟨S_, .f32⟩ : BufTy).Contents (Elt F) → (⟨S16x64, .f32⟩ : BufTy).Contents (Elt F)) (kt_main_cst_61 (F := F) o x0 x1)

-- %233 = stablehlo.divide %13, %232 : tensor<16x64xf32>
def kt_main_v233 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .f32⟩ : BufTy).Contents (Elt F) :=
  (Host.divf : (⟨S16x64, .f32⟩ : BufTy).Contents (Elt F) → (⟨S16x64, .f32⟩ : BufTy).Contents (Elt F) → (⟨S16x64, .f32⟩ : BufTy).Contents (Elt F)) (kt_main_v13 (F := F) o x0 x1) (kt_main_v232 (F := F) o x0 x1)

-- %234 = stablehlo.subtract %9, %233 : tensor<16x64xf32>
def kt_main_v234 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .f32⟩ : BufTy).Contents (Elt F) :=
  (subf : (⟨S16x64, .f32⟩ : BufTy).Contents (Elt F) → (⟨S16x64, .f32⟩ : BufTy).Contents (Elt F) → (⟨S16x64, .f32⟩ : BufTy).Contents (Elt F)) (kt_main_v9 (F := F) o x0 x1) (kt_main_v233 (F := F) o x0 x1)

-- %cst_62 = stablehlo.constant dense<1.280000e+02> : tensor<f32>
def kt_main_cst_62 (o : (⟨S1x2, .f32⟩ : BufTy).Contents (Elt F)) (x0 : (⟨S16x85x128x128, .f32⟩ : BufTy).Contents (Elt F)) (x1 : (⟨S16x64x5, .f32⟩ : BufTy).Contents (Elt F)) : (⟨S_, .f32⟩ : BufTy).Contents (Elt F) :=
  constant S_ .f32 0x43000000#32

-- %235 = stablehlo.broadcast_in_dim %cst_62, dims = [] : (tensor<f32>) -> tensor<16x64xf32>
def kt_main_v235 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .f32⟩ : BufTy).Contents (Elt F) :=
  (broadcastInDim S16x64 ![] bcast_S_S16x64 : (⟨S_, .f32⟩ : BufTy).Contents (Elt F) → (⟨S16x64, .f32⟩ : BufTy).Contents (Elt F)) (kt_main_cst_62 (F := F) o x0 x1)

-- %236 = stablehlo.multiply %234, %235 : tensor<16x64xf32>
def kt_main_v236 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .f32⟩ : BufTy).Contents (Elt F) :=
  (mulf : (⟨S16x64, .f32⟩ : BufTy).Contents (Elt F) → (⟨S16x64, .f32⟩ : BufTy).Contents (Elt F) → (⟨S16x64, .f32⟩ : BufTy).Contents (Elt F)) (kt_main_v234 (F := F) o x0 x1) (kt_main_v235 (F := F) o x0 x1)

-- %cst_63 = stablehlo.constant dense<2.000000e+00> : tensor<f32>
def kt_main_cst_63 (o : (⟨S1x2, .f32⟩ : BufTy).Contents (Elt F)) (x0 : (⟨S16x85x128x128, .f32⟩ : BufTy).Contents (Elt F)) (x1 : (⟨S16x64x5, .f32⟩ : BufTy).Contents (Elt F)) : (⟨S_, .f32⟩ : BufTy).Contents (Elt F) :=
  constant S_ .f32 0x40000000#32

-- %237 = stablehlo.broadcast_in_dim %cst_63, dims = [] : (tensor<f32>) -> tensor<16x64xf32>
def kt_main_v237 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .f32⟩ : BufTy).Contents (Elt F) :=
  (broadcastInDim S16x64 ![] bcast_S_S16x64 : (⟨S_, .f32⟩ : BufTy).Contents (Elt F) → (⟨S16x64, .f32⟩ : BufTy).Contents (Elt F)) (kt_main_cst_63 (F := F) o x0 x1)

-- %238 = stablehlo.divide %15, %237 : tensor<16x64xf32>
def kt_main_v238 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .f32⟩ : BufTy).Contents (Elt F) :=
  (Host.divf : (⟨S16x64, .f32⟩ : BufTy).Contents (Elt F) → (⟨S16x64, .f32⟩ : BufTy).Contents (Elt F) → (⟨S16x64, .f32⟩ : BufTy).Contents (Elt F)) (kt_main_v15 (F := F) o x0 x1) (kt_main_v237 (F := F) o x0 x1)

-- %239 = stablehlo.subtract %11, %238 : tensor<16x64xf32>
def kt_main_v239 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .f32⟩ : BufTy).Contents (Elt F) :=
  (subf : (⟨S16x64, .f32⟩ : BufTy).Contents (Elt F) → (⟨S16x64, .f32⟩ : BufTy).Contents (Elt F) → (⟨S16x64, .f32⟩ : BufTy).Contents (Elt F)) (kt_main_v11 (F := F) o x0 x1) (kt_main_v238 (F := F) o x0 x1)

-- %cst_64 = stablehlo.constant dense<1.280000e+02> : tensor<f32>
def kt_main_cst_64 (o : (⟨S1x2, .f32⟩ : BufTy).Contents (Elt F)) (x0 : (⟨S16x85x128x128, .f32⟩ : BufTy).Contents (Elt F)) (x1 : (⟨S16x64x5, .f32⟩ : BufTy).Contents (Elt F)) : (⟨S_, .f32⟩ : BufTy).Contents (Elt F) :=
  constant S_ .f32 0x43000000#32

-- %240 = stablehlo.broadcast_in_dim %cst_64, dims = [] : (tensor<f32>) -> tensor<16x64xf32>
def kt_main_v240 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .f32⟩ : BufTy).Contents (Elt F) :=
  (broadcastInDim S16x64 ![] bcast_S_S16x64 : (⟨S_, .f32⟩ : BufTy).Contents (Elt F) → (⟨S16x64, .f32⟩ : BufTy).Contents (Elt F)) (kt_main_cst_64 (F := F) o x0 x1)

-- %241 = stablehlo.multiply %239, %240 : tensor<16x64xf32>
def kt_main_v241 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .f32⟩ : BufTy).Contents (Elt F) :=
  (mulf : (⟨S16x64, .f32⟩ : BufTy).Contents (Elt F) → (⟨S16x64, .f32⟩ : BufTy).Contents (Elt F) → (⟨S16x64, .f32⟩ : BufTy).Contents (Elt F)) (kt_main_v239 (F := F) o x0 x1) (kt_main_v240 (F := F) o x0 x1)

-- %cst_65 = stablehlo.constant dense<2.000000e+00> : tensor<f32>
def kt_main_cst_65 (o : (⟨S1x2, .f32⟩ : BufTy).Contents (Elt F)) (x0 : (⟨S16x85x128x128, .f32⟩ : BufTy).Contents (Elt F)) (x1 : (⟨S16x64x5, .f32⟩ : BufTy).Contents (Elt F)) : (⟨S_, .f32⟩ : BufTy).Contents (Elt F) :=
  constant S_ .f32 0x40000000#32

-- %242 = stablehlo.broadcast_in_dim %cst_65, dims = [] : (tensor<f32>) -> tensor<16x64xf32>
def kt_main_v242 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .f32⟩ : BufTy).Contents (Elt F) :=
  (broadcastInDim S16x64 ![] bcast_S_S16x64 : (⟨S_, .f32⟩ : BufTy).Contents (Elt F) → (⟨S16x64, .f32⟩ : BufTy).Contents (Elt F)) (kt_main_cst_65 (F := F) o x0 x1)

-- %243 = stablehlo.divide %13, %242 : tensor<16x64xf32>
def kt_main_v243 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .f32⟩ : BufTy).Contents (Elt F) :=
  (Host.divf : (⟨S16x64, .f32⟩ : BufTy).Contents (Elt F) → (⟨S16x64, .f32⟩ : BufTy).Contents (Elt F) → (⟨S16x64, .f32⟩ : BufTy).Contents (Elt F)) (kt_main_v13 (F := F) o x0 x1) (kt_main_v242 (F := F) o x0 x1)

-- %244 = stablehlo.add %9, %243 : tensor<16x64xf32>
def kt_main_v244 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .f32⟩ : BufTy).Contents (Elt F) :=
  (addf : (⟨S16x64, .f32⟩ : BufTy).Contents (Elt F) → (⟨S16x64, .f32⟩ : BufTy).Contents (Elt F) → (⟨S16x64, .f32⟩ : BufTy).Contents (Elt F)) (kt_main_v9 (F := F) o x0 x1) (kt_main_v243 (F := F) o x0 x1)

-- %cst_66 = stablehlo.constant dense<1.280000e+02> : tensor<f32>
def kt_main_cst_66 (o : (⟨S1x2, .f32⟩ : BufTy).Contents (Elt F)) (x0 : (⟨S16x85x128x128, .f32⟩ : BufTy).Contents (Elt F)) (x1 : (⟨S16x64x5, .f32⟩ : BufTy).Contents (Elt F)) : (⟨S_, .f32⟩ : BufTy).Contents (Elt F) :=
  constant S_ .f32 0x43000000#32

-- %245 = stablehlo.broadcast_in_dim %cst_66, dims = [] : (tensor<f32>) -> tensor<16x64xf32>
def kt_main_v245 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .f32⟩ : BufTy).Contents (Elt F) :=
  (broadcastInDim S16x64 ![] bcast_S_S16x64 : (⟨S_, .f32⟩ : BufTy).Contents (Elt F) → (⟨S16x64, .f32⟩ : BufTy).Contents (Elt F)) (kt_main_cst_66 (F := F) o x0 x1)

-- %246 = stablehlo.multiply %244, %245 : tensor<16x64xf32>
def kt_main_v246 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .f32⟩ : BufTy).Contents (Elt F) :=
  (mulf : (⟨S16x64, .f32⟩ : BufTy).Contents (Elt F) → (⟨S16x64, .f32⟩ : BufTy).Contents (Elt F) → (⟨S16x64, .f32⟩ : BufTy).Contents (Elt F)) (kt_main_v244 (F := F) o x0 x1) (kt_main_v245 (F := F) o x0 x1)

-- %cst_67 = stablehlo.constant dense<2.000000e+00> : tensor<f32>
def kt_main_cst_67 (o : (⟨S1x2, .f32⟩ : BufTy).Contents (Elt F)) (x0 : (⟨S16x85x128x128, .f32⟩ : BufTy).Contents (Elt F)) (x1 : (⟨S16x64x5, .f32⟩ : BufTy).Contents (Elt F)) : (⟨S_, .f32⟩ : BufTy).Contents (Elt F) :=
  constant S_ .f32 0x40000000#32

-- %247 = stablehlo.broadcast_in_dim %cst_67, dims = [] : (tensor<f32>) -> tensor<16x64xf32>
def kt_main_v247 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .f32⟩ : BufTy).Contents (Elt F) :=
  (broadcastInDim S16x64 ![] bcast_S_S16x64 : (⟨S_, .f32⟩ : BufTy).Contents (Elt F) → (⟨S16x64, .f32⟩ : BufTy).Contents (Elt F)) (kt_main_cst_67 (F := F) o x0 x1)

-- %248 = stablehlo.divide %15, %247 : tensor<16x64xf32>
def kt_main_v248 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .f32⟩ : BufTy).Contents (Elt F) :=
  (Host.divf : (⟨S16x64, .f32⟩ : BufTy).Contents (Elt F) → (⟨S16x64, .f32⟩ : BufTy).Contents (Elt F) → (⟨S16x64, .f32⟩ : BufTy).Contents (Elt F)) (kt_main_v15 (F := F) o x0 x1) (kt_main_v247 (F := F) o x0 x1)

-- %249 = stablehlo.add %11, %248 : tensor<16x64xf32>
def kt_main_v249 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .f32⟩ : BufTy).Contents (Elt F) :=
  (addf : (⟨S16x64, .f32⟩ : BufTy).Contents (Elt F) → (⟨S16x64, .f32⟩ : BufTy).Contents (Elt F) → (⟨S16x64, .f32⟩ : BufTy).Contents (Elt F)) (kt_main_v11 (F := F) o x0 x1) (kt_main_v248 (F := F) o x0 x1)

-- %cst_68 = stablehlo.constant dense<1.280000e+02> : tensor<f32>
def kt_main_cst_68 (o : (⟨S1x2, .f32⟩ : BufTy).Contents (Elt F)) (x0 : (⟨S16x85x128x128, .f32⟩ : BufTy).Contents (Elt F)) (x1 : (⟨S16x64x5, .f32⟩ : BufTy).Contents (Elt F)) : (⟨S_, .f32⟩ : BufTy).Contents (Elt F) :=
  constant S_ .f32 0x43000000#32

-- %250 = stablehlo.broadcast_in_dim %cst_68, dims = [] : (tensor<f32>) -> tensor<16x64xf32>
def kt_main_v250 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .f32⟩ : BufTy).Contents (Elt F) :=
  (broadcastInDim S16x64 ![] bcast_S_S16x64 : (⟨S_, .f32⟩ : BufTy).Contents (Elt F) → (⟨S16x64, .f32⟩ : BufTy).Contents (Elt F)) (kt_main_cst_68 (F := F) o x0 x1)

-- %251 = stablehlo.multiply %249, %250 : tensor<16x64xf32>
def kt_main_v251 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .f32⟩ : BufTy).Contents (Elt F) :=
  (mulf : (⟨S16x64, .f32⟩ : BufTy).Contents (Elt F) → (⟨S16x64, .f32⟩ : BufTy).Contents (Elt F) → (⟨S16x64, .f32⟩ : BufTy).Contents (Elt F)) (kt_main_v249 (F := F) o x0 x1) (kt_main_v250 (F := F) o x0 x1)

-- %252 = stablehlo.broadcast_in_dim %236, dims = [0, 1] : (tensor<16x64xf32>) -> tensor<16x64x1xf32>
def kt_main_v252 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64x1, .f32⟩ : BufTy).Contents (Elt F) :=
  (broadcastInDim S16x64x1 ![0, 1] bcast_S16x64_S16x64x1_0_1 : (⟨S16x64, .f32⟩ : BufTy).Contents (Elt F) → (⟨S16x64x1, .f32⟩ : BufTy).Contents (Elt F)) (kt_main_v236 (F := F) o x0 x1)

-- %253 = stablehlo.broadcast_in_dim %241, dims = [0, 1] : (tensor<16x64xf32>) -> tensor<16x64x1xf32>
def kt_main_v253 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64x1, .f32⟩ : BufTy).Contents (Elt F) :=
  (broadcastInDim S16x64x1 ![0, 1] bcast_S16x64_S16x64x1_0_1 : (⟨S16x64, .f32⟩ : BufTy).Contents (Elt F) → (⟨S16x64x1, .f32⟩ : BufTy).Contents (Elt F)) (kt_main_v241 (F := F) o x0 x1)

-- %254 = stablehlo.broadcast_in_dim %246, dims = [0, 1] : (tensor<16x64xf32>) -> tensor<16x64x1xf32>
def kt_main_v254 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64x1, .f32⟩ : BufTy).Contents (Elt F) :=
  (broadcastInDim S16x64x1 ![0, 1] bcast_S16x64_S16x64x1_0_1 : (⟨S16x64, .f32⟩ : BufTy).Contents (Elt F) → (⟨S16x64x1, .f32⟩ : BufTy).Contents (Elt F)) (kt_main_v246 (F := F) o x0 x1)

-- %255 = stablehlo.broadcast_in_dim %251, dims = [0, 1] : (tensor<16x64xf32>) -> tensor<16x64x1xf32>
def kt_main_v255 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64x1, .f32⟩ : BufTy).Contents (Elt F) :=
  (broadcastInDim S16x64x1 ![0, 1] bcast_S16x64_S16x64x1_0_1 : (⟨S16x64, .f32⟩ : BufTy).Contents (Elt F) → (⟨S16x64x1, .f32⟩ : BufTy).Contents (Elt F)) (kt_main_v251 (F := F) o x0 x1)

-- %256 = stablehlo.concatenate %252, %253, %254, %255, dim = 2 : (tensor<16x64x1xf32>, tensor<16x64x1xf32>, tensor<16x64x1xf32>, tensor<16x64x1xf32>) -> tensor<16x64x4xf32>
def kt_main_v256 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64x4, .f32⟩ : BufTy).Contents (Elt F) :=
  concatenate S16x64x4 2 [⟨S16x64x1, (kt_main_v252 (F := F) o x0 x1)⟩, ⟨S16x64x1, (kt_main_v253 (F := F) o x0 x1)⟩, ⟨S16x64x1, (kt_main_v254 (F := F) o x0 x1)⟩, ⟨S16x64x1, (kt_main_v255 (F := F) o x0 x1)⟩] concatenates_S16x64x1_S16x64x1_S16x64x1_S16x64x1_S16x64x4_d2

-- %257 = stablehlo.slice %231 [0:16, 0:64, 0:1] : (tensor<16x64x4xf32>) -> tensor<16x64x1xf32>
def kt_main_v257 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64x1, .f32⟩ : BufTy).Contents (Elt F) :=
  ((extractStridedSlice S16x64x1 ![0, 0, 0] · slices_S16x64x4_S16x64x1_0_0_0) : (⟨S16x64x4, .f32⟩ : BufTy).Contents (Elt F) → (⟨S16x64x1, .f32⟩ : BufTy).Contents (Elt F)) (kt_main_v231 (F := F) o x0 x1)

-- %258 = stablehlo.reshape %257 : (tensor<16x64x1xf32>) -> tensor<16x64xf32>
def kt_main_v258 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .f32⟩ : BufTy).Contents (Elt F) :=
  shapeCast _ (kt_main_v257 (F := F) o x0 x1) shapeCasts_S16x64x1_S16x64

-- %259 = stablehlo.slice %256 [0:16, 0:64, 0:1] : (tensor<16x64x4xf32>) -> tensor<16x64x1xf32>
def kt_main_v259 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64x1, .f32⟩ : BufTy).Contents (Elt F) :=
  ((extractStridedSlice S16x64x1 ![0, 0, 0] · slices_S16x64x4_S16x64x1_0_0_0) : (⟨S16x64x4, .f32⟩ : BufTy).Contents (Elt F) → (⟨S16x64x1, .f32⟩ : BufTy).Contents (Elt F)) (kt_main_v256 (F := F) o x0 x1)

-- %260 = stablehlo.reshape %259 : (tensor<16x64x1xf32>) -> tensor<16x64xf32>
def kt_main_v260 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .f32⟩ : BufTy).Contents (Elt F) :=
  shapeCast _ (kt_main_v259 (F := F) o x0 x1) shapeCasts_S16x64x1_S16x64

-- %261 = stablehlo.maximum %258, %260 : tensor<16x64xf32>
def kt_main_v261 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .f32⟩ : BufTy).Contents (Elt F) :=
  (maximumf : (⟨S16x64, .f32⟩ : BufTy).Contents (Elt F) → (⟨S16x64, .f32⟩ : BufTy).Contents (Elt F) → (⟨S16x64, .f32⟩ : BufTy).Contents (Elt F)) (kt_main_v258 (F := F) o x0 x1) (kt_main_v260 (F := F) o x0 x1)

-- %262 = stablehlo.slice %231 [0:16, 0:64, 1:2] : (tensor<16x64x4xf32>) -> tensor<16x64x1xf32>
def kt_main_v262 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64x1, .f32⟩ : BufTy).Contents (Elt F) :=
  ((extractStridedSlice S16x64x1 ![0, 0, 1] · slices_S16x64x4_S16x64x1_0_0_1) : (⟨S16x64x4, .f32⟩ : BufTy).Contents (Elt F) → (⟨S16x64x1, .f32⟩ : BufTy).Contents (Elt F)) (kt_main_v231 (F := F) o x0 x1)

-- %263 = stablehlo.reshape %262 : (tensor<16x64x1xf32>) -> tensor<16x64xf32>
def kt_main_v263 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .f32⟩ : BufTy).Contents (Elt F) :=
  shapeCast _ (kt_main_v262 (F := F) o x0 x1) shapeCasts_S16x64x1_S16x64

-- %264 = stablehlo.slice %256 [0:16, 0:64, 1:2] : (tensor<16x64x4xf32>) -> tensor<16x64x1xf32>
def kt_main_v264 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64x1, .f32⟩ : BufTy).Contents (Elt F) :=
  ((extractStridedSlice S16x64x1 ![0, 0, 1] · slices_S16x64x4_S16x64x1_0_0_1) : (⟨S16x64x4, .f32⟩ : BufTy).Contents (Elt F) → (⟨S16x64x1, .f32⟩ : BufTy).Contents (Elt F)) (kt_main_v256 (F := F) o x0 x1)

-- %265 = stablehlo.reshape %264 : (tensor<16x64x1xf32>) -> tensor<16x64xf32>
def kt_main_v265 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .f32⟩ : BufTy).Contents (Elt F) :=
  shapeCast _ (kt_main_v264 (F := F) o x0 x1) shapeCasts_S16x64x1_S16x64

-- %266 = stablehlo.maximum %263, %265 : tensor<16x64xf32>
def kt_main_v266 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .f32⟩ : BufTy).Contents (Elt F) :=
  (maximumf : (⟨S16x64, .f32⟩ : BufTy).Contents (Elt F) → (⟨S16x64, .f32⟩ : BufTy).Contents (Elt F) → (⟨S16x64, .f32⟩ : BufTy).Contents (Elt F)) (kt_main_v263 (F := F) o x0 x1) (kt_main_v265 (F := F) o x0 x1)

-- %267 = stablehlo.slice %231 [0:16, 0:64, 2:3] : (tensor<16x64x4xf32>) -> tensor<16x64x1xf32>
def kt_main_v267 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64x1, .f32⟩ : BufTy).Contents (Elt F) :=
  ((extractStridedSlice S16x64x1 ![0, 0, 2] · slices_S16x64x4_S16x64x1_0_0_2) : (⟨S16x64x4, .f32⟩ : BufTy).Contents (Elt F) → (⟨S16x64x1, .f32⟩ : BufTy).Contents (Elt F)) (kt_main_v231 (F := F) o x0 x1)

-- %268 = stablehlo.reshape %267 : (tensor<16x64x1xf32>) -> tensor<16x64xf32>
def kt_main_v268 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .f32⟩ : BufTy).Contents (Elt F) :=
  shapeCast _ (kt_main_v267 (F := F) o x0 x1) shapeCasts_S16x64x1_S16x64

-- %269 = stablehlo.slice %256 [0:16, 0:64, 2:3] : (tensor<16x64x4xf32>) -> tensor<16x64x1xf32>
def kt_main_v269 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64x1, .f32⟩ : BufTy).Contents (Elt F) :=
  ((extractStridedSlice S16x64x1 ![0, 0, 2] · slices_S16x64x4_S16x64x1_0_0_2) : (⟨S16x64x4, .f32⟩ : BufTy).Contents (Elt F) → (⟨S16x64x1, .f32⟩ : BufTy).Contents (Elt F)) (kt_main_v256 (F := F) o x0 x1)

-- %270 = stablehlo.reshape %269 : (tensor<16x64x1xf32>) -> tensor<16x64xf32>
def kt_main_v270 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .f32⟩ : BufTy).Contents (Elt F) :=
  shapeCast _ (kt_main_v269 (F := F) o x0 x1) shapeCasts_S16x64x1_S16x64

-- %271 = stablehlo.minimum %268, %270 : tensor<16x64xf32>
def kt_main_v271 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .f32⟩ : BufTy).Contents (Elt F) :=
  (minimumf : (⟨S16x64, .f32⟩ : BufTy).Contents (Elt F) → (⟨S16x64, .f32⟩ : BufTy).Contents (Elt F) → (⟨S16x64, .f32⟩ : BufTy).Contents (Elt F)) (kt_main_v268 (F := F) o x0 x1) (kt_main_v270 (F := F) o x0 x1)

-- %272 = stablehlo.slice %231 [0:16, 0:64, 3:4] : (tensor<16x64x4xf32>) -> tensor<16x64x1xf32>
def kt_main_v272 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64x1, .f32⟩ : BufTy).Contents (Elt F) :=
  ((extractStridedSlice S16x64x1 ![0, 0, 3] · slices_S16x64x4_S16x64x1_0_0_3) : (⟨S16x64x4, .f32⟩ : BufTy).Contents (Elt F) → (⟨S16x64x1, .f32⟩ : BufTy).Contents (Elt F)) (kt_main_v231 (F := F) o x0 x1)

-- %273 = stablehlo.reshape %272 : (tensor<16x64x1xf32>) -> tensor<16x64xf32>
def kt_main_v273 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .f32⟩ : BufTy).Contents (Elt F) :=
  shapeCast _ (kt_main_v272 (F := F) o x0 x1) shapeCasts_S16x64x1_S16x64

-- %274 = stablehlo.slice %256 [0:16, 0:64, 3:4] : (tensor<16x64x4xf32>) -> tensor<16x64x1xf32>
def kt_main_v274 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64x1, .f32⟩ : BufTy).Contents (Elt F) :=
  ((extractStridedSlice S16x64x1 ![0, 0, 3] · slices_S16x64x4_S16x64x1_0_0_3) : (⟨S16x64x4, .f32⟩ : BufTy).Contents (Elt F) → (⟨S16x64x1, .f32⟩ : BufTy).Contents (Elt F)) (kt_main_v256 (F := F) o x0 x1)

-- %275 = stablehlo.reshape %274 : (tensor<16x64x1xf32>) -> tensor<16x64xf32>
def kt_main_v275 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .f32⟩ : BufTy).Contents (Elt F) :=
  shapeCast _ (kt_main_v274 (F := F) o x0 x1) shapeCasts_S16x64x1_S16x64

-- %276 = stablehlo.minimum %273, %275 : tensor<16x64xf32>
def kt_main_v276 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .f32⟩ : BufTy).Contents (Elt F) :=
  (minimumf : (⟨S16x64, .f32⟩ : BufTy).Contents (Elt F) → (⟨S16x64, .f32⟩ : BufTy).Contents (Elt F) → (⟨S16x64, .f32⟩ : BufTy).Contents (Elt F)) (kt_main_v273 (F := F) o x0 x1) (kt_main_v275 (F := F) o x0 x1)

-- %277 = stablehlo.subtract %271, %261 : tensor<16x64xf32>
def kt_main_v277 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .f32⟩ : BufTy).Contents (Elt F) :=
  (subf : (⟨S16x64, .f32⟩ : BufTy).Contents (Elt F) → (⟨S16x64, .f32⟩ : BufTy).Contents (Elt F) → (⟨S16x64, .f32⟩ : BufTy).Contents (Elt F)) (kt_main_v271 (F := F) o x0 x1) (kt_main_v261 (F := F) o x0 x1)

-- %c_69 = stablehlo.constant dense<0> : tensor<i32>
def kt_main_c_69 (o : (⟨S1x2, .f32⟩ : BufTy).Contents (Elt F)) (x0 : (⟨S16x85x128x128, .f32⟩ : BufTy).Contents (Elt F)) (x1 : (⟨S16x64x5, .f32⟩ : BufTy).Contents (Elt F)) : (⟨S_, .i32⟩ : BufTy).Contents (Elt F) :=
  constantI S_ 32 0#32

-- @clip's %0 = stablehlo.convert %arg1 : (tensor<i32>) -> tensor<f32>, in %278 = func.call @clip(…) (record main_call2)
def kt_main_call2_v0 (o : (⟨S1x2, .f32⟩ : BufTy).Contents (Elt F)) (x0 : (⟨S16x85x128x128, .f32⟩ : BufTy).Contents (Elt F)) (x1 : (⟨S16x64x5, .f32⟩ : BufTy).Contents (Elt F)) : (⟨S_, .f32⟩ : BufTy).Contents (Elt F) :=
  ((sitofp .f32)) (kt_main_c_69 (F := F) o x0 x1)

-- @clip's %1 = stablehlo.broadcast_in_dim %0, dims = [] : (tensor<f32>) -> tensor<16x64xf32>, in %278 = func.call @clip(…) (record main_call2)
def kt_main_call2_v1 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .f32⟩ : BufTy).Contents (Elt F) :=
  ((broadcastInDim S16x64 ![] bcast_S_S16x64)) (kt_main_call2_v0 (F := F) o x0 x1)

-- %278 = func.call @clip(…) (record main_call2) result 0: @clip's %2 = stablehlo.maximum %1, %arg0 : tensor<16x64xf32>
def kt_main_v278 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .f32⟩ : BufTy).Contents (Elt F) :=
  (maximumf) (kt_main_call2_v1 (F := F) o x0 x1) (kt_main_v277 (F := F) o x0 x1)

-- %279 = stablehlo.subtract %276, %266 : tensor<16x64xf32>
def kt_main_v279 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .f32⟩ : BufTy).Contents (Elt F) :=
  (subf : (⟨S16x64, .f32⟩ : BufTy).Contents (Elt F) → (⟨S16x64, .f32⟩ : BufTy).Contents (Elt F) → (⟨S16x64, .f32⟩ : BufTy).Contents (Elt F)) (kt_main_v276 (F := F) o x0 x1) (kt_main_v266 (F := F) o x0 x1)

-- %c_70 = stablehlo.constant dense<0> : tensor<i32>
def kt_main_c_70 (o : (⟨S1x2, .f32⟩ : BufTy).Contents (Elt F)) (x0 : (⟨S16x85x128x128, .f32⟩ : BufTy).Contents (Elt F)) (x1 : (⟨S16x64x5, .f32⟩ : BufTy).Contents (Elt F)) : (⟨S_, .i32⟩ : BufTy).Contents (Elt F) :=
  constantI S_ 32 0#32

-- @clip's %0 = stablehlo.convert %arg1 : (tensor<i32>) -> tensor<f32>, in %280 = func.call @clip(…) (record main_call3)
def kt_main_call3_v0 (o : (⟨S1x2, .f32⟩ : BufTy).Contents (Elt F)) (x0 : (⟨S16x85x128x128, .f32⟩ : BufTy).Contents (Elt F)) (x1 : (⟨S16x64x5, .f32⟩ : BufTy).Contents (Elt F)) : (⟨S_, .f32⟩ : BufTy).Contents (Elt F) :=
  ((sitofp .f32)) (kt_main_c_70 (F := F) o x0 x1)

-- @clip's %1 = stablehlo.broadcast_in_dim %0, dims = [] : (tensor<f32>) -> tensor<16x64xf32>, in %280 = func.call @clip(…) (record main_call3)
def kt_main_call3_v1 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .f32⟩ : BufTy).Contents (Elt F) :=
  ((broadcastInDim S16x64 ![] bcast_S_S16x64)) (kt_main_call3_v0 (F := F) o x0 x1)

-- %280 = func.call @clip(…) (record main_call3) result 0: @clip's %2 = stablehlo.maximum %1, %arg0 : tensor<16x64xf32>
def kt_main_v280 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .f32⟩ : BufTy).Contents (Elt F) :=
  (maximumf) (kt_main_call3_v1 (F := F) o x0 x1) (kt_main_v279 (F := F) o x0 x1)

-- %281 = stablehlo.multiply %278, %280 : tensor<16x64xf32>
def kt_main_v281 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .f32⟩ : BufTy).Contents (Elt F) :=
  (mulf : (⟨S16x64, .f32⟩ : BufTy).Contents (Elt F) → (⟨S16x64, .f32⟩ : BufTy).Contents (Elt F) → (⟨S16x64, .f32⟩ : BufTy).Contents (Elt F)) (kt_main_v278 (F := F) o x0 x1) (kt_main_v280 (F := F) o x0 x1)

-- %282 = stablehlo.slice %231 [0:16, 0:64, 2:3] : (tensor<16x64x4xf32>) -> tensor<16x64x1xf32>
def kt_main_v282 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64x1, .f32⟩ : BufTy).Contents (Elt F) :=
  ((extractStridedSlice S16x64x1 ![0, 0, 2] · slices_S16x64x4_S16x64x1_0_0_2) : (⟨S16x64x4, .f32⟩ : BufTy).Contents (Elt F) → (⟨S16x64x1, .f32⟩ : BufTy).Contents (Elt F)) (kt_main_v231 (F := F) o x0 x1)

-- %283 = stablehlo.reshape %282 : (tensor<16x64x1xf32>) -> tensor<16x64xf32>
def kt_main_v283 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .f32⟩ : BufTy).Contents (Elt F) :=
  shapeCast _ (kt_main_v282 (F := F) o x0 x1) shapeCasts_S16x64x1_S16x64

-- %284 = stablehlo.slice %231 [0:16, 0:64, 0:1] : (tensor<16x64x4xf32>) -> tensor<16x64x1xf32>
def kt_main_v284 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64x1, .f32⟩ : BufTy).Contents (Elt F) :=
  ((extractStridedSlice S16x64x1 ![0, 0, 0] · slices_S16x64x4_S16x64x1_0_0_0) : (⟨S16x64x4, .f32⟩ : BufTy).Contents (Elt F) → (⟨S16x64x1, .f32⟩ : BufTy).Contents (Elt F)) (kt_main_v231 (F := F) o x0 x1)

-- %285 = stablehlo.reshape %284 : (tensor<16x64x1xf32>) -> tensor<16x64xf32>
def kt_main_v285 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .f32⟩ : BufTy).Contents (Elt F) :=
  shapeCast _ (kt_main_v284 (F := F) o x0 x1) shapeCasts_S16x64x1_S16x64

-- %286 = stablehlo.subtract %283, %285 : tensor<16x64xf32>
def kt_main_v286 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .f32⟩ : BufTy).Contents (Elt F) :=
  (subf : (⟨S16x64, .f32⟩ : BufTy).Contents (Elt F) → (⟨S16x64, .f32⟩ : BufTy).Contents (Elt F) → (⟨S16x64, .f32⟩ : BufTy).Contents (Elt F)) (kt_main_v283 (F := F) o x0 x1) (kt_main_v285 (F := F) o x0 x1)

-- %287 = stablehlo.slice %231 [0:16, 0:64, 3:4] : (tensor<16x64x4xf32>) -> tensor<16x64x1xf32>
def kt_main_v287 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64x1, .f32⟩ : BufTy).Contents (Elt F) :=
  ((extractStridedSlice S16x64x1 ![0, 0, 3] · slices_S16x64x4_S16x64x1_0_0_3) : (⟨S16x64x4, .f32⟩ : BufTy).Contents (Elt F) → (⟨S16x64x1, .f32⟩ : BufTy).Contents (Elt F)) (kt_main_v231 (F := F) o x0 x1)

-- %288 = stablehlo.reshape %287 : (tensor<16x64x1xf32>) -> tensor<16x64xf32>
def kt_main_v288 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .f32⟩ : BufTy).Contents (Elt F) :=
  shapeCast _ (kt_main_v287 (F := F) o x0 x1) shapeCasts_S16x64x1_S16x64

-- %289 = stablehlo.slice %231 [0:16, 0:64, 1:2] : (tensor<16x64x4xf32>) -> tensor<16x64x1xf32>
def kt_main_v289 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64x1, .f32⟩ : BufTy).Contents (Elt F) :=
  ((extractStridedSlice S16x64x1 ![0, 0, 1] · slices_S16x64x4_S16x64x1_0_0_1) : (⟨S16x64x4, .f32⟩ : BufTy).Contents (Elt F) → (⟨S16x64x1, .f32⟩ : BufTy).Contents (Elt F)) (kt_main_v231 (F := F) o x0 x1)

-- %290 = stablehlo.reshape %289 : (tensor<16x64x1xf32>) -> tensor<16x64xf32>
def kt_main_v290 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .f32⟩ : BufTy).Contents (Elt F) :=
  shapeCast _ (kt_main_v289 (F := F) o x0 x1) shapeCasts_S16x64x1_S16x64

-- %291 = stablehlo.subtract %288, %290 : tensor<16x64xf32>
def kt_main_v291 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .f32⟩ : BufTy).Contents (Elt F) :=
  (subf : (⟨S16x64, .f32⟩ : BufTy).Contents (Elt F) → (⟨S16x64, .f32⟩ : BufTy).Contents (Elt F) → (⟨S16x64, .f32⟩ : BufTy).Contents (Elt F)) (kt_main_v288 (F := F) o x0 x1) (kt_main_v290 (F := F) o x0 x1)

-- %292 = stablehlo.multiply %286, %291 : tensor<16x64xf32>
def kt_main_v292 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .f32⟩ : BufTy).Contents (Elt F) :=
  (mulf : (⟨S16x64, .f32⟩ : BufTy).Contents (Elt F) → (⟨S16x64, .f32⟩ : BufTy).Contents (Elt F) → (⟨S16x64, .f32⟩ : BufTy).Contents (Elt F)) (kt_main_v286 (F := F) o x0 x1) (kt_main_v291 (F := F) o x0 x1)

-- %293 = stablehlo.slice %256 [0:16, 0:64, 2:3] : (tensor<16x64x4xf32>) -> tensor<16x64x1xf32>
def kt_main_v293 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64x1, .f32⟩ : BufTy).Contents (Elt F) :=
  ((extractStridedSlice S16x64x1 ![0, 0, 2] · slices_S16x64x4_S16x64x1_0_0_2) : (⟨S16x64x4, .f32⟩ : BufTy).Contents (Elt F) → (⟨S16x64x1, .f32⟩ : BufTy).Contents (Elt F)) (kt_main_v256 (F := F) o x0 x1)

-- %294 = stablehlo.reshape %293 : (tensor<16x64x1xf32>) -> tensor<16x64xf32>
def kt_main_v294 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .f32⟩ : BufTy).Contents (Elt F) :=
  shapeCast _ (kt_main_v293 (F := F) o x0 x1) shapeCasts_S16x64x1_S16x64

-- %295 = stablehlo.slice %256 [0:16, 0:64, 0:1] : (tensor<16x64x4xf32>) -> tensor<16x64x1xf32>
def kt_main_v295 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64x1, .f32⟩ : BufTy).Contents (Elt F) :=
  ((extractStridedSlice S16x64x1 ![0, 0, 0] · slices_S16x64x4_S16x64x1_0_0_0) : (⟨S16x64x4, .f32⟩ : BufTy).Contents (Elt F) → (⟨S16x64x1, .f32⟩ : BufTy).Contents (Elt F)) (kt_main_v256 (F := F) o x0 x1)

-- %296 = stablehlo.reshape %295 : (tensor<16x64x1xf32>) -> tensor<16x64xf32>
def kt_main_v296 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .f32⟩ : BufTy).Contents (Elt F) :=
  shapeCast _ (kt_main_v295 (F := F) o x0 x1) shapeCasts_S16x64x1_S16x64

-- %297 = stablehlo.subtract %294, %296 : tensor<16x64xf32>
def kt_main_v297 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .f32⟩ : BufTy).Contents (Elt F) :=
  (subf : (⟨S16x64, .f32⟩ : BufTy).Contents (Elt F) → (⟨S16x64, .f32⟩ : BufTy).Contents (Elt F) → (⟨S16x64, .f32⟩ : BufTy).Contents (Elt F)) (kt_main_v294 (F := F) o x0 x1) (kt_main_v296 (F := F) o x0 x1)

-- %298 = stablehlo.slice %256 [0:16, 0:64, 3:4] : (tensor<16x64x4xf32>) -> tensor<16x64x1xf32>
def kt_main_v298 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64x1, .f32⟩ : BufTy).Contents (Elt F) :=
  ((extractStridedSlice S16x64x1 ![0, 0, 3] · slices_S16x64x4_S16x64x1_0_0_3) : (⟨S16x64x4, .f32⟩ : BufTy).Contents (Elt F) → (⟨S16x64x1, .f32⟩ : BufTy).Contents (Elt F)) (kt_main_v256 (F := F) o x0 x1)

-- %299 = stablehlo.reshape %298 : (tensor<16x64x1xf32>) -> tensor<16x64xf32>
def kt_main_v299 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .f32⟩ : BufTy).Contents (Elt F) :=
  shapeCast _ (kt_main_v298 (F := F) o x0 x1) shapeCasts_S16x64x1_S16x64

-- %300 = stablehlo.slice %256 [0:16, 0:64, 1:2] : (tensor<16x64x4xf32>) -> tensor<16x64x1xf32>
def kt_main_v300 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64x1, .f32⟩ : BufTy).Contents (Elt F) :=
  ((extractStridedSlice S16x64x1 ![0, 0, 1] · slices_S16x64x4_S16x64x1_0_0_1) : (⟨S16x64x4, .f32⟩ : BufTy).Contents (Elt F) → (⟨S16x64x1, .f32⟩ : BufTy).Contents (Elt F)) (kt_main_v256 (F := F) o x0 x1)

-- %301 = stablehlo.reshape %300 : (tensor<16x64x1xf32>) -> tensor<16x64xf32>
def kt_main_v301 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .f32⟩ : BufTy).Contents (Elt F) :=
  shapeCast _ (kt_main_v300 (F := F) o x0 x1) shapeCasts_S16x64x1_S16x64

-- %302 = stablehlo.subtract %299, %301 : tensor<16x64xf32>
def kt_main_v302 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .f32⟩ : BufTy).Contents (Elt F) :=
  (subf : (⟨S16x64, .f32⟩ : BufTy).Contents (Elt F) → (⟨S16x64, .f32⟩ : BufTy).Contents (Elt F) → (⟨S16x64, .f32⟩ : BufTy).Contents (Elt F)) (kt_main_v299 (F := F) o x0 x1) (kt_main_v301 (F := F) o x0 x1)

-- %303 = stablehlo.multiply %297, %302 : tensor<16x64xf32>
def kt_main_v303 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .f32⟩ : BufTy).Contents (Elt F) :=
  (mulf : (⟨S16x64, .f32⟩ : BufTy).Contents (Elt F) → (⟨S16x64, .f32⟩ : BufTy).Contents (Elt F) → (⟨S16x64, .f32⟩ : BufTy).Contents (Elt F)) (kt_main_v297 (F := F) o x0 x1) (kt_main_v302 (F := F) o x0 x1)

-- %304 = stablehlo.add %292, %303 : tensor<16x64xf32>
def kt_main_v304 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .f32⟩ : BufTy).Contents (Elt F) :=
  (addf : (⟨S16x64, .f32⟩ : BufTy).Contents (Elt F) → (⟨S16x64, .f32⟩ : BufTy).Contents (Elt F) → (⟨S16x64, .f32⟩ : BufTy).Contents (Elt F)) (kt_main_v292 (F := F) o x0 x1) (kt_main_v303 (F := F) o x0 x1)

-- %305 = stablehlo.subtract %304, %281 : tensor<16x64xf32>
def kt_main_v305 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .f32⟩ : BufTy).Contents (Elt F) :=
  (subf : (⟨S16x64, .f32⟩ : BufTy).Contents (Elt F) → (⟨S16x64, .f32⟩ : BufTy).Contents (Elt F) → (⟨S16x64, .f32⟩ : BufTy).Contents (Elt F)) (kt_main_v304 (F := F) o x0 x1) (kt_main_v281 (F := F) o x0 x1)

-- %cst_71 = stablehlo.constant dense<1.000000e-07> : tensor<f32>
def kt_main_cst_71 (o : (⟨S1x2, .f32⟩ : BufTy).Contents (Elt F)) (x0 : (⟨S16x85x128x128, .f32⟩ : BufTy).Contents (Elt F)) (x1 : (⟨S16x64x5, .f32⟩ : BufTy).Contents (Elt F)) : (⟨S_, .f32⟩ : BufTy).Contents (Elt F) :=
  constant S_ .f32 0x33D6BF95#32

-- %306 = stablehlo.broadcast_in_dim %cst_71, dims = [] : (tensor<f32>) -> tensor<16x64xf32>
def kt_main_v306 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .f32⟩ : BufTy).Contents (Elt F) :=
  (broadcastInDim S16x64 ![] bcast_S_S16x64 : (⟨S_, .f32⟩ : BufTy).Contents (Elt F) → (⟨S16x64, .f32⟩ : BufTy).Contents (Elt F)) (kt_main_cst_71 (F := F) o x0 x1)

-- %307 = stablehlo.add %305, %306 : tensor<16x64xf32>
def kt_main_v307 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .f32⟩ : BufTy).Contents (Elt F) :=
  (addf : (⟨S16x64, .f32⟩ : BufTy).Contents (Elt F) → (⟨S16x64, .f32⟩ : BufTy).Contents (Elt F) → (⟨S16x64, .f32⟩ : BufTy).Contents (Elt F)) (kt_main_v305 (F := F) o x0 x1) (kt_main_v306 (F := F) o x0 x1)

-- %308 = stablehlo.divide %281, %307 : tensor<16x64xf32>
def kt_main_v308 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .f32⟩ : BufTy).Contents (Elt F) :=
  (Host.divf : (⟨S16x64, .f32⟩ : BufTy).Contents (Elt F) → (⟨S16x64, .f32⟩ : BufTy).Contents (Elt F) → (⟨S16x64, .f32⟩ : BufTy).Contents (Elt F)) (kt_main_v281 (F := F) o x0 x1) (kt_main_v307 (F := F) o x0 x1)

-- %cst_72 = stablehlo.constant dense<1.000000e+00> : tensor<f32>
def kt_main_cst_72 (o : (⟨S1x2, .f32⟩ : BufTy).Contents (Elt F)) (x0 : (⟨S16x85x128x128, .f32⟩ : BufTy).Contents (Elt F)) (x1 : (⟨S16x64x5, .f32⟩ : BufTy).Contents (Elt F)) : (⟨S_, .f32⟩ : BufTy).Contents (Elt F) :=
  constant S_ .f32 0x3F800000#32

-- %309 = stablehlo.broadcast_in_dim %cst_72, dims = [] : (tensor<f32>) -> tensor<16x64xf32>
def kt_main_v309 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .f32⟩ : BufTy).Contents (Elt F) :=
  (broadcastInDim S16x64 ![] bcast_S_S16x64 : (⟨S_, .f32⟩ : BufTy).Contents (Elt F) → (⟨S16x64, .f32⟩ : BufTy).Contents (Elt F)) (kt_main_cst_72 (F := F) o x0 x1)

-- %310 = stablehlo.subtract %309, %308 : tensor<16x64xf32>
def kt_main_v310 (o : (⟨S1x2, .f32⟩ : BufTy).Contents (Elt F)) (x0 : (⟨S16x85x128x128, .f32⟩ : BufTy).Contents (Elt F)) (x1 : (⟨S16x64x5, .f32⟩ : BufTy).Contents (Elt F)) : (⟨S16x64, .f32⟩ : BufTy).Contents (Elt F) :=
  (subf : (⟨S16x64, .f32⟩ : BufTy).Contents (Elt F) → (⟨S16x64, .f32⟩ : BufTy).Contents (Elt F) → (⟨S16x64, .f32⟩ : BufTy).Contents (Elt F)) (kt_main_v309 (F := F) o x0 x1) (kt_main_v308 (F := F) o x0 x1)

-- %cst_73 = stablehlo.constant dense<0.000000e+00> : tensor<f32>
def kt_main_cst_73 (o : (⟨S1x2, .f32⟩ : BufTy).Contents (Elt F)) (x0 : (⟨S16x85x128x128, .f32⟩ : BufTy).Contents (Elt F)) (x1 : (⟨S16x64x5, .f32⟩ : BufTy).Contents (Elt F)) : (⟨S_, .f32⟩ : BufTy).Contents (Elt F) :=
  constant S_ .f32 0x00000000#32

-- %311 = stablehlo.reduce(%310 init: %cst_73) applies stablehlo.add across dimensions = [0, 1] : (tensor<16x64xf32>, tensor<f32>) -> tensor<f32> {
def kt_main_v311 (o : (⟨S1x2, .f32⟩ : BufTy).Contents (Elt F)) (x0 : (⟨S16x85x128x128, .f32⟩ : BufTy).Contents (Elt F)) (x1 : (⟨S16x64x5, .f32⟩ : BufTy).Contents (Elt F)) : (⟨S_, .f32⟩ : BufTy).Contents (Elt F) :=
  ((fun x v => Host.reduceAdd x v reducesTo_S16x64_S_d0_1 h_S_) : (⟨S16x64, .f32⟩ : BufTy).Contents (Elt F) → (⟨S_, .f32⟩ : BufTy).Contents (Elt F) → (⟨S_, .f32⟩ : BufTy).Contents (Elt F)) (kt_main_v310 (F := F) o x0 x1) (kt_main_cst_73 (F := F) o x0 x1)

-- %cst_74 = stablehlo.constant dense<5.000000e-02> : tensor<f32>
def kt_main_cst_74 (o : (⟨S1x2, .f32⟩ : BufTy).Contents (Elt F)) (x0 : (⟨S16x85x128x128, .f32⟩ : BufTy).Contents (Elt F)) (x1 : (⟨S16x64x5, .f32⟩ : BufTy).Contents (Elt F)) : (⟨S_, .f32⟩ : BufTy).Contents (Elt F) :=
  constant S_ .f32 0x3D4CCCCD#32

-- %312 = stablehlo.multiply %cst_74, %311 : tensor<f32>
def kt_main_v312 (o : (⟨S1x2, .f32⟩ : BufTy).Contents (Elt F)) (x0 : (⟨S16x85x128x128, .f32⟩ : BufTy).Contents (Elt F)) (x1 : (⟨S16x64x5, .f32⟩ : BufTy).Contents (Elt F)) : (⟨S_, .f32⟩ : BufTy).Contents (Elt F) :=
  (mulf : (⟨S_, .f32⟩ : BufTy).Contents (Elt F) → (⟨S_, .f32⟩ : BufTy).Contents (Elt F) → (⟨S_, .f32⟩ : BufTy).Contents (Elt F)) (kt_main_cst_74 (F := F) o x0 x1) (kt_main_v311 (F := F) o x0 x1)

-- %cst_75 = stablehlo.constant dense<1.000000e+00> : tensor<f32>
def kt_main_cst_75 (o : (⟨S1x2, .f32⟩ : BufTy).Contents (Elt F)) (x0 : (⟨S16x85x128x128, .f32⟩ : BufTy).Contents (Elt F)) (x1 : (⟨S16x64x5, .f32⟩ : BufTy).Contents (Elt F)) : (⟨S_, .f32⟩ : BufTy).Contents (Elt F) :=
  constant S_ .f32 0x3F800000#32

-- %313 = stablehlo.multiply %cst_75, %212 : tensor<f32>
def kt_main_v313 (o : (⟨S1x2, .f32⟩ : BufTy).Contents (Elt F)) (x0 : (⟨S16x85x128x128, .f32⟩ : BufTy).Contents (Elt F)) (x1 : (⟨S16x64x5, .f32⟩ : BufTy).Contents (Elt F)) : (⟨S_, .f32⟩ : BufTy).Contents (Elt F) :=
  (mulf : (⟨S_, .f32⟩ : BufTy).Contents (Elt F) → (⟨S_, .f32⟩ : BufTy).Contents (Elt F) → (⟨S_, .f32⟩ : BufTy).Contents (Elt F)) (kt_main_cst_75 (F := F) o x0 x1) (kt_main_v212 (F := F) o x0 x1)

-- %314 = stablehlo.add %312, %313 : tensor<f32>
def kt_main_v314 (o : (⟨S1x2, .f32⟩ : BufTy).Contents (Elt F)) (x0 : (⟨S16x85x128x128, .f32⟩ : BufTy).Contents (Elt F)) (x1 : (⟨S16x64x5, .f32⟩ : BufTy).Contents (Elt F)) : (⟨S_, .f32⟩ : BufTy).Contents (Elt F) :=
  (addf : (⟨S_, .f32⟩ : BufTy).Contents (Elt F) → (⟨S_, .f32⟩ : BufTy).Contents (Elt F) → (⟨S_, .f32⟩ : BufTy).Contents (Elt F)) (kt_main_v312 (F := F) o x0 x1) (kt_main_v313 (F := F) o x0 x1)

-- %cst_76 = stablehlo.constant dense<5.000000e-01> : tensor<f32>
def kt_main_cst_76 (o : (⟨S1x2, .f32⟩ : BufTy).Contents (Elt F)) (x0 : (⟨S16x85x128x128, .f32⟩ : BufTy).Contents (Elt F)) (x1 : (⟨S16x64x5, .f32⟩ : BufTy).Contents (Elt F)) : (⟨S_, .f32⟩ : BufTy).Contents (Elt F) :=
  constant S_ .f32 0x3F000000#32

-- %315 = stablehlo.multiply %cst_76, %214 : tensor<f32>
def kt_main_v315 (o : (⟨S1x2, .f32⟩ : BufTy).Contents (Elt F)) (x0 : (⟨S16x85x128x128, .f32⟩ : BufTy).Contents (Elt F)) (x1 : (⟨S16x64x5, .f32⟩ : BufTy).Contents (Elt F)) : (⟨S_, .f32⟩ : BufTy).Contents (Elt F) :=
  (mulf : (⟨S_, .f32⟩ : BufTy).Contents (Elt F) → (⟨S_, .f32⟩ : BufTy).Contents (Elt F) → (⟨S_, .f32⟩ : BufTy).Contents (Elt F)) (kt_main_cst_76 (F := F) o x0 x1) (kt_main_v214 (F := F) o x0 x1)

-- %316 = stablehlo.add %314, %315 : tensor<f32>
def kt_main_v316 (o : (⟨S1x2, .f32⟩ : BufTy).Contents (Elt F)) (x0 : (⟨S16x85x128x128, .f32⟩ : BufTy).Contents (Elt F)) (x1 : (⟨S16x64x5, .f32⟩ : BufTy).Contents (Elt F)) : (⟨S_, .f32⟩ : BufTy).Contents (Elt F) :=
  (addf : (⟨S_, .f32⟩ : BufTy).Contents (Elt F) → (⟨S_, .f32⟩ : BufTy).Contents (Elt F) → (⟨S_, .f32⟩ : BufTy).Contents (Elt F)) (kt_main_v314 (F := F) o x0 x1) (kt_main_v315 (F := F) o x0 x1)

end Cert.KernelIdeal.Tail

end
-- ==== Proof.KTailOps.lean ====
/- The kernel program's 403 host operations after its region, in program order, in 43 consecutive chunks of at most 10 (a cut also
   before every concatenate); the operations are the printed program's, spelt as the generated module spells them. -/
import proofs.«175006_j89550068121905_1_alg».proof.Proof.Gen.KernelIdeal.Launch
import Idealize.ShloMosaic.Lib.StableHlo.Run

set_option maxRecDepth 16384

noncomputable section

namespace Cert.KernelIdeal.Tail

open Cert.KernelIdeal Cert.KernelIdeal.Gen Idealize.ShloMosaic Idealize.ShloMosaic.TcCoe Idealize.SL.Sem Idealize.ShloMosaic.StableHlo

variable {F : FTy → Type} [FloatOps F]

/-- Operations 1 … 10. -/
abbrev kops0 : List (HloOp τ sig (Elt F)) :=
  [ StableHlo.unary main_v0 main_v1 ((extractStridedSlice S1x1 ![0, 0] · slices_S1x2_S1x1_0_0) : (⟨S1x2, .f32⟩ : BufTy).Contents (Elt F) → (⟨S1x1, .f32⟩ : BufTy).Contents (Elt F)),
    StableHlo.reshape main_v1 main_v2 rfl shapeCasts_S1x1_S_,
    StableHlo.unary main_v0 main_v3 ((extractStridedSlice S1x1 ![0, 1] · slices_S1x2_S1x1_0_1) : (⟨S1x2, .f32⟩ : BufTy).Contents (Elt F) → (⟨S1x1, .f32⟩ : BufTy).Contents (Elt F)),
    StableHlo.reshape main_v3 main_v4 rfl shapeCasts_S1x1_S_,
    StableHlo.unary main_arg1 main_v5 ((extractStridedSlice S16x64x1 ![0, 0, 0] · slices_S16x64x5_S16x64x1_0_0_0) : (⟨S16x64x5, .f32⟩ : BufTy).Contents (Elt F) → (⟨S16x64x1, .f32⟩ : BufTy).Contents (Elt F)),
    StableHlo.reshape main_v5 main_v6 rfl shapeCasts_S16x64x1_S16x64,
    StableHlo.unary main_v6 main_v7 (fptosi 32 : (⟨S16x64, .f32⟩ : BufTy).Contents (Elt F) → (⟨S16x64, .i32⟩ : BufTy).Contents (Elt F)),
    StableHlo.unary main_arg1 main_v8 ((extractStridedSlice S16x64x1 ![0, 0, 1] · slices_S16x64x5_S16x64x1_0_0_1) : (⟨S16x64x5, .f32⟩ : BufTy).Contents (Elt F) → (⟨S16x64x1, .f32⟩ : BufTy).Contents (Elt F)),
    StableHlo.reshape main_v8 main_v9 rfl shapeCasts_S16x64x1_S16x64,
    StableHlo.unary main_arg1 main_v10 ((extractStridedSlice S16x64x1 ![0, 0, 2] · slices_S16x64x5_S16x64x1_0_0_2) : (⟨S16x64x5, .f32⟩ : BufTy).Contents (Elt F) → (⟨S16x64x1, .f32⟩ : BufTy).Contents (Elt F)) ]

/-- Operations 11 … 20. -/
abbrev kops1 : List (HloOp τ sig (Elt F)) :=
  [ StableHlo.reshape main_v10 main_v11 rfl shapeCasts_S16x64x1_S16x64,
    StableHlo.unary main_arg1 main_v12 ((extractStridedSlice S16x64x1 ![0, 0, 3] · slices_S16x64x5_S16x64x1_0_0_3) : (⟨S16x64x5, .f32⟩ : BufTy).Contents (Elt F) → (⟨S16x64x1, .f32⟩ : BufTy).Contents (Elt F)),
    StableHlo.reshape main_v12 main_v13 rfl shapeCasts_S16x64x1_S16x64,
    StableHlo.unary main_arg1 main_v14 ((extractStridedSlice S16x64x1 ![0, 0, 4] · slices_S16x64x5_S16x64x1_0_0_4) : (⟨S16x64x5, .f32⟩ : BufTy).Contents (Elt F) → (⟨S16x64x1, .f32⟩ : BufTy).Contents (Elt F)),
    StableHlo.reshape main_v14 main_v15 rfl shapeCasts_S16x64x1_S16x64,
    StableHlo.nullary main_cst (constant S_ .f32 0x43000000#32),
    StableHlo.unary main_cst main_v16 (broadcastInDim S16x64 ![] bcast_S_S16x64 : (⟨S_, .f32⟩ : BufTy).Contents (Elt F) → (⟨S16x64, .f32⟩ : BufTy).Contents (Elt F)),
    StableHlo.binary main_v9 main_v16 main_v17 (mulf : (⟨S16x64, .f32⟩ : BufTy).Contents (Elt F) → (⟨S16x64, .f32⟩ : BufTy).Contents (Elt F) → (⟨S16x64, .f32⟩ : BufTy).Contents (Elt F)),
    StableHlo.unary main_v17 main_v18 (fptosi 32 : (⟨S16x64, .f32⟩ : BufTy).Contents (Elt F) → (⟨S16x64, .i32⟩ : BufTy).Contents (Elt F)),
    StableHlo.nullary main_cst_0 (constant S_ .f32 0x43000000#32) ]

/-- Operations 21 … 30. -/
abbrev kops2 : List (HloOp τ sig (Elt F)) :=
  [ StableHlo.unary main_cst_0 main_v19 (broadcastInDim S16x64 ![] bcast_S_S16x64 : (⟨S_, .f32⟩ : BufTy).Contents (Elt F) → (⟨S16x64, .f32⟩ : BufTy).Contents (Elt F)),
    StableHlo.binary main_v11 main_v19 main_v20 (mulf : (⟨S16x64, .f32⟩ : BufTy).Contents (Elt F) → (⟨S16x64, .f32⟩ : BufTy).Contents (Elt F) → (⟨S16x64, .f32⟩ : BufTy).Contents (Elt F)),
    StableHlo.unary main_v20 main_v21 (fptosi 32 : (⟨S16x64, .f32⟩ : BufTy).Contents (Elt F) → (⟨S16x64, .i32⟩ : BufTy).Contents (Elt F)),
    StableHlo.nullary main_c (constantI S_ 32 128#32),
    StableHlo.unary main_c main_v22 (broadcastInDim S16x64 ![] bcast_S_S16x64 : (⟨S_, .i32⟩ : BufTy).Contents (Elt F) → (⟨S16x64, .i32⟩ : BufTy).Contents (Elt F)),
    StableHlo.binary main_v21 main_v22 main_v23 (muli : (⟨S16x64, .i32⟩ : BufTy).Contents (Elt F) → (⟨S16x64, .i32⟩ : BufTy).Contents (Elt F) → (⟨S16x64, .i32⟩ : BufTy).Contents (Elt F)),
    StableHlo.binary main_v23 main_v18 main_v24 (addi : (⟨S16x64, .i32⟩ : BufTy).Contents (Elt F) → (⟨S16x64, .i32⟩ : BufTy).Contents (Elt F) → (⟨S16x64, .i32⟩ : BufTy).Contents (Elt F)),
    StableHlo.nullary main_v25 (iotaInDim S16 32 0),
    StableHlo.unary main_v25 main_v26 (broadcastInDim S16x1 ![0] bcast_S16_S16x1_0 : (⟨S16, .i32⟩ : BufTy).Contents (Elt F) → (⟨S16x1, .i32⟩ : BufTy).Contents (Elt F)),
    StableHlo.unary main_v26 main_v27 (broadcastInDim S16x64 ![0, 1] bcast_S16x1_S16x64_0_1 : (⟨S16x1, .i32⟩ : BufTy).Contents (Elt F) → (⟨S16x64, .i32⟩ : BufTy).Contents (Elt F)) ]

/-- Operations 31 … 40. -/
abbrev kops3 : List (HloOp τ sig (Elt F)) :=
  [ StableHlo.nullary main_c_1 (constantI S_ 32 0#32),
    StableHlo.unary main_c_1 main_v28 (broadcastInDim S16x64 ![] bcast_S_S16x64 : (⟨S_, .i32⟩ : BufTy).Contents (Elt F) → (⟨S16x64, .i32⟩ : BufTy).Contents (Elt F)),
    StableHlo.binary main_v27 main_v28 main_v29 (cmpi .slt : (⟨S16x64, .i32⟩ : BufTy).Contents (Elt F) → (⟨S16x64, .i32⟩ : BufTy).Contents (Elt F) → (⟨S16x64, .i1⟩ : BufTy).Contents (Elt F)),
    StableHlo.nullary main_c_2 (constantI S_ 32 16#32),
    StableHlo.unary main_c_2 main_v30 (broadcastInDim S16x64 ![] bcast_S_S16x64 : (⟨S_, .i32⟩ : BufTy).Contents (Elt F) → (⟨S16x64, .i32⟩ : BufTy).Contents (Elt F)),
    StableHlo.binary main_v27 main_v30 main_v31 (addi : (⟨S16x64, .i32⟩ : BufTy).Contents (Elt F) → (⟨S16x64, .i32⟩ : BufTy).Contents (Elt F) → (⟨S16x64, .i32⟩ : BufTy).Contents (Elt F)),
    StableHlo.ternary main_v29 main_v31 main_v27 main_v32 (select : (⟨S16x64, .i1⟩ : BufTy).Contents (Elt F) → (⟨S16x64, .i32⟩ : BufTy).Contents (Elt F) → (⟨S16x64, .i32⟩ : BufTy).Contents (Elt F) → (⟨S16x64, .i32⟩ : BufTy).Contents (Elt F)),
    StableHlo.nullary main_c_3 (constantI S_ 32 0#32),
    StableHlo.unary main_c_3 main_v33 (broadcastInDim S16x64 ![] bcast_S_S16x64 : (⟨S_, .i32⟩ : BufTy).Contents (Elt F) → (⟨S16x64, .i32⟩ : BufTy).Contents (Elt F)),
    StableHlo.binary main_v21 main_v33 main_v34 (cmpi .slt : (⟨S16x64, .i32⟩ : BufTy).Contents (Elt F) → (⟨S16x64, .i32⟩ : BufTy).Contents (Elt F) → (⟨S16x64, .i1⟩ : BufTy).Contents (Elt F)) ]

/-- Operations 41 … 50. -/
abbrev kops4 : List (HloOp τ sig (Elt F)) :=
  [ StableHlo.nullary main_c_4 (constantI S_ 32 128#32),
    StableHlo.unary main_c_4 main_v35 (broadcastInDim S16x64 ![] bcast_S_S16x64 : (⟨S_, .i32⟩ : BufTy).Contents (Elt F) → (⟨S16x64, .i32⟩ : BufTy).Contents (Elt F)),
    StableHlo.binary main_v21 main_v35 main_v36 (addi : (⟨S16x64, .i32⟩ : BufTy).Contents (Elt F) → (⟨S16x64, .i32⟩ : BufTy).Contents (Elt F) → (⟨S16x64, .i32⟩ : BufTy).Contents (Elt F)),
    StableHlo.ternary main_v34 main_v36 main_v21 main_v37 (select : (⟨S16x64, .i1⟩ : BufTy).Contents (Elt F) → (⟨S16x64, .i32⟩ : BufTy).Contents (Elt F) → (⟨S16x64, .i32⟩ : BufTy).Contents (Elt F) → (⟨S16x64, .i32⟩ : BufTy).Contents (Elt F)),
    StableHlo.nullary main_c_5 (constantI S_ 32 0#32),
    StableHlo.unary main_c_5 main_v38 (broadcastInDim S16x64 ![] bcast_S_S16x64 : (⟨S_, .i32⟩ : BufTy).Contents (Elt F) → (⟨S16x64, .i32⟩ : BufTy).Contents (Elt F)),
    StableHlo.binary main_v18 main_v38 main_v39 (cmpi .slt : (⟨S16x64, .i32⟩ : BufTy).Contents (Elt F) → (⟨S16x64, .i32⟩ : BufTy).Contents (Elt F) → (⟨S16x64, .i1⟩ : BufTy).Contents (Elt F)),
    StableHlo.nullary main_c_6 (constantI S_ 32 128#32),
    StableHlo.unary main_c_6 main_v40 (broadcastInDim S16x64 ![] bcast_S_S16x64 : (⟨S_, .i32⟩ : BufTy).Contents (Elt F) → (⟨S16x64, .i32⟩ : BufTy).Contents (Elt F)),
    StableHlo.binary main_v18 main_v40 main_v41 (addi : (⟨S16x64, .i32⟩ : BufTy).Contents (Elt F) → (⟨S16x64, .i32⟩ : BufTy).Contents (Elt F) → (⟨S16x64, .i32⟩ : BufTy).Contents (Elt F)) ]

/-- Operations 51 … 58. -/
abbrev kops5 : List (HloOp τ sig (Elt F)) :=
  [ StableHlo.ternary main_v39 main_v41 main_v18 main_v42 (select : (⟨S16x64, .i1⟩ : BufTy).Contents (Elt F) → (⟨S16x64, .i32⟩ : BufTy).Contents (Elt F) → (⟨S16x64, .i32⟩ : BufTy).Contents (Elt F) → (⟨S16x64, .i32⟩ : BufTy).Contents (Elt F)),
    StableHlo.nullary main_c_7 (constantI S_ 32 4#32),
    StableHlo.unary main_c_7 main_v43 (broadcastInDim S16x64 ![] bcast_S_S16x64 : (⟨S_, .i32⟩ : BufTy).Contents (Elt F) → (⟨S16x64, .i32⟩ : BufTy).Contents (Elt F)),
    StableHlo.unary main_v43 main_v44 (id : (⟨S16x64, .i32⟩ : BufTy).Contents (Elt F) → (⟨S16x64, .i32⟩ : BufTy).Contents (Elt F)),
    StableHlo.unary main_v32 main_v45 (broadcastInDim S16x64x1 ![0, 1] bcast_S16x64_S16x64x1_0_1 : (⟨S16x64, .i32⟩ : BufTy).Contents (Elt F) → (⟨S16x64x1, .i32⟩ : BufTy).Contents (Elt F)),
    StableHlo.unary main_v44 main_v46 (broadcastInDim S16x64x1 ![0, 1] bcast_S16x64_S16x64x1_0_1 : (⟨S16x64, .i32⟩ : BufTy).Contents (Elt F) → (⟨S16x64x1, .i32⟩ : BufTy).Contents (Elt F)),
    StableHlo.unary main_v37 main_v47 (broadcastInDim S16x64x1 ![0, 1] bcast_S16x64_S16x64x1_0_1 : (⟨S16x64, .i32⟩ : BufTy).Contents (Elt F) → (⟨S16x64x1, .i32⟩ : BufTy).Contents (Elt F)),
    StableHlo.unary main_v42 main_v48 (broadcastInDim S16x64x1 ![0, 1] bcast_S16x64_S16x64x1_0_1 : (⟨S16x64, .i32⟩ : BufTy).Contents (Elt F) → (⟨S16x64x1, .i32⟩ : BufTy).Contents (Elt F)) ]

/-- Operations 59 … 68. -/
abbrev kops6 : List (HloOp τ sig (Elt F)) :=
  [ StableHlo.nary ![main_v45, main_v46, main_v47, main_v48] main_v49 (fun u => concatenate S16x64x4 2 [⟨S16x64x1, u 0⟩, ⟨S16x64x1, u 1⟩, ⟨S16x64x1, u 2⟩, ⟨S16x64x1, u 3⟩] concatenates_S16x64x1_S16x64x1_S16x64x1_S16x64x1_S16x64x4_d2),
    StableHlo.binary main_arg0 main_v49 main_v50 ((fun x i => Host.gather gather_S16x85x128x128_S16x64x4_S16x64_n_0123_n_n_0123_2_1111 x i) : (⟨S16x85x128x128, .f32⟩ : BufTy).Contents (Elt F) → (⟨S16x64x4, .i32⟩ : BufTy).Contents (Elt F) → (⟨S16x64, .f32⟩ : BufTy).Contents (Elt F)),
    StableHlo.nullary main_c_8 (constantI S_ 32 5#32),
    StableHlo.unary main_c_8 main_v51 (broadcastInDim S16x64 ![] bcast_S_S16x64 : (⟨S_, .i32⟩ : BufTy).Contents (Elt F) → (⟨S16x64, .i32⟩ : BufTy).Contents (Elt F)),
    StableHlo.binary main_v51 main_v7 main_v52 (addi : (⟨S16x64, .i32⟩ : BufTy).Contents (Elt F) → (⟨S16x64, .i32⟩ : BufTy).Contents (Elt F) → (⟨S16x64, .i32⟩ : BufTy).Contents (Elt F)),
    StableHlo.nullary main_c_9 (constantI S_ 32 0#32),
    StableHlo.unary main_c_9 main_v53 (broadcastInDim S16x64 ![] bcast_S_S16x64 : (⟨S_, .i32⟩ : BufTy).Contents (Elt F) → (⟨S16x64, .i32⟩ : BufTy).Contents (Elt F)),
    StableHlo.binary main_v27 main_v53 main_v54 (cmpi .slt : (⟨S16x64, .i32⟩ : BufTy).Contents (Elt F) → (⟨S16x64, .i32⟩ : BufTy).Contents (Elt F) → (⟨S16x64, .i1⟩ : BufTy).Contents (Elt F)),
    StableHlo.nullary main_c_10 (constantI S_ 32 16#32),
    StableHlo.unary main_c_10 main_v55 (broadcastInDim S16x64 ![] bcast_S_S16x64 : (⟨S_, .i32⟩ : BufTy).Contents (Elt F) → (⟨S16x64, .i32⟩ : BufTy).Contents (Elt F)) ]

/-- Operations 69 … 78. -/
abbrev kops7 : List (HloOp τ sig (Elt F)) :=
  [ StableHlo.binary main_v27 main_v55 main_v56 (addi : (⟨S16x64, .i32⟩ : BufTy).Contents (Elt F) → (⟨S16x64, .i32⟩ : BufTy).Contents (Elt F) → (⟨S16x64, .i32⟩ : BufTy).Contents (Elt F)),
    StableHlo.ternary main_v54 main_v56 main_v27 main_v57 (select : (⟨S16x64, .i1⟩ : BufTy).Contents (Elt F) → (⟨S16x64, .i32⟩ : BufTy).Contents (Elt F) → (⟨S16x64, .i32⟩ : BufTy).Contents (Elt F) → (⟨S16x64, .i32⟩ : BufTy).Contents (Elt F)),
    StableHlo.nullary main_c_11 (constantI S_ 32 0#32),
    StableHlo.unary main_c_11 main_v58 (broadcastInDim S16x64 ![] bcast_S_S16x64 : (⟨S_, .i32⟩ : BufTy).Contents (Elt F) → (⟨S16x64, .i32⟩ : BufTy).Contents (Elt F)),
    StableHlo.binary main_v52 main_v58 main_v59 (cmpi .slt : (⟨S16x64, .i32⟩ : BufTy).Contents (Elt F) → (⟨S16x64, .i32⟩ : BufTy).Contents (Elt F) → (⟨S16x64, .i1⟩ : BufTy).Contents (Elt F)),
    StableHlo.nullary main_c_12 (constantI S_ 32 85#32),
    StableHlo.unary main_c_12 main_v60 (broadcastInDim S16x64 ![] bcast_S_S16x64 : (⟨S_, .i32⟩ : BufTy).Contents (Elt F) → (⟨S16x64, .i32⟩ : BufTy).Contents (Elt F)),
    StableHlo.binary main_v52 main_v60 main_v61 (addi : (⟨S16x64, .i32⟩ : BufTy).Contents (Elt F) → (⟨S16x64, .i32⟩ : BufTy).Contents (Elt F) → (⟨S16x64, .i32⟩ : BufTy).Contents (Elt F)),
    StableHlo.ternary main_v59 main_v61 main_v52 main_v62 (select : (⟨S16x64, .i1⟩ : BufTy).Contents (Elt F) → (⟨S16x64, .i32⟩ : BufTy).Contents (Elt F) → (⟨S16x64, .i32⟩ : BufTy).Contents (Elt F) → (⟨S16x64, .i32⟩ : BufTy).Contents (Elt F)),
    StableHlo.nullary main_c_13 (constantI S_ 32 0#32) ]

/-- Operations 79 … 88. -/
abbrev kops8 : List (HloOp τ sig (Elt F)) :=
  [ StableHlo.unary main_c_13 main_v63 (broadcastInDim S16x64 ![] bcast_S_S16x64 : (⟨S_, .i32⟩ : BufTy).Contents (Elt F) → (⟨S16x64, .i32⟩ : BufTy).Contents (Elt F)),
    StableHlo.binary main_v21 main_v63 main_v64 (cmpi .slt : (⟨S16x64, .i32⟩ : BufTy).Contents (Elt F) → (⟨S16x64, .i32⟩ : BufTy).Contents (Elt F) → (⟨S16x64, .i1⟩ : BufTy).Contents (Elt F)),
    StableHlo.nullary main_c_14 (constantI S_ 32 128#32),
    StableHlo.unary main_c_14 main_v65 (broadcastInDim S16x64 ![] bcast_S_S16x64 : (⟨S_, .i32⟩ : BufTy).Contents (Elt F) → (⟨S16x64, .i32⟩ : BufTy).Contents (Elt F)),
    StableHlo.binary main_v21 main_v65 main_v66 (addi : (⟨S16x64, .i32⟩ : BufTy).Contents (Elt F) → (⟨S16x64, .i32⟩ : BufTy).Contents (Elt F) → (⟨S16x64, .i32⟩ : BufTy).Contents (Elt F)),
    StableHlo.ternary main_v64 main_v66 main_v21 main_v67 (select : (⟨S16x64, .i1⟩ : BufTy).Contents (Elt F) → (⟨S16x64, .i32⟩ : BufTy).Contents (Elt F) → (⟨S16x64, .i32⟩ : BufTy).Contents (Elt F) → (⟨S16x64, .i32⟩ : BufTy).Contents (Elt F)),
    StableHlo.nullary main_c_15 (constantI S_ 32 0#32),
    StableHlo.unary main_c_15 main_v68 (broadcastInDim S16x64 ![] bcast_S_S16x64 : (⟨S_, .i32⟩ : BufTy).Contents (Elt F) → (⟨S16x64, .i32⟩ : BufTy).Contents (Elt F)),
    StableHlo.binary main_v18 main_v68 main_v69 (cmpi .slt : (⟨S16x64, .i32⟩ : BufTy).Contents (Elt F) → (⟨S16x64, .i32⟩ : BufTy).Contents (Elt F) → (⟨S16x64, .i1⟩ : BufTy).Contents (Elt F)),
    StableHlo.nullary main_c_16 (constantI S_ 32 128#32) ]

/-- Operations 89 … 95. -/
abbrev kops9 : List (HloOp τ sig (Elt F)) :=
  [ StableHlo.unary main_c_16 main_v70 (broadcastInDim S16x64 ![] bcast_S_S16x64 : (⟨S_, .i32⟩ : BufTy).Contents (Elt F) → (⟨S16x64, .i32⟩ : BufTy).Contents (Elt F)),
    StableHlo.binary main_v18 main_v70 main_v71 (addi : (⟨S16x64, .i32⟩ : BufTy).Contents (Elt F) → (⟨S16x64, .i32⟩ : BufTy).Contents (Elt F) → (⟨S16x64, .i32⟩ : BufTy).Contents (Elt F)),
    StableHlo.ternary main_v69 main_v71 main_v18 main_v72 (select : (⟨S16x64, .i1⟩ : BufTy).Contents (Elt F) → (⟨S16x64, .i32⟩ : BufTy).Contents (Elt F) → (⟨S16x64, .i32⟩ : BufTy).Contents (Elt F) → (⟨S16x64, .i32⟩ : BufTy).Contents (Elt F)),
    StableHlo.unary main_v57 main_v73 (broadcastInDim S16x64x1 ![0, 1] bcast_S16x64_S16x64x1_0_1 : (⟨S16x64, .i32⟩ : BufTy).Contents (Elt F) → (⟨S16x64x1, .i32⟩ : BufTy).Contents (Elt F)),
    StableHlo.unary main_v62 main_v74 (broadcastInDim S16x64x1 ![0, 1] bcast_S16x64_S16x64x1_0_1 : (⟨S16x64, .i32⟩ : BufTy).Contents (Elt F) → (⟨S16x64x1, .i32⟩ : BufTy).Contents (Elt F)),
    StableHlo.unary main_v67 main_v75 (broadcastInDim S16x64x1 ![0, 1] bcast_S16x64_S16x64x1_0_1 : (⟨S16x64, .i32⟩ : BufTy).Contents (Elt F) → (⟨S16x64x1, .i32⟩ : BufTy).Contents (Elt F)),
    StableHlo.unary main_v72 main_v76 (broadcastInDim S16x64x1 ![0, 1] bcast_S16x64_S16x64x1_0_1 : (⟨S16x64, .i32⟩ : BufTy).Contents (Elt F) → (⟨S16x64x1, .i32⟩ : BufTy).Contents (Elt F)) ]

/-- Operations 96 … 105. -/
abbrev kops10 : List (HloOp τ sig (Elt F)) :=
  [ StableHlo.nary ![main_v73, main_v74, main_v75, main_v76] main_v77 (fun u => concatenate S16x64x4 2 [⟨S16x64x1, u 0⟩, ⟨S16x64x1, u 1⟩, ⟨S16x64x1, u 2⟩, ⟨S16x64x1, u 3⟩] concatenates_S16x64x1_S16x64x1_S16x64x1_S16x64x1_S16x64x4_d2),
    StableHlo.binary main_arg0 main_v77 main_v78 ((fun x i => Host.gather gather_S16x85x128x128_S16x64x4_S16x64_n_0123_n_n_0123_2_1111 x i) : (⟨S16x85x128x128, .f32⟩ : BufTy).Contents (Elt F) → (⟨S16x64x4, .i32⟩ : BufTy).Contents (Elt F) → (⟨S16x64, .f32⟩ : BufTy).Contents (Elt F)),
    StableHlo.nullary main_c_17 (constantI S_ 32 0#32),
    StableHlo.unary main_c_17 main_v79 (broadcastInDim S16x64 ![] bcast_S_S16x64 : (⟨S_, .i32⟩ : BufTy).Contents (Elt F) → (⟨S16x64, .i32⟩ : BufTy).Contents (Elt F)),
    StableHlo.binary main_v27 main_v79 main_v80 (cmpi .slt : (⟨S16x64, .i32⟩ : BufTy).Contents (Elt F) → (⟨S16x64, .i32⟩ : BufTy).Contents (Elt F) → (⟨S16x64, .i1⟩ : BufTy).Contents (Elt F)),
    StableHlo.nullary main_c_18 (constantI S_ 32 16#32),
    StableHlo.unary main_c_18 main_v81 (broadcastInDim S16x64 ![] bcast_S_S16x64 : (⟨S_, .i32⟩ : BufTy).Contents (Elt F) → (⟨S16x64, .i32⟩ : BufTy).Contents (Elt F)),
    StableHlo.binary main_v27 main_v81 main_v82 (addi : (⟨S16x64, .i32⟩ : BufTy).Contents (Elt F) → (⟨S16x64, .i32⟩ : BufTy).Contents (Elt F) → (⟨S16x64, .i32⟩ : BufTy).Contents (Elt F)),
    StableHlo.ternary main_v80 main_v82 main_v27 main_v83 (select : (⟨S16x64, .i1⟩ : BufTy).Contents (Elt F) → (⟨S16x64, .i32⟩ : BufTy).Contents (Elt F) → (⟨S16x64, .i32⟩ : BufTy).Contents (Elt F) → (⟨S16x64, .i32⟩ : BufTy).Contents (Elt F)),
    StableHlo.nullary main_c_19 (constantI S_ 32 0#32) ]

/-- Operations 106 … 115. -/
abbrev kops11 : List (HloOp τ sig (Elt F)) :=
  [ StableHlo.unary main_c_19 main_v84 (broadcastInDim S16x64 ![] bcast_S_S16x64 : (⟨S_, .i32⟩ : BufTy).Contents (Elt F) → (⟨S16x64, .i32⟩ : BufTy).Contents (Elt F)),
    StableHlo.binary main_v21 main_v84 main_v85 (cmpi .slt : (⟨S16x64, .i32⟩ : BufTy).Contents (Elt F) → (⟨S16x64, .i32⟩ : BufTy).Contents (Elt F) → (⟨S16x64, .i1⟩ : BufTy).Contents (Elt F)),
    StableHlo.nullary main_c_20 (constantI S_ 32 128#32),
    StableHlo.unary main_c_20 main_v86 (broadcastInDim S16x64 ![] bcast_S_S16x64 : (⟨S_, .i32⟩ : BufTy).Contents (Elt F) → (⟨S16x64, .i32⟩ : BufTy).Contents (Elt F)),
    StableHlo.binary main_v21 main_v86 main_v87 (addi : (⟨S16x64, .i32⟩ : BufTy).Contents (Elt F) → (⟨S16x64, .i32⟩ : BufTy).Contents (Elt F) → (⟨S16x64, .i32⟩ : BufTy).Contents (Elt F)),
    StableHlo.ternary main_v85 main_v87 main_v21 main_v88 (select : (⟨S16x64, .i1⟩ : BufTy).Contents (Elt F) → (⟨S16x64, .i32⟩ : BufTy).Contents (Elt F) → (⟨S16x64, .i32⟩ : BufTy).Contents (Elt F) → (⟨S16x64, .i32⟩ : BufTy).Contents (Elt F)),
    StableHlo.nullary main_c_21 (constantI S_ 32 0#32),
    StableHlo.unary main_c_21 main_v89 (broadcastInDim S16x64 ![] bcast_S_S16x64 : (⟨S_, .i32⟩ : BufTy).Contents (Elt F) → (⟨S16x64, .i32⟩ : BufTy).Contents (Elt F)),
    StableHlo.binary main_v18 main_v89 main_v90 (cmpi .slt : (⟨S16x64, .i32⟩ : BufTy).Contents (Elt F) → (⟨S16x64, .i32⟩ : BufTy).Contents (Elt F) → (⟨S16x64, .i1⟩ : BufTy).Contents (Elt F)),
    StableHlo.nullary main_c_22 (constantI S_ 32 128#32) ]

/-- Operations 116 … 125. -/
abbrev kops12 : List (HloOp τ sig (Elt F)) :=
  [ StableHlo.unary main_c_22 main_v91 (broadcastInDim S16x64 ![] bcast_S_S16x64 : (⟨S_, .i32⟩ : BufTy).Contents (Elt F) → (⟨S16x64, .i32⟩ : BufTy).Contents (Elt F)),
    StableHlo.binary main_v18 main_v91 main_v92 (addi : (⟨S16x64, .i32⟩ : BufTy).Contents (Elt F) → (⟨S16x64, .i32⟩ : BufTy).Contents (Elt F) → (⟨S16x64, .i32⟩ : BufTy).Contents (Elt F)),
    StableHlo.ternary main_v90 main_v92 main_v18 main_v93 (select : (⟨S16x64, .i1⟩ : BufTy).Contents (Elt F) → (⟨S16x64, .i32⟩ : BufTy).Contents (Elt F) → (⟨S16x64, .i32⟩ : BufTy).Contents (Elt F) → (⟨S16x64, .i32⟩ : BufTy).Contents (Elt F)),
    StableHlo.nullary main_c_23 (constantI S_ 32 0#32),
    StableHlo.unary main_c_23 main_v94 (broadcastInDim S16x64 ![] bcast_S_S16x64 : (⟨S_, .i32⟩ : BufTy).Contents (Elt F) → (⟨S16x64, .i32⟩ : BufTy).Contents (Elt F)),
    StableHlo.unary main_v94 main_v95 (id : (⟨S16x64, .i32⟩ : BufTy).Contents (Elt F) → (⟨S16x64, .i32⟩ : BufTy).Contents (Elt F)),
    StableHlo.unary main_v83 main_v96 (broadcastInDim S16x64x1 ![0, 1] bcast_S16x64_S16x64x1_0_1 : (⟨S16x64, .i32⟩ : BufTy).Contents (Elt F) → (⟨S16x64x1, .i32⟩ : BufTy).Contents (Elt F)),
    StableHlo.unary main_v95 main_v97 (broadcastInDim S16x64x1 ![0, 1] bcast_S16x64_S16x64x1_0_1 : (⟨S16x64, .i32⟩ : BufTy).Contents (Elt F) → (⟨S16x64x1, .i32⟩ : BufTy).Contents (Elt F)),
    StableHlo.unary main_v88 main_v98 (broadcastInDim S16x64x1 ![0, 1] bcast_S16x64_S16x64x1_0_1 : (⟨S16x64, .i32⟩ : BufTy).Contents (Elt F) → (⟨S16x64x1, .i32⟩ : BufTy).Contents (Elt F)),
    StableHlo.unary main_v93 main_v99 (broadcastInDim S16x64x1 ![0, 1] bcast_S16x64_S16x64x1_0_1 : (⟨S16x64, .i32⟩ : BufTy).Contents (Elt F) → (⟨S16x64x1, .i32⟩ : BufTy).Contents (Elt F)) ]

/-- Operations 126 … 135. -/
abbrev kops13 : List (HloOp τ sig (Elt F)) :=
  [ StableHlo.nary ![main_v96, main_v97, main_v98, main_v99] main_v100 (fun u => concatenate S16x64x4 2 [⟨S16x64x1, u 0⟩, ⟨S16x64x1, u 1⟩, ⟨S16x64x1, u 2⟩, ⟨S16x64x1, u 3⟩] concatenates_S16x64x1_S16x64x1_S16x64x1_S16x64x1_S16x64x4_d2),
    StableHlo.binary main_arg0 main_v100 main_v101 ((fun x i => Host.gather gather_S16x85x128x128_S16x64x4_S16x64_n_0123_n_n_0123_2_1111 x i) : (⟨S16x85x128x128, .f32⟩ : BufTy).Contents (Elt F) → (⟨S16x64x4, .i32⟩ : BufTy).Contents (Elt F) → (⟨S16x64, .f32⟩ : BufTy).Contents (Elt F)),
    StableHlo.nullary main_c_24 (constantI S_ 32 0#32),
    StableHlo.unary main_c_24 main_v102 (broadcastInDim S16x64 ![] bcast_S_S16x64 : (⟨S_, .i32⟩ : BufTy).Contents (Elt F) → (⟨S16x64, .i32⟩ : BufTy).Contents (Elt F)),
    StableHlo.binary main_v27 main_v102 main_v103 (cmpi .slt : (⟨S16x64, .i32⟩ : BufTy).Contents (Elt F) → (⟨S16x64, .i32⟩ : BufTy).Contents (Elt F) → (⟨S16x64, .i1⟩ : BufTy).Contents (Elt F)),
    StableHlo.nullary main_c_25 (constantI S_ 32 16#32),
    StableHlo.unary main_c_25 main_v104 (broadcastInDim S16x64 ![] bcast_S_S16x64 : (⟨S_, .i32⟩ : BufTy).Contents (Elt F) → (⟨S16x64, .i32⟩ : BufTy).Contents (Elt F)),
    StableHlo.binary main_v27 main_v104 main_v105 (addi : (⟨S16x64, .i32⟩ : BufTy).Contents (Elt F) → (⟨S16x64, .i32⟩ : BufTy).Contents (Elt F) → (⟨S16x64, .i32⟩ : BufTy).Contents (Elt F)),
    StableHlo.ternary main_v103 main_v105 main_v27 main_v106 (select : (⟨S16x64, .i1⟩ : BufTy).Contents (Elt F) → (⟨S16x64, .i32⟩ : BufTy).Contents (Elt F) → (⟨S16x64, .i32⟩ : BufTy).Contents (Elt F) → (⟨S16x64, .i32⟩ : BufTy).Contents (Elt F)),
    StableHlo.nullary main_c_26 (constantI S_ 32 0#32) ]

/-- Operations 136 … 145. -/
abbrev kops14 : List (HloOp τ sig (Elt F)) :=
  [ StableHlo.unary main_c_26 main_v107 (broadcastInDim S16x64 ![] bcast_S_S16x64 : (⟨S_, .i32⟩ : BufTy).Contents (Elt F) → (⟨S16x64, .i32⟩ : BufTy).Contents (Elt F)),
    StableHlo.binary main_v21 main_v107 main_v108 (cmpi .slt : (⟨S16x64, .i32⟩ : BufTy).Contents (Elt F) → (⟨S16x64, .i32⟩ : BufTy).Contents (Elt F) → (⟨S16x64, .i1⟩ : BufTy).Contents (Elt F)),
    StableHlo.nullary main_c_27 (constantI S_ 32 128#32),
    StableHlo.unary main_c_27 main_v109 (broadcastInDim S16x64 ![] bcast_S_S16x64 : (⟨S_, .i32⟩ : BufTy).Contents (Elt F) → (⟨S16x64, .i32⟩ : BufTy).Contents (Elt F)),
    StableHlo.binary main_v21 main_v109 main_v110 (addi : (⟨S16x64, .i32⟩ : BufTy).Contents (Elt F) → (⟨S16x64, .i32⟩ : BufTy).Contents (Elt F) → (⟨S16x64, .i32⟩ : BufTy).Contents (Elt F)),
    StableHlo.ternary main_v108 main_v110 main_v21 main_v111 (select : (⟨S16x64, .i1⟩ : BufTy).Contents (Elt F) → (⟨S16x64, .i32⟩ : BufTy).Contents (Elt F) → (⟨S16x64, .i32⟩ : BufTy).Contents (Elt F) → (⟨S16x64, .i32⟩ : BufTy).Contents (Elt F)),
    StableHlo.nullary main_c_28 (constantI S_ 32 0#32),
    StableHlo.unary main_c_28 main_v112 (broadcastInDim S16x64 ![] bcast_S_S16x64 : (⟨S_, .i32⟩ : BufTy).Contents (Elt F) → (⟨S16x64, .i32⟩ : BufTy).Contents (Elt F)),
    StableHlo.binary main_v18 main_v112 main_v113 (cmpi .slt : (⟨S16x64, .i32⟩ : BufTy).Contents (Elt F) → (⟨S16x64, .i32⟩ : BufTy).Contents (Elt F) → (⟨S16x64, .i1⟩ : BufTy).Contents (Elt F)),
    StableHlo.nullary main_c_29 (constantI S_ 32 128#32) ]

/-- Operations 146 … 155. -/
abbrev kops15 : List (HloOp τ sig (Elt F)) :=
  [ StableHlo.unary main_c_29 main_v114 (broadcastInDim S16x64 ![] bcast_S_S16x64 : (⟨S_, .i32⟩ : BufTy).Contents (Elt F) → (⟨S16x64, .i32⟩ : BufTy).Contents (Elt F)),
    StableHlo.binary main_v18 main_v114 main_v115 (addi : (⟨S16x64, .i32⟩ : BufTy).Contents (Elt F) → (⟨S16x64, .i32⟩ : BufTy).Contents (Elt F) → (⟨S16x64, .i32⟩ : BufTy).Contents (Elt F)),
    StableHlo.ternary main_v113 main_v115 main_v18 main_v116 (select : (⟨S16x64, .i1⟩ : BufTy).Contents (Elt F) → (⟨S16x64, .i32⟩ : BufTy).Contents (Elt F) → (⟨S16x64, .i32⟩ : BufTy).Contents (Elt F) → (⟨S16x64, .i32⟩ : BufTy).Contents (Elt F)),
    StableHlo.nullary main_c_30 (constantI S_ 32 1#32),
    StableHlo.unary main_c_30 main_v117 (broadcastInDim S16x64 ![] bcast_S_S16x64 : (⟨S_, .i32⟩ : BufTy).Contents (Elt F) → (⟨S16x64, .i32⟩ : BufTy).Contents (Elt F)),
    StableHlo.unary main_v117 main_v118 (id : (⟨S16x64, .i32⟩ : BufTy).Contents (Elt F) → (⟨S16x64, .i32⟩ : BufTy).Contents (Elt F)),
    StableHlo.unary main_v106 main_v119 (broadcastInDim S16x64x1 ![0, 1] bcast_S16x64_S16x64x1_0_1 : (⟨S16x64, .i32⟩ : BufTy).Contents (Elt F) → (⟨S16x64x1, .i32⟩ : BufTy).Contents (Elt F)),
    StableHlo.unary main_v118 main_v120 (broadcastInDim S16x64x1 ![0, 1] bcast_S16x64_S16x64x1_0_1 : (⟨S16x64, .i32⟩ : BufTy).Contents (Elt F) → (⟨S16x64x1, .i32⟩ : BufTy).Contents (Elt F)),
    StableHlo.unary main_v111 main_v121 (broadcastInDim S16x64x1 ![0, 1] bcast_S16x64_S16x64x1_0_1 : (⟨S16x64, .i32⟩ : BufTy).Contents (Elt F) → (⟨S16x64x1, .i32⟩ : BufTy).Contents (Elt F)),
    StableHlo.unary main_v116 main_v122 (broadcastInDim S16x64x1 ![0, 1] bcast_S16x64_S16x64x1_0_1 : (⟨S16x64, .i32⟩ : BufTy).Contents (Elt F) → (⟨S16x64x1, .i32⟩ : BufTy).Contents (Elt F)) ]

/-- Operations 156 … 165. -/
abbrev kops16 : List (HloOp τ sig (Elt F)) :=
  [ StableHlo.nary ![main_v119, main_v120, main_v121, main_v122] main_v123 (fun u => concatenate S16x64x4 2 [⟨S16x64x1, u 0⟩, ⟨S16x64x1, u 1⟩, ⟨S16x64x1, u 2⟩, ⟨S16x64x1, u 3⟩] concatenates_S16x64x1_S16x64x1_S16x64x1_S16x64x1_S16x64x4_d2),
    StableHlo.binary main_arg0 main_v123 main_v124 ((fun x i => Host.gather gather_S16x85x128x128_S16x64x4_S16x64_n_0123_n_n_0123_2_1111 x i) : (⟨S16x85x128x128, .f32⟩ : BufTy).Contents (Elt F) → (⟨S16x64x4, .i32⟩ : BufTy).Contents (Elt F) → (⟨S16x64, .f32⟩ : BufTy).Contents (Elt F)),
    StableHlo.nullary main_c_31 (constantI S_ 32 0#32),
    StableHlo.unary main_c_31 main_v125 (broadcastInDim S16x64 ![] bcast_S_S16x64 : (⟨S_, .i32⟩ : BufTy).Contents (Elt F) → (⟨S16x64, .i32⟩ : BufTy).Contents (Elt F)),
    StableHlo.binary main_v27 main_v125 main_v126 (cmpi .slt : (⟨S16x64, .i32⟩ : BufTy).Contents (Elt F) → (⟨S16x64, .i32⟩ : BufTy).Contents (Elt F) → (⟨S16x64, .i1⟩ : BufTy).Contents (Elt F)),
    StableHlo.nullary main_c_32 (constantI S_ 32 16#32),
    StableHlo.unary main_c_32 main_v127 (broadcastInDim S16x64 ![] bcast_S_S16x64 : (⟨S_, .i32⟩ : BufTy).Contents (Elt F) → (⟨S16x64, .i32⟩ : BufTy).Contents (Elt F)),
    StableHlo.binary main_v27 main_v127 main_v128 (addi : (⟨S16x64, .i32⟩ : BufTy).Contents (Elt F) → (⟨S16x64, .i32⟩ : BufTy).Contents (Elt F) → (⟨S16x64, .i32⟩ : BufTy).Contents (Elt F)),
    StableHlo.ternary main_v126 main_v128 main_v27 main_v129 (select : (⟨S16x64, .i1⟩ : BufTy).Contents (Elt F) → (⟨S16x64, .i32⟩ : BufTy).Contents (Elt F) → (⟨S16x64, .i32⟩ : BufTy).Contents (Elt F) → (⟨S16x64, .i32⟩ : BufTy).Contents (Elt F)),
    StableHlo.nullary main_c_33 (constantI S_ 32 0#32) ]

/-- Operations 166 … 175. -/
abbrev kops17 : List (HloOp τ sig (Elt F)) :=
  [ StableHlo.unary main_c_33 main_v130 (broadcastInDim S16x64 ![] bcast_S_S16x64 : (⟨S_, .i32⟩ : BufTy).Contents (Elt F) → (⟨S16x64, .i32⟩ : BufTy).Contents (Elt F)),
    StableHlo.binary main_v21 main_v130 main_v131 (cmpi .slt : (⟨S16x64, .i32⟩ : BufTy).Contents (Elt F) → (⟨S16x64, .i32⟩ : BufTy).Contents (Elt F) → (⟨S16x64, .i1⟩ : BufTy).Contents (Elt F)),
    StableHlo.nullary main_c_34 (constantI S_ 32 128#32),
    StableHlo.unary main_c_34 main_v132 (broadcastInDim S16x64 ![] bcast_S_S16x64 : (⟨S_, .i32⟩ : BufTy).Contents (Elt F) → (⟨S16x64, .i32⟩ : BufTy).Contents (Elt F)),
    StableHlo.binary main_v21 main_v132 main_v133 (addi : (⟨S16x64, .i32⟩ : BufTy).Contents (Elt F) → (⟨S16x64, .i32⟩ : BufTy).Contents (Elt F) → (⟨S16x64, .i32⟩ : BufTy).Contents (Elt F)),
    StableHlo.ternary main_v131 main_v133 main_v21 main_v134 (select : (⟨S16x64, .i1⟩ : BufTy).Contents (Elt F) → (⟨S16x64, .i32⟩ : BufTy).Contents (Elt F) → (⟨S16x64, .i32⟩ : BufTy).Contents (Elt F) → (⟨S16x64, .i32⟩ : BufTy).Contents (Elt F)),
    StableHlo.nullary main_c_35 (constantI S_ 32 0#32),
    StableHlo.unary main_c_35 main_v135 (broadcastInDim S16x64 ![] bcast_S_S16x64 : (⟨S_, .i32⟩ : BufTy).Contents (Elt F) → (⟨S16x64, .i32⟩ : BufTy).Contents (Elt F)),
    StableHlo.binary main_v18 main_v135 main_v136 (cmpi .slt : (⟨S16x64, .i32⟩ : BufTy).Contents (Elt F) → (⟨S16x64, .i32⟩ : BufTy).Contents (Elt F) → (⟨S16x64, .i1⟩ : BufTy).Contents (Elt F)),
    StableHlo.nullary main_c_36 (constantI S_ 32 128#32) ]

/-- Operations 176 … 185. -/
abbrev kops18 : List (HloOp τ sig (Elt F)) :=
  [ StableHlo.unary main_c_36 main_v137 (broadcastInDim S16x64 ![] bcast_S_S16x64 : (⟨S_, .i32⟩ : BufTy).Contents (Elt F) → (⟨S16x64, .i32⟩ : BufTy).Contents (Elt F)),
    StableHlo.binary main_v18 main_v137 main_v138 (addi : (⟨S16x64, .i32⟩ : BufTy).Contents (Elt F) → (⟨S16x64, .i32⟩ : BufTy).Contents (Elt F) → (⟨S16x64, .i32⟩ : BufTy).Contents (Elt F)),
    StableHlo.ternary main_v136 main_v138 main_v18 main_v139 (select : (⟨S16x64, .i1⟩ : BufTy).Contents (Elt F) → (⟨S16x64, .i32⟩ : BufTy).Contents (Elt F) → (⟨S16x64, .i32⟩ : BufTy).Contents (Elt F) → (⟨S16x64, .i32⟩ : BufTy).Contents (Elt F)),
    StableHlo.nullary main_c_37 (constantI S_ 32 2#32),
    StableHlo.unary main_c_37 main_v140 (broadcastInDim S16x64 ![] bcast_S_S16x64 : (⟨S_, .i32⟩ : BufTy).Contents (Elt F) → (⟨S16x64, .i32⟩ : BufTy).Contents (Elt F)),
    StableHlo.unary main_v140 main_v141 (id : (⟨S16x64, .i32⟩ : BufTy).Contents (Elt F) → (⟨S16x64, .i32⟩ : BufTy).Contents (Elt F)),
    StableHlo.unary main_v129 main_v142 (broadcastInDim S16x64x1 ![0, 1] bcast_S16x64_S16x64x1_0_1 : (⟨S16x64, .i32⟩ : BufTy).Contents (Elt F) → (⟨S16x64x1, .i32⟩ : BufTy).Contents (Elt F)),
    StableHlo.unary main_v141 main_v143 (broadcastInDim S16x64x1 ![0, 1] bcast_S16x64_S16x64x1_0_1 : (⟨S16x64, .i32⟩ : BufTy).Contents (Elt F) → (⟨S16x64x1, .i32⟩ : BufTy).Contents (Elt F)),
    StableHlo.unary main_v134 main_v144 (broadcastInDim S16x64x1 ![0, 1] bcast_S16x64_S16x64x1_0_1 : (⟨S16x64, .i32⟩ : BufTy).Contents (Elt F) → (⟨S16x64x1, .i32⟩ : BufTy).Contents (Elt F)),
    StableHlo.unary main_v139 main_v145 (broadcastInDim S16x64x1 ![0, 1] bcast_S16x64_S16x64x1_0_1 : (⟨S16x64, .i32⟩ : BufTy).Contents (Elt F) → (⟨S16x64x1, .i32⟩ : BufTy).Contents (Elt F)) ]

/-- Operations 186 … 195. -/
abbrev kops19 : List (HloOp τ sig (Elt F)) :=
  [ StableHlo.nary ![main_v142, main_v143, main_v144, main_v145] main_v146 (fun u => concatenate S16x64x4 2 [⟨S16x64x1, u 0⟩, ⟨S16x64x1, u 1⟩, ⟨S16x64x1, u 2⟩, ⟨S16x64x1, u 3⟩] concatenates_S16x64x1_S16x64x1_S16x64x1_S16x64x1_S16x64x4_d2),
    StableHlo.binary main_arg0 main_v146 main_v147 ((fun x i => Host.gather gather_S16x85x128x128_S16x64x4_S16x64_n_0123_n_n_0123_2_1111 x i) : (⟨S16x85x128x128, .f32⟩ : BufTy).Contents (Elt F) → (⟨S16x64x4, .i32⟩ : BufTy).Contents (Elt F) → (⟨S16x64, .f32⟩ : BufTy).Contents (Elt F)),
    StableHlo.nullary main_c_38 (constantI S_ 32 0#32),
    StableHlo.unary main_c_38 main_v148 (broadcastInDim S16x64 ![] bcast_S_S16x64 : (⟨S_, .i32⟩ : BufTy).Contents (Elt F) → (⟨S16x64, .i32⟩ : BufTy).Contents (Elt F)),
    StableHlo.binary main_v27 main_v148 main_v149 (cmpi .slt : (⟨S16x64, .i32⟩ : BufTy).Contents (Elt F) → (⟨S16x64, .i32⟩ : BufTy).Contents (Elt F) → (⟨S16x64, .i1⟩ : BufTy).Contents (Elt F)),
    StableHlo.nullary main_c_39 (constantI S_ 32 16#32),
    StableHlo.unary main_c_39 main_v150 (broadcastInDim S16x64 ![] bcast_S_S16x64 : (⟨S_, .i32⟩ : BufTy).Contents (Elt F) → (⟨S16x64, .i32⟩ : BufTy).Contents (Elt F)),
    StableHlo.binary main_v27 main_v150 main_v151 (addi : (⟨S16x64, .i32⟩ : BufTy).Contents (Elt F) → (⟨S16x64, .i32⟩ : BufTy).Contents (Elt F) → (⟨S16x64, .i32⟩ : BufTy).Contents (Elt F)),
    StableHlo.ternary main_v149 main_v151 main_v27 main_v152 (select : (⟨S16x64, .i1⟩ : BufTy).Contents (Elt F) → (⟨S16x64, .i32⟩ : BufTy).Contents (Elt F) → (⟨S16x64, .i32⟩ : BufTy).Contents (Elt F) → (⟨S16x64, .i32⟩ : BufTy).Contents (Elt F)),
    StableHlo.nullary main_c_40 (constantI S_ 32 0#32) ]

/-- Operations 196 … 205. -/
abbrev kops20 : List (HloOp τ sig (Elt F)) :=
  [ StableHlo.unary main_c_40 main_v153 (broadcastInDim S16x64 ![] bcast_S_S16x64 : (⟨S_, .i32⟩ : BufTy).Contents (Elt F) → (⟨S16x64, .i32⟩ : BufTy).Contents (Elt F)),
    StableHlo.binary main_v21 main_v153 main_v154 (cmpi .slt : (⟨S16x64, .i32⟩ : BufTy).Contents (Elt F) → (⟨S16x64, .i32⟩ : BufTy).Contents (Elt F) → (⟨S16x64, .i1⟩ : BufTy).Contents (Elt F)),
    StableHlo.nullary main_c_41 (constantI S_ 32 128#32),
    StableHlo.unary main_c_41 main_v155 (broadcastInDim S16x64 ![] bcast_S_S16x64 : (⟨S_, .i32⟩ : BufTy).Contents (Elt F) → (⟨S16x64, .i32⟩ : BufTy).Contents (Elt F)),
    StableHlo.binary main_v21 main_v155 main_v156 (addi : (⟨S16x64, .i32⟩ : BufTy).Contents (Elt F) → (⟨S16x64, .i32⟩ : BufTy).Contents (Elt F) → (⟨S16x64, .i32⟩ : BufTy).Contents (Elt F)),
    StableHlo.ternary main_v154 main_v156 main_v21 main_v157 (select : (⟨S16x64, .i1⟩ : BufTy).Contents (Elt F) → (⟨S16x64, .i32⟩ : BufTy).Contents (Elt F) → (⟨S16x64, .i32⟩ : BufTy).Contents (Elt F) → (⟨S16x64, .i32⟩ : BufTy).Contents (Elt F)),
    StableHlo.nullary main_c_42 (constantI S_ 32 0#32),
    StableHlo.unary main_c_42 main_v158 (broadcastInDim S16x64 ![] bcast_S_S16x64 : (⟨S_, .i32⟩ : BufTy).Contents (Elt F) → (⟨S16x64, .i32⟩ : BufTy).Contents (Elt F)),
    StableHlo.binary main_v18 main_v158 main_v159 (cmpi .slt : (⟨S16x64, .i32⟩ : BufTy).Contents (Elt F) → (⟨S16x64, .i32⟩ : BufTy).Contents (Elt F) → (⟨S16x64, .i1⟩ : BufTy).Contents (Elt F)),
    StableHlo.nullary main_c_43 (constantI S_ 32 128#32) ]

/-- Operations 206 … 215. -/
abbrev kops21 : List (HloOp τ sig (Elt F)) :=
  [ StableHlo.unary main_c_43 main_v160 (broadcastInDim S16x64 ![] bcast_S_S16x64 : (⟨S_, .i32⟩ : BufTy).Contents (Elt F) → (⟨S16x64, .i32⟩ : BufTy).Contents (Elt F)),
    StableHlo.binary main_v18 main_v160 main_v161 (addi : (⟨S16x64, .i32⟩ : BufTy).Contents (Elt F) → (⟨S16x64, .i32⟩ : BufTy).Contents (Elt F) → (⟨S16x64, .i32⟩ : BufTy).Contents (Elt F)),
    StableHlo.ternary main_v159 main_v161 main_v18 main_v162 (select : (⟨S16x64, .i1⟩ : BufTy).Contents (Elt F) → (⟨S16x64, .i32⟩ : BufTy).Contents (Elt F) → (⟨S16x64, .i32⟩ : BufTy).Contents (Elt F) → (⟨S16x64, .i32⟩ : BufTy).Contents (Elt F)),
    StableHlo.nullary main_c_44 (constantI S_ 32 3#32),
    StableHlo.unary main_c_44 main_v163 (broadcastInDim S16x64 ![] bcast_S_S16x64 : (⟨S_, .i32⟩ : BufTy).Contents (Elt F) → (⟨S16x64, .i32⟩ : BufTy).Contents (Elt F)),
    StableHlo.unary main_v163 main_v164 (id : (⟨S16x64, .i32⟩ : BufTy).Contents (Elt F) → (⟨S16x64, .i32⟩ : BufTy).Contents (Elt F)),
    StableHlo.unary main_v152 main_v165 (broadcastInDim S16x64x1 ![0, 1] bcast_S16x64_S16x64x1_0_1 : (⟨S16x64, .i32⟩ : BufTy).Contents (Elt F) → (⟨S16x64x1, .i32⟩ : BufTy).Contents (Elt F)),
    StableHlo.unary main_v164 main_v166 (broadcastInDim S16x64x1 ![0, 1] bcast_S16x64_S16x64x1_0_1 : (⟨S16x64, .i32⟩ : BufTy).Contents (Elt F) → (⟨S16x64x1, .i32⟩ : BufTy).Contents (Elt F)),
    StableHlo.unary main_v157 main_v167 (broadcastInDim S16x64x1 ![0, 1] bcast_S16x64_S16x64x1_0_1 : (⟨S16x64, .i32⟩ : BufTy).Contents (Elt F) → (⟨S16x64x1, .i32⟩ : BufTy).Contents (Elt F)),
    StableHlo.unary main_v162 main_v168 (broadcastInDim S16x64x1 ![0, 1] bcast_S16x64_S16x64x1_0_1 : (⟨S16x64, .i32⟩ : BufTy).Contents (Elt F) → (⟨S16x64x1, .i32⟩ : BufTy).Contents (Elt F)) ]

/-- Operations 216 … 225. -/
abbrev kops22 : List (HloOp τ sig (Elt F)) :=
  [ StableHlo.nary ![main_v165, main_v166, main_v167, main_v168] main_v169 (fun u => concatenate S16x64x4 2 [⟨S16x64x1, u 0⟩, ⟨S16x64x1, u 1⟩, ⟨S16x64x1, u 2⟩, ⟨S16x64x1, u 3⟩] concatenates_S16x64x1_S16x64x1_S16x64x1_S16x64x1_S16x64x4_d2),
    StableHlo.binary main_arg0 main_v169 main_v170 ((fun x i => Host.gather gather_S16x85x128x128_S16x64x4_S16x64_n_0123_n_n_0123_2_1111 x i) : (⟨S16x85x128x128, .f32⟩ : BufTy).Contents (Elt F) → (⟨S16x64x4, .i32⟩ : BufTy).Contents (Elt F) → (⟨S16x64, .f32⟩ : BufTy).Contents (Elt F)),
    StableHlo.nullary main_v171 (iotaInDim S64 32 0),
    StableHlo.unary main_v171 main_v172 (broadcastInDim S64x1 ![0] bcast_S64_S64x1_0 : (⟨S64, .i32⟩ : BufTy).Contents (Elt F) → (⟨S64x1, .i32⟩ : BufTy).Contents (Elt F)),
    StableHlo.nullary main_v173 (iotaInDim S64 32 0),
    StableHlo.unary main_v173 main_v174 (broadcastInDim S1x64 ![1] bcast_S64_S1x64_1 : (⟨S64, .i32⟩ : BufTy).Contents (Elt F) → (⟨S1x64, .i32⟩ : BufTy).Contents (Elt F)),
    StableHlo.unary main_v174 main_v175 (broadcastInDim S64x64 ![0, 1] bcast_S1x64_S64x64_0_1 : (⟨S1x64, .i32⟩ : BufTy).Contents (Elt F) → (⟨S64x64, .i32⟩ : BufTy).Contents (Elt F)),
    StableHlo.unary main_v172 main_v176 (broadcastInDim S64x64 ![0, 1] bcast_S64x1_S64x64_0_1 : (⟨S64x1, .i32⟩ : BufTy).Contents (Elt F) → (⟨S64x64, .i32⟩ : BufTy).Contents (Elt F)),
    StableHlo.binary main_v175 main_v176 main_v177 (cmpi .sle : (⟨S64x64, .i32⟩ : BufTy).Contents (Elt F) → (⟨S64x64, .i32⟩ : BufTy).Contents (Elt F) → (⟨S64x64, .i1⟩ : BufTy).Contents (Elt F)),
    StableHlo.unary main_v24 main_v178 (broadcastInDim S16x64x1 ![0, 1] bcast_S16x64_S16x64x1_0_1 : (⟨S16x64, .i32⟩ : BufTy).Contents (Elt F) → (⟨S16x64x1, .i32⟩ : BufTy).Contents (Elt F)) ]

/-- Operations 226 … 235. -/
abbrev kops23 : List (HloOp τ sig (Elt F)) :=
  [ StableHlo.unary main_v24 main_v179 (broadcastInDim S16x1x64 ![0, 2] bcast_S16x64_S16x1x64_0_2 : (⟨S16x64, .i32⟩ : BufTy).Contents (Elt F) → (⟨S16x1x64, .i32⟩ : BufTy).Contents (Elt F)),
    StableHlo.unary main_v178 main_v180 (broadcastInDim S16x64x64 ![0, 1, 2] bcast_S16x64x1_S16x64x64_0_1_2 : (⟨S16x64x1, .i32⟩ : BufTy).Contents (Elt F) → (⟨S16x64x64, .i32⟩ : BufTy).Contents (Elt F)),
    StableHlo.unary main_v179 main_v181 (broadcastInDim S16x64x64 ![0, 1, 2] bcast_S16x1x64_S16x64x64_0_1_2 : (⟨S16x1x64, .i32⟩ : BufTy).Contents (Elt F) → (⟨S16x64x64, .i32⟩ : BufTy).Contents (Elt F)),
    StableHlo.binary main_v180 main_v181 main_v182 (cmpi .eq : (⟨S16x64x64, .i32⟩ : BufTy).Contents (Elt F) → (⟨S16x64x64, .i32⟩ : BufTy).Contents (Elt F) → (⟨S16x64x64, .i1⟩ : BufTy).Contents (Elt F)),
    StableHlo.unary main_v177 main_v183 (broadcastInDim S1x64x64 ![1, 2] bcast_S64x64_S1x64x64_1_2 : (⟨S64x64, .i1⟩ : BufTy).Contents (Elt F) → (⟨S1x64x64, .i1⟩ : BufTy).Contents (Elt F)),
    StableHlo.unary main_v183 main_v184 (broadcastInDim S16x64x64 ![0, 1, 2] bcast_S1x64x64_S16x64x64_0_1_2 : (⟨S1x64x64, .i1⟩ : BufTy).Contents (Elt F) → (⟨S16x64x64, .i1⟩ : BufTy).Contents (Elt F)),
    StableHlo.binary main_v182 main_v184 main_v185 (andi : (⟨S16x64x64, .i1⟩ : BufTy).Contents (Elt F) → (⟨S16x64x64, .i1⟩ : BufTy).Contents (Elt F) → (⟨S16x64x64, .i1⟩ : BufTy).Contents (Elt F)),
    StableHlo.nullary main_c_45 (constantI S_ 32 1#32),
    StableHlo.nullary main_c_46 (constantI S_ 32 0#32),
    StableHlo.TRef.unary (.of main_c_45 : StableHlo.TRef sig ⟨S_, .i32⟩) (.of main_call0_v0 : StableHlo.TRef sig ⟨S16x64x64, .i32⟩) (broadcastInDim S16x64x64 ![] bcast_S_S16x64x64) ]

/-- Operations 236 … 245. -/
abbrev kops24 : List (HloOp τ sig (Elt F)) :=
  [ StableHlo.TRef.unary (.of main_c_46 : StableHlo.TRef sig ⟨S_, .i32⟩) (.of main_call0_v1 : StableHlo.TRef sig ⟨S16x64x64, .i32⟩) (broadcastInDim S16x64x64 ![] bcast_S_S16x64x64),
    StableHlo.TRef.ternary (.of main_v185 : StableHlo.TRef sig ⟨S16x64x64, .i1⟩) (.of main_call0_v0 : StableHlo.TRef sig ⟨S16x64x64, .i32⟩) (.of main_call0_v1 : StableHlo.TRef sig ⟨S16x64x64, .i32⟩) (.of main_v186 : StableHlo.TRef sig ⟨S16x64x64, .i32⟩) select,
    StableHlo.unary main_v186 main_v187 (id : (⟨S16x64x64, .i32⟩ : BufTy).Contents (Elt F) → (⟨S16x64x64, .i32⟩ : BufTy).Contents (Elt F)),
    StableHlo.nullary main_c_47 (constantI S_ 32 0#32),
    StableHlo.binary main_v187 main_c_47 main_v188 ((fun x v => Host.reduce IntOp.addi x v reducesTo_S16x64x64_S16x64_d2 h_S_) : (⟨S16x64x64, .i32⟩ : BufTy).Contents (Elt F) → (⟨S_, .i32⟩ : BufTy).Contents (Elt F) → (⟨S16x64, .i32⟩ : BufTy).Contents (Elt F)),
    StableHlo.nullary main_c_48 (constantI S_ 32 1#32),
    StableHlo.unary main_c_48 main_v189 (broadcastInDim S16x64 ![] bcast_S_S16x64 : (⟨S_, .i32⟩ : BufTy).Contents (Elt F) → (⟨S16x64, .i32⟩ : BufTy).Contents (Elt F)),
    StableHlo.binary main_v188 main_v189 main_v190 (cmpi .eq : (⟨S16x64, .i32⟩ : BufTy).Contents (Elt F) → (⟨S16x64, .i32⟩ : BufTy).Contents (Elt F) → (⟨S16x64, .i1⟩ : BufTy).Contents (Elt F)),
    StableHlo.unary main_v190 main_v191 (uitofp .f32 : (⟨S16x64, .i1⟩ : BufTy).Contents (Elt F) → (⟨S16x64, .f32⟩ : BufTy).Contents (Elt F)),
    StableHlo.unary main_v7 main_v192 (broadcastInDim S16x64x1 ![0, 1] bcast_S16x64_S16x64x1_0_1 : (⟨S16x64, .i32⟩ : BufTy).Contents (Elt F) → (⟨S16x64x1, .i32⟩ : BufTy).Contents (Elt F)) ]

/-- Operations 246 … 255. -/
abbrev kops25 : List (HloOp τ sig (Elt F)) :=
  [ StableHlo.unary main_v7 main_v193 (broadcastInDim S16x1x64 ![0, 2] bcast_S16x64_S16x1x64_0_2 : (⟨S16x64, .i32⟩ : BufTy).Contents (Elt F) → (⟨S16x1x64, .i32⟩ : BufTy).Contents (Elt F)),
    StableHlo.unary main_v192 main_v194 (broadcastInDim S16x64x64 ![0, 1, 2] bcast_S16x64x1_S16x64x64_0_1_2 : (⟨S16x64x1, .i32⟩ : BufTy).Contents (Elt F) → (⟨S16x64x64, .i32⟩ : BufTy).Contents (Elt F)),
    StableHlo.unary main_v193 main_v195 (broadcastInDim S16x64x64 ![0, 1, 2] bcast_S16x1x64_S16x64x64_0_1_2 : (⟨S16x1x64, .i32⟩ : BufTy).Contents (Elt F) → (⟨S16x64x64, .i32⟩ : BufTy).Contents (Elt F)),
    StableHlo.binary main_v194 main_v195 main_v196 (cmpi .eq : (⟨S16x64x64, .i32⟩ : BufTy).Contents (Elt F) → (⟨S16x64x64, .i32⟩ : BufTy).Contents (Elt F) → (⟨S16x64x64, .i1⟩ : BufTy).Contents (Elt F)),
    StableHlo.binary main_v182 main_v196 main_v197 (andi : (⟨S16x64x64, .i1⟩ : BufTy).Contents (Elt F) → (⟨S16x64x64, .i1⟩ : BufTy).Contents (Elt F) → (⟨S16x64x64, .i1⟩ : BufTy).Contents (Elt F)),
    StableHlo.unary main_v177 main_v198 (broadcastInDim S1x64x64 ![1, 2] bcast_S64x64_S1x64x64_1_2 : (⟨S64x64, .i1⟩ : BufTy).Contents (Elt F) → (⟨S1x64x64, .i1⟩ : BufTy).Contents (Elt F)),
    StableHlo.unary main_v198 main_v199 (broadcastInDim S16x64x64 ![0, 1, 2] bcast_S1x64x64_S16x64x64_0_1_2 : (⟨S1x64x64, .i1⟩ : BufTy).Contents (Elt F) → (⟨S16x64x64, .i1⟩ : BufTy).Contents (Elt F)),
    StableHlo.binary main_v197 main_v199 main_v200 (andi : (⟨S16x64x64, .i1⟩ : BufTy).Contents (Elt F) → (⟨S16x64x64, .i1⟩ : BufTy).Contents (Elt F) → (⟨S16x64x64, .i1⟩ : BufTy).Contents (Elt F)),
    StableHlo.nullary main_c_49 (constantI S_ 32 1#32),
    StableHlo.nullary main_c_50 (constantI S_ 32 0#32) ]

/-- Operations 256 … 265. -/
abbrev kops26 : List (HloOp τ sig (Elt F)) :=
  [ StableHlo.TRef.unary (.of main_c_49 : StableHlo.TRef sig ⟨S_, .i32⟩) (.of main_call1_v0 : StableHlo.TRef sig ⟨S16x64x64, .i32⟩) (broadcastInDim S16x64x64 ![] bcast_S_S16x64x64),
    StableHlo.TRef.unary (.of main_c_50 : StableHlo.TRef sig ⟨S_, .i32⟩) (.of main_call1_v1 : StableHlo.TRef sig ⟨S16x64x64, .i32⟩) (broadcastInDim S16x64x64 ![] bcast_S_S16x64x64),
    StableHlo.TRef.ternary (.of main_v200 : StableHlo.TRef sig ⟨S16x64x64, .i1⟩) (.of main_call1_v0 : StableHlo.TRef sig ⟨S16x64x64, .i32⟩) (.of main_call1_v1 : StableHlo.TRef sig ⟨S16x64x64, .i32⟩) (.of main_v201 : StableHlo.TRef sig ⟨S16x64x64, .i32⟩) select,
    StableHlo.unary main_v201 main_v202 (id : (⟨S16x64x64, .i32⟩ : BufTy).Contents (Elt F) → (⟨S16x64x64, .i32⟩ : BufTy).Contents (Elt F)),
    StableHlo.nullary main_c_51 (constantI S_ 32 0#32),
    StableHlo.binary main_v202 main_c_51 main_v203 ((fun x v => Host.reduce IntOp.addi x v reducesTo_S16x64x64_S16x64_d2 h_S_) : (⟨S16x64x64, .i32⟩ : BufTy).Contents (Elt F) → (⟨S_, .i32⟩ : BufTy).Contents (Elt F) → (⟨S16x64, .i32⟩ : BufTy).Contents (Elt F)),
    StableHlo.nullary main_c_52 (constantI S_ 32 1#32),
    StableHlo.unary main_c_52 main_v204 (broadcastInDim S16x64 ![] bcast_S_S16x64 : (⟨S_, .i32⟩ : BufTy).Contents (Elt F) → (⟨S16x64, .i32⟩ : BufTy).Contents (Elt F)),
    StableHlo.binary main_v203 main_v204 main_v205 (cmpi .eq : (⟨S16x64, .i32⟩ : BufTy).Contents (Elt F) → (⟨S16x64, .i32⟩ : BufTy).Contents (Elt F) → (⟨S16x64, .i1⟩ : BufTy).Contents (Elt F)),
    StableHlo.unary main_v205 main_v206 (uitofp .f32 : (⟨S16x64, .i1⟩ : BufTy).Contents (Elt F) → (⟨S16x64, .f32⟩ : BufTy).Contents (Elt F)) ]

/-- Operations 266 … 275. -/
abbrev kops27 : List (HloOp τ sig (Elt F)) :=
  [ StableHlo.binary main_v191 main_v50 main_v207 (mulf : (⟨S16x64, .f32⟩ : BufTy).Contents (Elt F) → (⟨S16x64, .f32⟩ : BufTy).Contents (Elt F) → (⟨S16x64, .f32⟩ : BufTy).Contents (Elt F)),
    StableHlo.nullary main_cst_53 (constant S_ .f32 0x00000000#32),
    StableHlo.binary main_v207 main_cst_53 main_v208 ((fun x v => Host.reduceAdd x v reducesTo_S16x64_S_d0_1 h_S_) : (⟨S16x64, .f32⟩ : BufTy).Contents (Elt F) → (⟨S_, .f32⟩ : BufTy).Contents (Elt F) → (⟨S_, .f32⟩ : BufTy).Contents (Elt F)),
    StableHlo.binary main_v206 main_v78 main_v209 (mulf : (⟨S16x64, .f32⟩ : BufTy).Contents (Elt F) → (⟨S16x64, .f32⟩ : BufTy).Contents (Elt F) → (⟨S16x64, .f32⟩ : BufTy).Contents (Elt F)),
    StableHlo.nullary main_cst_54 (constant S_ .f32 0x00000000#32),
    StableHlo.binary main_v209 main_cst_54 main_v210 ((fun x v => Host.reduceAdd x v reducesTo_S16x64_S_d0_1 h_S_) : (⟨S16x64, .f32⟩ : BufTy).Contents (Elt F) → (⟨S_, .f32⟩ : BufTy).Contents (Elt F) → (⟨S_, .f32⟩ : BufTy).Contents (Elt F)),
    StableHlo.binary main_v2 main_v208 main_v211 (subf : (⟨S_, .f32⟩ : BufTy).Contents (Elt F) → (⟨S_, .f32⟩ : BufTy).Contents (Elt F) → (⟨S_, .f32⟩ : BufTy).Contents (Elt F)),
    StableHlo.nullary main_cst_55 (constant S_ .f32 0x46800000#32),
    StableHlo.binary main_v211 main_cst_55 main_v212 (Host.divf : (⟨S_, .f32⟩ : BufTy).Contents (Elt F) → (⟨S_, .f32⟩ : BufTy).Contents (Elt F) → (⟨S_, .f32⟩ : BufTy).Contents (Elt F)),
    StableHlo.binary main_v4 main_v210 main_v213 (subf : (⟨S_, .f32⟩ : BufTy).Contents (Elt F) → (⟨S_, .f32⟩ : BufTy).Contents (Elt F) → (⟨S_, .f32⟩ : BufTy).Contents (Elt F)) ]

/-- Operations 276 … 285. -/
abbrev kops28 : List (HloOp τ sig (Elt F)) :=
  [ StableHlo.nullary main_cst_56 (constant S_ .f32 0x49A00000#32),
    StableHlo.binary main_v213 main_cst_56 main_v214 (Host.divf : (⟨S_, .f32⟩ : BufTy).Contents (Elt F) → (⟨S_, .f32⟩ : BufTy).Contents (Elt F) → (⟨S_, .f32⟩ : BufTy).Contents (Elt F)),
    StableHlo.nullary main_cst_57 (constant S_ .f32 0x40000000#32),
    StableHlo.unary main_cst_57 main_v215 (broadcastInDim S16x64 ![] bcast_S_S16x64 : (⟨S_, .f32⟩ : BufTy).Contents (Elt F) → (⟨S16x64, .f32⟩ : BufTy).Contents (Elt F)),
    StableHlo.binary main_v147 main_v215 main_v216 (Host.divf : (⟨S16x64, .f32⟩ : BufTy).Contents (Elt F) → (⟨S16x64, .f32⟩ : BufTy).Contents (Elt F) → (⟨S16x64, .f32⟩ : BufTy).Contents (Elt F)),
    StableHlo.binary main_v101 main_v216 main_v217 (subf : (⟨S16x64, .f32⟩ : BufTy).Contents (Elt F) → (⟨S16x64, .f32⟩ : BufTy).Contents (Elt F) → (⟨S16x64, .f32⟩ : BufTy).Contents (Elt F)),
    StableHlo.nullary main_cst_58 (constant S_ .f32 0x40000000#32),
    StableHlo.unary main_cst_58 main_v218 (broadcastInDim S16x64 ![] bcast_S_S16x64 : (⟨S_, .f32⟩ : BufTy).Contents (Elt F) → (⟨S16x64, .f32⟩ : BufTy).Contents (Elt F)),
    StableHlo.binary main_v170 main_v218 main_v219 (Host.divf : (⟨S16x64, .f32⟩ : BufTy).Contents (Elt F) → (⟨S16x64, .f32⟩ : BufTy).Contents (Elt F) → (⟨S16x64, .f32⟩ : BufTy).Contents (Elt F)),
    StableHlo.binary main_v124 main_v219 main_v220 (subf : (⟨S16x64, .f32⟩ : BufTy).Contents (Elt F) → (⟨S16x64, .f32⟩ : BufTy).Contents (Elt F) → (⟨S16x64, .f32⟩ : BufTy).Contents (Elt F)) ]

/-- Operations 286 … 295. -/
abbrev kops29 : List (HloOp τ sig (Elt F)) :=
  [ StableHlo.nullary main_cst_59 (constant S_ .f32 0x40000000#32),
    StableHlo.unary main_cst_59 main_v221 (broadcastInDim S16x64 ![] bcast_S_S16x64 : (⟨S_, .f32⟩ : BufTy).Contents (Elt F) → (⟨S16x64, .f32⟩ : BufTy).Contents (Elt F)),
    StableHlo.binary main_v147 main_v221 main_v222 (Host.divf : (⟨S16x64, .f32⟩ : BufTy).Contents (Elt F) → (⟨S16x64, .f32⟩ : BufTy).Contents (Elt F) → (⟨S16x64, .f32⟩ : BufTy).Contents (Elt F)),
    StableHlo.binary main_v101 main_v222 main_v223 (addf : (⟨S16x64, .f32⟩ : BufTy).Contents (Elt F) → (⟨S16x64, .f32⟩ : BufTy).Contents (Elt F) → (⟨S16x64, .f32⟩ : BufTy).Contents (Elt F)),
    StableHlo.nullary main_cst_60 (constant S_ .f32 0x40000000#32),
    StableHlo.unary main_cst_60 main_v224 (broadcastInDim S16x64 ![] bcast_S_S16x64 : (⟨S_, .f32⟩ : BufTy).Contents (Elt F) → (⟨S16x64, .f32⟩ : BufTy).Contents (Elt F)),
    StableHlo.binary main_v170 main_v224 main_v225 (Host.divf : (⟨S16x64, .f32⟩ : BufTy).Contents (Elt F) → (⟨S16x64, .f32⟩ : BufTy).Contents (Elt F) → (⟨S16x64, .f32⟩ : BufTy).Contents (Elt F)),
    StableHlo.binary main_v124 main_v225 main_v226 (addf : (⟨S16x64, .f32⟩ : BufTy).Contents (Elt F) → (⟨S16x64, .f32⟩ : BufTy).Contents (Elt F) → (⟨S16x64, .f32⟩ : BufTy).Contents (Elt F)),
    StableHlo.unary main_v217 main_v227 (broadcastInDim S16x64x1 ![0, 1] bcast_S16x64_S16x64x1_0_1 : (⟨S16x64, .f32⟩ : BufTy).Contents (Elt F) → (⟨S16x64x1, .f32⟩ : BufTy).Contents (Elt F)),
    StableHlo.unary main_v220 main_v228 (broadcastInDim S16x64x1 ![0, 1] bcast_S16x64_S16x64x1_0_1 : (⟨S16x64, .f32⟩ : BufTy).Contents (Elt F) → (⟨S16x64x1, .f32⟩ : BufTy).Contents (Elt F)) ]

/-- Operations 296 … 297. -/
abbrev kops30 : List (HloOp τ sig (Elt F)) :=
  [ StableHlo.unary main_v223 main_v229 (broadcastInDim S16x64x1 ![0, 1] bcast_S16x64_S16x64x1_0_1 : (⟨S16x64, .f32⟩ : BufTy).Contents (Elt F) → (⟨S16x64x1, .f32⟩ : BufTy).Contents (Elt F)),
    StableHlo.unary main_v226 main_v230 (broadcastInDim S16x64x1 ![0, 1] bcast_S16x64_S16x64x1_0_1 : (⟨S16x64, .f32⟩ : BufTy).Contents (Elt F) → (⟨S16x64x1, .f32⟩ : BufTy).Contents (Elt F)) ]

/-- Operations 298 … 307. -/
abbrev kops31 : List (HloOp τ sig (Elt F)) :=
  [ StableHlo.nary ![main_v227, main_v228, main_v229, main_v230] main_v231 (fun u => concatenate S16x64x4 2 [⟨S16x64x1, u 0⟩, ⟨S16x64x1, u 1⟩, ⟨S16x64x1, u 2⟩, ⟨S16x64x1, u 3⟩] concatenates_S16x64x1_S16x64x1_S16x64x1_S16x64x1_S16x64x4_d2),
    StableHlo.nullary main_cst_61 (constant S_ .f32 0x40000000#32),
    StableHlo.unary main_cst_61 main_v232 (broadcastInDim S16x64 ![] bcast_S_S16x64 : (⟨S_, .f32⟩ : BufTy).Contents (Elt F) → (⟨S16x64, .f32⟩ : BufTy).Contents (Elt F)),
    StableHlo.binary main_v13 main_v232 main_v233 (Host.divf : (⟨S16x64, .f32⟩ : BufTy).Contents (Elt F) → (⟨S16x64, .f32⟩ : BufTy).Contents (Elt F) → (⟨S16x64, .f32⟩ : BufTy).Contents (Elt F)),
    StableHlo.binary main_v9 main_v233 main_v234 (subf : (⟨S16x64, .f32⟩ : BufTy).Contents (Elt F) → (⟨S16x64, .f32⟩ : BufTy).Contents (Elt F) → (⟨S16x64, .f32⟩ : BufTy).Contents (Elt F)),
    StableHlo.nullary main_cst_62 (constant S_ .f32 0x43000000#32),
    StableHlo.unary main_cst_62 main_v235 (broadcastInDim S16x64 ![] bcast_S_S16x64 : (⟨S_, .f32⟩ : BufTy).Contents (Elt F) → (⟨S16x64, .f32⟩ : BufTy).Contents (Elt F)),
    StableHlo.binary main_v234 main_v235 main_v236 (mulf : (⟨S16x64, .f32⟩ : BufTy).Contents (Elt F) → (⟨S16x64, .f32⟩ : BufTy).Contents (Elt F) → (⟨S16x64, .f32⟩ : BufTy).Contents (Elt F)),
    StableHlo.nullary main_cst_63 (constant S_ .f32 0x40000000#32),
    StableHlo.unary main_cst_63 main_v237 (broadcastInDim S16x64 ![] bcast_S_S16x64 : (⟨S_, .f32⟩ : BufTy).Contents (Elt F) → (⟨S16x64, .f32⟩ : BufTy).Contents (Elt F)) ]

/-- Operations 308 … 317. -/
abbrev kops32 : List (HloOp τ sig (Elt F)) :=
  [ StableHlo.binary main_v15 main_v237 main_v238 (Host.divf : (⟨S16x64, .f32⟩ : BufTy).Contents (Elt F) → (⟨S16x64, .f32⟩ : BufTy).Contents (Elt F) → (⟨S16x64, .f32⟩ : BufTy).Contents (Elt F)),
    StableHlo.binary main_v11 main_v238 main_v239 (subf : (⟨S16x64, .f32⟩ : BufTy).Contents (Elt F) → (⟨S16x64, .f32⟩ : BufTy).Contents (Elt F) → (⟨S16x64, .f32⟩ : BufTy).Contents (Elt F)),
    StableHlo.nullary main_cst_64 (constant S_ .f32 0x43000000#32),
    StableHlo.unary main_cst_64 main_v240 (broadcastInDim S16x64 ![] bcast_S_S16x64 : (⟨S_, .f32⟩ : BufTy).Contents (Elt F) → (⟨S16x64, .f32⟩ : BufTy).Contents (Elt F)),
    StableHlo.binary main_v239 main_v240 main_v241 (mulf : (⟨S16x64, .f32⟩ : BufTy).Contents (Elt F) → (⟨S16x64, .f32⟩ : BufTy).Contents (Elt F) → (⟨S16x64, .f32⟩ : BufTy).Contents (Elt F)),
    StableHlo.nullary main_cst_65 (constant S_ .f32 0x40000000#32),
    StableHlo.unary main_cst_65 main_v242 (broadcastInDim S16x64 ![] bcast_S_S16x64 : (⟨S_, .f32⟩ : BufTy).Contents (Elt F) → (⟨S16x64, .f32⟩ : BufTy).Contents (Elt F)),
    StableHlo.binary main_v13 main_v242 main_v243 (Host.divf : (⟨S16x64, .f32⟩ : BufTy).Contents (Elt F) → (⟨S16x64, .f32⟩ : BufTy).Contents (Elt F) → (⟨S16x64, .f32⟩ : BufTy).Contents (Elt F)),
    StableHlo.binary main_v9 main_v243 main_v244 (addf : (⟨S16x64, .f32⟩ : BufTy).Contents (Elt F) → (⟨S16x64, .f32⟩ : BufTy).Contents (Elt F) → (⟨S16x64, .f32⟩ : BufTy).Contents (Elt F)),
    StableHlo.nullary main_cst_66 (constant S_ .f32 0x43000000#32) ]

/-- Operations 318 … 327. -/
abbrev kops33 : List (HloOp τ sig (Elt F)) :=
  [ StableHlo.unary main_cst_66 main_v245 (broadcastInDim S16x64 ![] bcast_S_S16x64 : (⟨S_, .f32⟩ : BufTy).Contents (Elt F) → (⟨S16x64, .f32⟩ : BufTy).Contents (Elt F)),
    StableHlo.binary main_v244 main_v245 main_v246 (mulf : (⟨S16x64, .f32⟩ : BufTy).Contents (Elt F) → (⟨S16x64, .f32⟩ : BufTy).Contents (Elt F) → (⟨S16x64, .f32⟩ : BufTy).Contents (Elt F)),
    StableHlo.nullary main_cst_67 (constant S_ .f32 0x40000000#32),
    StableHlo.unary main_cst_67 main_v247 (broadcastInDim S16x64 ![] bcast_S_S16x64 : (⟨S_, .f32⟩ : BufTy).Contents (Elt F) → (⟨S16x64, .f32⟩ : BufTy).Contents (Elt F)),
    StableHlo.binary main_v15 main_v247 main_v248 (Host.divf : (⟨S16x64, .f32⟩ : BufTy).Contents (Elt F) → (⟨S16x64, .f32⟩ : BufTy).Contents (Elt F) → (⟨S16x64, .f32⟩ : BufTy).Contents (Elt F)),
    StableHlo.binary main_v11 main_v248 main_v249 (addf : (⟨S16x64, .f32⟩ : BufTy).Contents (Elt F) → (⟨S16x64, .f32⟩ : BufTy).Contents (Elt F) → (⟨S16x64, .f32⟩ : BufTy).Contents (Elt F)),
    StableHlo.nullary main_cst_68 (constant S_ .f32 0x43000000#32),
    StableHlo.unary main_cst_68 main_v250 (broadcastInDim S16x64 ![] bcast_S_S16x64 : (⟨S_, .f32⟩ : BufTy).Contents (Elt F) → (⟨S16x64, .f32⟩ : BufTy).Contents (Elt F)),
    StableHlo.binary main_v249 main_v250 main_v251 (mulf : (⟨S16x64, .f32⟩ : BufTy).Contents (Elt F) → (⟨S16x64, .f32⟩ : BufTy).Contents (Elt F) → (⟨S16x64, .f32⟩ : BufTy).Contents (Elt F)),
    StableHlo.unary main_v236 main_v252 (broadcastInDim S16x64x1 ![0, 1] bcast_S16x64_S16x64x1_0_1 : (⟨S16x64, .f32⟩ : BufTy).Contents (Elt F) → (⟨S16x64x1, .f32⟩ : BufTy).Contents (Elt F)) ]

/-- Operations 328 … 330. -/
abbrev kops34 : List (HloOp τ sig (Elt F)) :=
  [ StableHlo.unary main_v241 main_v253 (broadcastInDim S16x64x1 ![0, 1] bcast_S16x64_S16x64x1_0_1 : (⟨S16x64, .f32⟩ : BufTy).Contents (Elt F) → (⟨S16x64x1, .f32⟩ : BufTy).Contents (Elt F)),
    StableHlo.unary main_v246 main_v254 (broadcastInDim S16x64x1 ![0, 1] bcast_S16x64_S16x64x1_0_1 : (⟨S16x64, .f32⟩ : BufTy).Contents (Elt F) → (⟨S16x64x1, .f32⟩ : BufTy).Contents (Elt F)),
    StableHlo.unary main_v251 main_v255 (broadcastInDim S16x64x1 ![0, 1] bcast_S16x64_S16x64x1_0_1 : (⟨S16x64, .f32⟩ : BufTy).Contents (Elt F) → (⟨S16x64x1, .f32⟩ : BufTy).Contents (Elt F)) ]

/-- Operations 331 … 340. -/
abbrev kops35 : List (HloOp τ sig (Elt F)) :=
  [ StableHlo.nary ![main_v252, main_v253, main_v254, main_v255] main_v256 (fun u => concatenate S16x64x4 2 [⟨S16x64x1, u 0⟩, ⟨S16x64x1, u 1⟩, ⟨S16x64x1, u 2⟩, ⟨S16x64x1, u 3⟩] concatenates_S16x64x1_S16x64x1_S16x64x1_S16x64x1_S16x64x4_d2),
    StableHlo.unary main_v231 main_v257 ((extractStridedSlice S16x64x1 ![0, 0, 0] · slices_S16x64x4_S16x64x1_0_0_0) : (⟨S16x64x4, .f32⟩ : BufTy).Contents (Elt F) → (⟨S16x64x1, .f32⟩ : BufTy).Contents (Elt F)),
    StableHlo.reshape main_v257 main_v258 rfl shapeCasts_S16x64x1_S16x64,
    StableHlo.unary main_v256 main_v259 ((extractStridedSlice S16x64x1 ![0, 0, 0] · slices_S16x64x4_S16x64x1_0_0_0) : (⟨S16x64x4, .f32⟩ : BufTy).Contents (Elt F) → (⟨S16x64x1, .f32⟩ : BufTy).Contents (Elt F)),
    StableHlo.reshape main_v259 main_v260 rfl shapeCasts_S16x64x1_S16x64,
    StableHlo.binary main_v258 main_v260 main_v261 (maximumf : (⟨S16x64, .f32⟩ : BufTy).Contents (Elt F) → (⟨S16x64, .f32⟩ : BufTy).Contents (Elt F) → (⟨S16x64, .f32⟩ : BufTy).Contents (Elt F)),
    StableHlo.unary main_v231 main_v262 ((extractStridedSlice S16x64x1 ![0, 0, 1] · slices_S16x64x4_S16x64x1_0_0_1) : (⟨S16x64x4, .f32⟩ : BufTy).Contents (Elt F) → (⟨S16x64x1, .f32⟩ : BufTy).Contents (Elt F)),
    StableHlo.reshape main_v262 main_v263 rfl shapeCasts_S16x64x1_S16x64,
    StableHlo.unary main_v256 main_v264 ((extractStridedSlice S16x64x1 ![0, 0, 1] · slices_S16x64x4_S16x64x1_0_0_1) : (⟨S16x64x4, .f32⟩ : BufTy).Contents (Elt F) → (⟨S16x64x1, .f32⟩ : BufTy).Contents (Elt F)),
    StableHlo.reshape main_v264 main_v265 rfl shapeCasts_S16x64x1_S16x64 ]

/-- Operations 341 … 350. -/
abbrev kops36 : List (HloOp τ sig (Elt F)) :=
  [ StableHlo.binary main_v263 main_v265 main_v266 (maximumf : (⟨S16x64, .f32⟩ : BufTy).Contents (Elt F) → (⟨S16x64, .f32⟩ : BufTy).Contents (Elt F) → (⟨S16x64, .f32⟩ : BufTy).Contents (Elt F)),
    StableHlo.unary main_v231 main_v267 ((extractStridedSlice S16x64x1 ![0, 0, 2] · slices_S16x64x4_S16x64x1_0_0_2) : (⟨S16x64x4, .f32⟩ : BufTy).Contents (Elt F) → (⟨S16x64x1, .f32⟩ : BufTy).Contents (Elt F)),
    StableHlo.reshape main_v267 main_v268 rfl shapeCasts_S16x64x1_S16x64,
    StableHlo.unary main_v256 main_v269 ((extractStridedSlice S16x64x1 ![0, 0, 2] · slices_S16x64x4_S16x64x1_0_0_2) : (⟨S16x64x4, .f32⟩ : BufTy).Contents (Elt F) → (⟨S16x64x1, .f32⟩ : BufTy).Contents (Elt F)),
    StableHlo.reshape main_v269 main_v270 rfl shapeCasts_S16x64x1_S16x64,
    StableHlo.binary main_v268 main_v270 main_v271 (minimumf : (⟨S16x64, .f32⟩ : BufTy).Contents (Elt F) → (⟨S16x64, .f32⟩ : BufTy).Contents (Elt F) → (⟨S16x64, .f32⟩ : BufTy).Contents (Elt F)),
    StableHlo.unary main_v231 main_v272 ((extractStridedSlice S16x64x1 ![0, 0, 3] · slices_S16x64x4_S16x64x1_0_0_3) : (⟨S16x64x4, .f32⟩ : BufTy).Contents (Elt F) → (⟨S16x64x1, .f32⟩ : BufTy).Contents (Elt F)),
    StableHlo.reshape main_v272 main_v273 rfl shapeCasts_S16x64x1_S16x64,
    StableHlo.unary main_v256 main_v274 ((extractStridedSlice S16x64x1 ![0, 0, 3] · slices_S16x64x4_S16x64x1_0_0_3) : (⟨S16x64x4, .f32⟩ : BufTy).Contents (Elt F) → (⟨S16x64x1, .f32⟩ : BufTy).Contents (Elt F)),
    StableHlo.reshape main_v274 main_v275 rfl shapeCasts_S16x64x1_S16x64 ]

/-- Operations 351 … 360. -/
abbrev kops37 : List (HloOp τ sig (Elt F)) :=
  [ StableHlo.binary main_v273 main_v275 main_v276 (minimumf : (⟨S16x64, .f32⟩ : BufTy).Contents (Elt F) → (⟨S16x64, .f32⟩ : BufTy).Contents (Elt F) → (⟨S16x64, .f32⟩ : BufTy).Contents (Elt F)),
    StableHlo.binary main_v271 main_v261 main_v277 (subf : (⟨S16x64, .f32⟩ : BufTy).Contents (Elt F) → (⟨S16x64, .f32⟩ : BufTy).Contents (Elt F) → (⟨S16x64, .f32⟩ : BufTy).Contents (Elt F)),
    StableHlo.nullary main_c_69 (constantI S_ 32 0#32),
    StableHlo.TRef.unary (.of main_c_69 : StableHlo.TRef sig ⟨S_, .i32⟩) (.of main_call2_v0 : StableHlo.TRef sig ⟨S_, .f32⟩) (sitofp .f32),
    StableHlo.TRef.unary (.of main_call2_v0 : StableHlo.TRef sig ⟨S_, .f32⟩) (.of main_call2_v1 : StableHlo.TRef sig ⟨S16x64, .f32⟩) (broadcastInDim S16x64 ![] bcast_S_S16x64),
    StableHlo.TRef.binary (.of main_call2_v1 : StableHlo.TRef sig ⟨S16x64, .f32⟩) (.of main_v277 : StableHlo.TRef sig ⟨S16x64, .f32⟩) (.of main_v278 : StableHlo.TRef sig ⟨S16x64, .f32⟩) maximumf,
    StableHlo.binary main_v276 main_v266 main_v279 (subf : (⟨S16x64, .f32⟩ : BufTy).Contents (Elt F) → (⟨S16x64, .f32⟩ : BufTy).Contents (Elt F) → (⟨S16x64, .f32⟩ : BufTy).Contents (Elt F)),
    StableHlo.nullary main_c_70 (constantI S_ 32 0#32),
    StableHlo.TRef.unary (.of main_c_70 : StableHlo.TRef sig ⟨S_, .i32⟩) (.of main_call3_v0 : StableHlo.TRef sig ⟨S_, .f32⟩) (sitofp .f32),
    StableHlo.TRef.unary (.of main_call3_v0 : StableHlo.TRef sig ⟨S_, .f32⟩) (.of main_call3_v1 : StableHlo.TRef sig ⟨S16x64, .f32⟩) (broadcastInDim S16x64 ![] bcast_S_S16x64) ]

/-- Operations 361 … 370. -/
abbrev kops38 : List (HloOp τ sig (Elt F)) :=
  [ StableHlo.TRef.binary (.of main_call3_v1 : StableHlo.TRef sig ⟨S16x64, .f32⟩) (.of main_v279 : StableHlo.TRef sig ⟨S16x64, .f32⟩) (.of main_v280 : StableHlo.TRef sig ⟨S16x64, .f32⟩) maximumf,
    StableHlo.binary main_v278 main_v280 main_v281 (mulf : (⟨S16x64, .f32⟩ : BufTy).Contents (Elt F) → (⟨S16x64, .f32⟩ : BufTy).Contents (Elt F) → (⟨S16x64, .f32⟩ : BufTy).Contents (Elt F)),
    StableHlo.unary main_v231 main_v282 ((extractStridedSlice S16x64x1 ![0, 0, 2] · slices_S16x64x4_S16x64x1_0_0_2) : (⟨S16x64x4, .f32⟩ : BufTy).Contents (Elt F) → (⟨S16x64x1, .f32⟩ : BufTy).Contents (Elt F)),
    StableHlo.reshape main_v282 main_v283 rfl shapeCasts_S16x64x1_S16x64,
    StableHlo.unary main_v231 main_v284 ((extractStridedSlice S16x64x1 ![0, 0, 0] · slices_S16x64x4_S16x64x1_0_0_0) : (⟨S16x64x4, .f32⟩ : BufTy).Contents (Elt F) → (⟨S16x64x1, .f32⟩ : BufTy).Contents (Elt F)),
    StableHlo.reshape main_v284 main_v285 rfl shapeCasts_S16x64x1_S16x64,
    StableHlo.binary main_v283 main_v285 main_v286 (subf : (⟨S16x64, .f32⟩ : BufTy).Contents (Elt F) → (⟨S16x64, .f32⟩ : BufTy).Contents (Elt F) → (⟨S16x64, .f32⟩ : BufTy).Contents (Elt F)),
    StableHlo.unary main_v231 main_v287 ((extractStridedSlice S16x64x1 ![0, 0, 3] · slices_S16x64x4_S16x64x1_0_0_3) : (⟨S16x64x4, .f32⟩ : BufTy).Contents (Elt F) → (⟨S16x64x1, .f32⟩ : BufTy).Contents (Elt F)),
    StableHlo.reshape main_v287 main_v288 rfl shapeCasts_S16x64x1_S16x64,
    StableHlo.unary main_v231 main_v289 ((extractStridedSlice S16x64x1 ![0, 0, 1] · slices_S16x64x4_S16x64x1_0_0_1) : (⟨S16x64x4, .f32⟩ : BufTy).Contents (Elt F) → (⟨S16x64x1, .f32⟩ : BufTy).Contents (Elt F)) ]

/-- Operations 371 … 380. -/
abbrev kops39 : List (HloOp τ sig (Elt F)) :=
  [ StableHlo.reshape main_v289 main_v290 rfl shapeCasts_S16x64x1_S16x64,
    StableHlo.binary main_v288 main_v290 main_v291 (subf : (⟨S16x64, .f32⟩ : BufTy).Contents (Elt F) → (⟨S16x64, .f32⟩ : BufTy).Contents (Elt F) → (⟨S16x64, .f32⟩ : BufTy).Contents (Elt F)),
    StableHlo.binary main_v286 main_v291 main_v292 (mulf : (⟨S16x64, .f32⟩ : BufTy).Contents (Elt F) → (⟨S16x64, .f32⟩ : BufTy).Contents (Elt F) → (⟨S16x64, .f32⟩ : BufTy).Contents (Elt F)),
    StableHlo.unary main_v256 main_v293 ((extractStridedSlice S16x64x1 ![0, 0, 2] · slices_S16x64x4_S16x64x1_0_0_2) : (⟨S16x64x4, .f32⟩ : BufTy).Contents (Elt F) → (⟨S16x64x1, .f32⟩ : BufTy).Contents (Elt F)),
    StableHlo.reshape main_v293 main_v294 rfl shapeCasts_S16x64x1_S16x64,
    StableHlo.unary main_v256 main_v295 ((extractStridedSlice S16x64x1 ![0, 0, 0] · slices_S16x64x4_S16x64x1_0_0_0) : (⟨S16x64x4, .f32⟩ : BufTy).Contents (Elt F) → (⟨S16x64x1, .f32⟩ : BufTy).Contents (Elt F)),
    StableHlo.reshape main_v295 main_v296 rfl shapeCasts_S16x64x1_S16x64,
    StableHlo.binary main_v294 main_v296 main_v297 (subf : (⟨S16x64, .f32⟩ : BufTy).Contents (Elt F) → (⟨S16x64, .f32⟩ : BufTy).Contents (Elt F) → (⟨S16x64, .f32⟩ : BufTy).Contents (Elt F)),
    StableHlo.unary main_v256 main_v298 ((extractStridedSlice S16x64x1 ![0, 0, 3] · slices_S16x64x4_S16x64x1_0_0_3) : (⟨S16x64x4, .f32⟩ : BufTy).Contents (Elt F) → (⟨S16x64x1, .f32⟩ : BufTy).Contents (Elt F)),
    StableHlo.reshape main_v298 main_v299 rfl shapeCasts_S16x64x1_S16x64 ]

/-- Operations 381 … 390. -/
abbrev kops40 : List (HloOp τ sig (Elt F)) :=
  [ StableHlo.unary main_v256 main_v300 ((extractStridedSlice S16x64x1 ![0, 0, 1] · slices_S16x64x4_S16x64x1_0_0_1) : (⟨S16x64x4, .f32⟩ : BufTy).Contents (Elt F) → (⟨S16x64x1, .f32⟩ : BufTy).Contents (Elt F)),
    StableHlo.reshape main_v300 main_v301 rfl shapeCasts_S16x64x1_S16x64,
    StableHlo.binary main_v299 main_v301 main_v302 (subf : (⟨S16x64, .f32⟩ : BufTy).Contents (Elt F) → (⟨S16x64, .f32⟩ : BufTy).Contents (Elt F) → (⟨S16x64, .f32⟩ : BufTy).Contents (Elt F)),
    StableHlo.binary main_v297 main_v302 main_v303 (mulf : (⟨S16x64, .f32⟩ : BufTy).Contents (Elt F) → (⟨S16x64, .f32⟩ : BufTy).Contents (Elt F) → (⟨S16x64, .f32⟩ : BufTy).Contents (Elt F)),
    StableHlo.binary main_v292 main_v303 main_v304 (addf : (⟨S16x64, .f32⟩ : BufTy).Contents (Elt F) → (⟨S16x64, .f32⟩ : BufTy).Contents (Elt F) → (⟨S16x64, .f32⟩ : BufTy).Contents (Elt F)),
    StableHlo.binary main_v304 main_v281 main_v305 (subf : (⟨S16x64, .f32⟩ : BufTy).Contents (Elt F) → (⟨S16x64, .f32⟩ : BufTy).Contents (Elt F) → (⟨S16x64, .f32⟩ : BufTy).Contents (Elt F)),
    StableHlo.nullary main_cst_71 (constant S_ .f32 0x33D6BF95#32),
    StableHlo.unary main_cst_71 main_v306 (broadcastInDim S16x64 ![] bcast_S_S16x64 : (⟨S_, .f32⟩ : BufTy).Contents (Elt F) → (⟨S16x64, .f32⟩ : BufTy).Contents (Elt F)),
    StableHlo.binary main_v305 main_v306 main_v307 (addf : (⟨S16x64, .f32⟩ : BufTy).Contents (Elt F) → (⟨S16x64, .f32⟩ : BufTy).Contents (Elt F) → (⟨S16x64, .f32⟩ : BufTy).Contents (Elt F)),
    StableHlo.binary main_v281 main_v307 main_v308 (Host.divf : (⟨S16x64, .f32⟩ : BufTy).Contents (Elt F) → (⟨S16x64, .f32⟩ : BufTy).Contents (Elt F) → (⟨S16x64, .f32⟩ : BufTy).Contents (Elt F)) ]

/-- Operations 391 … 400. -/
abbrev kops41 : List (HloOp τ sig (Elt F)) :=
  [ StableHlo.nullary main_cst_72 (constant S_ .f32 0x3F800000#32),
    StableHlo.unary main_cst_72 main_v309 (broadcastInDim S16x64 ![] bcast_S_S16x64 : (⟨S_, .f32⟩ : BufTy).Contents (Elt F) → (⟨S16x64, .f32⟩ : BufTy).Contents (Elt F)),
    StableHlo.binary main_v309 main_v308 main_v310 (subf : (⟨S16x64, .f32⟩ : BufTy).Contents (Elt F) → (⟨S16x64, .f32⟩ : BufTy).Contents (Elt F) → (⟨S16x64, .f32⟩ : BufTy).Contents (Elt F)),
    StableHlo.nullary main_cst_73 (constant S_ .f32 0x00000000#32),
    StableHlo.binary main_v310 main_cst_73 main_v311 ((fun x v => Host.reduceAdd x v reducesTo_S16x64_S_d0_1 h_S_) : (⟨S16x64, .f32⟩ : BufTy).Contents (Elt F) → (⟨S_, .f32⟩ : BufTy).Contents (Elt F) → (⟨S_, .f32⟩ : BufTy).Contents (Elt F)),
    StableHlo.nullary main_cst_74 (constant S_ .f32 0x3D4CCCCD#32),
    StableHlo.binary main_cst_74 main_v311 main_v312 (mulf : (⟨S_, .f32⟩ : BufTy).Contents (Elt F) → (⟨S_, .f32⟩ : BufTy).Contents (Elt F) → (⟨S_, .f32⟩ : BufTy).Contents (Elt F)),
    StableHlo.nullary main_cst_75 (constant S_ .f32 0x3F800000#32),
    StableHlo.binary main_cst_75 main_v212 main_v313 (mulf : (⟨S_, .f32⟩ : BufTy).Contents (Elt F) → (⟨S_, .f32⟩ : BufTy).Contents (Elt F) → (⟨S_, .f32⟩ : BufTy).Contents (Elt F)),
    StableHlo.binary main_v312 main_v313 main_v314 (addf : (⟨S_, .f32⟩ : BufTy).Contents (Elt F) → (⟨S_, .f32⟩ : BufTy).Contents (Elt F) → (⟨S_, .f32⟩ : BufTy).Contents (Elt F)) ]

/-- Operations 401 … 403. -/
abbrev kops42 : List (HloOp τ sig (Elt F)) :=
  [ StableHlo.nullary main_cst_76 (constant S_ .f32 0x3F000000#32),
    StableHlo.binary main_cst_76 main_v214 main_v315 (mulf : (⟨S_, .f32⟩ : BufTy).Contents (Elt F) → (⟨S_, .f32⟩ : BufTy).Contents (Elt F) → (⟨S_, .f32⟩ : BufTy).Contents (Elt F)),
    StableHlo.binary main_v314 main_v315 main_v316 (addf : (⟨S_, .f32⟩ : BufTy).Contents (Elt F) → (⟨S_, .f32⟩ : BufTy).Contents (Elt F) → (⟨S_, .f32⟩ : BufTy).Contents (Elt F)) ]

set_option maxHeartbeats 0 in
/-- The chunks, in order, are the launch module's stretches, in order. -/
theorem tail_flatten : List.flatten ([main_part0_ops0, main_part1_ops0, main_part2_ops0, main_part3_ops0, main_part3_ops1, main_part3_ops2, main_part4_ops0, main_part4_ops1, main_part4_ops2, main_part5_ops0, main_part5_ops1, main_part5_ops2, main_part5_ops3, main_part5_ops4, main_part6_ops0] : List (List (HloOp τ sig (Elt F)))) = kops0 ++ (kops1 ++ (kops2 ++ (kops3 ++ (kops4 ++ (kops5 ++ (kops6 ++ (kops7 ++ (kops8 ++ (kops9 ++ (kops10 ++ (kops11 ++ (kops12 ++ (kops13 ++ (kops14 ++ (kops15 ++ (kops16 ++ (kops17 ++ (kops18 ++ (kops19 ++ (kops20 ++ (kops21 ++ (kops22 ++ (kops23 ++ (kops24 ++ (kops25 ++ (kops26 ++ (kops27 ++ (kops28 ++ (kops29 ++ (kops30 ++ (kops31 ++ (kops32 ++ (kops33 ++ (kops34 ++ (kops35 ++ (kops36 ++ (kops37 ++ (kops38 ++ (kops39 ++ (kops40 ++ (kops41 ++ (kops42)))))))))))))))))))))))))))))))))))))))))) := rfl

end Cert.KernelIdeal.Tail

end
-- ==== Proof.LibNaryResult.lean ====
/-
  A host operation over a literal family of references, read at its result.

  `StableHlo.nary xs y f` writes `f` of the family of its operands' contents into `y`.  Its general result
  lemma states the family as `fun k => F ↑(xs k)`; for a LITERAL family `![a, b, c]` the lemmas below state it
  as `Fin.cons (F ↑a) (Fin.cons (F ↑b) …)` instead — each operand's contents at its own reference —, which is what
  lets a rewriting pass over a line of operations go on into the operands (a concatenate of three, five or nine
  computed pieces).  The library has this form for four references (`nary4_result`); these are the same statement
  and proof at three, five and nine.
-/
import Idealize.ShloMosaic.Lib.StableHlo.Run

noncomputable section

namespace Idealize.ShloMosaic.StableHlo

variable {nD : Nat} {τ : Topo} {sig : RefSig} {Val : EltTy → Type}
variable {x a b c e g h i j y : Ref sig .tc}

/-- `nary` over a LITERAL family of 3 references: the result with each operand's contents at its own reference, so that
    a pass over the operations' results goes on rewriting the operands' contents (under the binder of `nary_result` the
    reference `![x, a, b] k` is no literal and no result lemma applies to it). -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl
/-- The same with the result reference un-indexed, for `simp`. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- `nary` over a LITERAL family of 5 references: the result with each operand's contents at its own reference, so that
    a pass over the operations' results goes on rewriting the operands' contents (under the binder of `nary_result` the
    reference `![x, a, b, c, e] k` is no literal and no result lemma applies to it). -/
theorem nary5_result
    (f : ((k : Fin 5) → ((![x, a, b, c, e] : Fin 5 → Ref sig .tc) k).ty.Contents Val) → y.ty.Contents Val) (hxs hy)
    (F : Valuation τ sig Val) :
    (nary (τ := τ) ![x, a, b, c, e] y f hxs hy).result F (Proc.devRef .tc y)
      = f (Fin.cons (F (Proc.devRef .tc x)) (Fin.cons (F (Proc.devRef .tc a)) (Fin.cons (F (Proc.devRef .tc b)) (Fin.cons (F (Proc.devRef .tc c)) (Fin.cons (F (Proc.devRef .tc e)) (fun i => i.elim0)))))) := by
  rw [nary_result]; congr 1; funext k; fin_cases k <;> rfl
/-- The same with the result reference un-indexed, for `simp`. -/
theorem nary5_result'
    (f : ((k : Fin 5) → ((![x, a, b, c, e] : Fin 5 → Ref sig .tc) k).ty.Contents Val) → y.ty.Contents Val) (hxs hy)
    (F : Valuation τ sig Val) :
    (nary (τ := τ) ![x, a, b, c, e] y f hxs hy).result F (no_index (Proc.devRef .tc y))
      = f (Fin.cons (F (Proc.devRef .tc x)) (Fin.cons (F (Proc.devRef .tc a)) (Fin.cons (F (Proc.devRef .tc b)) (Fin.cons (F (Proc.devRef .tc c)) (Fin.cons (F (Proc.devRef .tc e)) (fun i => i.elim0)))))) :=
  nary5_result f hxs hy F

/-- `nary` over a LITERAL family of 9 references: the result with each operand's contents at its own reference, so that
    a pass over the operations' results goes on rewriting the operands' contents (under the binder of `nary_result` the
    reference `![x, a, b, c, e, g, h, i, j] k` is no literal and no result lemma applies to it). -/
theorem nary9_result
    (f : ((k : Fin 9) → ((![x, a, b, c, e, g, h, i, j] : Fin 9 → Ref sig .tc) k).ty.Contents Val) → y.ty.Contents Val) (hxs hy)
    (F : Valuation τ sig Val) :
    (nary (τ := τ) ![x, a, b, c, e, g, h, i, j] y f hxs hy).result F (Proc.devRef .tc y)
      = f (Fin.cons (F (Proc.devRef .tc x)) (Fin.cons (F (Proc.devRef .tc a)) (Fin.cons (F (Proc.devRef .tc b)) (Fin.cons (F (Proc.devRef .tc c)) (Fin.cons (F (Proc.devRef .tc e)) (Fin.cons (F (Proc.devRef .tc g)) (Fin.cons (F (Proc.devRef .tc h)) (Fin.cons (F (Proc.devRef .tc i)) (Fin.cons (F (Proc.devRef .tc j)) (fun i => i.elim0)))))))))) := by
  rw [nary_result]; congr 1; funext k; fin_cases k <;> rfl
/-- The same with the result reference un-indexed, for `simp`. -/
theorem nary9_result'
    (f : ((k : Fin 9) → ((![x, a, b, c, e, g, h, i, j] : Fin 9 → Ref sig .tc) k).ty.Contents Val) → y.ty.Contents Val) (hxs hy)
    (F : Valuation τ sig Val) :
    (nary (τ := τ) ![x, a, b, c, e, g, h, i, j] y f hxs hy).result F (no_index (Proc.devRef .tc y))
      = f (Fin.cons (F (Proc.devRef .tc x)) (Fin.cons (F (Proc.devRef .tc a)) (Fin.cons (F (Proc.devRef .tc b)) (Fin.cons (F (Proc.devRef .tc c)) (Fin.cons (F (Proc.devRef .tc e)) (Fin.cons (F (Proc.devRef .tc g)) (Fin.cons (F (Proc.devRef .tc h)) (Fin.cons (F (Proc.devRef .tc i)) (Fin.cons (F (Proc.devRef .tc j)) (fun i => i.elim0)))))))))) :=
  nary9_result f hxs hy F

end Idealize.ShloMosaic.StableHlo

end
-- ==== Proof.LibReadStretch.lean ====
/-
  Reading a short stretch of host operations.

  `StableHlo.nary xs y f` writes `f` of the family of its operands' contents into `y`; for a LITERAL family of two
  references the result is stated here with each operand's contents at its own reference (the library has this form at
  four references, and at three, five and nine in a sibling file), so that a rewriting pass goes on into the operands.
  `read_stretch` is one rewriting pass over a goal about `StableHlo.after` of a literal stretch: it unfolds the fold and
  rewrites each operation's result at its own buffer to its function's value and at any other buffer to what was there
  (two references told apart by deciding), with the literal-family forms of `nary` only — never the general form, which
  leaves the operands under a binder.
-/
import Idealize.ShloMosaic.Lib.StableHlo.Run
import proofs.«175006_j89550068121905_1_alg».proof.Proof.LibNaryResult

noncomputable section

namespace Idealize.ShloMosaic.StableHlo

variable {nD : Nat} {τ : Topo} {sig : RefSig} {Val : EltTy → Type}
variable {x a y : Ref sig .tc}

/-- `nary` over a LITERAL family of 2 references: the result with each operand's contents at its own reference. -/
theorem nary2_result
    (f : ((k : Fin 2) → ((![x, a] : Fin 2 → Ref sig .tc) k).ty.Contents Val) → y.ty.Contents Val) (hxs hy)
    (F : Valuation τ sig Val) :
    (nary (τ := τ) ![x, a] y f hxs hy).result F (Proc.devRef .tc y)
      = f (Fin.cons (F (Proc.devRef .tc x)) (Fin.cons (F (Proc.devRef .tc a)) (fun i => i.elim0))) := by
  rw [nary_result]; congr 1; funext k; fin_cases k <;> rfl
/-- The same with the result reference un-indexed, for `simp`. -/
theorem nary2_result'
    (f : ((k : Fin 2) → ((![x, a] : Fin 2 → Ref sig .tc) k).ty.Contents Val) → y.ty.Contents Val) (hxs hy)
    (F : Valuation τ sig Val) :
    (nary (τ := τ) ![x, a] y f hxs hy).result F (no_index (Proc.devRef .tc y))
      = f (Fin.cons (F (Proc.devRef .tc x)) (Fin.cons (F (Proc.devRef .tc a)) (fun i => i.elim0))) :=
  nary2_result f hxs hy F

end Idealize.ShloMosaic.StableHlo

open Idealize.ShloMosaic.StableHlo in
/-- One rewriting pass over a literal stretch's fold (see the header). -/
macro "read_stretch" : tactic =>
  `(tactic| (simp (disch := decide) only [after_cons, after_nil,
      nullary_result', unary_result', binary_result', ternary_result', quaternary_result', reshape_result',
      nary2_result', nary3_result', nary4_result',
      nullary_result_ne', unary_result_ne', binary_result_ne', ternary_result_ne', quaternary_result_ne', reshape_result_ne',
      nary_result_ne']))

end
-- ==== Proof.LibReadStretchRw.lean ====
/-
  Reading a short stretch of host operations, second pass.  Where an operation's function places its operands inside a
  list of shaped pieces (a concatenate printed as a binary or ternary operation), a simplifier pass stops at the list;
  `read_stretch_rw` goes on inside it by plain rewriting: each operation's result at its own buffer is its function's
  value, and at any other buffer what was there (two references told apart by deciding).
-/
import proofs.«175006_j89550068121905_1_alg».proof.Proof.LibReadStretch

open Idealize.ShloMosaic.StableHlo in
/-- The rewriting pass (see the header): repeats until no operation's result is left to read. -/
macro "read_stretch_rw" : tactic =>
  `(tactic| repeat (first
      | rw [nullary_result] | rw [unary_result] | rw [binary_result] | rw [ternary_result] | rw [quaternary_result]
      | rw [reshape_result] | rw [nary4_result] | rw [nary3_result] | rw [nary2_result]
      | (rw [nullary_result_ne]; rotate_left; decide)
      | (rw [unary_result_ne]; rotate_left; decide)
      | (rw [binary_result_ne]; rotate_left; decide)
      | (rw [ternary_result_ne]; rotate_left; decide)
      | (rw [quaternary_result_ne]; rotate_left; decide)
      | (rw [reshape_result_ne]; rotate_left; decide)
      | (rw [nary_result_ne]; rotate_left; decide)))
-- ==== Proof.KC.KCut01.lean ====
/- The line of host operations of the kernel program's @main after its region (403 operations, in chunks), stretch by stretch: for each stretch, from the facts that the
   buffers live at its head hold their stages, the buffers live at its end hold theirs (a buffer the stretch writes: its
   operation's function of its operands' stages, which is its stage; a buffer it does not write: what it held); and
   composed over the stretches, the whole line from any contents leaves the result buffer at the last stage. -/
import proofs.«175006_j89550068121905_1_alg».proof.Proof.KTailStages
import proofs.«175006_j89550068121905_1_alg».proof.Proof.KTailOps
import proofs.«175006_j89550068121905_1_alg».proof.Proof.LibReadStretch
import proofs.«175006_j89550068121905_1_alg».proof.Proof.LibReadStretchRw
import Idealize.ShloMosaic.Lib.Pipeline.Frame

set_option maxRecDepth 16384

noncomputable section

namespace Cert.KernelIdeal.Tail

open Cert.KernelIdeal Cert.KernelIdeal.Gen Idealize.ShloMosaic Idealize.ShloMosaic.TcCoe Idealize.SL.Sem Idealize.ShloMosaic.StableHlo

variable {F : FTy → Type} [FloatOps F]

set_option maxHeartbeats 4000000 in
/-- Chunk 1 (`kops0`, 10 operations): 3 buffers live at its head, 7 at its end. -/
theorem cut1 {V : Valuation τ sig (Elt F)} {o : (⟨S1x2, .f32⟩ : BufTy).Contents (Elt F)} {x0 : (⟨S16x85x128x128, .f32⟩ : BufTy).Contents (Elt F)} {x1 : (⟨S16x64x5, .f32⟩ : BufTy).Contents (Elt F)}
    (h_main_v0 : V (Proc.devRef .tc main_v0) = o)
    (h_main_arg0 : V (Proc.devRef .tc main_arg0) = x0)
    (h_main_arg1 : V (Proc.devRef .tc main_arg1) = x1)
    :
    StableHlo.after (kops0 : List (HloOp τ sig (Elt F))) V (Proc.devRef .tc main_arg0) = x0
    ∧ StableHlo.after (kops0 : List (HloOp τ sig (Elt F))) V (Proc.devRef .tc main_arg1) = x1
    ∧ StableHlo.after (kops0 : List (HloOp τ sig (Elt F))) V (Proc.devRef .tc main_v2) = kt_main_v2 (F := F) o x0 x1
    ∧ StableHlo.after (kops0 : List (HloOp τ sig (Elt F))) V (Proc.devRef .tc main_v4) = kt_main_v4 (F := F) o x0 x1
    ∧ StableHlo.after (kops0 : List (HloOp τ sig (Elt F))) V (Proc.devRef .tc main_v7) = kt_main_v7 (F := F) o x0 x1
    ∧ StableHlo.after (kops0 : List (HloOp τ sig (Elt F))) V (Proc.devRef .tc main_v9) = kt_main_v9 (F := F) o x0 x1
    ∧ StableHlo.after (kops0 : List (HloOp τ sig (Elt F))) V (Proc.devRef .tc main_v10) = kt_main_v10 (F := F) o x0 x1 := by
  simp only [kops0]
  read_stretch
  refine ⟨?_, ?_, ?_, ?_, ?_, ?_, ?_⟩
  all_goals (try (simp only [h_main_v0, h_main_arg0, h_main_arg1]; done))
  all_goals (read_stretch_rw; (try simp only [h_main_v0, h_main_arg0, h_main_arg1]); (repeat (first | rw [h_main_v0] | rw [h_main_arg0] | rw [h_main_arg1])); (try rfl))

set_option maxHeartbeats 4000000 in
/-- Chunk 2 (`kops1`, 10 operations): 7 buffers live at its head, 10 at its end. -/
theorem cut2 {V : Valuation τ sig (Elt F)} {o : (⟨S1x2, .f32⟩ : BufTy).Contents (Elt F)} {x0 : (⟨S16x85x128x128, .f32⟩ : BufTy).Contents (Elt F)} {x1 : (⟨S16x64x5, .f32⟩ : BufTy).Contents (Elt F)}
    (h_main_arg0 : V (Proc.devRef .tc main_arg0) = x0)
    (h_main_arg1 : V (Proc.devRef .tc main_arg1) = x1)
    (h_main_v2 : V (Proc.devRef .tc main_v2) = kt_main_v2 (F := F) o x0 x1)
    (h_main_v4 : V (Proc.devRef .tc main_v4) = kt_main_v4 (F := F) o x0 x1)
    (h_main_v7 : V (Proc.devRef .tc main_v7) = kt_main_v7 (F := F) o x0 x1)
    (h_main_v9 : V (Proc.devRef .tc main_v9) = kt_main_v9 (F := F) o x0 x1)
    (h_main_v10 : V (Proc.devRef .tc main_v10) = kt_main_v10 (F := F) o x0 x1)
    :
    StableHlo.after (kops1 : List (HloOp τ sig (Elt F))) V (Proc.devRef .tc main_arg0) = x0
    ∧ StableHlo.after (kops1 : List (HloOp τ sig (Elt F))) V (Proc.devRef .tc main_v2) = kt_main_v2 (F := F) o x0 x1
    ∧ StableHlo.after (kops1 : List (HloOp τ sig (Elt F))) V (Proc.devRef .tc main_v4) = kt_main_v4 (F := F) o x0 x1
    ∧ StableHlo.after (kops1 : List (HloOp τ sig (Elt F))) V (Proc.devRef .tc main_v7) = kt_main_v7 (F := F) o x0 x1
    ∧ StableHlo.after (kops1 : List (HloOp τ sig (Elt F))) V (Proc.devRef .tc main_v9) = kt_main_v9 (F := F) o x0 x1
    ∧ StableHlo.after (kops1 : List (HloOp τ sig (Elt F))) V (Proc.devRef .tc main_v11) = kt_main_v11 (F := F) o x0 x1
    ∧ StableHlo.after (kops1 : List (HloOp τ sig (Elt F))) V (Proc.devRef .tc main_v13) = kt_main_v13 (F := F) o x0 x1
    ∧ StableHlo.after (kops1 : List (HloOp τ sig (Elt F))) V (Proc.devRef .tc main_v15) = kt_main_v15 (F := F) o x0 x1
    ∧ StableHlo.after (kops1 : List (HloOp τ sig (Elt F))) V (Proc.devRef .tc main_v18) = kt_main_v18 (F := F) o x0 x1
    ∧ StableHlo.after (kops1 : List (HloOp τ sig (Elt F))) V (Proc.devRef .tc main_cst_0) = kt_main_cst_0 (F := F) o x0 x1 := by
  simp only [kops1]
  read_stretch
  refine ⟨?_, ?_, ?_, ?_, ?_, ?_, ?_, ?_, ?_, ?_⟩
  all_goals (try (simp only [h_main_arg0, h_main_arg1, h_main_v2, h_main_v4, h_main_v7, h_main_v9, h_main_v10]; done))
  all_goals (read_stretch_rw; (try simp only [h_main_arg0, h_main_arg1, h_main_v2, h_main_v4, h_main_v7, h_main_v9, h_main_v10]); (repeat (first | rw [h_main_arg0] | rw [h_main_arg1] | rw [h_main_v2] | rw [h_main_v4] | rw [h_main_v7] | rw [h_main_v9] | rw [h_main_v10])); (try rfl))

set_option maxHeartbeats 4000000 in
/-- Chunk 3 (`kops2`, 10 operations): 10 buffers live at its head, 12 at its end. -/
theorem cut3 {V : Valuation τ sig (Elt F)} {o : (⟨S1x2, .f32⟩ : BufTy).Contents (Elt F)} {x0 : (⟨S16x85x128x128, .f32⟩ : BufTy).Contents (Elt F)} {x1 : (⟨S16x64x5, .f32⟩ : BufTy).Contents (Elt F)}
    (h_main_arg0 : V (Proc.devRef .tc main_arg0) = x0)
    (h_main_v2 : V (Proc.devRef .tc main_v2) = kt_main_v2 (F := F) o x0 x1)
    (h_main_v4 : V (Proc.devRef .tc main_v4) = kt_main_v4 (F := F) o x0 x1)
    (h_main_v7 : V (Proc.devRef .tc main_v7) = kt_main_v7 (F := F) o x0 x1)
    (h_main_v9 : V (Proc.devRef .tc main_v9) = kt_main_v9 (F := F) o x0 x1)
    (h_main_v11 : V (Proc.devRef .tc main_v11) = kt_main_v11 (F := F) o x0 x1)
    (h_main_v13 : V (Proc.devRef .tc main_v13) = kt_main_v13 (F := F) o x0 x1)
    (h_main_v15 : V (Proc.devRef .tc main_v15) = kt_main_v15 (F := F) o x0 x1)
    (h_main_v18 : V (Proc.devRef .tc main_v18) = kt_main_v18 (F := F) o x0 x1)
    (h_main_cst_0 : V (Proc.devRef .tc main_cst_0) = kt_main_cst_0 (F := F) o x0 x1)
    :
    StableHlo.after (kops2 : List (HloOp τ sig (Elt F))) V (Proc.devRef .tc main_arg0) = x0
    ∧ StableHlo.after (kops2 : List (HloOp τ sig (Elt F))) V (Proc.devRef .tc main_v2) = kt_main_v2 (F := F) o x0 x1
    ∧ StableHlo.after (kops2 : List (HloOp τ sig (Elt F))) V (Proc.devRef .tc main_v4) = kt_main_v4 (F := F) o x0 x1
    ∧ StableHlo.after (kops2 : List (HloOp τ sig (Elt F))) V (Proc.devRef .tc main_v7) = kt_main_v7 (F := F) o x0 x1
    ∧ StableHlo.after (kops2 : List (HloOp τ sig (Elt F))) V (Proc.devRef .tc main_v9) = kt_main_v9 (F := F) o x0 x1
    ∧ StableHlo.after (kops2 : List (HloOp τ sig (Elt F))) V (Proc.devRef .tc main_v11) = kt_main_v11 (F := F) o x0 x1
    ∧ StableHlo.after (kops2 : List (HloOp τ sig (Elt F))) V (Proc.devRef .tc main_v13) = kt_main_v13 (F := F) o x0 x1
    ∧ StableHlo.after (kops2 : List (HloOp τ sig (Elt F))) V (Proc.devRef .tc main_v15) = kt_main_v15 (F := F) o x0 x1
    ∧ StableHlo.after (kops2 : List (HloOp τ sig (Elt F))) V (Proc.devRef .tc main_v18) = kt_main_v18 (F := F) o x0 x1
    ∧ StableHlo.after (kops2 : List (HloOp τ sig (Elt F))) V (Proc.devRef .tc main_v21) = kt_main_v21 (F := F) o x0 x1
    ∧ StableHlo.after (kops2 : List (HloOp τ sig (Elt F))) V (Proc.devRef .tc main_v24) = kt_main_v24 (F := F) o x0 x1
    ∧ StableHlo.after (kops2 : List (HloOp τ sig (Elt F))) V (Proc.devRef .tc main_v27) = kt_main_v27 (F := F) o x0 x1 := by
  simp only [kops2]
  read_stretch
  refine ⟨?_, ?_, ?_, ?_, ?_, ?_, ?_, ?_, ?_, ?_, ?_, ?_⟩
  all_goals (try (simp only [h_main_arg0, h_main_v2, h_main_v4, h_main_v7, h_main_v9, h_main_v11, h_main_v13, h_main_v15, h_main_v18, h_main_cst_0]; done))
  all_goals (read_stretch_rw; (try simp only [h_main_arg0, h_main_v2, h_main_v4, h_main_v7, h_main_v9, h_main_v11, h_main_v13, h_main_v15, h_main_v18, h_main_cst_0]); (repeat (first | rw [h_main_arg0] | rw [h_main_v2] | rw [h_main_v4] | rw [h_main_v7] | rw [h_main_v9] | rw [h_main_v11] | rw [h_main_v13] | rw [h_main_v15] | rw [h_main_v18] | rw [h_main_cst_0])); (try rfl))

set_option maxHeartbeats 4000000 in
/-- Chunk 4 (`kops3`, 10 operations): 12 buffers live at its head, 14 at its end. -/
theorem cut4 {V : Valuation τ sig (Elt F)} {o : (⟨S1x2, .f32⟩ : BufTy).Contents (Elt F)} {x0 : (⟨S16x85x128x128, .f32⟩ : BufTy).Contents (Elt F)} {x1 : (⟨S16x64x5, .f32⟩ : BufTy).Contents (Elt F)}
    (h_main_arg0 : V (Proc.devRef .tc main_arg0) = x0)
    (h_main_v2 : V (Proc.devRef .tc main_v2) = kt_main_v2 (F := F) o x0 x1)
    (h_main_v4 : V (Proc.devRef .tc main_v4) = kt_main_v4 (F := F) o x0 x1)
    (h_main_v7 : V (Proc.devRef .tc main_v7) = kt_main_v7 (F := F) o x0 x1)
    (h_main_v9 : V (Proc.devRef .tc main_v9) = kt_main_v9 (F := F) o x0 x1)
    (h_main_v11 : V (Proc.devRef .tc main_v11) = kt_main_v11 (F := F) o x0 x1)
    (h_main_v13 : V (Proc.devRef .tc main_v13) = kt_main_v13 (F := F) o x0 x1)
    (h_main_v15 : V (Proc.devRef .tc main_v15) = kt_main_v15 (F := F) o x0 x1)
    (h_main_v18 : V (Proc.devRef .tc main_v18) = kt_main_v18 (F := F) o x0 x1)
    (h_main_v21 : V (Proc.devRef .tc main_v21) = kt_main_v21 (F := F) o x0 x1)
    (h_main_v24 : V (Proc.devRef .tc main_v24) = kt_main_v24 (F := F) o x0 x1)
    (h_main_v27 : V (Proc.devRef .tc main_v27) = kt_main_v27 (F := F) o x0 x1)
    :
    StableHlo.after (kops3 : List (HloOp τ sig (Elt F))) V (Proc.devRef .tc main_arg0) = x0
    ∧ StableHlo.after (kops3 : List (HloOp τ sig (Elt F))) V (Proc.devRef .tc main_v2) = kt_main_v2 (F := F) o x0 x1
    ∧ StableHlo.after (kops3 : List (HloOp τ sig (Elt F))) V (Proc.devRef .tc main_v4) = kt_main_v4 (F := F) o x0 x1
    ∧ StableHlo.after (kops3 : List (HloOp τ sig (Elt F))) V (Proc.devRef .tc main_v7) = kt_main_v7 (F := F) o x0 x1
    ∧ StableHlo.after (kops3 : List (HloOp τ sig (Elt F))) V (Proc.devRef .tc main_v9) = kt_main_v9 (F := F) o x0 x1
    ∧ StableHlo.after (kops3 : List (HloOp τ sig (Elt F))) V (Proc.devRef .tc main_v11) = kt_main_v11 (F := F) o x0 x1
    ∧ StableHlo.after (kops3 : List (HloOp τ sig (Elt F))) V (Proc.devRef .tc main_v13) = kt_main_v13 (F := F) o x0 x1
    ∧ StableHlo.after (kops3 : List (HloOp τ sig (Elt F))) V (Proc.devRef .tc main_v15) = kt_main_v15 (F := F) o x0 x1
    ∧ StableHlo.after (kops3 : List (HloOp τ sig (Elt F))) V (Proc.devRef .tc main_v18) = kt_main_v18 (F := F) o x0 x1
    ∧ StableHlo.after (kops3 : List (HloOp τ sig (Elt F))) V (Proc.devRef .tc main_v21) = kt_main_v21 (F := F) o x0 x1
    ∧ StableHlo.after (kops3 : List (HloOp τ sig (Elt F))) V (Proc.devRef .tc main_v24) = kt_main_v24 (F := F) o x0 x1
    ∧ StableHlo.after (kops3 : List (HloOp τ sig (Elt F))) V (Proc.devRef .tc main_v27) = kt_main_v27 (F := F) o x0 x1
    ∧ StableHlo.after (kops3 : List (HloOp τ sig (Elt F))) V (Proc.devRef .tc main_v32) = kt_main_v32 (F := F) o x0 x1
    ∧ StableHlo.after (kops3 : List (HloOp τ sig (Elt F))) V (Proc.devRef .tc main_v34) = kt_main_v34 (F := F) o x0 x1 := by
  simp only [kops3]
  read_stretch
  refine ⟨?_, ?_, ?_, ?_, ?_, ?_, ?_, ?_, ?_, ?_, ?_, ?_, ?_, ?_⟩
  all_goals (try (simp only [h_main_arg0, h_main_v2, h_main_v4, h_main_v7, h_main_v9, h_main_v11, h_main_v13, h_main_v15, h_main_v18, h_main_v21, h_main_v24, h_main_v27]; done))
  all_goals (read_stretch_rw; (try simp only [h_main_arg0, h_main_v2, h_main_v4, h_main_v7, h_main_v9, h_main_v11, h_main_v13, h_main_v15, h_main_v18, h_main_v21, h_main_v24, h_main_v27]); (repeat (first | rw [h_main_arg0] | rw [h_main_v2] | rw [h_main_v4] | rw [h_main_v7] | rw [h_main_v9] | rw [h_main_v11] | rw [h_main_v13] | rw [h_main_v15] | rw [h_main_v18] | rw [h_main_v21] | rw [h_main_v24] | rw [h_main_v27])); (try rfl))

set_option maxHeartbeats 4000000 in
/-- Chunk 5 (`kops4`, 10 operations): 14 buffers live at its head, 16 at its end. -/
theorem cut5 {V : Valuation τ sig (Elt F)} {o : (⟨S1x2, .f32⟩ : BufTy).Contents (Elt F)} {x0 : (⟨S16x85x128x128, .f32⟩ : BufTy).Contents (Elt F)} {x1 : (⟨S16x64x5, .f32⟩ : BufTy).Contents (Elt F)}
    (h_main_arg0 : V (Proc.devRef .tc main_arg0) = x0)
    (h_main_v2 : V (Proc.devRef .tc main_v2) = kt_main_v2 (F := F) o x0 x1)
    (h_main_v4 : V (Proc.devRef .tc main_v4) = kt_main_v4 (F := F) o x0 x1)
    (h_main_v7 : V (Proc.devRef .tc main_v7) = kt_main_v7 (F := F) o x0 x1)
    (h_main_v9 : V (Proc.devRef .tc main_v9) = kt_main_v9 (F := F) o x0 x1)
    (h_main_v11 : V (Proc.devRef .tc main_v11) = kt_main_v11 (F := F) o x0 x1)
    (h_main_v13 : V (Proc.devRef .tc main_v13) = kt_main_v13 (F := F) o x0 x1)
    (h_main_v15 : V (Proc.devRef .tc main_v15) = kt_main_v15 (F := F) o x0 x1)
    (h_main_v18 : V (Proc.devRef .tc main_v18) = kt_main_v18 (F := F) o x0 x1)
    (h_main_v21 : V (Proc.devRef .tc main_v21) = kt_main_v21 (F := F) o x0 x1)
    (h_main_v24 : V (Proc.devRef .tc main_v24) = kt_main_v24 (F := F) o x0 x1)
    (h_main_v27 : V (Proc.devRef .tc main_v27) = kt_main_v27 (F := F) o x0 x1)
    (h_main_v32 : V (Proc.devRef .tc main_v32) = kt_main_v32 (F := F) o x0 x1)
    (h_main_v34 : V (Proc.devRef .tc main_v34) = kt_main_v34 (F := F) o x0 x1)
    :
    StableHlo.after (kops4 : List (HloOp τ sig (Elt F))) V (Proc.devRef .tc main_arg0) = x0
    ∧ StableHlo.after (kops4 : List (HloOp τ sig (Elt F))) V (Proc.devRef .tc main_v2) = kt_main_v2 (F := F) o x0 x1
    ∧ StableHlo.after (kops4 : List (HloOp τ sig (Elt F))) V (Proc.devRef .tc main_v4) = kt_main_v4 (F := F) o x0 x1
    ∧ StableHlo.after (kops4 : List (HloOp τ sig (Elt F))) V (Proc.devRef .tc main_v7) = kt_main_v7 (F := F) o x0 x1
    ∧ StableHlo.after (kops4 : List (HloOp τ sig (Elt F))) V (Proc.devRef .tc main_v9) = kt_main_v9 (F := F) o x0 x1
    ∧ StableHlo.after (kops4 : List (HloOp τ sig (Elt F))) V (Proc.devRef .tc main_v11) = kt_main_v11 (F := F) o x0 x1
    ∧ StableHlo.after (kops4 : List (HloOp τ sig (Elt F))) V (Proc.devRef .tc main_v13) = kt_main_v13 (F := F) o x0 x1
    ∧ StableHlo.after (kops4 : List (HloOp τ sig (Elt F))) V (Proc.devRef .tc main_v15) = kt_main_v15 (F := F) o x0 x1
    ∧ StableHlo.after (kops4 : List (HloOp τ sig (Elt F))) V (Proc.devRef .tc main_v18) = kt_main_v18 (F := F) o x0 x1
    ∧ StableHlo.after (kops4 : List (HloOp τ sig (Elt F))) V (Proc.devRef .tc main_v21) = kt_main_v21 (F := F) o x0 x1
    ∧ StableHlo.after (kops4 : List (HloOp τ sig (Elt F))) V (Proc.devRef .tc main_v24) = kt_main_v24 (F := F) o x0 x1
    ∧ StableHlo.after (kops4 : List (HloOp τ sig (Elt F))) V (Proc.devRef .tc main_v27) = kt_main_v27 (F := F) o x0 x1
    ∧ StableHlo.after (kops4 : List (HloOp τ sig (Elt F))) V (Proc.devRef .tc main_v32) = kt_main_v32 (F := F) o x0 x1
    ∧ StableHlo.after (kops4 : List (HloOp τ sig (Elt F))) V (Proc.devRef .tc main_v37) = kt_main_v37 (F := F) o x0 x1
    ∧ StableHlo.after (kops4 : List (HloOp τ sig (Elt F))) V (Proc.devRef .tc main_v39) = kt_main_v39 (F := F) o x0 x1
    ∧ StableHlo.after (kops4 : List (HloOp τ sig (Elt F))) V (Proc.devRef .tc main_v41) = kt_main_v41 (F := F) o x0 x1 := by
  simp only [kops4]
  read_stretch
  refine ⟨?_, ?_, ?_, ?_, ?_, ?_, ?_, ?_, ?_, ?_, ?_, ?_, ?_, ?_, ?_, ?_⟩
  all_goals (try (simp only [h_main_arg0, h_main_v2, h_main_v4, h_main_v7, h_main_v9, h_main_v11, h_main_v13, h_main_v15, h_main_v18, h_main_v21, h_main_v24, h_main_v27, h_main_v32, h_main_v34]; done))
  all_goals (read_stretch_rw; (try simp only [h_main_arg0, h_main_v2, h_main_v4, h_main_v7, h_main_v9, h_main_v11, h_main_v13, h_main_v15, h_main_v18, h_main_v21, h_main_v24, h_main_v27, h_main_v32, h_main_v34]); (repeat (first | rw [h_main_arg0] | rw [h_main_v2] | rw [h_main_v4] | rw [h_main_v7] | rw [h_main_v9] | rw [h_main_v11] | rw [h_main_v13] | rw [h_main_v15] | rw [h_main_v18] | rw [h_main_v21] | rw [h_main_v24] | rw [h_main_v27] | rw [h_main_v32] | rw [h_main_v34])); (try rfl))

set_option maxHeartbeats 4000000 in
/-- Chunk 6 (`kops5`, 8 operations): 16 buffers live at its head, 16 at its end. -/
theorem cut6 {V : Valuation τ sig (Elt F)} {o : (⟨S1x2, .f32⟩ : BufTy).Contents (Elt F)} {x0 : (⟨S16x85x128x128, .f32⟩ : BufTy).Contents (Elt F)} {x1 : (⟨S16x64x5, .f32⟩ : BufTy).Contents (Elt F)}
    (h_main_arg0 : V (Proc.devRef .tc main_arg0) = x0)
    (h_main_v2 : V (Proc.devRef .tc main_v2) = kt_main_v2 (F := F) o x0 x1)
    (h_main_v4 : V (Proc.devRef .tc main_v4) = kt_main_v4 (F := F) o x0 x1)
    (h_main_v7 : V (Proc.devRef .tc main_v7) = kt_main_v7 (F := F) o x0 x1)
    (h_main_v9 : V (Proc.devRef .tc main_v9) = kt_main_v9 (F := F) o x0 x1)
    (h_main_v11 : V (Proc.devRef .tc main_v11) = kt_main_v11 (F := F) o x0 x1)
    (h_main_v13 : V (Proc.devRef .tc main_v13) = kt_main_v13 (F := F) o x0 x1)
    (h_main_v15 : V (Proc.devRef .tc main_v15) = kt_main_v15 (F := F) o x0 x1)
    (h_main_v18 : V (Proc.devRef .tc main_v18) = kt_main_v18 (F := F) o x0 x1)
    (h_main_v21 : V (Proc.devRef .tc main_v21) = kt_main_v21 (F := F) o x0 x1)
    (h_main_v24 : V (Proc.devRef .tc main_v24) = kt_main_v24 (F := F) o x0 x1)
    (h_main_v27 : V (Proc.devRef .tc main_v27) = kt_main_v27 (F := F) o x0 x1)
    (h_main_v32 : V (Proc.devRef .tc main_v32) = kt_main_v32 (F := F) o x0 x1)
    (h_main_v37 : V (Proc.devRef .tc main_v37) = kt_main_v37 (F := F) o x0 x1)
    (h_main_v39 : V (Proc.devRef .tc main_v39) = kt_main_v39 (F := F) o x0 x1)
    (h_main_v41 : V (Proc.devRef .tc main_v41) = kt_main_v41 (F := F) o x0 x1)
    :
    StableHlo.after (kops5 : List (HloOp τ sig (Elt F))) V (Proc.devRef .tc main_arg0) = x0
    ∧ StableHlo.after (kops5 : List (HloOp τ sig (Elt F))) V (Proc.devRef .tc main_v2) = kt_main_v2 (F := F) o x0 x1
    ∧ StableHlo.after (kops5 : List (HloOp τ sig (Elt F))) V (Proc.devRef .tc main_v4) = kt_main_v4 (F := F) o x0 x1
    ∧ StableHlo.after (kops5 : List (HloOp τ sig (Elt F))) V (Proc.devRef .tc main_v7) = kt_main_v7 (F := F) o x0 x1
    ∧ StableHlo.after (kops5 : List (HloOp τ sig (Elt F))) V (Proc.devRef .tc main_v9) = kt_main_v9 (F := F) o x0 x1
    ∧ StableHlo.after (kops5 : List (HloOp τ sig (Elt F))) V (Proc.devRef .tc main_v11) = kt_main_v11 (F := F) o x0 x1
    ∧ StableHlo.after (kops5 : List (HloOp τ sig (Elt F))) V (Proc.devRef .tc main_v13) = kt_main_v13 (F := F) o x0 x1
    ∧ StableHlo.after (kops5 : List (HloOp τ sig (Elt F))) V (Proc.devRef .tc main_v15) = kt_main_v15 (F := F) o x0 x1
    ∧ StableHlo.after (kops5 : List (HloOp τ sig (Elt F))) V (Proc.devRef .tc main_v18) = kt_main_v18 (F := F) o x0 x1
    ∧ StableHlo.after (kops5 : List (HloOp τ sig (Elt F))) V (Proc.devRef .tc main_v21) = kt_main_v21 (F := F) o x0 x1
    ∧ StableHlo.after (kops5 : List (HloOp τ sig (Elt F))) V (Proc.devRef .tc main_v24) = kt_main_v24 (F := F) o x0 x1
    ∧ StableHlo.after (kops5 : List (HloOp τ sig (Elt F))) V (Proc.devRef .tc main_v27) = kt_main_v27 (F := F) o x0 x1
    ∧ StableHlo.after (kops5 : List (HloOp τ sig (Elt F))) V (Proc.devRef .tc main_v45) = kt_main_v45 (F := F) o x0 x1
    ∧ StableHlo.after (kops5 : List (HloOp τ sig (Elt F))) V (Proc.devRef .tc main_v46) = kt_main_v46 (F := F) o x0 x1
    ∧ StableHlo.after (kops5 : List (HloOp τ sig (Elt F))) V (Proc.devRef .tc main_v47) = kt_main_v47 (F := F) o x0 x1
    ∧ StableHlo.after (kops5 : List (HloOp τ sig (Elt F))) V (Proc.devRef .tc main_v48) = kt_main_v48 (F := F) o x0 x1 := by
  simp only [kops5]
  read_stretch
  refine ⟨?_, ?_, ?_, ?_, ?_, ?_, ?_, ?_, ?_, ?_, ?_, ?_, ?_, ?_, ?_, ?_⟩
  all_goals (try (simp only [h_main_arg0, h_main_v2, h_main_v4, h_main_v7, h_main_v9, h_main_v11, h_main_v13, h_main_v15, h_main_v18, h_main_v21, h_main_v24, h_main_v27, h_main_v32, h_main_v37, h_main_v39, h_main_v41]; done))
  all_goals (read_stretch_rw; (try simp only [h_main_arg0, h_main_v2, h_main_v4, h_main_v7, h_main_v9, h_main_v11, h_main_v13, h_main_v15, h_main_v18, h_main_v21, h_main_v24, h_main_v27, h_main_v32, h_main_v37, h_main_v39, h_main_v41]); (repeat (first | rw [h_main_arg0] | rw [h_main_v2] | rw [h_main_v4] | rw [h_main_v7] | rw [h_main_v9] | rw [h_main_v11] | rw [h_main_v13] | rw [h_main_v15] | rw [h_main_v18] | rw [h_main_v21] | rw [h_main_v24] | rw [h_main_v27] | rw [h_main_v32] | rw [h_main_v37] | rw [h_main_v39] | rw [h_main_v41])); (try rfl))

end Cert.KernelIdeal.Tail

end
-- ==== Proof.KC.KCut02.lean ====
/- The line of host operations of the kernel program's @main after its region (403 operations, in chunks), stretch by stretch: for each stretch, from the facts that the
   buffers live at its head hold their stages, the buffers live at its end hold theirs (a buffer the stretch writes: its
   operation's function of its operands' stages, which is its stage; a buffer it does not write: what it held); and
   composed over the stretches, the whole line from any contents leaves the result buffer at the last stage. -/
import proofs.«175006_j89550068121905_1_alg».proof.Proof.KTailStages
import proofs.«175006_j89550068121905_1_alg».proof.Proof.KTailOps
import proofs.«175006_j89550068121905_1_alg».proof.Proof.LibReadStretch
import proofs.«175006_j89550068121905_1_alg».proof.Proof.LibReadStretchRw
import Idealize.ShloMosaic.Lib.Pipeline.Frame

set_option maxRecDepth 16384

noncomputable section

namespace Cert.KernelIdeal.Tail

open Cert.KernelIdeal Cert.KernelIdeal.Gen Idealize.ShloMosaic Idealize.ShloMosaic.TcCoe Idealize.SL.Sem Idealize.ShloMosaic.StableHlo

variable {F : FTy → Type} [FloatOps F]

set_option maxHeartbeats 4000000 in
/-- Chunk 7 (`kops6`, 10 operations): 16 buffers live at its head, 16 at its end. -/
theorem cut7 {V : Valuation τ sig (Elt F)} {o : (⟨S1x2, .f32⟩ : BufTy).Contents (Elt F)} {x0 : (⟨S16x85x128x128, .f32⟩ : BufTy).Contents (Elt F)} {x1 : (⟨S16x64x5, .f32⟩ : BufTy).Contents (Elt F)}
    (h_main_arg0 : V (Proc.devRef .tc main_arg0) = x0)
    (h_main_v2 : V (Proc.devRef .tc main_v2) = kt_main_v2 (F := F) o x0 x1)
    (h_main_v4 : V (Proc.devRef .tc main_v4) = kt_main_v4 (F := F) o x0 x1)
    (h_main_v7 : V (Proc.devRef .tc main_v7) = kt_main_v7 (F := F) o x0 x1)
    (h_main_v9 : V (Proc.devRef .tc main_v9) = kt_main_v9 (F := F) o x0 x1)
    (h_main_v11 : V (Proc.devRef .tc main_v11) = kt_main_v11 (F := F) o x0 x1)
    (h_main_v13 : V (Proc.devRef .tc main_v13) = kt_main_v13 (F := F) o x0 x1)
    (h_main_v15 : V (Proc.devRef .tc main_v15) = kt_main_v15 (F := F) o x0 x1)
    (h_main_v18 : V (Proc.devRef .tc main_v18) = kt_main_v18 (F := F) o x0 x1)
    (h_main_v21 : V (Proc.devRef .tc main_v21) = kt_main_v21 (F := F) o x0 x1)
    (h_main_v24 : V (Proc.devRef .tc main_v24) = kt_main_v24 (F := F) o x0 x1)
    (h_main_v27 : V (Proc.devRef .tc main_v27) = kt_main_v27 (F := F) o x0 x1)
    (h_main_v45 : V (Proc.devRef .tc main_v45) = kt_main_v45 (F := F) o x0 x1)
    (h_main_v46 : V (Proc.devRef .tc main_v46) = kt_main_v46 (F := F) o x0 x1)
    (h_main_v47 : V (Proc.devRef .tc main_v47) = kt_main_v47 (F := F) o x0 x1)
    (h_main_v48 : V (Proc.devRef .tc main_v48) = kt_main_v48 (F := F) o x0 x1)
    :
    StableHlo.after (kops6 : List (HloOp τ sig (Elt F))) V (Proc.devRef .tc main_arg0) = x0
    ∧ StableHlo.after (kops6 : List (HloOp τ sig (Elt F))) V (Proc.devRef .tc main_v2) = kt_main_v2 (F := F) o x0 x1
    ∧ StableHlo.after (kops6 : List (HloOp τ sig (Elt F))) V (Proc.devRef .tc main_v4) = kt_main_v4 (F := F) o x0 x1
    ∧ StableHlo.after (kops6 : List (HloOp τ sig (Elt F))) V (Proc.devRef .tc main_v7) = kt_main_v7 (F := F) o x0 x1
    ∧ StableHlo.after (kops6 : List (HloOp τ sig (Elt F))) V (Proc.devRef .tc main_v9) = kt_main_v9 (F := F) o x0 x1
    ∧ StableHlo.after (kops6 : List (HloOp τ sig (Elt F))) V (Proc.devRef .tc main_v11) = kt_main_v11 (F := F) o x0 x1
    ∧ StableHlo.after (kops6 : List (HloOp τ sig (Elt F))) V (Proc.devRef .tc main_v13) = kt_main_v13 (F := F) o x0 x1
    ∧ StableHlo.after (kops6 : List (HloOp τ sig (Elt F))) V (Proc.devRef .tc main_v15) = kt_main_v15 (F := F) o x0 x1
    ∧ StableHlo.after (kops6 : List (HloOp τ sig (Elt F))) V (Proc.devRef .tc main_v18) = kt_main_v18 (F := F) o x0 x1
    ∧ StableHlo.after (kops6 : List (HloOp τ sig (Elt F))) V (Proc.devRef .tc main_v21) = kt_main_v21 (F := F) o x0 x1
    ∧ StableHlo.after (kops6 : List (HloOp τ sig (Elt F))) V (Proc.devRef .tc main_v24) = kt_main_v24 (F := F) o x0 x1
    ∧ StableHlo.after (kops6 : List (HloOp τ sig (Elt F))) V (Proc.devRef .tc main_v27) = kt_main_v27 (F := F) o x0 x1
    ∧ StableHlo.after (kops6 : List (HloOp τ sig (Elt F))) V (Proc.devRef .tc main_v50) = kt_main_v50 (F := F) o x0 x1
    ∧ StableHlo.after (kops6 : List (HloOp τ sig (Elt F))) V (Proc.devRef .tc main_v52) = kt_main_v52 (F := F) o x0 x1
    ∧ StableHlo.after (kops6 : List (HloOp τ sig (Elt F))) V (Proc.devRef .tc main_v54) = kt_main_v54 (F := F) o x0 x1
    ∧ StableHlo.after (kops6 : List (HloOp τ sig (Elt F))) V (Proc.devRef .tc main_v55) = kt_main_v55 (F := F) o x0 x1 := by
  simp only [kops6]
  read_stretch
  refine ⟨?_, ?_, ?_, ?_, ?_, ?_, ?_, ?_, ?_, ?_, ?_, ?_, ?_, ?_, ?_, ?_⟩
  all_goals (try (simp only [h_main_arg0, h_main_v2, h_main_v4, h_main_v7, h_main_v9, h_main_v11, h_main_v13, h_main_v15, h_main_v18, h_main_v21, h_main_v24, h_main_v27, h_main_v45, h_main_v46, h_main_v47, h_main_v48]; done))
  all_goals (read_stretch_rw; (try simp only [h_main_arg0, h_main_v2, h_main_v4, h_main_v7, h_main_v9, h_main_v11, h_main_v13, h_main_v15, h_main_v18, h_main_v21, h_main_v24, h_main_v27, h_main_v45, h_main_v46, h_main_v47, h_main_v48]); (repeat (first | rw [h_main_arg0] | rw [h_main_v2] | rw [h_main_v4] | rw [h_main_v7] | rw [h_main_v9] | rw [h_main_v11] | rw [h_main_v13] | rw [h_main_v15] | rw [h_main_v18] | rw [h_main_v21] | rw [h_main_v24] | rw [h_main_v27] | rw [h_main_v45] | rw [h_main_v46] | rw [h_main_v47] | rw [h_main_v48])); (try rfl))

set_option maxHeartbeats 4000000 in
/-- Chunk 8 (`kops7`, 10 operations): 16 buffers live at its head, 16 at its end. -/
theorem cut8 {V : Valuation τ sig (Elt F)} {o : (⟨S1x2, .f32⟩ : BufTy).Contents (Elt F)} {x0 : (⟨S16x85x128x128, .f32⟩ : BufTy).Contents (Elt F)} {x1 : (⟨S16x64x5, .f32⟩ : BufTy).Contents (Elt F)}
    (h_main_arg0 : V (Proc.devRef .tc main_arg0) = x0)
    (h_main_v2 : V (Proc.devRef .tc main_v2) = kt_main_v2 (F := F) o x0 x1)
    (h_main_v4 : V (Proc.devRef .tc main_v4) = kt_main_v4 (F := F) o x0 x1)
    (h_main_v7 : V (Proc.devRef .tc main_v7) = kt_main_v7 (F := F) o x0 x1)
    (h_main_v9 : V (Proc.devRef .tc main_v9) = kt_main_v9 (F := F) o x0 x1)
    (h_main_v11 : V (Proc.devRef .tc main_v11) = kt_main_v11 (F := F) o x0 x1)
    (h_main_v13 : V (Proc.devRef .tc main_v13) = kt_main_v13 (F := F) o x0 x1)
    (h_main_v15 : V (Proc.devRef .tc main_v15) = kt_main_v15 (F := F) o x0 x1)
    (h_main_v18 : V (Proc.devRef .tc main_v18) = kt_main_v18 (F := F) o x0 x1)
    (h_main_v21 : V (Proc.devRef .tc main_v21) = kt_main_v21 (F := F) o x0 x1)
    (h_main_v24 : V (Proc.devRef .tc main_v24) = kt_main_v24 (F := F) o x0 x1)
    (h_main_v27 : V (Proc.devRef .tc main_v27) = kt_main_v27 (F := F) o x0 x1)
    (h_main_v50 : V (Proc.devRef .tc main_v50) = kt_main_v50 (F := F) o x0 x1)
    (h_main_v52 : V (Proc.devRef .tc main_v52) = kt_main_v52 (F := F) o x0 x1)
    (h_main_v54 : V (Proc.devRef .tc main_v54) = kt_main_v54 (F := F) o x0 x1)
    (h_main_v55 : V (Proc.devRef .tc main_v55) = kt_main_v55 (F := F) o x0 x1)
    :
    StableHlo.after (kops7 : List (HloOp τ sig (Elt F))) V (Proc.devRef .tc main_arg0) = x0
    ∧ StableHlo.after (kops7 : List (HloOp τ sig (Elt F))) V (Proc.devRef .tc main_v2) = kt_main_v2 (F := F) o x0 x1
    ∧ StableHlo.after (kops7 : List (HloOp τ sig (Elt F))) V (Proc.devRef .tc main_v4) = kt_main_v4 (F := F) o x0 x1
    ∧ StableHlo.after (kops7 : List (HloOp τ sig (Elt F))) V (Proc.devRef .tc main_v7) = kt_main_v7 (F := F) o x0 x1
    ∧ StableHlo.after (kops7 : List (HloOp τ sig (Elt F))) V (Proc.devRef .tc main_v9) = kt_main_v9 (F := F) o x0 x1
    ∧ StableHlo.after (kops7 : List (HloOp τ sig (Elt F))) V (Proc.devRef .tc main_v11) = kt_main_v11 (F := F) o x0 x1
    ∧ StableHlo.after (kops7 : List (HloOp τ sig (Elt F))) V (Proc.devRef .tc main_v13) = kt_main_v13 (F := F) o x0 x1
    ∧ StableHlo.after (kops7 : List (HloOp τ sig (Elt F))) V (Proc.devRef .tc main_v15) = kt_main_v15 (F := F) o x0 x1
    ∧ StableHlo.after (kops7 : List (HloOp τ sig (Elt F))) V (Proc.devRef .tc main_v18) = kt_main_v18 (F := F) o x0 x1
    ∧ StableHlo.after (kops7 : List (HloOp τ sig (Elt F))) V (Proc.devRef .tc main_v21) = kt_main_v21 (F := F) o x0 x1
    ∧ StableHlo.after (kops7 : List (HloOp τ sig (Elt F))) V (Proc.devRef .tc main_v24) = kt_main_v24 (F := F) o x0 x1
    ∧ StableHlo.after (kops7 : List (HloOp τ sig (Elt F))) V (Proc.devRef .tc main_v27) = kt_main_v27 (F := F) o x0 x1
    ∧ StableHlo.after (kops7 : List (HloOp τ sig (Elt F))) V (Proc.devRef .tc main_v50) = kt_main_v50 (F := F) o x0 x1
    ∧ StableHlo.after (kops7 : List (HloOp τ sig (Elt F))) V (Proc.devRef .tc main_v57) = kt_main_v57 (F := F) o x0 x1
    ∧ StableHlo.after (kops7 : List (HloOp τ sig (Elt F))) V (Proc.devRef .tc main_v62) = kt_main_v62 (F := F) o x0 x1
    ∧ StableHlo.after (kops7 : List (HloOp τ sig (Elt F))) V (Proc.devRef .tc main_c_13) = kt_main_c_13 (F := F) o x0 x1 := by
  simp only [kops7]
  read_stretch
  refine ⟨?_, ?_, ?_, ?_, ?_, ?_, ?_, ?_, ?_, ?_, ?_, ?_, ?_, ?_, ?_, ?_⟩
  all_goals (try (simp only [h_main_arg0, h_main_v2, h_main_v4, h_main_v7, h_main_v9, h_main_v11, h_main_v13, h_main_v15, h_main_v18, h_main_v21, h_main_v24, h_main_v27, h_main_v50, h_main_v52, h_main_v54, h_main_v55]; done))
  all_goals (read_stretch_rw; (try simp only [h_main_arg0, h_main_v2, h_main_v4, h_main_v7, h_main_v9, h_main_v11, h_main_v13, h_main_v15, h_main_v18, h_main_v21, h_main_v24, h_main_v27, h_main_v50, h_main_v52, h_main_v54, h_main_v55]); (repeat (first | rw [h_main_arg0] | rw [h_main_v2] | rw [h_main_v4] | rw [h_main_v7] | rw [h_main_v9] | rw [h_main_v11] | rw [h_main_v13] | rw [h_main_v15] | rw [h_main_v18] | rw [h_main_v21] | rw [h_main_v24] | rw [h_main_v27] | rw [h_main_v50] | rw [h_main_v52] | rw [h_main_v54] | rw [h_main_v55])); (try rfl))

set_option maxHeartbeats 4000000 in
/-- Chunk 9 (`kops8`, 10 operations): 16 buffers live at its head, 18 at its end. -/
theorem cut9 {V : Valuation τ sig (Elt F)} {o : (⟨S1x2, .f32⟩ : BufTy).Contents (Elt F)} {x0 : (⟨S16x85x128x128, .f32⟩ : BufTy).Contents (Elt F)} {x1 : (⟨S16x64x5, .f32⟩ : BufTy).Contents (Elt F)}
    (h_main_arg0 : V (Proc.devRef .tc main_arg0) = x0)
    (h_main_v2 : V (Proc.devRef .tc main_v2) = kt_main_v2 (F := F) o x0 x1)
    (h_main_v4 : V (Proc.devRef .tc main_v4) = kt_main_v4 (F := F) o x0 x1)
    (h_main_v7 : V (Proc.devRef .tc main_v7) = kt_main_v7 (F := F) o x0 x1)
    (h_main_v9 : V (Proc.devRef .tc main_v9) = kt_main_v9 (F := F) o x0 x1)
    (h_main_v11 : V (Proc.devRef .tc main_v11) = kt_main_v11 (F := F) o x0 x1)
    (h_main_v13 : V (Proc.devRef .tc main_v13) = kt_main_v13 (F := F) o x0 x1)
    (h_main_v15 : V (Proc.devRef .tc main_v15) = kt_main_v15 (F := F) o x0 x1)
    (h_main_v18 : V (Proc.devRef .tc main_v18) = kt_main_v18 (F := F) o x0 x1)
    (h_main_v21 : V (Proc.devRef .tc main_v21) = kt_main_v21 (F := F) o x0 x1)
    (h_main_v24 : V (Proc.devRef .tc main_v24) = kt_main_v24 (F := F) o x0 x1)
    (h_main_v27 : V (Proc.devRef .tc main_v27) = kt_main_v27 (F := F) o x0 x1)
    (h_main_v50 : V (Proc.devRef .tc main_v50) = kt_main_v50 (F := F) o x0 x1)
    (h_main_v57 : V (Proc.devRef .tc main_v57) = kt_main_v57 (F := F) o x0 x1)
    (h_main_v62 : V (Proc.devRef .tc main_v62) = kt_main_v62 (F := F) o x0 x1)
    (h_main_c_13 : V (Proc.devRef .tc main_c_13) = kt_main_c_13 (F := F) o x0 x1)
    :
    StableHlo.after (kops8 : List (HloOp τ sig (Elt F))) V (Proc.devRef .tc main_arg0) = x0
    ∧ StableHlo.after (kops8 : List (HloOp τ sig (Elt F))) V (Proc.devRef .tc main_v2) = kt_main_v2 (F := F) o x0 x1
    ∧ StableHlo.after (kops8 : List (HloOp τ sig (Elt F))) V (Proc.devRef .tc main_v4) = kt_main_v4 (F := F) o x0 x1
    ∧ StableHlo.after (kops8 : List (HloOp τ sig (Elt F))) V (Proc.devRef .tc main_v7) = kt_main_v7 (F := F) o x0 x1
    ∧ StableHlo.after (kops8 : List (HloOp τ sig (Elt F))) V (Proc.devRef .tc main_v9) = kt_main_v9 (F := F) o x0 x1
    ∧ StableHlo.after (kops8 : List (HloOp τ sig (Elt F))) V (Proc.devRef .tc main_v11) = kt_main_v11 (F := F) o x0 x1
    ∧ StableHlo.after (kops8 : List (HloOp τ sig (Elt F))) V (Proc.devRef .tc main_v13) = kt_main_v13 (F := F) o x0 x1
    ∧ StableHlo.after (kops8 : List (HloOp τ sig (Elt F))) V (Proc.devRef .tc main_v15) = kt_main_v15 (F := F) o x0 x1
    ∧ StableHlo.after (kops8 : List (HloOp τ sig (Elt F))) V (Proc.devRef .tc main_v18) = kt_main_v18 (F := F) o x0 x1
    ∧ StableHlo.after (kops8 : List (HloOp τ sig (Elt F))) V (Proc.devRef .tc main_v21) = kt_main_v21 (F := F) o x0 x1
    ∧ StableHlo.after (kops8 : List (HloOp τ sig (Elt F))) V (Proc.devRef .tc main_v24) = kt_main_v24 (F := F) o x0 x1
    ∧ StableHlo.after (kops8 : List (HloOp τ sig (Elt F))) V (Proc.devRef .tc main_v27) = kt_main_v27 (F := F) o x0 x1
    ∧ StableHlo.after (kops8 : List (HloOp τ sig (Elt F))) V (Proc.devRef .tc main_v50) = kt_main_v50 (F := F) o x0 x1
    ∧ StableHlo.after (kops8 : List (HloOp τ sig (Elt F))) V (Proc.devRef .tc main_v57) = kt_main_v57 (F := F) o x0 x1
    ∧ StableHlo.after (kops8 : List (HloOp τ sig (Elt F))) V (Proc.devRef .tc main_v62) = kt_main_v62 (F := F) o x0 x1
    ∧ StableHlo.after (kops8 : List (HloOp τ sig (Elt F))) V (Proc.devRef .tc main_v67) = kt_main_v67 (F := F) o x0 x1
    ∧ StableHlo.after (kops8 : List (HloOp τ sig (Elt F))) V (Proc.devRef .tc main_v69) = kt_main_v69 (F := F) o x0 x1
    ∧ StableHlo.after (kops8 : List (HloOp τ sig (Elt F))) V (Proc.devRef .tc main_c_16) = kt_main_c_16 (F := F) o x0 x1 := by
  simp only [kops8]
  read_stretch
  refine ⟨?_, ?_, ?_, ?_, ?_, ?_, ?_, ?_, ?_, ?_, ?_, ?_, ?_, ?_, ?_, ?_, ?_, ?_⟩
  all_goals (try (simp only [h_main_arg0, h_main_v2, h_main_v4, h_main_v7, h_main_v9, h_main_v11, h_main_v13, h_main_v15, h_main_v18, h_main_v21, h_main_v24, h_main_v27, h_main_v50, h_main_v57, h_main_v62, h_main_c_13]; done))
  all_goals (read_stretch_rw; (try simp only [h_main_arg0, h_main_v2, h_main_v4, h_main_v7, h_main_v9, h_main_v11, h_main_v13, h_main_v15, h_main_v18, h_main_v21, h_main_v24, h_main_v27, h_main_v50, h_main_v57, h_main_v62, h_main_c_13]); (repeat (first | rw [h_main_arg0] | rw [h_main_v2] | rw [h_main_v4] | rw [h_main_v7] | rw [h_main_v9] | rw [h_main_v11] | rw [h_main_v13] | rw [h_main_v15] | rw [h_main_v18] | rw [h_main_v21] | rw [h_main_v24] | rw [h_main_v27] | rw [h_main_v50] | rw [h_main_v57] | rw [h_main_v62] | rw [h_main_c_13])); (try rfl))

set_option maxHeartbeats 4000000 in
/-- Chunk 10 (`kops9`, 7 operations): 18 buffers live at its head, 17 at its end. -/
theorem cut10 {V : Valuation τ sig (Elt F)} {o : (⟨S1x2, .f32⟩ : BufTy).Contents (Elt F)} {x0 : (⟨S16x85x128x128, .f32⟩ : BufTy).Contents (Elt F)} {x1 : (⟨S16x64x5, .f32⟩ : BufTy).Contents (Elt F)}
    (h_main_arg0 : V (Proc.devRef .tc main_arg0) = x0)
    (h_main_v2 : V (Proc.devRef .tc main_v2) = kt_main_v2 (F := F) o x0 x1)
    (h_main_v4 : V (Proc.devRef .tc main_v4) = kt_main_v4 (F := F) o x0 x1)
    (h_main_v7 : V (Proc.devRef .tc main_v7) = kt_main_v7 (F := F) o x0 x1)
    (h_main_v9 : V (Proc.devRef .tc main_v9) = kt_main_v9 (F := F) o x0 x1)
    (h_main_v11 : V (Proc.devRef .tc main_v11) = kt_main_v11 (F := F) o x0 x1)
    (h_main_v13 : V (Proc.devRef .tc main_v13) = kt_main_v13 (F := F) o x0 x1)
    (h_main_v15 : V (Proc.devRef .tc main_v15) = kt_main_v15 (F := F) o x0 x1)
    (h_main_v18 : V (Proc.devRef .tc main_v18) = kt_main_v18 (F := F) o x0 x1)
    (h_main_v21 : V (Proc.devRef .tc main_v21) = kt_main_v21 (F := F) o x0 x1)
    (h_main_v24 : V (Proc.devRef .tc main_v24) = kt_main_v24 (F := F) o x0 x1)
    (h_main_v27 : V (Proc.devRef .tc main_v27) = kt_main_v27 (F := F) o x0 x1)
    (h_main_v50 : V (Proc.devRef .tc main_v50) = kt_main_v50 (F := F) o x0 x1)
    (h_main_v57 : V (Proc.devRef .tc main_v57) = kt_main_v57 (F := F) o x0 x1)
    (h_main_v62 : V (Proc.devRef .tc main_v62) = kt_main_v62 (F := F) o x0 x1)
    (h_main_v67 : V (Proc.devRef .tc main_v67) = kt_main_v67 (F := F) o x0 x1)
    (h_main_v69 : V (Proc.devRef .tc main_v69) = kt_main_v69 (F := F) o x0 x1)
    (h_main_c_16 : V (Proc.devRef .tc main_c_16) = kt_main_c_16 (F := F) o x0 x1)
    :
    StableHlo.after (kops9 : List (HloOp τ sig (Elt F))) V (Proc.devRef .tc main_arg0) = x0
    ∧ StableHlo.after (kops9 : List (HloOp τ sig (Elt F))) V (Proc.devRef .tc main_v2) = kt_main_v2 (F := F) o x0 x1
    ∧ StableHlo.after (kops9 : List (HloOp τ sig (Elt F))) V (Proc.devRef .tc main_v4) = kt_main_v4 (F := F) o x0 x1
    ∧ StableHlo.after (kops9 : List (HloOp τ sig (Elt F))) V (Proc.devRef .tc main_v7) = kt_main_v7 (F := F) o x0 x1
    ∧ StableHlo.after (kops9 : List (HloOp τ sig (Elt F))) V (Proc.devRef .tc main_v9) = kt_main_v9 (F := F) o x0 x1
    ∧ StableHlo.after (kops9 : List (HloOp τ sig (Elt F))) V (Proc.devRef .tc main_v11) = kt_main_v11 (F := F) o x0 x1
    ∧ StableHlo.after (kops9 : List (HloOp τ sig (Elt F))) V (Proc.devRef .tc main_v13) = kt_main_v13 (F := F) o x0 x1
    ∧ StableHlo.after (kops9 : List (HloOp τ sig (Elt F))) V (Proc.devRef .tc main_v15) = kt_main_v15 (F := F) o x0 x1
    ∧ StableHlo.after (kops9 : List (HloOp τ sig (Elt F))) V (Proc.devRef .tc main_v18) = kt_main_v18 (F := F) o x0 x1
    ∧ StableHlo.after (kops9 : List (HloOp τ sig (Elt F))) V (Proc.devRef .tc main_v21) = kt_main_v21 (F := F) o x0 x1
    ∧ StableHlo.after (kops9 : List (HloOp τ sig (Elt F))) V (Proc.devRef .tc main_v24) = kt_main_v24 (F := F) o x0 x1
    ∧ StableHlo.after (kops9 : List (HloOp τ sig (Elt F))) V (Proc.devRef .tc main_v27) = kt_main_v27 (F := F) o x0 x1
    ∧ StableHlo.after (kops9 : List (HloOp τ sig (Elt F))) V (Proc.devRef .tc main_v50) = kt_main_v50 (F := F) o x0 x1
    ∧ StableHlo.after (kops9 : List (HloOp τ sig (Elt F))) V (Proc.devRef .tc main_v73) = kt_main_v73 (F := F) o x0 x1
    ∧ StableHlo.after (kops9 : List (HloOp τ sig (Elt F))) V (Proc.devRef .tc main_v74) = kt_main_v74 (F := F) o x0 x1
    ∧ StableHlo.after (kops9 : List (HloOp τ sig (Elt F))) V (Proc.devRef .tc main_v75) = kt_main_v75 (F := F) o x0 x1
    ∧ StableHlo.after (kops9 : List (HloOp τ sig (Elt F))) V (Proc.devRef .tc main_v76) = kt_main_v76 (F := F) o x0 x1 := by
  simp only [kops9]
  read_stretch
  refine ⟨?_, ?_, ?_, ?_, ?_, ?_, ?_, ?_, ?_, ?_, ?_, ?_, ?_, ?_, ?_, ?_, ?_⟩
  all_goals (try (simp only [h_main_arg0, h_main_v2, h_main_v4, h_main_v7, h_main_v9, h_main_v11, h_main_v13, h_main_v15, h_main_v18, h_main_v21, h_main_v24, h_main_v27, h_main_v50, h_main_v57, h_main_v62, h_main_v67, h_main_v69, h_main_c_16]; done))
  all_goals (read_stretch_rw; (try simp only [h_main_arg0, h_main_v2, h_main_v4, h_main_v7, h_main_v9, h_main_v11, h_main_v13, h_main_v15, h_main_v18, h_main_v21, h_main_v24, h_main_v27, h_main_v50, h_main_v57, h_main_v62, h_main_v67, h_main_v69, h_main_c_16]); (repeat (first | rw [h_main_arg0] | rw [h_main_v2] | rw [h_main_v4] | rw [h_main_v7] | rw [h_main_v9] | rw [h_main_v11] | rw [h_main_v13] | rw [h_main_v15] | rw [h_main_v18] | rw [h_main_v21] | rw [h_main_v24] | rw [h_main_v27] | rw [h_main_v50] | rw [h_main_v57] | rw [h_main_v62] | rw [h_main_v67] | rw [h_main_v69] | rw [h_main_c_16])); (try rfl))

set_option maxHeartbeats 4000000 in
/-- Chunk 11 (`kops10`, 10 operations): 17 buffers live at its head, 16 at its end. -/
theorem cut11 {V : Valuation τ sig (Elt F)} {o : (⟨S1x2, .f32⟩ : BufTy).Contents (Elt F)} {x0 : (⟨S16x85x128x128, .f32⟩ : BufTy).Contents (Elt F)} {x1 : (⟨S16x64x5, .f32⟩ : BufTy).Contents (Elt F)}
    (h_main_arg0 : V (Proc.devRef .tc main_arg0) = x0)
    (h_main_v2 : V (Proc.devRef .tc main_v2) = kt_main_v2 (F := F) o x0 x1)
    (h_main_v4 : V (Proc.devRef .tc main_v4) = kt_main_v4 (F := F) o x0 x1)
    (h_main_v7 : V (Proc.devRef .tc main_v7) = kt_main_v7 (F := F) o x0 x1)
    (h_main_v9 : V (Proc.devRef .tc main_v9) = kt_main_v9 (F := F) o x0 x1)
    (h_main_v11 : V (Proc.devRef .tc main_v11) = kt_main_v11 (F := F) o x0 x1)
    (h_main_v13 : V (Proc.devRef .tc main_v13) = kt_main_v13 (F := F) o x0 x1)
    (h_main_v15 : V (Proc.devRef .tc main_v15) = kt_main_v15 (F := F) o x0 x1)
    (h_main_v18 : V (Proc.devRef .tc main_v18) = kt_main_v18 (F := F) o x0 x1)
    (h_main_v21 : V (Proc.devRef .tc main_v21) = kt_main_v21 (F := F) o x0 x1)
    (h_main_v24 : V (Proc.devRef .tc main_v24) = kt_main_v24 (F := F) o x0 x1)
    (h_main_v27 : V (Proc.devRef .tc main_v27) = kt_main_v27 (F := F) o x0 x1)
    (h_main_v50 : V (Proc.devRef .tc main_v50) = kt_main_v50 (F := F) o x0 x1)
    (h_main_v73 : V (Proc.devRef .tc main_v73) = kt_main_v73 (F := F) o x0 x1)
    (h_main_v74 : V (Proc.devRef .tc main_v74) = kt_main_v74 (F := F) o x0 x1)
    (h_main_v75 : V (Proc.devRef .tc main_v75) = kt_main_v75 (F := F) o x0 x1)
    (h_main_v76 : V (Proc.devRef .tc main_v76) = kt_main_v76 (F := F) o x0 x1)
    :
    StableHlo.after (kops10 : List (HloOp τ sig (Elt F))) V (Proc.devRef .tc main_arg0) = x0
    ∧ StableHlo.after (kops10 : List (HloOp τ sig (Elt F))) V (Proc.devRef .tc main_v2) = kt_main_v2 (F := F) o x0 x1
    ∧ StableHlo.after (kops10 : List (HloOp τ sig (Elt F))) V (Proc.devRef .tc main_v4) = kt_main_v4 (F := F) o x0 x1
    ∧ StableHlo.after (kops10 : List (HloOp τ sig (Elt F))) V (Proc.devRef .tc main_v7) = kt_main_v7 (F := F) o x0 x1
    ∧ StableHlo.after (kops10 : List (HloOp τ sig (Elt F))) V (Proc.devRef .tc main_v9) = kt_main_v9 (F := F) o x0 x1
    ∧ StableHlo.after (kops10 : List (HloOp τ sig (Elt F))) V (Proc.devRef .tc main_v11) = kt_main_v11 (F := F) o x0 x1
    ∧ StableHlo.after (kops10 : List (HloOp τ sig (Elt F))) V (Proc.devRef .tc main_v13) = kt_main_v13 (F := F) o x0 x1
    ∧ StableHlo.after (kops10 : List (HloOp τ sig (Elt F))) V (Proc.devRef .tc main_v15) = kt_main_v15 (F := F) o x0 x1
    ∧ StableHlo.after (kops10 : List (HloOp τ sig (Elt F))) V (Proc.devRef .tc main_v18) = kt_main_v18 (F := F) o x0 x1
    ∧ StableHlo.after (kops10 : List (HloOp τ sig (Elt F))) V (Proc.devRef .tc main_v21) = kt_main_v21 (F := F) o x0 x1
    ∧ StableHlo.after (kops10 : List (HloOp τ sig (Elt F))) V (Proc.devRef .tc main_v24) = kt_main_v24 (F := F) o x0 x1
    ∧ StableHlo.after (kops10 : List (HloOp τ sig (Elt F))) V (Proc.devRef .tc main_v27) = kt_main_v27 (F := F) o x0 x1
    ∧ StableHlo.after (kops10 : List (HloOp τ sig (Elt F))) V (Proc.devRef .tc main_v50) = kt_main_v50 (F := F) o x0 x1
    ∧ StableHlo.after (kops10 : List (HloOp τ sig (Elt F))) V (Proc.devRef .tc main_v78) = kt_main_v78 (F := F) o x0 x1
    ∧ StableHlo.after (kops10 : List (HloOp τ sig (Elt F))) V (Proc.devRef .tc main_v83) = kt_main_v83 (F := F) o x0 x1
    ∧ StableHlo.after (kops10 : List (HloOp τ sig (Elt F))) V (Proc.devRef .tc main_c_19) = kt_main_c_19 (F := F) o x0 x1 := by
  simp only [kops10]
  read_stretch
  refine ⟨?_, ?_, ?_, ?_, ?_, ?_, ?_, ?_, ?_, ?_, ?_, ?_, ?_, ?_, ?_, ?_⟩
  all_goals (try (simp only [h_main_arg0, h_main_v2, h_main_v4, h_main_v7, h_main_v9, h_main_v11, h_main_v13, h_main_v15, h_main_v18, h_main_v21, h_main_v24, h_main_v27, h_main_v50, h_main_v73, h_main_v74, h_main_v75, h_main_v76]; done))
  all_goals (read_stretch_rw; (try simp only [h_main_arg0, h_main_v2, h_main_v4, h_main_v7, h_main_v9, h_main_v11, h_main_v13, h_main_v15, h_main_v18, h_main_v21, h_main_v24, h_main_v27, h_main_v50, h_main_v73, h_main_v74, h_main_v75, h_main_v76]); (repeat (first | rw [h_main_arg0] | rw [h_main_v2] | rw [h_main_v4] | rw [h_main_v7] | rw [h_main_v9] | rw [h_main_v11] | rw [h_main_v13] | rw [h_main_v15] | rw [h_main_v18] | rw [h_main_v21] | rw [h_main_v24] | rw [h_main_v27] | rw [h_main_v50] | rw [h_main_v73] | rw [h_main_v74] | rw [h_main_v75] | rw [h_main_v76])); (try rfl))

set_option maxHeartbeats 4000000 in
/-- Chunk 12 (`kops11`, 10 operations): 16 buffers live at its head, 18 at its end. -/
theorem cut12 {V : Valuation τ sig (Elt F)} {o : (⟨S1x2, .f32⟩ : BufTy).Contents (Elt F)} {x0 : (⟨S16x85x128x128, .f32⟩ : BufTy).Contents (Elt F)} {x1 : (⟨S16x64x5, .f32⟩ : BufTy).Contents (Elt F)}
    (h_main_arg0 : V (Proc.devRef .tc main_arg0) = x0)
    (h_main_v2 : V (Proc.devRef .tc main_v2) = kt_main_v2 (F := F) o x0 x1)
    (h_main_v4 : V (Proc.devRef .tc main_v4) = kt_main_v4 (F := F) o x0 x1)
    (h_main_v7 : V (Proc.devRef .tc main_v7) = kt_main_v7 (F := F) o x0 x1)
    (h_main_v9 : V (Proc.devRef .tc main_v9) = kt_main_v9 (F := F) o x0 x1)
    (h_main_v11 : V (Proc.devRef .tc main_v11) = kt_main_v11 (F := F) o x0 x1)
    (h_main_v13 : V (Proc.devRef .tc main_v13) = kt_main_v13 (F := F) o x0 x1)
    (h_main_v15 : V (Proc.devRef .tc main_v15) = kt_main_v15 (F := F) o x0 x1)
    (h_main_v18 : V (Proc.devRef .tc main_v18) = kt_main_v18 (F := F) o x0 x1)
    (h_main_v21 : V (Proc.devRef .tc main_v21) = kt_main_v21 (F := F) o x0 x1)
    (h_main_v24 : V (Proc.devRef .tc main_v24) = kt_main_v24 (F := F) o x0 x1)
    (h_main_v27 : V (Proc.devRef .tc main_v27) = kt_main_v27 (F := F) o x0 x1)
    (h_main_v50 : V (Proc.devRef .tc main_v50) = kt_main_v50 (F := F) o x0 x1)
    (h_main_v78 : V (Proc.devRef .tc main_v78) = kt_main_v78 (F := F) o x0 x1)
    (h_main_v83 : V (Proc.devRef .tc main_v83) = kt_main_v83 (F := F) o x0 x1)
    (h_main_c_19 : V (Proc.devRef .tc main_c_19) = kt_main_c_19 (F := F) o x0 x1)
    :
    StableHlo.after (kops11 : List (HloOp τ sig (Elt F))) V (Proc.devRef .tc main_arg0) = x0
    ∧ StableHlo.after (kops11 : List (HloOp τ sig (Elt F))) V (Proc.devRef .tc main_v2) = kt_main_v2 (F := F) o x0 x1
    ∧ StableHlo.after (kops11 : List (HloOp τ sig (Elt F))) V (Proc.devRef .tc main_v4) = kt_main_v4 (F := F) o x0 x1
    ∧ StableHlo.after (kops11 : List (HloOp τ sig (Elt F))) V (Proc.devRef .tc main_v7) = kt_main_v7 (F := F) o x0 x1
    ∧ StableHlo.after (kops11 : List (HloOp τ sig (Elt F))) V (Proc.devRef .tc main_v9) = kt_main_v9 (F := F) o x0 x1
    ∧ StableHlo.after (kops11 : List (HloOp τ sig (Elt F))) V (Proc.devRef .tc main_v11) = kt_main_v11 (F := F) o x0 x1
    ∧ StableHlo.after (kops11 : List (HloOp τ sig (Elt F))) V (Proc.devRef .tc main_v13) = kt_main_v13 (F := F) o x0 x1
    ∧ StableHlo.after (kops11 : List (HloOp τ sig (Elt F))) V (Proc.devRef .tc main_v15) = kt_main_v15 (F := F) o x0 x1
    ∧ StableHlo.after (kops11 : List (HloOp τ sig (Elt F))) V (Proc.devRef .tc main_v18) = kt_main_v18 (F := F) o x0 x1
    ∧ StableHlo.after (kops11 : List (HloOp τ sig (Elt F))) V (Proc.devRef .tc main_v21) = kt_main_v21 (F := F) o x0 x1
    ∧ StableHlo.after (kops11 : List (HloOp τ sig (Elt F))) V (Proc.devRef .tc main_v24) = kt_main_v24 (F := F) o x0 x1
    ∧ StableHlo.after (kops11 : List (HloOp τ sig (Elt F))) V (Proc.devRef .tc main_v27) = kt_main_v27 (F := F) o x0 x1
    ∧ StableHlo.after (kops11 : List (HloOp τ sig (Elt F))) V (Proc.devRef .tc main_v50) = kt_main_v50 (F := F) o x0 x1
    ∧ StableHlo.after (kops11 : List (HloOp τ sig (Elt F))) V (Proc.devRef .tc main_v78) = kt_main_v78 (F := F) o x0 x1
    ∧ StableHlo.after (kops11 : List (HloOp τ sig (Elt F))) V (Proc.devRef .tc main_v83) = kt_main_v83 (F := F) o x0 x1
    ∧ StableHlo.after (kops11 : List (HloOp τ sig (Elt F))) V (Proc.devRef .tc main_v88) = kt_main_v88 (F := F) o x0 x1
    ∧ StableHlo.after (kops11 : List (HloOp τ sig (Elt F))) V (Proc.devRef .tc main_v90) = kt_main_v90 (F := F) o x0 x1
    ∧ StableHlo.after (kops11 : List (HloOp τ sig (Elt F))) V (Proc.devRef .tc main_c_22) = kt_main_c_22 (F := F) o x0 x1 := by
  simp only [kops11]
  read_stretch
  refine ⟨?_, ?_, ?_, ?_, ?_, ?_, ?_, ?_, ?_, ?_, ?_, ?_, ?_, ?_, ?_, ?_, ?_, ?_⟩
  all_goals (try (simp only [h_main_arg0, h_main_v2, h_main_v4, h_main_v7, h_main_v9, h_main_v11, h_main_v13, h_main_v15, h_main_v18, h_main_v21, h_main_v24, h_main_v27, h_main_v50, h_main_v78, h_main_v83, h_main_c_19]; done))
  all_goals (read_stretch_rw; (try simp only [h_main_arg0, h_main_v2, h_main_v4, h_main_v7, h_main_v9, h_main_v11, h_main_v13, h_main_v15, h_main_v18, h_main_v21, h_main_v24, h_main_v27, h_main_v50, h_main_v78, h_main_v83, h_main_c_19]); (repeat (first | rw [h_main_arg0] | rw [h_main_v2] | rw [h_main_v4] | rw [h_main_v7] | rw [h_main_v9] | rw [h_main_v11] | rw [h_main_v13] | rw [h_main_v15] | rw [h_main_v18] | rw [h_main_v21] | rw [h_main_v24] | rw [h_main_v27] | rw [h_main_v50] | rw [h_main_v78] | rw [h_main_v83] | rw [h_main_c_19])); (try rfl))

end Cert.KernelIdeal.Tail

end
-- ==== Proof.KC.KCut03.lean ====
/- The line of host operations of the kernel program's @main after its region (403 operations, in chunks), stretch by stretch: for each stretch, from the facts that the
   buffers live at its head hold their stages, the buffers live at its end hold theirs (a buffer the stretch writes: its
   operation's function of its operands' stages, which is its stage; a buffer it does not write: what it held); and
   composed over the stretches, the whole line from any contents leaves the result buffer at the last stage. -/
import proofs.«175006_j89550068121905_1_alg».proof.Proof.KTailStages
import proofs.«175006_j89550068121905_1_alg».proof.Proof.KTailOps
import proofs.«175006_j89550068121905_1_alg».proof.Proof.LibReadStretch
import proofs.«175006_j89550068121905_1_alg».proof.Proof.LibReadStretchRw
import Idealize.ShloMosaic.Lib.Pipeline.Frame

set_option maxRecDepth 16384

noncomputable section

namespace Cert.KernelIdeal.Tail

open Cert.KernelIdeal Cert.KernelIdeal.Gen Idealize.ShloMosaic Idealize.ShloMosaic.TcCoe Idealize.SL.Sem Idealize.ShloMosaic.StableHlo

variable {F : FTy → Type} [FloatOps F]

set_option maxHeartbeats 4000000 in
/-- Chunk 13 (`kops12`, 10 operations): 18 buffers live at its head, 18 at its end. -/
theorem cut13 {V : Valuation τ sig (Elt F)} {o : (⟨S1x2, .f32⟩ : BufTy).Contents (Elt F)} {x0 : (⟨S16x85x128x128, .f32⟩ : BufTy).Contents (Elt F)} {x1 : (⟨S16x64x5, .f32⟩ : BufTy).Contents (Elt F)}
    (h_main_arg0 : V (Proc.devRef .tc main_arg0) = x0)
    (h_main_v2 : V (Proc.devRef .tc main_v2) = kt_main_v2 (F := F) o x0 x1)
    (h_main_v4 : V (Proc.devRef .tc main_v4) = kt_main_v4 (F := F) o x0 x1)
    (h_main_v7 : V (Proc.devRef .tc main_v7) = kt_main_v7 (F := F) o x0 x1)
    (h_main_v9 : V (Proc.devRef .tc main_v9) = kt_main_v9 (F := F) o x0 x1)
    (h_main_v11 : V (Proc.devRef .tc main_v11) = kt_main_v11 (F := F) o x0 x1)
    (h_main_v13 : V (Proc.devRef .tc main_v13) = kt_main_v13 (F := F) o x0 x1)
    (h_main_v15 : V (Proc.devRef .tc main_v15) = kt_main_v15 (F := F) o x0 x1)
    (h_main_v18 : V (Proc.devRef .tc main_v18) = kt_main_v18 (F := F) o x0 x1)
    (h_main_v21 : V (Proc.devRef .tc main_v21) = kt_main_v21 (F := F) o x0 x1)
    (h_main_v24 : V (Proc.devRef .tc main_v24) = kt_main_v24 (F := F) o x0 x1)
    (h_main_v27 : V (Proc.devRef .tc main_v27) = kt_main_v27 (F := F) o x0 x1)
    (h_main_v50 : V (Proc.devRef .tc main_v50) = kt_main_v50 (F := F) o x0 x1)
    (h_main_v78 : V (Proc.devRef .tc main_v78) = kt_main_v78 (F := F) o x0 x1)
    (h_main_v83 : V (Proc.devRef .tc main_v83) = kt_main_v83 (F := F) o x0 x1)
    (h_main_v88 : V (Proc.devRef .tc main_v88) = kt_main_v88 (F := F) o x0 x1)
    (h_main_v90 : V (Proc.devRef .tc main_v90) = kt_main_v90 (F := F) o x0 x1)
    (h_main_c_22 : V (Proc.devRef .tc main_c_22) = kt_main_c_22 (F := F) o x0 x1)
    :
    StableHlo.after (kops12 : List (HloOp τ sig (Elt F))) V (Proc.devRef .tc main_arg0) = x0
    ∧ StableHlo.after (kops12 : List (HloOp τ sig (Elt F))) V (Proc.devRef .tc main_v2) = kt_main_v2 (F := F) o x0 x1
    ∧ StableHlo.after (kops12 : List (HloOp τ sig (Elt F))) V (Proc.devRef .tc main_v4) = kt_main_v4 (F := F) o x0 x1
    ∧ StableHlo.after (kops12 : List (HloOp τ sig (Elt F))) V (Proc.devRef .tc main_v7) = kt_main_v7 (F := F) o x0 x1
    ∧ StableHlo.after (kops12 : List (HloOp τ sig (Elt F))) V (Proc.devRef .tc main_v9) = kt_main_v9 (F := F) o x0 x1
    ∧ StableHlo.after (kops12 : List (HloOp τ sig (Elt F))) V (Proc.devRef .tc main_v11) = kt_main_v11 (F := F) o x0 x1
    ∧ StableHlo.after (kops12 : List (HloOp τ sig (Elt F))) V (Proc.devRef .tc main_v13) = kt_main_v13 (F := F) o x0 x1
    ∧ StableHlo.after (kops12 : List (HloOp τ sig (Elt F))) V (Proc.devRef .tc main_v15) = kt_main_v15 (F := F) o x0 x1
    ∧ StableHlo.after (kops12 : List (HloOp τ sig (Elt F))) V (Proc.devRef .tc main_v18) = kt_main_v18 (F := F) o x0 x1
    ∧ StableHlo.after (kops12 : List (HloOp τ sig (Elt F))) V (Proc.devRef .tc main_v21) = kt_main_v21 (F := F) o x0 x1
    ∧ StableHlo.after (kops12 : List (HloOp τ sig (Elt F))) V (Proc.devRef .tc main_v24) = kt_main_v24 (F := F) o x0 x1
    ∧ StableHlo.after (kops12 : List (HloOp τ sig (Elt F))) V (Proc.devRef .tc main_v27) = kt_main_v27 (F := F) o x0 x1
    ∧ StableHlo.after (kops12 : List (HloOp τ sig (Elt F))) V (Proc.devRef .tc main_v50) = kt_main_v50 (F := F) o x0 x1
    ∧ StableHlo.after (kops12 : List (HloOp τ sig (Elt F))) V (Proc.devRef .tc main_v78) = kt_main_v78 (F := F) o x0 x1
    ∧ StableHlo.after (kops12 : List (HloOp τ sig (Elt F))) V (Proc.devRef .tc main_v96) = kt_main_v96 (F := F) o x0 x1
    ∧ StableHlo.after (kops12 : List (HloOp τ sig (Elt F))) V (Proc.devRef .tc main_v97) = kt_main_v97 (F := F) o x0 x1
    ∧ StableHlo.after (kops12 : List (HloOp τ sig (Elt F))) V (Proc.devRef .tc main_v98) = kt_main_v98 (F := F) o x0 x1
    ∧ StableHlo.after (kops12 : List (HloOp τ sig (Elt F))) V (Proc.devRef .tc main_v99) = kt_main_v99 (F := F) o x0 x1 := by
  simp only [kops12]
  read_stretch
  refine ⟨?_, ?_, ?_, ?_, ?_, ?_, ?_, ?_, ?_, ?_, ?_, ?_, ?_, ?_, ?_, ?_, ?_, ?_⟩
  all_goals (try (simp only [h_main_arg0, h_main_v2, h_main_v4, h_main_v7, h_main_v9, h_main_v11, h_main_v13, h_main_v15, h_main_v18, h_main_v21, h_main_v24, h_main_v27, h_main_v50, h_main_v78, h_main_v83, h_main_v88, h_main_v90, h_main_c_22]; done))
  all_goals (read_stretch_rw; (try simp only [h_main_arg0, h_main_v2, h_main_v4, h_main_v7, h_main_v9, h_main_v11, h_main_v13, h_main_v15, h_main_v18, h_main_v21, h_main_v24, h_main_v27, h_main_v50, h_main_v78, h_main_v83, h_main_v88, h_main_v90, h_main_c_22]); (repeat (first | rw [h_main_arg0] | rw [h_main_v2] | rw [h_main_v4] | rw [h_main_v7] | rw [h_main_v9] | rw [h_main_v11] | rw [h_main_v13] | rw [h_main_v15] | rw [h_main_v18] | rw [h_main_v21] | rw [h_main_v24] | rw [h_main_v27] | rw [h_main_v50] | rw [h_main_v78] | rw [h_main_v83] | rw [h_main_v88] | rw [h_main_v90] | rw [h_main_c_22])); (try rfl))

set_option maxHeartbeats 4000000 in
/-- Chunk 14 (`kops13`, 10 operations): 18 buffers live at its head, 17 at its end. -/
theorem cut14 {V : Valuation τ sig (Elt F)} {o : (⟨S1x2, .f32⟩ : BufTy).Contents (Elt F)} {x0 : (⟨S16x85x128x128, .f32⟩ : BufTy).Contents (Elt F)} {x1 : (⟨S16x64x5, .f32⟩ : BufTy).Contents (Elt F)}
    (h_main_arg0 : V (Proc.devRef .tc main_arg0) = x0)
    (h_main_v2 : V (Proc.devRef .tc main_v2) = kt_main_v2 (F := F) o x0 x1)
    (h_main_v4 : V (Proc.devRef .tc main_v4) = kt_main_v4 (F := F) o x0 x1)
    (h_main_v7 : V (Proc.devRef .tc main_v7) = kt_main_v7 (F := F) o x0 x1)
    (h_main_v9 : V (Proc.devRef .tc main_v9) = kt_main_v9 (F := F) o x0 x1)
    (h_main_v11 : V (Proc.devRef .tc main_v11) = kt_main_v11 (F := F) o x0 x1)
    (h_main_v13 : V (Proc.devRef .tc main_v13) = kt_main_v13 (F := F) o x0 x1)
    (h_main_v15 : V (Proc.devRef .tc main_v15) = kt_main_v15 (F := F) o x0 x1)
    (h_main_v18 : V (Proc.devRef .tc main_v18) = kt_main_v18 (F := F) o x0 x1)
    (h_main_v21 : V (Proc.devRef .tc main_v21) = kt_main_v21 (F := F) o x0 x1)
    (h_main_v24 : V (Proc.devRef .tc main_v24) = kt_main_v24 (F := F) o x0 x1)
    (h_main_v27 : V (Proc.devRef .tc main_v27) = kt_main_v27 (F := F) o x0 x1)
    (h_main_v50 : V (Proc.devRef .tc main_v50) = kt_main_v50 (F := F) o x0 x1)
    (h_main_v78 : V (Proc.devRef .tc main_v78) = kt_main_v78 (F := F) o x0 x1)
    (h_main_v96 : V (Proc.devRef .tc main_v96) = kt_main_v96 (F := F) o x0 x1)
    (h_main_v97 : V (Proc.devRef .tc main_v97) = kt_main_v97 (F := F) o x0 x1)
    (h_main_v98 : V (Proc.devRef .tc main_v98) = kt_main_v98 (F := F) o x0 x1)
    (h_main_v99 : V (Proc.devRef .tc main_v99) = kt_main_v99 (F := F) o x0 x1)
    :
    StableHlo.after (kops13 : List (HloOp τ sig (Elt F))) V (Proc.devRef .tc main_arg0) = x0
    ∧ StableHlo.after (kops13 : List (HloOp τ sig (Elt F))) V (Proc.devRef .tc main_v2) = kt_main_v2 (F := F) o x0 x1
    ∧ StableHlo.after (kops13 : List (HloOp τ sig (Elt F))) V (Proc.devRef .tc main_v4) = kt_main_v4 (F := F) o x0 x1
    ∧ StableHlo.after (kops13 : List (HloOp τ sig (Elt F))) V (Proc.devRef .tc main_v7) = kt_main_v7 (F := F) o x0 x1
    ∧ StableHlo.after (kops13 : List (HloOp τ sig (Elt F))) V (Proc.devRef .tc main_v9) = kt_main_v9 (F := F) o x0 x1
    ∧ StableHlo.after (kops13 : List (HloOp τ sig (Elt F))) V (Proc.devRef .tc main_v11) = kt_main_v11 (F := F) o x0 x1
    ∧ StableHlo.after (kops13 : List (HloOp τ sig (Elt F))) V (Proc.devRef .tc main_v13) = kt_main_v13 (F := F) o x0 x1
    ∧ StableHlo.after (kops13 : List (HloOp τ sig (Elt F))) V (Proc.devRef .tc main_v15) = kt_main_v15 (F := F) o x0 x1
    ∧ StableHlo.after (kops13 : List (HloOp τ sig (Elt F))) V (Proc.devRef .tc main_v18) = kt_main_v18 (F := F) o x0 x1
    ∧ StableHlo.after (kops13 : List (HloOp τ sig (Elt F))) V (Proc.devRef .tc main_v21) = kt_main_v21 (F := F) o x0 x1
    ∧ StableHlo.after (kops13 : List (HloOp τ sig (Elt F))) V (Proc.devRef .tc main_v24) = kt_main_v24 (F := F) o x0 x1
    ∧ StableHlo.after (kops13 : List (HloOp τ sig (Elt F))) V (Proc.devRef .tc main_v27) = kt_main_v27 (F := F) o x0 x1
    ∧ StableHlo.after (kops13 : List (HloOp τ sig (Elt F))) V (Proc.devRef .tc main_v50) = kt_main_v50 (F := F) o x0 x1
    ∧ StableHlo.after (kops13 : List (HloOp τ sig (Elt F))) V (Proc.devRef .tc main_v78) = kt_main_v78 (F := F) o x0 x1
    ∧ StableHlo.after (kops13 : List (HloOp τ sig (Elt F))) V (Proc.devRef .tc main_v101) = kt_main_v101 (F := F) o x0 x1
    ∧ StableHlo.after (kops13 : List (HloOp τ sig (Elt F))) V (Proc.devRef .tc main_v106) = kt_main_v106 (F := F) o x0 x1
    ∧ StableHlo.after (kops13 : List (HloOp τ sig (Elt F))) V (Proc.devRef .tc main_c_26) = kt_main_c_26 (F := F) o x0 x1 := by
  simp only [kops13]
  read_stretch
  refine ⟨?_, ?_, ?_, ?_, ?_, ?_, ?_, ?_, ?_, ?_, ?_, ?_, ?_, ?_, ?_, ?_, ?_⟩
  all_goals (try (simp only [h_main_arg0, h_main_v2, h_main_v4, h_main_v7, h_main_v9, h_main_v11, h_main_v13, h_main_v15, h_main_v18, h_main_v21, h_main_v24, h_main_v27, h_main_v50, h_main_v78, h_main_v96, h_main_v97, h_main_v98, h_main_v99]; done))
  all_goals (read_stretch_rw; (try simp only [h_main_arg0, h_main_v2, h_main_v4, h_main_v7, h_main_v9, h_main_v11, h_main_v13, h_main_v15, h_main_v18, h_main_v21, h_main_v24, h_main_v27, h_main_v50, h_main_v78, h_main_v96, h_main_v97, h_main_v98, h_main_v99]); (repeat (first | rw [h_main_arg0] | rw [h_main_v2] | rw [h_main_v4] | rw [h_main_v7] | rw [h_main_v9] | rw [h_main_v11] | rw [h_main_v13] | rw [h_main_v15] | rw [h_main_v18] | rw [h_main_v21] | rw [h_main_v24] | rw [h_main_v27] | rw [h_main_v50] | rw [h_main_v78] | rw [h_main_v96] | rw [h_main_v97] | rw [h_main_v98] | rw [h_main_v99])); (try rfl))

set_option maxHeartbeats 4000000 in
/-- Chunk 15 (`kops14`, 10 operations): 17 buffers live at its head, 19 at its end. -/
theorem cut15 {V : Valuation τ sig (Elt F)} {o : (⟨S1x2, .f32⟩ : BufTy).Contents (Elt F)} {x0 : (⟨S16x85x128x128, .f32⟩ : BufTy).Contents (Elt F)} {x1 : (⟨S16x64x5, .f32⟩ : BufTy).Contents (Elt F)}
    (h_main_arg0 : V (Proc.devRef .tc main_arg0) = x0)
    (h_main_v2 : V (Proc.devRef .tc main_v2) = kt_main_v2 (F := F) o x0 x1)
    (h_main_v4 : V (Proc.devRef .tc main_v4) = kt_main_v4 (F := F) o x0 x1)
    (h_main_v7 : V (Proc.devRef .tc main_v7) = kt_main_v7 (F := F) o x0 x1)
    (h_main_v9 : V (Proc.devRef .tc main_v9) = kt_main_v9 (F := F) o x0 x1)
    (h_main_v11 : V (Proc.devRef .tc main_v11) = kt_main_v11 (F := F) o x0 x1)
    (h_main_v13 : V (Proc.devRef .tc main_v13) = kt_main_v13 (F := F) o x0 x1)
    (h_main_v15 : V (Proc.devRef .tc main_v15) = kt_main_v15 (F := F) o x0 x1)
    (h_main_v18 : V (Proc.devRef .tc main_v18) = kt_main_v18 (F := F) o x0 x1)
    (h_main_v21 : V (Proc.devRef .tc main_v21) = kt_main_v21 (F := F) o x0 x1)
    (h_main_v24 : V (Proc.devRef .tc main_v24) = kt_main_v24 (F := F) o x0 x1)
    (h_main_v27 : V (Proc.devRef .tc main_v27) = kt_main_v27 (F := F) o x0 x1)
    (h_main_v50 : V (Proc.devRef .tc main_v50) = kt_main_v50 (F := F) o x0 x1)
    (h_main_v78 : V (Proc.devRef .tc main_v78) = kt_main_v78 (F := F) o x0 x1)
    (h_main_v101 : V (Proc.devRef .tc main_v101) = kt_main_v101 (F := F) o x0 x1)
    (h_main_v106 : V (Proc.devRef .tc main_v106) = kt_main_v106 (F := F) o x0 x1)
    (h_main_c_26 : V (Proc.devRef .tc main_c_26) = kt_main_c_26 (F := F) o x0 x1)
    :
    StableHlo.after (kops14 : List (HloOp τ sig (Elt F))) V (Proc.devRef .tc main_arg0) = x0
    ∧ StableHlo.after (kops14 : List (HloOp τ sig (Elt F))) V (Proc.devRef .tc main_v2) = kt_main_v2 (F := F) o x0 x1
    ∧ StableHlo.after (kops14 : List (HloOp τ sig (Elt F))) V (Proc.devRef .tc main_v4) = kt_main_v4 (F := F) o x0 x1
    ∧ StableHlo.after (kops14 : List (HloOp τ sig (Elt F))) V (Proc.devRef .tc main_v7) = kt_main_v7 (F := F) o x0 x1
    ∧ StableHlo.after (kops14 : List (HloOp τ sig (Elt F))) V (Proc.devRef .tc main_v9) = kt_main_v9 (F := F) o x0 x1
    ∧ StableHlo.after (kops14 : List (HloOp τ sig (Elt F))) V (Proc.devRef .tc main_v11) = kt_main_v11 (F := F) o x0 x1
    ∧ StableHlo.after (kops14 : List (HloOp τ sig (Elt F))) V (Proc.devRef .tc main_v13) = kt_main_v13 (F := F) o x0 x1
    ∧ StableHlo.after (kops14 : List (HloOp τ sig (Elt F))) V (Proc.devRef .tc main_v15) = kt_main_v15 (F := F) o x0 x1
    ∧ StableHlo.after (kops14 : List (HloOp τ sig (Elt F))) V (Proc.devRef .tc main_v18) = kt_main_v18 (F := F) o x0 x1
    ∧ StableHlo.after (kops14 : List (HloOp τ sig (Elt F))) V (Proc.devRef .tc main_v21) = kt_main_v21 (F := F) o x0 x1
    ∧ StableHlo.after (kops14 : List (HloOp τ sig (Elt F))) V (Proc.devRef .tc main_v24) = kt_main_v24 (F := F) o x0 x1
    ∧ StableHlo.after (kops14 : List (HloOp τ sig (Elt F))) V (Proc.devRef .tc main_v27) = kt_main_v27 (F := F) o x0 x1
    ∧ StableHlo.after (kops14 : List (HloOp τ sig (Elt F))) V (Proc.devRef .tc main_v50) = kt_main_v50 (F := F) o x0 x1
    ∧ StableHlo.after (kops14 : List (HloOp τ sig (Elt F))) V (Proc.devRef .tc main_v78) = kt_main_v78 (F := F) o x0 x1
    ∧ StableHlo.after (kops14 : List (HloOp τ sig (Elt F))) V (Proc.devRef .tc main_v101) = kt_main_v101 (F := F) o x0 x1
    ∧ StableHlo.after (kops14 : List (HloOp τ sig (Elt F))) V (Proc.devRef .tc main_v106) = kt_main_v106 (F := F) o x0 x1
    ∧ StableHlo.after (kops14 : List (HloOp τ sig (Elt F))) V (Proc.devRef .tc main_v111) = kt_main_v111 (F := F) o x0 x1
    ∧ StableHlo.after (kops14 : List (HloOp τ sig (Elt F))) V (Proc.devRef .tc main_v113) = kt_main_v113 (F := F) o x0 x1
    ∧ StableHlo.after (kops14 : List (HloOp τ sig (Elt F))) V (Proc.devRef .tc main_c_29) = kt_main_c_29 (F := F) o x0 x1 := by
  simp only [kops14]
  read_stretch
  refine ⟨?_, ?_, ?_, ?_, ?_, ?_, ?_, ?_, ?_, ?_, ?_, ?_, ?_, ?_, ?_, ?_, ?_, ?_, ?_⟩
  all_goals (try (simp only [h_main_arg0, h_main_v2, h_main_v4, h_main_v7, h_main_v9, h_main_v11, h_main_v13, h_main_v15, h_main_v18, h_main_v21, h_main_v24, h_main_v27, h_main_v50, h_main_v78, h_main_v101, h_main_v106, h_main_c_26]; done))
  all_goals (read_stretch_rw; (try simp only [h_main_arg0, h_main_v2, h_main_v4, h_main_v7, h_main_v9, h_main_v11, h_main_v13, h_main_v15, h_main_v18, h_main_v21, h_main_v24, h_main_v27, h_main_v50, h_main_v78, h_main_v101, h_main_v106, h_main_c_26]); (repeat (first | rw [h_main_arg0] | rw [h_main_v2] | rw [h_main_v4] | rw [h_main_v7] | rw [h_main_v9] | rw [h_main_v11] | rw [h_main_v13] | rw [h_main_v15] | rw [h_main_v18] | rw [h_main_v21] | rw [h_main_v24] | rw [h_main_v27] | rw [h_main_v50] | rw [h_main_v78] | rw [h_main_v101] | rw [h_main_v106] | rw [h_main_c_26])); (try rfl))

set_option maxHeartbeats 4000000 in
/-- Chunk 16 (`kops15`, 10 operations): 19 buffers live at its head, 19 at its end. -/
theorem cut16 {V : Valuation τ sig (Elt F)} {o : (⟨S1x2, .f32⟩ : BufTy).Contents (Elt F)} {x0 : (⟨S16x85x128x128, .f32⟩ : BufTy).Contents (Elt F)} {x1 : (⟨S16x64x5, .f32⟩ : BufTy).Contents (Elt F)}
    (h_main_arg0 : V (Proc.devRef .tc main_arg0) = x0)
    (h_main_v2 : V (Proc.devRef .tc main_v2) = kt_main_v2 (F := F) o x0 x1)
    (h_main_v4 : V (Proc.devRef .tc main_v4) = kt_main_v4 (F := F) o x0 x1)
    (h_main_v7 : V (Proc.devRef .tc main_v7) = kt_main_v7 (F := F) o x0 x1)
    (h_main_v9 : V (Proc.devRef .tc main_v9) = kt_main_v9 (F := F) o x0 x1)
    (h_main_v11 : V (Proc.devRef .tc main_v11) = kt_main_v11 (F := F) o x0 x1)
    (h_main_v13 : V (Proc.devRef .tc main_v13) = kt_main_v13 (F := F) o x0 x1)
    (h_main_v15 : V (Proc.devRef .tc main_v15) = kt_main_v15 (F := F) o x0 x1)
    (h_main_v18 : V (Proc.devRef .tc main_v18) = kt_main_v18 (F := F) o x0 x1)
    (h_main_v21 : V (Proc.devRef .tc main_v21) = kt_main_v21 (F := F) o x0 x1)
    (h_main_v24 : V (Proc.devRef .tc main_v24) = kt_main_v24 (F := F) o x0 x1)
    (h_main_v27 : V (Proc.devRef .tc main_v27) = kt_main_v27 (F := F) o x0 x1)
    (h_main_v50 : V (Proc.devRef .tc main_v50) = kt_main_v50 (F := F) o x0 x1)
    (h_main_v78 : V (Proc.devRef .tc main_v78) = kt_main_v78 (F := F) o x0 x1)
    (h_main_v101 : V (Proc.devRef .tc main_v101) = kt_main_v101 (F := F) o x0 x1)
    (h_main_v106 : V (Proc.devRef .tc main_v106) = kt_main_v106 (F := F) o x0 x1)
    (h_main_v111 : V (Proc.devRef .tc main_v111) = kt_main_v111 (F := F) o x0 x1)
    (h_main_v113 : V (Proc.devRef .tc main_v113) = kt_main_v113 (F := F) o x0 x1)
    (h_main_c_29 : V (Proc.devRef .tc main_c_29) = kt_main_c_29 (F := F) o x0 x1)
    :
    StableHlo.after (kops15 : List (HloOp τ sig (Elt F))) V (Proc.devRef .tc main_arg0) = x0
    ∧ StableHlo.after (kops15 : List (HloOp τ sig (Elt F))) V (Proc.devRef .tc main_v2) = kt_main_v2 (F := F) o x0 x1
    ∧ StableHlo.after (kops15 : List (HloOp τ sig (Elt F))) V (Proc.devRef .tc main_v4) = kt_main_v4 (F := F) o x0 x1
    ∧ StableHlo.after (kops15 : List (HloOp τ sig (Elt F))) V (Proc.devRef .tc main_v7) = kt_main_v7 (F := F) o x0 x1
    ∧ StableHlo.after (kops15 : List (HloOp τ sig (Elt F))) V (Proc.devRef .tc main_v9) = kt_main_v9 (F := F) o x0 x1
    ∧ StableHlo.after (kops15 : List (HloOp τ sig (Elt F))) V (Proc.devRef .tc main_v11) = kt_main_v11 (F := F) o x0 x1
    ∧ StableHlo.after (kops15 : List (HloOp τ sig (Elt F))) V (Proc.devRef .tc main_v13) = kt_main_v13 (F := F) o x0 x1
    ∧ StableHlo.after (kops15 : List (HloOp τ sig (Elt F))) V (Proc.devRef .tc main_v15) = kt_main_v15 (F := F) o x0 x1
    ∧ StableHlo.after (kops15 : List (HloOp τ sig (Elt F))) V (Proc.devRef .tc main_v18) = kt_main_v18 (F := F) o x0 x1
    ∧ StableHlo.after (kops15 : List (HloOp τ sig (Elt F))) V (Proc.devRef .tc main_v21) = kt_main_v21 (F := F) o x0 x1
    ∧ StableHlo.after (kops15 : List (HloOp τ sig (Elt F))) V (Proc.devRef .tc main_v24) = kt_main_v24 (F := F) o x0 x1
    ∧ StableHlo.after (kops15 : List (HloOp τ sig (Elt F))) V (Proc.devRef .tc main_v27) = kt_main_v27 (F := F) o x0 x1
    ∧ StableHlo.after (kops15 : List (HloOp τ sig (Elt F))) V (Proc.devRef .tc main_v50) = kt_main_v50 (F := F) o x0 x1
    ∧ StableHlo.after (kops15 : List (HloOp τ sig (Elt F))) V (Proc.devRef .tc main_v78) = kt_main_v78 (F := F) o x0 x1
    ∧ StableHlo.after (kops15 : List (HloOp τ sig (Elt F))) V (Proc.devRef .tc main_v101) = kt_main_v101 (F := F) o x0 x1
    ∧ StableHlo.after (kops15 : List (HloOp τ sig (Elt F))) V (Proc.devRef .tc main_v119) = kt_main_v119 (F := F) o x0 x1
    ∧ StableHlo.after (kops15 : List (HloOp τ sig (Elt F))) V (Proc.devRef .tc main_v120) = kt_main_v120 (F := F) o x0 x1
    ∧ StableHlo.after (kops15 : List (HloOp τ sig (Elt F))) V (Proc.devRef .tc main_v121) = kt_main_v121 (F := F) o x0 x1
    ∧ StableHlo.after (kops15 : List (HloOp τ sig (Elt F))) V (Proc.devRef .tc main_v122) = kt_main_v122 (F := F) o x0 x1 := by
  simp only [kops15]
  read_stretch
  refine ⟨?_, ?_, ?_, ?_, ?_, ?_, ?_, ?_, ?_, ?_, ?_, ?_, ?_, ?_, ?_, ?_, ?_, ?_, ?_⟩
  all_goals (try (simp only [h_main_arg0, h_main_v2, h_main_v4, h_main_v7, h_main_v9, h_main_v11, h_main_v13, h_main_v15, h_main_v18, h_main_v21, h_main_v24, h_main_v27, h_main_v50, h_main_v78, h_main_v101, h_main_v106, h_main_v111, h_main_v113, h_main_c_29]; done))
  all_goals (read_stretch_rw; (try simp only [h_main_arg0, h_main_v2, h_main_v4, h_main_v7, h_main_v9, h_main_v11, h_main_v13, h_main_v15, h_main_v18, h_main_v21, h_main_v24, h_main_v27, h_main_v50, h_main_v78, h_main_v101, h_main_v106, h_main_v111, h_main_v113, h_main_c_29]); (repeat (first | rw [h_main_arg0] | rw [h_main_v2] | rw [h_main_v4] | rw [h_main_v7] | rw [h_main_v9] | rw [h_main_v11] | rw [h_main_v13] | rw [h_main_v15] | rw [h_main_v18] | rw [h_main_v21] | rw [h_main_v24] | rw [h_main_v27] | rw [h_main_v50] | rw [h_main_v78] | rw [h_main_v101] | rw [h_main_v106] | rw [h_main_v111] | rw [h_main_v113] | rw [h_main_c_29])); (try rfl))

set_option maxHeartbeats 4000000 in
/-- Chunk 17 (`kops16`, 10 operations): 19 buffers live at its head, 18 at its end. -/
theorem cut17 {V : Valuation τ sig (Elt F)} {o : (⟨S1x2, .f32⟩ : BufTy).Contents (Elt F)} {x0 : (⟨S16x85x128x128, .f32⟩ : BufTy).Contents (Elt F)} {x1 : (⟨S16x64x5, .f32⟩ : BufTy).Contents (Elt F)}
    (h_main_arg0 : V (Proc.devRef .tc main_arg0) = x0)
    (h_main_v2 : V (Proc.devRef .tc main_v2) = kt_main_v2 (F := F) o x0 x1)
    (h_main_v4 : V (Proc.devRef .tc main_v4) = kt_main_v4 (F := F) o x0 x1)
    (h_main_v7 : V (Proc.devRef .tc main_v7) = kt_main_v7 (F := F) o x0 x1)
    (h_main_v9 : V (Proc.devRef .tc main_v9) = kt_main_v9 (F := F) o x0 x1)
    (h_main_v11 : V (Proc.devRef .tc main_v11) = kt_main_v11 (F := F) o x0 x1)
    (h_main_v13 : V (Proc.devRef .tc main_v13) = kt_main_v13 (F := F) o x0 x1)
    (h_main_v15 : V (Proc.devRef .tc main_v15) = kt_main_v15 (F := F) o x0 x1)
    (h_main_v18 : V (Proc.devRef .tc main_v18) = kt_main_v18 (F := F) o x0 x1)
    (h_main_v21 : V (Proc.devRef .tc main_v21) = kt_main_v21 (F := F) o x0 x1)
    (h_main_v24 : V (Proc.devRef .tc main_v24) = kt_main_v24 (F := F) o x0 x1)
    (h_main_v27 : V (Proc.devRef .tc main_v27) = kt_main_v27 (F := F) o x0 x1)
    (h_main_v50 : V (Proc.devRef .tc main_v50) = kt_main_v50 (F := F) o x0 x1)
    (h_main_v78 : V (Proc.devRef .tc main_v78) = kt_main_v78 (F := F) o x0 x1)
    (h_main_v101 : V (Proc.devRef .tc main_v101) = kt_main_v101 (F := F) o x0 x1)
    (h_main_v119 : V (Proc.devRef .tc main_v119) = kt_main_v119 (F := F) o x0 x1)
    (h_main_v120 : V (Proc.devRef .tc main_v120) = kt_main_v120 (F := F) o x0 x1)
    (h_main_v121 : V (Proc.devRef .tc main_v121) = kt_main_v121 (F := F) o x0 x1)
    (h_main_v122 : V (Proc.devRef .tc main_v122) = kt_main_v122 (F := F) o x0 x1)
    :
    StableHlo.after (kops16 : List (HloOp τ sig (Elt F))) V (Proc.devRef .tc main_arg0) = x0
    ∧ StableHlo.after (kops16 : List (HloOp τ sig (Elt F))) V (Proc.devRef .tc main_v2) = kt_main_v2 (F := F) o x0 x1
    ∧ StableHlo.after (kops16 : List (HloOp τ sig (Elt F))) V (Proc.devRef .tc main_v4) = kt_main_v4 (F := F) o x0 x1
    ∧ StableHlo.after (kops16 : List (HloOp τ sig (Elt F))) V (Proc.devRef .tc main_v7) = kt_main_v7 (F := F) o x0 x1
    ∧ StableHlo.after (kops16 : List (HloOp τ sig (Elt F))) V (Proc.devRef .tc main_v9) = kt_main_v9 (F := F) o x0 x1
    ∧ StableHlo.after (kops16 : List (HloOp τ sig (Elt F))) V (Proc.devRef .tc main_v11) = kt_main_v11 (F := F) o x0 x1
    ∧ StableHlo.after (kops16 : List (HloOp τ sig (Elt F))) V (Proc.devRef .tc main_v13) = kt_main_v13 (F := F) o x0 x1
    ∧ StableHlo.after (kops16 : List (HloOp τ sig (Elt F))) V (Proc.devRef .tc main_v15) = kt_main_v15 (F := F) o x0 x1
    ∧ StableHlo.after (kops16 : List (HloOp τ sig (Elt F))) V (Proc.devRef .tc main_v18) = kt_main_v18 (F := F) o x0 x1
    ∧ StableHlo.after (kops16 : List (HloOp τ sig (Elt F))) V (Proc.devRef .tc main_v21) = kt_main_v21 (F := F) o x0 x1
    ∧ StableHlo.after (kops16 : List (HloOp τ sig (Elt F))) V (Proc.devRef .tc main_v24) = kt_main_v24 (F := F) o x0 x1
    ∧ StableHlo.after (kops16 : List (HloOp τ sig (Elt F))) V (Proc.devRef .tc main_v27) = kt_main_v27 (F := F) o x0 x1
    ∧ StableHlo.after (kops16 : List (HloOp τ sig (Elt F))) V (Proc.devRef .tc main_v50) = kt_main_v50 (F := F) o x0 x1
    ∧ StableHlo.after (kops16 : List (HloOp τ sig (Elt F))) V (Proc.devRef .tc main_v78) = kt_main_v78 (F := F) o x0 x1
    ∧ StableHlo.after (kops16 : List (HloOp τ sig (Elt F))) V (Proc.devRef .tc main_v101) = kt_main_v101 (F := F) o x0 x1
    ∧ StableHlo.after (kops16 : List (HloOp τ sig (Elt F))) V (Proc.devRef .tc main_v124) = kt_main_v124 (F := F) o x0 x1
    ∧ StableHlo.after (kops16 : List (HloOp τ sig (Elt F))) V (Proc.devRef .tc main_v129) = kt_main_v129 (F := F) o x0 x1
    ∧ StableHlo.after (kops16 : List (HloOp τ sig (Elt F))) V (Proc.devRef .tc main_c_33) = kt_main_c_33 (F := F) o x0 x1 := by
  simp only [kops16]
  read_stretch
  refine ⟨?_, ?_, ?_, ?_, ?_, ?_, ?_, ?_, ?_, ?_, ?_, ?_, ?_, ?_, ?_, ?_, ?_, ?_⟩
  all_goals (try (simp only [h_main_arg0, h_main_v2, h_main_v4, h_main_v7, h_main_v9, h_main_v11, h_main_v13, h_main_v15, h_main_v18, h_main_v21, h_main_v24, h_main_v27, h_main_v50, h_main_v78, h_main_v101, h_main_v119, h_main_v120, h_main_v121, h_main_v122]; done))
  all_goals (read_stretch_rw; (try simp only [h_main_arg0, h_main_v2, h_main_v4, h_main_v7, h_main_v9, h_main_v11, h_main_v13, h_main_v15, h_main_v18, h_main_v21, h_main_v24, h_main_v27, h_main_v50, h_main_v78, h_main_v101, h_main_v119, h_main_v120, h_main_v121, h_main_v122]); (repeat (first | rw [h_main_arg0] | rw [h_main_v2] | rw [h_main_v4] | rw [h_main_v7] | rw [h_main_v9] | rw [h_main_v11] | rw [h_main_v13] | rw [h_main_v15] | rw [h_main_v18] | rw [h_main_v21] | rw [h_main_v24] | rw [h_main_v27] | rw [h_main_v50] | rw [h_main_v78] | rw [h_main_v101] | rw [h_main_v119] | rw [h_main_v120] | rw [h_main_v121] | rw [h_main_v122])); (try rfl))

set_option maxHeartbeats 4000000 in
/-- Chunk 18 (`kops17`, 10 operations): 18 buffers live at its head, 20 at its end. -/
theorem cut18 {V : Valuation τ sig (Elt F)} {o : (⟨S1x2, .f32⟩ : BufTy).Contents (Elt F)} {x0 : (⟨S16x85x128x128, .f32⟩ : BufTy).Contents (Elt F)} {x1 : (⟨S16x64x5, .f32⟩ : BufTy).Contents (Elt F)}
    (h_main_arg0 : V (Proc.devRef .tc main_arg0) = x0)
    (h_main_v2 : V (Proc.devRef .tc main_v2) = kt_main_v2 (F := F) o x0 x1)
    (h_main_v4 : V (Proc.devRef .tc main_v4) = kt_main_v4 (F := F) o x0 x1)
    (h_main_v7 : V (Proc.devRef .tc main_v7) = kt_main_v7 (F := F) o x0 x1)
    (h_main_v9 : V (Proc.devRef .tc main_v9) = kt_main_v9 (F := F) o x0 x1)
    (h_main_v11 : V (Proc.devRef .tc main_v11) = kt_main_v11 (F := F) o x0 x1)
    (h_main_v13 : V (Proc.devRef .tc main_v13) = kt_main_v13 (F := F) o x0 x1)
    (h_main_v15 : V (Proc.devRef .tc main_v15) = kt_main_v15 (F := F) o x0 x1)
    (h_main_v18 : V (Proc.devRef .tc main_v18) = kt_main_v18 (F := F) o x0 x1)
    (h_main_v21 : V (Proc.devRef .tc main_v21) = kt_main_v21 (F := F) o x0 x1)
    (h_main_v24 : V (Proc.devRef .tc main_v24) = kt_main_v24 (F := F) o x0 x1)
    (h_main_v27 : V (Proc.devRef .tc main_v27) = kt_main_v27 (F := F) o x0 x1)
    (h_main_v50 : V (Proc.devRef .tc main_v50) = kt_main_v50 (F := F) o x0 x1)
    (h_main_v78 : V (Proc.devRef .tc main_v78) = kt_main_v78 (F := F) o x0 x1)
    (h_main_v101 : V (Proc.devRef .tc main_v101) = kt_main_v101 (F := F) o x0 x1)
    (h_main_v124 : V (Proc.devRef .tc main_v124) = kt_main_v124 (F := F) o x0 x1)
    (h_main_v129 : V (Proc.devRef .tc main_v129) = kt_main_v129 (F := F) o x0 x1)
    (h_main_c_33 : V (Proc.devRef .tc main_c_33) = kt_main_c_33 (F := F) o x0 x1)
    :
    StableHlo.after (kops17 : List (HloOp τ sig (Elt F))) V (Proc.devRef .tc main_arg0) = x0
    ∧ StableHlo.after (kops17 : List (HloOp τ sig (Elt F))) V (Proc.devRef .tc main_v2) = kt_main_v2 (F := F) o x0 x1
    ∧ StableHlo.after (kops17 : List (HloOp τ sig (Elt F))) V (Proc.devRef .tc main_v4) = kt_main_v4 (F := F) o x0 x1
    ∧ StableHlo.after (kops17 : List (HloOp τ sig (Elt F))) V (Proc.devRef .tc main_v7) = kt_main_v7 (F := F) o x0 x1
    ∧ StableHlo.after (kops17 : List (HloOp τ sig (Elt F))) V (Proc.devRef .tc main_v9) = kt_main_v9 (F := F) o x0 x1
    ∧ StableHlo.after (kops17 : List (HloOp τ sig (Elt F))) V (Proc.devRef .tc main_v11) = kt_main_v11 (F := F) o x0 x1
    ∧ StableHlo.after (kops17 : List (HloOp τ sig (Elt F))) V (Proc.devRef .tc main_v13) = kt_main_v13 (F := F) o x0 x1
    ∧ StableHlo.after (kops17 : List (HloOp τ sig (Elt F))) V (Proc.devRef .tc main_v15) = kt_main_v15 (F := F) o x0 x1
    ∧ StableHlo.after (kops17 : List (HloOp τ sig (Elt F))) V (Proc.devRef .tc main_v18) = kt_main_v18 (F := F) o x0 x1
    ∧ StableHlo.after (kops17 : List (HloOp τ sig (Elt F))) V (Proc.devRef .tc main_v21) = kt_main_v21 (F := F) o x0 x1
    ∧ StableHlo.after (kops17 : List (HloOp τ sig (Elt F))) V (Proc.devRef .tc main_v24) = kt_main_v24 (F := F) o x0 x1
    ∧ StableHlo.after (kops17 : List (HloOp τ sig (Elt F))) V (Proc.devRef .tc main_v27) = kt_main_v27 (F := F) o x0 x1
    ∧ StableHlo.after (kops17 : List (HloOp τ sig (Elt F))) V (Proc.devRef .tc main_v50) = kt_main_v50 (F := F) o x0 x1
    ∧ StableHlo.after (kops17 : List (HloOp τ sig (Elt F))) V (Proc.devRef .tc main_v78) = kt_main_v78 (F := F) o x0 x1
    ∧ StableHlo.after (kops17 : List (HloOp τ sig (Elt F))) V (Proc.devRef .tc main_v101) = kt_main_v101 (F := F) o x0 x1
    ∧ StableHlo.after (kops17 : List (HloOp τ sig (Elt F))) V (Proc.devRef .tc main_v124) = kt_main_v124 (F := F) o x0 x1
    ∧ StableHlo.after (kops17 : List (HloOp τ sig (Elt F))) V (Proc.devRef .tc main_v129) = kt_main_v129 (F := F) o x0 x1
    ∧ StableHlo.after (kops17 : List (HloOp τ sig (Elt F))) V (Proc.devRef .tc main_v134) = kt_main_v134 (F := F) o x0 x1
    ∧ StableHlo.after (kops17 : List (HloOp τ sig (Elt F))) V (Proc.devRef .tc main_v136) = kt_main_v136 (F := F) o x0 x1
    ∧ StableHlo.after (kops17 : List (HloOp τ sig (Elt F))) V (Proc.devRef .tc main_c_36) = kt_main_c_36 (F := F) o x0 x1 := by
  simp only [kops17]
  read_stretch
  refine ⟨?_, ?_, ?_, ?_, ?_, ?_, ?_, ?_, ?_, ?_, ?_, ?_, ?_, ?_, ?_, ?_, ?_, ?_, ?_, ?_⟩
  all_goals (try (simp only [h_main_arg0, h_main_v2, h_main_v4, h_main_v7, h_main_v9, h_main_v11, h_main_v13, h_main_v15, h_main_v18, h_main_v21, h_main_v24, h_main_v27, h_main_v50, h_main_v78, h_main_v101, h_main_v124, h_main_v129, h_main_c_33]; done))
  all_goals (read_stretch_rw; (try simp only [h_main_arg0, h_main_v2, h_main_v4, h_main_v7, h_main_v9, h_main_v11, h_main_v13, h_main_v15, h_main_v18, h_main_v21, h_main_v24, h_main_v27, h_main_v50, h_main_v78, h_main_v101, h_main_v124, h_main_v129, h_main_c_33]); (repeat (first | rw [h_main_arg0] | rw [h_main_v2] | rw [h_main_v4] | rw [h_main_v7] | rw [h_main_v9] | rw [h_main_v11] | rw [h_main_v13] | rw [h_main_v15] | rw [h_main_v18] | rw [h_main_v21] | rw [h_main_v24] | rw [h_main_v27] | rw [h_main_v50] | rw [h_main_v78] | rw [h_main_v101] | rw [h_main_v124] | rw [h_main_v129] | rw [h_main_c_33])); (try rfl))

end Cert.KernelIdeal.Tail

end
-- ==== Proof.KC.KCut04.lean ====
/- The line of host operations of the kernel program's @main after its region (403 operations, in chunks), stretch by stretch: for each stretch, from the facts that the
   buffers live at its head hold their stages, the buffers live at its end hold theirs (a buffer the stretch writes: its
   operation's function of its operands' stages, which is its stage; a buffer it does not write: what it held); and
   composed over the stretches, the whole line from any contents leaves the result buffer at the last stage. -/
import proofs.«175006_j89550068121905_1_alg».proof.Proof.KTailStages
import proofs.«175006_j89550068121905_1_alg».proof.Proof.KTailOps
import proofs.«175006_j89550068121905_1_alg».proof.Proof.LibReadStretch
import proofs.«175006_j89550068121905_1_alg».proof.Proof.LibReadStretchRw
import Idealize.ShloMosaic.Lib.Pipeline.Frame

set_option maxRecDepth 16384

noncomputable section

namespace Cert.KernelIdeal.Tail

open Cert.KernelIdeal Cert.KernelIdeal.Gen Idealize.ShloMosaic Idealize.ShloMosaic.TcCoe Idealize.SL.Sem Idealize.ShloMosaic.StableHlo

variable {F : FTy → Type} [FloatOps F]

set_option maxHeartbeats 4000000 in
/-- Chunk 19 (`kops18`, 10 operations): 20 buffers live at its head, 20 at its end. -/
theorem cut19 {V : Valuation τ sig (Elt F)} {o : (⟨S1x2, .f32⟩ : BufTy).Contents (Elt F)} {x0 : (⟨S16x85x128x128, .f32⟩ : BufTy).Contents (Elt F)} {x1 : (⟨S16x64x5, .f32⟩ : BufTy).Contents (Elt F)}
    (h_main_arg0 : V (Proc.devRef .tc main_arg0) = x0)
    (h_main_v2 : V (Proc.devRef .tc main_v2) = kt_main_v2 (F := F) o x0 x1)
    (h_main_v4 : V (Proc.devRef .tc main_v4) = kt_main_v4 (F := F) o x0 x1)
    (h_main_v7 : V (Proc.devRef .tc main_v7) = kt_main_v7 (F := F) o x0 x1)
    (h_main_v9 : V (Proc.devRef .tc main_v9) = kt_main_v9 (F := F) o x0 x1)
    (h_main_v11 : V (Proc.devRef .tc main_v11) = kt_main_v11 (F := F) o x0 x1)
    (h_main_v13 : V (Proc.devRef .tc main_v13) = kt_main_v13 (F := F) o x0 x1)
    (h_main_v15 : V (Proc.devRef .tc main_v15) = kt_main_v15 (F := F) o x0 x1)
    (h_main_v18 : V (Proc.devRef .tc main_v18) = kt_main_v18 (F := F) o x0 x1)
    (h_main_v21 : V (Proc.devRef .tc main_v21) = kt_main_v21 (F := F) o x0 x1)
    (h_main_v24 : V (Proc.devRef .tc main_v24) = kt_main_v24 (F := F) o x0 x1)
    (h_main_v27 : V (Proc.devRef .tc main_v27) = kt_main_v27 (F := F) o x0 x1)
    (h_main_v50 : V (Proc.devRef .tc main_v50) = kt_main_v50 (F := F) o x0 x1)
    (h_main_v78 : V (Proc.devRef .tc main_v78) = kt_main_v78 (F := F) o x0 x1)
    (h_main_v101 : V (Proc.devRef .tc main_v101) = kt_main_v101 (F := F) o x0 x1)
    (h_main_v124 : V (Proc.devRef .tc main_v124) = kt_main_v124 (F := F) o x0 x1)
    (h_main_v129 : V (Proc.devRef .tc main_v129) = kt_main_v129 (F := F) o x0 x1)
    (h_main_v134 : V (Proc.devRef .tc main_v134) = kt_main_v134 (F := F) o x0 x1)
    (h_main_v136 : V (Proc.devRef .tc main_v136) = kt_main_v136 (F := F) o x0 x1)
    (h_main_c_36 : V (Proc.devRef .tc main_c_36) = kt_main_c_36 (F := F) o x0 x1)
    :
    StableHlo.after (kops18 : List (HloOp τ sig (Elt F))) V (Proc.devRef .tc main_arg0) = x0
    ∧ StableHlo.after (kops18 : List (HloOp τ sig (Elt F))) V (Proc.devRef .tc main_v2) = kt_main_v2 (F := F) o x0 x1
    ∧ StableHlo.after (kops18 : List (HloOp τ sig (Elt F))) V (Proc.devRef .tc main_v4) = kt_main_v4 (F := F) o x0 x1
    ∧ StableHlo.after (kops18 : List (HloOp τ sig (Elt F))) V (Proc.devRef .tc main_v7) = kt_main_v7 (F := F) o x0 x1
    ∧ StableHlo.after (kops18 : List (HloOp τ sig (Elt F))) V (Proc.devRef .tc main_v9) = kt_main_v9 (F := F) o x0 x1
    ∧ StableHlo.after (kops18 : List (HloOp τ sig (Elt F))) V (Proc.devRef .tc main_v11) = kt_main_v11 (F := F) o x0 x1
    ∧ StableHlo.after (kops18 : List (HloOp τ sig (Elt F))) V (Proc.devRef .tc main_v13) = kt_main_v13 (F := F) o x0 x1
    ∧ StableHlo.after (kops18 : List (HloOp τ sig (Elt F))) V (Proc.devRef .tc main_v15) = kt_main_v15 (F := F) o x0 x1
    ∧ StableHlo.after (kops18 : List (HloOp τ sig (Elt F))) V (Proc.devRef .tc main_v18) = kt_main_v18 (F := F) o x0 x1
    ∧ StableHlo.after (kops18 : List (HloOp τ sig (Elt F))) V (Proc.devRef .tc main_v21) = kt_main_v21 (F := F) o x0 x1
    ∧ StableHlo.after (kops18 : List (HloOp τ sig (Elt F))) V (Proc.devRef .tc main_v24) = kt_main_v24 (F := F) o x0 x1
    ∧ StableHlo.after (kops18 : List (HloOp τ sig (Elt F))) V (Proc.devRef .tc main_v27) = kt_main_v27 (F := F) o x0 x1
    ∧ StableHlo.after (kops18 : List (HloOp τ sig (Elt F))) V (Proc.devRef .tc main_v50) = kt_main_v50 (F := F) o x0 x1
    ∧ StableHlo.after (kops18 : List (HloOp τ sig (Elt F))) V (Proc.devRef .tc main_v78) = kt_main_v78 (F := F) o x0 x1
    ∧ StableHlo.after (kops18 : List (HloOp τ sig (Elt F))) V (Proc.devRef .tc main_v101) = kt_main_v101 (F := F) o x0 x1
    ∧ StableHlo.after (kops18 : List (HloOp τ sig (Elt F))) V (Proc.devRef .tc main_v124) = kt_main_v124 (F := F) o x0 x1
    ∧ StableHlo.after (kops18 : List (HloOp τ sig (Elt F))) V (Proc.devRef .tc main_v142) = kt_main_v142 (F := F) o x0 x1
    ∧ StableHlo.after (kops18 : List (HloOp τ sig (Elt F))) V (Proc.devRef .tc main_v143) = kt_main_v143 (F := F) o x0 x1
    ∧ StableHlo.after (kops18 : List (HloOp τ sig (Elt F))) V (Proc.devRef .tc main_v144) = kt_main_v144 (F := F) o x0 x1
    ∧ StableHlo.after (kops18 : List (HloOp τ sig (Elt F))) V (Proc.devRef .tc main_v145) = kt_main_v145 (F := F) o x0 x1 := by
  simp only [kops18]
  read_stretch
  refine ⟨?_, ?_, ?_, ?_, ?_, ?_, ?_, ?_, ?_, ?_, ?_, ?_, ?_, ?_, ?_, ?_, ?_, ?_, ?_, ?_⟩
  all_goals (try (simp only [h_main_arg0, h_main_v2, h_main_v4, h_main_v7, h_main_v9, h_main_v11, h_main_v13, h_main_v15, h_main_v18, h_main_v21, h_main_v24, h_main_v27, h_main_v50, h_main_v78, h_main_v101, h_main_v124, h_main_v129, h_main_v134, h_main_v136, h_main_c_36]; done))
  all_goals (read_stretch_rw; (try simp only [h_main_arg0, h_main_v2, h_main_v4, h_main_v7, h_main_v9, h_main_v11, h_main_v13, h_main_v15, h_main_v18, h_main_v21, h_main_v24, h_main_v27, h_main_v50, h_main_v78, h_main_v101, h_main_v124, h_main_v129, h_main_v134, h_main_v136, h_main_c_36]); (repeat (first | rw [h_main_arg0] | rw [h_main_v2] | rw [h_main_v4] | rw [h_main_v7] | rw [h_main_v9] | rw [h_main_v11] | rw [h_main_v13] | rw [h_main_v15] | rw [h_main_v18] | rw [h_main_v21] | rw [h_main_v24] | rw [h_main_v27] | rw [h_main_v50] | rw [h_main_v78] | rw [h_main_v101] | rw [h_main_v124] | rw [h_main_v129] | rw [h_main_v134] | rw [h_main_v136] | rw [h_main_c_36])); (try rfl))

set_option maxHeartbeats 4000000 in
/-- Chunk 20 (`kops19`, 10 operations): 20 buffers live at its head, 18 at its end. -/
theorem cut20 {V : Valuation τ sig (Elt F)} {o : (⟨S1x2, .f32⟩ : BufTy).Contents (Elt F)} {x0 : (⟨S16x85x128x128, .f32⟩ : BufTy).Contents (Elt F)} {x1 : (⟨S16x64x5, .f32⟩ : BufTy).Contents (Elt F)}
    (h_main_arg0 : V (Proc.devRef .tc main_arg0) = x0)
    (h_main_v2 : V (Proc.devRef .tc main_v2) = kt_main_v2 (F := F) o x0 x1)
    (h_main_v4 : V (Proc.devRef .tc main_v4) = kt_main_v4 (F := F) o x0 x1)
    (h_main_v7 : V (Proc.devRef .tc main_v7) = kt_main_v7 (F := F) o x0 x1)
    (h_main_v9 : V (Proc.devRef .tc main_v9) = kt_main_v9 (F := F) o x0 x1)
    (h_main_v11 : V (Proc.devRef .tc main_v11) = kt_main_v11 (F := F) o x0 x1)
    (h_main_v13 : V (Proc.devRef .tc main_v13) = kt_main_v13 (F := F) o x0 x1)
    (h_main_v15 : V (Proc.devRef .tc main_v15) = kt_main_v15 (F := F) o x0 x1)
    (h_main_v18 : V (Proc.devRef .tc main_v18) = kt_main_v18 (F := F) o x0 x1)
    (h_main_v21 : V (Proc.devRef .tc main_v21) = kt_main_v21 (F := F) o x0 x1)
    (h_main_v24 : V (Proc.devRef .tc main_v24) = kt_main_v24 (F := F) o x0 x1)
    (h_main_v27 : V (Proc.devRef .tc main_v27) = kt_main_v27 (F := F) o x0 x1)
    (h_main_v50 : V (Proc.devRef .tc main_v50) = kt_main_v50 (F := F) o x0 x1)
    (h_main_v78 : V (Proc.devRef .tc main_v78) = kt_main_v78 (F := F) o x0 x1)
    (h_main_v101 : V (Proc.devRef .tc main_v101) = kt_main_v101 (F := F) o x0 x1)
    (h_main_v124 : V (Proc.devRef .tc main_v124) = kt_main_v124 (F := F) o x0 x1)
    (h_main_v142 : V (Proc.devRef .tc main_v142) = kt_main_v142 (F := F) o x0 x1)
    (h_main_v143 : V (Proc.devRef .tc main_v143) = kt_main_v143 (F := F) o x0 x1)
    (h_main_v144 : V (Proc.devRef .tc main_v144) = kt_main_v144 (F := F) o x0 x1)
    (h_main_v145 : V (Proc.devRef .tc main_v145) = kt_main_v145 (F := F) o x0 x1)
    :
    StableHlo.after (kops19 : List (HloOp τ sig (Elt F))) V (Proc.devRef .tc main_arg0) = x0
    ∧ StableHlo.after (kops19 : List (HloOp τ sig (Elt F))) V (Proc.devRef .tc main_v2) = kt_main_v2 (F := F) o x0 x1
    ∧ StableHlo.after (kops19 : List (HloOp τ sig (Elt F))) V (Proc.devRef .tc main_v4) = kt_main_v4 (F := F) o x0 x1
    ∧ StableHlo.after (kops19 : List (HloOp τ sig (Elt F))) V (Proc.devRef .tc main_v7) = kt_main_v7 (F := F) o x0 x1
    ∧ StableHlo.after (kops19 : List (HloOp τ sig (Elt F))) V (Proc.devRef .tc main_v9) = kt_main_v9 (F := F) o x0 x1
    ∧ StableHlo.after (kops19 : List (HloOp τ sig (Elt F))) V (Proc.devRef .tc main_v11) = kt_main_v11 (F := F) o x0 x1
    ∧ StableHlo.after (kops19 : List (HloOp τ sig (Elt F))) V (Proc.devRef .tc main_v13) = kt_main_v13 (F := F) o x0 x1
    ∧ StableHlo.after (kops19 : List (HloOp τ sig (Elt F))) V (Proc.devRef .tc main_v15) = kt_main_v15 (F := F) o x0 x1
    ∧ StableHlo.after (kops19 : List (HloOp τ sig (Elt F))) V (Proc.devRef .tc main_v18) = kt_main_v18 (F := F) o x0 x1
    ∧ StableHlo.after (kops19 : List (HloOp τ sig (Elt F))) V (Proc.devRef .tc main_v21) = kt_main_v21 (F := F) o x0 x1
    ∧ StableHlo.after (kops19 : List (HloOp τ sig (Elt F))) V (Proc.devRef .tc main_v24) = kt_main_v24 (F := F) o x0 x1
    ∧ StableHlo.after (kops19 : List (HloOp τ sig (Elt F))) V (Proc.devRef .tc main_v50) = kt_main_v50 (F := F) o x0 x1
    ∧ StableHlo.after (kops19 : List (HloOp τ sig (Elt F))) V (Proc.devRef .tc main_v78) = kt_main_v78 (F := F) o x0 x1
    ∧ StableHlo.after (kops19 : List (HloOp τ sig (Elt F))) V (Proc.devRef .tc main_v101) = kt_main_v101 (F := F) o x0 x1
    ∧ StableHlo.after (kops19 : List (HloOp τ sig (Elt F))) V (Proc.devRef .tc main_v124) = kt_main_v124 (F := F) o x0 x1
    ∧ StableHlo.after (kops19 : List (HloOp τ sig (Elt F))) V (Proc.devRef .tc main_v147) = kt_main_v147 (F := F) o x0 x1
    ∧ StableHlo.after (kops19 : List (HloOp τ sig (Elt F))) V (Proc.devRef .tc main_v152) = kt_main_v152 (F := F) o x0 x1
    ∧ StableHlo.after (kops19 : List (HloOp τ sig (Elt F))) V (Proc.devRef .tc main_c_40) = kt_main_c_40 (F := F) o x0 x1 := by
  simp only [kops19]
  read_stretch
  refine ⟨?_, ?_, ?_, ?_, ?_, ?_, ?_, ?_, ?_, ?_, ?_, ?_, ?_, ?_, ?_, ?_, ?_, ?_⟩
  all_goals (try (simp only [h_main_arg0, h_main_v2, h_main_v4, h_main_v7, h_main_v9, h_main_v11, h_main_v13, h_main_v15, h_main_v18, h_main_v21, h_main_v24, h_main_v27, h_main_v50, h_main_v78, h_main_v101, h_main_v124, h_main_v142, h_main_v143, h_main_v144, h_main_v145]; done))
  all_goals (read_stretch_rw; (try simp only [h_main_arg0, h_main_v2, h_main_v4, h_main_v7, h_main_v9, h_main_v11, h_main_v13, h_main_v15, h_main_v18, h_main_v21, h_main_v24, h_main_v27, h_main_v50, h_main_v78, h_main_v101, h_main_v124, h_main_v142, h_main_v143, h_main_v144, h_main_v145]); (repeat (first | rw [h_main_arg0] | rw [h_main_v2] | rw [h_main_v4] | rw [h_main_v7] | rw [h_main_v9] | rw [h_main_v11] | rw [h_main_v13] | rw [h_main_v15] | rw [h_main_v18] | rw [h_main_v21] | rw [h_main_v24] | rw [h_main_v27] | rw [h_main_v50] | rw [h_main_v78] | rw [h_main_v101] | rw [h_main_v124] | rw [h_main_v142] | rw [h_main_v143] | rw [h_main_v144] | rw [h_main_v145])); (try rfl))

set_option maxHeartbeats 4000000 in
/-- Chunk 21 (`kops20`, 10 operations): 18 buffers live at its head, 19 at its end. -/
theorem cut21 {V : Valuation τ sig (Elt F)} {o : (⟨S1x2, .f32⟩ : BufTy).Contents (Elt F)} {x0 : (⟨S16x85x128x128, .f32⟩ : BufTy).Contents (Elt F)} {x1 : (⟨S16x64x5, .f32⟩ : BufTy).Contents (Elt F)}
    (h_main_arg0 : V (Proc.devRef .tc main_arg0) = x0)
    (h_main_v2 : V (Proc.devRef .tc main_v2) = kt_main_v2 (F := F) o x0 x1)
    (h_main_v4 : V (Proc.devRef .tc main_v4) = kt_main_v4 (F := F) o x0 x1)
    (h_main_v7 : V (Proc.devRef .tc main_v7) = kt_main_v7 (F := F) o x0 x1)
    (h_main_v9 : V (Proc.devRef .tc main_v9) = kt_main_v9 (F := F) o x0 x1)
    (h_main_v11 : V (Proc.devRef .tc main_v11) = kt_main_v11 (F := F) o x0 x1)
    (h_main_v13 : V (Proc.devRef .tc main_v13) = kt_main_v13 (F := F) o x0 x1)
    (h_main_v15 : V (Proc.devRef .tc main_v15) = kt_main_v15 (F := F) o x0 x1)
    (h_main_v18 : V (Proc.devRef .tc main_v18) = kt_main_v18 (F := F) o x0 x1)
    (h_main_v21 : V (Proc.devRef .tc main_v21) = kt_main_v21 (F := F) o x0 x1)
    (h_main_v24 : V (Proc.devRef .tc main_v24) = kt_main_v24 (F := F) o x0 x1)
    (h_main_v50 : V (Proc.devRef .tc main_v50) = kt_main_v50 (F := F) o x0 x1)
    (h_main_v78 : V (Proc.devRef .tc main_v78) = kt_main_v78 (F := F) o x0 x1)
    (h_main_v101 : V (Proc.devRef .tc main_v101) = kt_main_v101 (F := F) o x0 x1)
    (h_main_v124 : V (Proc.devRef .tc main_v124) = kt_main_v124 (F := F) o x0 x1)
    (h_main_v147 : V (Proc.devRef .tc main_v147) = kt_main_v147 (F := F) o x0 x1)
    (h_main_v152 : V (Proc.devRef .tc main_v152) = kt_main_v152 (F := F) o x0 x1)
    (h_main_c_40 : V (Proc.devRef .tc main_c_40) = kt_main_c_40 (F := F) o x0 x1)
    :
    StableHlo.after (kops20 : List (HloOp τ sig (Elt F))) V (Proc.devRef .tc main_arg0) = x0
    ∧ StableHlo.after (kops20 : List (HloOp τ sig (Elt F))) V (Proc.devRef .tc main_v2) = kt_main_v2 (F := F) o x0 x1
    ∧ StableHlo.after (kops20 : List (HloOp τ sig (Elt F))) V (Proc.devRef .tc main_v4) = kt_main_v4 (F := F) o x0 x1
    ∧ StableHlo.after (kops20 : List (HloOp τ sig (Elt F))) V (Proc.devRef .tc main_v7) = kt_main_v7 (F := F) o x0 x1
    ∧ StableHlo.after (kops20 : List (HloOp τ sig (Elt F))) V (Proc.devRef .tc main_v9) = kt_main_v9 (F := F) o x0 x1
    ∧ StableHlo.after (kops20 : List (HloOp τ sig (Elt F))) V (Proc.devRef .tc main_v11) = kt_main_v11 (F := F) o x0 x1
    ∧ StableHlo.after (kops20 : List (HloOp τ sig (Elt F))) V (Proc.devRef .tc main_v13) = kt_main_v13 (F := F) o x0 x1
    ∧ StableHlo.after (kops20 : List (HloOp τ sig (Elt F))) V (Proc.devRef .tc main_v15) = kt_main_v15 (F := F) o x0 x1
    ∧ StableHlo.after (kops20 : List (HloOp τ sig (Elt F))) V (Proc.devRef .tc main_v18) = kt_main_v18 (F := F) o x0 x1
    ∧ StableHlo.after (kops20 : List (HloOp τ sig (Elt F))) V (Proc.devRef .tc main_v24) = kt_main_v24 (F := F) o x0 x1
    ∧ StableHlo.after (kops20 : List (HloOp τ sig (Elt F))) V (Proc.devRef .tc main_v50) = kt_main_v50 (F := F) o x0 x1
    ∧ StableHlo.after (kops20 : List (HloOp τ sig (Elt F))) V (Proc.devRef .tc main_v78) = kt_main_v78 (F := F) o x0 x1
    ∧ StableHlo.after (kops20 : List (HloOp τ sig (Elt F))) V (Proc.devRef .tc main_v101) = kt_main_v101 (F := F) o x0 x1
    ∧ StableHlo.after (kops20 : List (HloOp τ sig (Elt F))) V (Proc.devRef .tc main_v124) = kt_main_v124 (F := F) o x0 x1
    ∧ StableHlo.after (kops20 : List (HloOp τ sig (Elt F))) V (Proc.devRef .tc main_v147) = kt_main_v147 (F := F) o x0 x1
    ∧ StableHlo.after (kops20 : List (HloOp τ sig (Elt F))) V (Proc.devRef .tc main_v152) = kt_main_v152 (F := F) o x0 x1
    ∧ StableHlo.after (kops20 : List (HloOp τ sig (Elt F))) V (Proc.devRef .tc main_v157) = kt_main_v157 (F := F) o x0 x1
    ∧ StableHlo.after (kops20 : List (HloOp τ sig (Elt F))) V (Proc.devRef .tc main_v159) = kt_main_v159 (F := F) o x0 x1
    ∧ StableHlo.after (kops20 : List (HloOp τ sig (Elt F))) V (Proc.devRef .tc main_c_43) = kt_main_c_43 (F := F) o x0 x1 := by
  simp only [kops20]
  read_stretch
  refine ⟨?_, ?_, ?_, ?_, ?_, ?_, ?_, ?_, ?_, ?_, ?_, ?_, ?_, ?_, ?_, ?_, ?_, ?_, ?_⟩
  all_goals (try (simp only [h_main_arg0, h_main_v2, h_main_v4, h_main_v7, h_main_v9, h_main_v11, h_main_v13, h_main_v15, h_main_v18, h_main_v21, h_main_v24, h_main_v50, h_main_v78, h_main_v101, h_main_v124, h_main_v147, h_main_v152, h_main_c_40]; done))
  all_goals (read_stretch_rw; (try simp only [h_main_arg0, h_main_v2, h_main_v4, h_main_v7, h_main_v9, h_main_v11, h_main_v13, h_main_v15, h_main_v18, h_main_v21, h_main_v24, h_main_v50, h_main_v78, h_main_v101, h_main_v124, h_main_v147, h_main_v152, h_main_c_40]); (repeat (first | rw [h_main_arg0] | rw [h_main_v2] | rw [h_main_v4] | rw [h_main_v7] | rw [h_main_v9] | rw [h_main_v11] | rw [h_main_v13] | rw [h_main_v15] | rw [h_main_v18] | rw [h_main_v21] | rw [h_main_v24] | rw [h_main_v50] | rw [h_main_v78] | rw [h_main_v101] | rw [h_main_v124] | rw [h_main_v147] | rw [h_main_v152] | rw [h_main_c_40])); (try rfl))

set_option maxHeartbeats 4000000 in
/-- Chunk 22 (`kops21`, 10 operations): 19 buffers live at its head, 18 at its end. -/
theorem cut22 {V : Valuation τ sig (Elt F)} {o : (⟨S1x2, .f32⟩ : BufTy).Contents (Elt F)} {x0 : (⟨S16x85x128x128, .f32⟩ : BufTy).Contents (Elt F)} {x1 : (⟨S16x64x5, .f32⟩ : BufTy).Contents (Elt F)}
    (h_main_arg0 : V (Proc.devRef .tc main_arg0) = x0)
    (h_main_v2 : V (Proc.devRef .tc main_v2) = kt_main_v2 (F := F) o x0 x1)
    (h_main_v4 : V (Proc.devRef .tc main_v4) = kt_main_v4 (F := F) o x0 x1)
    (h_main_v7 : V (Proc.devRef .tc main_v7) = kt_main_v7 (F := F) o x0 x1)
    (h_main_v9 : V (Proc.devRef .tc main_v9) = kt_main_v9 (F := F) o x0 x1)
    (h_main_v11 : V (Proc.devRef .tc main_v11) = kt_main_v11 (F := F) o x0 x1)
    (h_main_v13 : V (Proc.devRef .tc main_v13) = kt_main_v13 (F := F) o x0 x1)
    (h_main_v15 : V (Proc.devRef .tc main_v15) = kt_main_v15 (F := F) o x0 x1)
    (h_main_v18 : V (Proc.devRef .tc main_v18) = kt_main_v18 (F := F) o x0 x1)
    (h_main_v24 : V (Proc.devRef .tc main_v24) = kt_main_v24 (F := F) o x0 x1)
    (h_main_v50 : V (Proc.devRef .tc main_v50) = kt_main_v50 (F := F) o x0 x1)
    (h_main_v78 : V (Proc.devRef .tc main_v78) = kt_main_v78 (F := F) o x0 x1)
    (h_main_v101 : V (Proc.devRef .tc main_v101) = kt_main_v101 (F := F) o x0 x1)
    (h_main_v124 : V (Proc.devRef .tc main_v124) = kt_main_v124 (F := F) o x0 x1)
    (h_main_v147 : V (Proc.devRef .tc main_v147) = kt_main_v147 (F := F) o x0 x1)
    (h_main_v152 : V (Proc.devRef .tc main_v152) = kt_main_v152 (F := F) o x0 x1)
    (h_main_v157 : V (Proc.devRef .tc main_v157) = kt_main_v157 (F := F) o x0 x1)
    (h_main_v159 : V (Proc.devRef .tc main_v159) = kt_main_v159 (F := F) o x0 x1)
    (h_main_c_43 : V (Proc.devRef .tc main_c_43) = kt_main_c_43 (F := F) o x0 x1)
    :
    StableHlo.after (kops21 : List (HloOp τ sig (Elt F))) V (Proc.devRef .tc main_arg0) = x0
    ∧ StableHlo.after (kops21 : List (HloOp τ sig (Elt F))) V (Proc.devRef .tc main_v2) = kt_main_v2 (F := F) o x0 x1
    ∧ StableHlo.after (kops21 : List (HloOp τ sig (Elt F))) V (Proc.devRef .tc main_v4) = kt_main_v4 (F := F) o x0 x1
    ∧ StableHlo.after (kops21 : List (HloOp τ sig (Elt F))) V (Proc.devRef .tc main_v7) = kt_main_v7 (F := F) o x0 x1
    ∧ StableHlo.after (kops21 : List (HloOp τ sig (Elt F))) V (Proc.devRef .tc main_v9) = kt_main_v9 (F := F) o x0 x1
    ∧ StableHlo.after (kops21 : List (HloOp τ sig (Elt F))) V (Proc.devRef .tc main_v11) = kt_main_v11 (F := F) o x0 x1
    ∧ StableHlo.after (kops21 : List (HloOp τ sig (Elt F))) V (Proc.devRef .tc main_v13) = kt_main_v13 (F := F) o x0 x1
    ∧ StableHlo.after (kops21 : List (HloOp τ sig (Elt F))) V (Proc.devRef .tc main_v15) = kt_main_v15 (F := F) o x0 x1
    ∧ StableHlo.after (kops21 : List (HloOp τ sig (Elt F))) V (Proc.devRef .tc main_v24) = kt_main_v24 (F := F) o x0 x1
    ∧ StableHlo.after (kops21 : List (HloOp τ sig (Elt F))) V (Proc.devRef .tc main_v50) = kt_main_v50 (F := F) o x0 x1
    ∧ StableHlo.after (kops21 : List (HloOp τ sig (Elt F))) V (Proc.devRef .tc main_v78) = kt_main_v78 (F := F) o x0 x1
    ∧ StableHlo.after (kops21 : List (HloOp τ sig (Elt F))) V (Proc.devRef .tc main_v101) = kt_main_v101 (F := F) o x0 x1
    ∧ StableHlo.after (kops21 : List (HloOp τ sig (Elt F))) V (Proc.devRef .tc main_v124) = kt_main_v124 (F := F) o x0 x1
    ∧ StableHlo.after (kops21 : List (HloOp τ sig (Elt F))) V (Proc.devRef .tc main_v147) = kt_main_v147 (F := F) o x0 x1
    ∧ StableHlo.after (kops21 : List (HloOp τ sig (Elt F))) V (Proc.devRef .tc main_v165) = kt_main_v165 (F := F) o x0 x1
    ∧ StableHlo.after (kops21 : List (HloOp τ sig (Elt F))) V (Proc.devRef .tc main_v166) = kt_main_v166 (F := F) o x0 x1
    ∧ StableHlo.after (kops21 : List (HloOp τ sig (Elt F))) V (Proc.devRef .tc main_v167) = kt_main_v167 (F := F) o x0 x1
    ∧ StableHlo.after (kops21 : List (HloOp τ sig (Elt F))) V (Proc.devRef .tc main_v168) = kt_main_v168 (F := F) o x0 x1 := by
  simp only [kops21]
  read_stretch
  refine ⟨?_, ?_, ?_, ?_, ?_, ?_, ?_, ?_, ?_, ?_, ?_, ?_, ?_, ?_, ?_, ?_, ?_, ?_⟩
  all_goals (try (simp only [h_main_arg0, h_main_v2, h_main_v4, h_main_v7, h_main_v9, h_main_v11, h_main_v13, h_main_v15, h_main_v18, h_main_v24, h_main_v50, h_main_v78, h_main_v101, h_main_v124, h_main_v147, h_main_v152, h_main_v157, h_main_v159, h_main_c_43]; done))
  all_goals (read_stretch_rw; (try simp only [h_main_arg0, h_main_v2, h_main_v4, h_main_v7, h_main_v9, h_main_v11, h_main_v13, h_main_v15, h_main_v18, h_main_v24, h_main_v50, h_main_v78, h_main_v101, h_main_v124, h_main_v147, h_main_v152, h_main_v157, h_main_v159, h_main_c_43]); (repeat (first | rw [h_main_arg0] | rw [h_main_v2] | rw [h_main_v4] | rw [h_main_v7] | rw [h_main_v9] | rw [h_main_v11] | rw [h_main_v13] | rw [h_main_v15] | rw [h_main_v18] | rw [h_main_v24] | rw [h_main_v50] | rw [h_main_v78] | rw [h_main_v101] | rw [h_main_v124] | rw [h_main_v147] | rw [h_main_v152] | rw [h_main_v157] | rw [h_main_v159] | rw [h_main_c_43])); (try rfl))

set_option maxHeartbeats 4000000 in
/-- Chunk 23 (`kops22`, 10 operations): 18 buffers live at its head, 16 at its end. -/
theorem cut23 {V : Valuation τ sig (Elt F)} {o : (⟨S1x2, .f32⟩ : BufTy).Contents (Elt F)} {x0 : (⟨S16x85x128x128, .f32⟩ : BufTy).Contents (Elt F)} {x1 : (⟨S16x64x5, .f32⟩ : BufTy).Contents (Elt F)}
    (h_main_arg0 : V (Proc.devRef .tc main_arg0) = x0)
    (h_main_v2 : V (Proc.devRef .tc main_v2) = kt_main_v2 (F := F) o x0 x1)
    (h_main_v4 : V (Proc.devRef .tc main_v4) = kt_main_v4 (F := F) o x0 x1)
    (h_main_v7 : V (Proc.devRef .tc main_v7) = kt_main_v7 (F := F) o x0 x1)
    (h_main_v9 : V (Proc.devRef .tc main_v9) = kt_main_v9 (F := F) o x0 x1)
    (h_main_v11 : V (Proc.devRef .tc main_v11) = kt_main_v11 (F := F) o x0 x1)
    (h_main_v13 : V (Proc.devRef .tc main_v13) = kt_main_v13 (F := F) o x0 x1)
    (h_main_v15 : V (Proc.devRef .tc main_v15) = kt_main_v15 (F := F) o x0 x1)
    (h_main_v24 : V (Proc.devRef .tc main_v24) = kt_main_v24 (F := F) o x0 x1)
    (h_main_v50 : V (Proc.devRef .tc main_v50) = kt_main_v50 (F := F) o x0 x1)
    (h_main_v78 : V (Proc.devRef .tc main_v78) = kt_main_v78 (F := F) o x0 x1)
    (h_main_v101 : V (Proc.devRef .tc main_v101) = kt_main_v101 (F := F) o x0 x1)
    (h_main_v124 : V (Proc.devRef .tc main_v124) = kt_main_v124 (F := F) o x0 x1)
    (h_main_v147 : V (Proc.devRef .tc main_v147) = kt_main_v147 (F := F) o x0 x1)
    (h_main_v165 : V (Proc.devRef .tc main_v165) = kt_main_v165 (F := F) o x0 x1)
    (h_main_v166 : V (Proc.devRef .tc main_v166) = kt_main_v166 (F := F) o x0 x1)
    (h_main_v167 : V (Proc.devRef .tc main_v167) = kt_main_v167 (F := F) o x0 x1)
    (h_main_v168 : V (Proc.devRef .tc main_v168) = kt_main_v168 (F := F) o x0 x1)
    :
    StableHlo.after (kops22 : List (HloOp τ sig (Elt F))) V (Proc.devRef .tc main_v2) = kt_main_v2 (F := F) o x0 x1
    ∧ StableHlo.after (kops22 : List (HloOp τ sig (Elt F))) V (Proc.devRef .tc main_v4) = kt_main_v4 (F := F) o x0 x1
    ∧ StableHlo.after (kops22 : List (HloOp τ sig (Elt F))) V (Proc.devRef .tc main_v7) = kt_main_v7 (F := F) o x0 x1
    ∧ StableHlo.after (kops22 : List (HloOp τ sig (Elt F))) V (Proc.devRef .tc main_v9) = kt_main_v9 (F := F) o x0 x1
    ∧ StableHlo.after (kops22 : List (HloOp τ sig (Elt F))) V (Proc.devRef .tc main_v11) = kt_main_v11 (F := F) o x0 x1
    ∧ StableHlo.after (kops22 : List (HloOp τ sig (Elt F))) V (Proc.devRef .tc main_v13) = kt_main_v13 (F := F) o x0 x1
    ∧ StableHlo.after (kops22 : List (HloOp τ sig (Elt F))) V (Proc.devRef .tc main_v15) = kt_main_v15 (F := F) o x0 x1
    ∧ StableHlo.after (kops22 : List (HloOp τ sig (Elt F))) V (Proc.devRef .tc main_v24) = kt_main_v24 (F := F) o x0 x1
    ∧ StableHlo.after (kops22 : List (HloOp τ sig (Elt F))) V (Proc.devRef .tc main_v50) = kt_main_v50 (F := F) o x0 x1
    ∧ StableHlo.after (kops22 : List (HloOp τ sig (Elt F))) V (Proc.devRef .tc main_v78) = kt_main_v78 (F := F) o x0 x1
    ∧ StableHlo.after (kops22 : List (HloOp τ sig (Elt F))) V (Proc.devRef .tc main_v101) = kt_main_v101 (F := F) o x0 x1
    ∧ StableHlo.after (kops22 : List (HloOp τ sig (Elt F))) V (Proc.devRef .tc main_v124) = kt_main_v124 (F := F) o x0 x1
    ∧ StableHlo.after (kops22 : List (HloOp τ sig (Elt F))) V (Proc.devRef .tc main_v147) = kt_main_v147 (F := F) o x0 x1
    ∧ StableHlo.after (kops22 : List (HloOp τ sig (Elt F))) V (Proc.devRef .tc main_v170) = kt_main_v170 (F := F) o x0 x1
    ∧ StableHlo.after (kops22 : List (HloOp τ sig (Elt F))) V (Proc.devRef .tc main_v177) = kt_main_v177 (F := F) o x0 x1
    ∧ StableHlo.after (kops22 : List (HloOp τ sig (Elt F))) V (Proc.devRef .tc main_v178) = kt_main_v178 (F := F) o x0 x1 := by
  simp only [kops22]
  read_stretch
  refine ⟨?_, ?_, ?_, ?_, ?_, ?_, ?_, ?_, ?_, ?_, ?_, ?_, ?_, ?_, ?_, ?_⟩
  all_goals (try (simp only [h_main_arg0, h_main_v2, h_main_v4, h_main_v7, h_main_v9, h_main_v11, h_main_v13, h_main_v15, h_main_v24, h_main_v50, h_main_v78, h_main_v101, h_main_v124, h_main_v147, h_main_v165, h_main_v166, h_main_v167, h_main_v168]; done))
  all_goals (read_stretch_rw; (try simp only [h_main_arg0, h_main_v2, h_main_v4, h_main_v7, h_main_v9, h_main_v11, h_main_v13, h_main_v15, h_main_v24, h_main_v50, h_main_v78, h_main_v101, h_main_v124, h_main_v147, h_main_v165, h_main_v166, h_main_v167, h_main_v168]); (repeat (first | rw [h_main_arg0] | rw [h_main_v2] | rw [h_main_v4] | rw [h_main_v7] | rw [h_main_v9] | rw [h_main_v11] | rw [h_main_v13] | rw [h_main_v15] | rw [h_main_v24] | rw [h_main_v50] | rw [h_main_v78] | rw [h_main_v101] | rw [h_main_v124] | rw [h_main_v147] | rw [h_main_v165] | rw [h_main_v166] | rw [h_main_v167] | rw [h_main_v168])); (try rfl))

set_option maxHeartbeats 4000000 in
/-- Chunk 24 (`kops23`, 10 operations): 16 buffers live at its head, 18 at its end. -/
theorem cut24 {V : Valuation τ sig (Elt F)} {o : (⟨S1x2, .f32⟩ : BufTy).Contents (Elt F)} {x0 : (⟨S16x85x128x128, .f32⟩ : BufTy).Contents (Elt F)} {x1 : (⟨S16x64x5, .f32⟩ : BufTy).Contents (Elt F)}
    (h_main_v2 : V (Proc.devRef .tc main_v2) = kt_main_v2 (F := F) o x0 x1)
    (h_main_v4 : V (Proc.devRef .tc main_v4) = kt_main_v4 (F := F) o x0 x1)
    (h_main_v7 : V (Proc.devRef .tc main_v7) = kt_main_v7 (F := F) o x0 x1)
    (h_main_v9 : V (Proc.devRef .tc main_v9) = kt_main_v9 (F := F) o x0 x1)
    (h_main_v11 : V (Proc.devRef .tc main_v11) = kt_main_v11 (F := F) o x0 x1)
    (h_main_v13 : V (Proc.devRef .tc main_v13) = kt_main_v13 (F := F) o x0 x1)
    (h_main_v15 : V (Proc.devRef .tc main_v15) = kt_main_v15 (F := F) o x0 x1)
    (h_main_v24 : V (Proc.devRef .tc main_v24) = kt_main_v24 (F := F) o x0 x1)
    (h_main_v50 : V (Proc.devRef .tc main_v50) = kt_main_v50 (F := F) o x0 x1)
    (h_main_v78 : V (Proc.devRef .tc main_v78) = kt_main_v78 (F := F) o x0 x1)
    (h_main_v101 : V (Proc.devRef .tc main_v101) = kt_main_v101 (F := F) o x0 x1)
    (h_main_v124 : V (Proc.devRef .tc main_v124) = kt_main_v124 (F := F) o x0 x1)
    (h_main_v147 : V (Proc.devRef .tc main_v147) = kt_main_v147 (F := F) o x0 x1)
    (h_main_v170 : V (Proc.devRef .tc main_v170) = kt_main_v170 (F := F) o x0 x1)
    (h_main_v177 : V (Proc.devRef .tc main_v177) = kt_main_v177 (F := F) o x0 x1)
    (h_main_v178 : V (Proc.devRef .tc main_v178) = kt_main_v178 (F := F) o x0 x1)
    :
    StableHlo.after (kops23 : List (HloOp τ sig (Elt F))) V (Proc.devRef .tc main_v2) = kt_main_v2 (F := F) o x0 x1
    ∧ StableHlo.after (kops23 : List (HloOp τ sig (Elt F))) V (Proc.devRef .tc main_v4) = kt_main_v4 (F := F) o x0 x1
    ∧ StableHlo.after (kops23 : List (HloOp τ sig (Elt F))) V (Proc.devRef .tc main_v7) = kt_main_v7 (F := F) o x0 x1
    ∧ StableHlo.after (kops23 : List (HloOp τ sig (Elt F))) V (Proc.devRef .tc main_v9) = kt_main_v9 (F := F) o x0 x1
    ∧ StableHlo.after (kops23 : List (HloOp τ sig (Elt F))) V (Proc.devRef .tc main_v11) = kt_main_v11 (F := F) o x0 x1
    ∧ StableHlo.after (kops23 : List (HloOp τ sig (Elt F))) V (Proc.devRef .tc main_v13) = kt_main_v13 (F := F) o x0 x1
    ∧ StableHlo.after (kops23 : List (HloOp τ sig (Elt F))) V (Proc.devRef .tc main_v15) = kt_main_v15 (F := F) o x0 x1
    ∧ StableHlo.after (kops23 : List (HloOp τ sig (Elt F))) V (Proc.devRef .tc main_v50) = kt_main_v50 (F := F) o x0 x1
    ∧ StableHlo.after (kops23 : List (HloOp τ sig (Elt F))) V (Proc.devRef .tc main_v78) = kt_main_v78 (F := F) o x0 x1
    ∧ StableHlo.after (kops23 : List (HloOp τ sig (Elt F))) V (Proc.devRef .tc main_v101) = kt_main_v101 (F := F) o x0 x1
    ∧ StableHlo.after (kops23 : List (HloOp τ sig (Elt F))) V (Proc.devRef .tc main_v124) = kt_main_v124 (F := F) o x0 x1
    ∧ StableHlo.after (kops23 : List (HloOp τ sig (Elt F))) V (Proc.devRef .tc main_v147) = kt_main_v147 (F := F) o x0 x1
    ∧ StableHlo.after (kops23 : List (HloOp τ sig (Elt F))) V (Proc.devRef .tc main_v170) = kt_main_v170 (F := F) o x0 x1
    ∧ StableHlo.after (kops23 : List (HloOp τ sig (Elt F))) V (Proc.devRef .tc main_v177) = kt_main_v177 (F := F) o x0 x1
    ∧ StableHlo.after (kops23 : List (HloOp τ sig (Elt F))) V (Proc.devRef .tc main_v182) = kt_main_v182 (F := F) o x0 x1
    ∧ StableHlo.after (kops23 : List (HloOp τ sig (Elt F))) V (Proc.devRef .tc main_v185) = kt_main_v185 (F := F) o x0 x1
    ∧ StableHlo.after (kops23 : List (HloOp τ sig (Elt F))) V (Proc.devRef .tc main_c_46) = kt_main_c_46 (F := F) o x0 x1
    ∧ StableHlo.after (kops23 : List (HloOp τ sig (Elt F))) V (Proc.devRef .tc main_call0_v0) = kt_main_call0_v0 (F := F) o x0 x1 := by
  simp only [kops23]
  read_stretch
  refine ⟨?_, ?_, ?_, ?_, ?_, ?_, ?_, ?_, ?_, ?_, ?_, ?_, ?_, ?_, ?_, ?_, ?_, ?_⟩
  all_goals (try (simp only [h_main_v2, h_main_v4, h_main_v7, h_main_v9, h_main_v11, h_main_v13, h_main_v15, h_main_v24, h_main_v50, h_main_v78, h_main_v101, h_main_v124, h_main_v147, h_main_v170, h_main_v177, h_main_v178]; done))
  all_goals (read_stretch_rw; (try simp only [h_main_v2, h_main_v4, h_main_v7, h_main_v9, h_main_v11, h_main_v13, h_main_v15, h_main_v24, h_main_v50, h_main_v78, h_main_v101, h_main_v124, h_main_v147, h_main_v170, h_main_v177, h_main_v178]); (repeat (first | rw [h_main_v2] | rw [h_main_v4] | rw [h_main_v7] | rw [h_main_v9] | rw [h_main_v11] | rw [h_main_v13] | rw [h_main_v15] | rw [h_main_v24] | rw [h_main_v50] | rw [h_main_v78] | rw [h_main_v101] | rw [h_main_v124] | rw [h_main_v147] | rw [h_main_v170] | rw [h_main_v177] | rw [h_main_v178])); (try rfl))

end Cert.KernelIdeal.Tail

end
-- ==== Proof.KC.KCut05.lean ====
/- The line of host operations of the kernel program's @main after its region (403 operations, in chunks), stretch by stretch: for each stretch, from the facts that the
   buffers live at its head hold their stages, the buffers live at its end hold theirs (a buffer the stretch writes: its
   operation's function of its operands' stages, which is its stage; a buffer it does not write: what it held); and
   composed over the stretches, the whole line from any contents leaves the result buffer at the last stage. -/
import proofs.«175006_j89550068121905_1_alg».proof.Proof.KTailStages
import proofs.«175006_j89550068121905_1_alg».proof.Proof.KTailOps
import proofs.«175006_j89550068121905_1_alg».proof.Proof.LibReadStretch
import proofs.«175006_j89550068121905_1_alg».proof.Proof.LibReadStretchRw
import Idealize.ShloMosaic.Lib.Pipeline.Frame

set_option maxRecDepth 16384

noncomputable section

namespace Cert.KernelIdeal.Tail

open Cert.KernelIdeal Cert.KernelIdeal.Gen Idealize.ShloMosaic Idealize.ShloMosaic.TcCoe Idealize.SL.Sem Idealize.ShloMosaic.StableHlo

variable {F : FTy → Type} [FloatOps F]

set_option maxHeartbeats 4000000 in
/-- Chunk 25 (`kops24`, 10 operations): 18 buffers live at its head, 17 at its end. -/
theorem cut25 {V : Valuation τ sig (Elt F)} {o : (⟨S1x2, .f32⟩ : BufTy).Contents (Elt F)} {x0 : (⟨S16x85x128x128, .f32⟩ : BufTy).Contents (Elt F)} {x1 : (⟨S16x64x5, .f32⟩ : BufTy).Contents (Elt F)}
    (h_main_v2 : V (Proc.devRef .tc main_v2) = kt_main_v2 (F := F) o x0 x1)
    (h_main_v4 : V (Proc.devRef .tc main_v4) = kt_main_v4 (F := F) o x0 x1)
    (h_main_v7 : V (Proc.devRef .tc main_v7) = kt_main_v7 (F := F) o x0 x1)
    (h_main_v9 : V (Proc.devRef .tc main_v9) = kt_main_v9 (F := F) o x0 x1)
    (h_main_v11 : V (Proc.devRef .tc main_v11) = kt_main_v11 (F := F) o x0 x1)
    (h_main_v13 : V (Proc.devRef .tc main_v13) = kt_main_v13 (F := F) o x0 x1)
    (h_main_v15 : V (Proc.devRef .tc main_v15) = kt_main_v15 (F := F) o x0 x1)
    (h_main_v50 : V (Proc.devRef .tc main_v50) = kt_main_v50 (F := F) o x0 x1)
    (h_main_v78 : V (Proc.devRef .tc main_v78) = kt_main_v78 (F := F) o x0 x1)
    (h_main_v101 : V (Proc.devRef .tc main_v101) = kt_main_v101 (F := F) o x0 x1)
    (h_main_v124 : V (Proc.devRef .tc main_v124) = kt_main_v124 (F := F) o x0 x1)
    (h_main_v147 : V (Proc.devRef .tc main_v147) = kt_main_v147 (F := F) o x0 x1)
    (h_main_v170 : V (Proc.devRef .tc main_v170) = kt_main_v170 (F := F) o x0 x1)
    (h_main_v177 : V (Proc.devRef .tc main_v177) = kt_main_v177 (F := F) o x0 x1)
    (h_main_v182 : V (Proc.devRef .tc main_v182) = kt_main_v182 (F := F) o x0 x1)
    (h_main_v185 : V (Proc.devRef .tc main_v185) = kt_main_v185 (F := F) o x0 x1)
    (h_main_c_46 : V (Proc.devRef .tc main_c_46) = kt_main_c_46 (F := F) o x0 x1)
    (h_main_call0_v0 : V (Proc.devRef .tc main_call0_v0) = kt_main_call0_v0 (F := F) o x0 x1)
    :
    StableHlo.after (kops24 : List (HloOp τ sig (Elt F))) V (Proc.devRef .tc main_v2) = kt_main_v2 (F := F) o x0 x1
    ∧ StableHlo.after (kops24 : List (HloOp τ sig (Elt F))) V (Proc.devRef .tc main_v4) = kt_main_v4 (F := F) o x0 x1
    ∧ StableHlo.after (kops24 : List (HloOp τ sig (Elt F))) V (Proc.devRef .tc main_v7) = kt_main_v7 (F := F) o x0 x1
    ∧ StableHlo.after (kops24 : List (HloOp τ sig (Elt F))) V (Proc.devRef .tc main_v9) = kt_main_v9 (F := F) o x0 x1
    ∧ StableHlo.after (kops24 : List (HloOp τ sig (Elt F))) V (Proc.devRef .tc main_v11) = kt_main_v11 (F := F) o x0 x1
    ∧ StableHlo.after (kops24 : List (HloOp τ sig (Elt F))) V (Proc.devRef .tc main_v13) = kt_main_v13 (F := F) o x0 x1
    ∧ StableHlo.after (kops24 : List (HloOp τ sig (Elt F))) V (Proc.devRef .tc main_v15) = kt_main_v15 (F := F) o x0 x1
    ∧ StableHlo.after (kops24 : List (HloOp τ sig (Elt F))) V (Proc.devRef .tc main_v50) = kt_main_v50 (F := F) o x0 x1
    ∧ StableHlo.after (kops24 : List (HloOp τ sig (Elt F))) V (Proc.devRef .tc main_v78) = kt_main_v78 (F := F) o x0 x1
    ∧ StableHlo.after (kops24 : List (HloOp τ sig (Elt F))) V (Proc.devRef .tc main_v101) = kt_main_v101 (F := F) o x0 x1
    ∧ StableHlo.after (kops24 : List (HloOp τ sig (Elt F))) V (Proc.devRef .tc main_v124) = kt_main_v124 (F := F) o x0 x1
    ∧ StableHlo.after (kops24 : List (HloOp τ sig (Elt F))) V (Proc.devRef .tc main_v147) = kt_main_v147 (F := F) o x0 x1
    ∧ StableHlo.after (kops24 : List (HloOp τ sig (Elt F))) V (Proc.devRef .tc main_v170) = kt_main_v170 (F := F) o x0 x1
    ∧ StableHlo.after (kops24 : List (HloOp τ sig (Elt F))) V (Proc.devRef .tc main_v177) = kt_main_v177 (F := F) o x0 x1
    ∧ StableHlo.after (kops24 : List (HloOp τ sig (Elt F))) V (Proc.devRef .tc main_v182) = kt_main_v182 (F := F) o x0 x1
    ∧ StableHlo.after (kops24 : List (HloOp τ sig (Elt F))) V (Proc.devRef .tc main_v191) = kt_main_v191 (F := F) o x0 x1
    ∧ StableHlo.after (kops24 : List (HloOp τ sig (Elt F))) V (Proc.devRef .tc main_v192) = kt_main_v192 (F := F) o x0 x1 := by
  simp only [kops24]
  read_stretch
  refine ⟨?_, ?_, ?_, ?_, ?_, ?_, ?_, ?_, ?_, ?_, ?_, ?_, ?_, ?_, ?_, ?_, ?_⟩
  all_goals (try (simp only [h_main_v2, h_main_v4, h_main_v7, h_main_v9, h_main_v11, h_main_v13, h_main_v15, h_main_v50, h_main_v78, h_main_v101, h_main_v124, h_main_v147, h_main_v170, h_main_v177, h_main_v182, h_main_v185, h_main_c_46, h_main_call0_v0]; done))
  all_goals (read_stretch_rw; (try simp only [h_main_v2, h_main_v4, h_main_v7, h_main_v9, h_main_v11, h_main_v13, h_main_v15, h_main_v50, h_main_v78, h_main_v101, h_main_v124, h_main_v147, h_main_v170, h_main_v177, h_main_v182, h_main_v185, h_main_c_46, h_main_call0_v0]); (repeat (first | rw [h_main_v2] | rw [h_main_v4] | rw [h_main_v7] | rw [h_main_v9] | rw [h_main_v11] | rw [h_main_v13] | rw [h_main_v15] | rw [h_main_v50] | rw [h_main_v78] | rw [h_main_v101] | rw [h_main_v124] | rw [h_main_v147] | rw [h_main_v170] | rw [h_main_v177] | rw [h_main_v182] | rw [h_main_v185] | rw [h_main_c_46] | rw [h_main_call0_v0])); (try rfl))

set_option maxHeartbeats 4000000 in
/-- Chunk 26 (`kops25`, 10 operations): 17 buffers live at its head, 16 at its end. -/
theorem cut26 {V : Valuation τ sig (Elt F)} {o : (⟨S1x2, .f32⟩ : BufTy).Contents (Elt F)} {x0 : (⟨S16x85x128x128, .f32⟩ : BufTy).Contents (Elt F)} {x1 : (⟨S16x64x5, .f32⟩ : BufTy).Contents (Elt F)}
    (h_main_v2 : V (Proc.devRef .tc main_v2) = kt_main_v2 (F := F) o x0 x1)
    (h_main_v4 : V (Proc.devRef .tc main_v4) = kt_main_v4 (F := F) o x0 x1)
    (h_main_v7 : V (Proc.devRef .tc main_v7) = kt_main_v7 (F := F) o x0 x1)
    (h_main_v9 : V (Proc.devRef .tc main_v9) = kt_main_v9 (F := F) o x0 x1)
    (h_main_v11 : V (Proc.devRef .tc main_v11) = kt_main_v11 (F := F) o x0 x1)
    (h_main_v13 : V (Proc.devRef .tc main_v13) = kt_main_v13 (F := F) o x0 x1)
    (h_main_v15 : V (Proc.devRef .tc main_v15) = kt_main_v15 (F := F) o x0 x1)
    (h_main_v50 : V (Proc.devRef .tc main_v50) = kt_main_v50 (F := F) o x0 x1)
    (h_main_v78 : V (Proc.devRef .tc main_v78) = kt_main_v78 (F := F) o x0 x1)
    (h_main_v101 : V (Proc.devRef .tc main_v101) = kt_main_v101 (F := F) o x0 x1)
    (h_main_v124 : V (Proc.devRef .tc main_v124) = kt_main_v124 (F := F) o x0 x1)
    (h_main_v147 : V (Proc.devRef .tc main_v147) = kt_main_v147 (F := F) o x0 x1)
    (h_main_v170 : V (Proc.devRef .tc main_v170) = kt_main_v170 (F := F) o x0 x1)
    (h_main_v177 : V (Proc.devRef .tc main_v177) = kt_main_v177 (F := F) o x0 x1)
    (h_main_v182 : V (Proc.devRef .tc main_v182) = kt_main_v182 (F := F) o x0 x1)
    (h_main_v191 : V (Proc.devRef .tc main_v191) = kt_main_v191 (F := F) o x0 x1)
    (h_main_v192 : V (Proc.devRef .tc main_v192) = kt_main_v192 (F := F) o x0 x1)
    :
    StableHlo.after (kops25 : List (HloOp τ sig (Elt F))) V (Proc.devRef .tc main_v2) = kt_main_v2 (F := F) o x0 x1
    ∧ StableHlo.after (kops25 : List (HloOp τ sig (Elt F))) V (Proc.devRef .tc main_v4) = kt_main_v4 (F := F) o x0 x1
    ∧ StableHlo.after (kops25 : List (HloOp τ sig (Elt F))) V (Proc.devRef .tc main_v9) = kt_main_v9 (F := F) o x0 x1
    ∧ StableHlo.after (kops25 : List (HloOp τ sig (Elt F))) V (Proc.devRef .tc main_v11) = kt_main_v11 (F := F) o x0 x1
    ∧ StableHlo.after (kops25 : List (HloOp τ sig (Elt F))) V (Proc.devRef .tc main_v13) = kt_main_v13 (F := F) o x0 x1
    ∧ StableHlo.after (kops25 : List (HloOp τ sig (Elt F))) V (Proc.devRef .tc main_v15) = kt_main_v15 (F := F) o x0 x1
    ∧ StableHlo.after (kops25 : List (HloOp τ sig (Elt F))) V (Proc.devRef .tc main_v50) = kt_main_v50 (F := F) o x0 x1
    ∧ StableHlo.after (kops25 : List (HloOp τ sig (Elt F))) V (Proc.devRef .tc main_v78) = kt_main_v78 (F := F) o x0 x1
    ∧ StableHlo.after (kops25 : List (HloOp τ sig (Elt F))) V (Proc.devRef .tc main_v101) = kt_main_v101 (F := F) o x0 x1
    ∧ StableHlo.after (kops25 : List (HloOp τ sig (Elt F))) V (Proc.devRef .tc main_v124) = kt_main_v124 (F := F) o x0 x1
    ∧ StableHlo.after (kops25 : List (HloOp τ sig (Elt F))) V (Proc.devRef .tc main_v147) = kt_main_v147 (F := F) o x0 x1
    ∧ StableHlo.after (kops25 : List (HloOp τ sig (Elt F))) V (Proc.devRef .tc main_v170) = kt_main_v170 (F := F) o x0 x1
    ∧ StableHlo.after (kops25 : List (HloOp τ sig (Elt F))) V (Proc.devRef .tc main_v191) = kt_main_v191 (F := F) o x0 x1
    ∧ StableHlo.after (kops25 : List (HloOp τ sig (Elt F))) V (Proc.devRef .tc main_v200) = kt_main_v200 (F := F) o x0 x1
    ∧ StableHlo.after (kops25 : List (HloOp τ sig (Elt F))) V (Proc.devRef .tc main_c_49) = kt_main_c_49 (F := F) o x0 x1
    ∧ StableHlo.after (kops25 : List (HloOp τ sig (Elt F))) V (Proc.devRef .tc main_c_50) = kt_main_c_50 (F := F) o x0 x1 := by
  simp only [kops25]
  read_stretch
  refine ⟨?_, ?_, ?_, ?_, ?_, ?_, ?_, ?_, ?_, ?_, ?_, ?_, ?_, ?_, ?_, ?_⟩
  all_goals (try (simp only [h_main_v2, h_main_v4, h_main_v7, h_main_v9, h_main_v11, h_main_v13, h_main_v15, h_main_v50, h_main_v78, h_main_v101, h_main_v124, h_main_v147, h_main_v170, h_main_v177, h_main_v182, h_main_v191, h_main_v192]; done))
  all_goals (read_stretch_rw; (try simp only [h_main_v2, h_main_v4, h_main_v7, h_main_v9, h_main_v11, h_main_v13, h_main_v15, h_main_v50, h_main_v78, h_main_v101, h_main_v124, h_main_v147, h_main_v170, h_main_v177, h_main_v182, h_main_v191, h_main_v192]); (repeat (first | rw [h_main_v2] | rw [h_main_v4] | rw [h_main_v7] | rw [h_main_v9] | rw [h_main_v11] | rw [h_main_v13] | rw [h_main_v15] | rw [h_main_v50] | rw [h_main_v78] | rw [h_main_v101] | rw [h_main_v124] | rw [h_main_v147] | rw [h_main_v170] | rw [h_main_v177] | rw [h_main_v182] | rw [h_main_v191] | rw [h_main_v192])); (try rfl))

set_option maxHeartbeats 4000000 in
/-- Chunk 27 (`kops26`, 10 operations): 16 buffers live at its head, 14 at its end. -/
theorem cut27 {V : Valuation τ sig (Elt F)} {o : (⟨S1x2, .f32⟩ : BufTy).Contents (Elt F)} {x0 : (⟨S16x85x128x128, .f32⟩ : BufTy).Contents (Elt F)} {x1 : (⟨S16x64x5, .f32⟩ : BufTy).Contents (Elt F)}
    (h_main_v2 : V (Proc.devRef .tc main_v2) = kt_main_v2 (F := F) o x0 x1)
    (h_main_v4 : V (Proc.devRef .tc main_v4) = kt_main_v4 (F := F) o x0 x1)
    (h_main_v9 : V (Proc.devRef .tc main_v9) = kt_main_v9 (F := F) o x0 x1)
    (h_main_v11 : V (Proc.devRef .tc main_v11) = kt_main_v11 (F := F) o x0 x1)
    (h_main_v13 : V (Proc.devRef .tc main_v13) = kt_main_v13 (F := F) o x0 x1)
    (h_main_v15 : V (Proc.devRef .tc main_v15) = kt_main_v15 (F := F) o x0 x1)
    (h_main_v50 : V (Proc.devRef .tc main_v50) = kt_main_v50 (F := F) o x0 x1)
    (h_main_v78 : V (Proc.devRef .tc main_v78) = kt_main_v78 (F := F) o x0 x1)
    (h_main_v101 : V (Proc.devRef .tc main_v101) = kt_main_v101 (F := F) o x0 x1)
    (h_main_v124 : V (Proc.devRef .tc main_v124) = kt_main_v124 (F := F) o x0 x1)
    (h_main_v147 : V (Proc.devRef .tc main_v147) = kt_main_v147 (F := F) o x0 x1)
    (h_main_v170 : V (Proc.devRef .tc main_v170) = kt_main_v170 (F := F) o x0 x1)
    (h_main_v191 : V (Proc.devRef .tc main_v191) = kt_main_v191 (F := F) o x0 x1)
    (h_main_v200 : V (Proc.devRef .tc main_v200) = kt_main_v200 (F := F) o x0 x1)
    (h_main_c_49 : V (Proc.devRef .tc main_c_49) = kt_main_c_49 (F := F) o x0 x1)
    (h_main_c_50 : V (Proc.devRef .tc main_c_50) = kt_main_c_50 (F := F) o x0 x1)
    :
    StableHlo.after (kops26 : List (HloOp τ sig (Elt F))) V (Proc.devRef .tc main_v2) = kt_main_v2 (F := F) o x0 x1
    ∧ StableHlo.after (kops26 : List (HloOp τ sig (Elt F))) V (Proc.devRef .tc main_v4) = kt_main_v4 (F := F) o x0 x1
    ∧ StableHlo.after (kops26 : List (HloOp τ sig (Elt F))) V (Proc.devRef .tc main_v9) = kt_main_v9 (F := F) o x0 x1
    ∧ StableHlo.after (kops26 : List (HloOp τ sig (Elt F))) V (Proc.devRef .tc main_v11) = kt_main_v11 (F := F) o x0 x1
    ∧ StableHlo.after (kops26 : List (HloOp τ sig (Elt F))) V (Proc.devRef .tc main_v13) = kt_main_v13 (F := F) o x0 x1
    ∧ StableHlo.after (kops26 : List (HloOp τ sig (Elt F))) V (Proc.devRef .tc main_v15) = kt_main_v15 (F := F) o x0 x1
    ∧ StableHlo.after (kops26 : List (HloOp τ sig (Elt F))) V (Proc.devRef .tc main_v50) = kt_main_v50 (F := F) o x0 x1
    ∧ StableHlo.after (kops26 : List (HloOp τ sig (Elt F))) V (Proc.devRef .tc main_v78) = kt_main_v78 (F := F) o x0 x1
    ∧ StableHlo.after (kops26 : List (HloOp τ sig (Elt F))) V (Proc.devRef .tc main_v101) = kt_main_v101 (F := F) o x0 x1
    ∧ StableHlo.after (kops26 : List (HloOp τ sig (Elt F))) V (Proc.devRef .tc main_v124) = kt_main_v124 (F := F) o x0 x1
    ∧ StableHlo.after (kops26 : List (HloOp τ sig (Elt F))) V (Proc.devRef .tc main_v147) = kt_main_v147 (F := F) o x0 x1
    ∧ StableHlo.after (kops26 : List (HloOp τ sig (Elt F))) V (Proc.devRef .tc main_v170) = kt_main_v170 (F := F) o x0 x1
    ∧ StableHlo.after (kops26 : List (HloOp τ sig (Elt F))) V (Proc.devRef .tc main_v191) = kt_main_v191 (F := F) o x0 x1
    ∧ StableHlo.after (kops26 : List (HloOp τ sig (Elt F))) V (Proc.devRef .tc main_v206) = kt_main_v206 (F := F) o x0 x1 := by
  simp only [kops26]
  read_stretch
  refine ⟨?_, ?_, ?_, ?_, ?_, ?_, ?_, ?_, ?_, ?_, ?_, ?_, ?_, ?_⟩
  all_goals (try (simp only [h_main_v2, h_main_v4, h_main_v9, h_main_v11, h_main_v13, h_main_v15, h_main_v50, h_main_v78, h_main_v101, h_main_v124, h_main_v147, h_main_v170, h_main_v191, h_main_v200, h_main_c_49, h_main_c_50]; done))
  all_goals (read_stretch_rw; (try simp only [h_main_v2, h_main_v4, h_main_v9, h_main_v11, h_main_v13, h_main_v15, h_main_v50, h_main_v78, h_main_v101, h_main_v124, h_main_v147, h_main_v170, h_main_v191, h_main_v200, h_main_c_49, h_main_c_50]); (repeat (first | rw [h_main_v2] | rw [h_main_v4] | rw [h_main_v9] | rw [h_main_v11] | rw [h_main_v13] | rw [h_main_v15] | rw [h_main_v50] | rw [h_main_v78] | rw [h_main_v101] | rw [h_main_v124] | rw [h_main_v147] | rw [h_main_v170] | rw [h_main_v191] | rw [h_main_v200] | rw [h_main_c_49] | rw [h_main_c_50])); (try rfl))

set_option maxHeartbeats 4000000 in
/-- Chunk 28 (`kops27`, 10 operations): 14 buffers live at its head, 10 at its end. -/
theorem cut28 {V : Valuation τ sig (Elt F)} {o : (⟨S1x2, .f32⟩ : BufTy).Contents (Elt F)} {x0 : (⟨S16x85x128x128, .f32⟩ : BufTy).Contents (Elt F)} {x1 : (⟨S16x64x5, .f32⟩ : BufTy).Contents (Elt F)}
    (h_main_v2 : V (Proc.devRef .tc main_v2) = kt_main_v2 (F := F) o x0 x1)
    (h_main_v4 : V (Proc.devRef .tc main_v4) = kt_main_v4 (F := F) o x0 x1)
    (h_main_v9 : V (Proc.devRef .tc main_v9) = kt_main_v9 (F := F) o x0 x1)
    (h_main_v11 : V (Proc.devRef .tc main_v11) = kt_main_v11 (F := F) o x0 x1)
    (h_main_v13 : V (Proc.devRef .tc main_v13) = kt_main_v13 (F := F) o x0 x1)
    (h_main_v15 : V (Proc.devRef .tc main_v15) = kt_main_v15 (F := F) o x0 x1)
    (h_main_v50 : V (Proc.devRef .tc main_v50) = kt_main_v50 (F := F) o x0 x1)
    (h_main_v78 : V (Proc.devRef .tc main_v78) = kt_main_v78 (F := F) o x0 x1)
    (h_main_v101 : V (Proc.devRef .tc main_v101) = kt_main_v101 (F := F) o x0 x1)
    (h_main_v124 : V (Proc.devRef .tc main_v124) = kt_main_v124 (F := F) o x0 x1)
    (h_main_v147 : V (Proc.devRef .tc main_v147) = kt_main_v147 (F := F) o x0 x1)
    (h_main_v170 : V (Proc.devRef .tc main_v170) = kt_main_v170 (F := F) o x0 x1)
    (h_main_v191 : V (Proc.devRef .tc main_v191) = kt_main_v191 (F := F) o x0 x1)
    (h_main_v206 : V (Proc.devRef .tc main_v206) = kt_main_v206 (F := F) o x0 x1)
    :
    StableHlo.after (kops27 : List (HloOp τ sig (Elt F))) V (Proc.devRef .tc main_v9) = kt_main_v9 (F := F) o x0 x1
    ∧ StableHlo.after (kops27 : List (HloOp τ sig (Elt F))) V (Proc.devRef .tc main_v11) = kt_main_v11 (F := F) o x0 x1
    ∧ StableHlo.after (kops27 : List (HloOp τ sig (Elt F))) V (Proc.devRef .tc main_v13) = kt_main_v13 (F := F) o x0 x1
    ∧ StableHlo.after (kops27 : List (HloOp τ sig (Elt F))) V (Proc.devRef .tc main_v15) = kt_main_v15 (F := F) o x0 x1
    ∧ StableHlo.after (kops27 : List (HloOp τ sig (Elt F))) V (Proc.devRef .tc main_v101) = kt_main_v101 (F := F) o x0 x1
    ∧ StableHlo.after (kops27 : List (HloOp τ sig (Elt F))) V (Proc.devRef .tc main_v124) = kt_main_v124 (F := F) o x0 x1
    ∧ StableHlo.after (kops27 : List (HloOp τ sig (Elt F))) V (Proc.devRef .tc main_v147) = kt_main_v147 (F := F) o x0 x1
    ∧ StableHlo.after (kops27 : List (HloOp τ sig (Elt F))) V (Proc.devRef .tc main_v170) = kt_main_v170 (F := F) o x0 x1
    ∧ StableHlo.after (kops27 : List (HloOp τ sig (Elt F))) V (Proc.devRef .tc main_v212) = kt_main_v212 (F := F) o x0 x1
    ∧ StableHlo.after (kops27 : List (HloOp τ sig (Elt F))) V (Proc.devRef .tc main_v213) = kt_main_v213 (F := F) o x0 x1 := by
  simp only [kops27]
  read_stretch
  refine ⟨?_, ?_, ?_, ?_, ?_, ?_, ?_, ?_, ?_, ?_⟩
  all_goals (try (simp only [h_main_v2, h_main_v4, h_main_v9, h_main_v11, h_main_v13, h_main_v15, h_main_v50, h_main_v78, h_main_v101, h_main_v124, h_main_v147, h_main_v170, h_main_v191, h_main_v206]; done))
  all_goals (read_stretch_rw; (try simp only [h_main_v2, h_main_v4, h_main_v9, h_main_v11, h_main_v13, h_main_v15, h_main_v50, h_main_v78, h_main_v101, h_main_v124, h_main_v147, h_main_v170, h_main_v191, h_main_v206]); (repeat (first | rw [h_main_v2] | rw [h_main_v4] | rw [h_main_v9] | rw [h_main_v11] | rw [h_main_v13] | rw [h_main_v15] | rw [h_main_v50] | rw [h_main_v78] | rw [h_main_v101] | rw [h_main_v124] | rw [h_main_v147] | rw [h_main_v170] | rw [h_main_v191] | rw [h_main_v206])); (try rfl))

set_option maxHeartbeats 4000000 in
/-- Chunk 29 (`kops28`, 10 operations): 10 buffers live at its head, 12 at its end. -/
theorem cut29 {V : Valuation τ sig (Elt F)} {o : (⟨S1x2, .f32⟩ : BufTy).Contents (Elt F)} {x0 : (⟨S16x85x128x128, .f32⟩ : BufTy).Contents (Elt F)} {x1 : (⟨S16x64x5, .f32⟩ : BufTy).Contents (Elt F)}
    (h_main_v9 : V (Proc.devRef .tc main_v9) = kt_main_v9 (F := F) o x0 x1)
    (h_main_v11 : V (Proc.devRef .tc main_v11) = kt_main_v11 (F := F) o x0 x1)
    (h_main_v13 : V (Proc.devRef .tc main_v13) = kt_main_v13 (F := F) o x0 x1)
    (h_main_v15 : V (Proc.devRef .tc main_v15) = kt_main_v15 (F := F) o x0 x1)
    (h_main_v101 : V (Proc.devRef .tc main_v101) = kt_main_v101 (F := F) o x0 x1)
    (h_main_v124 : V (Proc.devRef .tc main_v124) = kt_main_v124 (F := F) o x0 x1)
    (h_main_v147 : V (Proc.devRef .tc main_v147) = kt_main_v147 (F := F) o x0 x1)
    (h_main_v170 : V (Proc.devRef .tc main_v170) = kt_main_v170 (F := F) o x0 x1)
    (h_main_v212 : V (Proc.devRef .tc main_v212) = kt_main_v212 (F := F) o x0 x1)
    (h_main_v213 : V (Proc.devRef .tc main_v213) = kt_main_v213 (F := F) o x0 x1)
    :
    StableHlo.after (kops28 : List (HloOp τ sig (Elt F))) V (Proc.devRef .tc main_v9) = kt_main_v9 (F := F) o x0 x1
    ∧ StableHlo.after (kops28 : List (HloOp τ sig (Elt F))) V (Proc.devRef .tc main_v11) = kt_main_v11 (F := F) o x0 x1
    ∧ StableHlo.after (kops28 : List (HloOp τ sig (Elt F))) V (Proc.devRef .tc main_v13) = kt_main_v13 (F := F) o x0 x1
    ∧ StableHlo.after (kops28 : List (HloOp τ sig (Elt F))) V (Proc.devRef .tc main_v15) = kt_main_v15 (F := F) o x0 x1
    ∧ StableHlo.after (kops28 : List (HloOp τ sig (Elt F))) V (Proc.devRef .tc main_v101) = kt_main_v101 (F := F) o x0 x1
    ∧ StableHlo.after (kops28 : List (HloOp τ sig (Elt F))) V (Proc.devRef .tc main_v124) = kt_main_v124 (F := F) o x0 x1
    ∧ StableHlo.after (kops28 : List (HloOp τ sig (Elt F))) V (Proc.devRef .tc main_v147) = kt_main_v147 (F := F) o x0 x1
    ∧ StableHlo.after (kops28 : List (HloOp τ sig (Elt F))) V (Proc.devRef .tc main_v170) = kt_main_v170 (F := F) o x0 x1
    ∧ StableHlo.after (kops28 : List (HloOp τ sig (Elt F))) V (Proc.devRef .tc main_v212) = kt_main_v212 (F := F) o x0 x1
    ∧ StableHlo.after (kops28 : List (HloOp τ sig (Elt F))) V (Proc.devRef .tc main_v214) = kt_main_v214 (F := F) o x0 x1
    ∧ StableHlo.after (kops28 : List (HloOp τ sig (Elt F))) V (Proc.devRef .tc main_v217) = kt_main_v217 (F := F) o x0 x1
    ∧ StableHlo.after (kops28 : List (HloOp τ sig (Elt F))) V (Proc.devRef .tc main_v220) = kt_main_v220 (F := F) o x0 x1 := by
  simp only [kops28]
  read_stretch
  refine ⟨?_, ?_, ?_, ?_, ?_, ?_, ?_, ?_, ?_, ?_, ?_, ?_⟩
  all_goals (try (simp only [h_main_v9, h_main_v11, h_main_v13, h_main_v15, h_main_v101, h_main_v124, h_main_v147, h_main_v170, h_main_v212, h_main_v213]; done))
  all_goals (read_stretch_rw; (try simp only [h_main_v9, h_main_v11, h_main_v13, h_main_v15, h_main_v101, h_main_v124, h_main_v147, h_main_v170, h_main_v212, h_main_v213]); (repeat (first | rw [h_main_v9] | rw [h_main_v11] | rw [h_main_v13] | rw [h_main_v15] | rw [h_main_v101] | rw [h_main_v124] | rw [h_main_v147] | rw [h_main_v170] | rw [h_main_v212] | rw [h_main_v213])); (try rfl))

set_option maxHeartbeats 4000000 in
/-- Chunk 30 (`kops29`, 10 operations): 12 buffers live at its head, 10 at its end. -/
theorem cut30 {V : Valuation τ sig (Elt F)} {o : (⟨S1x2, .f32⟩ : BufTy).Contents (Elt F)} {x0 : (⟨S16x85x128x128, .f32⟩ : BufTy).Contents (Elt F)} {x1 : (⟨S16x64x5, .f32⟩ : BufTy).Contents (Elt F)}
    (h_main_v9 : V (Proc.devRef .tc main_v9) = kt_main_v9 (F := F) o x0 x1)
    (h_main_v11 : V (Proc.devRef .tc main_v11) = kt_main_v11 (F := F) o x0 x1)
    (h_main_v13 : V (Proc.devRef .tc main_v13) = kt_main_v13 (F := F) o x0 x1)
    (h_main_v15 : V (Proc.devRef .tc main_v15) = kt_main_v15 (F := F) o x0 x1)
    (h_main_v101 : V (Proc.devRef .tc main_v101) = kt_main_v101 (F := F) o x0 x1)
    (h_main_v124 : V (Proc.devRef .tc main_v124) = kt_main_v124 (F := F) o x0 x1)
    (h_main_v147 : V (Proc.devRef .tc main_v147) = kt_main_v147 (F := F) o x0 x1)
    (h_main_v170 : V (Proc.devRef .tc main_v170) = kt_main_v170 (F := F) o x0 x1)
    (h_main_v212 : V (Proc.devRef .tc main_v212) = kt_main_v212 (F := F) o x0 x1)
    (h_main_v214 : V (Proc.devRef .tc main_v214) = kt_main_v214 (F := F) o x0 x1)
    (h_main_v217 : V (Proc.devRef .tc main_v217) = kt_main_v217 (F := F) o x0 x1)
    (h_main_v220 : V (Proc.devRef .tc main_v220) = kt_main_v220 (F := F) o x0 x1)
    :
    StableHlo.after (kops29 : List (HloOp τ sig (Elt F))) V (Proc.devRef .tc main_v9) = kt_main_v9 (F := F) o x0 x1
    ∧ StableHlo.after (kops29 : List (HloOp τ sig (Elt F))) V (Proc.devRef .tc main_v11) = kt_main_v11 (F := F) o x0 x1
    ∧ StableHlo.after (kops29 : List (HloOp τ sig (Elt F))) V (Proc.devRef .tc main_v13) = kt_main_v13 (F := F) o x0 x1
    ∧ StableHlo.after (kops29 : List (HloOp τ sig (Elt F))) V (Proc.devRef .tc main_v15) = kt_main_v15 (F := F) o x0 x1
    ∧ StableHlo.after (kops29 : List (HloOp τ sig (Elt F))) V (Proc.devRef .tc main_v212) = kt_main_v212 (F := F) o x0 x1
    ∧ StableHlo.after (kops29 : List (HloOp τ sig (Elt F))) V (Proc.devRef .tc main_v214) = kt_main_v214 (F := F) o x0 x1
    ∧ StableHlo.after (kops29 : List (HloOp τ sig (Elt F))) V (Proc.devRef .tc main_v223) = kt_main_v223 (F := F) o x0 x1
    ∧ StableHlo.after (kops29 : List (HloOp τ sig (Elt F))) V (Proc.devRef .tc main_v226) = kt_main_v226 (F := F) o x0 x1
    ∧ StableHlo.after (kops29 : List (HloOp τ sig (Elt F))) V (Proc.devRef .tc main_v227) = kt_main_v227 (F := F) o x0 x1
    ∧ StableHlo.after (kops29 : List (HloOp τ sig (Elt F))) V (Proc.devRef .tc main_v228) = kt_main_v228 (F := F) o x0 x1 := by
  simp only [kops29]
  read_stretch
  refine ⟨?_, ?_, ?_, ?_, ?_, ?_, ?_, ?_, ?_, ?_⟩
  all_goals (try (simp only [h_main_v9, h_main_v11, h_main_v13, h_main_v15, h_main_v101, h_main_v124, h_main_v147, h_main_v170, h_main_v212, h_main_v214, h_main_v217, h_main_v220]; done))
  all_goals (read_stretch_rw; (try simp only [h_main_v9, h_main_v11, h_main_v13, h_main_v15, h_main_v101, h_main_v124, h_main_v147, h_main_v170, h_main_v212, h_main_v214, h_main_v217, h_main_v220]); (repeat (first | rw [h_main_v9] | rw [h_main_v11] | rw [h_main_v13] | rw [h_main_v15] | rw [h_main_v101] | rw [h_main_v124] | rw [h_main_v147] | rw [h_main_v170] | rw [h_main_v212] | rw [h_main_v214] | rw [h_main_v217] | rw [h_main_v220])); (try rfl))

end Cert.KernelIdeal.Tail

end
-- ==== Proof.KC.KCut06.lean ====
/- The line of host operations of the kernel program's @main after its region (403 operations, in chunks), stretch by stretch: for each stretch, from the facts that the
   buffers live at its head hold their stages, the buffers live at its end hold theirs (a buffer the stretch writes: its
   operation's function of its operands' stages, which is its stage; a buffer it does not write: what it held); and
   composed over the stretches, the whole line from any contents leaves the result buffer at the last stage. -/
import proofs.«175006_j89550068121905_1_alg».proof.Proof.KTailStages
import proofs.«175006_j89550068121905_1_alg».proof.Proof.KTailOps
import proofs.«175006_j89550068121905_1_alg».proof.Proof.LibReadStretch
import proofs.«175006_j89550068121905_1_alg».proof.Proof.LibReadStretchRw
import Idealize.ShloMosaic.Lib.Pipeline.Frame

set_option maxRecDepth 16384

noncomputable section

namespace Cert.KernelIdeal.Tail

open Cert.KernelIdeal Cert.KernelIdeal.Gen Idealize.ShloMosaic Idealize.ShloMosaic.TcCoe Idealize.SL.Sem Idealize.ShloMosaic.StableHlo

variable {F : FTy → Type} [FloatOps F]

set_option maxHeartbeats 4000000 in
/-- Chunk 31 (`kops30`, 2 operations): 10 buffers live at its head, 10 at its end. -/
theorem cut31 {V : Valuation τ sig (Elt F)} {o : (⟨S1x2, .f32⟩ : BufTy).Contents (Elt F)} {x0 : (⟨S16x85x128x128, .f32⟩ : BufTy).Contents (Elt F)} {x1 : (⟨S16x64x5, .f32⟩ : BufTy).Contents (Elt F)}
    (h_main_v9 : V (Proc.devRef .tc main_v9) = kt_main_v9 (F := F) o x0 x1)
    (h_main_v11 : V (Proc.devRef .tc main_v11) = kt_main_v11 (F := F) o x0 x1)
    (h_main_v13 : V (Proc.devRef .tc main_v13) = kt_main_v13 (F := F) o x0 x1)
    (h_main_v15 : V (Proc.devRef .tc main_v15) = kt_main_v15 (F := F) o x0 x1)
    (h_main_v212 : V (Proc.devRef .tc main_v212) = kt_main_v212 (F := F) o x0 x1)
    (h_main_v214 : V (Proc.devRef .tc main_v214) = kt_main_v214 (F := F) o x0 x1)
    (h_main_v223 : V (Proc.devRef .tc main_v223) = kt_main_v223 (F := F) o x0 x1)
    (h_main_v226 : V (Proc.devRef .tc main_v226) = kt_main_v226 (F := F) o x0 x1)
    (h_main_v227 : V (Proc.devRef .tc main_v227) = kt_main_v227 (F := F) o x0 x1)
    (h_main_v228 : V (Proc.devRef .tc main_v228) = kt_main_v228 (F := F) o x0 x1)
    :
    StableHlo.after (kops30 : List (HloOp τ sig (Elt F))) V (Proc.devRef .tc main_v9) = kt_main_v9 (F := F) o x0 x1
    ∧ StableHlo.after (kops30 : List (HloOp τ sig (Elt F))) V (Proc.devRef .tc main_v11) = kt_main_v11 (F := F) o x0 x1
    ∧ StableHlo.after (kops30 : List (HloOp τ sig (Elt F))) V (Proc.devRef .tc main_v13) = kt_main_v13 (F := F) o x0 x1
    ∧ StableHlo.after (kops30 : List (HloOp τ sig (Elt F))) V (Proc.devRef .tc main_v15) = kt_main_v15 (F := F) o x0 x1
    ∧ StableHlo.after (kops30 : List (HloOp τ sig (Elt F))) V (Proc.devRef .tc main_v212) = kt_main_v212 (F := F) o x0 x1
    ∧ StableHlo.after (kops30 : List (HloOp τ sig (Elt F))) V (Proc.devRef .tc main_v214) = kt_main_v214 (F := F) o x0 x1
    ∧ StableHlo.after (kops30 : List (HloOp τ sig (Elt F))) V (Proc.devRef .tc main_v227) = kt_main_v227 (F := F) o x0 x1
    ∧ StableHlo.after (kops30 : List (HloOp τ sig (Elt F))) V (Proc.devRef .tc main_v228) = kt_main_v228 (F := F) o x0 x1
    ∧ StableHlo.after (kops30 : List (HloOp τ sig (Elt F))) V (Proc.devRef .tc main_v229) = kt_main_v229 (F := F) o x0 x1
    ∧ StableHlo.after (kops30 : List (HloOp τ sig (Elt F))) V (Proc.devRef .tc main_v230) = kt_main_v230 (F := F) o x0 x1 := by
  simp only [kops30]
  read_stretch
  refine ⟨?_, ?_, ?_, ?_, ?_, ?_, ?_, ?_, ?_, ?_⟩
  all_goals (try (simp only [h_main_v9, h_main_v11, h_main_v13, h_main_v15, h_main_v212, h_main_v214, h_main_v223, h_main_v226, h_main_v227, h_main_v228]; done))
  all_goals (read_stretch_rw; (try simp only [h_main_v9, h_main_v11, h_main_v13, h_main_v15, h_main_v212, h_main_v214, h_main_v223, h_main_v226, h_main_v227, h_main_v228]); (repeat (first | rw [h_main_v9] | rw [h_main_v11] | rw [h_main_v13] | rw [h_main_v15] | rw [h_main_v212] | rw [h_main_v214] | rw [h_main_v223] | rw [h_main_v226] | rw [h_main_v227] | rw [h_main_v228])); (try rfl))

set_option maxHeartbeats 4000000 in
/-- Chunk 32 (`kops31`, 10 operations): 10 buffers live at its head, 9 at its end. -/
theorem cut32 {V : Valuation τ sig (Elt F)} {o : (⟨S1x2, .f32⟩ : BufTy).Contents (Elt F)} {x0 : (⟨S16x85x128x128, .f32⟩ : BufTy).Contents (Elt F)} {x1 : (⟨S16x64x5, .f32⟩ : BufTy).Contents (Elt F)}
    (h_main_v9 : V (Proc.devRef .tc main_v9) = kt_main_v9 (F := F) o x0 x1)
    (h_main_v11 : V (Proc.devRef .tc main_v11) = kt_main_v11 (F := F) o x0 x1)
    (h_main_v13 : V (Proc.devRef .tc main_v13) = kt_main_v13 (F := F) o x0 x1)
    (h_main_v15 : V (Proc.devRef .tc main_v15) = kt_main_v15 (F := F) o x0 x1)
    (h_main_v212 : V (Proc.devRef .tc main_v212) = kt_main_v212 (F := F) o x0 x1)
    (h_main_v214 : V (Proc.devRef .tc main_v214) = kt_main_v214 (F := F) o x0 x1)
    (h_main_v227 : V (Proc.devRef .tc main_v227) = kt_main_v227 (F := F) o x0 x1)
    (h_main_v228 : V (Proc.devRef .tc main_v228) = kt_main_v228 (F := F) o x0 x1)
    (h_main_v229 : V (Proc.devRef .tc main_v229) = kt_main_v229 (F := F) o x0 x1)
    (h_main_v230 : V (Proc.devRef .tc main_v230) = kt_main_v230 (F := F) o x0 x1)
    :
    StableHlo.after (kops31 : List (HloOp τ sig (Elt F))) V (Proc.devRef .tc main_v9) = kt_main_v9 (F := F) o x0 x1
    ∧ StableHlo.after (kops31 : List (HloOp τ sig (Elt F))) V (Proc.devRef .tc main_v11) = kt_main_v11 (F := F) o x0 x1
    ∧ StableHlo.after (kops31 : List (HloOp τ sig (Elt F))) V (Proc.devRef .tc main_v13) = kt_main_v13 (F := F) o x0 x1
    ∧ StableHlo.after (kops31 : List (HloOp τ sig (Elt F))) V (Proc.devRef .tc main_v15) = kt_main_v15 (F := F) o x0 x1
    ∧ StableHlo.after (kops31 : List (HloOp τ sig (Elt F))) V (Proc.devRef .tc main_v212) = kt_main_v212 (F := F) o x0 x1
    ∧ StableHlo.after (kops31 : List (HloOp τ sig (Elt F))) V (Proc.devRef .tc main_v214) = kt_main_v214 (F := F) o x0 x1
    ∧ StableHlo.after (kops31 : List (HloOp τ sig (Elt F))) V (Proc.devRef .tc main_v231) = kt_main_v231 (F := F) o x0 x1
    ∧ StableHlo.after (kops31 : List (HloOp τ sig (Elt F))) V (Proc.devRef .tc main_v236) = kt_main_v236 (F := F) o x0 x1
    ∧ StableHlo.after (kops31 : List (HloOp τ sig (Elt F))) V (Proc.devRef .tc main_v237) = kt_main_v237 (F := F) o x0 x1 := by
  simp only [kops31]
  read_stretch
  refine ⟨?_, ?_, ?_, ?_, ?_, ?_, ?_, ?_, ?_⟩
  all_goals (try (simp only [h_main_v9, h_main_v11, h_main_v13, h_main_v15, h_main_v212, h_main_v214, h_main_v227, h_main_v228, h_main_v229, h_main_v230]; done))
  all_goals (read_stretch_rw; (try simp only [h_main_v9, h_main_v11, h_main_v13, h_main_v15, h_main_v212, h_main_v214, h_main_v227, h_main_v228, h_main_v229, h_main_v230]); (repeat (first | rw [h_main_v9] | rw [h_main_v11] | rw [h_main_v13] | rw [h_main_v15] | rw [h_main_v212] | rw [h_main_v214] | rw [h_main_v227] | rw [h_main_v228] | rw [h_main_v229] | rw [h_main_v230])); (try rfl))

set_option maxHeartbeats 4000000 in
/-- Chunk 33 (`kops32`, 10 operations): 9 buffers live at its head, 9 at its end. -/
theorem cut33 {V : Valuation τ sig (Elt F)} {o : (⟨S1x2, .f32⟩ : BufTy).Contents (Elt F)} {x0 : (⟨S16x85x128x128, .f32⟩ : BufTy).Contents (Elt F)} {x1 : (⟨S16x64x5, .f32⟩ : BufTy).Contents (Elt F)}
    (h_main_v9 : V (Proc.devRef .tc main_v9) = kt_main_v9 (F := F) o x0 x1)
    (h_main_v11 : V (Proc.devRef .tc main_v11) = kt_main_v11 (F := F) o x0 x1)
    (h_main_v13 : V (Proc.devRef .tc main_v13) = kt_main_v13 (F := F) o x0 x1)
    (h_main_v15 : V (Proc.devRef .tc main_v15) = kt_main_v15 (F := F) o x0 x1)
    (h_main_v212 : V (Proc.devRef .tc main_v212) = kt_main_v212 (F := F) o x0 x1)
    (h_main_v214 : V (Proc.devRef .tc main_v214) = kt_main_v214 (F := F) o x0 x1)
    (h_main_v231 : V (Proc.devRef .tc main_v231) = kt_main_v231 (F := F) o x0 x1)
    (h_main_v236 : V (Proc.devRef .tc main_v236) = kt_main_v236 (F := F) o x0 x1)
    (h_main_v237 : V (Proc.devRef .tc main_v237) = kt_main_v237 (F := F) o x0 x1)
    :
    StableHlo.after (kops32 : List (HloOp τ sig (Elt F))) V (Proc.devRef .tc main_v11) = kt_main_v11 (F := F) o x0 x1
    ∧ StableHlo.after (kops32 : List (HloOp τ sig (Elt F))) V (Proc.devRef .tc main_v15) = kt_main_v15 (F := F) o x0 x1
    ∧ StableHlo.after (kops32 : List (HloOp τ sig (Elt F))) V (Proc.devRef .tc main_v212) = kt_main_v212 (F := F) o x0 x1
    ∧ StableHlo.after (kops32 : List (HloOp τ sig (Elt F))) V (Proc.devRef .tc main_v214) = kt_main_v214 (F := F) o x0 x1
    ∧ StableHlo.after (kops32 : List (HloOp τ sig (Elt F))) V (Proc.devRef .tc main_v231) = kt_main_v231 (F := F) o x0 x1
    ∧ StableHlo.after (kops32 : List (HloOp τ sig (Elt F))) V (Proc.devRef .tc main_v236) = kt_main_v236 (F := F) o x0 x1
    ∧ StableHlo.after (kops32 : List (HloOp τ sig (Elt F))) V (Proc.devRef .tc main_v241) = kt_main_v241 (F := F) o x0 x1
    ∧ StableHlo.after (kops32 : List (HloOp τ sig (Elt F))) V (Proc.devRef .tc main_v244) = kt_main_v244 (F := F) o x0 x1
    ∧ StableHlo.after (kops32 : List (HloOp τ sig (Elt F))) V (Proc.devRef .tc main_cst_66) = kt_main_cst_66 (F := F) o x0 x1 := by
  simp only [kops32]
  read_stretch
  refine ⟨?_, ?_, ?_, ?_, ?_, ?_, ?_, ?_, ?_⟩
  all_goals (try (simp only [h_main_v9, h_main_v11, h_main_v13, h_main_v15, h_main_v212, h_main_v214, h_main_v231, h_main_v236, h_main_v237]; done))
  all_goals (read_stretch_rw; (try simp only [h_main_v9, h_main_v11, h_main_v13, h_main_v15, h_main_v212, h_main_v214, h_main_v231, h_main_v236, h_main_v237]); (repeat (first | rw [h_main_v9] | rw [h_main_v11] | rw [h_main_v13] | rw [h_main_v15] | rw [h_main_v212] | rw [h_main_v214] | rw [h_main_v231] | rw [h_main_v236] | rw [h_main_v237])); (try rfl))

set_option maxHeartbeats 4000000 in
/-- Chunk 34 (`kops33`, 10 operations): 9 buffers live at its head, 7 at its end. -/
theorem cut34 {V : Valuation τ sig (Elt F)} {o : (⟨S1x2, .f32⟩ : BufTy).Contents (Elt F)} {x0 : (⟨S16x85x128x128, .f32⟩ : BufTy).Contents (Elt F)} {x1 : (⟨S16x64x5, .f32⟩ : BufTy).Contents (Elt F)}
    (h_main_v11 : V (Proc.devRef .tc main_v11) = kt_main_v11 (F := F) o x0 x1)
    (h_main_v15 : V (Proc.devRef .tc main_v15) = kt_main_v15 (F := F) o x0 x1)
    (h_main_v212 : V (Proc.devRef .tc main_v212) = kt_main_v212 (F := F) o x0 x1)
    (h_main_v214 : V (Proc.devRef .tc main_v214) = kt_main_v214 (F := F) o x0 x1)
    (h_main_v231 : V (Proc.devRef .tc main_v231) = kt_main_v231 (F := F) o x0 x1)
    (h_main_v236 : V (Proc.devRef .tc main_v236) = kt_main_v236 (F := F) o x0 x1)
    (h_main_v241 : V (Proc.devRef .tc main_v241) = kt_main_v241 (F := F) o x0 x1)
    (h_main_v244 : V (Proc.devRef .tc main_v244) = kt_main_v244 (F := F) o x0 x1)
    (h_main_cst_66 : V (Proc.devRef .tc main_cst_66) = kt_main_cst_66 (F := F) o x0 x1)
    :
    StableHlo.after (kops33 : List (HloOp τ sig (Elt F))) V (Proc.devRef .tc main_v212) = kt_main_v212 (F := F) o x0 x1
    ∧ StableHlo.after (kops33 : List (HloOp τ sig (Elt F))) V (Proc.devRef .tc main_v214) = kt_main_v214 (F := F) o x0 x1
    ∧ StableHlo.after (kops33 : List (HloOp τ sig (Elt F))) V (Proc.devRef .tc main_v231) = kt_main_v231 (F := F) o x0 x1
    ∧ StableHlo.after (kops33 : List (HloOp τ sig (Elt F))) V (Proc.devRef .tc main_v241) = kt_main_v241 (F := F) o x0 x1
    ∧ StableHlo.after (kops33 : List (HloOp τ sig (Elt F))) V (Proc.devRef .tc main_v246) = kt_main_v246 (F := F) o x0 x1
    ∧ StableHlo.after (kops33 : List (HloOp τ sig (Elt F))) V (Proc.devRef .tc main_v251) = kt_main_v251 (F := F) o x0 x1
    ∧ StableHlo.after (kops33 : List (HloOp τ sig (Elt F))) V (Proc.devRef .tc main_v252) = kt_main_v252 (F := F) o x0 x1 := by
  simp only [kops33]
  read_stretch
  refine ⟨?_, ?_, ?_, ?_, ?_, ?_, ?_⟩
  all_goals (try (simp only [h_main_v11, h_main_v15, h_main_v212, h_main_v214, h_main_v231, h_main_v236, h_main_v241, h_main_v244, h_main_cst_66]; done))
  all_goals (read_stretch_rw; (try simp only [h_main_v11, h_main_v15, h_main_v212, h_main_v214, h_main_v231, h_main_v236, h_main_v241, h_main_v244, h_main_cst_66]); (repeat (first | rw [h_main_v11] | rw [h_main_v15] | rw [h_main_v212] | rw [h_main_v214] | rw [h_main_v231] | rw [h_main_v236] | rw [h_main_v241] | rw [h_main_v244] | rw [h_main_cst_66])); (try rfl))

set_option maxHeartbeats 4000000 in
/-- Chunk 35 (`kops34`, 3 operations): 7 buffers live at its head, 7 at its end. -/
theorem cut35 {V : Valuation τ sig (Elt F)} {o : (⟨S1x2, .f32⟩ : BufTy).Contents (Elt F)} {x0 : (⟨S16x85x128x128, .f32⟩ : BufTy).Contents (Elt F)} {x1 : (⟨S16x64x5, .f32⟩ : BufTy).Contents (Elt F)}
    (h_main_v212 : V (Proc.devRef .tc main_v212) = kt_main_v212 (F := F) o x0 x1)
    (h_main_v214 : V (Proc.devRef .tc main_v214) = kt_main_v214 (F := F) o x0 x1)
    (h_main_v231 : V (Proc.devRef .tc main_v231) = kt_main_v231 (F := F) o x0 x1)
    (h_main_v241 : V (Proc.devRef .tc main_v241) = kt_main_v241 (F := F) o x0 x1)
    (h_main_v246 : V (Proc.devRef .tc main_v246) = kt_main_v246 (F := F) o x0 x1)
    (h_main_v251 : V (Proc.devRef .tc main_v251) = kt_main_v251 (F := F) o x0 x1)
    (h_main_v252 : V (Proc.devRef .tc main_v252) = kt_main_v252 (F := F) o x0 x1)
    :
    StableHlo.after (kops34 : List (HloOp τ sig (Elt F))) V (Proc.devRef .tc main_v212) = kt_main_v212 (F := F) o x0 x1
    ∧ StableHlo.after (kops34 : List (HloOp τ sig (Elt F))) V (Proc.devRef .tc main_v214) = kt_main_v214 (F := F) o x0 x1
    ∧ StableHlo.after (kops34 : List (HloOp τ sig (Elt F))) V (Proc.devRef .tc main_v231) = kt_main_v231 (F := F) o x0 x1
    ∧ StableHlo.after (kops34 : List (HloOp τ sig (Elt F))) V (Proc.devRef .tc main_v252) = kt_main_v252 (F := F) o x0 x1
    ∧ StableHlo.after (kops34 : List (HloOp τ sig (Elt F))) V (Proc.devRef .tc main_v253) = kt_main_v253 (F := F) o x0 x1
    ∧ StableHlo.after (kops34 : List (HloOp τ sig (Elt F))) V (Proc.devRef .tc main_v254) = kt_main_v254 (F := F) o x0 x1
    ∧ StableHlo.after (kops34 : List (HloOp τ sig (Elt F))) V (Proc.devRef .tc main_v255) = kt_main_v255 (F := F) o x0 x1 := by
  simp only [kops34]
  read_stretch
  refine ⟨?_, ?_, ?_, ?_, ?_, ?_, ?_⟩
  all_goals (try (simp only [h_main_v212, h_main_v214, h_main_v231, h_main_v241, h_main_v246, h_main_v251, h_main_v252]; done))
  all_goals (read_stretch_rw; (try simp only [h_main_v212, h_main_v214, h_main_v231, h_main_v241, h_main_v246, h_main_v251, h_main_v252]); (repeat (first | rw [h_main_v212] | rw [h_main_v214] | rw [h_main_v231] | rw [h_main_v241] | rw [h_main_v246] | rw [h_main_v251] | rw [h_main_v252])); (try rfl))

set_option maxHeartbeats 4000000 in
/-- Chunk 36 (`kops35`, 10 operations): 7 buffers live at its head, 7 at its end. -/
theorem cut36 {V : Valuation τ sig (Elt F)} {o : (⟨S1x2, .f32⟩ : BufTy).Contents (Elt F)} {x0 : (⟨S16x85x128x128, .f32⟩ : BufTy).Contents (Elt F)} {x1 : (⟨S16x64x5, .f32⟩ : BufTy).Contents (Elt F)}
    (h_main_v212 : V (Proc.devRef .tc main_v212) = kt_main_v212 (F := F) o x0 x1)
    (h_main_v214 : V (Proc.devRef .tc main_v214) = kt_main_v214 (F := F) o x0 x1)
    (h_main_v231 : V (Proc.devRef .tc main_v231) = kt_main_v231 (F := F) o x0 x1)
    (h_main_v252 : V (Proc.devRef .tc main_v252) = kt_main_v252 (F := F) o x0 x1)
    (h_main_v253 : V (Proc.devRef .tc main_v253) = kt_main_v253 (F := F) o x0 x1)
    (h_main_v254 : V (Proc.devRef .tc main_v254) = kt_main_v254 (F := F) o x0 x1)
    (h_main_v255 : V (Proc.devRef .tc main_v255) = kt_main_v255 (F := F) o x0 x1)
    :
    StableHlo.after (kops35 : List (HloOp τ sig (Elt F))) V (Proc.devRef .tc main_v212) = kt_main_v212 (F := F) o x0 x1
    ∧ StableHlo.after (kops35 : List (HloOp τ sig (Elt F))) V (Proc.devRef .tc main_v214) = kt_main_v214 (F := F) o x0 x1
    ∧ StableHlo.after (kops35 : List (HloOp τ sig (Elt F))) V (Proc.devRef .tc main_v231) = kt_main_v231 (F := F) o x0 x1
    ∧ StableHlo.after (kops35 : List (HloOp τ sig (Elt F))) V (Proc.devRef .tc main_v256) = kt_main_v256 (F := F) o x0 x1
    ∧ StableHlo.after (kops35 : List (HloOp τ sig (Elt F))) V (Proc.devRef .tc main_v261) = kt_main_v261 (F := F) o x0 x1
    ∧ StableHlo.after (kops35 : List (HloOp τ sig (Elt F))) V (Proc.devRef .tc main_v263) = kt_main_v263 (F := F) o x0 x1
    ∧ StableHlo.after (kops35 : List (HloOp τ sig (Elt F))) V (Proc.devRef .tc main_v265) = kt_main_v265 (F := F) o x0 x1 := by
  simp only [kops35]
  read_stretch
  refine ⟨?_, ?_, ?_, ?_, ?_, ?_, ?_⟩
  all_goals (try (simp only [h_main_v212, h_main_v214, h_main_v231, h_main_v252, h_main_v253, h_main_v254, h_main_v255]; done))
  all_goals (read_stretch_rw; (try simp only [h_main_v212, h_main_v214, h_main_v231, h_main_v252, h_main_v253, h_main_v254, h_main_v255]); (repeat (first | rw [h_main_v212] | rw [h_main_v214] | rw [h_main_v231] | rw [h_main_v252] | rw [h_main_v253] | rw [h_main_v254] | rw [h_main_v255])); (try rfl))

end Cert.KernelIdeal.Tail

end
-- ==== Proof.KC.KCut07.lean ====
/- The line of host operations of the kernel program's @main after its region (403 operations, in chunks), stretch by stretch: for each stretch, from the facts that the
   buffers live at its head hold their stages, the buffers live at its end hold theirs (a buffer the stretch writes: its
   operation's function of its operands' stages, which is its stage; a buffer it does not write: what it held); and
   composed over the stretches, the whole line from any contents leaves the result buffer at the last stage. -/
import proofs.«175006_j89550068121905_1_alg».proof.Proof.KTailStages
import proofs.«175006_j89550068121905_1_alg».proof.Proof.KTailOps
import proofs.«175006_j89550068121905_1_alg».proof.Proof.LibReadStretch
import proofs.«175006_j89550068121905_1_alg».proof.Proof.LibReadStretchRw
import Idealize.ShloMosaic.Lib.Pipeline.Frame

set_option maxRecDepth 16384

noncomputable section

namespace Cert.KernelIdeal.Tail

open Cert.KernelIdeal Cert.KernelIdeal.Gen Idealize.ShloMosaic Idealize.ShloMosaic.TcCoe Idealize.SL.Sem Idealize.ShloMosaic.StableHlo

variable {F : FTy → Type} [FloatOps F]

set_option maxHeartbeats 4000000 in
/-- Chunk 37 (`kops36`, 10 operations): 7 buffers live at its head, 9 at its end. -/
theorem cut37 {V : Valuation τ sig (Elt F)} {o : (⟨S1x2, .f32⟩ : BufTy).Contents (Elt F)} {x0 : (⟨S16x85x128x128, .f32⟩ : BufTy).Contents (Elt F)} {x1 : (⟨S16x64x5, .f32⟩ : BufTy).Contents (Elt F)}
    (h_main_v212 : V (Proc.devRef .tc main_v212) = kt_main_v212 (F := F) o x0 x1)
    (h_main_v214 : V (Proc.devRef .tc main_v214) = kt_main_v214 (F := F) o x0 x1)
    (h_main_v231 : V (Proc.devRef .tc main_v231) = kt_main_v231 (F := F) o x0 x1)
    (h_main_v256 : V (Proc.devRef .tc main_v256) = kt_main_v256 (F := F) o x0 x1)
    (h_main_v261 : V (Proc.devRef .tc main_v261) = kt_main_v261 (F := F) o x0 x1)
    (h_main_v263 : V (Proc.devRef .tc main_v263) = kt_main_v263 (F := F) o x0 x1)
    (h_main_v265 : V (Proc.devRef .tc main_v265) = kt_main_v265 (F := F) o x0 x1)
    :
    StableHlo.after (kops36 : List (HloOp τ sig (Elt F))) V (Proc.devRef .tc main_v212) = kt_main_v212 (F := F) o x0 x1
    ∧ StableHlo.after (kops36 : List (HloOp τ sig (Elt F))) V (Proc.devRef .tc main_v214) = kt_main_v214 (F := F) o x0 x1
    ∧ StableHlo.after (kops36 : List (HloOp τ sig (Elt F))) V (Proc.devRef .tc main_v231) = kt_main_v231 (F := F) o x0 x1
    ∧ StableHlo.after (kops36 : List (HloOp τ sig (Elt F))) V (Proc.devRef .tc main_v256) = kt_main_v256 (F := F) o x0 x1
    ∧ StableHlo.after (kops36 : List (HloOp τ sig (Elt F))) V (Proc.devRef .tc main_v261) = kt_main_v261 (F := F) o x0 x1
    ∧ StableHlo.after (kops36 : List (HloOp τ sig (Elt F))) V (Proc.devRef .tc main_v266) = kt_main_v266 (F := F) o x0 x1
    ∧ StableHlo.after (kops36 : List (HloOp τ sig (Elt F))) V (Proc.devRef .tc main_v271) = kt_main_v271 (F := F) o x0 x1
    ∧ StableHlo.after (kops36 : List (HloOp τ sig (Elt F))) V (Proc.devRef .tc main_v273) = kt_main_v273 (F := F) o x0 x1
    ∧ StableHlo.after (kops36 : List (HloOp τ sig (Elt F))) V (Proc.devRef .tc main_v275) = kt_main_v275 (F := F) o x0 x1 := by
  simp only [kops36]
  read_stretch
  refine ⟨?_, ?_, ?_, ?_, ?_, ?_, ?_, ?_, ?_⟩
  all_goals (try (simp only [h_main_v212, h_main_v214, h_main_v231, h_main_v256, h_main_v261, h_main_v263, h_main_v265]; done))
  all_goals (read_stretch_rw; (try simp only [h_main_v212, h_main_v214, h_main_v231, h_main_v256, h_main_v261, h_main_v263, h_main_v265]); (repeat (first | rw [h_main_v212] | rw [h_main_v214] | rw [h_main_v231] | rw [h_main_v256] | rw [h_main_v261] | rw [h_main_v263] | rw [h_main_v265])); (try rfl))

set_option maxHeartbeats 4000000 in
/-- Chunk 38 (`kops37`, 10 operations): 9 buffers live at its head, 7 at its end. -/
theorem cut38 {V : Valuation τ sig (Elt F)} {o : (⟨S1x2, .f32⟩ : BufTy).Contents (Elt F)} {x0 : (⟨S16x85x128x128, .f32⟩ : BufTy).Contents (Elt F)} {x1 : (⟨S16x64x5, .f32⟩ : BufTy).Contents (Elt F)}
    (h_main_v212 : V (Proc.devRef .tc main_v212) = kt_main_v212 (F := F) o x0 x1)
    (h_main_v214 : V (Proc.devRef .tc main_v214) = kt_main_v214 (F := F) o x0 x1)
    (h_main_v231 : V (Proc.devRef .tc main_v231) = kt_main_v231 (F := F) o x0 x1)
    (h_main_v256 : V (Proc.devRef .tc main_v256) = kt_main_v256 (F := F) o x0 x1)
    (h_main_v261 : V (Proc.devRef .tc main_v261) = kt_main_v261 (F := F) o x0 x1)
    (h_main_v266 : V (Proc.devRef .tc main_v266) = kt_main_v266 (F := F) o x0 x1)
    (h_main_v271 : V (Proc.devRef .tc main_v271) = kt_main_v271 (F := F) o x0 x1)
    (h_main_v273 : V (Proc.devRef .tc main_v273) = kt_main_v273 (F := F) o x0 x1)
    (h_main_v275 : V (Proc.devRef .tc main_v275) = kt_main_v275 (F := F) o x0 x1)
    :
    StableHlo.after (kops37 : List (HloOp τ sig (Elt F))) V (Proc.devRef .tc main_v212) = kt_main_v212 (F := F) o x0 x1
    ∧ StableHlo.after (kops37 : List (HloOp τ sig (Elt F))) V (Proc.devRef .tc main_v214) = kt_main_v214 (F := F) o x0 x1
    ∧ StableHlo.after (kops37 : List (HloOp τ sig (Elt F))) V (Proc.devRef .tc main_v231) = kt_main_v231 (F := F) o x0 x1
    ∧ StableHlo.after (kops37 : List (HloOp τ sig (Elt F))) V (Proc.devRef .tc main_v256) = kt_main_v256 (F := F) o x0 x1
    ∧ StableHlo.after (kops37 : List (HloOp τ sig (Elt F))) V (Proc.devRef .tc main_v278) = kt_main_v278 (F := F) o x0 x1
    ∧ StableHlo.after (kops37 : List (HloOp τ sig (Elt F))) V (Proc.devRef .tc main_v279) = kt_main_v279 (F := F) o x0 x1
    ∧ StableHlo.after (kops37 : List (HloOp τ sig (Elt F))) V (Proc.devRef .tc main_call3_v1) = kt_main_call3_v1 (F := F) o x0 x1 := by
  simp only [kops37]
  read_stretch
  refine ⟨?_, ?_, ?_, ?_, ?_, ?_, ?_⟩
  all_goals (try (simp only [h_main_v212, h_main_v214, h_main_v231, h_main_v256, h_main_v261, h_main_v266, h_main_v271, h_main_v273, h_main_v275]; done))
  all_goals (read_stretch_rw; (try simp only [h_main_v212, h_main_v214, h_main_v231, h_main_v256, h_main_v261, h_main_v266, h_main_v271, h_main_v273, h_main_v275]); (repeat (first | rw [h_main_v212] | rw [h_main_v214] | rw [h_main_v231] | rw [h_main_v256] | rw [h_main_v261] | rw [h_main_v266] | rw [h_main_v271] | rw [h_main_v273] | rw [h_main_v275])); (try rfl))

set_option maxHeartbeats 4000000 in
/-- Chunk 39 (`kops38`, 10 operations): 7 buffers live at its head, 7 at its end. -/
theorem cut39 {V : Valuation τ sig (Elt F)} {o : (⟨S1x2, .f32⟩ : BufTy).Contents (Elt F)} {x0 : (⟨S16x85x128x128, .f32⟩ : BufTy).Contents (Elt F)} {x1 : (⟨S16x64x5, .f32⟩ : BufTy).Contents (Elt F)}
    (h_main_v212 : V (Proc.devRef .tc main_v212) = kt_main_v212 (F := F) o x0 x1)
    (h_main_v214 : V (Proc.devRef .tc main_v214) = kt_main_v214 (F := F) o x0 x1)
    (h_main_v231 : V (Proc.devRef .tc main_v231) = kt_main_v231 (F := F) o x0 x1)
    (h_main_v256 : V (Proc.devRef .tc main_v256) = kt_main_v256 (F := F) o x0 x1)
    (h_main_v278 : V (Proc.devRef .tc main_v278) = kt_main_v278 (F := F) o x0 x1)
    (h_main_v279 : V (Proc.devRef .tc main_v279) = kt_main_v279 (F := F) o x0 x1)
    (h_main_call3_v1 : V (Proc.devRef .tc main_call3_v1) = kt_main_call3_v1 (F := F) o x0 x1)
    :
    StableHlo.after (kops38 : List (HloOp τ sig (Elt F))) V (Proc.devRef .tc main_v212) = kt_main_v212 (F := F) o x0 x1
    ∧ StableHlo.after (kops38 : List (HloOp τ sig (Elt F))) V (Proc.devRef .tc main_v214) = kt_main_v214 (F := F) o x0 x1
    ∧ StableHlo.after (kops38 : List (HloOp τ sig (Elt F))) V (Proc.devRef .tc main_v256) = kt_main_v256 (F := F) o x0 x1
    ∧ StableHlo.after (kops38 : List (HloOp τ sig (Elt F))) V (Proc.devRef .tc main_v281) = kt_main_v281 (F := F) o x0 x1
    ∧ StableHlo.after (kops38 : List (HloOp τ sig (Elt F))) V (Proc.devRef .tc main_v286) = kt_main_v286 (F := F) o x0 x1
    ∧ StableHlo.after (kops38 : List (HloOp τ sig (Elt F))) V (Proc.devRef .tc main_v288) = kt_main_v288 (F := F) o x0 x1
    ∧ StableHlo.after (kops38 : List (HloOp τ sig (Elt F))) V (Proc.devRef .tc main_v289) = kt_main_v289 (F := F) o x0 x1 := by
  simp only [kops38]
  read_stretch
  refine ⟨?_, ?_, ?_, ?_, ?_, ?_, ?_⟩
  all_goals (try (simp only [h_main_v212, h_main_v214, h_main_v231, h_main_v256, h_main_v278, h_main_v279, h_main_call3_v1]; done))
  all_goals (read_stretch_rw; (try simp only [h_main_v212, h_main_v214, h_main_v231, h_main_v256, h_main_v278, h_main_v279, h_main_call3_v1]); (repeat (first | rw [h_main_v212] | rw [h_main_v214] | rw [h_main_v231] | rw [h_main_v256] | rw [h_main_v278] | rw [h_main_v279] | rw [h_main_call3_v1])); (try rfl))

set_option maxHeartbeats 4000000 in
/-- Chunk 40 (`kops39`, 10 operations): 7 buffers live at its head, 7 at its end. -/
theorem cut40 {V : Valuation τ sig (Elt F)} {o : (⟨S1x2, .f32⟩ : BufTy).Contents (Elt F)} {x0 : (⟨S16x85x128x128, .f32⟩ : BufTy).Contents (Elt F)} {x1 : (⟨S16x64x5, .f32⟩ : BufTy).Contents (Elt F)}
    (h_main_v212 : V (Proc.devRef .tc main_v212) = kt_main_v212 (F := F) o x0 x1)
    (h_main_v214 : V (Proc.devRef .tc main_v214) = kt_main_v214 (F := F) o x0 x1)
    (h_main_v256 : V (Proc.devRef .tc main_v256) = kt_main_v256 (F := F) o x0 x1)
    (h_main_v281 : V (Proc.devRef .tc main_v281) = kt_main_v281 (F := F) o x0 x1)
    (h_main_v286 : V (Proc.devRef .tc main_v286) = kt_main_v286 (F := F) o x0 x1)
    (h_main_v288 : V (Proc.devRef .tc main_v288) = kt_main_v288 (F := F) o x0 x1)
    (h_main_v289 : V (Proc.devRef .tc main_v289) = kt_main_v289 (F := F) o x0 x1)
    :
    StableHlo.after (kops39 : List (HloOp τ sig (Elt F))) V (Proc.devRef .tc main_v212) = kt_main_v212 (F := F) o x0 x1
    ∧ StableHlo.after (kops39 : List (HloOp τ sig (Elt F))) V (Proc.devRef .tc main_v214) = kt_main_v214 (F := F) o x0 x1
    ∧ StableHlo.after (kops39 : List (HloOp τ sig (Elt F))) V (Proc.devRef .tc main_v256) = kt_main_v256 (F := F) o x0 x1
    ∧ StableHlo.after (kops39 : List (HloOp τ sig (Elt F))) V (Proc.devRef .tc main_v281) = kt_main_v281 (F := F) o x0 x1
    ∧ StableHlo.after (kops39 : List (HloOp τ sig (Elt F))) V (Proc.devRef .tc main_v292) = kt_main_v292 (F := F) o x0 x1
    ∧ StableHlo.after (kops39 : List (HloOp τ sig (Elt F))) V (Proc.devRef .tc main_v297) = kt_main_v297 (F := F) o x0 x1
    ∧ StableHlo.after (kops39 : List (HloOp τ sig (Elt F))) V (Proc.devRef .tc main_v299) = kt_main_v299 (F := F) o x0 x1 := by
  simp only [kops39]
  read_stretch
  refine ⟨?_, ?_, ?_, ?_, ?_, ?_, ?_⟩
  all_goals (try (simp only [h_main_v212, h_main_v214, h_main_v256, h_main_v281, h_main_v286, h_main_v288, h_main_v289]; done))
  all_goals (read_stretch_rw; (try simp only [h_main_v212, h_main_v214, h_main_v256, h_main_v281, h_main_v286, h_main_v288, h_main_v289]); (repeat (first | rw [h_main_v212] | rw [h_main_v214] | rw [h_main_v256] | rw [h_main_v281] | rw [h_main_v286] | rw [h_main_v288] | rw [h_main_v289])); (try rfl))

set_option maxHeartbeats 4000000 in
/-- Chunk 41 (`kops40`, 10 operations): 7 buffers live at its head, 3 at its end. -/
theorem cut41 {V : Valuation τ sig (Elt F)} {o : (⟨S1x2, .f32⟩ : BufTy).Contents (Elt F)} {x0 : (⟨S16x85x128x128, .f32⟩ : BufTy).Contents (Elt F)} {x1 : (⟨S16x64x5, .f32⟩ : BufTy).Contents (Elt F)}
    (h_main_v212 : V (Proc.devRef .tc main_v212) = kt_main_v212 (F := F) o x0 x1)
    (h_main_v214 : V (Proc.devRef .tc main_v214) = kt_main_v214 (F := F) o x0 x1)
    (h_main_v256 : V (Proc.devRef .tc main_v256) = kt_main_v256 (F := F) o x0 x1)
    (h_main_v281 : V (Proc.devRef .tc main_v281) = kt_main_v281 (F := F) o x0 x1)
    (h_main_v292 : V (Proc.devRef .tc main_v292) = kt_main_v292 (F := F) o x0 x1)
    (h_main_v297 : V (Proc.devRef .tc main_v297) = kt_main_v297 (F := F) o x0 x1)
    (h_main_v299 : V (Proc.devRef .tc main_v299) = kt_main_v299 (F := F) o x0 x1)
    :
    StableHlo.after (kops40 : List (HloOp τ sig (Elt F))) V (Proc.devRef .tc main_v212) = kt_main_v212 (F := F) o x0 x1
    ∧ StableHlo.after (kops40 : List (HloOp τ sig (Elt F))) V (Proc.devRef .tc main_v214) = kt_main_v214 (F := F) o x0 x1
    ∧ StableHlo.after (kops40 : List (HloOp τ sig (Elt F))) V (Proc.devRef .tc main_v308) = kt_main_v308 (F := F) o x0 x1 := by
  simp only [kops40]
  read_stretch
  refine ⟨?_, ?_, ?_⟩
  all_goals (try (simp only [h_main_v212, h_main_v214, h_main_v256, h_main_v281, h_main_v292, h_main_v297, h_main_v299]; done))
  all_goals (read_stretch_rw; (try simp only [h_main_v212, h_main_v214, h_main_v256, h_main_v281, h_main_v292, h_main_v297, h_main_v299]); (repeat (first | rw [h_main_v212] | rw [h_main_v214] | rw [h_main_v256] | rw [h_main_v281] | rw [h_main_v292] | rw [h_main_v297] | rw [h_main_v299])); (try rfl))

set_option maxHeartbeats 4000000 in
/-- Chunk 42 (`kops41`, 10 operations): 3 buffers live at its head, 2 at its end. -/
theorem cut42 {V : Valuation τ sig (Elt F)} {o : (⟨S1x2, .f32⟩ : BufTy).Contents (Elt F)} {x0 : (⟨S16x85x128x128, .f32⟩ : BufTy).Contents (Elt F)} {x1 : (⟨S16x64x5, .f32⟩ : BufTy).Contents (Elt F)}
    (h_main_v212 : V (Proc.devRef .tc main_v212) = kt_main_v212 (F := F) o x0 x1)
    (h_main_v214 : V (Proc.devRef .tc main_v214) = kt_main_v214 (F := F) o x0 x1)
    (h_main_v308 : V (Proc.devRef .tc main_v308) = kt_main_v308 (F := F) o x0 x1)
    :
    StableHlo.after (kops41 : List (HloOp τ sig (Elt F))) V (Proc.devRef .tc main_v214) = kt_main_v214 (F := F) o x0 x1
    ∧ StableHlo.after (kops41 : List (HloOp τ sig (Elt F))) V (Proc.devRef .tc main_v314) = kt_main_v314 (F := F) o x0 x1 := by
  simp only [kops41]
  read_stretch
  refine ⟨?_, ?_⟩
  all_goals (try (simp only [h_main_v212, h_main_v214, h_main_v308]; done))
  all_goals (read_stretch_rw; (try simp only [h_main_v212, h_main_v214, h_main_v308]); (repeat (first | rw [h_main_v212] | rw [h_main_v214] | rw [h_main_v308])); (try rfl))

end Cert.KernelIdeal.Tail

end
-- ==== Proof.KC.KCut08.lean ====
/- The line of host operations of the kernel program's @main after its region (403 operations, in chunks), stretch by stretch: for each stretch, from the facts that the
   buffers live at its head hold their stages, the buffers live at its end hold theirs (a buffer the stretch writes: its
   operation's function of its operands' stages, which is its stage; a buffer it does not write: what it held); and
   composed over the stretches, the whole line from any contents leaves the result buffer at the last stage. -/
import proofs.«175006_j89550068121905_1_alg».proof.Proof.KTailStages
import proofs.«175006_j89550068121905_1_alg».proof.Proof.KTailOps
import proofs.«175006_j89550068121905_1_alg».proof.Proof.LibReadStretch
import proofs.«175006_j89550068121905_1_alg».proof.Proof.LibReadStretchRw
import Idealize.ShloMosaic.Lib.Pipeline.Frame

set_option maxRecDepth 16384

noncomputable section

namespace Cert.KernelIdeal.Tail

open Cert.KernelIdeal Cert.KernelIdeal.Gen Idealize.ShloMosaic Idealize.ShloMosaic.TcCoe Idealize.SL.Sem Idealize.ShloMosaic.StableHlo

variable {F : FTy → Type} [FloatOps F]

set_option maxHeartbeats 4000000 in
/-- Chunk 43 (`kops42`, 3 operations): 2 buffers live at its head, 1 at its end. -/
theorem cut43 {V : Valuation τ sig (Elt F)} {o : (⟨S1x2, .f32⟩ : BufTy).Contents (Elt F)} {x0 : (⟨S16x85x128x128, .f32⟩ : BufTy).Contents (Elt F)} {x1 : (⟨S16x64x5, .f32⟩ : BufTy).Contents (Elt F)}
    (h_main_v214 : V (Proc.devRef .tc main_v214) = kt_main_v214 (F := F) o x0 x1)
    (h_main_v314 : V (Proc.devRef .tc main_v314) = kt_main_v314 (F := F) o x0 x1)
    :
    StableHlo.after (kops42 : List (HloOp τ sig (Elt F))) V (Proc.devRef .tc main_v316) = kt_main_v316 (F := F) o x0 x1 := by
  simp only [kops42]
  read_stretch
  all_goals (try (simp only [h_main_v214, h_main_v314]; done))
  all_goals (read_stretch_rw; (try simp only [h_main_v214, h_main_v314]); (repeat (first | rw [h_main_v214] | rw [h_main_v314])); (try rfl))

end Cert.KernelIdeal.Tail

end
-- ==== Proof.KTailCuts.lean ====
/- The line of host operations of the kernel program's @main after its region (403 operations, in chunks), stretch by stretch: for each stretch, from the facts that the
   buffers live at its head hold their stages, the buffers live at its end hold theirs (a buffer the stretch writes: its
   operation's function of its operands' stages, which is its stage; a buffer it does not write: what it held); and
   composed over the stretches, the whole line from any contents leaves the result buffer at the last stage. -/
import proofs.«175006_j89550068121905_1_alg».proof.Proof.KTailStages
import proofs.«175006_j89550068121905_1_alg».proof.Proof.KTailOps
import proofs.«175006_j89550068121905_1_alg».proof.Proof.LibReadStretch
import proofs.«175006_j89550068121905_1_alg».proof.Proof.LibReadStretchRw
import Idealize.ShloMosaic.Lib.Pipeline.Frame
import proofs.«175006_j89550068121905_1_alg».proof.Proof.KC.KCut01
import proofs.«175006_j89550068121905_1_alg».proof.Proof.KC.KCut02
import proofs.«175006_j89550068121905_1_alg».proof.Proof.KC.KCut03
import proofs.«175006_j89550068121905_1_alg».proof.Proof.KC.KCut04
import proofs.«175006_j89550068121905_1_alg».proof.Proof.KC.KCut05
import proofs.«175006_j89550068121905_1_alg».proof.Proof.KC.KCut06
import proofs.«175006_j89550068121905_1_alg».proof.Proof.KC.KCut07
import proofs.«175006_j89550068121905_1_alg».proof.Proof.KC.KCut08

set_option maxRecDepth 16384

noncomputable section

namespace Cert.KernelIdeal.Tail

open Cert.KernelIdeal Cert.KernelIdeal.Gen Idealize.ShloMosaic Idealize.ShloMosaic.TcCoe Idealize.SL.Sem Idealize.ShloMosaic.StableHlo

variable {F : FTy → Type} [FloatOps F]

set_option maxHeartbeats 4000000 in
/-- THE WHOLE LINE: from any buffer contents `W`, the line leaves each buffer live at its end at its stage, read at what
    `W` holds in the buffers the line only reads. -/
theorem line_eq (W : Valuation τ sig (Elt F)) :
    StableHlo.after (kops0 ++ (kops1 ++ (kops2 ++ (kops3 ++ (kops4 ++ (kops5 ++ (kops6 ++ (kops7 ++ (kops8 ++ (kops9 ++ (kops10 ++ (kops11 ++ (kops12 ++ (kops13 ++ (kops14 ++ (kops15 ++ (kops16 ++ (kops17 ++ (kops18 ++ (kops19 ++ (kops20 ++ (kops21 ++ (kops22 ++ (kops23 ++ (kops24 ++ (kops25 ++ (kops26 ++ (kops27 ++ (kops28 ++ (kops29 ++ (kops30 ++ (kops31 ++ (kops32 ++ (kops33 ++ (kops34 ++ (kops35 ++ (kops36 ++ (kops37 ++ (kops38 ++ (kops39 ++ (kops40 ++ (kops41 ++ (kops42)))))))))))))))))))))))))))))))))))))))))) : List (HloOp τ sig (Elt F))) W (Proc.devRef .tc main_v316) = kt_main_v316 (F := F) (W (Proc.devRef .tc main_v0)) (W (Proc.devRef .tc main_arg0)) (W (Proc.devRef .tc main_arg1)) := by
  simp only [StableHlo.after_append]
  obtain ⟨h1_main_arg0, h1_main_arg1, h1_main_v2, h1_main_v4, h1_main_v7, h1_main_v9, h1_main_v10⟩ := cut1 (F := F) (V := W) rfl rfl rfl
  obtain ⟨h2_main_arg0, h2_main_v2, h2_main_v4, h2_main_v7, h2_main_v9, h2_main_v11, h2_main_v13, h2_main_v15, h2_main_v18, h2_main_cst_0⟩ := cut2 (F := F) (V := (StableHlo.after (kops0 : List (HloOp τ sig (Elt F))) W)) h1_main_arg0 h1_main_arg1 h1_main_v2 h1_main_v4 h1_main_v7 h1_main_v9 h1_main_v10
  obtain ⟨h3_main_arg0, h3_main_v2, h3_main_v4, h3_main_v7, h3_main_v9, h3_main_v11, h3_main_v13, h3_main_v15, h3_main_v18, h3_main_v21, h3_main_v24, h3_main_v27⟩ := cut3 (F := F) (V := (StableHlo.after (kops1 : List (HloOp τ sig (Elt F))) (StableHlo.after (kops0 : List (HloOp τ sig (Elt F))) W))) h2_main_arg0 h2_main_v2 h2_main_v4 h2_main_v7 h2_main_v9 h2_main_v11 h2_main_v13 h2_main_v15 h2_main_v18 h2_main_cst_0
  obtain ⟨h4_main_arg0, h4_main_v2, h4_main_v4, h4_main_v7, h4_main_v9, h4_main_v11, h4_main_v13, h4_main_v15, h4_main_v18, h4_main_v21, h4_main_v24, h4_main_v27, h4_main_v32, h4_main_v34⟩ := cut4 (F := F) (V := (StableHlo.after (kops2 : List (HloOp τ sig (Elt F))) (StableHlo.after (kops1 : List (HloOp τ sig (Elt F))) (StableHlo.after (kops0 : List (HloOp τ sig (Elt F))) W)))) h3_main_arg0 h3_main_v2 h3_main_v4 h3_main_v7 h3_main_v9 h3_main_v11 h3_main_v13 h3_main_v15 h3_main_v18 h3_main_v21 h3_main_v24 h3_main_v27
  obtain ⟨h5_main_arg0, h5_main_v2, h5_main_v4, h5_main_v7, h5_main_v9, h5_main_v11, h5_main_v13, h5_main_v15, h5_main_v18, h5_main_v21, h5_main_v24, h5_main_v27, h5_main_v32, h5_main_v37, h5_main_v39, h5_main_v41⟩ := cut5 (F := F) (V := (StableHlo.after (kops3 : List (HloOp τ sig (Elt F))) (StableHlo.after (kops2 : List (HloOp τ sig (Elt F))) (StableHlo.after (kops1 : List (HloOp τ sig (Elt F))) (StableHlo.after (kops0 : List (HloOp τ sig (Elt F))) W))))) h4_main_arg0 h4_main_v2 h4_main_v4 h4_main_v7 h4_main_v9 h4_main_v11 h4_main_v13 h4_main_v15 h4_main_v18 h4_main_v21 h4_main_v24 h4_main_v27 h4_main_v32 h4_main_v34
  obtain ⟨h6_main_arg0, h6_main_v2, h6_main_v4, h6_main_v7, h6_main_v9, h6_main_v11, h6_main_v13, h6_main_v15, h6_main_v18, h6_main_v21, h6_main_v24, h6_main_v27, h6_main_v45, h6_main_v46, h6_main_v47, h6_main_v48⟩ := cut6 (F := F) (V := (StableHlo.after (kops4 : List (HloOp τ sig (Elt F))) (StableHlo.after (kops3 : List (HloOp τ sig (Elt F))) (StableHlo.after (kops2 : List (HloOp τ sig (Elt F))) (StableHlo.after (kops1 : List (HloOp τ sig (Elt F))) (StableHlo.after (kops0 : List (HloOp τ sig (Elt F))) W)))))) h5_main_arg0 h5_main_v2 h5_main_v4 h5_main_v7 h5_main_v9 h5_main_v11 h5_main_v13 h5_main_v15 h5_main_v18 h5_main_v21 h5_main_v24 h5_main_v27 h5_main_v32 h5_main_v37 h5_main_v39 h5_main_v41
  obtain ⟨h7_main_arg0, h7_main_v2, h7_main_v4, h7_main_v7, h7_main_v9, h7_main_v11, h7_main_v13, h7_main_v15, h7_main_v18, h7_main_v21, h7_main_v24, h7_main_v27, h7_main_v50, h7_main_v52, h7_main_v54, h7_main_v55⟩ := cut7 (F := F) (V := (StableHlo.after (kops5 : List (HloOp τ sig (Elt F))) (StableHlo.after (kops4 : List (HloOp τ sig (Elt F))) (StableHlo.after (kops3 : List (HloOp τ sig (Elt F))) (StableHlo.after (kops2 : List (HloOp τ sig (Elt F))) (StableHlo.after (kops1 : List (HloOp τ sig (Elt F))) (StableHlo.after (kops0 : List (HloOp τ sig (Elt F))) W))))))) h6_main_arg0 h6_main_v2 h6_main_v4 h6_main_v7 h6_main_v9 h6_main_v11 h6_main_v13 h6_main_v15 h6_main_v18 h6_main_v21 h6_main_v24 h6_main_v27 h6_main_v45 h6_main_v46 h6_main_v47 h6_main_v48
  obtain ⟨h8_main_arg0, h8_main_v2, h8_main_v4, h8_main_v7, h8_main_v9, h8_main_v11, h8_main_v13, h8_main_v15, h8_main_v18, h8_main_v21, h8_main_v24, h8_main_v27, h8_main_v50, h8_main_v57, h8_main_v62, h8_main_c_13⟩ := cut8 (F := F) (V := (StableHlo.after (kops6 : List (HloOp τ sig (Elt F))) (StableHlo.after (kops5 : List (HloOp τ sig (Elt F))) (StableHlo.after (kops4 : List (HloOp τ sig (Elt F))) (StableHlo.after (kops3 : List (HloOp τ sig (Elt F))) (StableHlo.after (kops2 : List (HloOp τ sig (Elt F))) (StableHlo.after (kops1 : List (HloOp τ sig (Elt F))) (StableHlo.after (kops0 : List (HloOp τ sig (Elt F))) W)))))))) h7_main_arg0 h7_main_v2 h7_main_v4 h7_main_v7 h7_main_v9 h7_main_v11 h7_main_v13 h7_main_v15 h7_main_v18 h7_main_v21 h7_main_v24 h7_main_v27 h7_main_v50 h7_main_v52 h7_main_v54 h7_main_v55
  obtain ⟨h9_main_arg0, h9_main_v2, h9_main_v4, h9_main_v7, h9_main_v9, h9_main_v11, h9_main_v13, h9_main_v15, h9_main_v18, h9_main_v21, h9_main_v24, h9_main_v27, h9_main_v50, h9_main_v57, h9_main_v62, h9_main_v67, h9_main_v69, h9_main_c_16⟩ := cut9 (F := F) (V := (StableHlo.after (kops7 : List (HloOp τ sig (Elt F))) (StableHlo.after (kops6 : List (HloOp τ sig (Elt F))) (StableHlo.after (kops5 : List (HloOp τ sig (Elt F))) (StableHlo.after (kops4 : List (HloOp τ sig (Elt F))) (StableHlo.after (kops3 : List (HloOp τ sig (Elt F))) (StableHlo.after (kops2 : List (HloOp τ sig (Elt F))) (StableHlo.after (kops1 : List (HloOp τ sig (Elt F))) (StableHlo.after (kops0 : List (HloOp τ sig (Elt F))) W))))))))) h8_main_arg0 h8_main_v2 h8_main_v4 h8_main_v7 h8_main_v9 h8_main_v11 h8_main_v13 h8_main_v15 h8_main_v18 h8_main_v21 h8_main_v24 h8_main_v27 h8_main_v50 h8_main_v57 h8_main_v62 h8_main_c_13
  obtain ⟨h10_main_arg0, h10_main_v2, h10_main_v4, h10_main_v7, h10_main_v9, h10_main_v11, h10_main_v13, h10_main_v15, h10_main_v18, h10_main_v21, h10_main_v24, h10_main_v27, h10_main_v50, h10_main_v73, h10_main_v74, h10_main_v75, h10_main_v76⟩ := cut10 (F := F) (V := (StableHlo.after (kops8 : List (HloOp τ sig (Elt F))) (StableHlo.after (kops7 : List (HloOp τ sig (Elt F))) (StableHlo.after (kops6 : List (HloOp τ sig (Elt F))) (StableHlo.after (kops5 : List (HloOp τ sig (Elt F))) (StableHlo.after (kops4 : List (HloOp τ sig (Elt F))) (StableHlo.after (kops3 : List (HloOp τ sig (Elt F))) (StableHlo.after (kops2 : List (HloOp τ sig (Elt F))) (StableHlo.after (kops1 : List (HloOp τ sig (Elt F))) (StableHlo.after (kops0 : List (HloOp τ sig (Elt F))) W)))))))))) h9_main_arg0 h9_main_v2 h9_main_v4 h9_main_v7 h9_main_v9 h9_main_v11 h9_main_v13 h9_main_v15 h9_main_v18 h9_main_v21 h9_main_v24 h9_main_v27 h9_main_v50 h9_main_v57 h9_main_v62 h9_main_v67 h9_main_v69 h9_main_c_16
  obtain ⟨h11_main_arg0, h11_main_v2, h11_main_v4, h11_main_v7, h11_main_v9, h11_main_v11, h11_main_v13, h11_main_v15, h11_main_v18, h11_main_v21, h11_main_v24, h11_main_v27, h11_main_v50, h11_main_v78, h11_main_v83, h11_main_c_19⟩ := cut11 (F := F) (V := (StableHlo.after (kops9 : List (HloOp τ sig (Elt F))) (StableHlo.after (kops8 : List (HloOp τ sig (Elt F))) (StableHlo.after (kops7 : List (HloOp τ sig (Elt F))) (StableHlo.after (kops6 : List (HloOp τ sig (Elt F))) (StableHlo.after (kops5 : List (HloOp τ sig (Elt F))) (StableHlo.after (kops4 : List (HloOp τ sig (Elt F))) (StableHlo.after (kops3 : List (HloOp τ sig (Elt F))) (StableHlo.after (kops2 : List (HloOp τ sig (Elt F))) (StableHlo.after (kops1 : List (HloOp τ sig (Elt F))) (StableHlo.after (kops0 : List (HloOp τ sig (Elt F))) W))))))))))) h10_main_arg0 h10_main_v2 h10_main_v4 h10_main_v7 h10_main_v9 h10_main_v11 h10_main_v13 h10_main_v15 h10_main_v18 h10_main_v21 h10_main_v24 h10_main_v27 h10_main_v50 h10_main_v73 h10_main_v74 h10_main_v75 h10_main_v76
  obtain ⟨h12_main_arg0, h12_main_v2, h12_main_v4, h12_main_v7, h12_main_v9, h12_main_v11, h12_main_v13, h12_main_v15, h12_main_v18, h12_main_v21, h12_main_v24, h12_main_v27, h12_main_v50, h12_main_v78, h12_main_v83, h12_main_v88, h12_main_v90, h12_main_c_22⟩ := cut12 (F := F) (V := (StableHlo.after (kops10 : List (HloOp τ sig (Elt F))) (StableHlo.after (kops9 : List (HloOp τ sig (Elt F))) (StableHlo.after (kops8 : List (HloOp τ sig (Elt F))) (StableHlo.after (kops7 : List (HloOp τ sig (Elt F))) (StableHlo.after (kops6 : List (HloOp τ sig (Elt F))) (StableHlo.after (kops5 : List (HloOp τ sig (Elt F))) (StableHlo.after (kops4 : List (HloOp τ sig (Elt F))) (StableHlo.after (kops3 : List (HloOp τ sig (Elt F))) (StableHlo.after (kops2 : List (HloOp τ sig (Elt F))) (StableHlo.after (kops1 : List (HloOp τ sig (Elt F))) (StableHlo.after (kops0 : List (HloOp τ sig (Elt F))) W)))))))))))) h11_main_arg0 h11_main_v2 h11_main_v4 h11_main_v7 h11_main_v9 h11_main_v11 h11_main_v13 h11_main_v15 h11_main_v18 h11_main_v21 h11_main_v24 h11_main_v27 h11_main_v50 h11_main_v78 h11_main_v83 h11_main_c_19
  obtain ⟨h13_main_arg0, h13_main_v2, h13_main_v4, h13_main_v7, h13_main_v9, h13_main_v11, h13_main_v13, h13_main_v15, h13_main_v18, h13_main_v21, h13_main_v24, h13_main_v27, h13_main_v50, h13_main_v78, h13_main_v96, h13_main_v97, h13_main_v98, h13_main_v99⟩ := cut13 (F := F) (V := (StableHlo.after (kops11 : List (HloOp τ sig (Elt F))) (StableHlo.after (kops10 : List (HloOp τ sig (Elt F))) (StableHlo.after (kops9 : List (HloOp τ sig (Elt F))) (StableHlo.after (kops8 : List (HloOp τ sig (Elt F))) (StableHlo.after (kops7 : List (HloOp τ sig (Elt F))) (StableHlo.after (kops6 : List (HloOp τ sig (Elt F))) (StableHlo.after (kops5 : List (HloOp τ sig (Elt F))) (StableHlo.after (kops4 : List (HloOp τ sig (Elt F))) (StableHlo.after (kops3 : List (HloOp τ sig (Elt F))) (StableHlo.after (kops2 : List (HloOp τ sig (Elt F))) (StableHlo.after (kops1 : List (HloOp τ sig (Elt F))) (StableHlo.after (kops0 : List (HloOp τ sig (Elt F))) W))))))))))))) h12_main_arg0 h12_main_v2 h12_main_v4 h12_main_v7 h12_main_v9 h12_main_v11 h12_main_v13 h12_main_v15 h12_main_v18 h12_main_v21 h12_main_v24 h12_main_v27 h12_main_v50 h12_main_v78 h12_main_v83 h12_main_v88 h12_main_v90 h12_main_c_22
  obtain ⟨h14_main_arg0, h14_main_v2, h14_main_v4, h14_main_v7, h14_main_v9, h14_main_v11, h14_main_v13, h14_main_v15, h14_main_v18, h14_main_v21, h14_main_v24, h14_main_v27, h14_main_v50, h14_main_v78, h14_main_v101, h14_main_v106, h14_main_c_26⟩ := cut14 (F := F) (V := (StableHlo.after (kops12 : List (HloOp τ sig (Elt F))) (StableHlo.after (kops11 : List (HloOp τ sig (Elt F))) (StableHlo.after (kops10 : List (HloOp τ sig (Elt F))) (StableHlo.after (kops9 : List (HloOp τ sig (Elt F))) (StableHlo.after (kops8 : List (HloOp τ sig (Elt F))) (StableHlo.after (kops7 : List (HloOp τ sig (Elt F))) (StableHlo.after (kops6 : List (HloOp τ sig (Elt F))) (StableHlo.after (kops5 : List (HloOp τ sig (Elt F))) (StableHlo.after (kops4 : List (HloOp τ sig (Elt F))) (StableHlo.after (kops3 : List (HloOp τ sig (Elt F))) (StableHlo.after (kops2 : List (HloOp τ sig (Elt F))) (StableHlo.after (kops1 : List (HloOp τ sig (Elt F))) (StableHlo.after (kops0 : List (HloOp τ sig (Elt F))) W)))))))))))))) h13_main_arg0 h13_main_v2 h13_main_v4 h13_main_v7 h13_main_v9 h13_main_v11 h13_main_v13 h13_main_v15 h13_main_v18 h13_main_v21 h13_main_v24 h13_main_v27 h13_main_v50 h13_main_v78 h13_main_v96 h13_main_v97 h13_main_v98 h13_main_v99
  obtain ⟨h15_main_arg0, h15_main_v2, h15_main_v4, h15_main_v7, h15_main_v9, h15_main_v11, h15_main_v13, h15_main_v15, h15_main_v18, h15_main_v21, h15_main_v24, h15_main_v27, h15_main_v50, h15_main_v78, h15_main_v101, h15_main_v106, h15_main_v111, h15_main_v113, h15_main_c_29⟩ := cut15 (F := F) (V := (StableHlo.after (kops13 : List (HloOp τ sig (Elt F))) (StableHlo.after (kops12 : List (HloOp τ sig (Elt F))) (StableHlo.after (kops11 : List (HloOp τ sig (Elt F))) (StableHlo.after (kops10 : List (HloOp τ sig (Elt F))) (StableHlo.after (kops9 : List (HloOp τ sig (Elt F))) (StableHlo.after (kops8 : List (HloOp τ sig (Elt F))) (StableHlo.after (kops7 : List (HloOp τ sig (Elt F))) (StableHlo.after (kops6 : List (HloOp τ sig (Elt F))) (StableHlo.after (kops5 : List (HloOp τ sig (Elt F))) (StableHlo.after (kops4 : List (HloOp τ sig (Elt F))) (StableHlo.after (kops3 : List (HloOp τ sig (Elt F))) (StableHlo.after (kops2 : List (HloOp τ sig (Elt F))) (StableHlo.after (kops1 : List (HloOp τ sig (Elt F))) (StableHlo.after (kops0 : List (HloOp τ sig (Elt F))) W))))))))))))))) h14_main_arg0 h14_main_v2 h14_main_v4 h14_main_v7 h14_main_v9 h14_main_v11 h14_main_v13 h14_main_v15 h14_main_v18 h14_main_v21 h14_main_v24 h14_main_v27 h14_main_v50 h14_main_v78 h14_main_v101 h14_main_v106 h14_main_c_26
  obtain ⟨h16_main_arg0, h16_main_v2, h16_main_v4, h16_main_v7, h16_main_v9, h16_main_v11, h16_main_v13, h16_main_v15, h16_main_v18, h16_main_v21, h16_main_v24, h16_main_v27, h16_main_v50, h16_main_v78, h16_main_v101, h16_main_v119, h16_main_v120, h16_main_v121, h16_main_v122⟩ := cut16 (F := F) (V := (StableHlo.after (kops14 : List (HloOp τ sig (Elt F))) (StableHlo.after (kops13 : List (HloOp τ sig (Elt F))) (StableHlo.after (kops12 : List (HloOp τ sig (Elt F))) (StableHlo.after (kops11 : List (HloOp τ sig (Elt F))) (StableHlo.after (kops10 : List (HloOp τ sig (Elt F))) (StableHlo.after (kops9 : List (HloOp τ sig (Elt F))) (StableHlo.after (kops8 : List (HloOp τ sig (Elt F))) (StableHlo.after (kops7 : List (HloOp τ sig (Elt F))) (StableHlo.after (kops6 : List (HloOp τ sig (Elt F))) (StableHlo.after (kops5 : List (HloOp τ sig (Elt F))) (StableHlo.after (kops4 : List (HloOp τ sig (Elt F))) (StableHlo.after (kops3 : List (HloOp τ sig (Elt F))) (StableHlo.after (kops2 : List (HloOp τ sig (Elt F))) (StableHlo.after (kops1 : List (HloOp τ sig (Elt F))) (StableHlo.after (kops0 : List (HloOp τ sig (Elt F))) W)))))))))))))))) h15_main_arg0 h15_main_v2 h15_main_v4 h15_main_v7 h15_main_v9 h15_main_v11 h15_main_v13 h15_main_v15 h15_main_v18 h15_main_v21 h15_main_v24 h15_main_v27 h15_main_v50 h15_main_v78 h15_main_v101 h15_main_v106 h15_main_v111 h15_main_v113 h15_main_c_29
  obtain ⟨h17_main_arg0, h17_main_v2, h17_main_v4, h17_main_v7, h17_main_v9, h17_main_v11, h17_main_v13, h17_main_v15, h17_main_v18, h17_main_v21, h17_main_v24, h17_main_v27, h17_main_v50, h17_main_v78, h17_main_v101, h17_main_v124, h17_main_v129, h17_main_c_33⟩ := cut17 (F := F) (V := (StableHlo.after (kops15 : List (HloOp τ sig (Elt F))) (StableHlo.after (kops14 : List (HloOp τ sig (Elt F))) (StableHlo.after (kops13 : List (HloOp τ sig (Elt F))) (StableHlo.after (kops12 : List (HloOp τ sig (Elt F))) (StableHlo.after (kops11 : List (HloOp τ sig (Elt F))) (StableHlo.after (kops10 : List (HloOp τ sig (Elt F))) (StableHlo.after (kops9 : List (HloOp τ sig (Elt F))) (StableHlo.after (kops8 : List (HloOp τ sig (Elt F))) (StableHlo.after (kops7 : List (HloOp τ sig (Elt F))) (StableHlo.after (kops6 : List (HloOp τ sig (Elt F))) (StableHlo.after (kops5 : List (HloOp τ sig (Elt F))) (StableHlo.after (kops4 : List (HloOp τ sig (Elt F))) (StableHlo.after (kops3 : List (HloOp τ sig (Elt F))) (StableHlo.after (kops2 : List (HloOp τ sig (Elt F))) (StableHlo.after (kops1 : List (HloOp τ sig (Elt F))) (StableHlo.after (kops0 : List (HloOp τ sig (Elt F))) W))))))))))))))))) h16_main_arg0 h16_main_v2 h16_main_v4 h16_main_v7 h16_main_v9 h16_main_v11 h16_main_v13 h16_main_v15 h16_main_v18 h16_main_v21 h16_main_v24 h16_main_v27 h16_main_v50 h16_main_v78 h16_main_v101 h16_main_v119 h16_main_v120 h16_main_v121 h16_main_v122
  obtain ⟨h18_main_arg0, h18_main_v2, h18_main_v4, h18_main_v7, h18_main_v9, h18_main_v11, h18_main_v13, h18_main_v15, h18_main_v18, h18_main_v21, h18_main_v24, h18_main_v27, h18_main_v50, h18_main_v78, h18_main_v101, h18_main_v124, h18_main_v129, h18_main_v134, h18_main_v136, h18_main_c_36⟩ := cut18 (F := F) (V := (StableHlo.after (kops16 : List (HloOp τ sig (Elt F))) (StableHlo.after (kops15 : List (HloOp τ sig (Elt F))) (StableHlo.after (kops14 : List (HloOp τ sig (Elt F))) (StableHlo.after (kops13 : List (HloOp τ sig (Elt F))) (StableHlo.after (kops12 : List (HloOp τ sig (Elt F))) (StableHlo.after (kops11 : List (HloOp τ sig (Elt F))) (StableHlo.after (kops10 : List (HloOp τ sig (Elt F))) (StableHlo.after (kops9 : List (HloOp τ sig (Elt F))) (StableHlo.after (kops8 : List (HloOp τ sig (Elt F))) (StableHlo.after (kops7 : List (HloOp τ sig (Elt F))) (StableHlo.after (kops6 : List (HloOp τ sig (Elt F))) (StableHlo.after (kops5 : List (HloOp τ sig (Elt F))) (StableHlo.after (kops4 : List (HloOp τ sig (Elt F))) (StableHlo.after (kops3 : List (HloOp τ sig (Elt F))) (StableHlo.after (kops2 : List (HloOp τ sig (Elt F))) (StableHlo.after (kops1 : List (HloOp τ sig (Elt F))) (StableHlo.after (kops0 : List (HloOp τ sig (Elt F))) W)))))))))))))))))) h17_main_arg0 h17_main_v2 h17_main_v4 h17_main_v7 h17_main_v9 h17_main_v11 h17_main_v13 h17_main_v15 h17_main_v18 h17_main_v21 h17_main_v24 h17_main_v27 h17_main_v50 h17_main_v78 h17_main_v101 h17_main_v124 h17_main_v129 h17_main_c_33
  obtain ⟨h19_main_arg0, h19_main_v2, h19_main_v4, h19_main_v7, h19_main_v9, h19_main_v11, h19_main_v13, h19_main_v15, h19_main_v18, h19_main_v21, h19_main_v24, h19_main_v27, h19_main_v50, h19_main_v78, h19_main_v101, h19_main_v124, h19_main_v142, h19_main_v143, h19_main_v144, h19_main_v145⟩ := cut19 (F := F) (V := (StableHlo.after (kops17 : List (HloOp τ sig (Elt F))) (StableHlo.after (kops16 : List (HloOp τ sig (Elt F))) (StableHlo.after (kops15 : List (HloOp τ sig (Elt F))) (StableHlo.after (kops14 : List (HloOp τ sig (Elt F))) (StableHlo.after (kops13 : List (HloOp τ sig (Elt F))) (StableHlo.after (kops12 : List (HloOp τ sig (Elt F))) (StableHlo.after (kops11 : List (HloOp τ sig (Elt F))) (StableHlo.after (kops10 : List (HloOp τ sig (Elt F))) (StableHlo.after (kops9 : List (HloOp τ sig (Elt F))) (StableHlo.after (kops8 : List (HloOp τ sig (Elt F))) (StableHlo.after (kops7 : List (HloOp τ sig (Elt F))) (StableHlo.after (kops6 : List (HloOp τ sig (Elt F))) (StableHlo.after (kops5 : List (HloOp τ sig (Elt F))) (StableHlo.after (kops4 : List (HloOp τ sig (Elt F))) (StableHlo.after (kops3 : List (HloOp τ sig (Elt F))) (StableHlo.after (kops2 : List (HloOp τ sig (Elt F))) (StableHlo.after (kops1 : List (HloOp τ sig (Elt F))) (StableHlo.after (kops0 : List (HloOp τ sig (Elt F))) W))))))))))))))))))) h18_main_arg0 h18_main_v2 h18_main_v4 h18_main_v7 h18_main_v9 h18_main_v11 h18_main_v13 h18_main_v15 h18_main_v18 h18_main_v21 h18_main_v24 h18_main_v27 h18_main_v50 h18_main_v78 h18_main_v101 h18_main_v124 h18_main_v129 h18_main_v134 h18_main_v136 h18_main_c_36
  obtain ⟨h20_main_arg0, h20_main_v2, h20_main_v4, h20_main_v7, h20_main_v9, h20_main_v11, h20_main_v13, h20_main_v15, h20_main_v18, h20_main_v21, h20_main_v24, h20_main_v50, h20_main_v78, h20_main_v101, h20_main_v124, h20_main_v147, h20_main_v152, h20_main_c_40⟩ := cut20 (F := F) (V := (StableHlo.after (kops18 : List (HloOp τ sig (Elt F))) (StableHlo.after (kops17 : List (HloOp τ sig (Elt F))) (StableHlo.after (kops16 : List (HloOp τ sig (Elt F))) (StableHlo.after (kops15 : List (HloOp τ sig (Elt F))) (StableHlo.after (kops14 : List (HloOp τ sig (Elt F))) (StableHlo.after (kops13 : List (HloOp τ sig (Elt F))) (StableHlo.after (kops12 : List (HloOp τ sig (Elt F))) (StableHlo.after (kops11 : List (HloOp τ sig (Elt F))) (StableHlo.after (kops10 : List (HloOp τ sig (Elt F))) (StableHlo.after (kops9 : List (HloOp τ sig (Elt F))) (StableHlo.after (kops8 : List (HloOp τ sig (Elt F))) (StableHlo.after (kops7 : List (HloOp τ sig (Elt F))) (StableHlo.after (kops6 : List (HloOp τ sig (Elt F))) (StableHlo.after (kops5 : List (HloOp τ sig (Elt F))) (StableHlo.after (kops4 : List (HloOp τ sig (Elt F))) (StableHlo.after (kops3 : List (HloOp τ sig (Elt F))) (StableHlo.after (kops2 : List (HloOp τ sig (Elt F))) (StableHlo.after (kops1 : List (HloOp τ sig (Elt F))) (StableHlo.after (kops0 : List (HloOp τ sig (Elt F))) W)))))))))))))))))))) h19_main_arg0 h19_main_v2 h19_main_v4 h19_main_v7 h19_main_v9 h19_main_v11 h19_main_v13 h19_main_v15 h19_main_v18 h19_main_v21 h19_main_v24 h19_main_v27 h19_main_v50 h19_main_v78 h19_main_v101 h19_main_v124 h19_main_v142 h19_main_v143 h19_main_v144 h19_main_v145
  obtain ⟨h21_main_arg0, h21_main_v2, h21_main_v4, h21_main_v7, h21_main_v9, h21_main_v11, h21_main_v13, h21_main_v15, h21_main_v18, h21_main_v24, h21_main_v50, h21_main_v78, h21_main_v101, h21_main_v124, h21_main_v147, h21_main_v152, h21_main_v157, h21_main_v159, h21_main_c_43⟩ := cut21 (F := F) (V := (StableHlo.after (kops19 : List (HloOp τ sig (Elt F))) (StableHlo.after (kops18 : List (HloOp τ sig (Elt F))) (StableHlo.after (kops17 : List (HloOp τ sig (Elt F))) (StableHlo.after (kops16 : List (HloOp τ sig (Elt F))) (StableHlo.after (kops15 : List (HloOp τ sig (Elt F))) (StableHlo.after (kops14 : List (HloOp τ sig (Elt F))) (StableHlo.after (kops13 : List (HloOp τ sig (Elt F))) (StableHlo.after (kops12 : List (HloOp τ sig (Elt F))) (StableHlo.after (kops11 : List (HloOp τ sig (Elt F))) (StableHlo.after (kops10 : List (HloOp τ sig (Elt F))) (StableHlo.after (kops9 : List (HloOp τ sig (Elt F))) (StableHlo.after (kops8 : List (HloOp τ sig (Elt F))) (StableHlo.after (kops7 : List (HloOp τ sig (Elt F))) (StableHlo.after (kops6 : List (HloOp τ sig (Elt F))) (StableHlo.after (kops5 : List (HloOp τ sig (Elt F))) (StableHlo.after (kops4 : List (HloOp τ sig (Elt F))) (StableHlo.after (kops3 : List (HloOp τ sig (Elt F))) (StableHlo.after (kops2 : List (HloOp τ sig (Elt F))) (StableHlo.after (kops1 : List (HloOp τ sig (Elt F))) (StableHlo.after (kops0 : List (HloOp τ sig (Elt F))) W))))))))))))))))))))) h20_main_arg0 h20_main_v2 h20_main_v4 h20_main_v7 h20_main_v9 h20_main_v11 h20_main_v13 h20_main_v15 h20_main_v18 h20_main_v21 h20_main_v24 h20_main_v50 h20_main_v78 h20_main_v101 h20_main_v124 h20_main_v147 h20_main_v152 h20_main_c_40
  obtain ⟨h22_main_arg0, h22_main_v2, h22_main_v4, h22_main_v7, h22_main_v9, h22_main_v11, h22_main_v13, h22_main_v15, h22_main_v24, h22_main_v50, h22_main_v78, h22_main_v101, h22_main_v124, h22_main_v147, h22_main_v165, h22_main_v166, h22_main_v167, h22_main_v168⟩ := cut22 (F := F) (V := (StableHlo.after (kops20 : List (HloOp τ sig (Elt F))) (StableHlo.after (kops19 : List (HloOp τ sig (Elt F))) (StableHlo.after (kops18 : List (HloOp τ sig (Elt F))) (StableHlo.after (kops17 : List (HloOp τ sig (Elt F))) (StableHlo.after (kops16 : List (HloOp τ sig (Elt F))) (StableHlo.after (kops15 : List (HloOp τ sig (Elt F))) (StableHlo.after (kops14 : List (HloOp τ sig (Elt F))) (StableHlo.after (kops13 : List (HloOp τ sig (Elt F))) (StableHlo.after (kops12 : List (HloOp τ sig (Elt F))) (StableHlo.after (kops11 : List (HloOp τ sig (Elt F))) (StableHlo.after (kops10 : List (HloOp τ sig (Elt F))) (StableHlo.after (kops9 : List (HloOp τ sig (Elt F))) (StableHlo.after (kops8 : List (HloOp τ sig (Elt F))) (StableHlo.after (kops7 : List (HloOp τ sig (Elt F))) (StableHlo.after (kops6 : List (HloOp τ sig (Elt F))) (StableHlo.after (kops5 : List (HloOp τ sig (Elt F))) (StableHlo.after (kops4 : List (HloOp τ sig (Elt F))) (StableHlo.after (kops3 : List (HloOp τ sig (Elt F))) (StableHlo.after (kops2 : List (HloOp τ sig (Elt F))) (StableHlo.after (kops1 : List (HloOp τ sig (Elt F))) (StableHlo.after (kops0 : List (HloOp τ sig (Elt F))) W)))))))))))))))))))))) h21_main_arg0 h21_main_v2 h21_main_v4 h21_main_v7 h21_main_v9 h21_main_v11 h21_main_v13 h21_main_v15 h21_main_v18 h21_main_v24 h21_main_v50 h21_main_v78 h21_main_v101 h21_main_v124 h21_main_v147 h21_main_v152 h21_main_v157 h21_main_v159 h21_main_c_43
  obtain ⟨h23_main_v2, h23_main_v4, h23_main_v7, h23_main_v9, h23_main_v11, h23_main_v13, h23_main_v15, h23_main_v24, h23_main_v50, h23_main_v78, h23_main_v101, h23_main_v124, h23_main_v147, h23_main_v170, h23_main_v177, h23_main_v178⟩ := cut23 (F := F) (V := (StableHlo.after (kops21 : List (HloOp τ sig (Elt F))) (StableHlo.after (kops20 : List (HloOp τ sig (Elt F))) (StableHlo.after (kops19 : List (HloOp τ sig (Elt F))) (StableHlo.after (kops18 : List (HloOp τ sig (Elt F))) (StableHlo.after (kops17 : List (HloOp τ sig (Elt F))) (StableHlo.after (kops16 : List (HloOp τ sig (Elt F))) (StableHlo.after (kops15 : List (HloOp τ sig (Elt F))) (StableHlo.after (kops14 : List (HloOp τ sig (Elt F))) (StableHlo.after (kops13 : List (HloOp τ sig (Elt F))) (StableHlo.after (kops12 : List (HloOp τ sig (Elt F))) (StableHlo.after (kops11 : List (HloOp τ sig (Elt F))) (StableHlo.after (kops10 : List (HloOp τ sig (Elt F))) (StableHlo.after (kops9 : List (HloOp τ sig (Elt F))) (StableHlo.after (kops8 : List (HloOp τ sig (Elt F))) (StableHlo.after (kops7 : List (HloOp τ sig (Elt F))) (StableHlo.after (kops6 : List (HloOp τ sig (Elt F))) (StableHlo.after (kops5 : List (HloOp τ sig (Elt F))) (StableHlo.after (kops4 : List (HloOp τ sig (Elt F))) (StableHlo.after (kops3 : List (HloOp τ sig (Elt F))) (StableHlo.after (kops2 : List (HloOp τ sig (Elt F))) (StableHlo.after (kops1 : List (HloOp τ sig (Elt F))) (StableHlo.after (kops0 : List (HloOp τ sig (Elt F))) W))))))))))))))))))))))) h22_main_arg0 h22_main_v2 h22_main_v4 h22_main_v7 h22_main_v9 h22_main_v11 h22_main_v13 h22_main_v15 h22_main_v24 h22_main_v50 h22_main_v78 h22_main_v101 h22_main_v124 h22_main_v147 h22_main_v165 h22_main_v166 h22_main_v167 h22_main_v168
  obtain ⟨h24_main_v2, h24_main_v4, h24_main_v7, h24_main_v9, h24_main_v11, h24_main_v13, h24_main_v15, h24_main_v50, h24_main_v78, h24_main_v101, h24_main_v124, h24_main_v147, h24_main_v170, h24_main_v177, h24_main_v182, h24_main_v185, h24_main_c_46, h24_main_call0_v0⟩ := cut24 (F := F) (V := (StableHlo.after (kops22 : List (HloOp τ sig (Elt F))) (StableHlo.after (kops21 : List (HloOp τ sig (Elt F))) (StableHlo.after (kops20 : List (HloOp τ sig (Elt F))) (StableHlo.after (kops19 : List (HloOp τ sig (Elt F))) (StableHlo.after (kops18 : List (HloOp τ sig (Elt F))) (StableHlo.after (kops17 : List (HloOp τ sig (Elt F))) (StableHlo.after (kops16 : List (HloOp τ sig (Elt F))) (StableHlo.after (kops15 : List (HloOp τ sig (Elt F))) (StableHlo.after (kops14 : List (HloOp τ sig (Elt F))) (StableHlo.after (kops13 : List (HloOp τ sig (Elt F))) (StableHlo.after (kops12 : List (HloOp τ sig (Elt F))) (StableHlo.after (kops11 : List (HloOp τ sig (Elt F))) (StableHlo.after (kops10 : List (HloOp τ sig (Elt F))) (StableHlo.after (kops9 : List (HloOp τ sig (Elt F))) (StableHlo.after (kops8 : List (HloOp τ sig (Elt F))) (StableHlo.after (kops7 : List (HloOp τ sig (Elt F))) (StableHlo.after (kops6 : List (HloOp τ sig (Elt F))) (StableHlo.after (kops5 : List (HloOp τ sig (Elt F))) (StableHlo.after (kops4 : List (HloOp τ sig (Elt F))) (StableHlo.after (kops3 : List (HloOp τ sig (Elt F))) (StableHlo.after (kops2 : List (HloOp τ sig (Elt F))) (StableHlo.after (kops1 : List (HloOp τ sig (Elt F))) (StableHlo.after (kops0 : List (HloOp τ sig (Elt F))) W)))))))))))))))))))))))) h23_main_v2 h23_main_v4 h23_main_v7 h23_main_v9 h23_main_v11 h23_main_v13 h23_main_v15 h23_main_v24 h23_main_v50 h23_main_v78 h23_main_v101 h23_main_v124 h23_main_v147 h23_main_v170 h23_main_v177 h23_main_v178
  obtain ⟨h25_main_v2, h25_main_v4, h25_main_v7, h25_main_v9, h25_main_v11, h25_main_v13, h25_main_v15, h25_main_v50, h25_main_v78, h25_main_v101, h25_main_v124, h25_main_v147, h25_main_v170, h25_main_v177, h25_main_v182, h25_main_v191, h25_main_v192⟩ := cut25 (F := F) (V := (StableHlo.after (kops23 : List (HloOp τ sig (Elt F))) (StableHlo.after (kops22 : List (HloOp τ sig (Elt F))) (StableHlo.after (kops21 : List (HloOp τ sig (Elt F))) (StableHlo.after (kops20 : List (HloOp τ sig (Elt F))) (StableHlo.after (kops19 : List (HloOp τ sig (Elt F))) (StableHlo.after (kops18 : List (HloOp τ sig (Elt F))) (StableHlo.after (kops17 : List (HloOp τ sig (Elt F))) (StableHlo.after (kops16 : List (HloOp τ sig (Elt F))) (StableHlo.after (kops15 : List (HloOp τ sig (Elt F))) (StableHlo.after (kops14 : List (HloOp τ sig (Elt F))) (StableHlo.after (kops13 : List (HloOp τ sig (Elt F))) (StableHlo.after (kops12 : List (HloOp τ sig (Elt F))) (StableHlo.after (kops11 : List (HloOp τ sig (Elt F))) (StableHlo.after (kops10 : List (HloOp τ sig (Elt F))) (StableHlo.after (kops9 : List (HloOp τ sig (Elt F))) (StableHlo.after (kops8 : List (HloOp τ sig (Elt F))) (StableHlo.after (kops7 : List (HloOp τ sig (Elt F))) (StableHlo.after (kops6 : List (HloOp τ sig (Elt F))) (StableHlo.after (kops5 : List (HloOp τ sig (Elt F))) (StableHlo.after (kops4 : List (HloOp τ sig (Elt F))) (StableHlo.after (kops3 : List (HloOp τ sig (Elt F))) (StableHlo.after (kops2 : List (HloOp τ sig (Elt F))) (StableHlo.after (kops1 : List (HloOp τ sig (Elt F))) (StableHlo.after (kops0 : List (HloOp τ sig (Elt F))) W))))))))))))))))))))))))) h24_main_v2 h24_main_v4 h24_main_v7 h24_main_v9 h24_main_v11 h24_main_v13 h24_main_v15 h24_main_v50 h24_main_v78 h24_main_v101 h24_main_v124 h24_main_v147 h24_main_v170 h24_main_v177 h24_main_v182 h24_main_v185 h24_main_c_46 h24_main_call0_v0
  obtain ⟨h26_main_v2, h26_main_v4, h26_main_v9, h26_main_v11, h26_main_v13, h26_main_v15, h26_main_v50, h26_main_v78, h26_main_v101, h26_main_v124, h26_main_v147, h26_main_v170, h26_main_v191, h26_main_v200, h26_main_c_49, h26_main_c_50⟩ := cut26 (F := F) (V := (StableHlo.after (kops24 : List (HloOp τ sig (Elt F))) (StableHlo.after (kops23 : List (HloOp τ sig (Elt F))) (StableHlo.after (kops22 : List (HloOp τ sig (Elt F))) (StableHlo.after (kops21 : List (HloOp τ sig (Elt F))) (StableHlo.after (kops20 : List (HloOp τ sig (Elt F))) (StableHlo.after (kops19 : List (HloOp τ sig (Elt F))) (StableHlo.after (kops18 : List (HloOp τ sig (Elt F))) (StableHlo.after (kops17 : List (HloOp τ sig (Elt F))) (StableHlo.after (kops16 : List (HloOp τ sig (Elt F))) (StableHlo.after (kops15 : List (HloOp τ sig (Elt F))) (StableHlo.after (kops14 : List (HloOp τ sig (Elt F))) (StableHlo.after (kops13 : List (HloOp τ sig (Elt F))) (StableHlo.after (kops12 : List (HloOp τ sig (Elt F))) (StableHlo.after (kops11 : List (HloOp τ sig (Elt F))) (StableHlo.after (kops10 : List (HloOp τ sig (Elt F))) (StableHlo.after (kops9 : List (HloOp τ sig (Elt F))) (StableHlo.after (kops8 : List (HloOp τ sig (Elt F))) (StableHlo.after (kops7 : List (HloOp τ sig (Elt F))) (StableHlo.after (kops6 : List (HloOp τ sig (Elt F))) (StableHlo.after (kops5 : List (HloOp τ sig (Elt F))) (StableHlo.after (kops4 : List (HloOp τ sig (Elt F))) (StableHlo.after (kops3 : List (HloOp τ sig (Elt F))) (StableHlo.after (kops2 : List (HloOp τ sig (Elt F))) (StableHlo.after (kops1 : List (HloOp τ sig (Elt F))) (StableHlo.after (kops0 : List (HloOp τ sig (Elt F))) W)))))))))))))))))))))))))) h25_main_v2 h25_main_v4 h25_main_v7 h25_main_v9 h25_main_v11 h25_main_v13 h25_main_v15 h25_main_v50 h25_main_v78 h25_main_v101 h25_main_v124 h25_main_v147 h25_main_v170 h25_main_v177 h25_main_v182 h25_main_v191 h25_main_v192
  obtain ⟨h27_main_v2, h27_main_v4, h27_main_v9, h27_main_v11, h27_main_v13, h27_main_v15, h27_main_v50, h27_main_v78, h27_main_v101, h27_main_v124, h27_main_v147, h27_main_v170, h27_main_v191, h27_main_v206⟩ := cut27 (F := F) (V := (StableHlo.after (kops25 : List (HloOp τ sig (Elt F))) (StableHlo.after (kops24 : List (HloOp τ sig (Elt F))) (StableHlo.after (kops23 : List (HloOp τ sig (Elt F))) (StableHlo.after (kops22 : List (HloOp τ sig (Elt F))) (StableHlo.after (kops21 : List (HloOp τ sig (Elt F))) (StableHlo.after (kops20 : List (HloOp τ sig (Elt F))) (StableHlo.after (kops19 : List (HloOp τ sig (Elt F))) (StableHlo.after (kops18 : List (HloOp τ sig (Elt F))) (StableHlo.after (kops17 : List (HloOp τ sig (Elt F))) (StableHlo.after (kops16 : List (HloOp τ sig (Elt F))) (StableHlo.after (kops15 : List (HloOp τ sig (Elt F))) (StableHlo.after (kops14 : List (HloOp τ sig (Elt F))) (StableHlo.after (kops13 : List (HloOp τ sig (Elt F))) (StableHlo.after (kops12 : List (HloOp τ sig (Elt F))) (StableHlo.after (kops11 : List (HloOp τ sig (Elt F))) (StableHlo.after (kops10 : List (HloOp τ sig (Elt F))) (StableHlo.after (kops9 : List (HloOp τ sig (Elt F))) (StableHlo.after (kops8 : List (HloOp τ sig (Elt F))) (StableHlo.after (kops7 : List (HloOp τ sig (Elt F))) (StableHlo.after (kops6 : List (HloOp τ sig (Elt F))) (StableHlo.after (kops5 : List (HloOp τ sig (Elt F))) (StableHlo.after (kops4 : List (HloOp τ sig (Elt F))) (StableHlo.after (kops3 : List (HloOp τ sig (Elt F))) (StableHlo.after (kops2 : List (HloOp τ sig (Elt F))) (StableHlo.after (kops1 : List (HloOp τ sig (Elt F))) (StableHlo.after (kops0 : List (HloOp τ sig (Elt F))) W))))))))))))))))))))))))))) h26_main_v2 h26_main_v4 h26_main_v9 h26_main_v11 h26_main_v13 h26_main_v15 h26_main_v50 h26_main_v78 h26_main_v101 h26_main_v124 h26_main_v147 h26_main_v170 h26_main_v191 h26_main_v200 h26_main_c_49 h26_main_c_50
  obtain ⟨h28_main_v9, h28_main_v11, h28_main_v13, h28_main_v15, h28_main_v101, h28_main_v124, h28_main_v147, h28_main_v170, h28_main_v212, h28_main_v213⟩ := cut28 (F := F) (V := (StableHlo.after (kops26 : List (HloOp τ sig (Elt F))) (StableHlo.after (kops25 : List (HloOp τ sig (Elt F))) (StableHlo.after (kops24 : List (HloOp τ sig (Elt F))) (StableHlo.after (kops23 : List (HloOp τ sig (Elt F))) (StableHlo.after (kops22 : List (HloOp τ sig (Elt F))) (StableHlo.after (kops21 : List (HloOp τ sig (Elt F))) (StableHlo.after (kops20 : List (HloOp τ sig (Elt F))) (StableHlo.after (kops19 : List (HloOp τ sig (Elt F))) (StableHlo.after (kops18 : List (HloOp τ sig (Elt F))) (StableHlo.after (kops17 : List (HloOp τ sig (Elt F))) (StableHlo.after (kops16 : List (HloOp τ sig (Elt F))) (StableHlo.after (kops15 : List (HloOp τ sig (Elt F))) (StableHlo.after (kops14 : List (HloOp τ sig (Elt F))) (StableHlo.after (kops13 : List (HloOp τ sig (Elt F))) (StableHlo.after (kops12 : List (HloOp τ sig (Elt F))) (StableHlo.after (kops11 : List (HloOp τ sig (Elt F))) (StableHlo.after (kops10 : List (HloOp τ sig (Elt F))) (StableHlo.after (kops9 : List (HloOp τ sig (Elt F))) (StableHlo.after (kops8 : List (HloOp τ sig (Elt F))) (StableHlo.after (kops7 : List (HloOp τ sig (Elt F))) (StableHlo.after (kops6 : List (HloOp τ sig (Elt F))) (StableHlo.after (kops5 : List (HloOp τ sig (Elt F))) (StableHlo.after (kops4 : List (HloOp τ sig (Elt F))) (StableHlo.after (kops3 : List (HloOp τ sig (Elt F))) (StableHlo.after (kops2 : List (HloOp τ sig (Elt F))) (StableHlo.after (kops1 : List (HloOp τ sig (Elt F))) (StableHlo.after (kops0 : List (HloOp τ sig (Elt F))) W)))))))))))))))))))))))))))) h27_main_v2 h27_main_v4 h27_main_v9 h27_main_v11 h27_main_v13 h27_main_v15 h27_main_v50 h27_main_v78 h27_main_v101 h27_main_v124 h27_main_v147 h27_main_v170 h27_main_v191 h27_main_v206
  obtain ⟨h29_main_v9, h29_main_v11, h29_main_v13, h29_main_v15, h29_main_v101, h29_main_v124, h29_main_v147, h29_main_v170, h29_main_v212, h29_main_v214, h29_main_v217, h29_main_v220⟩ := cut29 (F := F) (V := (StableHlo.after (kops27 : List (HloOp τ sig (Elt F))) (StableHlo.after (kops26 : List (HloOp τ sig (Elt F))) (StableHlo.after (kops25 : List (HloOp τ sig (Elt F))) (StableHlo.after (kops24 : List (HloOp τ sig (Elt F))) (StableHlo.after (kops23 : List (HloOp τ sig (Elt F))) (StableHlo.after (kops22 : List (HloOp τ sig (Elt F))) (StableHlo.after (kops21 : List (HloOp τ sig (Elt F))) (StableHlo.after (kops20 : List (HloOp τ sig (Elt F))) (StableHlo.after (kops19 : List (HloOp τ sig (Elt F))) (StableHlo.after (kops18 : List (HloOp τ sig (Elt F))) (StableHlo.after (kops17 : List (HloOp τ sig (Elt F))) (StableHlo.after (kops16 : List (HloOp τ sig (Elt F))) (StableHlo.after (kops15 : List (HloOp τ sig (Elt F))) (StableHlo.after (kops14 : List (HloOp τ sig (Elt F))) (StableHlo.after (kops13 : List (HloOp τ sig (Elt F))) (StableHlo.after (kops12 : List (HloOp τ sig (Elt F))) (StableHlo.after (kops11 : List (HloOp τ sig (Elt F))) (StableHlo.after (kops10 : List (HloOp τ sig (Elt F))) (StableHlo.after (kops9 : List (HloOp τ sig (Elt F))) (StableHlo.after (kops8 : List (HloOp τ sig (Elt F))) (StableHlo.after (kops7 : List (HloOp τ sig (Elt F))) (StableHlo.after (kops6 : List (HloOp τ sig (Elt F))) (StableHlo.after (kops5 : List (HloOp τ sig (Elt F))) (StableHlo.after (kops4 : List (HloOp τ sig (Elt F))) (StableHlo.after (kops3 : List (HloOp τ sig (Elt F))) (StableHlo.after (kops2 : List (HloOp τ sig (Elt F))) (StableHlo.after (kops1 : List (HloOp τ sig (Elt F))) (StableHlo.after (kops0 : List (HloOp τ sig (Elt F))) W))))))))))))))))))))))))))))) h28_main_v9 h28_main_v11 h28_main_v13 h28_main_v15 h28_main_v101 h28_main_v124 h28_main_v147 h28_main_v170 h28_main_v212 h28_main_v213
  obtain ⟨h30_main_v9, h30_main_v11, h30_main_v13, h30_main_v15, h30_main_v212, h30_main_v214, h30_main_v223, h30_main_v226, h30_main_v227, h30_main_v228⟩ := cut30 (F := F) (V := (StableHlo.after (kops28 : List (HloOp τ sig (Elt F))) (StableHlo.after (kops27 : List (HloOp τ sig (Elt F))) (StableHlo.after (kops26 : List (HloOp τ sig (Elt F))) (StableHlo.after (kops25 : List (HloOp τ sig (Elt F))) (StableHlo.after (kops24 : List (HloOp τ sig (Elt F))) (StableHlo.after (kops23 : List (HloOp τ sig (Elt F))) (StableHlo.after (kops22 : List (HloOp τ sig (Elt F))) (StableHlo.after (kops21 : List (HloOp τ sig (Elt F))) (StableHlo.after (kops20 : List (HloOp τ sig (Elt F))) (StableHlo.after (kops19 : List (HloOp τ sig (Elt F))) (StableHlo.after (kops18 : List (HloOp τ sig (Elt F))) (StableHlo.after (kops17 : List (HloOp τ sig (Elt F))) (StableHlo.after (kops16 : List (HloOp τ sig (Elt F))) (StableHlo.after (kops15 : List (HloOp τ sig (Elt F))) (StableHlo.after (kops14 : List (HloOp τ sig (Elt F))) (StableHlo.after (kops13 : List (HloOp τ sig (Elt F))) (StableHlo.after (kops12 : List (HloOp τ sig (Elt F))) (StableHlo.after (kops11 : List (HloOp τ sig (Elt F))) (StableHlo.after (kops10 : List (HloOp τ sig (Elt F))) (StableHlo.after (kops9 : List (HloOp τ sig (Elt F))) (StableHlo.after (kops8 : List (HloOp τ sig (Elt F))) (StableHlo.after (kops7 : List (HloOp τ sig (Elt F))) (StableHlo.after (kops6 : List (HloOp τ sig (Elt F))) (StableHlo.after (kops5 : List (HloOp τ sig (Elt F))) (StableHlo.after (kops4 : List (HloOp τ sig (Elt F))) (StableHlo.after (kops3 : List (HloOp τ sig (Elt F))) (StableHlo.after (kops2 : List (HloOp τ sig (Elt F))) (StableHlo.after (kops1 : List (HloOp τ sig (Elt F))) (StableHlo.after (kops0 : List (HloOp τ sig (Elt F))) W)))))))))))))))))))))))))))))) h29_main_v9 h29_main_v11 h29_main_v13 h29_main_v15 h29_main_v101 h29_main_v124 h29_main_v147 h29_main_v170 h29_main_v212 h29_main_v214 h29_main_v217 h29_main_v220
  obtain ⟨h31_main_v9, h31_main_v11, h31_main_v13, h31_main_v15, h31_main_v212, h31_main_v214, h31_main_v227, h31_main_v228, h31_main_v229, h31_main_v230⟩ := cut31 (F := F) (V := (StableHlo.after (kops29 : List (HloOp τ sig (Elt F))) (StableHlo.after (kops28 : List (HloOp τ sig (Elt F))) (StableHlo.after (kops27 : List (HloOp τ sig (Elt F))) (StableHlo.after (kops26 : List (HloOp τ sig (Elt F))) (StableHlo.after (kops25 : List (HloOp τ sig (Elt F))) (StableHlo.after (kops24 : List (HloOp τ sig (Elt F))) (StableHlo.after (kops23 : List (HloOp τ sig (Elt F))) (StableHlo.after (kops22 : List (HloOp τ sig (Elt F))) (StableHlo.after (kops21 : List (HloOp τ sig (Elt F))) (StableHlo.after (kops20 : List (HloOp τ sig (Elt F))) (StableHlo.after (kops19 : List (HloOp τ sig (Elt F))) (StableHlo.after (kops18 : List (HloOp τ sig (Elt F))) (StableHlo.after (kops17 : List (HloOp τ sig (Elt F))) (StableHlo.after (kops16 : List (HloOp τ sig (Elt F))) (StableHlo.after (kops15 : List (HloOp τ sig (Elt F))) (StableHlo.after (kops14 : List (HloOp τ sig (Elt F))) (StableHlo.after (kops13 : List (HloOp τ sig (Elt F))) (StableHlo.after (kops12 : List (HloOp τ sig (Elt F))) (StableHlo.after (kops11 : List (HloOp τ sig (Elt F))) (StableHlo.after (kops10 : List (HloOp τ sig (Elt F))) (StableHlo.after (kops9 : List (HloOp τ sig (Elt F))) (StableHlo.after (kops8 : List (HloOp τ sig (Elt F))) (StableHlo.after (kops7 : List (HloOp τ sig (Elt F))) (StableHlo.after (kops6 : List (HloOp τ sig (Elt F))) (StableHlo.after (kops5 : List (HloOp τ sig (Elt F))) (StableHlo.after (kops4 : List (HloOp τ sig (Elt F))) (StableHlo.after (kops3 : List (HloOp τ sig (Elt F))) (StableHlo.after (kops2 : List (HloOp τ sig (Elt F))) (StableHlo.after (kops1 : List (HloOp τ sig (Elt F))) (StableHlo.after (kops0 : List (HloOp τ sig (Elt F))) W))))))))))))))))))))))))))))))) h30_main_v9 h30_main_v11 h30_main_v13 h30_main_v15 h30_main_v212 h30_main_v214 h30_main_v223 h30_main_v226 h30_main_v227 h30_main_v228
  obtain ⟨h32_main_v9, h32_main_v11, h32_main_v13, h32_main_v15, h32_main_v212, h32_main_v214, h32_main_v231, h32_main_v236, h32_main_v237⟩ := cut32 (F := F) (V := (StableHlo.after (kops30 : List (HloOp τ sig (Elt F))) (StableHlo.after (kops29 : List (HloOp τ sig (Elt F))) (StableHlo.after (kops28 : List (HloOp τ sig (Elt F))) (StableHlo.after (kops27 : List (HloOp τ sig (Elt F))) (StableHlo.after (kops26 : List (HloOp τ sig (Elt F))) (StableHlo.after (kops25 : List (HloOp τ sig (Elt F))) (StableHlo.after (kops24 : List (HloOp τ sig (Elt F))) (StableHlo.after (kops23 : List (HloOp τ sig (Elt F))) (StableHlo.after (kops22 : List (HloOp τ sig (Elt F))) (StableHlo.after (kops21 : List (HloOp τ sig (Elt F))) (StableHlo.after (kops20 : List (HloOp τ sig (Elt F))) (StableHlo.after (kops19 : List (HloOp τ sig (Elt F))) (StableHlo.after (kops18 : List (HloOp τ sig (Elt F))) (StableHlo.after (kops17 : List (HloOp τ sig (Elt F))) (StableHlo.after (kops16 : List (HloOp τ sig (Elt F))) (StableHlo.after (kops15 : List (HloOp τ sig (Elt F))) (StableHlo.after (kops14 : List (HloOp τ sig (Elt F))) (StableHlo.after (kops13 : List (HloOp τ sig (Elt F))) (StableHlo.after (kops12 : List (HloOp τ sig (Elt F))) (StableHlo.after (kops11 : List (HloOp τ sig (Elt F))) (StableHlo.after (kops10 : List (HloOp τ sig (Elt F))) (StableHlo.after (kops9 : List (HloOp τ sig (Elt F))) (StableHlo.after (kops8 : List (HloOp τ sig (Elt F))) (StableHlo.after (kops7 : List (HloOp τ sig (Elt F))) (StableHlo.after (kops6 : List (HloOp τ sig (Elt F))) (StableHlo.after (kops5 : List (HloOp τ sig (Elt F))) (StableHlo.after (kops4 : List (HloOp τ sig (Elt F))) (StableHlo.after (kops3 : List (HloOp τ sig (Elt F))) (StableHlo.after (kops2 : List (HloOp τ sig (Elt F))) (StableHlo.after (kops1 : List (HloOp τ sig (Elt F))) (StableHlo.after (kops0 : List (HloOp τ sig (Elt F))) W)))))))))))))))))))))))))))))))) h31_main_v9 h31_main_v11 h31_main_v13 h31_main_v15 h31_main_v212 h31_main_v214 h31_main_v227 h31_main_v228 h31_main_v229 h31_main_v230
  obtain ⟨h33_main_v11, h33_main_v15, h33_main_v212, h33_main_v214, h33_main_v231, h33_main_v236, h33_main_v241, h33_main_v244, h33_main_cst_66⟩ := cut33 (F := F) (V := (StableHlo.after (kops31 : List (HloOp τ sig (Elt F))) (StableHlo.after (kops30 : List (HloOp τ sig (Elt F))) (StableHlo.after (kops29 : List (HloOp τ sig (Elt F))) (StableHlo.after (kops28 : List (HloOp τ sig (Elt F))) (StableHlo.after (kops27 : List (HloOp τ sig (Elt F))) (StableHlo.after (kops26 : List (HloOp τ sig (Elt F))) (StableHlo.after (kops25 : List (HloOp τ sig (Elt F))) (StableHlo.after (kops24 : List (HloOp τ sig (Elt F))) (StableHlo.after (kops23 : List (HloOp τ sig (Elt F))) (StableHlo.after (kops22 : List (HloOp τ sig (Elt F))) (StableHlo.after (kops21 : List (HloOp τ sig (Elt F))) (StableHlo.after (kops20 : List (HloOp τ sig (Elt F))) (StableHlo.after (kops19 : List (HloOp τ sig (Elt F))) (StableHlo.after (kops18 : List (HloOp τ sig (Elt F))) (StableHlo.after (kops17 : List (HloOp τ sig (Elt F))) (StableHlo.after (kops16 : List (HloOp τ sig (Elt F))) (StableHlo.after (kops15 : List (HloOp τ sig (Elt F))) (StableHlo.after (kops14 : List (HloOp τ sig (Elt F))) (StableHlo.after (kops13 : List (HloOp τ sig (Elt F))) (StableHlo.after (kops12 : List (HloOp τ sig (Elt F))) (StableHlo.after (kops11 : List (HloOp τ sig (Elt F))) (StableHlo.after (kops10 : List (HloOp τ sig (Elt F))) (StableHlo.after (kops9 : List (HloOp τ sig (Elt F))) (StableHlo.after (kops8 : List (HloOp τ sig (Elt F))) (StableHlo.after (kops7 : List (HloOp τ sig (Elt F))) (StableHlo.after (kops6 : List (HloOp τ sig (Elt F))) (StableHlo.after (kops5 : List (HloOp τ sig (Elt F))) (StableHlo.after (kops4 : List (HloOp τ sig (Elt F))) (StableHlo.after (kops3 : List (HloOp τ sig (Elt F))) (StableHlo.after (kops2 : List (HloOp τ sig (Elt F))) (StableHlo.after (kops1 : List (HloOp τ sig (Elt F))) (StableHlo.after (kops0 : List (HloOp τ sig (Elt F))) W))))))))))))))))))))))))))))))))) h32_main_v9 h32_main_v11 h32_main_v13 h32_main_v15 h32_main_v212 h32_main_v214 h32_main_v231 h32_main_v236 h32_main_v237
  obtain ⟨h34_main_v212, h34_main_v214, h34_main_v231, h34_main_v241, h34_main_v246, h34_main_v251, h34_main_v252⟩ := cut34 (F := F) (V := (StableHlo.after (kops32 : List (HloOp τ sig (Elt F))) (StableHlo.after (kops31 : List (HloOp τ sig (Elt F))) (StableHlo.after (kops30 : List (HloOp τ sig (Elt F))) (StableHlo.after (kops29 : List (HloOp τ sig (Elt F))) (StableHlo.after (kops28 : List (HloOp τ sig (Elt F))) (StableHlo.after (kops27 : List (HloOp τ sig (Elt F))) (StableHlo.after (kops26 : List (HloOp τ sig (Elt F))) (StableHlo.after (kops25 : List (HloOp τ sig (Elt F))) (StableHlo.after (kops24 : List (HloOp τ sig (Elt F))) (StableHlo.after (kops23 : List (HloOp τ sig (Elt F))) (StableHlo.after (kops22 : List (HloOp τ sig (Elt F))) (StableHlo.after (kops21 : List (HloOp τ sig (Elt F))) (StableHlo.after (kops20 : List (HloOp τ sig (Elt F))) (StableHlo.after (kops19 : List (HloOp τ sig (Elt F))) (StableHlo.after (kops18 : List (HloOp τ sig (Elt F))) (StableHlo.after (kops17 : List (HloOp τ sig (Elt F))) (StableHlo.after (kops16 : List (HloOp τ sig (Elt F))) (StableHlo.after (kops15 : List (HloOp τ sig (Elt F))) (StableHlo.after (kops14 : List (HloOp τ sig (Elt F))) (StableHlo.after (kops13 : List (HloOp τ sig (Elt F))) (StableHlo.after (kops12 : List (HloOp τ sig (Elt F))) (StableHlo.after (kops11 : List (HloOp τ sig (Elt F))) (StableHlo.after (kops10 : List (HloOp τ sig (Elt F))) (StableHlo.after (kops9 : List (HloOp τ sig (Elt F))) (StableHlo.after (kops8 : List (HloOp τ sig (Elt F))) (StableHlo.after (kops7 : List (HloOp τ sig (Elt F))) (StableHlo.after (kops6 : List (HloOp τ sig (Elt F))) (StableHlo.after (kops5 : List (HloOp τ sig (Elt F))) (StableHlo.after (kops4 : List (HloOp τ sig (Elt F))) (StableHlo.after (kops3 : List (HloOp τ sig (Elt F))) (StableHlo.after (kops2 : List (HloOp τ sig (Elt F))) (StableHlo.after (kops1 : List (HloOp τ sig (Elt F))) (StableHlo.after (kops0 : List (HloOp τ sig (Elt F))) W)))))))))))))))))))))))))))))))))) h33_main_v11 h33_main_v15 h33_main_v212 h33_main_v214 h33_main_v231 h33_main_v236 h33_main_v241 h33_main_v244 h33_main_cst_66
  obtain ⟨h35_main_v212, h35_main_v214, h35_main_v231, h35_main_v252, h35_main_v253, h35_main_v254, h35_main_v255⟩ := cut35 (F := F) (V := (StableHlo.after (kops33 : List (HloOp τ sig (Elt F))) (StableHlo.after (kops32 : List (HloOp τ sig (Elt F))) (StableHlo.after (kops31 : List (HloOp τ sig (Elt F))) (StableHlo.after (kops30 : List (HloOp τ sig (Elt F))) (StableHlo.after (kops29 : List (HloOp τ sig (Elt F))) (StableHlo.after (kops28 : List (HloOp τ sig (Elt F))) (StableHlo.after (kops27 : List (HloOp τ sig (Elt F))) (StableHlo.after (kops26 : List (HloOp τ sig (Elt F))) (StableHlo.after (kops25 : List (HloOp τ sig (Elt F))) (StableHlo.after (kops24 : List (HloOp τ sig (Elt F))) (StableHlo.after (kops23 : List (HloOp τ sig (Elt F))) (StableHlo.after (kops22 : List (HloOp τ sig (Elt F))) (StableHlo.after (kops21 : List (HloOp τ sig (Elt F))) (StableHlo.after (kops20 : List (HloOp τ sig (Elt F))) (StableHlo.after (kops19 : List (HloOp τ sig (Elt F))) (StableHlo.after (kops18 : List (HloOp τ sig (Elt F))) (StableHlo.after (kops17 : List (HloOp τ sig (Elt F))) (StableHlo.after (kops16 : List (HloOp τ sig (Elt F))) (StableHlo.after (kops15 : List (HloOp τ sig (Elt F))) (StableHlo.after (kops14 : List (HloOp τ sig (Elt F))) (StableHlo.after (kops13 : List (HloOp τ sig (Elt F))) (StableHlo.after (kops12 : List (HloOp τ sig (Elt F))) (StableHlo.after (kops11 : List (HloOp τ sig (Elt F))) (StableHlo.after (kops10 : List (HloOp τ sig (Elt F))) (StableHlo.after (kops9 : List (HloOp τ sig (Elt F))) (StableHlo.after (kops8 : List (HloOp τ sig (Elt F))) (StableHlo.after (kops7 : List (HloOp τ sig (Elt F))) (StableHlo.after (kops6 : List (HloOp τ sig (Elt F))) (StableHlo.after (kops5 : List (HloOp τ sig (Elt F))) (StableHlo.after (kops4 : List (HloOp τ sig (Elt F))) (StableHlo.after (kops3 : List (HloOp τ sig (Elt F))) (StableHlo.after (kops2 : List (HloOp τ sig (Elt F))) (StableHlo.after (kops1 : List (HloOp τ sig (Elt F))) (StableHlo.after (kops0 : List (HloOp τ sig (Elt F))) W))))))))))))))))))))))))))))))))))) h34_main_v212 h34_main_v214 h34_main_v231 h34_main_v241 h34_main_v246 h34_main_v251 h34_main_v252
  obtain ⟨h36_main_v212, h36_main_v214, h36_main_v231, h36_main_v256, h36_main_v261, h36_main_v263, h36_main_v265⟩ := cut36 (F := F) (V := (StableHlo.after (kops34 : List (HloOp τ sig (Elt F))) (StableHlo.after (kops33 : List (HloOp τ sig (Elt F))) (StableHlo.after (kops32 : List (HloOp τ sig (Elt F))) (StableHlo.after (kops31 : List (HloOp τ sig (Elt F))) (StableHlo.after (kops30 : List (HloOp τ sig (Elt F))) (StableHlo.after (kops29 : List (HloOp τ sig (Elt F))) (StableHlo.after (kops28 : List (HloOp τ sig (Elt F))) (StableHlo.after (kops27 : List (HloOp τ sig (Elt F))) (StableHlo.after (kops26 : List (HloOp τ sig (Elt F))) (StableHlo.after (kops25 : List (HloOp τ sig (Elt F))) (StableHlo.after (kops24 : List (HloOp τ sig (Elt F))) (StableHlo.after (kops23 : List (HloOp τ sig (Elt F))) (StableHlo.after (kops22 : List (HloOp τ sig (Elt F))) (StableHlo.after (kops21 : List (HloOp τ sig (Elt F))) (StableHlo.after (kops20 : List (HloOp τ sig (Elt F))) (StableHlo.after (kops19 : List (HloOp τ sig (Elt F))) (StableHlo.after (kops18 : List (HloOp τ sig (Elt F))) (StableHlo.after (kops17 : List (HloOp τ sig (Elt F))) (StableHlo.after (kops16 : List (HloOp τ sig (Elt F))) (StableHlo.after (kops15 : List (HloOp τ sig (Elt F))) (StableHlo.after (kops14 : List (HloOp τ sig (Elt F))) (StableHlo.after (kops13 : List (HloOp τ sig (Elt F))) (StableHlo.after (kops12 : List (HloOp τ sig (Elt F))) (StableHlo.after (kops11 : List (HloOp τ sig (Elt F))) (StableHlo.after (kops10 : List (HloOp τ sig (Elt F))) (StableHlo.after (kops9 : List (HloOp τ sig (Elt F))) (StableHlo.after (kops8 : List (HloOp τ sig (Elt F))) (StableHlo.after (kops7 : List (HloOp τ sig (Elt F))) (StableHlo.after (kops6 : List (HloOp τ sig (Elt F))) (StableHlo.after (kops5 : List (HloOp τ sig (Elt F))) (StableHlo.after (kops4 : List (HloOp τ sig (Elt F))) (StableHlo.after (kops3 : List (HloOp τ sig (Elt F))) (StableHlo.after (kops2 : List (HloOp τ sig (Elt F))) (StableHlo.after (kops1 : List (HloOp τ sig (Elt F))) (StableHlo.after (kops0 : List (HloOp τ sig (Elt F))) W)))))))))))))))))))))))))))))))))))) h35_main_v212 h35_main_v214 h35_main_v231 h35_main_v252 h35_main_v253 h35_main_v254 h35_main_v255
  obtain ⟨h37_main_v212, h37_main_v214, h37_main_v231, h37_main_v256, h37_main_v261, h37_main_v266, h37_main_v271, h37_main_v273, h37_main_v275⟩ := cut37 (F := F) (V := (StableHlo.after (kops35 : List (HloOp τ sig (Elt F))) (StableHlo.after (kops34 : List (HloOp τ sig (Elt F))) (StableHlo.after (kops33 : List (HloOp τ sig (Elt F))) (StableHlo.after (kops32 : List (HloOp τ sig (Elt F))) (StableHlo.after (kops31 : List (HloOp τ sig (Elt F))) (StableHlo.after (kops30 : List (HloOp τ sig (Elt F))) (StableHlo.after (kops29 : List (HloOp τ sig (Elt F))) (StableHlo.after (kops28 : List (HloOp τ sig (Elt F))) (StableHlo.after (kops27 : List (HloOp τ sig (Elt F))) (StableHlo.after (kops26 : List (HloOp τ sig (Elt F))) (StableHlo.after (kops25 : List (HloOp τ sig (Elt F))) (StableHlo.after (kops24 : List (HloOp τ sig (Elt F))) (StableHlo.after (kops23 : List (HloOp τ sig (Elt F))) (StableHlo.after (kops22 : List (HloOp τ sig (Elt F))) (StableHlo.after (kops21 : List (HloOp τ sig (Elt F))) (StableHlo.after (kops20 : List (HloOp τ sig (Elt F))) (StableHlo.after (kops19 : List (HloOp τ sig (Elt F))) (StableHlo.after (kops18 : List (HloOp τ sig (Elt F))) (StableHlo.after (kops17 : List (HloOp τ sig (Elt F))) (StableHlo.after (kops16 : List (HloOp τ sig (Elt F))) (StableHlo.after (kops15 : List (HloOp τ sig (Elt F))) (StableHlo.after (kops14 : List (HloOp τ sig (Elt F))) (StableHlo.after (kops13 : List (HloOp τ sig (Elt F))) (StableHlo.after (kops12 : List (HloOp τ sig (Elt F))) (StableHlo.after (kops11 : List (HloOp τ sig (Elt F))) (StableHlo.after (kops10 : List (HloOp τ sig (Elt F))) (StableHlo.after (kops9 : List (HloOp τ sig (Elt F))) (StableHlo.after (kops8 : List (HloOp τ sig (Elt F))) (StableHlo.after (kops7 : List (HloOp τ sig (Elt F))) (StableHlo.after (kops6 : List (HloOp τ sig (Elt F))) (StableHlo.after (kops5 : List (HloOp τ sig (Elt F))) (StableHlo.after (kops4 : List (HloOp τ sig (Elt F))) (StableHlo.after (kops3 : List (HloOp τ sig (Elt F))) (StableHlo.after (kops2 : List (HloOp τ sig (Elt F))) (StableHlo.after (kops1 : List (HloOp τ sig (Elt F))) (StableHlo.after (kops0 : List (HloOp τ sig (Elt F))) W))))))))))))))))))))))))))))))))))))) h36_main_v212 h36_main_v214 h36_main_v231 h36_main_v256 h36_main_v261 h36_main_v263 h36_main_v265
  obtain ⟨h38_main_v212, h38_main_v214, h38_main_v231, h38_main_v256, h38_main_v278, h38_main_v279, h38_main_call3_v1⟩ := cut38 (F := F) (V := (StableHlo.after (kops36 : List (HloOp τ sig (Elt F))) (StableHlo.after (kops35 : List (HloOp τ sig (Elt F))) (StableHlo.after (kops34 : List (HloOp τ sig (Elt F))) (StableHlo.after (kops33 : List (HloOp τ sig (Elt F))) (StableHlo.after (kops32 : List (HloOp τ sig (Elt F))) (StableHlo.after (kops31 : List (HloOp τ sig (Elt F))) (StableHlo.after (kops30 : List (HloOp τ sig (Elt F))) (StableHlo.after (kops29 : List (HloOp τ sig (Elt F))) (StableHlo.after (kops28 : List (HloOp τ sig (Elt F))) (StableHlo.after (kops27 : List (HloOp τ sig (Elt F))) (StableHlo.after (kops26 : List (HloOp τ sig (Elt F))) (StableHlo.after (kops25 : List (HloOp τ sig (Elt F))) (StableHlo.after (kops24 : List (HloOp τ sig (Elt F))) (StableHlo.after (kops23 : List (HloOp τ sig (Elt F))) (StableHlo.after (kops22 : List (HloOp τ sig (Elt F))) (StableHlo.after (kops21 : List (HloOp τ sig (Elt F))) (StableHlo.after (kops20 : List (HloOp τ sig (Elt F))) (StableHlo.after (kops19 : List (HloOp τ sig (Elt F))) (StableHlo.after (kops18 : List (HloOp τ sig (Elt F))) (StableHlo.after (kops17 : List (HloOp τ sig (Elt F))) (StableHlo.after (kops16 : List (HloOp τ sig (Elt F))) (StableHlo.after (kops15 : List (HloOp τ sig (Elt F))) (StableHlo.after (kops14 : List (HloOp τ sig (Elt F))) (StableHlo.after (kops13 : List (HloOp τ sig (Elt F))) (StableHlo.after (kops12 : List (HloOp τ sig (Elt F))) (StableHlo.after (kops11 : List (HloOp τ sig (Elt F))) (StableHlo.after (kops10 : List (HloOp τ sig (Elt F))) (StableHlo.after (kops9 : List (HloOp τ sig (Elt F))) (StableHlo.after (kops8 : List (HloOp τ sig (Elt F))) (StableHlo.after (kops7 : List (HloOp τ sig (Elt F))) (StableHlo.after (kops6 : List (HloOp τ sig (Elt F))) (StableHlo.after (kops5 : List (HloOp τ sig (Elt F))) (StableHlo.after (kops4 : List (HloOp τ sig (Elt F))) (StableHlo.after (kops3 : List (HloOp τ sig (Elt F))) (StableHlo.after (kops2 : List (HloOp τ sig (Elt F))) (StableHlo.after (kops1 : List (HloOp τ sig (Elt F))) (StableHlo.after (kops0 : List (HloOp τ sig (Elt F))) W)))))))))))))))))))))))))))))))))))))) h37_main_v212 h37_main_v214 h37_main_v231 h37_main_v256 h37_main_v261 h37_main_v266 h37_main_v271 h37_main_v273 h37_main_v275
  obtain ⟨h39_main_v212, h39_main_v214, h39_main_v256, h39_main_v281, h39_main_v286, h39_main_v288, h39_main_v289⟩ := cut39 (F := F) (V := (StableHlo.after (kops37 : List (HloOp τ sig (Elt F))) (StableHlo.after (kops36 : List (HloOp τ sig (Elt F))) (StableHlo.after (kops35 : List (HloOp τ sig (Elt F))) (StableHlo.after (kops34 : List (HloOp τ sig (Elt F))) (StableHlo.after (kops33 : List (HloOp τ sig (Elt F))) (StableHlo.after (kops32 : List (HloOp τ sig (Elt F))) (StableHlo.after (kops31 : List (HloOp τ sig (Elt F))) (StableHlo.after (kops30 : List (HloOp τ sig (Elt F))) (StableHlo.after (kops29 : List (HloOp τ sig (Elt F))) (StableHlo.after (kops28 : List (HloOp τ sig (Elt F))) (StableHlo.after (kops27 : List (HloOp τ sig (Elt F))) (StableHlo.after (kops26 : List (HloOp τ sig (Elt F))) (StableHlo.after (kops25 : List (HloOp τ sig (Elt F))) (StableHlo.after (kops24 : List (HloOp τ sig (Elt F))) (StableHlo.after (kops23 : List (HloOp τ sig (Elt F))) (StableHlo.after (kops22 : List (HloOp τ sig (Elt F))) (StableHlo.after (kops21 : List (HloOp τ sig (Elt F))) (StableHlo.after (kops20 : List (HloOp τ sig (Elt F))) (StableHlo.after (kops19 : List (HloOp τ sig (Elt F))) (StableHlo.after (kops18 : List (HloOp τ sig (Elt F))) (StableHlo.after (kops17 : List (HloOp τ sig (Elt F))) (StableHlo.after (kops16 : List (HloOp τ sig (Elt F))) (StableHlo.after (kops15 : List (HloOp τ sig (Elt F))) (StableHlo.after (kops14 : List (HloOp τ sig (Elt F))) (StableHlo.after (kops13 : List (HloOp τ sig (Elt F))) (StableHlo.after (kops12 : List (HloOp τ sig (Elt F))) (StableHlo.after (kops11 : List (HloOp τ sig (Elt F))) (StableHlo.after (kops10 : List (HloOp τ sig (Elt F))) (StableHlo.after (kops9 : List (HloOp τ sig (Elt F))) (StableHlo.after (kops8 : List (HloOp τ sig (Elt F))) (StableHlo.after (kops7 : List (HloOp τ sig (Elt F))) (StableHlo.after (kops6 : List (HloOp τ sig (Elt F))) (StableHlo.after (kops5 : List (HloOp τ sig (Elt F))) (StableHlo.after (kops4 : List (HloOp τ sig (Elt F))) (StableHlo.after (kops3 : List (HloOp τ sig (Elt F))) (StableHlo.after (kops2 : List (HloOp τ sig (Elt F))) (StableHlo.after (kops1 : List (HloOp τ sig (Elt F))) (StableHlo.after (kops0 : List (HloOp τ sig (Elt F))) W))))))))))))))))))))))))))))))))))))))) h38_main_v212 h38_main_v214 h38_main_v231 h38_main_v256 h38_main_v278 h38_main_v279 h38_main_call3_v1
  obtain ⟨h40_main_v212, h40_main_v214, h40_main_v256, h40_main_v281, h40_main_v292, h40_main_v297, h40_main_v299⟩ := cut40 (F := F) (V := (StableHlo.after (kops38 : List (HloOp τ sig (Elt F))) (StableHlo.after (kops37 : List (HloOp τ sig (Elt F))) (StableHlo.after (kops36 : List (HloOp τ sig (Elt F))) (StableHlo.after (kops35 : List (HloOp τ sig (Elt F))) (StableHlo.after (kops34 : List (HloOp τ sig (Elt F))) (StableHlo.after (kops33 : List (HloOp τ sig (Elt F))) (StableHlo.after (kops32 : List (HloOp τ sig (Elt F))) (StableHlo.after (kops31 : List (HloOp τ sig (Elt F))) (StableHlo.after (kops30 : List (HloOp τ sig (Elt F))) (StableHlo.after (kops29 : List (HloOp τ sig (Elt F))) (StableHlo.after (kops28 : List (HloOp τ sig (Elt F))) (StableHlo.after (kops27 : List (HloOp τ sig (Elt F))) (StableHlo.after (kops26 : List (HloOp τ sig (Elt F))) (StableHlo.after (kops25 : List (HloOp τ sig (Elt F))) (StableHlo.after (kops24 : List (HloOp τ sig (Elt F))) (StableHlo.after (kops23 : List (HloOp τ sig (Elt F))) (StableHlo.after (kops22 : List (HloOp τ sig (Elt F))) (StableHlo.after (kops21 : List (HloOp τ sig (Elt F))) (StableHlo.after (kops20 : List (HloOp τ sig (Elt F))) (StableHlo.after (kops19 : List (HloOp τ sig (Elt F))) (StableHlo.after (kops18 : List (HloOp τ sig (Elt F))) (StableHlo.after (kops17 : List (HloOp τ sig (Elt F))) (StableHlo.after (kops16 : List (HloOp τ sig (Elt F))) (StableHlo.after (kops15 : List (HloOp τ sig (Elt F))) (StableHlo.after (kops14 : List (HloOp τ sig (Elt F))) (StableHlo.after (kops13 : List (HloOp τ sig (Elt F))) (StableHlo.after (kops12 : List (HloOp τ sig (Elt F))) (StableHlo.after (kops11 : List (HloOp τ sig (Elt F))) (StableHlo.after (kops10 : List (HloOp τ sig (Elt F))) (StableHlo.after (kops9 : List (HloOp τ sig (Elt F))) (StableHlo.after (kops8 : List (HloOp τ sig (Elt F))) (StableHlo.after (kops7 : List (HloOp τ sig (Elt F))) (StableHlo.after (kops6 : List (HloOp τ sig (Elt F))) (StableHlo.after (kops5 : List (HloOp τ sig (Elt F))) (StableHlo.after (kops4 : List (HloOp τ sig (Elt F))) (StableHlo.after (kops3 : List (HloOp τ sig (Elt F))) (StableHlo.after (kops2 : List (HloOp τ sig (Elt F))) (StableHlo.after (kops1 : List (HloOp τ sig (Elt F))) (StableHlo.after (kops0 : List (HloOp τ sig (Elt F))) W)))))))))))))))))))))))))))))))))))))))) h39_main_v212 h39_main_v214 h39_main_v256 h39_main_v281 h39_main_v286 h39_main_v288 h39_main_v289
  obtain ⟨h41_main_v212, h41_main_v214, h41_main_v308⟩ := cut41 (F := F) (V := (StableHlo.after (kops39 : List (HloOp τ sig (Elt F))) (StableHlo.after (kops38 : List (HloOp τ sig (Elt F))) (StableHlo.after (kops37 : List (HloOp τ sig (Elt F))) (StableHlo.after (kops36 : List (HloOp τ sig (Elt F))) (StableHlo.after (kops35 : List (HloOp τ sig (Elt F))) (StableHlo.after (kops34 : List (HloOp τ sig (Elt F))) (StableHlo.after (kops33 : List (HloOp τ sig (Elt F))) (StableHlo.after (kops32 : List (HloOp τ sig (Elt F))) (StableHlo.after (kops31 : List (HloOp τ sig (Elt F))) (StableHlo.after (kops30 : List (HloOp τ sig (Elt F))) (StableHlo.after (kops29 : List (HloOp τ sig (Elt F))) (StableHlo.after (kops28 : List (HloOp τ sig (Elt F))) (StableHlo.after (kops27 : List (HloOp τ sig (Elt F))) (StableHlo.after (kops26 : List (HloOp τ sig (Elt F))) (StableHlo.after (kops25 : List (HloOp τ sig (Elt F))) (StableHlo.after (kops24 : List (HloOp τ sig (Elt F))) (StableHlo.after (kops23 : List (HloOp τ sig (Elt F))) (StableHlo.after (kops22 : List (HloOp τ sig (Elt F))) (StableHlo.after (kops21 : List (HloOp τ sig (Elt F))) (StableHlo.after (kops20 : List (HloOp τ sig (Elt F))) (StableHlo.after (kops19 : List (HloOp τ sig (Elt F))) (StableHlo.after (kops18 : List (HloOp τ sig (Elt F))) (StableHlo.after (kops17 : List (HloOp τ sig (Elt F))) (StableHlo.after (kops16 : List (HloOp τ sig (Elt F))) (StableHlo.after (kops15 : List (HloOp τ sig (Elt F))) (StableHlo.after (kops14 : List (HloOp τ sig (Elt F))) (StableHlo.after (kops13 : List (HloOp τ sig (Elt F))) (StableHlo.after (kops12 : List (HloOp τ sig (Elt F))) (StableHlo.after (kops11 : List (HloOp τ sig (Elt F))) (StableHlo.after (kops10 : List (HloOp τ sig (Elt F))) (StableHlo.after (kops9 : List (HloOp τ sig (Elt F))) (StableHlo.after (kops8 : List (HloOp τ sig (Elt F))) (StableHlo.after (kops7 : List (HloOp τ sig (Elt F))) (StableHlo.after (kops6 : List (HloOp τ sig (Elt F))) (StableHlo.after (kops5 : List (HloOp τ sig (Elt F))) (StableHlo.after (kops4 : List (HloOp τ sig (Elt F))) (StableHlo.after (kops3 : List (HloOp τ sig (Elt F))) (StableHlo.after (kops2 : List (HloOp τ sig (Elt F))) (StableHlo.after (kops1 : List (HloOp τ sig (Elt F))) (StableHlo.after (kops0 : List (HloOp τ sig (Elt F))) W))))))))))))))))))))))))))))))))))))))))) h40_main_v212 h40_main_v214 h40_main_v256 h40_main_v281 h40_main_v292 h40_main_v297 h40_main_v299
  obtain ⟨h42_main_v214, h42_main_v314⟩ := cut42 (F := F) (V := (StableHlo.after (kops40 : List (HloOp τ sig (Elt F))) (StableHlo.after (kops39 : List (HloOp τ sig (Elt F))) (StableHlo.after (kops38 : List (HloOp τ sig (Elt F))) (StableHlo.after (kops37 : List (HloOp τ sig (Elt F))) (StableHlo.after (kops36 : List (HloOp τ sig (Elt F))) (StableHlo.after (kops35 : List (HloOp τ sig (Elt F))) (StableHlo.after (kops34 : List (HloOp τ sig (Elt F))) (StableHlo.after (kops33 : List (HloOp τ sig (Elt F))) (StableHlo.after (kops32 : List (HloOp τ sig (Elt F))) (StableHlo.after (kops31 : List (HloOp τ sig (Elt F))) (StableHlo.after (kops30 : List (HloOp τ sig (Elt F))) (StableHlo.after (kops29 : List (HloOp τ sig (Elt F))) (StableHlo.after (kops28 : List (HloOp τ sig (Elt F))) (StableHlo.after (kops27 : List (HloOp τ sig (Elt F))) (StableHlo.after (kops26 : List (HloOp τ sig (Elt F))) (StableHlo.after (kops25 : List (HloOp τ sig (Elt F))) (StableHlo.after (kops24 : List (HloOp τ sig (Elt F))) (StableHlo.after (kops23 : List (HloOp τ sig (Elt F))) (StableHlo.after (kops22 : List (HloOp τ sig (Elt F))) (StableHlo.after (kops21 : List (HloOp τ sig (Elt F))) (StableHlo.after (kops20 : List (HloOp τ sig (Elt F))) (StableHlo.after (kops19 : List (HloOp τ sig (Elt F))) (StableHlo.after (kops18 : List (HloOp τ sig (Elt F))) (StableHlo.after (kops17 : List (HloOp τ sig (Elt F))) (StableHlo.after (kops16 : List (HloOp τ sig (Elt F))) (StableHlo.after (kops15 : List (HloOp τ sig (Elt F))) (StableHlo.after (kops14 : List (HloOp τ sig (Elt F))) (StableHlo.after (kops13 : List (HloOp τ sig (Elt F))) (StableHlo.after (kops12 : List (HloOp τ sig (Elt F))) (StableHlo.after (kops11 : List (HloOp τ sig (Elt F))) (StableHlo.after (kops10 : List (HloOp τ sig (Elt F))) (StableHlo.after (kops9 : List (HloOp τ sig (Elt F))) (StableHlo.after (kops8 : List (HloOp τ sig (Elt F))) (StableHlo.after (kops7 : List (HloOp τ sig (Elt F))) (StableHlo.after (kops6 : List (HloOp τ sig (Elt F))) (StableHlo.after (kops5 : List (HloOp τ sig (Elt F))) (StableHlo.after (kops4 : List (HloOp τ sig (Elt F))) (StableHlo.after (kops3 : List (HloOp τ sig (Elt F))) (StableHlo.after (kops2 : List (HloOp τ sig (Elt F))) (StableHlo.after (kops1 : List (HloOp τ sig (Elt F))) (StableHlo.after (kops0 : List (HloOp τ sig (Elt F))) W)))))))))))))))))))))))))))))))))))))))))) h41_main_v212 h41_main_v214 h41_main_v308
  have h43_main_v316 := cut43 (F := F) (V := (StableHlo.after (kops41 : List (HloOp τ sig (Elt F))) (StableHlo.after (kops40 : List (HloOp τ sig (Elt F))) (StableHlo.after (kops39 : List (HloOp τ sig (Elt F))) (StableHlo.after (kops38 : List (HloOp τ sig (Elt F))) (StableHlo.after (kops37 : List (HloOp τ sig (Elt F))) (StableHlo.after (kops36 : List (HloOp τ sig (Elt F))) (StableHlo.after (kops35 : List (HloOp τ sig (Elt F))) (StableHlo.after (kops34 : List (HloOp τ sig (Elt F))) (StableHlo.after (kops33 : List (HloOp τ sig (Elt F))) (StableHlo.after (kops32 : List (HloOp τ sig (Elt F))) (StableHlo.after (kops31 : List (HloOp τ sig (Elt F))) (StableHlo.after (kops30 : List (HloOp τ sig (Elt F))) (StableHlo.after (kops29 : List (HloOp τ sig (Elt F))) (StableHlo.after (kops28 : List (HloOp τ sig (Elt F))) (StableHlo.after (kops27 : List (HloOp τ sig (Elt F))) (StableHlo.after (kops26 : List (HloOp τ sig (Elt F))) (StableHlo.after (kops25 : List (HloOp τ sig (Elt F))) (StableHlo.after (kops24 : List (HloOp τ sig (Elt F))) (StableHlo.after (kops23 : List (HloOp τ sig (Elt F))) (StableHlo.after (kops22 : List (HloOp τ sig (Elt F))) (StableHlo.after (kops21 : List (HloOp τ sig (Elt F))) (StableHlo.after (kops20 : List (HloOp τ sig (Elt F))) (StableHlo.after (kops19 : List (HloOp τ sig (Elt F))) (StableHlo.after (kops18 : List (HloOp τ sig (Elt F))) (StableHlo.after (kops17 : List (HloOp τ sig (Elt F))) (StableHlo.after (kops16 : List (HloOp τ sig (Elt F))) (StableHlo.after (kops15 : List (HloOp τ sig (Elt F))) (StableHlo.after (kops14 : List (HloOp τ sig (Elt F))) (StableHlo.after (kops13 : List (HloOp τ sig (Elt F))) (StableHlo.after (kops12 : List (HloOp τ sig (Elt F))) (StableHlo.after (kops11 : List (HloOp τ sig (Elt F))) (StableHlo.after (kops10 : List (HloOp τ sig (Elt F))) (StableHlo.after (kops9 : List (HloOp τ sig (Elt F))) (StableHlo.after (kops8 : List (HloOp τ sig (Elt F))) (StableHlo.after (kops7 : List (HloOp τ sig (Elt F))) (StableHlo.after (kops6 : List (HloOp τ sig (Elt F))) (StableHlo.after (kops5 : List (HloOp τ sig (Elt F))) (StableHlo.after (kops4 : List (HloOp τ sig (Elt F))) (StableHlo.after (kops3 : List (HloOp τ sig (Elt F))) (StableHlo.after (kops2 : List (HloOp τ sig (Elt F))) (StableHlo.after (kops1 : List (HloOp τ sig (Elt F))) (StableHlo.after (kops0 : List (HloOp τ sig (Elt F))) W))))))))))))))))))))))))))))))))))))))))))) h42_main_v214 h42_main_v314
  exact h43_main_v316

/-- The same over the launch module's stretches: they are the chunks, in order. -/
theorem line_eq_stretches (W : Valuation τ sig (Elt F)) :
    StableHlo.after (List.flatten ([main_part0_ops0, main_part1_ops0, main_part2_ops0, main_part3_ops0, main_part3_ops1, main_part3_ops2, main_part4_ops0, main_part4_ops1, main_part4_ops2, main_part5_ops0, main_part5_ops1, main_part5_ops2, main_part5_ops3, main_part5_ops4, main_part6_ops0] : List (List (HloOp τ sig (Elt F))))) W (Proc.devRef .tc main_v316) = kt_main_v316 (F := F) (W (Proc.devRef .tc main_v0)) (W (Proc.devRef .tc main_arg0)) (W (Proc.devRef .tc main_arg1)) :=
  (congrArg (fun l => StableHlo.after l W (Proc.devRef .tc main_v316)) (tail_flatten (F := F))).trans (line_eq (F := F) W)

end Cert.KernelIdeal.Tail

end
-- ==== Proof.KRun.lean ====
/-
  The kernel program's run with its result named.  The region's frame run leaves every array of the pipeline at what
  the proof data computes — the region's result at `Dat.arrAt 1`, `preds` at its launch contents — and every other
  buffer at what the host operations after the region make of those; read through the operations' stage table, the
  program's result is the last stage at (the region's result, `preds`, `targets`), and both arguments are kept.
-/
import proofs.«175006_j89550068121905_1_alg».proof.Proof.KI.Frame
import proofs.«175006_j89550068121905_1_alg».proof.Proof.KTailCuts

set_option maxRecDepth 16384

noncomputable section

namespace Cert.KernelIdeal.Fr

open Cert.KernelIdeal Cert.KernelIdeal.Gen Cert.KernelIdeal.Tail
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ) (ρ : Dev nD → PrngReg)

/-- What the region leaves in its result array `main_v0`: the proof data's contents of output window 1 after the last point. -/
abbrev regionOut (c : Dev nD) := (dats m 0 c).arrAt 1 cfg0.N

/-- The host operations after the region leave the program's result at the last stage of their table. -/
theorem tail_main_v316 (c : Dev nD) :
    Pipeline.afterTail₀ cfgs (dats m) 0 (V0 m) (tailOps (F := F)) c main_v316
      = kt_main_v316 (F := F) (regionOut m c) (m ((c.tc : Thread nD τ).loc main_arg0)) (m ((c.tc : Thread nD τ).loc main_arg1)) := by
  unfold Pipeline.afterTail₀
  refine (Tail.line_eq_stretches (F := F) _).trans ?_
  have h0 : Pipeline.withArrays (cfgs 0).spec c (V0 m c) (fun w => (dats m 0 c).arrAt w (cfgs 0).N) (Proc.devRef .tc main_v0) = regionOut m c :=
    Pipeline.withArrays_arr spec0 launch0.win.arr_inj c _ _ 1
  have h1 : Pipeline.withArrays (cfgs 0).spec c (V0 m c) (fun w => (dats m 0 c).arrAt w (cfgs 0).N) (Proc.devRef .tc main_arg0) = m ((c.tc : Thread nD τ).loc main_arg0) :=
    (Pipeline.withArrays_arr spec0 launch0.win.arr_inj c _ _ 0).trans (((dats m 0 c).arrAt_in 0 rfl _).trans ((A_eq m c 0).trans (V_main_arg0 m c)))
  have h2 : Pipeline.withArrays (cfgs 0).spec c (V0 m c) (fun w => (dats m 0 c).arrAt w (cfgs 0).N) (Proc.devRef .tc main_arg1) = m ((c.tc : Thread nD τ).loc main_arg1) :=
    (Pipeline.withArrays_of_ne _ c _ _ main_arg1 (by decide)).trans rfl
  rw [h0, h1, h2]

/-- THE RUN, with the result named: every weakly fair execution of @main terminates, the result buffer holds the last
    stage of the host operations at the region's result and the arguments, and the arguments are unchanged. -/
theorem run_value : θ_run defs (onTc (τ := τ) (main (F := F))) ⟨m, fun _ => 0, ρ⟩ (fun r => ∀ c : Dev nD,
      r.2.mem ((c.tc : Thread nD τ).loc main_v316)
          = kt_main_v316 (F := F) (regionOut m c) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_v316 (Pipeline.mem_restRefs_of main_v316 (by decide) (by decide))).trans (tail_main_v316 m c),
      ((h c).1 0).trans (((dats m 0 c).arrAt_in 0 rfl _).trans ((A_eq m c 0).trans (V_main_arg0 m c))),
      ((h c).2 main_arg1 (Pipeline.mem_restRefs_of main_arg1 (by decide) (by decide))).trans (tail_main_arg1 m (dats m) c)⟩)
    (run_main m ρ)

end Cert.KernelIdeal.Fr

end
-- ==== Proof.RefOps.lean ====
/- The reference program's 288 host operations, in program order, in 31 consecutive chunks of at most 10 (a cut also
   before every concatenate); the operations are the printed program's, spelt as the generated module spells them. -/
import proofs.«175006_j89550068121905_1_alg».proof.Proof.Gen.ReferenceIdeal
import Idealize.ShloMosaic.Lib.StableHlo.Run

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 1 … 10. -/
abbrev rops0 : List (HloOp τ sig (Elt F)) :=
  [ unary main_arg0 main_v0 ((transpose S16x128x128x85 [0, 2, 3, 1] · transposes_S16x85x128x128_S16x128x128x85_0_2_3_1) : (⟨S16x85x128x128, .f32⟩ : BufTy).Contents (Elt F) → (⟨S16x128x128x85, .f32⟩ : BufTy).Contents (Elt F)),
    reshape main_v0 main_v1 rfl shapeCasts_S16x128x128x85_S16x16384x85,
    unary main_arg1 main_v2 ((extractStridedSlice S16x64x1 ![0, 0, 0] · slices_S16x64x5_S16x64x1_0_0_0) : (⟨S16x64x5, .f32⟩ : BufTy).Contents (Elt F) → (⟨S16x64x1, .f32⟩ : BufTy).Contents (Elt F)),
    reshape main_v2 main_v3 rfl shapeCasts_S16x64x1_S16x64,
    unary main_v3 main_v4 (fptosi 32 : (⟨S16x64, .f32⟩ : BufTy).Contents (Elt F) → (⟨S16x64, .i32⟩ : BufTy).Contents (Elt F)),
    unary main_arg1 main_v5 ((extractStridedSlice S16x64x1 ![0, 0, 1] · slices_S16x64x5_S16x64x1_0_0_1) : (⟨S16x64x5, .f32⟩ : BufTy).Contents (Elt F) → (⟨S16x64x1, .f32⟩ : BufTy).Contents (Elt F)),
    reshape main_v5 main_v6 rfl shapeCasts_S16x64x1_S16x64,
    unary main_arg1 main_v7 ((extractStridedSlice S16x64x1 ![0, 0, 2] · slices_S16x64x5_S16x64x1_0_0_2) : (⟨S16x64x5, .f32⟩ : BufTy).Contents (Elt F) → (⟨S16x64x1, .f32⟩ : BufTy).Contents (Elt F)),
    reshape main_v7 main_v8 rfl shapeCasts_S16x64x1_S16x64,
    unary main_arg1 main_v9 ((extractStridedSlice S16x64x1 ![0, 0, 3] · slices_S16x64x5_S16x64x1_0_0_3) : (⟨S16x64x5, .f32⟩ : BufTy).Contents (Elt F) → (⟨S16x64x1, .f32⟩ : BufTy).Contents (Elt F)) ]
theorem rops0_sub : (rops0 : List (HloOp τ sig (Elt F))).Forall fun op => op.bufs ⊆ tcRefs τ sig :=
  ⟨unary_bufs_sub .., reshape_bufs_sub .., unary_bufs_sub .., reshape_bufs_sub .., unary_bufs_sub .., unary_bufs_sub .., reshape_bufs_sub .., unary_bufs_sub .., reshape_bufs_sub .., unary_bufs_sub ..⟩

/-- Operations 11 … 20. -/
abbrev rops1 : List (HloOp τ sig (Elt F)) :=
  [ reshape main_v9 main_v10 rfl shapeCasts_S16x64x1_S16x64,
    unary main_arg1 main_v11 ((extractStridedSlice S16x64x1 ![0, 0, 4] · slices_S16x64x5_S16x64x1_0_0_4) : (⟨S16x64x5, .f32⟩ : BufTy).Contents (Elt F) → (⟨S16x64x1, .f32⟩ : BufTy).Contents (Elt F)),
    reshape main_v11 main_v12 rfl shapeCasts_S16x64x1_S16x64,
    nullary main_cst (constant S_ .f32 0x43000000#32),
    unary main_cst main_v13 (broadcastInDim S16x64 ![] bcast_S_S16x64 : (⟨S_, .f32⟩ : BufTy).Contents (Elt F) → (⟨S16x64, .f32⟩ : BufTy).Contents (Elt F)),
    binary main_v6 main_v13 main_v14 (mulf : (⟨S16x64, .f32⟩ : BufTy).Contents (Elt F) → (⟨S16x64, .f32⟩ : BufTy).Contents (Elt F) → (⟨S16x64, .f32⟩ : BufTy).Contents (Elt F)),
    unary main_v14 main_v15 (fptosi 32 : (⟨S16x64, .f32⟩ : BufTy).Contents (Elt F) → (⟨S16x64, .i32⟩ : BufTy).Contents (Elt F)),
    nullary main_cst_0 (constant S_ .f32 0x43000000#32),
    unary main_cst_0 main_v16 (broadcastInDim S16x64 ![] bcast_S_S16x64 : (⟨S_, .f32⟩ : BufTy).Contents (Elt F) → (⟨S16x64, .f32⟩ : BufTy).Contents (Elt F)),
    binary main_v8 main_v16 main_v17 (mulf : (⟨S16x64, .f32⟩ : BufTy).Contents (Elt F) → (⟨S16x64, .f32⟩ : BufTy).Contents (Elt F) → (⟨S16x64, .f32⟩ : BufTy).Contents (Elt F)) ]
theorem rops1_sub : (rops1 : List (HloOp τ sig (Elt F))).Forall fun op => op.bufs ⊆ tcRefs τ sig :=
  ⟨reshape_bufs_sub .., unary_bufs_sub .., reshape_bufs_sub .., nullary_bufs_sub .., unary_bufs_sub .., binary_bufs_sub .., unary_bufs_sub .., nullary_bufs_sub .., unary_bufs_sub .., binary_bufs_sub ..⟩

/-- Operations 21 … 30. -/
abbrev rops2 : List (HloOp τ sig (Elt F)) :=
  [ unary main_v17 main_v18 (fptosi 32 : (⟨S16x64, .f32⟩ : BufTy).Contents (Elt F) → (⟨S16x64, .i32⟩ : BufTy).Contents (Elt F)),
    nullary main_c (constantI S_ 32 128#32),
    unary main_c main_v19 (broadcastInDim S16x64 ![] bcast_S_S16x64 : (⟨S_, .i32⟩ : BufTy).Contents (Elt F) → (⟨S16x64, .i32⟩ : BufTy).Contents (Elt F)),
    binary main_v18 main_v19 main_v20 (muli : (⟨S16x64, .i32⟩ : BufTy).Contents (Elt F) → (⟨S16x64, .i32⟩ : BufTy).Contents (Elt F) → (⟨S16x64, .i32⟩ : BufTy).Contents (Elt F)),
    binary main_v20 main_v15 main_v21 (addi : (⟨S16x64, .i32⟩ : BufTy).Contents (Elt F) → (⟨S16x64, .i32⟩ : BufTy).Contents (Elt F) → (⟨S16x64, .i32⟩ : BufTy).Contents (Elt F)),
    nullary main_v22 (iotaInDim S16 32 0),
    unary main_v22 main_v23 (broadcastInDim S16x1 ![0] bcast_S16_S16x1_0 : (⟨S16, .i32⟩ : BufTy).Contents (Elt F) → (⟨S16x1, .i32⟩ : BufTy).Contents (Elt F)),
    nullary main_cst_1 (constant S_ .f32 0x00000000#32),
    unary main_cst_1 main_v24 (broadcastInDim S16x16384 ![] bcast_S_S16x16384 : (⟨S_, .f32⟩ : BufTy).Contents (Elt F) → (⟨S16x16384, .f32⟩ : BufTy).Contents (Elt F)),
    nullary main_c_2 (constantI S_ 32 0#32) ]
theorem rops2_sub : (rops2 : List (HloOp τ sig (Elt F))).Forall fun op => op.bufs ⊆ tcRefs τ sig :=
  ⟨unary_bufs_sub .., nullary_bufs_sub .., unary_bufs_sub .., binary_bufs_sub .., binary_bufs_sub .., nullary_bufs_sub .., unary_bufs_sub .., nullary_bufs_sub .., unary_bufs_sub .., nullary_bufs_sub ..⟩

/-- Operations 31 … 40. -/
abbrev rops3 : List (HloOp τ sig (Elt F)) :=
  [ unary main_c_2 main_v25 (broadcastInDim S16x1 ![] bcast_S_S16x1 : (⟨S_, .i32⟩ : BufTy).Contents (Elt F) → (⟨S16x1, .i32⟩ : BufTy).Contents (Elt F)),
    binary main_v23 main_v25 main_v26 (cmpi .slt : (⟨S16x1, .i32⟩ : BufTy).Contents (Elt F) → (⟨S16x1, .i32⟩ : BufTy).Contents (Elt F) → (⟨S16x1, .i1⟩ : BufTy).Contents (Elt F)),
    nullary main_c_3 (constantI S_ 32 16#32),
    unary main_c_3 main_v27 (broadcastInDim S16x1 ![] bcast_S_S16x1 : (⟨S_, .i32⟩ : BufTy).Contents (Elt F) → (⟨S16x1, .i32⟩ : BufTy).Contents (Elt F)),
    binary main_v23 main_v27 main_v28 (addi : (⟨S16x1, .i32⟩ : BufTy).Contents (Elt F) → (⟨S16x1, .i32⟩ : BufTy).Contents (Elt F) → (⟨S16x1, .i32⟩ : BufTy).Contents (Elt F)),
    ternary main_v26 main_v28 main_v23 main_v29 (select : (⟨S16x1, .i1⟩ : BufTy).Contents (Elt F) → (⟨S16x1, .i32⟩ : BufTy).Contents (Elt F) → (⟨S16x1, .i32⟩ : BufTy).Contents (Elt F) → (⟨S16x1, .i32⟩ : BufTy).Contents (Elt F)),
    nullary main_c_4 (constantI S_ 32 0#32),
    unary main_c_4 main_v30 (broadcastInDim S16x64 ![] bcast_S_S16x64 : (⟨S_, .i32⟩ : BufTy).Contents (Elt F) → (⟨S16x64, .i32⟩ : BufTy).Contents (Elt F)),
    binary main_v21 main_v30 main_v31 (cmpi .slt : (⟨S16x64, .i32⟩ : BufTy).Contents (Elt F) → (⟨S16x64, .i32⟩ : BufTy).Contents (Elt F) → (⟨S16x64, .i1⟩ : BufTy).Contents (Elt F)),
    nullary main_c_5 (constantI S_ 32 16384#32) ]
theorem rops3_sub : (rops3 : List (HloOp τ sig (Elt F))).Forall fun op => op.bufs ⊆ tcRefs τ sig :=
  ⟨unary_bufs_sub .., binary_bufs_sub .., nullary_bufs_sub .., unary_bufs_sub .., binary_bufs_sub .., ternary_bufs_sub .., nullary_bufs_sub .., unary_bufs_sub .., binary_bufs_sub .., nullary_bufs_sub ..⟩

/-- Operations 41 … 50. -/
abbrev rops4 : List (HloOp τ sig (Elt F)) :=
  [ unary main_c_5 main_v32 (broadcastInDim S16x64 ![] bcast_S_S16x64 : (⟨S_, .i32⟩ : BufTy).Contents (Elt F) → (⟨S16x64, .i32⟩ : BufTy).Contents (Elt F)),
    binary main_v21 main_v32 main_v33 (addi : (⟨S16x64, .i32⟩ : BufTy).Contents (Elt F) → (⟨S16x64, .i32⟩ : BufTy).Contents (Elt F) → (⟨S16x64, .i32⟩ : BufTy).Contents (Elt F)),
    ternary main_v31 main_v33 main_v21 main_v34 (select : (⟨S16x64, .i1⟩ : BufTy).Contents (Elt F) → (⟨S16x64, .i32⟩ : BufTy).Contents (Elt F) → (⟨S16x64, .i32⟩ : BufTy).Contents (Elt F) → (⟨S16x64, .i32⟩ : BufTy).Contents (Elt F)),
    unary main_v29 main_v35 (broadcastInDim S16x64 ![0, 1] bcast_S16x1_S16x64_0_1 : (⟨S16x1, .i32⟩ : BufTy).Contents (Elt F) → (⟨S16x64, .i32⟩ : BufTy).Contents (Elt F)),
    unary main_v35 main_v36 (broadcastInDim S16x64x1 ![0, 1] bcast_S16x64_S16x64x1_0_1 : (⟨S16x64, .i32⟩ : BufTy).Contents (Elt F) → (⟨S16x64x1, .i32⟩ : BufTy).Contents (Elt F)),
    unary main_v34 main_v37 (broadcastInDim S16x64x1 ![0, 1] bcast_S16x64_S16x64x1_0_1 : (⟨S16x64, .i32⟩ : BufTy).Contents (Elt F) → (⟨S16x64x1, .i32⟩ : BufTy).Contents (Elt F)),
    binary main_v36 main_v37 main_v38 ((fun a b => concatenate S16x64x2 2 [⟨S16x64x1, a⟩, ⟨S16x64x1, b⟩] concatenates_S16x64x1_S16x64x1_S16x64x2_d2) : (⟨S16x64x1, .i32⟩ : BufTy).Contents (Elt F) → (⟨S16x64x1, .i32⟩ : BufTy).Contents (Elt F) → (⟨S16x64x2, .i32⟩ : BufTy).Contents (Elt F)),
    nullary main_cst_6 (constant S_ .f32 0x3F800000#32),
    unary main_cst_6 main_v39 (broadcastInDim S16x64 ![] bcast_S_S16x64 : (⟨S_, .f32⟩ : BufTy).Contents (Elt F) → (⟨S16x64, .f32⟩ : BufTy).Contents (Elt F)),
    ternary main_v24 main_v38 main_v39 main_v40 ((fun x i u => Host.scatter scatter_S16x16384_S16x64x2_S16x64_n_01_01_2 (fun _ b => b) x i u) : (⟨S16x16384, .f32⟩ : BufTy).Contents (Elt F) → (⟨S16x64x2, .i32⟩ : BufTy).Contents (Elt F) → (⟨S16x64, .f32⟩ : BufTy).Contents (Elt F) → (⟨S16x16384, .f32⟩ : BufTy).Contents (Elt F)) ]
theorem rops4_sub : (rops4 : List (HloOp τ sig (Elt F))).Forall fun op => op.bufs ⊆ tcRefs τ sig :=
  ⟨unary_bufs_sub .., binary_bufs_sub .., ternary_bufs_sub .., unary_bufs_sub .., unary_bufs_sub .., unary_bufs_sub .., binary_bufs_sub .., nullary_bufs_sub .., unary_bufs_sub .., ternary_bufs_sub ..⟩

/-- Operations 51 … 60. -/
abbrev rops5 : List (HloOp τ sig (Elt F)) :=
  [ nullary main_cst_7 (constant S_ .f32 0x00000000#32),
    unary main_cst_7 main_v41 (broadcastInDim S16x16384x80 ![] bcast_S_S16x16384x80 : (⟨S_, .f32⟩ : BufTy).Contents (Elt F) → (⟨S16x16384x80, .f32⟩ : BufTy).Contents (Elt F)),
    nullary main_c_8 (constantI S_ 32 0#32),
    unary main_c_8 main_v42 (broadcastInDim S16x1 ![] bcast_S_S16x1 : (⟨S_, .i32⟩ : BufTy).Contents (Elt F) → (⟨S16x1, .i32⟩ : BufTy).Contents (Elt F)),
    binary main_v23 main_v42 main_v43 (cmpi .slt : (⟨S16x1, .i32⟩ : BufTy).Contents (Elt F) → (⟨S16x1, .i32⟩ : BufTy).Contents (Elt F) → (⟨S16x1, .i1⟩ : BufTy).Contents (Elt F)),
    nullary main_c_9 (constantI S_ 32 16#32),
    unary main_c_9 main_v44 (broadcastInDim S16x1 ![] bcast_S_S16x1 : (⟨S_, .i32⟩ : BufTy).Contents (Elt F) → (⟨S16x1, .i32⟩ : BufTy).Contents (Elt F)),
    binary main_v23 main_v44 main_v45 (addi : (⟨S16x1, .i32⟩ : BufTy).Contents (Elt F) → (⟨S16x1, .i32⟩ : BufTy).Contents (Elt F) → (⟨S16x1, .i32⟩ : BufTy).Contents (Elt F)),
    ternary main_v43 main_v45 main_v23 main_v46 (select : (⟨S16x1, .i1⟩ : BufTy).Contents (Elt F) → (⟨S16x1, .i32⟩ : BufTy).Contents (Elt F) → (⟨S16x1, .i32⟩ : BufTy).Contents (Elt F) → (⟨S16x1, .i32⟩ : BufTy).Contents (Elt F)),
    nullary main_c_10 (constantI S_ 32 0#32) ]
theorem rops5_sub : (rops5 : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub .., binary_bufs_sub .., ternary_bufs_sub .., nullary_bufs_sub ..⟩

/-- Operations 61 … 70. -/
abbrev rops6 : List (HloOp τ sig (Elt F)) :=
  [ unary main_c_10 main_v47 (broadcastInDim S16x64 ![] bcast_S_S16x64 : (⟨S_, .i32⟩ : BufTy).Contents (Elt F) → (⟨S16x64, .i32⟩ : BufTy).Contents (Elt F)),
    binary main_v21 main_v47 main_v48 (cmpi .slt : (⟨S16x64, .i32⟩ : BufTy).Contents (Elt F) → (⟨S16x64, .i32⟩ : BufTy).Contents (Elt F) → (⟨S16x64, .i1⟩ : BufTy).Contents (Elt F)),
    nullary main_c_11 (constantI S_ 32 16384#32),
    unary main_c_11 main_v49 (broadcastInDim S16x64 ![] bcast_S_S16x64 : (⟨S_, .i32⟩ : BufTy).Contents (Elt F) → (⟨S16x64, .i32⟩ : BufTy).Contents (Elt F)),
    binary main_v21 main_v49 main_v50 (addi : (⟨S16x64, .i32⟩ : BufTy).Contents (Elt F) → (⟨S16x64, .i32⟩ : BufTy).Contents (Elt F) → (⟨S16x64, .i32⟩ : BufTy).Contents (Elt F)),
    ternary main_v48 main_v50 main_v21 main_v51 (select : (⟨S16x64, .i1⟩ : BufTy).Contents (Elt F) → (⟨S16x64, .i32⟩ : BufTy).Contents (Elt F) → (⟨S16x64, .i32⟩ : BufTy).Contents (Elt F) → (⟨S16x64, .i32⟩ : BufTy).Contents (Elt F)),
    nullary main_c_12 (constantI S_ 32 0#32),
    unary main_c_12 main_v52 (broadcastInDim S16x64 ![] bcast_S_S16x64 : (⟨S_, .i32⟩ : BufTy).Contents (Elt F) → (⟨S16x64, .i32⟩ : BufTy).Contents (Elt F)),
    binary main_v4 main_v52 main_v53 (cmpi .slt : (⟨S16x64, .i32⟩ : BufTy).Contents (Elt F) → (⟨S16x64, .i32⟩ : BufTy).Contents (Elt F) → (⟨S16x64, .i1⟩ : BufTy).Contents (Elt F)),
    nullary main_c_13 (constantI S_ 32 80#32) ]
theorem rops6_sub : (rops6 : List (HloOp τ sig (Elt F))).Forall fun op => op.bufs ⊆ tcRefs τ sig :=
  ⟨unary_bufs_sub .., binary_bufs_sub .., nullary_bufs_sub .., unary_bufs_sub .., binary_bufs_sub .., ternary_bufs_sub .., nullary_bufs_sub .., unary_bufs_sub .., binary_bufs_sub .., nullary_bufs_sub ..⟩

/-- Operations 71 … 77. -/
abbrev rops7 : List (HloOp τ sig (Elt F)) :=
  [ unary main_c_13 main_v54 (broadcastInDim S16x64 ![] bcast_S_S16x64 : (⟨S_, .i32⟩ : BufTy).Contents (Elt F) → (⟨S16x64, .i32⟩ : BufTy).Contents (Elt F)),
    binary main_v4 main_v54 main_v55 (addi : (⟨S16x64, .i32⟩ : BufTy).Contents (Elt F) → (⟨S16x64, .i32⟩ : BufTy).Contents (Elt F) → (⟨S16x64, .i32⟩ : BufTy).Contents (Elt F)),
    ternary main_v53 main_v55 main_v4 main_v56 (select : (⟨S16x64, .i1⟩ : BufTy).Contents (Elt F) → (⟨S16x64, .i32⟩ : BufTy).Contents (Elt F) → (⟨S16x64, .i32⟩ : BufTy).Contents (Elt F) → (⟨S16x64, .i32⟩ : BufTy).Contents (Elt F)),
    unary main_v46 main_v57 (broadcastInDim S16x64 ![0, 1] bcast_S16x1_S16x64_0_1 : (⟨S16x1, .i32⟩ : BufTy).Contents (Elt F) → (⟨S16x64, .i32⟩ : BufTy).Contents (Elt F)),
    unary main_v57 main_v58 (broadcastInDim S16x64x1 ![0, 1] bcast_S16x64_S16x64x1_0_1 : (⟨S16x64, .i32⟩ : BufTy).Contents (Elt F) → (⟨S16x64x1, .i32⟩ : BufTy).Contents (Elt F)),
    unary main_v51 main_v59 (broadcastInDim S16x64x1 ![0, 1] bcast_S16x64_S16x64x1_0_1 : (⟨S16x64, .i32⟩ : BufTy).Contents (Elt F) → (⟨S16x64x1, .i32⟩ : BufTy).Contents (Elt F)),
    unary main_v56 main_v60 (broadcastInDim S16x64x1 ![0, 1] bcast_S16x64_S16x64x1_0_1 : (⟨S16x64, .i32⟩ : BufTy).Contents (Elt F) → (⟨S16x64x1, .i32⟩ : BufTy).Contents (Elt F)) ]
theorem rops7_sub : (rops7 : List (HloOp τ sig (Elt F))).Forall fun op => op.bufs ⊆ tcRefs τ sig :=
  ⟨unary_bufs_sub .., binary_bufs_sub .., ternary_bufs_sub .., unary_bufs_sub .., unary_bufs_sub .., unary_bufs_sub .., unary_bufs_sub ..⟩

/-- Operations 78 … 87. -/
abbrev rops8 : List (HloOp τ sig (Elt F)) :=
  [ nary ![main_v58, main_v59, main_v60] main_v61 (fun u => concatenate S16x64x3 2 [⟨S16x64x1, u 0⟩, ⟨S16x64x1, u 1⟩, ⟨S16x64x1, u 2⟩] concatenates_S16x64x1_S16x64x1_S16x64x1_S16x64x3_d2),
    nullary main_cst_14 (constant S_ .f32 0x3F800000#32),
    unary main_cst_14 main_v62 (broadcastInDim S16x64 ![] bcast_S_S16x64 : (⟨S_, .f32⟩ : BufTy).Contents (Elt F) → (⟨S16x64, .f32⟩ : BufTy).Contents (Elt F)),
    ternary main_v41 main_v61 main_v62 main_v63 ((fun x i u => Host.scatter scatter_S16x16384x80_S16x64x3_S16x64_n_012_012_2 (fun _ b => b) x i u) : (⟨S16x16384x80, .f32⟩ : BufTy).Contents (Elt F) → (⟨S16x64x3, .i32⟩ : BufTy).Contents (Elt F) → (⟨S16x64, .f32⟩ : BufTy).Contents (Elt F) → (⟨S16x16384x80, .f32⟩ : BufTy).Contents (Elt F)),
    unary main_v1 main_v64 ((extractStridedSlice S16x16384x4 ![0, 0, 0] · slices_S16x16384x85_S16x16384x4_0_0_0) : (⟨S16x16384x85, .f32⟩ : BufTy).Contents (Elt F) → (⟨S16x16384x4, .f32⟩ : BufTy).Contents (Elt F)),
    unary main_v21 main_v65 (broadcastInDim S16x64x1 ![0, 1] bcast_S16x64_S16x64x1_0_1 : (⟨S16x64, .i32⟩ : BufTy).Contents (Elt F) → (⟨S16x64x1, .i32⟩ : BufTy).Contents (Elt F)),
    TRef.nullary (TRef.of (T := ⟨S_, .i32⟩) main_call0_c) (constantI S_ 32 0#32),
    TRef.unary (TRef.of (T := ⟨S_, .i32⟩) main_call0_c) (TRef.of (T := ⟨S16x64x1, .i32⟩) main_call0_v0) (broadcastInDim S16x64x1 ![] bcast_S_S16x64x1),
    TRef.binary (TRef.of (T := ⟨S16x64x1, .i32⟩) main_v65) (TRef.of (T := ⟨S16x64x1, .i32⟩) main_call0_v0) (TRef.of (T := ⟨S16x64x1, .i1⟩) main_call0_v1) (cmpi .slt),
    TRef.nullary (TRef.of (T := ⟨S_, .i32⟩) main_call0_c_0) (constantI S_ 32 16384#32) ]
theorem rops8_sub : (rops8 : List (HloOp τ sig (Elt F))).Forall fun op => op.bufs ⊆ tcRefs τ sig :=
  ⟨nary_bufs_sub .., nullary_bufs_sub .., unary_bufs_sub .., ternary_bufs_sub .., unary_bufs_sub .., unary_bufs_sub .., nullary_bufs_sub .., unary_bufs_sub .., binary_bufs_sub .., nullary_bufs_sub ..⟩

/-- Operations 88 … 97. -/
abbrev rops9 : List (HloOp τ sig (Elt F)) :=
  [ TRef.unary (TRef.of (T := ⟨S_, .i32⟩) main_call0_c_0) (TRef.of (T := ⟨S16x64x1, .i32⟩) main_call0_v2) (broadcastInDim S16x64x1 ![] bcast_S_S16x64x1),
    TRef.binary (TRef.of (T := ⟨S16x64x1, .i32⟩) main_v65) (TRef.of (T := ⟨S16x64x1, .i32⟩) main_call0_v2) (TRef.of (T := ⟨S16x64x1, .i32⟩) main_call0_v3) addi,
    TRef.ternary (TRef.of (T := ⟨S16x64x1, .i1⟩) main_call0_v1) (TRef.of (T := ⟨S16x64x1, .i32⟩) main_call0_v3) (TRef.of (T := ⟨S16x64x1, .i32⟩) main_v65) (TRef.of (T := ⟨S16x64x1, .i32⟩) main_call0_v4) select,
    TRef.nullary (TRef.of (T := ⟨S1, .i32⟩) main_call0_c_1) (constantI S1 32 16383#32),
    TRef.nullary (TRef.of (T := ⟨S_, .i32⟩) main_call0_c_2) (constantI S_ 32 0#32),
    TRef.unary (TRef.of (T := ⟨S_, .i32⟩) main_call0_c_2) (TRef.of (T := ⟨S16x64x1, .i32⟩) main_call0_v5) (broadcastInDim S16x64x1 ![] bcast_S_S16x64x1),
    TRef.binary (TRef.of (T := ⟨S16x64x1, .i32⟩) main_call0_v4) (TRef.of (T := ⟨S16x64x1, .i32⟩) main_call0_v5) (TRef.of (T := ⟨S16x64x1, .i1⟩) main_call0_v6) (cmpi .sge),
    TRef.unary (TRef.of (T := ⟨S1, .i32⟩) main_call0_c_1) (TRef.of (T := ⟨S1x1x1, .i32⟩) main_call0_v7) (broadcastInDim S1x1x1 ![2] bcast_S1_S1x1x1_2),
    TRef.unary (TRef.of (T := ⟨S1x1x1, .i32⟩) main_call0_v7) (TRef.of (T := ⟨S16x64x1, .i32⟩) main_call0_v8) (broadcastInDim S16x64x1 ![0, 1, 2] bcast_S1x1x1_S16x64x1_0_1_2),
    TRef.binary (TRef.of (T := ⟨S16x64x1, .i32⟩) main_call0_v4) (TRef.of (T := ⟨S16x64x1, .i32⟩) main_call0_v8) (TRef.of (T := ⟨S16x64x1, .i1⟩) main_call0_v9) (cmpi .sle) ]
theorem rops9_sub : (rops9 : List (HloOp τ sig (Elt F))).Forall fun op => op.bufs ⊆ tcRefs τ sig :=
  ⟨unary_bufs_sub .., binary_bufs_sub .., ternary_bufs_sub .., nullary_bufs_sub .., nullary_bufs_sub .., unary_bufs_sub .., binary_bufs_sub .., unary_bufs_sub .., unary_bufs_sub .., binary_bufs_sub ..⟩

/-- Operations 98 … 107. -/
abbrev rops10 : List (HloOp τ sig (Elt F)) :=
  [ TRef.binary (TRef.of (T := ⟨S16x64x1, .i1⟩) main_call0_v6) (TRef.of (T := ⟨S16x64x1, .i1⟩) main_call0_v9) (TRef.of (T := ⟨S16x64x1, .i1⟩) main_call0_v10) andi,
    TRef.nullary (TRef.of (T := ⟨S_, .i1⟩) main_call0_c_3) (constantI S_ 1 1#1),
    TRef.binary (TRef.of (T := ⟨S16x64x1, .i1⟩) main_call0_v10) (TRef.of (T := ⟨S_, .i1⟩) main_call0_c_3) (TRef.of (T := ⟨S16x64, .i1⟩) main_call0_v11) (fun x v => Host.reduce IntOp.andi x v reducesTo_S16x64x1_S16x64_d2 h_S_),
    TRef.binary (TRef.of (T := ⟨S16x16384x4, .f32⟩) main_v64) (TRef.of (T := ⟨S16x64x1, .i32⟩) main_call0_v4) (TRef.of (T := ⟨S16x64x4, .f32⟩) main_call0_v12) (fun x i => Host.gather gather_S16x16384x4_S16x64x1_S16x64x4_2_1_0_0_1_2_114 x i),
    TRef.unary (TRef.of (T := ⟨S16x64, .i1⟩) main_call0_v11) (TRef.of (T := ⟨S16x64x4, .i1⟩) main_call0_v13) (broadcastInDim S16x64x4 ![0, 1] bcast_S16x64_S16x64x4_0_1),
    TRef.nullary (TRef.of (T := ⟨S_, .f32⟩) main_call0_cst) (constant S_ .f32 0x7FC00000#32),
    TRef.unary (TRef.of (T := ⟨S_, .f32⟩) main_call0_cst) (TRef.of (T := ⟨S16x64x4, .f32⟩) main_call0_v14) (broadcastInDim S16x64x4 ![] bcast_S_S16x64x4),
    TRef.ternary (TRef.of (T := ⟨S16x64x4, .i1⟩) main_call0_v13) (TRef.of (T := ⟨S16x64x4, .f32⟩) main_call0_v12) (TRef.of (T := ⟨S16x64x4, .f32⟩) main_call0_v14) (TRef.of (T := ⟨S16x64x4, .f32⟩) main_v66) select,
    unary main_v66 main_v67 ((extractStridedSlice S16x64x1 ![0, 0, 0] · slices_S16x64x4_S16x64x1_0_0_0) : (⟨S16x64x4, .f32⟩ : BufTy).Contents (Elt F) → (⟨S16x64x1, .f32⟩ : BufTy).Contents (Elt F)),
    reshape main_v67 main_v68 rfl shapeCasts_S16x64x1_S16x64 ]
theorem rops10_sub : (rops10 : List (HloOp τ sig (Elt F))).Forall fun op => op.bufs ⊆ tcRefs τ sig :=
  ⟨binary_bufs_sub .., nullary_bufs_sub .., binary_bufs_sub .., binary_bufs_sub .., unary_bufs_sub .., nullary_bufs_sub .., unary_bufs_sub .., ternary_bufs_sub .., unary_bufs_sub .., reshape_bufs_sub ..⟩

/-- Operations 108 … 117. -/
abbrev rops11 : List (HloOp τ sig (Elt F)) :=
  [ unary main_v66 main_v69 ((extractStridedSlice S16x64x1 ![0, 0, 1] · slices_S16x64x4_S16x64x1_0_0_1) : (⟨S16x64x4, .f32⟩ : BufTy).Contents (Elt F) → (⟨S16x64x1, .f32⟩ : BufTy).Contents (Elt F)),
    reshape main_v69 main_v70 rfl shapeCasts_S16x64x1_S16x64,
    unary main_v66 main_v71 ((extractStridedSlice S16x64x1 ![0, 0, 2] · slices_S16x64x4_S16x64x1_0_0_2) : (⟨S16x64x4, .f32⟩ : BufTy).Contents (Elt F) → (⟨S16x64x1, .f32⟩ : BufTy).Contents (Elt F)),
    reshape main_v71 main_v72 rfl shapeCasts_S16x64x1_S16x64,
    unary main_v66 main_v73 ((extractStridedSlice S16x64x1 ![0, 0, 3] · slices_S16x64x4_S16x64x1_0_0_3) : (⟨S16x64x4, .f32⟩ : BufTy).Contents (Elt F) → (⟨S16x64x1, .f32⟩ : BufTy).Contents (Elt F)),
    reshape main_v73 main_v74 rfl shapeCasts_S16x64x1_S16x64,
    nullary main_cst_15 (constant S_ .f32 0x40000000#32),
    unary main_cst_15 main_v75 (broadcastInDim S16x64 ![] bcast_S_S16x64 : (⟨S_, .f32⟩ : BufTy).Contents (Elt F) → (⟨S16x64, .f32⟩ : BufTy).Contents (Elt F)),
    binary main_v72 main_v75 main_v76 (Host.divf : (⟨S16x64, .f32⟩ : BufTy).Contents (Elt F) → (⟨S16x64, .f32⟩ : BufTy).Contents (Elt F) → (⟨S16x64, .f32⟩ : BufTy).Contents (Elt F)),
    binary main_v68 main_v76 main_v77 (subf : (⟨S16x64, .f32⟩ : BufTy).Contents (Elt F) → (⟨S16x64, .f32⟩ : BufTy).Contents (Elt F) → (⟨S16x64, .f32⟩ : BufTy).Contents (Elt F)) ]
theorem rops11_sub : (rops11 : List (HloOp τ sig (Elt F))).Forall fun op => op.bufs ⊆ tcRefs τ sig :=
  ⟨unary_bufs_sub .., reshape_bufs_sub .., unary_bufs_sub .., reshape_bufs_sub .., unary_bufs_sub .., reshape_bufs_sub .., nullary_bufs_sub .., unary_bufs_sub .., binary_bufs_sub .., binary_bufs_sub ..⟩

/-- Operations 118 … 127. -/
abbrev rops12 : List (HloOp τ sig (Elt F)) :=
  [ nullary main_cst_16 (constant S_ .f32 0x40000000#32),
    unary main_cst_16 main_v78 (broadcastInDim S16x64 ![] bcast_S_S16x64 : (⟨S_, .f32⟩ : BufTy).Contents (Elt F) → (⟨S16x64, .f32⟩ : BufTy).Contents (Elt F)),
    binary main_v74 main_v78 main_v79 (Host.divf : (⟨S16x64, .f32⟩ : BufTy).Contents (Elt F) → (⟨S16x64, .f32⟩ : BufTy).Contents (Elt F) → (⟨S16x64, .f32⟩ : BufTy).Contents (Elt F)),
    binary main_v70 main_v79 main_v80 (subf : (⟨S16x64, .f32⟩ : BufTy).Contents (Elt F) → (⟨S16x64, .f32⟩ : BufTy).Contents (Elt F) → (⟨S16x64, .f32⟩ : BufTy).Contents (Elt F)),
    nullary main_cst_17 (constant S_ .f32 0x40000000#32),
    unary main_cst_17 main_v81 (broadcastInDim S16x64 ![] bcast_S_S16x64 : (⟨S_, .f32⟩ : BufTy).Contents (Elt F) → (⟨S16x64, .f32⟩ : BufTy).Contents (Elt F)),
    binary main_v72 main_v81 main_v82 (Host.divf : (⟨S16x64, .f32⟩ : BufTy).Contents (Elt F) → (⟨S16x64, .f32⟩ : BufTy).Contents (Elt F) → (⟨S16x64, .f32⟩ : BufTy).Contents (Elt F)),
    binary main_v68 main_v82 main_v83 (addf : (⟨S16x64, .f32⟩ : BufTy).Contents (Elt F) → (⟨S16x64, .f32⟩ : BufTy).Contents (Elt F) → (⟨S16x64, .f32⟩ : BufTy).Contents (Elt F)),
    nullary main_cst_18 (constant S_ .f32 0x40000000#32),
    unary main_cst_18 main_v84 (broadcastInDim S16x64 ![] bcast_S_S16x64 : (⟨S_, .f32⟩ : BufTy).Contents (Elt F) → (⟨S16x64, .f32⟩ : BufTy).Contents (Elt F)) ]
theorem rops12_sub : (rops12 : List (HloOp τ sig (Elt F))).Forall fun op => op.bufs ⊆ tcRefs τ sig :=
  ⟨nullary_bufs_sub .., unary_bufs_sub .., binary_bufs_sub .., binary_bufs_sub .., nullary_bufs_sub .., unary_bufs_sub .., binary_bufs_sub .., binary_bufs_sub .., nullary_bufs_sub .., unary_bufs_sub ..⟩

/-- Operations 128 … 133. -/
abbrev rops13 : List (HloOp τ sig (Elt F)) :=
  [ binary main_v74 main_v84 main_v85 (Host.divf : (⟨S16x64, .f32⟩ : BufTy).Contents (Elt F) → (⟨S16x64, .f32⟩ : BufTy).Contents (Elt F) → (⟨S16x64, .f32⟩ : BufTy).Contents (Elt F)),
    binary main_v70 main_v85 main_v86 (addf : (⟨S16x64, .f32⟩ : BufTy).Contents (Elt F) → (⟨S16x64, .f32⟩ : BufTy).Contents (Elt F) → (⟨S16x64, .f32⟩ : BufTy).Contents (Elt F)),
    unary main_v77 main_v87 (broadcastInDim S16x64x1 ![0, 1] bcast_S16x64_S16x64x1_0_1 : (⟨S16x64, .f32⟩ : BufTy).Contents (Elt F) → (⟨S16x64x1, .f32⟩ : BufTy).Contents (Elt F)),
    unary main_v80 main_v88 (broadcastInDim S16x64x1 ![0, 1] bcast_S16x64_S16x64x1_0_1 : (⟨S16x64, .f32⟩ : BufTy).Contents (Elt F) → (⟨S16x64x1, .f32⟩ : BufTy).Contents (Elt F)),
    unary main_v83 main_v89 (broadcastInDim S16x64x1 ![0, 1] bcast_S16x64_S16x64x1_0_1 : (⟨S16x64, .f32⟩ : BufTy).Contents (Elt F) → (⟨S16x64x1, .f32⟩ : BufTy).Contents (Elt F)),
    unary main_v86 main_v90 (broadcastInDim S16x64x1 ![0, 1] bcast_S16x64_S16x64x1_0_1 : (⟨S16x64, .f32⟩ : BufTy).Contents (Elt F) → (⟨S16x64x1, .f32⟩ : BufTy).Contents (Elt F)) ]
theorem rops13_sub : (rops13 : List (HloOp τ sig (Elt F))).Forall fun op => op.bufs ⊆ tcRefs τ sig :=
  ⟨binary_bufs_sub .., binary_bufs_sub .., unary_bufs_sub .., unary_bufs_sub .., unary_bufs_sub .., unary_bufs_sub ..⟩

/-- Operations 134 … 143. -/
abbrev rops14 : List (HloOp τ sig (Elt F)) :=
  [ nary ![main_v87, main_v88, main_v89, main_v90] main_v91 (fun u => concatenate S16x64x4 2 [⟨S16x64x1, u 0⟩, ⟨S16x64x1, u 1⟩, ⟨S16x64x1, u 2⟩, ⟨S16x64x1, u 3⟩] concatenates_S16x64x1_S16x64x1_S16x64x1_S16x64x1_S16x64x4_d2),
    nullary main_cst_19 (constant S_ .f32 0x40000000#32),
    unary main_cst_19 main_v92 (broadcastInDim S16x64 ![] bcast_S_S16x64 : (⟨S_, .f32⟩ : BufTy).Contents (Elt F) → (⟨S16x64, .f32⟩ : BufTy).Contents (Elt F)),
    binary main_v10 main_v92 main_v93 (Host.divf : (⟨S16x64, .f32⟩ : BufTy).Contents (Elt F) → (⟨S16x64, .f32⟩ : BufTy).Contents (Elt F) → (⟨S16x64, .f32⟩ : BufTy).Contents (Elt F)),
    binary main_v6 main_v93 main_v94 (subf : (⟨S16x64, .f32⟩ : BufTy).Contents (Elt F) → (⟨S16x64, .f32⟩ : BufTy).Contents (Elt F) → (⟨S16x64, .f32⟩ : BufTy).Contents (Elt F)),
    nullary main_cst_20 (constant S_ .f32 0x43000000#32),
    unary main_cst_20 main_v95 (broadcastInDim S16x64 ![] bcast_S_S16x64 : (⟨S_, .f32⟩ : BufTy).Contents (Elt F) → (⟨S16x64, .f32⟩ : BufTy).Contents (Elt F)),
    binary main_v94 main_v95 main_v96 (mulf : (⟨S16x64, .f32⟩ : BufTy).Contents (Elt F) → (⟨S16x64, .f32⟩ : BufTy).Contents (Elt F) → (⟨S16x64, .f32⟩ : BufTy).Contents (Elt F)),
    nullary main_cst_21 (constant S_ .f32 0x40000000#32),
    unary main_cst_21 main_v97 (broadcastInDim S16x64 ![] bcast_S_S16x64 : (⟨S_, .f32⟩ : BufTy).Contents (Elt F) → (⟨S16x64, .f32⟩ : BufTy).Contents (Elt F)) ]
theorem rops14_sub : (rops14 : List (HloOp τ sig (Elt F))).Forall fun op => op.bufs ⊆ tcRefs τ sig :=
  ⟨nary_bufs_sub .., nullary_bufs_sub .., unary_bufs_sub .., binary_bufs_sub .., binary_bufs_sub .., nullary_bufs_sub .., unary_bufs_sub .., binary_bufs_sub .., nullary_bufs_sub .., unary_bufs_sub ..⟩

/-- Operations 144 … 153. -/
abbrev rops15 : List (HloOp τ sig (Elt F)) :=
  [ binary main_v12 main_v97 main_v98 (Host.divf : (⟨S16x64, .f32⟩ : BufTy).Contents (Elt F) → (⟨S16x64, .f32⟩ : BufTy).Contents (Elt F) → (⟨S16x64, .f32⟩ : BufTy).Contents (Elt F)),
    binary main_v8 main_v98 main_v99 (subf : (⟨S16x64, .f32⟩ : BufTy).Contents (Elt F) → (⟨S16x64, .f32⟩ : BufTy).Contents (Elt F) → (⟨S16x64, .f32⟩ : BufTy).Contents (Elt F)),
    nullary main_cst_22 (constant S_ .f32 0x43000000#32),
    unary main_cst_22 main_v100 (broadcastInDim S16x64 ![] bcast_S_S16x64 : (⟨S_, .f32⟩ : BufTy).Contents (Elt F) → (⟨S16x64, .f32⟩ : BufTy).Contents (Elt F)),
    binary main_v99 main_v100 main_v101 (mulf : (⟨S16x64, .f32⟩ : BufTy).Contents (Elt F) → (⟨S16x64, .f32⟩ : BufTy).Contents (Elt F) → (⟨S16x64, .f32⟩ : BufTy).Contents (Elt F)),
    nullary main_cst_23 (constant S_ .f32 0x40000000#32),
    unary main_cst_23 main_v102 (broadcastInDim S16x64 ![] bcast_S_S16x64 : (⟨S_, .f32⟩ : BufTy).Contents (Elt F) → (⟨S16x64, .f32⟩ : BufTy).Contents (Elt F)),
    binary main_v10 main_v102 main_v103 (Host.divf : (⟨S16x64, .f32⟩ : BufTy).Contents (Elt F) → (⟨S16x64, .f32⟩ : BufTy).Contents (Elt F) → (⟨S16x64, .f32⟩ : BufTy).Contents (Elt F)),
    binary main_v6 main_v103 main_v104 (addf : (⟨S16x64, .f32⟩ : BufTy).Contents (Elt F) → (⟨S16x64, .f32⟩ : BufTy).Contents (Elt F) → (⟨S16x64, .f32⟩ : BufTy).Contents (Elt F)),
    nullary main_cst_24 (constant S_ .f32 0x43000000#32) ]
theorem rops15_sub : (rops15 : List (HloOp τ sig (Elt F))).Forall fun op => op.bufs ⊆ tcRefs τ sig :=
  ⟨binary_bufs_sub .., binary_bufs_sub .., nullary_bufs_sub .., unary_bufs_sub .., binary_bufs_sub .., nullary_bufs_sub .., unary_bufs_sub .., binary_bufs_sub .., binary_bufs_sub .., nullary_bufs_sub ..⟩

/-- Operations 154 … 163. -/
abbrev rops16 : List (HloOp τ sig (Elt F)) :=
  [ unary main_cst_24 main_v105 (broadcastInDim S16x64 ![] bcast_S_S16x64 : (⟨S_, .f32⟩ : BufTy).Contents (Elt F) → (⟨S16x64, .f32⟩ : BufTy).Contents (Elt F)),
    binary main_v104 main_v105 main_v106 (mulf : (⟨S16x64, .f32⟩ : BufTy).Contents (Elt F) → (⟨S16x64, .f32⟩ : BufTy).Contents (Elt F) → (⟨S16x64, .f32⟩ : BufTy).Contents (Elt F)),
    nullary main_cst_25 (constant S_ .f32 0x40000000#32),
    unary main_cst_25 main_v107 (broadcastInDim S16x64 ![] bcast_S_S16x64 : (⟨S_, .f32⟩ : BufTy).Contents (Elt F) → (⟨S16x64, .f32⟩ : BufTy).Contents (Elt F)),
    binary main_v12 main_v107 main_v108 (Host.divf : (⟨S16x64, .f32⟩ : BufTy).Contents (Elt F) → (⟨S16x64, .f32⟩ : BufTy).Contents (Elt F) → (⟨S16x64, .f32⟩ : BufTy).Contents (Elt F)),
    binary main_v8 main_v108 main_v109 (addf : (⟨S16x64, .f32⟩ : BufTy).Contents (Elt F) → (⟨S16x64, .f32⟩ : BufTy).Contents (Elt F) → (⟨S16x64, .f32⟩ : BufTy).Contents (Elt F)),
    nullary main_cst_26 (constant S_ .f32 0x43000000#32),
    unary main_cst_26 main_v110 (broadcastInDim S16x64 ![] bcast_S_S16x64 : (⟨S_, .f32⟩ : BufTy).Contents (Elt F) → (⟨S16x64, .f32⟩ : BufTy).Contents (Elt F)),
    binary main_v109 main_v110 main_v111 (mulf : (⟨S16x64, .f32⟩ : BufTy).Contents (Elt F) → (⟨S16x64, .f32⟩ : BufTy).Contents (Elt F) → (⟨S16x64, .f32⟩ : BufTy).Contents (Elt F)),
    unary main_v96 main_v112 (broadcastInDim S16x64x1 ![0, 1] bcast_S16x64_S16x64x1_0_1 : (⟨S16x64, .f32⟩ : BufTy).Contents (Elt F) → (⟨S16x64x1, .f32⟩ : BufTy).Contents (Elt F)) ]
theorem rops16_sub : (rops16 : List (HloOp τ sig (Elt F))).Forall fun op => op.bufs ⊆ tcRefs τ sig :=
  ⟨unary_bufs_sub .., binary_bufs_sub .., nullary_bufs_sub .., unary_bufs_sub .., binary_bufs_sub .., binary_bufs_sub .., nullary_bufs_sub .., unary_bufs_sub .., binary_bufs_sub .., unary_bufs_sub ..⟩

/-- Operations 164 … 166. -/
abbrev rops17 : List (HloOp τ sig (Elt F)) :=
  [ unary main_v101 main_v113 (broadcastInDim S16x64x1 ![0, 1] bcast_S16x64_S16x64x1_0_1 : (⟨S16x64, .f32⟩ : BufTy).Contents (Elt F) → (⟨S16x64x1, .f32⟩ : BufTy).Contents (Elt F)),
    unary main_v106 main_v114 (broadcastInDim S16x64x1 ![0, 1] bcast_S16x64_S16x64x1_0_1 : (⟨S16x64, .f32⟩ : BufTy).Contents (Elt F) → (⟨S16x64x1, .f32⟩ : BufTy).Contents (Elt F)),
    unary main_v111 main_v115 (broadcastInDim S16x64x1 ![0, 1] bcast_S16x64_S16x64x1_0_1 : (⟨S16x64, .f32⟩ : BufTy).Contents (Elt F) → (⟨S16x64x1, .f32⟩ : BufTy).Contents (Elt F)) ]
theorem rops17_sub : (rops17 : List (HloOp τ sig (Elt F))).Forall fun op => op.bufs ⊆ tcRefs τ sig :=
  ⟨unary_bufs_sub .., unary_bufs_sub .., unary_bufs_sub ..⟩

/-- Operations 167 … 176. -/
abbrev rops18 : List (HloOp τ sig (Elt F)) :=
  [ nary ![main_v112, main_v113, main_v114, main_v115] main_v116 (fun u => concatenate S16x64x4 2 [⟨S16x64x1, u 0⟩, ⟨S16x64x1, u 1⟩, ⟨S16x64x1, u 2⟩, ⟨S16x64x1, u 3⟩] concatenates_S16x64x1_S16x64x1_S16x64x1_S16x64x1_S16x64x4_d2),
    unary main_v91 main_v117 ((extractStridedSlice S16x64x1 ![0, 0, 0] · slices_S16x64x4_S16x64x1_0_0_0) : (⟨S16x64x4, .f32⟩ : BufTy).Contents (Elt F) → (⟨S16x64x1, .f32⟩ : BufTy).Contents (Elt F)),
    reshape main_v117 main_v118 rfl shapeCasts_S16x64x1_S16x64,
    unary main_v116 main_v119 ((extractStridedSlice S16x64x1 ![0, 0, 0] · slices_S16x64x4_S16x64x1_0_0_0) : (⟨S16x64x4, .f32⟩ : BufTy).Contents (Elt F) → (⟨S16x64x1, .f32⟩ : BufTy).Contents (Elt F)),
    reshape main_v119 main_v120 rfl shapeCasts_S16x64x1_S16x64,
    binary main_v118 main_v120 main_v121 (maximumf : (⟨S16x64, .f32⟩ : BufTy).Contents (Elt F) → (⟨S16x64, .f32⟩ : BufTy).Contents (Elt F) → (⟨S16x64, .f32⟩ : BufTy).Contents (Elt F)),
    unary main_v91 main_v122 ((extractStridedSlice S16x64x1 ![0, 0, 1] · slices_S16x64x4_S16x64x1_0_0_1) : (⟨S16x64x4, .f32⟩ : BufTy).Contents (Elt F) → (⟨S16x64x1, .f32⟩ : BufTy).Contents (Elt F)),
    reshape main_v122 main_v123 rfl shapeCasts_S16x64x1_S16x64,
    unary main_v116 main_v124 ((extractStridedSlice S16x64x1 ![0, 0, 1] · slices_S16x64x4_S16x64x1_0_0_1) : (⟨S16x64x4, .f32⟩ : BufTy).Contents (Elt F) → (⟨S16x64x1, .f32⟩ : BufTy).Contents (Elt F)),
    reshape main_v124 main_v125 rfl shapeCasts_S16x64x1_S16x64 ]
theorem rops18_sub : (rops18 : List (HloOp τ sig (Elt F))).Forall fun op => op.bufs ⊆ tcRefs τ sig :=
  ⟨nary_bufs_sub .., unary_bufs_sub .., reshape_bufs_sub .., unary_bufs_sub .., reshape_bufs_sub .., binary_bufs_sub .., unary_bufs_sub .., reshape_bufs_sub .., unary_bufs_sub .., reshape_bufs_sub ..⟩

/-- Operations 177 … 186. -/
abbrev rops19 : List (HloOp τ sig (Elt F)) :=
  [ binary main_v123 main_v125 main_v126 (maximumf : (⟨S16x64, .f32⟩ : BufTy).Contents (Elt F) → (⟨S16x64, .f32⟩ : BufTy).Contents (Elt F) → (⟨S16x64, .f32⟩ : BufTy).Contents (Elt F)),
    unary main_v91 main_v127 ((extractStridedSlice S16x64x1 ![0, 0, 2] · slices_S16x64x4_S16x64x1_0_0_2) : (⟨S16x64x4, .f32⟩ : BufTy).Contents (Elt F) → (⟨S16x64x1, .f32⟩ : BufTy).Contents (Elt F)),
    reshape main_v127 main_v128 rfl shapeCasts_S16x64x1_S16x64,
    unary main_v116 main_v129 ((extractStridedSlice S16x64x1 ![0, 0, 2] · slices_S16x64x4_S16x64x1_0_0_2) : (⟨S16x64x4, .f32⟩ : BufTy).Contents (Elt F) → (⟨S16x64x1, .f32⟩ : BufTy).Contents (Elt F)),
    reshape main_v129 main_v130 rfl shapeCasts_S16x64x1_S16x64,
    binary main_v128 main_v130 main_v131 (minimumf : (⟨S16x64, .f32⟩ : BufTy).Contents (Elt F) → (⟨S16x64, .f32⟩ : BufTy).Contents (Elt F) → (⟨S16x64, .f32⟩ : BufTy).Contents (Elt F)),
    unary main_v91 main_v132 ((extractStridedSlice S16x64x1 ![0, 0, 3] · slices_S16x64x4_S16x64x1_0_0_3) : (⟨S16x64x4, .f32⟩ : BufTy).Contents (Elt F) → (⟨S16x64x1, .f32⟩ : BufTy).Contents (Elt F)),
    reshape main_v132 main_v133 rfl shapeCasts_S16x64x1_S16x64,
    unary main_v116 main_v134 ((extractStridedSlice S16x64x1 ![0, 0, 3] · slices_S16x64x4_S16x64x1_0_0_3) : (⟨S16x64x4, .f32⟩ : BufTy).Contents (Elt F) → (⟨S16x64x1, .f32⟩ : BufTy).Contents (Elt F)),
    reshape main_v134 main_v135 rfl shapeCasts_S16x64x1_S16x64 ]
theorem rops19_sub : (rops19 : List (HloOp τ sig (Elt F))).Forall fun op => op.bufs ⊆ tcRefs τ sig :=
  ⟨binary_bufs_sub .., unary_bufs_sub .., reshape_bufs_sub .., unary_bufs_sub .., reshape_bufs_sub .., binary_bufs_sub .., unary_bufs_sub .., reshape_bufs_sub .., unary_bufs_sub .., reshape_bufs_sub ..⟩

/-- Operations 187 … 196. -/
abbrev rops20 : List (HloOp τ sig (Elt F)) :=
  [ binary main_v133 main_v135 main_v136 (minimumf : (⟨S16x64, .f32⟩ : BufTy).Contents (Elt F) → (⟨S16x64, .f32⟩ : BufTy).Contents (Elt F) → (⟨S16x64, .f32⟩ : BufTy).Contents (Elt F)),
    binary main_v131 main_v121 main_v137 (subf : (⟨S16x64, .f32⟩ : BufTy).Contents (Elt F) → (⟨S16x64, .f32⟩ : BufTy).Contents (Elt F) → (⟨S16x64, .f32⟩ : BufTy).Contents (Elt F)),
    nullary main_c_27 (constantI S_ 32 0#32),
    TRef.unary (TRef.of (T := ⟨S_, .i32⟩) main_c_27) (TRef.of (T := ⟨S_, .f32⟩) main_call1_v0) (sitofp .f32),
    TRef.unary (TRef.of (T := ⟨S_, .f32⟩) main_call1_v0) (TRef.of (T := ⟨S16x64, .f32⟩) main_call1_v1) (broadcastInDim S16x64 ![] bcast_S_S16x64),
    TRef.binary (TRef.of (T := ⟨S16x64, .f32⟩) main_call1_v1) (TRef.of (T := ⟨S16x64, .f32⟩) main_v137) (TRef.of (T := ⟨S16x64, .f32⟩) main_v138) maximumf,
    binary main_v136 main_v126 main_v139 (subf : (⟨S16x64, .f32⟩ : BufTy).Contents (Elt F) → (⟨S16x64, .f32⟩ : BufTy).Contents (Elt F) → (⟨S16x64, .f32⟩ : BufTy).Contents (Elt F)),
    nullary main_c_28 (constantI S_ 32 0#32),
    TRef.unary (TRef.of (T := ⟨S_, .i32⟩) main_c_28) (TRef.of (T := ⟨S_, .f32⟩) main_call2_v0) (sitofp .f32),
    TRef.unary (TRef.of (T := ⟨S_, .f32⟩) main_call2_v0) (TRef.of (T := ⟨S16x64, .f32⟩) main_call2_v1) (broadcastInDim S16x64 ![] bcast_S_S16x64) ]
theorem rops20_sub : (rops20 : List (HloOp τ sig (Elt F))).Forall fun op => op.bufs ⊆ tcRefs τ sig :=
  ⟨binary_bufs_sub .., binary_bufs_sub .., nullary_bufs_sub .., unary_bufs_sub .., unary_bufs_sub .., binary_bufs_sub .., binary_bufs_sub .., nullary_bufs_sub .., unary_bufs_sub .., unary_bufs_sub ..⟩

/-- Operations 197 … 206. -/
abbrev rops21 : List (HloOp τ sig (Elt F)) :=
  [ TRef.binary (TRef.of (T := ⟨S16x64, .f32⟩) main_call2_v1) (TRef.of (T := ⟨S16x64, .f32⟩) main_v139) (TRef.of (T := ⟨S16x64, .f32⟩) main_v140) maximumf,
    binary main_v138 main_v140 main_v141 (mulf : (⟨S16x64, .f32⟩ : BufTy).Contents (Elt F) → (⟨S16x64, .f32⟩ : BufTy).Contents (Elt F) → (⟨S16x64, .f32⟩ : BufTy).Contents (Elt F)),
    unary main_v91 main_v142 ((extractStridedSlice S16x64x1 ![0, 0, 2] · slices_S16x64x4_S16x64x1_0_0_2) : (⟨S16x64x4, .f32⟩ : BufTy).Contents (Elt F) → (⟨S16x64x1, .f32⟩ : BufTy).Contents (Elt F)),
    reshape main_v142 main_v143 rfl shapeCasts_S16x64x1_S16x64,
    unary main_v91 main_v144 ((extractStridedSlice S16x64x1 ![0, 0, 0] · slices_S16x64x4_S16x64x1_0_0_0) : (⟨S16x64x4, .f32⟩ : BufTy).Contents (Elt F) → (⟨S16x64x1, .f32⟩ : BufTy).Contents (Elt F)),
    reshape main_v144 main_v145 rfl shapeCasts_S16x64x1_S16x64,
    binary main_v143 main_v145 main_v146 (subf : (⟨S16x64, .f32⟩ : BufTy).Contents (Elt F) → (⟨S16x64, .f32⟩ : BufTy).Contents (Elt F) → (⟨S16x64, .f32⟩ : BufTy).Contents (Elt F)),
    unary main_v91 main_v147 ((extractStridedSlice S16x64x1 ![0, 0, 3] · slices_S16x64x4_S16x64x1_0_0_3) : (⟨S16x64x4, .f32⟩ : BufTy).Contents (Elt F) → (⟨S16x64x1, .f32⟩ : BufTy).Contents (Elt F)),
    reshape main_v147 main_v148 rfl shapeCasts_S16x64x1_S16x64,
    unary main_v91 main_v149 ((extractStridedSlice S16x64x1 ![0, 0, 1] · slices_S16x64x4_S16x64x1_0_0_1) : (⟨S16x64x4, .f32⟩ : BufTy).Contents (Elt F) → (⟨S16x64x1, .f32⟩ : BufTy).Contents (Elt F)) ]
theorem rops21_sub : (rops21 : List (HloOp τ sig (Elt F))).Forall fun op => op.bufs ⊆ tcRefs τ sig :=
  ⟨binary_bufs_sub .., binary_bufs_sub .., unary_bufs_sub .., reshape_bufs_sub .., unary_bufs_sub .., reshape_bufs_sub .., binary_bufs_sub .., unary_bufs_sub .., reshape_bufs_sub .., unary_bufs_sub ..⟩

/-- Operations 207 … 216. -/
abbrev rops22 : List (HloOp τ sig (Elt F)) :=
  [ reshape main_v149 main_v150 rfl shapeCasts_S16x64x1_S16x64,
    binary main_v148 main_v150 main_v151 (subf : (⟨S16x64, .f32⟩ : BufTy).Contents (Elt F) → (⟨S16x64, .f32⟩ : BufTy).Contents (Elt F) → (⟨S16x64, .f32⟩ : BufTy).Contents (Elt F)),
    binary main_v146 main_v151 main_v152 (mulf : (⟨S16x64, .f32⟩ : BufTy).Contents (Elt F) → (⟨S16x64, .f32⟩ : BufTy).Contents (Elt F) → (⟨S16x64, .f32⟩ : BufTy).Contents (Elt F)),
    unary main_v116 main_v153 ((extractStridedSlice S16x64x1 ![0, 0, 2] · slices_S16x64x4_S16x64x1_0_0_2) : (⟨S16x64x4, .f32⟩ : BufTy).Contents (Elt F) → (⟨S16x64x1, .f32⟩ : BufTy).Contents (Elt F)),
    reshape main_v153 main_v154 rfl shapeCasts_S16x64x1_S16x64,
    unary main_v116 main_v155 ((extractStridedSlice S16x64x1 ![0, 0, 0] · slices_S16x64x4_S16x64x1_0_0_0) : (⟨S16x64x4, .f32⟩ : BufTy).Contents (Elt F) → (⟨S16x64x1, .f32⟩ : BufTy).Contents (Elt F)),
    reshape main_v155 main_v156 rfl shapeCasts_S16x64x1_S16x64,
    binary main_v154 main_v156 main_v157 (subf : (⟨S16x64, .f32⟩ : BufTy).Contents (Elt F) → (⟨S16x64, .f32⟩ : BufTy).Contents (Elt F) → (⟨S16x64, .f32⟩ : BufTy).Contents (Elt F)),
    unary main_v116 main_v158 ((extractStridedSlice S16x64x1 ![0, 0, 3] · slices_S16x64x4_S16x64x1_0_0_3) : (⟨S16x64x4, .f32⟩ : BufTy).Contents (Elt F) → (⟨S16x64x1, .f32⟩ : BufTy).Contents (Elt F)),
    reshape main_v158 main_v159 rfl shapeCasts_S16x64x1_S16x64 ]
theorem rops22_sub : (rops22 : List (HloOp τ sig (Elt F))).Forall fun op => op.bufs ⊆ tcRefs τ sig :=
  ⟨reshape_bufs_sub .., binary_bufs_sub .., binary_bufs_sub .., unary_bufs_sub .., reshape_bufs_sub .., unary_bufs_sub .., reshape_bufs_sub .., binary_bufs_sub .., unary_bufs_sub .., reshape_bufs_sub ..⟩

/-- Operations 217 … 226. -/
abbrev rops23 : List (HloOp τ sig (Elt F)) :=
  [ unary main_v116 main_v160 ((extractStridedSlice S16x64x1 ![0, 0, 1] · slices_S16x64x4_S16x64x1_0_0_1) : (⟨S16x64x4, .f32⟩ : BufTy).Contents (Elt F) → (⟨S16x64x1, .f32⟩ : BufTy).Contents (Elt F)),
    reshape main_v160 main_v161 rfl shapeCasts_S16x64x1_S16x64,
    binary main_v159 main_v161 main_v162 (subf : (⟨S16x64, .f32⟩ : BufTy).Contents (Elt F) → (⟨S16x64, .f32⟩ : BufTy).Contents (Elt F) → (⟨S16x64, .f32⟩ : BufTy).Contents (Elt F)),
    binary main_v157 main_v162 main_v163 (mulf : (⟨S16x64, .f32⟩ : BufTy).Contents (Elt F) → (⟨S16x64, .f32⟩ : BufTy).Contents (Elt F) → (⟨S16x64, .f32⟩ : BufTy).Contents (Elt F)),
    binary main_v152 main_v163 main_v164 (addf : (⟨S16x64, .f32⟩ : BufTy).Contents (Elt F) → (⟨S16x64, .f32⟩ : BufTy).Contents (Elt F) → (⟨S16x64, .f32⟩ : BufTy).Contents (Elt F)),
    binary main_v164 main_v141 main_v165 (subf : (⟨S16x64, .f32⟩ : BufTy).Contents (Elt F) → (⟨S16x64, .f32⟩ : BufTy).Contents (Elt F) → (⟨S16x64, .f32⟩ : BufTy).Contents (Elt F)),
    nullary main_cst_29 (constant S_ .f32 0x33D6BF95#32),
    unary main_cst_29 main_v166 (broadcastInDim S16x64 ![] bcast_S_S16x64 : (⟨S_, .f32⟩ : BufTy).Contents (Elt F) → (⟨S16x64, .f32⟩ : BufTy).Contents (Elt F)),
    binary main_v165 main_v166 main_v167 (addf : (⟨S16x64, .f32⟩ : BufTy).Contents (Elt F) → (⟨S16x64, .f32⟩ : BufTy).Contents (Elt F) → (⟨S16x64, .f32⟩ : BufTy).Contents (Elt F)),
    binary main_v141 main_v167 main_v168 (Host.divf : (⟨S16x64, .f32⟩ : BufTy).Contents (Elt F) → (⟨S16x64, .f32⟩ : BufTy).Contents (Elt F) → (⟨S16x64, .f32⟩ : BufTy).Contents (Elt F)) ]
theorem rops23_sub : (rops23 : List (HloOp τ sig (Elt F))).Forall fun op => op.bufs ⊆ tcRefs τ sig :=
  ⟨unary_bufs_sub .., reshape_bufs_sub .., binary_bufs_sub .., binary_bufs_sub .., binary_bufs_sub .., binary_bufs_sub .., nullary_bufs_sub .., unary_bufs_sub .., binary_bufs_sub .., binary_bufs_sub ..⟩

/-- Operations 227 … 236. -/
abbrev rops24 : List (HloOp τ sig (Elt F)) :=
  [ nullary main_cst_30 (constant S_ .f32 0x3F800000#32),
    unary main_cst_30 main_v169 (broadcastInDim S16x64 ![] bcast_S_S16x64 : (⟨S_, .f32⟩ : BufTy).Contents (Elt F) → (⟨S16x64, .f32⟩ : BufTy).Contents (Elt F)),
    binary main_v169 main_v168 main_v170 (subf : (⟨S16x64, .f32⟩ : BufTy).Contents (Elt F) → (⟨S16x64, .f32⟩ : BufTy).Contents (Elt F) → (⟨S16x64, .f32⟩ : BufTy).Contents (Elt F)),
    nullary main_cst_31 (constant S_ .f32 0x00000000#32),
    binary main_v170 main_cst_31 main_v171 ((fun x v => Host.reduceAdd x v reducesTo_S16x64_S_d0_1 h_S_) : (⟨S16x64, .f32⟩ : BufTy).Contents (Elt F) → (⟨S_, .f32⟩ : BufTy).Contents (Elt F) → (⟨S_, .f32⟩ : BufTy).Contents (Elt F)),
    unary main_v1 main_v172 ((extractStridedSlice S16x16384x1 ![0, 0, 4] · slices_S16x16384x85_S16x16384x1_0_0_4) : (⟨S16x16384x85, .f32⟩ : BufTy).Contents (Elt F) → (⟨S16x16384x1, .f32⟩ : BufTy).Contents (Elt F)),
    reshape main_v172 main_v173 rfl shapeCasts_S16x16384x1_S16x16384,
    TRef.nullary (TRef.of (T := ⟨S_, .f32⟩) main_call3_cst) (constant S_ .f32 0x00000000#32),
    TRef.unary (TRef.of (T := ⟨S_, .f32⟩) main_call3_cst) (TRef.of (T := ⟨S16x16384, .f32⟩) main_call3_v0) (broadcastInDim S16x16384 ![] bcast_S_S16x16384),
    TRef.binary (TRef.of (T := ⟨S16x16384, .f32⟩) main_v173) (TRef.of (T := ⟨S16x16384, .f32⟩) main_call3_v0) (TRef.of (T := ⟨S16x16384, .f32⟩) main_call3_v1) maximumf ]
theorem rops24_sub : (rops24 : List (HloOp τ sig (Elt F))).Forall fun op => op.bufs ⊆ tcRefs τ sig :=
  ⟨nullary_bufs_sub .., unary_bufs_sub .., binary_bufs_sub .., nullary_bufs_sub .., binary_bufs_sub .., unary_bufs_sub .., reshape_bufs_sub .., nullary_bufs_sub .., unary_bufs_sub .., binary_bufs_sub ..⟩

/-- Operations 237 … 246. -/
abbrev rops25 : List (HloOp τ sig (Elt F)) :=
  [ TRef.unary (TRef.of (T := ⟨S_, .f32⟩) main_call3_cst) (TRef.of (T := ⟨S16x16384, .f32⟩) main_call3_v2) (broadcastInDim S16x16384 ![] bcast_S_S16x16384),
    TRef.binary (TRef.of (T := ⟨S16x16384, .f32⟩) main_v173) (TRef.of (T := ⟨S16x16384, .f32⟩) main_call3_v2) (TRef.of (T := ⟨S16x16384, .f32⟩) main_call3_v3) subf,
    TRef.binary (TRef.of (T := ⟨S16x16384, .f32⟩) main_call3_v3) (TRef.of (T := ⟨S16x16384, .f32⟩) main_call3_v3) (TRef.of (T := ⟨S16x16384, .i1⟩) main_call3_v4) (cmpf .une),
    TRef.unary (TRef.of (T := ⟨S_, .f32⟩) main_call3_cst) (TRef.of (T := ⟨S16x16384, .f32⟩) main_call3_v5) (broadcastInDim S16x16384 ![] bcast_S_S16x16384),
    TRef.binary (TRef.of (T := ⟨S16x16384, .f32⟩) main_v173) (TRef.of (T := ⟨S16x16384, .f32⟩) main_call3_v5) (TRef.of (T := ⟨S16x16384, .f32⟩) main_call3_v6) addf,
    TRef.unary (TRef.of (T := ⟨S16x16384, .f32⟩) main_call3_v3) (TRef.of (T := ⟨S16x16384, .f32⟩) main_call3_v7) Host.absf,
    TRef.unary (TRef.of (T := ⟨S16x16384, .f32⟩) main_call3_v7) (TRef.of (T := ⟨S16x16384, .f32⟩) main_call3_v8) Host.negf,
    TRef.unary (TRef.of (T := ⟨S16x16384, .f32⟩) main_call3_v8) (TRef.of (T := ⟨S16x16384, .f32⟩) main_call3_v9) Host.exp,
    TRef.unary (TRef.of (T := ⟨S16x16384, .f32⟩) main_call3_v9) (TRef.of (T := ⟨S16x16384, .f32⟩) main_call3_v10) Host.log1p,
    TRef.binary (TRef.of (T := ⟨S16x16384, .f32⟩) main_call3_v1) (TRef.of (T := ⟨S16x16384, .f32⟩) main_call3_v10) (TRef.of (T := ⟨S16x16384, .f32⟩) main_call3_v11) addf ]
theorem rops25_sub : (rops25 : List (HloOp τ sig (Elt F))).Forall fun op => op.bufs ⊆ tcRefs τ sig :=
  ⟨unary_bufs_sub .., binary_bufs_sub .., binary_bufs_sub .., unary_bufs_sub .., binary_bufs_sub .., unary_bufs_sub .., unary_bufs_sub .., unary_bufs_sub .., unary_bufs_sub .., binary_bufs_sub ..⟩

/-- Operations 247 … 256. -/
abbrev rops26 : List (HloOp τ sig (Elt F)) :=
  [ TRef.ternary (TRef.of (T := ⟨S16x16384, .i1⟩) main_call3_v4) (TRef.of (T := ⟨S16x16384, .f32⟩) main_call3_v6) (TRef.of (T := ⟨S16x16384, .f32⟩) main_call3_v11) (TRef.of (T := ⟨S16x16384, .f32⟩) main_v174) select,
    binary main_v173 main_v40 main_v175 (mulf : (⟨S16x16384, .f32⟩ : BufTy).Contents (Elt F) → (⟨S16x16384, .f32⟩ : BufTy).Contents (Elt F) → (⟨S16x16384, .f32⟩ : BufTy).Contents (Elt F)),
    binary main_v174 main_v175 main_v176 (subf : (⟨S16x16384, .f32⟩ : BufTy).Contents (Elt F) → (⟨S16x16384, .f32⟩ : BufTy).Contents (Elt F) → (⟨S16x16384, .f32⟩ : BufTy).Contents (Elt F)),
    nullary main_cst_32 (constant S_ .f32 0x00000000#32),
    binary main_v176 main_cst_32 main_v177 ((fun x v => Host.reduceAdd x v reducesTo_S16x16384_S16_d1 h_S_) : (⟨S16x16384, .f32⟩ : BufTy).Contents (Elt F) → (⟨S_, .f32⟩ : BufTy).Contents (Elt F) → (⟨S16, .f32⟩ : BufTy).Contents (Elt F)),
    nullary main_cst_33 (constant S_ .f32 0x46800000#32),
    unary main_cst_33 main_v178 (broadcastInDim S16 ![] bcast_S_S16 : (⟨S_, .f32⟩ : BufTy).Contents (Elt F) → (⟨S16, .f32⟩ : BufTy).Contents (Elt F)),
    binary main_v177 main_v178 main_v179 (Host.divf : (⟨S16, .f32⟩ : BufTy).Contents (Elt F) → (⟨S16, .f32⟩ : BufTy).Contents (Elt F) → (⟨S16, .f32⟩ : BufTy).Contents (Elt F)),
    nullary main_cst_34 (constant S_ .f32 0x00000000#32),
    binary main_v179 main_cst_34 main_v180 ((fun x v => Host.reduceAdd x v reducesTo_S16_S_d0 h_S_) : (⟨S16, .f32⟩ : BufTy).Contents (Elt F) → (⟨S_, .f32⟩ : BufTy).Contents (Elt F) → (⟨S_, .f32⟩ : BufTy).Contents (Elt F)) ]
theorem rops26_sub : (rops26 : List (HloOp τ sig (Elt F))).Forall fun op => op.bufs ⊆ tcRefs τ sig :=
  ⟨ternary_bufs_sub .., binary_bufs_sub .., binary_bufs_sub .., nullary_bufs_sub .., binary_bufs_sub .., nullary_bufs_sub .., unary_bufs_sub .., binary_bufs_sub .., nullary_bufs_sub .., binary_bufs_sub ..⟩

/-- Operations 257 … 266. -/
abbrev rops27 : List (HloOp τ sig (Elt F)) :=
  [ unary main_v1 main_v181 ((extractStridedSlice S16x16384x80 ![0, 0, 5] · slices_S16x16384x85_S16x16384x80_0_0_5) : (⟨S16x16384x85, .f32⟩ : BufTy).Contents (Elt F) → (⟨S16x16384x80, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S16x16384x80, .f32⟩) main_call4_v0) (broadcastInDim S16x16384x80 ![] bcast_S_S16x16384x80),
    TRef.binary (TRef.of (T := ⟨S16x16384x80, .f32⟩) main_v181) (TRef.of (T := ⟨S16x16384x80, .f32⟩) main_call4_v0) (TRef.of (T := ⟨S16x16384x80, .f32⟩) main_call4_v1) maximumf,
    TRef.unary (TRef.of (T := ⟨S_, .f32⟩) main_call4_cst) (TRef.of (T := ⟨S16x16384x80, .f32⟩) main_call4_v2) (broadcastInDim S16x16384x80 ![] bcast_S_S16x16384x80),
    TRef.binary (TRef.of (T := ⟨S16x16384x80, .f32⟩) main_v181) (TRef.of (T := ⟨S16x16384x80, .f32⟩) main_call4_v2) (TRef.of (T := ⟨S16x16384x80, .f32⟩) main_call4_v3) subf,
    TRef.binary (TRef.of (T := ⟨S16x16384x80, .f32⟩) main_call4_v3) (TRef.of (T := ⟨S16x16384x80, .f32⟩) main_call4_v3) (TRef.of (T := ⟨S16x16384x80, .i1⟩) main_call4_v4) (cmpf .une),
    TRef.unary (TRef.of (T := ⟨S_, .f32⟩) main_call4_cst) (TRef.of (T := ⟨S16x16384x80, .f32⟩) main_call4_v5) (broadcastInDim S16x16384x80 ![] bcast_S_S16x16384x80),
    TRef.binary (TRef.of (T := ⟨S16x16384x80, .f32⟩) main_v181) (TRef.of (T := ⟨S16x16384x80, .f32⟩) main_call4_v5) (TRef.of (T := ⟨S16x16384x80, .f32⟩) main_call4_v6) addf,
    TRef.unary (TRef.of (T := ⟨S16x16384x80, .f32⟩) main_call4_v3) (TRef.of (T := ⟨S16x16384x80, .f32⟩) main_call4_v7) Host.absf ]
theorem rops27_sub : (rops27 : List (HloOp τ sig (Elt F))).Forall fun op => op.bufs ⊆ tcRefs τ sig :=
  ⟨unary_bufs_sub .., nullary_bufs_sub .., unary_bufs_sub .., binary_bufs_sub .., unary_bufs_sub .., binary_bufs_sub .., binary_bufs_sub .., unary_bufs_sub .., binary_bufs_sub .., unary_bufs_sub ..⟩

/-- Operations 267 … 276. -/
abbrev rops28 : List (HloOp τ sig (Elt F)) :=
  [ TRef.unary (TRef.of (T := ⟨S16x16384x80, .f32⟩) main_call4_v7) (TRef.of (T := ⟨S16x16384x80, .f32⟩) main_call4_v8) Host.negf,
    TRef.unary (TRef.of (T := ⟨S16x16384x80, .f32⟩) main_call4_v8) (TRef.of (T := ⟨S16x16384x80, .f32⟩) main_call4_v9) Host.exp,
    TRef.unary (TRef.of (T := ⟨S16x16384x80, .f32⟩) main_call4_v9) (TRef.of (T := ⟨S16x16384x80, .f32⟩) main_call4_v10) Host.log1p,
    TRef.binary (TRef.of (T := ⟨S16x16384x80, .f32⟩) main_call4_v1) (TRef.of (T := ⟨S16x16384x80, .f32⟩) main_call4_v10) (TRef.of (T := ⟨S16x16384x80, .f32⟩) main_call4_v11) addf,
    TRef.ternary (TRef.of (T := ⟨S16x16384x80, .i1⟩) main_call4_v4) (TRef.of (T := ⟨S16x16384x80, .f32⟩) main_call4_v6) (TRef.of (T := ⟨S16x16384x80, .f32⟩) main_call4_v11) (TRef.of (T := ⟨S16x16384x80, .f32⟩) main_v182) select,
    binary main_v181 main_v63 main_v183 (mulf : (⟨S16x16384x80, .f32⟩ : BufTy).Contents (Elt F) → (⟨S16x16384x80, .f32⟩ : BufTy).Contents (Elt F) → (⟨S16x16384x80, .f32⟩ : BufTy).Contents (Elt F)),
    binary main_v182 main_v183 main_v184 (subf : (⟨S16x16384x80, .f32⟩ : BufTy).Contents (Elt F) → (⟨S16x16384x80, .f32⟩ : BufTy).Contents (Elt F) → (⟨S16x16384x80, .f32⟩ : BufTy).Contents (Elt F)),
    nullary main_cst_35 (constant S_ .f32 0x00000000#32),
    binary main_v184 main_cst_35 main_v185 ((fun x v => Host.reduceAdd x v reducesTo_S16x16384x80_S16_d1_2 h_S_) : (⟨S16x16384x80, .f32⟩ : BufTy).Contents (Elt F) → (⟨S_, .f32⟩ : BufTy).Contents (Elt F) → (⟨S16, .f32⟩ : BufTy).Contents (Elt F)),
    nullary main_cst_36 (constant S_ .f32 0x49A00000#32) ]
theorem rops28_sub : (rops28 : List (HloOp τ sig (Elt F))).Forall fun op => op.bufs ⊆ tcRefs τ sig :=
  ⟨unary_bufs_sub .., unary_bufs_sub .., unary_bufs_sub .., binary_bufs_sub .., ternary_bufs_sub .., binary_bufs_sub .., binary_bufs_sub .., nullary_bufs_sub .., binary_bufs_sub .., nullary_bufs_sub ..⟩

/-- Operations 277 … 286. -/
abbrev rops29 : List (HloOp τ sig (Elt F)) :=
  [ unary main_cst_36 main_v186 (broadcastInDim S16 ![] bcast_S_S16 : (⟨S_, .f32⟩ : BufTy).Contents (Elt F) → (⟨S16, .f32⟩ : BufTy).Contents (Elt F)),
    binary main_v185 main_v186 main_v187 (Host.divf : (⟨S16, .f32⟩ : BufTy).Contents (Elt F) → (⟨S16, .f32⟩ : BufTy).Contents (Elt F) → (⟨S16, .f32⟩ : BufTy).Contents (Elt F)),
    nullary main_cst_37 (constant S_ .f32 0x00000000#32),
    binary main_v187 main_cst_37 main_v188 ((fun x v => Host.reduceAdd x v reducesTo_S16_S_d0 h_S_) : (⟨S16, .f32⟩ : BufTy).Contents (Elt F) → (⟨S_, .f32⟩ : BufTy).Contents (Elt F) → (⟨S_, .f32⟩ : BufTy).Contents (Elt F)),
    nullary main_cst_38 (constant S_ .f32 0x3D4CCCCD#32),
    binary main_cst_38 main_v171 main_v189 (mulf : (⟨S_, .f32⟩ : BufTy).Contents (Elt F) → (⟨S_, .f32⟩ : BufTy).Contents (Elt F) → (⟨S_, .f32⟩ : BufTy).Contents (Elt F)),
    nullary main_cst_39 (constant S_ .f32 0x3F800000#32),
    binary main_cst_39 main_v180 main_v190 (mulf : (⟨S_, .f32⟩ : BufTy).Contents (Elt F) → (⟨S_, .f32⟩ : BufTy).Contents (Elt F) → (⟨S_, .f32⟩ : BufTy).Contents (Elt F)),
    binary main_v189 main_v190 main_v191 (addf : (⟨S_, .f32⟩ : BufTy).Contents (Elt F) → (⟨S_, .f32⟩ : BufTy).Contents (Elt F) → (⟨S_, .f32⟩ : BufTy).Contents (Elt F)),
    nullary main_cst_40 (constant S_ .f32 0x3F000000#32) ]
theorem rops29_sub : (rops29 : List (HloOp τ sig (Elt F))).Forall fun op => op.bufs ⊆ tcRefs τ sig :=
  ⟨unary_bufs_sub .., binary_bufs_sub .., nullary_bufs_sub .., binary_bufs_sub .., nullary_bufs_sub .., binary_bufs_sub .., nullary_bufs_sub .., binary_bufs_sub .., binary_bufs_sub .., nullary_bufs_sub ..⟩

/-- Operations 287 … 288. -/
abbrev rops30 : List (HloOp τ sig (Elt F)) :=
  [ binary main_cst_40 main_v188 main_v192 (mulf : (⟨S_, .f32⟩ : BufTy).Contents (Elt F) → (⟨S_, .f32⟩ : BufTy).Contents (Elt F) → (⟨S_, .f32⟩ : BufTy).Contents (Elt F)),
    binary main_v191 main_v192 main_v193 (addf : (⟨S_, .f32⟩ : BufTy).Contents (Elt F) → (⟨S_, .f32⟩ : BufTy).Contents (Elt F) → (⟨S_, .f32⟩ : BufTy).Contents (Elt F)) ]
theorem rops30_sub : (rops30 : List (HloOp τ sig (Elt F))).Forall fun op => op.bufs ⊆ tcRefs τ sig :=
  ⟨binary_bufs_sub .., binary_bufs_sub ..⟩

end Cert.ReferenceIdeal.RefRun

end
-- ==== Proof.RC.RCut01.lean ====
/- The line of host operations of the reference program's @main (288 operations, in chunks), stretch by stretch: for each stretch, from the facts that the
   buffers live at its head hold their stages, the buffers live at its end hold theirs (a buffer the stretch writes: its
   operation's function of its operands' stages, which is its stage; a buffer it does not write: what it held); and
   composed over the stretches, the whole line from any contents leaves the result buffer at the last stage. -/
import proofs.«175006_j89550068121905_1_alg».proof.Proof.RefOps
import proofs.«175006_j89550068121905_1_alg».proof.Proof.RefRead
import proofs.«175006_j89550068121905_1_alg».proof.Proof.LibReadStretch
import proofs.«175006_j89550068121905_1_alg».proof.Proof.LibReadStretchRw
import Idealize.ShloMosaic.Lib.Pipeline.Frame

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- Chunk 1 (`rops0`, 10 operations): 2 buffers live at its head, 7 at its end. -/
theorem cut1 {V : Valuation τ sig (Elt F)} {x0 : (⟨S16x85x128x128, .f32⟩ : BufTy).Contents (Elt F)} {x1 : (⟨S16x64x5, .f32⟩ : BufTy).Contents (Elt F)}
    (h_main_arg0 : V (Proc.devRef .tc main_arg0) = x0)
    (h_main_arg1 : V (Proc.devRef .tc main_arg1) = x1)
    :
    StableHlo.after (rops0 : List (HloOp τ sig (Elt F))) V (Proc.devRef .tc main_arg0) = x0
    ∧ StableHlo.after (rops0 : List (HloOp τ sig (Elt F))) V (Proc.devRef .tc main_arg1) = x1
    ∧ StableHlo.after (rops0 : List (HloOp τ sig (Elt F))) V (Proc.devRef .tc main_v1) = Cert.ReferenceIdeal.Read.val_main_v1 (F := F) x0
    ∧ StableHlo.after (rops0 : List (HloOp τ sig (Elt F))) V (Proc.devRef .tc main_v4) = Cert.ReferenceIdeal.Read.val_main_v4 (F := F) x1
    ∧ StableHlo.after (rops0 : List (HloOp τ sig (Elt F))) V (Proc.devRef .tc main_v6) = Cert.ReferenceIdeal.Read.val_main_v6 (F := F) x1
    ∧ StableHlo.after (rops0 : List (HloOp τ sig (Elt F))) V (Proc.devRef .tc main_v8) = Cert.ReferenceIdeal.Read.val_main_v8 (F := F) x1
    ∧ StableHlo.after (rops0 : List (HloOp τ sig (Elt F))) V (Proc.devRef .tc main_v9) = Cert.ReferenceIdeal.Read.val_main_v9 (F := F) x1 := by
  simp only [rops0]
  read_stretch
  refine ⟨?_, ?_, ?_, ?_, ?_, ?_, ?_⟩
  all_goals (try (simp only [h_main_arg0, h_main_arg1]; done))
  all_goals (read_stretch_rw; (try simp only [h_main_arg0, h_main_arg1]); (repeat (first | rw [h_main_arg0] | rw [h_main_arg1])); (try rfl))

set_option maxHeartbeats 4000000 in
/-- Chunk 2 (`rops1`, 10 operations): 7 buffers live at its head, 10 at its end. -/
theorem cut2 {V : Valuation τ sig (Elt F)} {x0 : (⟨S16x85x128x128, .f32⟩ : BufTy).Contents (Elt F)} {x1 : (⟨S16x64x5, .f32⟩ : BufTy).Contents (Elt F)}
    (h_main_arg0 : V (Proc.devRef .tc main_arg0) = x0)
    (h_main_arg1 : V (Proc.devRef .tc main_arg1) = x1)
    (h_main_v1 : V (Proc.devRef .tc main_v1) = Cert.ReferenceIdeal.Read.val_main_v1 (F := F) x0)
    (h_main_v4 : V (Proc.devRef .tc main_v4) = Cert.ReferenceIdeal.Read.val_main_v4 (F := F) x1)
    (h_main_v6 : V (Proc.devRef .tc main_v6) = Cert.ReferenceIdeal.Read.val_main_v6 (F := F) x1)
    (h_main_v8 : V (Proc.devRef .tc main_v8) = Cert.ReferenceIdeal.Read.val_main_v8 (F := F) x1)
    (h_main_v9 : V (Proc.devRef .tc main_v9) = Cert.ReferenceIdeal.Read.val_main_v9 (F := F) x1)
    :
    StableHlo.after (rops1 : List (HloOp τ sig (Elt F))) V (Proc.devRef .tc main_arg0) = x0
    ∧ StableHlo.after (rops1 : List (HloOp τ sig (Elt F))) V (Proc.devRef .tc main_arg1) = x1
    ∧ StableHlo.after (rops1 : List (HloOp τ sig (Elt F))) V (Proc.devRef .tc main_v1) = Cert.ReferenceIdeal.Read.val_main_v1 (F := F) x0
    ∧ StableHlo.after (rops1 : List (HloOp τ sig (Elt F))) V (Proc.devRef .tc main_v4) = Cert.ReferenceIdeal.Read.val_main_v4 (F := F) x1
    ∧ StableHlo.after (rops1 : List (HloOp τ sig (Elt F))) V (Proc.devRef .tc main_v6) = Cert.ReferenceIdeal.Read.val_main_v6 (F := F) x1
    ∧ StableHlo.after (rops1 : List (HloOp τ sig (Elt F))) V (Proc.devRef .tc main_v8) = Cert.ReferenceIdeal.Read.val_main_v8 (F := F) x1
    ∧ StableHlo.after (rops1 : List (HloOp τ sig (Elt F))) V (Proc.devRef .tc main_v10) = Cert.ReferenceIdeal.Read.val_main_v10 (F := F) x1
    ∧ StableHlo.after (rops1 : List (HloOp τ sig (Elt F))) V (Proc.devRef .tc main_v12) = Cert.ReferenceIdeal.Read.val_main_v12 (F := F) x1
    ∧ StableHlo.after (rops1 : List (HloOp τ sig (Elt F))) V (Proc.devRef .tc main_v15) = Cert.ReferenceIdeal.Read.val_main_v15 (F := F) x1
    ∧ StableHlo.after (rops1 : List (HloOp τ sig (Elt F))) V (Proc.devRef .tc main_v17) = Cert.ReferenceIdeal.Read.val_main_v17 (F := F) x1 := by
  simp only [rops1]
  read_stretch
  refine ⟨?_, ?_, ?_, ?_, ?_, ?_, ?_, ?_, ?_, ?_⟩
  all_goals (try (simp only [h_main_arg0, h_main_arg1, h_main_v1, h_main_v4, h_main_v6, h_main_v8, h_main_v9]; done))
  all_goals (read_stretch_rw; (try simp only [h_main_arg0, h_main_arg1, h_main_v1, h_main_v4, h_main_v6, h_main_v8, h_main_v9]); (repeat (first | rw [h_main_arg0] | rw [h_main_arg1] | rw [h_main_v1] | rw [h_main_v4] | rw [h_main_v6] | rw [h_main_v8] | rw [h_main_v9])); (try rfl))

set_option maxHeartbeats 4000000 in
/-- Chunk 3 (`rops2`, 10 operations): 10 buffers live at its head, 12 at its end. -/
theorem cut3 {V : Valuation τ sig (Elt F)} {x0 : (⟨S16x85x128x128, .f32⟩ : BufTy).Contents (Elt F)} {x1 : (⟨S16x64x5, .f32⟩ : BufTy).Contents (Elt F)}
    (h_main_arg0 : V (Proc.devRef .tc main_arg0) = x0)
    (h_main_arg1 : V (Proc.devRef .tc main_arg1) = x1)
    (h_main_v1 : V (Proc.devRef .tc main_v1) = Cert.ReferenceIdeal.Read.val_main_v1 (F := F) x0)
    (h_main_v4 : V (Proc.devRef .tc main_v4) = Cert.ReferenceIdeal.Read.val_main_v4 (F := F) x1)
    (h_main_v6 : V (Proc.devRef .tc main_v6) = Cert.ReferenceIdeal.Read.val_main_v6 (F := F) x1)
    (h_main_v8 : V (Proc.devRef .tc main_v8) = Cert.ReferenceIdeal.Read.val_main_v8 (F := F) x1)
    (h_main_v10 : V (Proc.devRef .tc main_v10) = Cert.ReferenceIdeal.Read.val_main_v10 (F := F) x1)
    (h_main_v12 : V (Proc.devRef .tc main_v12) = Cert.ReferenceIdeal.Read.val_main_v12 (F := F) x1)
    (h_main_v15 : V (Proc.devRef .tc main_v15) = Cert.ReferenceIdeal.Read.val_main_v15 (F := F) x1)
    (h_main_v17 : V (Proc.devRef .tc main_v17) = Cert.ReferenceIdeal.Read.val_main_v17 (F := F) x1)
    :
    StableHlo.after (rops2 : List (HloOp τ sig (Elt F))) V (Proc.devRef .tc main_arg0) = x0
    ∧ StableHlo.after (rops2 : List (HloOp τ sig (Elt F))) V (Proc.devRef .tc main_arg1) = x1
    ∧ StableHlo.after (rops2 : List (HloOp τ sig (Elt F))) V (Proc.devRef .tc main_v1) = Cert.ReferenceIdeal.Read.val_main_v1 (F := F) x0
    ∧ StableHlo.after (rops2 : List (HloOp τ sig (Elt F))) V (Proc.devRef .tc main_v4) = Cert.ReferenceIdeal.Read.val_main_v4 (F := F) x1
    ∧ StableHlo.after (rops2 : List (HloOp τ sig (Elt F))) V (Proc.devRef .tc main_v6) = Cert.ReferenceIdeal.Read.val_main_v6 (F := F) x1
    ∧ StableHlo.after (rops2 : List (HloOp τ sig (Elt F))) V (Proc.devRef .tc main_v8) = Cert.ReferenceIdeal.Read.val_main_v8 (F := F) x1
    ∧ StableHlo.after (rops2 : List (HloOp τ sig (Elt F))) V (Proc.devRef .tc main_v10) = Cert.ReferenceIdeal.Read.val_main_v10 (F := F) x1
    ∧ StableHlo.after (rops2 : List (HloOp τ sig (Elt F))) V (Proc.devRef .tc main_v12) = Cert.ReferenceIdeal.Read.val_main_v12 (F := F) x1
    ∧ StableHlo.after (rops2 : List (HloOp τ sig (Elt F))) V (Proc.devRef .tc main_v21) = Cert.ReferenceIdeal.Read.val_main_v21 (F := F) x1
    ∧ StableHlo.after (rops2 : List (HloOp τ sig (Elt F))) V (Proc.devRef .tc main_v23) = Cert.ReferenceIdeal.Read.val_main_v23 (F := F)
    ∧ StableHlo.after (rops2 : List (HloOp τ sig (Elt F))) V (Proc.devRef .tc main_v24) = Cert.ReferenceIdeal.Read.val_main_v24 (F := F)
    ∧ StableHlo.after (rops2 : List (HloOp τ sig (Elt F))) V (Proc.devRef .tc main_c_2) = Cert.ReferenceIdeal.Read.val_main_c_2 (F := F) := by
  simp only [rops2]
  read_stretch
  refine ⟨?_, ?_, ?_, ?_, ?_, ?_, ?_, ?_, ?_, ?_, ?_, ?_⟩
  all_goals (try (simp only [h_main_arg0, h_main_arg1, h_main_v1, h_main_v4, h_main_v6, h_main_v8, h_main_v10, h_main_v12, h_main_v15, h_main_v17]; done))
  all_goals (read_stretch_rw; (try simp only [h_main_arg0, h_main_arg1, h_main_v1, h_main_v4, h_main_v6, h_main_v8, h_main_v10, h_main_v12, h_main_v15, h_main_v17]); (repeat (first | rw [h_main_arg0] | rw [h_main_arg1] | rw [h_main_v1] | rw [h_main_v4] | rw [h_main_v6] | rw [h_main_v8] | rw [h_main_v10] | rw [h_main_v12] | rw [h_main_v15] | rw [h_main_v17])); (try rfl))

set_option maxHeartbeats 4000000 in
/-- Chunk 4 (`rops3`, 10 operations): 12 buffers live at its head, 14 at its end. -/
theorem cut4 {V : Valuation τ sig (Elt F)} {x0 : (⟨S16x85x128x128, .f32⟩ : BufTy).Contents (Elt F)} {x1 : (⟨S16x64x5, .f32⟩ : BufTy).Contents (Elt F)}
    (h_main_arg0 : V (Proc.devRef .tc main_arg0) = x0)
    (h_main_arg1 : V (Proc.devRef .tc main_arg1) = x1)
    (h_main_v1 : V (Proc.devRef .tc main_v1) = Cert.ReferenceIdeal.Read.val_main_v1 (F := F) x0)
    (h_main_v4 : V (Proc.devRef .tc main_v4) = Cert.ReferenceIdeal.Read.val_main_v4 (F := F) x1)
    (h_main_v6 : V (Proc.devRef .tc main_v6) = Cert.ReferenceIdeal.Read.val_main_v6 (F := F) x1)
    (h_main_v8 : V (Proc.devRef .tc main_v8) = Cert.ReferenceIdeal.Read.val_main_v8 (F := F) x1)
    (h_main_v10 : V (Proc.devRef .tc main_v10) = Cert.ReferenceIdeal.Read.val_main_v10 (F := F) x1)
    (h_main_v12 : V (Proc.devRef .tc main_v12) = Cert.ReferenceIdeal.Read.val_main_v12 (F := F) x1)
    (h_main_v21 : V (Proc.devRef .tc main_v21) = Cert.ReferenceIdeal.Read.val_main_v21 (F := F) x1)
    (h_main_v23 : V (Proc.devRef .tc main_v23) = Cert.ReferenceIdeal.Read.val_main_v23 (F := F))
    (h_main_v24 : V (Proc.devRef .tc main_v24) = Cert.ReferenceIdeal.Read.val_main_v24 (F := F))
    (h_main_c_2 : V (Proc.devRef .tc main_c_2) = Cert.ReferenceIdeal.Read.val_main_c_2 (F := F))
    :
    StableHlo.after (rops3 : List (HloOp τ sig (Elt F))) V (Proc.devRef .tc main_arg0) = x0
    ∧ StableHlo.after (rops3 : List (HloOp τ sig (Elt F))) V (Proc.devRef .tc main_arg1) = x1
    ∧ StableHlo.after (rops3 : List (HloOp τ sig (Elt F))) V (Proc.devRef .tc main_v1) = Cert.ReferenceIdeal.Read.val_main_v1 (F := F) x0
    ∧ StableHlo.after (rops3 : List (HloOp τ sig (Elt F))) V (Proc.devRef .tc main_v4) = Cert.ReferenceIdeal.Read.val_main_v4 (F := F) x1
    ∧ StableHlo.after (rops3 : List (HloOp τ sig (Elt F))) V (Proc.devRef .tc main_v6) = Cert.ReferenceIdeal.Read.val_main_v6 (F := F) x1
    ∧ StableHlo.after (rops3 : List (HloOp τ sig (Elt F))) V (Proc.devRef .tc main_v8) = Cert.ReferenceIdeal.Read.val_main_v8 (F := F) x1
    ∧ StableHlo.after (rops3 : List (HloOp τ sig (Elt F))) V (Proc.devRef .tc main_v10) = Cert.ReferenceIdeal.Read.val_main_v10 (F := F) x1
    ∧ StableHlo.after (rops3 : List (HloOp τ sig (Elt F))) V (Proc.devRef .tc main_v12) = Cert.ReferenceIdeal.Read.val_main_v12 (F := F) x1
    ∧ StableHlo.after (rops3 : List (HloOp τ sig (Elt F))) V (Proc.devRef .tc main_v21) = Cert.ReferenceIdeal.Read.val_main_v21 (F := F) x1
    ∧ StableHlo.after (rops3 : List (HloOp τ sig (Elt F))) V (Proc.devRef .tc main_v23) = Cert.ReferenceIdeal.Read.val_main_v23 (F := F)
    ∧ StableHlo.after (rops3 : List (HloOp τ sig (Elt F))) V (Proc.devRef .tc main_v24) = Cert.ReferenceIdeal.Read.val_main_v24 (F := F)
    ∧ StableHlo.after (rops3 : List (HloOp τ sig (Elt F))) V (Proc.devRef .tc main_v29) = Cert.ReferenceIdeal.Read.val_main_v29 (F := F)
    ∧ StableHlo.after (rops3 : List (HloOp τ sig (Elt F))) V (Proc.devRef .tc main_v31) = Cert.ReferenceIdeal.Read.val_main_v31 (F := F) x1
    ∧ StableHlo.after (rops3 : List (HloOp τ sig (Elt F))) V (Proc.devRef .tc main_c_5) = Cert.ReferenceIdeal.Read.val_main_c_5 (F := F) := by
  simp only [rops3]
  read_stretch
  refine ⟨?_, ?_, ?_, ?_, ?_, ?_, ?_, ?_, ?_, ?_, ?_, ?_, ?_, ?_⟩
  all_goals (try (simp only [h_main_arg0, h_main_arg1, h_main_v1, h_main_v4, h_main_v6, h_main_v8, h_main_v10, h_main_v12, h_main_v21, h_main_v23, h_main_v24, h_main_c_2]; done))
  all_goals (read_stretch_rw; (try simp only [h_main_arg0, h_main_arg1, h_main_v1, h_main_v4, h_main_v6, h_main_v8, h_main_v10, h_main_v12, h_main_v21, h_main_v23, h_main_v24, h_main_c_2]); (repeat (first | rw [h_main_arg0] | rw [h_main_arg1] | rw [h_main_v1] | rw [h_main_v4] | rw [h_main_v6] | rw [h_main_v8] | rw [h_main_v10] | rw [h_main_v12] | rw [h_main_v21] | rw [h_main_v23] | rw [h_main_v24] | rw [h_main_c_2])); (try rfl))

set_option maxHeartbeats 4000000 in
/-- Chunk 5 (`rops4`, 10 operations): 14 buffers live at its head, 11 at its end. -/
theorem cut5 {V : Valuation τ sig (Elt F)} {x0 : (⟨S16x85x128x128, .f32⟩ : BufTy).Contents (Elt F)} {x1 : (⟨S16x64x5, .f32⟩ : BufTy).Contents (Elt F)}
    (h_main_arg0 : V (Proc.devRef .tc main_arg0) = x0)
    (h_main_arg1 : V (Proc.devRef .tc main_arg1) = x1)
    (h_main_v1 : V (Proc.devRef .tc main_v1) = Cert.ReferenceIdeal.Read.val_main_v1 (F := F) x0)
    (h_main_v4 : V (Proc.devRef .tc main_v4) = Cert.ReferenceIdeal.Read.val_main_v4 (F := F) x1)
    (h_main_v6 : V (Proc.devRef .tc main_v6) = Cert.ReferenceIdeal.Read.val_main_v6 (F := F) x1)
    (h_main_v8 : V (Proc.devRef .tc main_v8) = Cert.ReferenceIdeal.Read.val_main_v8 (F := F) x1)
    (h_main_v10 : V (Proc.devRef .tc main_v10) = Cert.ReferenceIdeal.Read.val_main_v10 (F := F) x1)
    (h_main_v12 : V (Proc.devRef .tc main_v12) = Cert.ReferenceIdeal.Read.val_main_v12 (F := F) x1)
    (h_main_v21 : V (Proc.devRef .tc main_v21) = Cert.ReferenceIdeal.Read.val_main_v21 (F := F) x1)
    (h_main_v23 : V (Proc.devRef .tc main_v23) = Cert.ReferenceIdeal.Read.val_main_v23 (F := F))
    (h_main_v24 : V (Proc.devRef .tc main_v24) = Cert.ReferenceIdeal.Read.val_main_v24 (F := F))
    (h_main_v29 : V (Proc.devRef .tc main_v29) = Cert.ReferenceIdeal.Read.val_main_v29 (F := F))
    (h_main_v31 : V (Proc.devRef .tc main_v31) = Cert.ReferenceIdeal.Read.val_main_v31 (F := F) x1)
    (h_main_c_5 : V (Proc.devRef .tc main_c_5) = Cert.ReferenceIdeal.Read.val_main_c_5 (F := F))
    :
    StableHlo.after (rops4 : List (HloOp τ sig (Elt F))) V (Proc.devRef .tc main_arg0) = x0
    ∧ StableHlo.after (rops4 : List (HloOp τ sig (Elt F))) V (Proc.devRef .tc main_arg1) = x1
    ∧ StableHlo.after (rops4 : List (HloOp τ sig (Elt F))) V (Proc.devRef .tc main_v1) = Cert.ReferenceIdeal.Read.val_main_v1 (F := F) x0
    ∧ StableHlo.after (rops4 : List (HloOp τ sig (Elt F))) V (Proc.devRef .tc main_v4) = Cert.ReferenceIdeal.Read.val_main_v4 (F := F) x1
    ∧ StableHlo.after (rops4 : List (HloOp τ sig (Elt F))) V (Proc.devRef .tc main_v6) = Cert.ReferenceIdeal.Read.val_main_v6 (F := F) x1
    ∧ StableHlo.after (rops4 : List (HloOp τ sig (Elt F))) V (Proc.devRef .tc main_v8) = Cert.ReferenceIdeal.Read.val_main_v8 (F := F) x1
    ∧ StableHlo.after (rops4 : List (HloOp τ sig (Elt F))) V (Proc.devRef .tc main_v10) = Cert.ReferenceIdeal.Read.val_main_v10 (F := F) x1
    ∧ StableHlo.after (rops4 : List (HloOp τ sig (Elt F))) V (Proc.devRef .tc main_v12) = Cert.ReferenceIdeal.Read.val_main_v12 (F := F) x1
    ∧ StableHlo.after (rops4 : List (HloOp τ sig (Elt F))) V (Proc.devRef .tc main_v21) = Cert.ReferenceIdeal.Read.val_main_v21 (F := F) x1
    ∧ StableHlo.after (rops4 : List (HloOp τ sig (Elt F))) V (Proc.devRef .tc main_v23) = Cert.ReferenceIdeal.Read.val_main_v23 (F := F)
    ∧ StableHlo.after (rops4 : List (HloOp τ sig (Elt F))) V (Proc.devRef .tc main_v40) = Cert.ReferenceIdeal.Read.val_main_v40 (F := F) x1 := by
  simp only [rops4]
  read_stretch
  refine ⟨?_, ?_, ?_, ?_, ?_, ?_, ?_, ?_, ?_, ?_, ?_⟩
  all_goals (try (simp only [h_main_arg0, h_main_arg1, h_main_v1, h_main_v4, h_main_v6, h_main_v8, h_main_v10, h_main_v12, h_main_v21, h_main_v23, h_main_v24, h_main_v29, h_main_v31, h_main_c_5]; done))
  all_goals (read_stretch_rw; (try simp only [h_main_arg0, h_main_arg1, h_main_v1, h_main_v4, h_main_v6, h_main_v8, h_main_v10, h_main_v12, h_main_v21, h_main_v23, h_main_v24, h_main_v29, h_main_v31, h_main_c_5]); (repeat (first | rw [h_main_arg0] | rw [h_main_arg1] | rw [h_main_v1] | rw [h_main_v4] | rw [h_main_v6] | rw [h_main_v8] | rw [h_main_v10] | rw [h_main_v12] | rw [h_main_v21] | rw [h_main_v23] | rw [h_main_v24] | rw [h_main_v29] | rw [h_main_v31] | rw [h_main_c_5])); (try rfl))

set_option maxHeartbeats 4000000 in
/-- Chunk 6 (`rops5`, 10 operations): 11 buffers live at its head, 13 at its end. -/
theorem cut6 {V : Valuation τ sig (Elt F)} {x0 : (⟨S16x85x128x128, .f32⟩ : BufTy).Contents (Elt F)} {x1 : (⟨S16x64x5, .f32⟩ : BufTy).Contents (Elt F)}
    (h_main_arg0 : V (Proc.devRef .tc main_arg0) = x0)
    (h_main_arg1 : V (Proc.devRef .tc main_arg1) = x1)
    (h_main_v1 : V (Proc.devRef .tc main_v1) = Cert.ReferenceIdeal.Read.val_main_v1 (F := F) x0)
    (h_main_v4 : V (Proc.devRef .tc main_v4) = Cert.ReferenceIdeal.Read.val_main_v4 (F := F) x1)
    (h_main_v6 : V (Proc.devRef .tc main_v6) = Cert.ReferenceIdeal.Read.val_main_v6 (F := F) x1)
    (h_main_v8 : V (Proc.devRef .tc main_v8) = Cert.ReferenceIdeal.Read.val_main_v8 (F := F) x1)
    (h_main_v10 : V (Proc.devRef .tc main_v10) = Cert.ReferenceIdeal.Read.val_main_v10 (F := F) x1)
    (h_main_v12 : V (Proc.devRef .tc main_v12) = Cert.ReferenceIdeal.Read.val_main_v12 (F := F) x1)
    (h_main_v21 : V (Proc.devRef .tc main_v21) = Cert.ReferenceIdeal.Read.val_main_v21 (F := F) x1)
    (h_main_v23 : V (Proc.devRef .tc main_v23) = Cert.ReferenceIdeal.Read.val_main_v23 (F := F))
    (h_main_v40 : V (Proc.devRef .tc main_v40) = Cert.ReferenceIdeal.Read.val_main_v40 (F := F) x1)
    :
    StableHlo.after (rops5 : List (HloOp τ sig (Elt F))) V (Proc.devRef .tc main_arg0) = x0
    ∧ StableHlo.after (rops5 : List (HloOp τ sig (Elt F))) V (Proc.devRef .tc main_arg1) = x1
    ∧ StableHlo.after (rops5 : List (HloOp τ sig (Elt F))) V (Proc.devRef .tc main_v1) = Cert.ReferenceIdeal.Read.val_main_v1 (F := F) x0
    ∧ StableHlo.after (rops5 : List (HloOp τ sig (Elt F))) V (Proc.devRef .tc main_v4) = Cert.ReferenceIdeal.Read.val_main_v4 (F := F) x1
    ∧ StableHlo.after (rops5 : List (HloOp τ sig (Elt F))) V (Proc.devRef .tc main_v6) = Cert.ReferenceIdeal.Read.val_main_v6 (F := F) x1
    ∧ StableHlo.after (rops5 : List (HloOp τ sig (Elt F))) V (Proc.devRef .tc main_v8) = Cert.ReferenceIdeal.Read.val_main_v8 (F := F) x1
    ∧ StableHlo.after (rops5 : List (HloOp τ sig (Elt F))) V (Proc.devRef .tc main_v10) = Cert.ReferenceIdeal.Read.val_main_v10 (F := F) x1
    ∧ StableHlo.after (rops5 : List (HloOp τ sig (Elt F))) V (Proc.devRef .tc main_v12) = Cert.ReferenceIdeal.Read.val_main_v12 (F := F) x1
    ∧ StableHlo.after (rops5 : List (HloOp τ sig (Elt F))) V (Proc.devRef .tc main_v21) = Cert.ReferenceIdeal.Read.val_main_v21 (F := F) x1
    ∧ StableHlo.after (rops5 : List (HloOp τ sig (Elt F))) V (Proc.devRef .tc main_v40) = Cert.ReferenceIdeal.Read.val_main_v40 (F := F) x1
    ∧ StableHlo.after (rops5 : List (HloOp τ sig (Elt F))) V (Proc.devRef .tc main_v41) = Cert.ReferenceIdeal.Read.val_main_v41 (F := F)
    ∧ StableHlo.after (rops5 : List (HloOp τ sig (Elt F))) V (Proc.devRef .tc main_v46) = Cert.ReferenceIdeal.Read.val_main_v46 (F := F)
    ∧ StableHlo.after (rops5 : List (HloOp τ sig (Elt F))) V (Proc.devRef .tc main_c_10) = Cert.ReferenceIdeal.Read.val_main_c_10 (F := F) := by
  simp only [rops5]
  read_stretch
  refine ⟨?_, ?_, ?_, ?_, ?_, ?_, ?_, ?_, ?_, ?_, ?_, ?_, ?_⟩
  all_goals (try (simp only [h_main_arg0, h_main_arg1, h_main_v1, h_main_v4, h_main_v6, h_main_v8, h_main_v10, h_main_v12, h_main_v21, h_main_v23, h_main_v40]; done))
  all_goals (read_stretch_rw; (try simp only [h_main_arg0, h_main_arg1, h_main_v1, h_main_v4, h_main_v6, h_main_v8, h_main_v10, h_main_v12, h_main_v21, h_main_v23, h_main_v40]); (repeat (first | rw [h_main_arg0] | rw [h_main_arg1] | rw [h_main_v1] | rw [h_main_v4] | rw [h_main_v6] | rw [h_main_v8] | rw [h_main_v10] | rw [h_main_v12] | rw [h_main_v21] | rw [h_main_v23] | rw [h_main_v40])); (try rfl))

end Cert.ReferenceIdeal.RefRun

end
-- ==== Proof.RC.RCut02.lean ====
/- The line of host operations of the reference program's @main (288 operations, in chunks), stretch by stretch: for each stretch, from the facts that the
   buffers live at its head hold their stages, the buffers live at its end hold theirs (a buffer the stretch writes: its
   operation's function of its operands' stages, which is its stage; a buffer it does not write: what it held); and
   composed over the stretches, the whole line from any contents leaves the result buffer at the last stage. -/
import proofs.«175006_j89550068121905_1_alg».proof.Proof.RefOps
import proofs.«175006_j89550068121905_1_alg».proof.Proof.RefRead
import proofs.«175006_j89550068121905_1_alg».proof.Proof.LibReadStretch
import proofs.«175006_j89550068121905_1_alg».proof.Proof.LibReadStretchRw
import Idealize.ShloMosaic.Lib.Pipeline.Frame

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- Chunk 7 (`rops6`, 10 operations): 13 buffers live at its head, 15 at its end. -/
theorem cut7 {V : Valuation τ sig (Elt F)} {x0 : (⟨S16x85x128x128, .f32⟩ : BufTy).Contents (Elt F)} {x1 : (⟨S16x64x5, .f32⟩ : BufTy).Contents (Elt F)}
    (h_main_arg0 : V (Proc.devRef .tc main_arg0) = x0)
    (h_main_arg1 : V (Proc.devRef .tc main_arg1) = x1)
    (h_main_v1 : V (Proc.devRef .tc main_v1) = Cert.ReferenceIdeal.Read.val_main_v1 (F := F) x0)
    (h_main_v4 : V (Proc.devRef .tc main_v4) = Cert.ReferenceIdeal.Read.val_main_v4 (F := F) x1)
    (h_main_v6 : V (Proc.devRef .tc main_v6) = Cert.ReferenceIdeal.Read.val_main_v6 (F := F) x1)
    (h_main_v8 : V (Proc.devRef .tc main_v8) = Cert.ReferenceIdeal.Read.val_main_v8 (F := F) x1)
    (h_main_v10 : V (Proc.devRef .tc main_v10) = Cert.ReferenceIdeal.Read.val_main_v10 (F := F) x1)
    (h_main_v12 : V (Proc.devRef .tc main_v12) = Cert.ReferenceIdeal.Read.val_main_v12 (F := F) x1)
    (h_main_v21 : V (Proc.devRef .tc main_v21) = Cert.ReferenceIdeal.Read.val_main_v21 (F := F) x1)
    (h_main_v40 : V (Proc.devRef .tc main_v40) = Cert.ReferenceIdeal.Read.val_main_v40 (F := F) x1)
    (h_main_v41 : V (Proc.devRef .tc main_v41) = Cert.ReferenceIdeal.Read.val_main_v41 (F := F))
    (h_main_v46 : V (Proc.devRef .tc main_v46) = Cert.ReferenceIdeal.Read.val_main_v46 (F := F))
    (h_main_c_10 : V (Proc.devRef .tc main_c_10) = Cert.ReferenceIdeal.Read.val_main_c_10 (F := F))
    :
    StableHlo.after (rops6 : List (HloOp τ sig (Elt F))) V (Proc.devRef .tc main_arg0) = x0
    ∧ StableHlo.after (rops6 : List (HloOp τ sig (Elt F))) V (Proc.devRef .tc main_arg1) = x1
    ∧ StableHlo.after (rops6 : List (HloOp τ sig (Elt F))) V (Proc.devRef .tc main_v1) = Cert.ReferenceIdeal.Read.val_main_v1 (F := F) x0
    ∧ StableHlo.after (rops6 : List (HloOp τ sig (Elt F))) V (Proc.devRef .tc main_v4) = Cert.ReferenceIdeal.Read.val_main_v4 (F := F) x1
    ∧ StableHlo.after (rops6 : List (HloOp τ sig (Elt F))) V (Proc.devRef .tc main_v6) = Cert.ReferenceIdeal.Read.val_main_v6 (F := F) x1
    ∧ StableHlo.after (rops6 : List (HloOp τ sig (Elt F))) V (Proc.devRef .tc main_v8) = Cert.ReferenceIdeal.Read.val_main_v8 (F := F) x1
    ∧ StableHlo.after (rops6 : List (HloOp τ sig (Elt F))) V (Proc.devRef .tc main_v10) = Cert.ReferenceIdeal.Read.val_main_v10 (F := F) x1
    ∧ StableHlo.after (rops6 : List (HloOp τ sig (Elt F))) V (Proc.devRef .tc main_v12) = Cert.ReferenceIdeal.Read.val_main_v12 (F := F) x1
    ∧ StableHlo.after (rops6 : List (HloOp τ sig (Elt F))) V (Proc.devRef .tc main_v21) = Cert.ReferenceIdeal.Read.val_main_v21 (F := F) x1
    ∧ StableHlo.after (rops6 : List (HloOp τ sig (Elt F))) V (Proc.devRef .tc main_v40) = Cert.ReferenceIdeal.Read.val_main_v40 (F := F) x1
    ∧ StableHlo.after (rops6 : List (HloOp τ sig (Elt F))) V (Proc.devRef .tc main_v41) = Cert.ReferenceIdeal.Read.val_main_v41 (F := F)
    ∧ StableHlo.after (rops6 : List (HloOp τ sig (Elt F))) V (Proc.devRef .tc main_v46) = Cert.ReferenceIdeal.Read.val_main_v46 (F := F)
    ∧ StableHlo.after (rops6 : List (HloOp τ sig (Elt F))) V (Proc.devRef .tc main_v51) = Cert.ReferenceIdeal.Read.val_main_v51 (F := F) x1
    ∧ StableHlo.after (rops6 : List (HloOp τ sig (Elt F))) V (Proc.devRef .tc main_v53) = Cert.ReferenceIdeal.Read.val_main_v53 (F := F) x1
    ∧ StableHlo.after (rops6 : List (HloOp τ sig (Elt F))) V (Proc.devRef .tc main_c_13) = Cert.ReferenceIdeal.Read.val_main_c_13 (F := F) := by
  simp only [rops6]
  read_stretch
  refine ⟨?_, ?_, ?_, ?_, ?_, ?_, ?_, ?_, ?_, ?_, ?_, ?_, ?_, ?_, ?_⟩
  all_goals (try (simp only [h_main_arg0, h_main_arg1, h_main_v1, h_main_v4, h_main_v6, h_main_v8, h_main_v10, h_main_v12, h_main_v21, h_main_v40, h_main_v41, h_main_v46, h_main_c_10]; done))
  all_goals (read_stretch_rw; (try simp only [h_main_arg0, h_main_arg1, h_main_v1, h_main_v4, h_main_v6, h_main_v8, h_main_v10, h_main_v12, h_main_v21, h_main_v40, h_main_v41, h_main_v46, h_main_c_10]); (repeat (first | rw [h_main_arg0] | rw [h_main_arg1] | rw [h_main_v1] | rw [h_main_v4] | rw [h_main_v6] | rw [h_main_v8] | rw [h_main_v10] | rw [h_main_v12] | rw [h_main_v21] | rw [h_main_v40] | rw [h_main_v41] | rw [h_main_v46] | rw [h_main_c_10])); (try rfl))

set_option maxHeartbeats 4000000 in
/-- Chunk 8 (`rops7`, 7 operations): 15 buffers live at its head, 13 at its end. -/
theorem cut8 {V : Valuation τ sig (Elt F)} {x0 : (⟨S16x85x128x128, .f32⟩ : BufTy).Contents (Elt F)} {x1 : (⟨S16x64x5, .f32⟩ : BufTy).Contents (Elt F)}
    (h_main_arg0 : V (Proc.devRef .tc main_arg0) = x0)
    (h_main_arg1 : V (Proc.devRef .tc main_arg1) = x1)
    (h_main_v1 : V (Proc.devRef .tc main_v1) = Cert.ReferenceIdeal.Read.val_main_v1 (F := F) x0)
    (h_main_v4 : V (Proc.devRef .tc main_v4) = Cert.ReferenceIdeal.Read.val_main_v4 (F := F) x1)
    (h_main_v6 : V (Proc.devRef .tc main_v6) = Cert.ReferenceIdeal.Read.val_main_v6 (F := F) x1)
    (h_main_v8 : V (Proc.devRef .tc main_v8) = Cert.ReferenceIdeal.Read.val_main_v8 (F := F) x1)
    (h_main_v10 : V (Proc.devRef .tc main_v10) = Cert.ReferenceIdeal.Read.val_main_v10 (F := F) x1)
    (h_main_v12 : V (Proc.devRef .tc main_v12) = Cert.ReferenceIdeal.Read.val_main_v12 (F := F) x1)
    (h_main_v21 : V (Proc.devRef .tc main_v21) = Cert.ReferenceIdeal.Read.val_main_v21 (F := F) x1)
    (h_main_v40 : V (Proc.devRef .tc main_v40) = Cert.ReferenceIdeal.Read.val_main_v40 (F := F) x1)
    (h_main_v41 : V (Proc.devRef .tc main_v41) = Cert.ReferenceIdeal.Read.val_main_v41 (F := F))
    (h_main_v46 : V (Proc.devRef .tc main_v46) = Cert.ReferenceIdeal.Read.val_main_v46 (F := F))
    (h_main_v51 : V (Proc.devRef .tc main_v51) = Cert.ReferenceIdeal.Read.val_main_v51 (F := F) x1)
    (h_main_v53 : V (Proc.devRef .tc main_v53) = Cert.ReferenceIdeal.Read.val_main_v53 (F := F) x1)
    (h_main_c_13 : V (Proc.devRef .tc main_c_13) = Cert.ReferenceIdeal.Read.val_main_c_13 (F := F))
    :
    StableHlo.after (rops7 : List (HloOp τ sig (Elt F))) V (Proc.devRef .tc main_arg0) = x0
    ∧ StableHlo.after (rops7 : List (HloOp τ sig (Elt F))) V (Proc.devRef .tc main_arg1) = x1
    ∧ StableHlo.after (rops7 : List (HloOp τ sig (Elt F))) V (Proc.devRef .tc main_v1) = Cert.ReferenceIdeal.Read.val_main_v1 (F := F) x0
    ∧ StableHlo.after (rops7 : List (HloOp τ sig (Elt F))) V (Proc.devRef .tc main_v6) = Cert.ReferenceIdeal.Read.val_main_v6 (F := F) x1
    ∧ StableHlo.after (rops7 : List (HloOp τ sig (Elt F))) V (Proc.devRef .tc main_v8) = Cert.ReferenceIdeal.Read.val_main_v8 (F := F) x1
    ∧ StableHlo.after (rops7 : List (HloOp τ sig (Elt F))) V (Proc.devRef .tc main_v10) = Cert.ReferenceIdeal.Read.val_main_v10 (F := F) x1
    ∧ StableHlo.after (rops7 : List (HloOp τ sig (Elt F))) V (Proc.devRef .tc main_v12) = Cert.ReferenceIdeal.Read.val_main_v12 (F := F) x1
    ∧ StableHlo.after (rops7 : List (HloOp τ sig (Elt F))) V (Proc.devRef .tc main_v21) = Cert.ReferenceIdeal.Read.val_main_v21 (F := F) x1
    ∧ StableHlo.after (rops7 : List (HloOp τ sig (Elt F))) V (Proc.devRef .tc main_v40) = Cert.ReferenceIdeal.Read.val_main_v40 (F := F) x1
    ∧ StableHlo.after (rops7 : List (HloOp τ sig (Elt F))) V (Proc.devRef .tc main_v41) = Cert.ReferenceIdeal.Read.val_main_v41 (F := F)
    ∧ StableHlo.after (rops7 : List (HloOp τ sig (Elt F))) V (Proc.devRef .tc main_v58) = Cert.ReferenceIdeal.Read.val_main_v58 (F := F)
    ∧ StableHlo.after (rops7 : List (HloOp τ sig (Elt F))) V (Proc.devRef .tc main_v59) = Cert.ReferenceIdeal.Read.val_main_v59 (F := F) x1
    ∧ StableHlo.after (rops7 : List (HloOp τ sig (Elt F))) V (Proc.devRef .tc main_v60) = Cert.ReferenceIdeal.Read.val_main_v60 (F := F) x1 := by
  simp only [rops7]
  read_stretch
  refine ⟨?_, ?_, ?_, ?_, ?_, ?_, ?_, ?_, ?_, ?_, ?_, ?_, ?_⟩
  all_goals (try (simp only [h_main_arg0, h_main_arg1, h_main_v1, h_main_v4, h_main_v6, h_main_v8, h_main_v10, h_main_v12, h_main_v21, h_main_v40, h_main_v41, h_main_v46, h_main_v51, h_main_v53, h_main_c_13]; done))
  all_goals (read_stretch_rw; (try simp only [h_main_arg0, h_main_arg1, h_main_v1, h_main_v4, h_main_v6, h_main_v8, h_main_v10, h_main_v12, h_main_v21, h_main_v40, h_main_v41, h_main_v46, h_main_v51, h_main_v53, h_main_c_13]); (repeat (first | rw [h_main_arg0] | rw [h_main_arg1] | rw [h_main_v1] | rw [h_main_v4] | rw [h_main_v6] | rw [h_main_v8] | rw [h_main_v10] | rw [h_main_v12] | rw [h_main_v21] | rw [h_main_v40] | rw [h_main_v41] | rw [h_main_v46] | rw [h_main_v51] | rw [h_main_v53] | rw [h_main_c_13])); (try rfl))

set_option maxHeartbeats 4000000 in
/-- Chunk 9 (`rops8`, 10 operations): 13 buffers live at its head, 13 at its end. -/
theorem cut9 {V : Valuation τ sig (Elt F)} {x0 : (⟨S16x85x128x128, .f32⟩ : BufTy).Contents (Elt F)} {x1 : (⟨S16x64x5, .f32⟩ : BufTy).Contents (Elt F)}
    (h_main_arg0 : V (Proc.devRef .tc main_arg0) = x0)
    (h_main_arg1 : V (Proc.devRef .tc main_arg1) = x1)
    (h_main_v1 : V (Proc.devRef .tc main_v1) = Cert.ReferenceIdeal.Read.val_main_v1 (F := F) x0)
    (h_main_v6 : V (Proc.devRef .tc main_v6) = Cert.ReferenceIdeal.Read.val_main_v6 (F := F) x1)
    (h_main_v8 : V (Proc.devRef .tc main_v8) = Cert.ReferenceIdeal.Read.val_main_v8 (F := F) x1)
    (h_main_v10 : V (Proc.devRef .tc main_v10) = Cert.ReferenceIdeal.Read.val_main_v10 (F := F) x1)
    (h_main_v12 : V (Proc.devRef .tc main_v12) = Cert.ReferenceIdeal.Read.val_main_v12 (F := F) x1)
    (h_main_v21 : V (Proc.devRef .tc main_v21) = Cert.ReferenceIdeal.Read.val_main_v21 (F := F) x1)
    (h_main_v40 : V (Proc.devRef .tc main_v40) = Cert.ReferenceIdeal.Read.val_main_v40 (F := F) x1)
    (h_main_v41 : V (Proc.devRef .tc main_v41) = Cert.ReferenceIdeal.Read.val_main_v41 (F := F))
    (h_main_v58 : V (Proc.devRef .tc main_v58) = Cert.ReferenceIdeal.Read.val_main_v58 (F := F))
    (h_main_v59 : V (Proc.devRef .tc main_v59) = Cert.ReferenceIdeal.Read.val_main_v59 (F := F) x1)
    (h_main_v60 : V (Proc.devRef .tc main_v60) = Cert.ReferenceIdeal.Read.val_main_v60 (F := F) x1)
    :
    StableHlo.after (rops8 : List (HloOp τ sig (Elt F))) V (Proc.devRef .tc main_arg0) = x0
    ∧ StableHlo.after (rops8 : List (HloOp τ sig (Elt F))) V (Proc.devRef .tc main_arg1) = x1
    ∧ StableHlo.after (rops8 : List (HloOp τ sig (Elt F))) V (Proc.devRef .tc main_v1) = Cert.ReferenceIdeal.Read.val_main_v1 (F := F) x0
    ∧ StableHlo.after (rops8 : List (HloOp τ sig (Elt F))) V (Proc.devRef .tc main_v6) = Cert.ReferenceIdeal.Read.val_main_v6 (F := F) x1
    ∧ StableHlo.after (rops8 : List (HloOp τ sig (Elt F))) V (Proc.devRef .tc main_v8) = Cert.ReferenceIdeal.Read.val_main_v8 (F := F) x1
    ∧ StableHlo.after (rops8 : List (HloOp τ sig (Elt F))) V (Proc.devRef .tc main_v10) = Cert.ReferenceIdeal.Read.val_main_v10 (F := F) x1
    ∧ StableHlo.after (rops8 : List (HloOp τ sig (Elt F))) V (Proc.devRef .tc main_v12) = Cert.ReferenceIdeal.Read.val_main_v12 (F := F) x1
    ∧ StableHlo.after (rops8 : List (HloOp τ sig (Elt F))) V (Proc.devRef .tc main_v40) = Cert.ReferenceIdeal.Read.val_main_v40 (F := F) x1
    ∧ StableHlo.after (rops8 : List (HloOp τ sig (Elt F))) V (Proc.devRef .tc main_v63) = Cert.ReferenceIdeal.Read.val_main_v63 (F := F) x1
    ∧ StableHlo.after (rops8 : List (HloOp τ sig (Elt F))) V (Proc.devRef .tc main_v64) = Cert.ReferenceIdeal.Read.val_main_v64 (F := F) x0
    ∧ StableHlo.after (rops8 : List (HloOp τ sig (Elt F))) V (Proc.devRef .tc main_v65) = Cert.ReferenceIdeal.Read.val_main_v65 (F := F) x1
    ∧ StableHlo.after (rops8 : List (HloOp τ sig (Elt F))) V (Proc.devRef .tc main_call0_v1) = Cert.ReferenceIdeal.Read.val_main_call0_v1 (F := F) x1
    ∧ StableHlo.after (rops8 : List (HloOp τ sig (Elt F))) V (Proc.devRef .tc main_call0_c_0) = Cert.ReferenceIdeal.Read.val_main_call0_c_0 (F := F) := by
  simp only [rops8]
  read_stretch
  refine ⟨?_, ?_, ?_, ?_, ?_, ?_, ?_, ?_, ?_, ?_, ?_, ?_, ?_⟩
  all_goals (try (simp only [h_main_arg0, h_main_arg1, h_main_v1, h_main_v6, h_main_v8, h_main_v10, h_main_v12, h_main_v21, h_main_v40, h_main_v41, h_main_v58, h_main_v59, h_main_v60]; done))
  all_goals (read_stretch_rw; (try simp only [h_main_arg0, h_main_arg1, h_main_v1, h_main_v6, h_main_v8, h_main_v10, h_main_v12, h_main_v21, h_main_v40, h_main_v41, h_main_v58, h_main_v59, h_main_v60]); (repeat (first | rw [h_main_arg0] | rw [h_main_arg1] | rw [h_main_v1] | rw [h_main_v6] | rw [h_main_v8] | rw [h_main_v10] | rw [h_main_v12] | rw [h_main_v21] | rw [h_main_v40] | rw [h_main_v41] | rw [h_main_v58] | rw [h_main_v59] | rw [h_main_v60])); (try rfl))

set_option maxHeartbeats 4000000 in
/-- Chunk 10 (`rops9`, 10 operations): 13 buffers live at its head, 13 at its end. -/
theorem cut10 {V : Valuation τ sig (Elt F)} {x0 : (⟨S16x85x128x128, .f32⟩ : BufTy).Contents (Elt F)} {x1 : (⟨S16x64x5, .f32⟩ : BufTy).Contents (Elt F)}
    (h_main_arg0 : V (Proc.devRef .tc main_arg0) = x0)
    (h_main_arg1 : V (Proc.devRef .tc main_arg1) = x1)
    (h_main_v1 : V (Proc.devRef .tc main_v1) = Cert.ReferenceIdeal.Read.val_main_v1 (F := F) x0)
    (h_main_v6 : V (Proc.devRef .tc main_v6) = Cert.ReferenceIdeal.Read.val_main_v6 (F := F) x1)
    (h_main_v8 : V (Proc.devRef .tc main_v8) = Cert.ReferenceIdeal.Read.val_main_v8 (F := F) x1)
    (h_main_v10 : V (Proc.devRef .tc main_v10) = Cert.ReferenceIdeal.Read.val_main_v10 (F := F) x1)
    (h_main_v12 : V (Proc.devRef .tc main_v12) = Cert.ReferenceIdeal.Read.val_main_v12 (F := F) x1)
    (h_main_v40 : V (Proc.devRef .tc main_v40) = Cert.ReferenceIdeal.Read.val_main_v40 (F := F) x1)
    (h_main_v63 : V (Proc.devRef .tc main_v63) = Cert.ReferenceIdeal.Read.val_main_v63 (F := F) x1)
    (h_main_v64 : V (Proc.devRef .tc main_v64) = Cert.ReferenceIdeal.Read.val_main_v64 (F := F) x0)
    (h_main_v65 : V (Proc.devRef .tc main_v65) = Cert.ReferenceIdeal.Read.val_main_v65 (F := F) x1)
    (h_main_call0_v1 : V (Proc.devRef .tc main_call0_v1) = Cert.ReferenceIdeal.Read.val_main_call0_v1 (F := F) x1)
    (h_main_call0_c_0 : V (Proc.devRef .tc main_call0_c_0) = Cert.ReferenceIdeal.Read.val_main_call0_c_0 (F := F))
    :
    StableHlo.after (rops9 : List (HloOp τ sig (Elt F))) V (Proc.devRef .tc main_arg0) = x0
    ∧ StableHlo.after (rops9 : List (HloOp τ sig (Elt F))) V (Proc.devRef .tc main_arg1) = x1
    ∧ StableHlo.after (rops9 : List (HloOp τ sig (Elt F))) V (Proc.devRef .tc main_v1) = Cert.ReferenceIdeal.Read.val_main_v1 (F := F) x0
    ∧ StableHlo.after (rops9 : List (HloOp τ sig (Elt F))) V (Proc.devRef .tc main_v6) = Cert.ReferenceIdeal.Read.val_main_v6 (F := F) x1
    ∧ StableHlo.after (rops9 : List (HloOp τ sig (Elt F))) V (Proc.devRef .tc main_v8) = Cert.ReferenceIdeal.Read.val_main_v8 (F := F) x1
    ∧ StableHlo.after (rops9 : List (HloOp τ sig (Elt F))) V (Proc.devRef .tc main_v10) = Cert.ReferenceIdeal.Read.val_main_v10 (F := F) x1
    ∧ StableHlo.after (rops9 : List (HloOp τ sig (Elt F))) V (Proc.devRef .tc main_v12) = Cert.ReferenceIdeal.Read.val_main_v12 (F := F) x1
    ∧ StableHlo.after (rops9 : List (HloOp τ sig (Elt F))) V (Proc.devRef .tc main_v40) = Cert.ReferenceIdeal.Read.val_main_v40 (F := F) x1
    ∧ StableHlo.after (rops9 : List (HloOp τ sig (Elt F))) V (Proc.devRef .tc main_v63) = Cert.ReferenceIdeal.Read.val_main_v63 (F := F) x1
    ∧ StableHlo.after (rops9 : List (HloOp τ sig (Elt F))) V (Proc.devRef .tc main_v64) = Cert.ReferenceIdeal.Read.val_main_v64 (F := F) x0
    ∧ StableHlo.after (rops9 : List (HloOp τ sig (Elt F))) V (Proc.devRef .tc main_call0_v4) = Cert.ReferenceIdeal.Read.val_main_call0_v4 (F := F) x1
    ∧ StableHlo.after (rops9 : List (HloOp τ sig (Elt F))) V (Proc.devRef .tc main_call0_v6) = Cert.ReferenceIdeal.Read.val_main_call0_v6 (F := F) x1
    ∧ StableHlo.after (rops9 : List (HloOp τ sig (Elt F))) V (Proc.devRef .tc main_call0_v9) = Cert.ReferenceIdeal.Read.val_main_call0_v9 (F := F) x1 := by
  simp only [rops9]
  read_stretch
  refine ⟨?_, ?_, ?_, ?_, ?_, ?_, ?_, ?_, ?_, ?_, ?_, ?_, ?_⟩
  all_goals (try (simp only [h_main_arg0, h_main_arg1, h_main_v1, h_main_v6, h_main_v8, h_main_v10, h_main_v12, h_main_v40, h_main_v63, h_main_v64, h_main_v65, h_main_call0_v1, h_main_call0_c_0]; done))
  all_goals (read_stretch_rw; (try simp only [h_main_arg0, h_main_arg1, h_main_v1, h_main_v6, h_main_v8, h_main_v10, h_main_v12, h_main_v40, h_main_v63, h_main_v64, h_main_v65, h_main_call0_v1, h_main_call0_c_0]); (repeat (first | rw [h_main_arg0] | rw [h_main_arg1] | rw [h_main_v1] | rw [h_main_v6] | rw [h_main_v8] | rw [h_main_v10] | rw [h_main_v12] | rw [h_main_v40] | rw [h_main_v63] | rw [h_main_v64] | rw [h_main_v65] | rw [h_main_call0_v1] | rw [h_main_call0_c_0])); (try rfl))

set_option maxHeartbeats 4000000 in
/-- Chunk 11 (`rops10`, 10 operations): 13 buffers live at its head, 11 at its end. -/
theorem cut11 {V : Valuation τ sig (Elt F)} {x0 : (⟨S16x85x128x128, .f32⟩ : BufTy).Contents (Elt F)} {x1 : (⟨S16x64x5, .f32⟩ : BufTy).Contents (Elt F)}
    (h_main_arg0 : V (Proc.devRef .tc main_arg0) = x0)
    (h_main_arg1 : V (Proc.devRef .tc main_arg1) = x1)
    (h_main_v1 : V (Proc.devRef .tc main_v1) = Cert.ReferenceIdeal.Read.val_main_v1 (F := F) x0)
    (h_main_v6 : V (Proc.devRef .tc main_v6) = Cert.ReferenceIdeal.Read.val_main_v6 (F := F) x1)
    (h_main_v8 : V (Proc.devRef .tc main_v8) = Cert.ReferenceIdeal.Read.val_main_v8 (F := F) x1)
    (h_main_v10 : V (Proc.devRef .tc main_v10) = Cert.ReferenceIdeal.Read.val_main_v10 (F := F) x1)
    (h_main_v12 : V (Proc.devRef .tc main_v12) = Cert.ReferenceIdeal.Read.val_main_v12 (F := F) x1)
    (h_main_v40 : V (Proc.devRef .tc main_v40) = Cert.ReferenceIdeal.Read.val_main_v40 (F := F) x1)
    (h_main_v63 : V (Proc.devRef .tc main_v63) = Cert.ReferenceIdeal.Read.val_main_v63 (F := F) x1)
    (h_main_v64 : V (Proc.devRef .tc main_v64) = Cert.ReferenceIdeal.Read.val_main_v64 (F := F) x0)
    (h_main_call0_v4 : V (Proc.devRef .tc main_call0_v4) = Cert.ReferenceIdeal.Read.val_main_call0_v4 (F := F) x1)
    (h_main_call0_v6 : V (Proc.devRef .tc main_call0_v6) = Cert.ReferenceIdeal.Read.val_main_call0_v6 (F := F) x1)
    (h_main_call0_v9 : V (Proc.devRef .tc main_call0_v9) = Cert.ReferenceIdeal.Read.val_main_call0_v9 (F := F) x1)
    :
    StableHlo.after (rops10 : List (HloOp τ sig (Elt F))) V (Proc.devRef .tc main_arg0) = x0
    ∧ StableHlo.after (rops10 : List (HloOp τ sig (Elt F))) V (Proc.devRef .tc main_arg1) = x1
    ∧ StableHlo.after (rops10 : List (HloOp τ sig (Elt F))) V (Proc.devRef .tc main_v1) = Cert.ReferenceIdeal.Read.val_main_v1 (F := F) x0
    ∧ StableHlo.after (rops10 : List (HloOp τ sig (Elt F))) V (Proc.devRef .tc main_v6) = Cert.ReferenceIdeal.Read.val_main_v6 (F := F) x1
    ∧ StableHlo.after (rops10 : List (HloOp τ sig (Elt F))) V (Proc.devRef .tc main_v8) = Cert.ReferenceIdeal.Read.val_main_v8 (F := F) x1
    ∧ StableHlo.after (rops10 : List (HloOp τ sig (Elt F))) V (Proc.devRef .tc main_v10) = Cert.ReferenceIdeal.Read.val_main_v10 (F := F) x1
    ∧ StableHlo.after (rops10 : List (HloOp τ sig (Elt F))) V (Proc.devRef .tc main_v12) = Cert.ReferenceIdeal.Read.val_main_v12 (F := F) x1
    ∧ StableHlo.after (rops10 : List (HloOp τ sig (Elt F))) V (Proc.devRef .tc main_v40) = Cert.ReferenceIdeal.Read.val_main_v40 (F := F) x1
    ∧ StableHlo.after (rops10 : List (HloOp τ sig (Elt F))) V (Proc.devRef .tc main_v63) = Cert.ReferenceIdeal.Read.val_main_v63 (F := F) x1
    ∧ StableHlo.after (rops10 : List (HloOp τ sig (Elt F))) V (Proc.devRef .tc main_v66) = Cert.ReferenceIdeal.Read.val_main_v66 (F := F) x0 x1
    ∧ StableHlo.after (rops10 : List (HloOp τ sig (Elt F))) V (Proc.devRef .tc main_v68) = Cert.ReferenceIdeal.Read.val_main_v68 (F := F) x0 x1 := by
  simp only [rops10]
  read_stretch
  refine ⟨?_, ?_, ?_, ?_, ?_, ?_, ?_, ?_, ?_, ?_, ?_⟩
  all_goals (try (simp only [h_main_arg0, h_main_arg1, h_main_v1, h_main_v6, h_main_v8, h_main_v10, h_main_v12, h_main_v40, h_main_v63, h_main_v64, h_main_call0_v4, h_main_call0_v6, h_main_call0_v9]; done))
  all_goals (read_stretch_rw; (try simp only [h_main_arg0, h_main_arg1, h_main_v1, h_main_v6, h_main_v8, h_main_v10, h_main_v12, h_main_v40, h_main_v63, h_main_v64, h_main_call0_v4, h_main_call0_v6, h_main_call0_v9]); (repeat (first | rw [h_main_arg0] | rw [h_main_arg1] | rw [h_main_v1] | rw [h_main_v6] | rw [h_main_v8] | rw [h_main_v10] | rw [h_main_v12] | rw [h_main_v40] | rw [h_main_v63] | rw [h_main_v64] | rw [h_main_call0_v4] | rw [h_main_call0_v6] | rw [h_main_call0_v9])); (try rfl))

set_option maxHeartbeats 4000000 in
/-- Chunk 12 (`rops11`, 10 operations): 11 buffers live at its head, 14 at its end. -/
theorem cut12 {V : Valuation τ sig (Elt F)} {x0 : (⟨S16x85x128x128, .f32⟩ : BufTy).Contents (Elt F)} {x1 : (⟨S16x64x5, .f32⟩ : BufTy).Contents (Elt F)}
    (h_main_arg0 : V (Proc.devRef .tc main_arg0) = x0)
    (h_main_arg1 : V (Proc.devRef .tc main_arg1) = x1)
    (h_main_v1 : V (Proc.devRef .tc main_v1) = Cert.ReferenceIdeal.Read.val_main_v1 (F := F) x0)
    (h_main_v6 : V (Proc.devRef .tc main_v6) = Cert.ReferenceIdeal.Read.val_main_v6 (F := F) x1)
    (h_main_v8 : V (Proc.devRef .tc main_v8) = Cert.ReferenceIdeal.Read.val_main_v8 (F := F) x1)
    (h_main_v10 : V (Proc.devRef .tc main_v10) = Cert.ReferenceIdeal.Read.val_main_v10 (F := F) x1)
    (h_main_v12 : V (Proc.devRef .tc main_v12) = Cert.ReferenceIdeal.Read.val_main_v12 (F := F) x1)
    (h_main_v40 : V (Proc.devRef .tc main_v40) = Cert.ReferenceIdeal.Read.val_main_v40 (F := F) x1)
    (h_main_v63 : V (Proc.devRef .tc main_v63) = Cert.ReferenceIdeal.Read.val_main_v63 (F := F) x1)
    (h_main_v66 : V (Proc.devRef .tc main_v66) = Cert.ReferenceIdeal.Read.val_main_v66 (F := F) x0 x1)
    (h_main_v68 : V (Proc.devRef .tc main_v68) = Cert.ReferenceIdeal.Read.val_main_v68 (F := F) x0 x1)
    :
    StableHlo.after (rops11 : List (HloOp τ sig (Elt F))) V (Proc.devRef .tc main_arg0) = x0
    ∧ StableHlo.after (rops11 : List (HloOp τ sig (Elt F))) V (Proc.devRef .tc main_arg1) = x1
    ∧ StableHlo.after (rops11 : List (HloOp τ sig (Elt F))) V (Proc.devRef .tc main_v1) = Cert.ReferenceIdeal.Read.val_main_v1 (F := F) x0
    ∧ StableHlo.after (rops11 : List (HloOp τ sig (Elt F))) V (Proc.devRef .tc main_v6) = Cert.ReferenceIdeal.Read.val_main_v6 (F := F) x1
    ∧ StableHlo.after (rops11 : List (HloOp τ sig (Elt F))) V (Proc.devRef .tc main_v8) = Cert.ReferenceIdeal.Read.val_main_v8 (F := F) x1
    ∧ StableHlo.after (rops11 : List (HloOp τ sig (Elt F))) V (Proc.devRef .tc main_v10) = Cert.ReferenceIdeal.Read.val_main_v10 (F := F) x1
    ∧ StableHlo.after (rops11 : List (HloOp τ sig (Elt F))) V (Proc.devRef .tc main_v12) = Cert.ReferenceIdeal.Read.val_main_v12 (F := F) x1
    ∧ StableHlo.after (rops11 : List (HloOp τ sig (Elt F))) V (Proc.devRef .tc main_v40) = Cert.ReferenceIdeal.Read.val_main_v40 (F := F) x1
    ∧ StableHlo.after (rops11 : List (HloOp τ sig (Elt F))) V (Proc.devRef .tc main_v63) = Cert.ReferenceIdeal.Read.val_main_v63 (F := F) x1
    ∧ StableHlo.after (rops11 : List (HloOp τ sig (Elt F))) V (Proc.devRef .tc main_v68) = Cert.ReferenceIdeal.Read.val_main_v68 (F := F) x0 x1
    ∧ StableHlo.after (rops11 : List (HloOp τ sig (Elt F))) V (Proc.devRef .tc main_v70) = Cert.ReferenceIdeal.Read.val_main_v70 (F := F) x0 x1
    ∧ StableHlo.after (rops11 : List (HloOp τ sig (Elt F))) V (Proc.devRef .tc main_v72) = Cert.ReferenceIdeal.Read.val_main_v72 (F := F) x0 x1
    ∧ StableHlo.after (rops11 : List (HloOp τ sig (Elt F))) V (Proc.devRef .tc main_v74) = Cert.ReferenceIdeal.Read.val_main_v74 (F := F) x0 x1
    ∧ StableHlo.after (rops11 : List (HloOp τ sig (Elt F))) V (Proc.devRef .tc main_v77) = Cert.ReferenceIdeal.Read.val_main_v77 (F := F) x0 x1 := by
  simp only [rops11]
  read_stretch
  refine ⟨?_, ?_, ?_, ?_, ?_, ?_, ?_, ?_, ?_, ?_, ?_, ?_, ?_, ?_⟩
  all_goals (try (simp only [h_main_arg0, h_main_arg1, h_main_v1, h_main_v6, h_main_v8, h_main_v10, h_main_v12, h_main_v40, h_main_v63, h_main_v66, h_main_v68]; done))
  all_goals (read_stretch_rw; (try simp only [h_main_arg0, h_main_arg1, h_main_v1, h_main_v6, h_main_v8, h_main_v10, h_main_v12, h_main_v40, h_main_v63, h_main_v66, h_main_v68]); (repeat (first | rw [h_main_arg0] | rw [h_main_arg1] | rw [h_main_v1] | rw [h_main_v6] | rw [h_main_v8] | rw [h_main_v10] | rw [h_main_v12] | rw [h_main_v40] | rw [h_main_v63] | rw [h_main_v66] | rw [h_main_v68])); (try rfl))

end Cert.ReferenceIdeal.RefRun

end
-- ==== Proof.RC.RCut03.lean ====
/- The line of host operations of the reference program's @main (288 operations, in chunks), stretch by stretch: for each stretch, from the facts that the
   buffers live at its head hold their stages, the buffers live at its end hold theirs (a buffer the stretch writes: its
   operation's function of its operands' stages, which is its stage; a buffer it does not write: what it held); and
   composed over the stretches, the whole line from any contents leaves the result buffer at the last stage. -/
import proofs.«175006_j89550068121905_1_alg».proof.Proof.RefOps
import proofs.«175006_j89550068121905_1_alg».proof.Proof.RefRead
import proofs.«175006_j89550068121905_1_alg».proof.Proof.LibReadStretch
import proofs.«175006_j89550068121905_1_alg».proof.Proof.LibReadStretchRw
import Idealize.ShloMosaic.Lib.Pipeline.Frame

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- Chunk 13 (`rops12`, 10 operations): 14 buffers live at its head, 15 at its end. -/
theorem cut13 {V : Valuation τ sig (Elt F)} {x0 : (⟨S16x85x128x128, .f32⟩ : BufTy).Contents (Elt F)} {x1 : (⟨S16x64x5, .f32⟩ : BufTy).Contents (Elt F)}
    (h_main_arg0 : V (Proc.devRef .tc main_arg0) = x0)
    (h_main_arg1 : V (Proc.devRef .tc main_arg1) = x1)
    (h_main_v1 : V (Proc.devRef .tc main_v1) = Cert.ReferenceIdeal.Read.val_main_v1 (F := F) x0)
    (h_main_v6 : V (Proc.devRef .tc main_v6) = Cert.ReferenceIdeal.Read.val_main_v6 (F := F) x1)
    (h_main_v8 : V (Proc.devRef .tc main_v8) = Cert.ReferenceIdeal.Read.val_main_v8 (F := F) x1)
    (h_main_v10 : V (Proc.devRef .tc main_v10) = Cert.ReferenceIdeal.Read.val_main_v10 (F := F) x1)
    (h_main_v12 : V (Proc.devRef .tc main_v12) = Cert.ReferenceIdeal.Read.val_main_v12 (F := F) x1)
    (h_main_v40 : V (Proc.devRef .tc main_v40) = Cert.ReferenceIdeal.Read.val_main_v40 (F := F) x1)
    (h_main_v63 : V (Proc.devRef .tc main_v63) = Cert.ReferenceIdeal.Read.val_main_v63 (F := F) x1)
    (h_main_v68 : V (Proc.devRef .tc main_v68) = Cert.ReferenceIdeal.Read.val_main_v68 (F := F) x0 x1)
    (h_main_v70 : V (Proc.devRef .tc main_v70) = Cert.ReferenceIdeal.Read.val_main_v70 (F := F) x0 x1)
    (h_main_v72 : V (Proc.devRef .tc main_v72) = Cert.ReferenceIdeal.Read.val_main_v72 (F := F) x0 x1)
    (h_main_v74 : V (Proc.devRef .tc main_v74) = Cert.ReferenceIdeal.Read.val_main_v74 (F := F) x0 x1)
    (h_main_v77 : V (Proc.devRef .tc main_v77) = Cert.ReferenceIdeal.Read.val_main_v77 (F := F) x0 x1)
    :
    StableHlo.after (rops12 : List (HloOp τ sig (Elt F))) V (Proc.devRef .tc main_arg0) = x0
    ∧ StableHlo.after (rops12 : List (HloOp τ sig (Elt F))) V (Proc.devRef .tc main_arg1) = x1
    ∧ StableHlo.after (rops12 : List (HloOp τ sig (Elt F))) V (Proc.devRef .tc main_v1) = Cert.ReferenceIdeal.Read.val_main_v1 (F := F) x0
    ∧ StableHlo.after (rops12 : List (HloOp τ sig (Elt F))) V (Proc.devRef .tc main_v6) = Cert.ReferenceIdeal.Read.val_main_v6 (F := F) x1
    ∧ StableHlo.after (rops12 : List (HloOp τ sig (Elt F))) V (Proc.devRef .tc main_v8) = Cert.ReferenceIdeal.Read.val_main_v8 (F := F) x1
    ∧ StableHlo.after (rops12 : List (HloOp τ sig (Elt F))) V (Proc.devRef .tc main_v10) = Cert.ReferenceIdeal.Read.val_main_v10 (F := F) x1
    ∧ StableHlo.after (rops12 : List (HloOp τ sig (Elt F))) V (Proc.devRef .tc main_v12) = Cert.ReferenceIdeal.Read.val_main_v12 (F := F) x1
    ∧ StableHlo.after (rops12 : List (HloOp τ sig (Elt F))) V (Proc.devRef .tc main_v40) = Cert.ReferenceIdeal.Read.val_main_v40 (F := F) x1
    ∧ StableHlo.after (rops12 : List (HloOp τ sig (Elt F))) V (Proc.devRef .tc main_v63) = Cert.ReferenceIdeal.Read.val_main_v63 (F := F) x1
    ∧ StableHlo.after (rops12 : List (HloOp τ sig (Elt F))) V (Proc.devRef .tc main_v70) = Cert.ReferenceIdeal.Read.val_main_v70 (F := F) x0 x1
    ∧ StableHlo.after (rops12 : List (HloOp τ sig (Elt F))) V (Proc.devRef .tc main_v74) = Cert.ReferenceIdeal.Read.val_main_v74 (F := F) x0 x1
    ∧ StableHlo.after (rops12 : List (HloOp τ sig (Elt F))) V (Proc.devRef .tc main_v77) = Cert.ReferenceIdeal.Read.val_main_v77 (F := F) x0 x1
    ∧ StableHlo.after (rops12 : List (HloOp τ sig (Elt F))) V (Proc.devRef .tc main_v80) = Cert.ReferenceIdeal.Read.val_main_v80 (F := F) x0 x1
    ∧ StableHlo.after (rops12 : List (HloOp τ sig (Elt F))) V (Proc.devRef .tc main_v83) = Cert.ReferenceIdeal.Read.val_main_v83 (F := F) x0 x1
    ∧ StableHlo.after (rops12 : List (HloOp τ sig (Elt F))) V (Proc.devRef .tc main_v84) = Cert.ReferenceIdeal.Read.val_main_v84 (F := F) := by
  simp only [rops12]
  read_stretch
  refine ⟨?_, ?_, ?_, ?_, ?_, ?_, ?_, ?_, ?_, ?_, ?_, ?_, ?_, ?_, ?_⟩
  all_goals (try (simp only [h_main_arg0, h_main_arg1, h_main_v1, h_main_v6, h_main_v8, h_main_v10, h_main_v12, h_main_v40, h_main_v63, h_main_v68, h_main_v70, h_main_v72, h_main_v74, h_main_v77]; done))
  all_goals (read_stretch_rw; (try simp only [h_main_arg0, h_main_arg1, h_main_v1, h_main_v6, h_main_v8, h_main_v10, h_main_v12, h_main_v40, h_main_v63, h_main_v68, h_main_v70, h_main_v72, h_main_v74, h_main_v77]); (repeat (first | rw [h_main_arg0] | rw [h_main_arg1] | rw [h_main_v1] | rw [h_main_v6] | rw [h_main_v8] | rw [h_main_v10] | rw [h_main_v12] | rw [h_main_v40] | rw [h_main_v63] | rw [h_main_v68] | rw [h_main_v70] | rw [h_main_v72] | rw [h_main_v74] | rw [h_main_v77])); (try rfl))

set_option maxHeartbeats 4000000 in
/-- Chunk 14 (`rops13`, 6 operations): 15 buffers live at its head, 13 at its end. -/
theorem cut14 {V : Valuation τ sig (Elt F)} {x0 : (⟨S16x85x128x128, .f32⟩ : BufTy).Contents (Elt F)} {x1 : (⟨S16x64x5, .f32⟩ : BufTy).Contents (Elt F)}
    (h_main_arg0 : V (Proc.devRef .tc main_arg0) = x0)
    (h_main_arg1 : V (Proc.devRef .tc main_arg1) = x1)
    (h_main_v1 : V (Proc.devRef .tc main_v1) = Cert.ReferenceIdeal.Read.val_main_v1 (F := F) x0)
    (h_main_v6 : V (Proc.devRef .tc main_v6) = Cert.ReferenceIdeal.Read.val_main_v6 (F := F) x1)
    (h_main_v8 : V (Proc.devRef .tc main_v8) = Cert.ReferenceIdeal.Read.val_main_v8 (F := F) x1)
    (h_main_v10 : V (Proc.devRef .tc main_v10) = Cert.ReferenceIdeal.Read.val_main_v10 (F := F) x1)
    (h_main_v12 : V (Proc.devRef .tc main_v12) = Cert.ReferenceIdeal.Read.val_main_v12 (F := F) x1)
    (h_main_v40 : V (Proc.devRef .tc main_v40) = Cert.ReferenceIdeal.Read.val_main_v40 (F := F) x1)
    (h_main_v63 : V (Proc.devRef .tc main_v63) = Cert.ReferenceIdeal.Read.val_main_v63 (F := F) x1)
    (h_main_v70 : V (Proc.devRef .tc main_v70) = Cert.ReferenceIdeal.Read.val_main_v70 (F := F) x0 x1)
    (h_main_v74 : V (Proc.devRef .tc main_v74) = Cert.ReferenceIdeal.Read.val_main_v74 (F := F) x0 x1)
    (h_main_v77 : V (Proc.devRef .tc main_v77) = Cert.ReferenceIdeal.Read.val_main_v77 (F := F) x0 x1)
    (h_main_v80 : V (Proc.devRef .tc main_v80) = Cert.ReferenceIdeal.Read.val_main_v80 (F := F) x0 x1)
    (h_main_v83 : V (Proc.devRef .tc main_v83) = Cert.ReferenceIdeal.Read.val_main_v83 (F := F) x0 x1)
    (h_main_v84 : V (Proc.devRef .tc main_v84) = Cert.ReferenceIdeal.Read.val_main_v84 (F := F))
    :
    StableHlo.after (rops13 : List (HloOp τ sig (Elt F))) V (Proc.devRef .tc main_arg0) = x0
    ∧ StableHlo.after (rops13 : List (HloOp τ sig (Elt F))) V (Proc.devRef .tc main_arg1) = x1
    ∧ StableHlo.after (rops13 : List (HloOp τ sig (Elt F))) V (Proc.devRef .tc main_v1) = Cert.ReferenceIdeal.Read.val_main_v1 (F := F) x0
    ∧ StableHlo.after (rops13 : List (HloOp τ sig (Elt F))) V (Proc.devRef .tc main_v6) = Cert.ReferenceIdeal.Read.val_main_v6 (F := F) x1
    ∧ StableHlo.after (rops13 : List (HloOp τ sig (Elt F))) V (Proc.devRef .tc main_v8) = Cert.ReferenceIdeal.Read.val_main_v8 (F := F) x1
    ∧ StableHlo.after (rops13 : List (HloOp τ sig (Elt F))) V (Proc.devRef .tc main_v10) = Cert.ReferenceIdeal.Read.val_main_v10 (F := F) x1
    ∧ StableHlo.after (rops13 : List (HloOp τ sig (Elt F))) V (Proc.devRef .tc main_v12) = Cert.ReferenceIdeal.Read.val_main_v12 (F := F) x1
    ∧ StableHlo.after (rops13 : List (HloOp τ sig (Elt F))) V (Proc.devRef .tc main_v40) = Cert.ReferenceIdeal.Read.val_main_v40 (F := F) x1
    ∧ StableHlo.after (rops13 : List (HloOp τ sig (Elt F))) V (Proc.devRef .tc main_v63) = Cert.ReferenceIdeal.Read.val_main_v63 (F := F) x1
    ∧ StableHlo.after (rops13 : List (HloOp τ sig (Elt F))) V (Proc.devRef .tc main_v87) = Cert.ReferenceIdeal.Read.val_main_v87 (F := F) x0 x1
    ∧ StableHlo.after (rops13 : List (HloOp τ sig (Elt F))) V (Proc.devRef .tc main_v88) = Cert.ReferenceIdeal.Read.val_main_v88 (F := F) x0 x1
    ∧ StableHlo.after (rops13 : List (HloOp τ sig (Elt F))) V (Proc.devRef .tc main_v89) = Cert.ReferenceIdeal.Read.val_main_v89 (F := F) x0 x1
    ∧ StableHlo.after (rops13 : List (HloOp τ sig (Elt F))) V (Proc.devRef .tc main_v90) = Cert.ReferenceIdeal.Read.val_main_v90 (F := F) x0 x1 := by
  simp only [rops13]
  read_stretch
  refine ⟨?_, ?_, ?_, ?_, ?_, ?_, ?_, ?_, ?_, ?_, ?_, ?_, ?_⟩
  all_goals (try (simp only [h_main_arg0, h_main_arg1, h_main_v1, h_main_v6, h_main_v8, h_main_v10, h_main_v12, h_main_v40, h_main_v63, h_main_v70, h_main_v74, h_main_v77, h_main_v80, h_main_v83, h_main_v84]; done))
  all_goals (read_stretch_rw; (try simp only [h_main_arg0, h_main_arg1, h_main_v1, h_main_v6, h_main_v8, h_main_v10, h_main_v12, h_main_v40, h_main_v63, h_main_v70, h_main_v74, h_main_v77, h_main_v80, h_main_v83, h_main_v84]); (repeat (first | rw [h_main_arg0] | rw [h_main_arg1] | rw [h_main_v1] | rw [h_main_v6] | rw [h_main_v8] | rw [h_main_v10] | rw [h_main_v12] | rw [h_main_v40] | rw [h_main_v63] | rw [h_main_v70] | rw [h_main_v74] | rw [h_main_v77] | rw [h_main_v80] | rw [h_main_v83] | rw [h_main_v84])); (try rfl))

set_option maxHeartbeats 4000000 in
/-- Chunk 15 (`rops14`, 10 operations): 13 buffers live at its head, 12 at its end. -/
theorem cut15 {V : Valuation τ sig (Elt F)} {x0 : (⟨S16x85x128x128, .f32⟩ : BufTy).Contents (Elt F)} {x1 : (⟨S16x64x5, .f32⟩ : BufTy).Contents (Elt F)}
    (h_main_arg0 : V (Proc.devRef .tc main_arg0) = x0)
    (h_main_arg1 : V (Proc.devRef .tc main_arg1) = x1)
    (h_main_v1 : V (Proc.devRef .tc main_v1) = Cert.ReferenceIdeal.Read.val_main_v1 (F := F) x0)
    (h_main_v6 : V (Proc.devRef .tc main_v6) = Cert.ReferenceIdeal.Read.val_main_v6 (F := F) x1)
    (h_main_v8 : V (Proc.devRef .tc main_v8) = Cert.ReferenceIdeal.Read.val_main_v8 (F := F) x1)
    (h_main_v10 : V (Proc.devRef .tc main_v10) = Cert.ReferenceIdeal.Read.val_main_v10 (F := F) x1)
    (h_main_v12 : V (Proc.devRef .tc main_v12) = Cert.ReferenceIdeal.Read.val_main_v12 (F := F) x1)
    (h_main_v40 : V (Proc.devRef .tc main_v40) = Cert.ReferenceIdeal.Read.val_main_v40 (F := F) x1)
    (h_main_v63 : V (Proc.devRef .tc main_v63) = Cert.ReferenceIdeal.Read.val_main_v63 (F := F) x1)
    (h_main_v87 : V (Proc.devRef .tc main_v87) = Cert.ReferenceIdeal.Read.val_main_v87 (F := F) x0 x1)
    (h_main_v88 : V (Proc.devRef .tc main_v88) = Cert.ReferenceIdeal.Read.val_main_v88 (F := F) x0 x1)
    (h_main_v89 : V (Proc.devRef .tc main_v89) = Cert.ReferenceIdeal.Read.val_main_v89 (F := F) x0 x1)
    (h_main_v90 : V (Proc.devRef .tc main_v90) = Cert.ReferenceIdeal.Read.val_main_v90 (F := F) x0 x1)
    :
    StableHlo.after (rops14 : List (HloOp τ sig (Elt F))) V (Proc.devRef .tc main_arg0) = x0
    ∧ StableHlo.after (rops14 : List (HloOp τ sig (Elt F))) V (Proc.devRef .tc main_arg1) = x1
    ∧ StableHlo.after (rops14 : List (HloOp τ sig (Elt F))) V (Proc.devRef .tc main_v1) = Cert.ReferenceIdeal.Read.val_main_v1 (F := F) x0
    ∧ StableHlo.after (rops14 : List (HloOp τ sig (Elt F))) V (Proc.devRef .tc main_v6) = Cert.ReferenceIdeal.Read.val_main_v6 (F := F) x1
    ∧ StableHlo.after (rops14 : List (HloOp τ sig (Elt F))) V (Proc.devRef .tc main_v8) = Cert.ReferenceIdeal.Read.val_main_v8 (F := F) x1
    ∧ StableHlo.after (rops14 : List (HloOp τ sig (Elt F))) V (Proc.devRef .tc main_v10) = Cert.ReferenceIdeal.Read.val_main_v10 (F := F) x1
    ∧ StableHlo.after (rops14 : List (HloOp τ sig (Elt F))) V (Proc.devRef .tc main_v12) = Cert.ReferenceIdeal.Read.val_main_v12 (F := F) x1
    ∧ StableHlo.after (rops14 : List (HloOp τ sig (Elt F))) V (Proc.devRef .tc main_v40) = Cert.ReferenceIdeal.Read.val_main_v40 (F := F) x1
    ∧ StableHlo.after (rops14 : List (HloOp τ sig (Elt F))) V (Proc.devRef .tc main_v63) = Cert.ReferenceIdeal.Read.val_main_v63 (F := F) x1
    ∧ StableHlo.after (rops14 : List (HloOp τ sig (Elt F))) V (Proc.devRef .tc main_v91) = Cert.ReferenceIdeal.Read.val_main_v91 (F := F) x0 x1
    ∧ StableHlo.after (rops14 : List (HloOp τ sig (Elt F))) V (Proc.devRef .tc main_v96) = Cert.ReferenceIdeal.Read.val_main_v96 (F := F) x1
    ∧ StableHlo.after (rops14 : List (HloOp τ sig (Elt F))) V (Proc.devRef .tc main_v97) = Cert.ReferenceIdeal.Read.val_main_v97 (F := F) := by
  simp only [rops14]
  read_stretch
  refine ⟨?_, ?_, ?_, ?_, ?_, ?_, ?_, ?_, ?_, ?_, ?_, ?_⟩
  all_goals (try (simp only [h_main_arg0, h_main_arg1, h_main_v1, h_main_v6, h_main_v8, h_main_v10, h_main_v12, h_main_v40, h_main_v63, h_main_v87, h_main_v88, h_main_v89, h_main_v90]; done))
  all_goals (read_stretch_rw; (try simp only [h_main_arg0, h_main_arg1, h_main_v1, h_main_v6, h_main_v8, h_main_v10, h_main_v12, h_main_v40, h_main_v63, h_main_v87, h_main_v88, h_main_v89, h_main_v90]); (repeat (first | rw [h_main_arg0] | rw [h_main_arg1] | rw [h_main_v1] | rw [h_main_v6] | rw [h_main_v8] | rw [h_main_v10] | rw [h_main_v12] | rw [h_main_v40] | rw [h_main_v63] | rw [h_main_v87] | rw [h_main_v88] | rw [h_main_v89] | rw [h_main_v90])); (try rfl))

set_option maxHeartbeats 4000000 in
/-- Chunk 16 (`rops15`, 10 operations): 12 buffers live at its head, 12 at its end. -/
theorem cut16 {V : Valuation τ sig (Elt F)} {x0 : (⟨S16x85x128x128, .f32⟩ : BufTy).Contents (Elt F)} {x1 : (⟨S16x64x5, .f32⟩ : BufTy).Contents (Elt F)}
    (h_main_arg0 : V (Proc.devRef .tc main_arg0) = x0)
    (h_main_arg1 : V (Proc.devRef .tc main_arg1) = x1)
    (h_main_v1 : V (Proc.devRef .tc main_v1) = Cert.ReferenceIdeal.Read.val_main_v1 (F := F) x0)
    (h_main_v6 : V (Proc.devRef .tc main_v6) = Cert.ReferenceIdeal.Read.val_main_v6 (F := F) x1)
    (h_main_v8 : V (Proc.devRef .tc main_v8) = Cert.ReferenceIdeal.Read.val_main_v8 (F := F) x1)
    (h_main_v10 : V (Proc.devRef .tc main_v10) = Cert.ReferenceIdeal.Read.val_main_v10 (F := F) x1)
    (h_main_v12 : V (Proc.devRef .tc main_v12) = Cert.ReferenceIdeal.Read.val_main_v12 (F := F) x1)
    (h_main_v40 : V (Proc.devRef .tc main_v40) = Cert.ReferenceIdeal.Read.val_main_v40 (F := F) x1)
    (h_main_v63 : V (Proc.devRef .tc main_v63) = Cert.ReferenceIdeal.Read.val_main_v63 (F := F) x1)
    (h_main_v91 : V (Proc.devRef .tc main_v91) = Cert.ReferenceIdeal.Read.val_main_v91 (F := F) x0 x1)
    (h_main_v96 : V (Proc.devRef .tc main_v96) = Cert.ReferenceIdeal.Read.val_main_v96 (F := F) x1)
    (h_main_v97 : V (Proc.devRef .tc main_v97) = Cert.ReferenceIdeal.Read.val_main_v97 (F := F))
    :
    StableHlo.after (rops15 : List (HloOp τ sig (Elt F))) V (Proc.devRef .tc main_arg0) = x0
    ∧ StableHlo.after (rops15 : List (HloOp τ sig (Elt F))) V (Proc.devRef .tc main_arg1) = x1
    ∧ StableHlo.after (rops15 : List (HloOp τ sig (Elt F))) V (Proc.devRef .tc main_v1) = Cert.ReferenceIdeal.Read.val_main_v1 (F := F) x0
    ∧ StableHlo.after (rops15 : List (HloOp τ sig (Elt F))) V (Proc.devRef .tc main_v8) = Cert.ReferenceIdeal.Read.val_main_v8 (F := F) x1
    ∧ StableHlo.after (rops15 : List (HloOp τ sig (Elt F))) V (Proc.devRef .tc main_v12) = Cert.ReferenceIdeal.Read.val_main_v12 (F := F) x1
    ∧ StableHlo.after (rops15 : List (HloOp τ sig (Elt F))) V (Proc.devRef .tc main_v40) = Cert.ReferenceIdeal.Read.val_main_v40 (F := F) x1
    ∧ StableHlo.after (rops15 : List (HloOp τ sig (Elt F))) V (Proc.devRef .tc main_v63) = Cert.ReferenceIdeal.Read.val_main_v63 (F := F) x1
    ∧ StableHlo.after (rops15 : List (HloOp τ sig (Elt F))) V (Proc.devRef .tc main_v91) = Cert.ReferenceIdeal.Read.val_main_v91 (F := F) x0 x1
    ∧ StableHlo.after (rops15 : List (HloOp τ sig (Elt F))) V (Proc.devRef .tc main_v96) = Cert.ReferenceIdeal.Read.val_main_v96 (F := F) x1
    ∧ StableHlo.after (rops15 : List (HloOp τ sig (Elt F))) V (Proc.devRef .tc main_v101) = Cert.ReferenceIdeal.Read.val_main_v101 (F := F) x1
    ∧ StableHlo.after (rops15 : List (HloOp τ sig (Elt F))) V (Proc.devRef .tc main_v104) = Cert.ReferenceIdeal.Read.val_main_v104 (F := F) x1
    ∧ StableHlo.after (rops15 : List (HloOp τ sig (Elt F))) V (Proc.devRef .tc main_cst_24) = Cert.ReferenceIdeal.Read.val_main_cst_24 (F := F) := by
  simp only [rops15]
  read_stretch
  refine ⟨?_, ?_, ?_, ?_, ?_, ?_, ?_, ?_, ?_, ?_, ?_, ?_⟩
  all_goals (try (simp only [h_main_arg0, h_main_arg1, h_main_v1, h_main_v6, h_main_v8, h_main_v10, h_main_v12, h_main_v40, h_main_v63, h_main_v91, h_main_v96, h_main_v97]; done))
  all_goals (read_stretch_rw; (try simp only [h_main_arg0, h_main_arg1, h_main_v1, h_main_v6, h_main_v8, h_main_v10, h_main_v12, h_main_v40, h_main_v63, h_main_v91, h_main_v96, h_main_v97]); (repeat (first | rw [h_main_arg0] | rw [h_main_arg1] | rw [h_main_v1] | rw [h_main_v6] | rw [h_main_v8] | rw [h_main_v10] | rw [h_main_v12] | rw [h_main_v40] | rw [h_main_v63] | rw [h_main_v91] | rw [h_main_v96] | rw [h_main_v97])); (try rfl))

set_option maxHeartbeats 4000000 in
/-- Chunk 17 (`rops16`, 10 operations): 12 buffers live at its head, 10 at its end. -/
theorem cut17 {V : Valuation τ sig (Elt F)} {x0 : (⟨S16x85x128x128, .f32⟩ : BufTy).Contents (Elt F)} {x1 : (⟨S16x64x5, .f32⟩ : BufTy).Contents (Elt F)}
    (h_main_arg0 : V (Proc.devRef .tc main_arg0) = x0)
    (h_main_arg1 : V (Proc.devRef .tc main_arg1) = x1)
    (h_main_v1 : V (Proc.devRef .tc main_v1) = Cert.ReferenceIdeal.Read.val_main_v1 (F := F) x0)
    (h_main_v8 : V (Proc.devRef .tc main_v8) = Cert.ReferenceIdeal.Read.val_main_v8 (F := F) x1)
    (h_main_v12 : V (Proc.devRef .tc main_v12) = Cert.ReferenceIdeal.Read.val_main_v12 (F := F) x1)
    (h_main_v40 : V (Proc.devRef .tc main_v40) = Cert.ReferenceIdeal.Read.val_main_v40 (F := F) x1)
    (h_main_v63 : V (Proc.devRef .tc main_v63) = Cert.ReferenceIdeal.Read.val_main_v63 (F := F) x1)
    (h_main_v91 : V (Proc.devRef .tc main_v91) = Cert.ReferenceIdeal.Read.val_main_v91 (F := F) x0 x1)
    (h_main_v96 : V (Proc.devRef .tc main_v96) = Cert.ReferenceIdeal.Read.val_main_v96 (F := F) x1)
    (h_main_v101 : V (Proc.devRef .tc main_v101) = Cert.ReferenceIdeal.Read.val_main_v101 (F := F) x1)
    (h_main_v104 : V (Proc.devRef .tc main_v104) = Cert.ReferenceIdeal.Read.val_main_v104 (F := F) x1)
    (h_main_cst_24 : V (Proc.devRef .tc main_cst_24) = Cert.ReferenceIdeal.Read.val_main_cst_24 (F := F))
    :
    StableHlo.after (rops16 : List (HloOp τ sig (Elt F))) V (Proc.devRef .tc main_arg0) = x0
    ∧ StableHlo.after (rops16 : List (HloOp τ sig (Elt F))) V (Proc.devRef .tc main_arg1) = x1
    ∧ StableHlo.after (rops16 : List (HloOp τ sig (Elt F))) V (Proc.devRef .tc main_v1) = Cert.ReferenceIdeal.Read.val_main_v1 (F := F) x0
    ∧ StableHlo.after (rops16 : List (HloOp τ sig (Elt F))) V (Proc.devRef .tc main_v40) = Cert.ReferenceIdeal.Read.val_main_v40 (F := F) x1
    ∧ StableHlo.after (rops16 : List (HloOp τ sig (Elt F))) V (Proc.devRef .tc main_v63) = Cert.ReferenceIdeal.Read.val_main_v63 (F := F) x1
    ∧ StableHlo.after (rops16 : List (HloOp τ sig (Elt F))) V (Proc.devRef .tc main_v91) = Cert.ReferenceIdeal.Read.val_main_v91 (F := F) x0 x1
    ∧ StableHlo.after (rops16 : List (HloOp τ sig (Elt F))) V (Proc.devRef .tc main_v101) = Cert.ReferenceIdeal.Read.val_main_v101 (F := F) x1
    ∧ StableHlo.after (rops16 : List (HloOp τ sig (Elt F))) V (Proc.devRef .tc main_v106) = Cert.ReferenceIdeal.Read.val_main_v106 (F := F) x1
    ∧ StableHlo.after (rops16 : List (HloOp τ sig (Elt F))) V (Proc.devRef .tc main_v111) = Cert.ReferenceIdeal.Read.val_main_v111 (F := F) x1
    ∧ StableHlo.after (rops16 : List (HloOp τ sig (Elt F))) V (Proc.devRef .tc main_v112) = Cert.ReferenceIdeal.Read.val_main_v112 (F := F) x1 := by
  simp only [rops16]
  read_stretch
  refine ⟨?_, ?_, ?_, ?_, ?_, ?_, ?_, ?_, ?_, ?_⟩
  all_goals (try (simp only [h_main_arg0, h_main_arg1, h_main_v1, h_main_v8, h_main_v12, h_main_v40, h_main_v63, h_main_v91, h_main_v96, h_main_v101, h_main_v104, h_main_cst_24]; done))
  all_goals (read_stretch_rw; (try simp only [h_main_arg0, h_main_arg1, h_main_v1, h_main_v8, h_main_v12, h_main_v40, h_main_v63, h_main_v91, h_main_v96, h_main_v101, h_main_v104, h_main_cst_24]); (repeat (first | rw [h_main_arg0] | rw [h_main_arg1] | rw [h_main_v1] | rw [h_main_v8] | rw [h_main_v12] | rw [h_main_v40] | rw [h_main_v63] | rw [h_main_v91] | rw [h_main_v96] | rw [h_main_v101] | rw [h_main_v104] | rw [h_main_cst_24])); (try rfl))

set_option maxHeartbeats 4000000 in
/-- Chunk 18 (`rops17`, 3 operations): 10 buffers live at its head, 10 at its end. -/
theorem cut18 {V : Valuation τ sig (Elt F)} {x0 : (⟨S16x85x128x128, .f32⟩ : BufTy).Contents (Elt F)} {x1 : (⟨S16x64x5, .f32⟩ : BufTy).Contents (Elt F)}
    (h_main_arg0 : V (Proc.devRef .tc main_arg0) = x0)
    (h_main_arg1 : V (Proc.devRef .tc main_arg1) = x1)
    (h_main_v1 : V (Proc.devRef .tc main_v1) = Cert.ReferenceIdeal.Read.val_main_v1 (F := F) x0)
    (h_main_v40 : V (Proc.devRef .tc main_v40) = Cert.ReferenceIdeal.Read.val_main_v40 (F := F) x1)
    (h_main_v63 : V (Proc.devRef .tc main_v63) = Cert.ReferenceIdeal.Read.val_main_v63 (F := F) x1)
    (h_main_v91 : V (Proc.devRef .tc main_v91) = Cert.ReferenceIdeal.Read.val_main_v91 (F := F) x0 x1)
    (h_main_v101 : V (Proc.devRef .tc main_v101) = Cert.ReferenceIdeal.Read.val_main_v101 (F := F) x1)
    (h_main_v106 : V (Proc.devRef .tc main_v106) = Cert.ReferenceIdeal.Read.val_main_v106 (F := F) x1)
    (h_main_v111 : V (Proc.devRef .tc main_v111) = Cert.ReferenceIdeal.Read.val_main_v111 (F := F) x1)
    (h_main_v112 : V (Proc.devRef .tc main_v112) = Cert.ReferenceIdeal.Read.val_main_v112 (F := F) x1)
    :
    StableHlo.after (rops17 : List (HloOp τ sig (Elt F))) V (Proc.devRef .tc main_arg0) = x0
    ∧ StableHlo.after (rops17 : List (HloOp τ sig (Elt F))) V (Proc.devRef .tc main_arg1) = x1
    ∧ StableHlo.after (rops17 : List (HloOp τ sig (Elt F))) V (Proc.devRef .tc main_v1) = Cert.ReferenceIdeal.Read.val_main_v1 (F := F) x0
    ∧ StableHlo.after (rops17 : List (HloOp τ sig (Elt F))) V (Proc.devRef .tc main_v40) = Cert.ReferenceIdeal.Read.val_main_v40 (F := F) x1
    ∧ StableHlo.after (rops17 : List (HloOp τ sig (Elt F))) V (Proc.devRef .tc main_v63) = Cert.ReferenceIdeal.Read.val_main_v63 (F := F) x1
    ∧ StableHlo.after (rops17 : List (HloOp τ sig (Elt F))) V (Proc.devRef .tc main_v91) = Cert.ReferenceIdeal.Read.val_main_v91 (F := F) x0 x1
    ∧ StableHlo.after (rops17 : List (HloOp τ sig (Elt F))) V (Proc.devRef .tc main_v112) = Cert.ReferenceIdeal.Read.val_main_v112 (F := F) x1
    ∧ StableHlo.after (rops17 : List (HloOp τ sig (Elt F))) V (Proc.devRef .tc main_v113) = Cert.ReferenceIdeal.Read.val_main_v113 (F := F) x1
    ∧ StableHlo.after (rops17 : List (HloOp τ sig (Elt F))) V (Proc.devRef .tc main_v114) = Cert.ReferenceIdeal.Read.val_main_v114 (F := F) x1
    ∧ StableHlo.after (rops17 : List (HloOp τ sig (Elt F))) V (Proc.devRef .tc main_v115) = Cert.ReferenceIdeal.Read.val_main_v115 (F := F) x1 := by
  simp only [rops17]
  read_stretch
  refine ⟨?_, ?_, ?_, ?_, ?_, ?_, ?_, ?_, ?_, ?_⟩
  all_goals (try (simp only [h_main_arg0, h_main_arg1, h_main_v1, h_main_v40, h_main_v63, h_main_v91, h_main_v101, h_main_v106, h_main_v111, h_main_v112]; done))
  all_goals (read_stretch_rw; (try simp only [h_main_arg0, h_main_arg1, h_main_v1, h_main_v40, h_main_v63, h_main_v91, h_main_v101, h_main_v106, h_main_v111, h_main_v112]); (repeat (first | rw [h_main_arg0] | rw [h_main_arg1] | rw [h_main_v1] | rw [h_main_v40] | rw [h_main_v63] | rw [h_main_v91] | rw [h_main_v101] | rw [h_main_v106] | rw [h_main_v111] | rw [h_main_v112])); (try rfl))

end Cert.ReferenceIdeal.RefRun

end
-- ==== Proof.RC.RCut04.lean ====
/- The line of host operations of the reference program's @main (288 operations, in chunks), stretch by stretch: for each stretch, from the facts that the
   buffers live at its head hold their stages, the buffers live at its end hold theirs (a buffer the stretch writes: its
   operation's function of its operands' stages, which is its stage; a buffer it does not write: what it held); and
   composed over the stretches, the whole line from any contents leaves the result buffer at the last stage. -/
import proofs.«175006_j89550068121905_1_alg».proof.Proof.RefOps
import proofs.«175006_j89550068121905_1_alg».proof.Proof.RefRead
import proofs.«175006_j89550068121905_1_alg».proof.Proof.LibReadStretch
import proofs.«175006_j89550068121905_1_alg».proof.Proof.LibReadStretchRw
import Idealize.ShloMosaic.Lib.Pipeline.Frame

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- Chunk 19 (`rops18`, 10 operations): 10 buffers live at its head, 10 at its end. -/
theorem cut19 {V : Valuation τ sig (Elt F)} {x0 : (⟨S16x85x128x128, .f32⟩ : BufTy).Contents (Elt F)} {x1 : (⟨S16x64x5, .f32⟩ : BufTy).Contents (Elt F)}
    (h_main_arg0 : V (Proc.devRef .tc main_arg0) = x0)
    (h_main_arg1 : V (Proc.devRef .tc main_arg1) = x1)
    (h_main_v1 : V (Proc.devRef .tc main_v1) = Cert.ReferenceIdeal.Read.val_main_v1 (F := F) x0)
    (h_main_v40 : V (Proc.devRef .tc main_v40) = Cert.ReferenceIdeal.Read.val_main_v40 (F := F) x1)
    (h_main_v63 : V (Proc.devRef .tc main_v63) = Cert.ReferenceIdeal.Read.val_main_v63 (F := F) x1)
    (h_main_v91 : V (Proc.devRef .tc main_v91) = Cert.ReferenceIdeal.Read.val_main_v91 (F := F) x0 x1)
    (h_main_v112 : V (Proc.devRef .tc main_v112) = Cert.ReferenceIdeal.Read.val_main_v112 (F := F) x1)
    (h_main_v113 : V (Proc.devRef .tc main_v113) = Cert.ReferenceIdeal.Read.val_main_v113 (F := F) x1)
    (h_main_v114 : V (Proc.devRef .tc main_v114) = Cert.ReferenceIdeal.Read.val_main_v114 (F := F) x1)
    (h_main_v115 : V (Proc.devRef .tc main_v115) = Cert.ReferenceIdeal.Read.val_main_v115 (F := F) x1)
    :
    StableHlo.after (rops18 : List (HloOp τ sig (Elt F))) V (Proc.devRef .tc main_arg0) = x0
    ∧ StableHlo.after (rops18 : List (HloOp τ sig (Elt F))) V (Proc.devRef .tc main_arg1) = x1
    ∧ StableHlo.after (rops18 : List (HloOp τ sig (Elt F))) V (Proc.devRef .tc main_v1) = Cert.ReferenceIdeal.Read.val_main_v1 (F := F) x0
    ∧ StableHlo.after (rops18 : List (HloOp τ sig (Elt F))) V (Proc.devRef .tc main_v40) = Cert.ReferenceIdeal.Read.val_main_v40 (F := F) x1
    ∧ StableHlo.after (rops18 : List (HloOp τ sig (Elt F))) V (Proc.devRef .tc main_v63) = Cert.ReferenceIdeal.Read.val_main_v63 (F := F) x1
    ∧ StableHlo.after (rops18 : List (HloOp τ sig (Elt F))) V (Proc.devRef .tc main_v91) = Cert.ReferenceIdeal.Read.val_main_v91 (F := F) x0 x1
    ∧ StableHlo.after (rops18 : List (HloOp τ sig (Elt F))) V (Proc.devRef .tc main_v116) = Cert.ReferenceIdeal.Read.val_main_v116 (F := F) x1
    ∧ StableHlo.after (rops18 : List (HloOp τ sig (Elt F))) V (Proc.devRef .tc main_v121) = Cert.ReferenceIdeal.Read.val_main_v121 (F := F) x0 x1
    ∧ StableHlo.after (rops18 : List (HloOp τ sig (Elt F))) V (Proc.devRef .tc main_v123) = Cert.ReferenceIdeal.Read.val_main_v123 (F := F) x0 x1
    ∧ StableHlo.after (rops18 : List (HloOp τ sig (Elt F))) V (Proc.devRef .tc main_v125) = Cert.ReferenceIdeal.Read.val_main_v125 (F := F) x1 := by
  simp only [rops18]
  read_stretch
  refine ⟨?_, ?_, ?_, ?_, ?_, ?_, ?_, ?_, ?_, ?_⟩
  all_goals (try (simp only [h_main_arg0, h_main_arg1, h_main_v1, h_main_v40, h_main_v63, h_main_v91, h_main_v112, h_main_v113, h_main_v114, h_main_v115]; done))
  all_goals (read_stretch_rw; (try simp only [h_main_arg0, h_main_arg1, h_main_v1, h_main_v40, h_main_v63, h_main_v91, h_main_v112, h_main_v113, h_main_v114, h_main_v115]); (repeat (first | rw [h_main_arg0] | rw [h_main_arg1] | rw [h_main_v1] | rw [h_main_v40] | rw [h_main_v63] | rw [h_main_v91] | rw [h_main_v112] | rw [h_main_v113] | rw [h_main_v114] | rw [h_main_v115])); (try rfl))

set_option maxHeartbeats 4000000 in
/-- Chunk 20 (`rops19`, 10 operations): 10 buffers live at its head, 12 at its end. -/
theorem cut20 {V : Valuation τ sig (Elt F)} {x0 : (⟨S16x85x128x128, .f32⟩ : BufTy).Contents (Elt F)} {x1 : (⟨S16x64x5, .f32⟩ : BufTy).Contents (Elt F)}
    (h_main_arg0 : V (Proc.devRef .tc main_arg0) = x0)
    (h_main_arg1 : V (Proc.devRef .tc main_arg1) = x1)
    (h_main_v1 : V (Proc.devRef .tc main_v1) = Cert.ReferenceIdeal.Read.val_main_v1 (F := F) x0)
    (h_main_v40 : V (Proc.devRef .tc main_v40) = Cert.ReferenceIdeal.Read.val_main_v40 (F := F) x1)
    (h_main_v63 : V (Proc.devRef .tc main_v63) = Cert.ReferenceIdeal.Read.val_main_v63 (F := F) x1)
    (h_main_v91 : V (Proc.devRef .tc main_v91) = Cert.ReferenceIdeal.Read.val_main_v91 (F := F) x0 x1)
    (h_main_v116 : V (Proc.devRef .tc main_v116) = Cert.ReferenceIdeal.Read.val_main_v116 (F := F) x1)
    (h_main_v121 : V (Proc.devRef .tc main_v121) = Cert.ReferenceIdeal.Read.val_main_v121 (F := F) x0 x1)
    (h_main_v123 : V (Proc.devRef .tc main_v123) = Cert.ReferenceIdeal.Read.val_main_v123 (F := F) x0 x1)
    (h_main_v125 : V (Proc.devRef .tc main_v125) = Cert.ReferenceIdeal.Read.val_main_v125 (F := F) x1)
    :
    StableHlo.after (rops19 : List (HloOp τ sig (Elt F))) V (Proc.devRef .tc main_arg0) = x0
    ∧ StableHlo.after (rops19 : List (HloOp τ sig (Elt F))) V (Proc.devRef .tc main_arg1) = x1
    ∧ StableHlo.after (rops19 : List (HloOp τ sig (Elt F))) V (Proc.devRef .tc main_v1) = Cert.ReferenceIdeal.Read.val_main_v1 (F := F) x0
    ∧ StableHlo.after (rops19 : List (HloOp τ sig (Elt F))) V (Proc.devRef .tc main_v40) = Cert.ReferenceIdeal.Read.val_main_v40 (F := F) x1
    ∧ StableHlo.after (rops19 : List (HloOp τ sig (Elt F))) V (Proc.devRef .tc main_v63) = Cert.ReferenceIdeal.Read.val_main_v63 (F := F) x1
    ∧ StableHlo.after (rops19 : List (HloOp τ sig (Elt F))) V (Proc.devRef .tc main_v91) = Cert.ReferenceIdeal.Read.val_main_v91 (F := F) x0 x1
    ∧ StableHlo.after (rops19 : List (HloOp τ sig (Elt F))) V (Proc.devRef .tc main_v116) = Cert.ReferenceIdeal.Read.val_main_v116 (F := F) x1
    ∧ StableHlo.after (rops19 : List (HloOp τ sig (Elt F))) V (Proc.devRef .tc main_v121) = Cert.ReferenceIdeal.Read.val_main_v121 (F := F) x0 x1
    ∧ StableHlo.after (rops19 : List (HloOp τ sig (Elt F))) V (Proc.devRef .tc main_v126) = Cert.ReferenceIdeal.Read.val_main_v126 (F := F) x0 x1
    ∧ StableHlo.after (rops19 : List (HloOp τ sig (Elt F))) V (Proc.devRef .tc main_v131) = Cert.ReferenceIdeal.Read.val_main_v131 (F := F) x0 x1
    ∧ StableHlo.after (rops19 : List (HloOp τ sig (Elt F))) V (Proc.devRef .tc main_v133) = Cert.ReferenceIdeal.Read.val_main_v133 (F := F) x0 x1
    ∧ StableHlo.after (rops19 : List (HloOp τ sig (Elt F))) V (Proc.devRef .tc main_v135) = Cert.ReferenceIdeal.Read.val_main_v135 (F := F) x1 := by
  simp only [rops19]
  read_stretch
  refine ⟨?_, ?_, ?_, ?_, ?_, ?_, ?_, ?_, ?_, ?_, ?_, ?_⟩
  all_goals (try (simp only [h_main_arg0, h_main_arg1, h_main_v1, h_main_v40, h_main_v63, h_main_v91, h_main_v116, h_main_v121, h_main_v123, h_main_v125]; done))
  all_goals (read_stretch_rw; (try simp only [h_main_arg0, h_main_arg1, h_main_v1, h_main_v40, h_main_v63, h_main_v91, h_main_v116, h_main_v121, h_main_v123, h_main_v125]); (repeat (first | rw [h_main_arg0] | rw [h_main_arg1] | rw [h_main_v1] | rw [h_main_v40] | rw [h_main_v63] | rw [h_main_v91] | rw [h_main_v116] | rw [h_main_v121] | rw [h_main_v123] | rw [h_main_v125])); (try rfl))

set_option maxHeartbeats 4000000 in
/-- Chunk 21 (`rops20`, 10 operations): 12 buffers live at its head, 10 at its end. -/
theorem cut21 {V : Valuation τ sig (Elt F)} {x0 : (⟨S16x85x128x128, .f32⟩ : BufTy).Contents (Elt F)} {x1 : (⟨S16x64x5, .f32⟩ : BufTy).Contents (Elt F)}
    (h_main_arg0 : V (Proc.devRef .tc main_arg0) = x0)
    (h_main_arg1 : V (Proc.devRef .tc main_arg1) = x1)
    (h_main_v1 : V (Proc.devRef .tc main_v1) = Cert.ReferenceIdeal.Read.val_main_v1 (F := F) x0)
    (h_main_v40 : V (Proc.devRef .tc main_v40) = Cert.ReferenceIdeal.Read.val_main_v40 (F := F) x1)
    (h_main_v63 : V (Proc.devRef .tc main_v63) = Cert.ReferenceIdeal.Read.val_main_v63 (F := F) x1)
    (h_main_v91 : V (Proc.devRef .tc main_v91) = Cert.ReferenceIdeal.Read.val_main_v91 (F := F) x0 x1)
    (h_main_v116 : V (Proc.devRef .tc main_v116) = Cert.ReferenceIdeal.Read.val_main_v116 (F := F) x1)
    (h_main_v121 : V (Proc.devRef .tc main_v121) = Cert.ReferenceIdeal.Read.val_main_v121 (F := F) x0 x1)
    (h_main_v126 : V (Proc.devRef .tc main_v126) = Cert.ReferenceIdeal.Read.val_main_v126 (F := F) x0 x1)
    (h_main_v131 : V (Proc.devRef .tc main_v131) = Cert.ReferenceIdeal.Read.val_main_v131 (F := F) x0 x1)
    (h_main_v133 : V (Proc.devRef .tc main_v133) = Cert.ReferenceIdeal.Read.val_main_v133 (F := F) x0 x1)
    (h_main_v135 : V (Proc.devRef .tc main_v135) = Cert.ReferenceIdeal.Read.val_main_v135 (F := F) x1)
    :
    StableHlo.after (rops20 : List (HloOp τ sig (Elt F))) V (Proc.devRef .tc main_arg0) = x0
    ∧ StableHlo.after (rops20 : List (HloOp τ sig (Elt F))) V (Proc.devRef .tc main_arg1) = x1
    ∧ StableHlo.after (rops20 : List (HloOp τ sig (Elt F))) V (Proc.devRef .tc main_v1) = Cert.ReferenceIdeal.Read.val_main_v1 (F := F) x0
    ∧ StableHlo.after (rops20 : List (HloOp τ sig (Elt F))) V (Proc.devRef .tc main_v40) = Cert.ReferenceIdeal.Read.val_main_v40 (F := F) x1
    ∧ StableHlo.after (rops20 : List (HloOp τ sig (Elt F))) V (Proc.devRef .tc main_v63) = Cert.ReferenceIdeal.Read.val_main_v63 (F := F) x1
    ∧ StableHlo.after (rops20 : List (HloOp τ sig (Elt F))) V (Proc.devRef .tc main_v91) = Cert.ReferenceIdeal.Read.val_main_v91 (F := F) x0 x1
    ∧ StableHlo.after (rops20 : List (HloOp τ sig (Elt F))) V (Proc.devRef .tc main_v116) = Cert.ReferenceIdeal.Read.val_main_v116 (F := F) x1
    ∧ StableHlo.after (rops20 : List (HloOp τ sig (Elt F))) V (Proc.devRef .tc main_v138) = Cert.ReferenceIdeal.Read.val_main_v138 (F := F) x0 x1
    ∧ StableHlo.after (rops20 : List (HloOp τ sig (Elt F))) V (Proc.devRef .tc main_v139) = Cert.ReferenceIdeal.Read.val_main_v139 (F := F) x0 x1
    ∧ StableHlo.after (rops20 : List (HloOp τ sig (Elt F))) V (Proc.devRef .tc main_call2_v1) = Cert.ReferenceIdeal.Read.val_main_call2_v1 (F := F) := by
  simp only [rops20]
  read_stretch
  refine ⟨?_, ?_, ?_, ?_, ?_, ?_, ?_, ?_, ?_, ?_⟩
  all_goals (try (simp only [h_main_arg0, h_main_arg1, h_main_v1, h_main_v40, h_main_v63, h_main_v91, h_main_v116, h_main_v121, h_main_v126, h_main_v131, h_main_v133, h_main_v135]; done))
  all_goals (read_stretch_rw; (try simp only [h_main_arg0, h_main_arg1, h_main_v1, h_main_v40, h_main_v63, h_main_v91, h_main_v116, h_main_v121, h_main_v126, h_main_v131, h_main_v133, h_main_v135]); (repeat (first | rw [h_main_arg0] | rw [h_main_arg1] | rw [h_main_v1] | rw [h_main_v40] | rw [h_main_v63] | rw [h_main_v91] | rw [h_main_v116] | rw [h_main_v121] | rw [h_main_v126] | rw [h_main_v131] | rw [h_main_v133] | rw [h_main_v135])); (try rfl))

set_option maxHeartbeats 4000000 in
/-- Chunk 22 (`rops21`, 10 operations): 10 buffers live at its head, 10 at its end. -/
theorem cut22 {V : Valuation τ sig (Elt F)} {x0 : (⟨S16x85x128x128, .f32⟩ : BufTy).Contents (Elt F)} {x1 : (⟨S16x64x5, .f32⟩ : BufTy).Contents (Elt F)}
    (h_main_arg0 : V (Proc.devRef .tc main_arg0) = x0)
    (h_main_arg1 : V (Proc.devRef .tc main_arg1) = x1)
    (h_main_v1 : V (Proc.devRef .tc main_v1) = Cert.ReferenceIdeal.Read.val_main_v1 (F := F) x0)
    (h_main_v40 : V (Proc.devRef .tc main_v40) = Cert.ReferenceIdeal.Read.val_main_v40 (F := F) x1)
    (h_main_v63 : V (Proc.devRef .tc main_v63) = Cert.ReferenceIdeal.Read.val_main_v63 (F := F) x1)
    (h_main_v91 : V (Proc.devRef .tc main_v91) = Cert.ReferenceIdeal.Read.val_main_v91 (F := F) x0 x1)
    (h_main_v116 : V (Proc.devRef .tc main_v116) = Cert.ReferenceIdeal.Read.val_main_v116 (F := F) x1)
    (h_main_v138 : V (Proc.devRef .tc main_v138) = Cert.ReferenceIdeal.Read.val_main_v138 (F := F) x0 x1)
    (h_main_v139 : V (Proc.devRef .tc main_v139) = Cert.ReferenceIdeal.Read.val_main_v139 (F := F) x0 x1)
    (h_main_call2_v1 : V (Proc.devRef .tc main_call2_v1) = Cert.ReferenceIdeal.Read.val_main_call2_v1 (F := F))
    :
    StableHlo.after (rops21 : List (HloOp τ sig (Elt F))) V (Proc.devRef .tc main_arg0) = x0
    ∧ StableHlo.after (rops21 : List (HloOp τ sig (Elt F))) V (Proc.devRef .tc main_arg1) = x1
    ∧ StableHlo.after (rops21 : List (HloOp τ sig (Elt F))) V (Proc.devRef .tc main_v1) = Cert.ReferenceIdeal.Read.val_main_v1 (F := F) x0
    ∧ StableHlo.after (rops21 : List (HloOp τ sig (Elt F))) V (Proc.devRef .tc main_v40) = Cert.ReferenceIdeal.Read.val_main_v40 (F := F) x1
    ∧ StableHlo.after (rops21 : List (HloOp τ sig (Elt F))) V (Proc.devRef .tc main_v63) = Cert.ReferenceIdeal.Read.val_main_v63 (F := F) x1
    ∧ StableHlo.after (rops21 : List (HloOp τ sig (Elt F))) V (Proc.devRef .tc main_v116) = Cert.ReferenceIdeal.Read.val_main_v116 (F := F) x1
    ∧ StableHlo.after (rops21 : List (HloOp τ sig (Elt F))) V (Proc.devRef .tc main_v141) = Cert.ReferenceIdeal.Read.val_main_v141 (F := F) x0 x1
    ∧ StableHlo.after (rops21 : List (HloOp τ sig (Elt F))) V (Proc.devRef .tc main_v146) = Cert.ReferenceIdeal.Read.val_main_v146 (F := F) x0 x1
    ∧ StableHlo.after (rops21 : List (HloOp τ sig (Elt F))) V (Proc.devRef .tc main_v148) = Cert.ReferenceIdeal.Read.val_main_v148 (F := F) x0 x1
    ∧ StableHlo.after (rops21 : List (HloOp τ sig (Elt F))) V (Proc.devRef .tc main_v149) = Cert.ReferenceIdeal.Read.val_main_v149 (F := F) x0 x1 := by
  simp only [rops21]
  read_stretch
  refine ⟨?_, ?_, ?_, ?_, ?_, ?_, ?_, ?_, ?_, ?_⟩
  all_goals (try (simp only [h_main_arg0, h_main_arg1, h_main_v1, h_main_v40, h_main_v63, h_main_v91, h_main_v116, h_main_v138, h_main_v139, h_main_call2_v1]; done))
  all_goals (read_stretch_rw; (try simp only [h_main_arg0, h_main_arg1, h_main_v1, h_main_v40, h_main_v63, h_main_v91, h_main_v116, h_main_v138, h_main_v139, h_main_call2_v1]); (repeat (first | rw [h_main_arg0] | rw [h_main_arg1] | rw [h_main_v1] | rw [h_main_v40] | rw [h_main_v63] | rw [h_main_v91] | rw [h_main_v116] | rw [h_main_v138] | rw [h_main_v139] | rw [h_main_call2_v1])); (try rfl))

set_option maxHeartbeats 4000000 in
/-- Chunk 23 (`rops22`, 10 operations): 10 buffers live at its head, 10 at its end. -/
theorem cut23 {V : Valuation τ sig (Elt F)} {x0 : (⟨S16x85x128x128, .f32⟩ : BufTy).Contents (Elt F)} {x1 : (⟨S16x64x5, .f32⟩ : BufTy).Contents (Elt F)}
    (h_main_arg0 : V (Proc.devRef .tc main_arg0) = x0)
    (h_main_arg1 : V (Proc.devRef .tc main_arg1) = x1)
    (h_main_v1 : V (Proc.devRef .tc main_v1) = Cert.ReferenceIdeal.Read.val_main_v1 (F := F) x0)
    (h_main_v40 : V (Proc.devRef .tc main_v40) = Cert.ReferenceIdeal.Read.val_main_v40 (F := F) x1)
    (h_main_v63 : V (Proc.devRef .tc main_v63) = Cert.ReferenceIdeal.Read.val_main_v63 (F := F) x1)
    (h_main_v116 : V (Proc.devRef .tc main_v116) = Cert.ReferenceIdeal.Read.val_main_v116 (F := F) x1)
    (h_main_v141 : V (Proc.devRef .tc main_v141) = Cert.ReferenceIdeal.Read.val_main_v141 (F := F) x0 x1)
    (h_main_v146 : V (Proc.devRef .tc main_v146) = Cert.ReferenceIdeal.Read.val_main_v146 (F := F) x0 x1)
    (h_main_v148 : V (Proc.devRef .tc main_v148) = Cert.ReferenceIdeal.Read.val_main_v148 (F := F) x0 x1)
    (h_main_v149 : V (Proc.devRef .tc main_v149) = Cert.ReferenceIdeal.Read.val_main_v149 (F := F) x0 x1)
    :
    StableHlo.after (rops22 : List (HloOp τ sig (Elt F))) V (Proc.devRef .tc main_arg0) = x0
    ∧ StableHlo.after (rops22 : List (HloOp τ sig (Elt F))) V (Proc.devRef .tc main_arg1) = x1
    ∧ StableHlo.after (rops22 : List (HloOp τ sig (Elt F))) V (Proc.devRef .tc main_v1) = Cert.ReferenceIdeal.Read.val_main_v1 (F := F) x0
    ∧ StableHlo.after (rops22 : List (HloOp τ sig (Elt F))) V (Proc.devRef .tc main_v40) = Cert.ReferenceIdeal.Read.val_main_v40 (F := F) x1
    ∧ StableHlo.after (rops22 : List (HloOp τ sig (Elt F))) V (Proc.devRef .tc main_v63) = Cert.ReferenceIdeal.Read.val_main_v63 (F := F) x1
    ∧ StableHlo.after (rops22 : List (HloOp τ sig (Elt F))) V (Proc.devRef .tc main_v116) = Cert.ReferenceIdeal.Read.val_main_v116 (F := F) x1
    ∧ StableHlo.after (rops22 : List (HloOp τ sig (Elt F))) V (Proc.devRef .tc main_v141) = Cert.ReferenceIdeal.Read.val_main_v141 (F := F) x0 x1
    ∧ StableHlo.after (rops22 : List (HloOp τ sig (Elt F))) V (Proc.devRef .tc main_v152) = Cert.ReferenceIdeal.Read.val_main_v152 (F := F) x0 x1
    ∧ StableHlo.after (rops22 : List (HloOp τ sig (Elt F))) V (Proc.devRef .tc main_v157) = Cert.ReferenceIdeal.Read.val_main_v157 (F := F) x1
    ∧ StableHlo.after (rops22 : List (HloOp τ sig (Elt F))) V (Proc.devRef .tc main_v159) = Cert.ReferenceIdeal.Read.val_main_v159 (F := F) x1 := by
  simp only [rops22]
  read_stretch
  refine ⟨?_, ?_, ?_, ?_, ?_, ?_, ?_, ?_, ?_, ?_⟩
  all_goals (try (simp only [h_main_arg0, h_main_arg1, h_main_v1, h_main_v40, h_main_v63, h_main_v116, h_main_v141, h_main_v146, h_main_v148, h_main_v149]; done))
  all_goals (read_stretch_rw; (try simp only [h_main_arg0, h_main_arg1, h_main_v1, h_main_v40, h_main_v63, h_main_v116, h_main_v141, h_main_v146, h_main_v148, h_main_v149]); (repeat (first | rw [h_main_arg0] | rw [h_main_arg1] | rw [h_main_v1] | rw [h_main_v40] | rw [h_main_v63] | rw [h_main_v116] | rw [h_main_v141] | rw [h_main_v146] | rw [h_main_v148] | rw [h_main_v149])); (try rfl))

set_option maxHeartbeats 4000000 in
/-- Chunk 24 (`rops23`, 10 operations): 10 buffers live at its head, 6 at its end. -/
theorem cut24 {V : Valuation τ sig (Elt F)} {x0 : (⟨S16x85x128x128, .f32⟩ : BufTy).Contents (Elt F)} {x1 : (⟨S16x64x5, .f32⟩ : BufTy).Contents (Elt F)}
    (h_main_arg0 : V (Proc.devRef .tc main_arg0) = x0)
    (h_main_arg1 : V (Proc.devRef .tc main_arg1) = x1)
    (h_main_v1 : V (Proc.devRef .tc main_v1) = Cert.ReferenceIdeal.Read.val_main_v1 (F := F) x0)
    (h_main_v40 : V (Proc.devRef .tc main_v40) = Cert.ReferenceIdeal.Read.val_main_v40 (F := F) x1)
    (h_main_v63 : V (Proc.devRef .tc main_v63) = Cert.ReferenceIdeal.Read.val_main_v63 (F := F) x1)
    (h_main_v116 : V (Proc.devRef .tc main_v116) = Cert.ReferenceIdeal.Read.val_main_v116 (F := F) x1)
    (h_main_v141 : V (Proc.devRef .tc main_v141) = Cert.ReferenceIdeal.Read.val_main_v141 (F := F) x0 x1)
    (h_main_v152 : V (Proc.devRef .tc main_v152) = Cert.ReferenceIdeal.Read.val_main_v152 (F := F) x0 x1)
    (h_main_v157 : V (Proc.devRef .tc main_v157) = Cert.ReferenceIdeal.Read.val_main_v157 (F := F) x1)
    (h_main_v159 : V (Proc.devRef .tc main_v159) = Cert.ReferenceIdeal.Read.val_main_v159 (F := F) x1)
    :
    StableHlo.after (rops23 : List (HloOp τ sig (Elt F))) V (Proc.devRef .tc main_arg0) = x0
    ∧ StableHlo.after (rops23 : List (HloOp τ sig (Elt F))) V (Proc.devRef .tc main_arg1) = x1
    ∧ StableHlo.after (rops23 : List (HloOp τ sig (Elt F))) V (Proc.devRef .tc main_v1) = Cert.ReferenceIdeal.Read.val_main_v1 (F := F) x0
    ∧ StableHlo.after (rops23 : List (HloOp τ sig (Elt F))) V (Proc.devRef .tc main_v40) = Cert.ReferenceIdeal.Read.val_main_v40 (F := F) x1
    ∧ StableHlo.after (rops23 : List (HloOp τ sig (Elt F))) V (Proc.devRef .tc main_v63) = Cert.ReferenceIdeal.Read.val_main_v63 (F := F) x1
    ∧ StableHlo.after (rops23 : List (HloOp τ sig (Elt F))) V (Proc.devRef .tc main_v168) = Cert.ReferenceIdeal.Read.val_main_v168 (F := F) x0 x1 := by
  simp only [rops23]
  read_stretch
  refine ⟨?_, ?_, ?_, ?_, ?_, ?_⟩
  all_goals (try (simp only [h_main_arg0, h_main_arg1, h_main_v1, h_main_v40, h_main_v63, h_main_v116, h_main_v141, h_main_v152, h_main_v157, h_main_v159]; done))
  all_goals (read_stretch_rw; (try simp only [h_main_arg0, h_main_arg1, h_main_v1, h_main_v40, h_main_v63, h_main_v116, h_main_v141, h_main_v152, h_main_v157, h_main_v159]); (repeat (first | rw [h_main_arg0] | rw [h_main_arg1] | rw [h_main_v1] | rw [h_main_v40] | rw [h_main_v63] | rw [h_main_v116] | rw [h_main_v141] | rw [h_main_v152] | rw [h_main_v157] | rw [h_main_v159])); (try rfl))

end Cert.ReferenceIdeal.RefRun

end
-- ==== Proof.RC.RCut05.lean ====
/- The line of host operations of the reference program's @main (288 operations, in chunks), stretch by stretch: for each stretch, from the facts that the
   buffers live at its head hold their stages, the buffers live at its end hold theirs (a buffer the stretch writes: its
   operation's function of its operands' stages, which is its stage; a buffer it does not write: what it held); and
   composed over the stretches, the whole line from any contents leaves the result buffer at the last stage. -/
import proofs.«175006_j89550068121905_1_alg».proof.Proof.RefOps
import proofs.«175006_j89550068121905_1_alg».proof.Proof.RefRead
import proofs.«175006_j89550068121905_1_alg».proof.Proof.LibReadStretch
import proofs.«175006_j89550068121905_1_alg».proof.Proof.LibReadStretchRw
import Idealize.ShloMosaic.Lib.Pipeline.Frame

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- Chunk 25 (`rops24`, 10 operations): 6 buffers live at its head, 9 at its end. -/
theorem cut25 {V : Valuation τ sig (Elt F)} {x0 : (⟨S16x85x128x128, .f32⟩ : BufTy).Contents (Elt F)} {x1 : (⟨S16x64x5, .f32⟩ : BufTy).Contents (Elt F)}
    (h_main_arg0 : V (Proc.devRef .tc main_arg0) = x0)
    (h_main_arg1 : V (Proc.devRef .tc main_arg1) = x1)
    (h_main_v1 : V (Proc.devRef .tc main_v1) = Cert.ReferenceIdeal.Read.val_main_v1 (F := F) x0)
    (h_main_v40 : V (Proc.devRef .tc main_v40) = Cert.ReferenceIdeal.Read.val_main_v40 (F := F) x1)
    (h_main_v63 : V (Proc.devRef .tc main_v63) = Cert.ReferenceIdeal.Read.val_main_v63 (F := F) x1)
    (h_main_v168 : V (Proc.devRef .tc main_v168) = Cert.ReferenceIdeal.Read.val_main_v168 (F := F) x0 x1)
    :
    StableHlo.after (rops24 : List (HloOp τ sig (Elt F))) V (Proc.devRef .tc main_arg0) = x0
    ∧ StableHlo.after (rops24 : List (HloOp τ sig (Elt F))) V (Proc.devRef .tc main_arg1) = x1
    ∧ StableHlo.after (rops24 : List (HloOp τ sig (Elt F))) V (Proc.devRef .tc main_v1) = Cert.ReferenceIdeal.Read.val_main_v1 (F := F) x0
    ∧ StableHlo.after (rops24 : List (HloOp τ sig (Elt F))) V (Proc.devRef .tc main_v40) = Cert.ReferenceIdeal.Read.val_main_v40 (F := F) x1
    ∧ StableHlo.after (rops24 : List (HloOp τ sig (Elt F))) V (Proc.devRef .tc main_v63) = Cert.ReferenceIdeal.Read.val_main_v63 (F := F) x1
    ∧ StableHlo.after (rops24 : List (HloOp τ sig (Elt F))) V (Proc.devRef .tc main_v171) = Cert.ReferenceIdeal.Read.val_main_v171 (F := F) x0 x1
    ∧ StableHlo.after (rops24 : List (HloOp τ sig (Elt F))) V (Proc.devRef .tc main_v173) = Cert.ReferenceIdeal.Read.val_main_v173 (F := F) x0
    ∧ StableHlo.after (rops24 : List (HloOp τ sig (Elt F))) V (Proc.devRef .tc main_call3_cst) = Cert.ReferenceIdeal.Read.val_main_call3_cst (F := F)
    ∧ StableHlo.after (rops24 : List (HloOp τ sig (Elt F))) V (Proc.devRef .tc main_call3_v1) = Cert.ReferenceIdeal.Read.val_main_call3_v1 (F := F) x0 := by
  simp only [rops24]
  read_stretch
  refine ⟨?_, ?_, ?_, ?_, ?_, ?_, ?_, ?_, ?_⟩
  all_goals (try (simp only [h_main_arg0, h_main_arg1, h_main_v1, h_main_v40, h_main_v63, h_main_v168]; done))
  all_goals (read_stretch_rw; (try simp only [h_main_arg0, h_main_arg1, h_main_v1, h_main_v40, h_main_v63, h_main_v168]); (repeat (first | rw [h_main_arg0] | rw [h_main_arg1] | rw [h_main_v1] | rw [h_main_v40] | rw [h_main_v63] | rw [h_main_v168])); (try rfl))

set_option maxHeartbeats 4000000 in
/-- Chunk 26 (`rops25`, 10 operations): 9 buffers live at its head, 10 at its end. -/
theorem cut26 {V : Valuation τ sig (Elt F)} {x0 : (⟨S16x85x128x128, .f32⟩ : BufTy).Contents (Elt F)} {x1 : (⟨S16x64x5, .f32⟩ : BufTy).Contents (Elt F)}
    (h_main_arg0 : V (Proc.devRef .tc main_arg0) = x0)
    (h_main_arg1 : V (Proc.devRef .tc main_arg1) = x1)
    (h_main_v1 : V (Proc.devRef .tc main_v1) = Cert.ReferenceIdeal.Read.val_main_v1 (F := F) x0)
    (h_main_v40 : V (Proc.devRef .tc main_v40) = Cert.ReferenceIdeal.Read.val_main_v40 (F := F) x1)
    (h_main_v63 : V (Proc.devRef .tc main_v63) = Cert.ReferenceIdeal.Read.val_main_v63 (F := F) x1)
    (h_main_v171 : V (Proc.devRef .tc main_v171) = Cert.ReferenceIdeal.Read.val_main_v171 (F := F) x0 x1)
    (h_main_v173 : V (Proc.devRef .tc main_v173) = Cert.ReferenceIdeal.Read.val_main_v173 (F := F) x0)
    (h_main_call3_cst : V (Proc.devRef .tc main_call3_cst) = Cert.ReferenceIdeal.Read.val_main_call3_cst (F := F))
    (h_main_call3_v1 : V (Proc.devRef .tc main_call3_v1) = Cert.ReferenceIdeal.Read.val_main_call3_v1 (F := F) x0)
    :
    StableHlo.after (rops25 : List (HloOp τ sig (Elt F))) V (Proc.devRef .tc main_arg0) = x0
    ∧ StableHlo.after (rops25 : List (HloOp τ sig (Elt F))) V (Proc.devRef .tc main_arg1) = x1
    ∧ StableHlo.after (rops25 : List (HloOp τ sig (Elt F))) V (Proc.devRef .tc main_v1) = Cert.ReferenceIdeal.Read.val_main_v1 (F := F) x0
    ∧ StableHlo.after (rops25 : List (HloOp τ sig (Elt F))) V (Proc.devRef .tc main_v40) = Cert.ReferenceIdeal.Read.val_main_v40 (F := F) x1
    ∧ StableHlo.after (rops25 : List (HloOp τ sig (Elt F))) V (Proc.devRef .tc main_v63) = Cert.ReferenceIdeal.Read.val_main_v63 (F := F) x1
    ∧ StableHlo.after (rops25 : List (HloOp τ sig (Elt F))) V (Proc.devRef .tc main_v171) = Cert.ReferenceIdeal.Read.val_main_v171 (F := F) x0 x1
    ∧ StableHlo.after (rops25 : List (HloOp τ sig (Elt F))) V (Proc.devRef .tc main_v173) = Cert.ReferenceIdeal.Read.val_main_v173 (F := F) x0
    ∧ StableHlo.after (rops25 : List (HloOp τ sig (Elt F))) V (Proc.devRef .tc main_call3_v4) = Cert.ReferenceIdeal.Read.val_main_call3_v4 (F := F) x0
    ∧ StableHlo.after (rops25 : List (HloOp τ sig (Elt F))) V (Proc.devRef .tc main_call3_v6) = Cert.ReferenceIdeal.Read.val_main_call3_v6 (F := F) x0
    ∧ StableHlo.after (rops25 : List (HloOp τ sig (Elt F))) V (Proc.devRef .tc main_call3_v11) = Cert.ReferenceIdeal.Read.val_main_call3_v11 (F := F) x0 := by
  simp only [rops25]
  read_stretch
  refine ⟨?_, ?_, ?_, ?_, ?_, ?_, ?_, ?_, ?_, ?_⟩
  all_goals (try (simp only [h_main_arg0, h_main_arg1, h_main_v1, h_main_v40, h_main_v63, h_main_v171, h_main_v173, h_main_call3_cst, h_main_call3_v1]; done))
  all_goals (read_stretch_rw; (try simp only [h_main_arg0, h_main_arg1, h_main_v1, h_main_v40, h_main_v63, h_main_v171, h_main_v173, h_main_call3_cst, h_main_call3_v1]); (repeat (first | rw [h_main_arg0] | rw [h_main_arg1] | rw [h_main_v1] | rw [h_main_v40] | rw [h_main_v63] | rw [h_main_v171] | rw [h_main_v173] | rw [h_main_call3_cst] | rw [h_main_call3_v1])); (try rfl))

set_option maxHeartbeats 4000000 in
/-- Chunk 27 (`rops26`, 10 operations): 10 buffers live at its head, 6 at its end. -/
theorem cut27 {V : Valuation τ sig (Elt F)} {x0 : (⟨S16x85x128x128, .f32⟩ : BufTy).Contents (Elt F)} {x1 : (⟨S16x64x5, .f32⟩ : BufTy).Contents (Elt F)}
    (h_main_arg0 : V (Proc.devRef .tc main_arg0) = x0)
    (h_main_arg1 : V (Proc.devRef .tc main_arg1) = x1)
    (h_main_v1 : V (Proc.devRef .tc main_v1) = Cert.ReferenceIdeal.Read.val_main_v1 (F := F) x0)
    (h_main_v40 : V (Proc.devRef .tc main_v40) = Cert.ReferenceIdeal.Read.val_main_v40 (F := F) x1)
    (h_main_v63 : V (Proc.devRef .tc main_v63) = Cert.ReferenceIdeal.Read.val_main_v63 (F := F) x1)
    (h_main_v171 : V (Proc.devRef .tc main_v171) = Cert.ReferenceIdeal.Read.val_main_v171 (F := F) x0 x1)
    (h_main_v173 : V (Proc.devRef .tc main_v173) = Cert.ReferenceIdeal.Read.val_main_v173 (F := F) x0)
    (h_main_call3_v4 : V (Proc.devRef .tc main_call3_v4) = Cert.ReferenceIdeal.Read.val_main_call3_v4 (F := F) x0)
    (h_main_call3_v6 : V (Proc.devRef .tc main_call3_v6) = Cert.ReferenceIdeal.Read.val_main_call3_v6 (F := F) x0)
    (h_main_call3_v11 : V (Proc.devRef .tc main_call3_v11) = Cert.ReferenceIdeal.Read.val_main_call3_v11 (F := F) x0)
    :
    StableHlo.after (rops26 : List (HloOp τ sig (Elt F))) V (Proc.devRef .tc main_arg0) = x0
    ∧ StableHlo.after (rops26 : List (HloOp τ sig (Elt F))) V (Proc.devRef .tc main_arg1) = x1
    ∧ StableHlo.after (rops26 : List (HloOp τ sig (Elt F))) V (Proc.devRef .tc main_v1) = Cert.ReferenceIdeal.Read.val_main_v1 (F := F) x0
    ∧ StableHlo.after (rops26 : List (HloOp τ sig (Elt F))) V (Proc.devRef .tc main_v63) = Cert.ReferenceIdeal.Read.val_main_v63 (F := F) x1
    ∧ StableHlo.after (rops26 : List (HloOp τ sig (Elt F))) V (Proc.devRef .tc main_v171) = Cert.ReferenceIdeal.Read.val_main_v171 (F := F) x0 x1
    ∧ StableHlo.after (rops26 : List (HloOp τ sig (Elt F))) V (Proc.devRef .tc main_v180) = Cert.ReferenceIdeal.Read.val_main_v180 (F := F) x0 x1 := by
  simp only [rops26]
  read_stretch
  refine ⟨?_, ?_, ?_, ?_, ?_, ?_⟩
  all_goals (try (simp only [h_main_arg0, h_main_arg1, h_main_v1, h_main_v40, h_main_v63, h_main_v171, h_main_v173, h_main_call3_v4, h_main_call3_v6, h_main_call3_v11]; done))
  all_goals (read_stretch_rw; (try simp only [h_main_arg0, h_main_arg1, h_main_v1, h_main_v40, h_main_v63, h_main_v171, h_main_v173, h_main_call3_v4, h_main_call3_v6, h_main_call3_v11]); (repeat (first | rw [h_main_arg0] | rw [h_main_arg1] | rw [h_main_v1] | rw [h_main_v40] | rw [h_main_v63] | rw [h_main_v171] | rw [h_main_v173] | rw [h_main_call3_v4] | rw [h_main_call3_v6] | rw [h_main_call3_v11])); (try rfl))

set_option maxHeartbeats 4000000 in
/-- Chunk 28 (`rops27`, 10 operations): 6 buffers live at its head, 10 at its end. -/
theorem cut28 {V : Valuation τ sig (Elt F)} {x0 : (⟨S16x85x128x128, .f32⟩ : BufTy).Contents (Elt F)} {x1 : (⟨S16x64x5, .f32⟩ : BufTy).Contents (Elt F)}
    (h_main_arg0 : V (Proc.devRef .tc main_arg0) = x0)
    (h_main_arg1 : V (Proc.devRef .tc main_arg1) = x1)
    (h_main_v1 : V (Proc.devRef .tc main_v1) = Cert.ReferenceIdeal.Read.val_main_v1 (F := F) x0)
    (h_main_v63 : V (Proc.devRef .tc main_v63) = Cert.ReferenceIdeal.Read.val_main_v63 (F := F) x1)
    (h_main_v171 : V (Proc.devRef .tc main_v171) = Cert.ReferenceIdeal.Read.val_main_v171 (F := F) x0 x1)
    (h_main_v180 : V (Proc.devRef .tc main_v180) = Cert.ReferenceIdeal.Read.val_main_v180 (F := F) x0 x1)
    :
    StableHlo.after (rops27 : List (HloOp τ sig (Elt F))) V (Proc.devRef .tc main_arg0) = x0
    ∧ StableHlo.after (rops27 : List (HloOp τ sig (Elt F))) V (Proc.devRef .tc main_arg1) = x1
    ∧ StableHlo.after (rops27 : List (HloOp τ sig (Elt F))) V (Proc.devRef .tc main_v63) = Cert.ReferenceIdeal.Read.val_main_v63 (F := F) x1
    ∧ StableHlo.after (rops27 : List (HloOp τ sig (Elt F))) V (Proc.devRef .tc main_v171) = Cert.ReferenceIdeal.Read.val_main_v171 (F := F) x0 x1
    ∧ StableHlo.after (rops27 : List (HloOp τ sig (Elt F))) V (Proc.devRef .tc main_v180) = Cert.ReferenceIdeal.Read.val_main_v180 (F := F) x0 x1
    ∧ StableHlo.after (rops27 : List (HloOp τ sig (Elt F))) V (Proc.devRef .tc main_v181) = Cert.ReferenceIdeal.Read.val_main_v181 (F := F) x0
    ∧ StableHlo.after (rops27 : List (HloOp τ sig (Elt F))) V (Proc.devRef .tc main_call4_v1) = Cert.ReferenceIdeal.Read.val_main_call4_v1 (F := F) x0
    ∧ StableHlo.after (rops27 : List (HloOp τ sig (Elt F))) V (Proc.devRef .tc main_call4_v4) = Cert.ReferenceIdeal.Read.val_main_call4_v4 (F := F) x0
    ∧ StableHlo.after (rops27 : List (HloOp τ sig (Elt F))) V (Proc.devRef .tc main_call4_v6) = Cert.ReferenceIdeal.Read.val_main_call4_v6 (F := F) x0
    ∧ StableHlo.after (rops27 : List (HloOp τ sig (Elt F))) V (Proc.devRef .tc main_call4_v7) = Cert.ReferenceIdeal.Read.val_main_call4_v7 (F := F) x0 := by
  simp only [rops27]
  read_stretch
  refine ⟨?_, ?_, ?_, ?_, ?_, ?_, ?_, ?_, ?_, ?_⟩
  all_goals (try (simp only [h_main_arg0, h_main_arg1, h_main_v1, h_main_v63, h_main_v171, h_main_v180]; done))
  all_goals (read_stretch_rw; (try simp only [h_main_arg0, h_main_arg1, h_main_v1, h_main_v63, h_main_v171, h_main_v180]); (repeat (first | rw [h_main_arg0] | rw [h_main_arg1] | rw [h_main_v1] | rw [h_main_v63] | rw [h_main_v171] | rw [h_main_v180])); (try rfl))

set_option maxHeartbeats 4000000 in
/-- Chunk 29 (`rops28`, 10 operations): 10 buffers live at its head, 6 at its end. -/
theorem cut29 {V : Valuation τ sig (Elt F)} {x0 : (⟨S16x85x128x128, .f32⟩ : BufTy).Contents (Elt F)} {x1 : (⟨S16x64x5, .f32⟩ : BufTy).Contents (Elt F)}
    (h_main_arg0 : V (Proc.devRef .tc main_arg0) = x0)
    (h_main_arg1 : V (Proc.devRef .tc main_arg1) = x1)
    (h_main_v63 : V (Proc.devRef .tc main_v63) = Cert.ReferenceIdeal.Read.val_main_v63 (F := F) x1)
    (h_main_v171 : V (Proc.devRef .tc main_v171) = Cert.ReferenceIdeal.Read.val_main_v171 (F := F) x0 x1)
    (h_main_v180 : V (Proc.devRef .tc main_v180) = Cert.ReferenceIdeal.Read.val_main_v180 (F := F) x0 x1)
    (h_main_v181 : V (Proc.devRef .tc main_v181) = Cert.ReferenceIdeal.Read.val_main_v181 (F := F) x0)
    (h_main_call4_v1 : V (Proc.devRef .tc main_call4_v1) = Cert.ReferenceIdeal.Read.val_main_call4_v1 (F := F) x0)
    (h_main_call4_v4 : V (Proc.devRef .tc main_call4_v4) = Cert.ReferenceIdeal.Read.val_main_call4_v4 (F := F) x0)
    (h_main_call4_v6 : V (Proc.devRef .tc main_call4_v6) = Cert.ReferenceIdeal.Read.val_main_call4_v6 (F := F) x0)
    (h_main_call4_v7 : V (Proc.devRef .tc main_call4_v7) = Cert.ReferenceIdeal.Read.val_main_call4_v7 (F := F) x0)
    :
    StableHlo.after (rops28 : List (HloOp τ sig (Elt F))) V (Proc.devRef .tc main_arg0) = x0
    ∧ StableHlo.after (rops28 : List (HloOp τ sig (Elt F))) V (Proc.devRef .tc main_arg1) = x1
    ∧ StableHlo.after (rops28 : List (HloOp τ sig (Elt F))) V (Proc.devRef .tc main_v171) = Cert.ReferenceIdeal.Read.val_main_v171 (F := F) x0 x1
    ∧ StableHlo.after (rops28 : List (HloOp τ sig (Elt F))) V (Proc.devRef .tc main_v180) = Cert.ReferenceIdeal.Read.val_main_v180 (F := F) x0 x1
    ∧ StableHlo.after (rops28 : List (HloOp τ sig (Elt F))) V (Proc.devRef .tc main_v185) = Cert.ReferenceIdeal.Read.val_main_v185 (F := F) x0 x1
    ∧ StableHlo.after (rops28 : List (HloOp τ sig (Elt F))) V (Proc.devRef .tc main_cst_36) = Cert.ReferenceIdeal.Read.val_main_cst_36 (F := F) := by
  simp only [rops28]
  read_stretch
  refine ⟨?_, ?_, ?_, ?_, ?_, ?_⟩
  all_goals (try (simp only [h_main_arg0, h_main_arg1, h_main_v63, h_main_v171, h_main_v180, h_main_v181, h_main_call4_v1, h_main_call4_v4, h_main_call4_v6, h_main_call4_v7]; done))
  all_goals (read_stretch_rw; (try simp only [h_main_arg0, h_main_arg1, h_main_v63, h_main_v171, h_main_v180, h_main_v181, h_main_call4_v1, h_main_call4_v4, h_main_call4_v6, h_main_call4_v7]); (repeat (first | rw [h_main_arg0] | rw [h_main_arg1] | rw [h_main_v63] | rw [h_main_v171] | rw [h_main_v180] | rw [h_main_v181] | rw [h_main_call4_v1] | rw [h_main_call4_v4] | rw [h_main_call4_v6] | rw [h_main_call4_v7])); (try rfl))

set_option maxHeartbeats 4000000 in
/-- Chunk 30 (`rops29`, 10 operations): 6 buffers live at its head, 5 at its end. -/
theorem cut30 {V : Valuation τ sig (Elt F)} {x0 : (⟨S16x85x128x128, .f32⟩ : BufTy).Contents (Elt F)} {x1 : (⟨S16x64x5, .f32⟩ : BufTy).Contents (Elt F)}
    (h_main_arg0 : V (Proc.devRef .tc main_arg0) = x0)
    (h_main_arg1 : V (Proc.devRef .tc main_arg1) = x1)
    (h_main_v171 : V (Proc.devRef .tc main_v171) = Cert.ReferenceIdeal.Read.val_main_v171 (F := F) x0 x1)
    (h_main_v180 : V (Proc.devRef .tc main_v180) = Cert.ReferenceIdeal.Read.val_main_v180 (F := F) x0 x1)
    (h_main_v185 : V (Proc.devRef .tc main_v185) = Cert.ReferenceIdeal.Read.val_main_v185 (F := F) x0 x1)
    (h_main_cst_36 : V (Proc.devRef .tc main_cst_36) = Cert.ReferenceIdeal.Read.val_main_cst_36 (F := F))
    :
    StableHlo.after (rops29 : List (HloOp τ sig (Elt F))) V (Proc.devRef .tc main_arg0) = x0
    ∧ StableHlo.after (rops29 : List (HloOp τ sig (Elt F))) V (Proc.devRef .tc main_arg1) = x1
    ∧ StableHlo.after (rops29 : List (HloOp τ sig (Elt F))) V (Proc.devRef .tc main_v188) = Cert.ReferenceIdeal.Read.val_main_v188 (F := F) x0 x1
    ∧ StableHlo.after (rops29 : List (HloOp τ sig (Elt F))) V (Proc.devRef .tc main_v191) = Cert.ReferenceIdeal.Read.val_main_v191 (F := F) x0 x1
    ∧ StableHlo.after (rops29 : List (HloOp τ sig (Elt F))) V (Proc.devRef .tc main_cst_40) = Cert.ReferenceIdeal.Read.val_main_cst_40 (F := F) := by
  simp only [rops29]
  read_stretch
  refine ⟨?_, ?_, ?_, ?_, ?_⟩
  all_goals (try (simp only [h_main_arg0, h_main_arg1, h_main_v171, h_main_v180, h_main_v185, h_main_cst_36]; done))
  all_goals (read_stretch_rw; (try simp only [h_main_arg0, h_main_arg1, h_main_v171, h_main_v180, h_main_v185, h_main_cst_36]); (repeat (first | rw [h_main_arg0] | rw [h_main_arg1] | rw [h_main_v171] | rw [h_main_v180] | rw [h_main_v185] | rw [h_main_cst_36])); (try rfl))

end Cert.ReferenceIdeal.RefRun

end
-- ==== Proof.RC.RCut06.lean ====
/- The line of host operations of the reference program's @main (288 operations, in chunks), stretch by stretch: for each stretch, from the facts that the
   buffers live at its head hold their stages, the buffers live at its end hold theirs (a buffer the stretch writes: its
   operation's function of its operands' stages, which is its stage; a buffer it does not write: what it held); and
   composed over the stretches, the whole line from any contents leaves the result buffer at the last stage. -/
import proofs.«175006_j89550068121905_1_alg».proof.Proof.RefOps
import proofs.«175006_j89550068121905_1_alg».proof.Proof.RefRead
import proofs.«175006_j89550068121905_1_alg».proof.Proof.LibReadStretch
import proofs.«175006_j89550068121905_1_alg».proof.Proof.LibReadStretchRw
import Idealize.ShloMosaic.Lib.Pipeline.Frame

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- Chunk 31 (`rops30`, 2 operations): 5 buffers live at its head, 3 at its end. -/
theorem cut31 {V : Valuation τ sig (Elt F)} {x0 : (⟨S16x85x128x128, .f32⟩ : BufTy).Contents (Elt F)} {x1 : (⟨S16x64x5, .f32⟩ : BufTy).Contents (Elt F)}
    (h_main_arg0 : V (Proc.devRef .tc main_arg0) = x0)
    (h_main_arg1 : V (Proc.devRef .tc main_arg1) = x1)
    (h_main_v188 : V (Proc.devRef .tc main_v188) = Cert.ReferenceIdeal.Read.val_main_v188 (F := F) x0 x1)
    (h_main_v191 : V (Proc.devRef .tc main_v191) = Cert.ReferenceIdeal.Read.val_main_v191 (F := F) x0 x1)
    (h_main_cst_40 : V (Proc.devRef .tc main_cst_40) = Cert.ReferenceIdeal.Read.val_main_cst_40 (F := F))
    :
    StableHlo.after (rops30 : List (HloOp τ sig (Elt F))) V (Proc.devRef .tc main_arg0) = x0
    ∧ StableHlo.after (rops30 : List (HloOp τ sig (Elt F))) V (Proc.devRef .tc main_arg1) = x1
    ∧ StableHlo.after (rops30 : List (HloOp τ sig (Elt F))) V (Proc.devRef .tc main_v193) = Cert.ReferenceIdeal.Read.val_main_v193 (F := F) x0 x1 := by
  simp only [rops30]
  read_stretch
  refine ⟨?_, ?_, ?_⟩
  all_goals (try (simp only [h_main_arg0, h_main_arg1, h_main_v188, h_main_v191, h_main_cst_40]; done))
  all_goals (read_stretch_rw; (try simp only [h_main_arg0, h_main_arg1, h_main_v188, h_main_v191, h_main_cst_40]); (repeat (first | rw [h_main_arg0] | rw [h_main_arg1] | rw [h_main_v188] | rw [h_main_v191] | rw [h_main_cst_40])); (try rfl))

end Cert.ReferenceIdeal.RefRun

end
-- ==== Proof.RefCuts.lean ====
/- The line of host operations of the reference program's @main (288 operations, in chunks), stretch by stretch: for each stretch, from the facts that the
   buffers live at its head hold their stages, the buffers live at its end hold theirs (a buffer the stretch writes: its
   operation's function of its operands' stages, which is its stage; a buffer it does not write: what it held); and
   composed over the stretches, the whole line from any contents leaves the result buffer at the last stage. -/
import proofs.«175006_j89550068121905_1_alg».proof.Proof.RefOps
import proofs.«175006_j89550068121905_1_alg».proof.Proof.RefRead
import proofs.«175006_j89550068121905_1_alg».proof.Proof.LibReadStretch
import proofs.«175006_j89550068121905_1_alg».proof.Proof.LibReadStretchRw
import Idealize.ShloMosaic.Lib.Pipeline.Frame
import proofs.«175006_j89550068121905_1_alg».proof.Proof.RC.RCut01
import proofs.«175006_j89550068121905_1_alg».proof.Proof.RC.RCut02
import proofs.«175006_j89550068121905_1_alg».proof.Proof.RC.RCut03
import proofs.«175006_j89550068121905_1_alg».proof.Proof.RC.RCut04
import proofs.«175006_j89550068121905_1_alg».proof.Proof.RC.RCut05
import proofs.«175006_j89550068121905_1_alg».proof.Proof.RC.RCut06

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- THE WHOLE LINE: from any buffer contents `W`, the line leaves each buffer live at its end at its stage, read at what
    `W` holds in the buffers the line only reads. -/
theorem line_eq (W : Valuation τ sig (Elt F)) :
    StableHlo.after (rops0 ++ (rops1 ++ (rops2 ++ (rops3 ++ (rops4 ++ (rops5 ++ (rops6 ++ (rops7 ++ (rops8 ++ (rops9 ++ (rops10 ++ (rops11 ++ (rops12 ++ (rops13 ++ (rops14 ++ (rops15 ++ (rops16 ++ (rops17 ++ (rops18 ++ (rops19 ++ (rops20 ++ (rops21 ++ (rops22 ++ (rops23 ++ (rops24 ++ (rops25 ++ (rops26 ++ (rops27 ++ (rops28 ++ (rops29 ++ (rops30)))))))))))))))))))))))))))))) : List (HloOp τ sig (Elt F))) W (Proc.devRef .tc main_v193) = Cert.ReferenceIdeal.Read.val_main_v193 (F := F) (W (Proc.devRef .tc main_arg0)) (W (Proc.devRef .tc main_arg1))
    ∧ StableHlo.after (rops0 ++ (rops1 ++ (rops2 ++ (rops3 ++ (rops4 ++ (rops5 ++ (rops6 ++ (rops7 ++ (rops8 ++ (rops9 ++ (rops10 ++ (rops11 ++ (rops12 ++ (rops13 ++ (rops14 ++ (rops15 ++ (rops16 ++ (rops17 ++ (rops18 ++ (rops19 ++ (rops20 ++ (rops21 ++ (rops22 ++ (rops23 ++ (rops24 ++ (rops25 ++ (rops26 ++ (rops27 ++ (rops28 ++ (rops29 ++ (rops30)))))))))))))))))))))))))))))) : List (HloOp τ sig (Elt F))) W (Proc.devRef .tc main_arg0) = (W (Proc.devRef .tc main_arg0))
    ∧ StableHlo.after (rops0 ++ (rops1 ++ (rops2 ++ (rops3 ++ (rops4 ++ (rops5 ++ (rops6 ++ (rops7 ++ (rops8 ++ (rops9 ++ (rops10 ++ (rops11 ++ (rops12 ++ (rops13 ++ (rops14 ++ (rops15 ++ (rops16 ++ (rops17 ++ (rops18 ++ (rops19 ++ (rops20 ++ (rops21 ++ (rops22 ++ (rops23 ++ (rops24 ++ (rops25 ++ (rops26 ++ (rops27 ++ (rops28 ++ (rops29 ++ (rops30)))))))))))))))))))))))))))))) : List (HloOp τ sig (Elt F))) W (Proc.devRef .tc main_arg1) = (W (Proc.devRef .tc main_arg1)) := by
  simp only [StableHlo.after_append]
  obtain ⟨h1_main_arg0, h1_main_arg1, h1_main_v1, h1_main_v4, h1_main_v6, h1_main_v8, h1_main_v9⟩ := cut1 (F := F) (V := W) rfl rfl
  obtain ⟨h2_main_arg0, h2_main_arg1, h2_main_v1, h2_main_v4, h2_main_v6, h2_main_v8, h2_main_v10, h2_main_v12, h2_main_v15, h2_main_v17⟩ := cut2 (F := F) (V := (StableHlo.after (rops0 : List (HloOp τ sig (Elt F))) W)) h1_main_arg0 h1_main_arg1 h1_main_v1 h1_main_v4 h1_main_v6 h1_main_v8 h1_main_v9
  obtain ⟨h3_main_arg0, h3_main_arg1, h3_main_v1, h3_main_v4, h3_main_v6, h3_main_v8, h3_main_v10, h3_main_v12, h3_main_v21, h3_main_v23, h3_main_v24, h3_main_c_2⟩ := cut3 (F := F) (V := (StableHlo.after (rops1 : List (HloOp τ sig (Elt F))) (StableHlo.after (rops0 : List (HloOp τ sig (Elt F))) W))) h2_main_arg0 h2_main_arg1 h2_main_v1 h2_main_v4 h2_main_v6 h2_main_v8 h2_main_v10 h2_main_v12 h2_main_v15 h2_main_v17
  obtain ⟨h4_main_arg0, h4_main_arg1, h4_main_v1, h4_main_v4, h4_main_v6, h4_main_v8, h4_main_v10, h4_main_v12, h4_main_v21, h4_main_v23, h4_main_v24, h4_main_v29, h4_main_v31, h4_main_c_5⟩ := cut4 (F := F) (V := (StableHlo.after (rops2 : List (HloOp τ sig (Elt F))) (StableHlo.after (rops1 : List (HloOp τ sig (Elt F))) (StableHlo.after (rops0 : List (HloOp τ sig (Elt F))) W)))) h3_main_arg0 h3_main_arg1 h3_main_v1 h3_main_v4 h3_main_v6 h3_main_v8 h3_main_v10 h3_main_v12 h3_main_v21 h3_main_v23 h3_main_v24 h3_main_c_2
  obtain ⟨h5_main_arg0, h5_main_arg1, h5_main_v1, h5_main_v4, h5_main_v6, h5_main_v8, h5_main_v10, h5_main_v12, h5_main_v21, h5_main_v23, h5_main_v40⟩ := cut5 (F := F) (V := (StableHlo.after (rops3 : List (HloOp τ sig (Elt F))) (StableHlo.after (rops2 : List (HloOp τ sig (Elt F))) (StableHlo.after (rops1 : List (HloOp τ sig (Elt F))) (StableHlo.after (rops0 : List (HloOp τ sig (Elt F))) W))))) h4_main_arg0 h4_main_arg1 h4_main_v1 h4_main_v4 h4_main_v6 h4_main_v8 h4_main_v10 h4_main_v12 h4_main_v21 h4_main_v23 h4_main_v24 h4_main_v29 h4_main_v31 h4_main_c_5
  obtain ⟨h6_main_arg0, h6_main_arg1, h6_main_v1, h6_main_v4, h6_main_v6, h6_main_v8, h6_main_v10, h6_main_v12, h6_main_v21, h6_main_v40, h6_main_v41, h6_main_v46, h6_main_c_10⟩ := cut6 (F := F) (V := (StableHlo.after (rops4 : List (HloOp τ sig (Elt F))) (StableHlo.after (rops3 : List (HloOp τ sig (Elt F))) (StableHlo.after (rops2 : List (HloOp τ sig (Elt F))) (StableHlo.after (rops1 : List (HloOp τ sig (Elt F))) (StableHlo.after (rops0 : List (HloOp τ sig (Elt F))) W)))))) h5_main_arg0 h5_main_arg1 h5_main_v1 h5_main_v4 h5_main_v6 h5_main_v8 h5_main_v10 h5_main_v12 h5_main_v21 h5_main_v23 h5_main_v40
  obtain ⟨h7_main_arg0, h7_main_arg1, h7_main_v1, h7_main_v4, h7_main_v6, h7_main_v8, h7_main_v10, h7_main_v12, h7_main_v21, h7_main_v40, h7_main_v41, h7_main_v46, h7_main_v51, h7_main_v53, h7_main_c_13⟩ := cut7 (F := F) (V := (StableHlo.after (rops5 : List (HloOp τ sig (Elt F))) (StableHlo.after (rops4 : List (HloOp τ sig (Elt F))) (StableHlo.after (rops3 : List (HloOp τ sig (Elt F))) (StableHlo.after (rops2 : List (HloOp τ sig (Elt F))) (StableHlo.after (rops1 : List (HloOp τ sig (Elt F))) (StableHlo.after (rops0 : List (HloOp τ sig (Elt F))) W))))))) h6_main_arg0 h6_main_arg1 h6_main_v1 h6_main_v4 h6_main_v6 h6_main_v8 h6_main_v10 h6_main_v12 h6_main_v21 h6_main_v40 h6_main_v41 h6_main_v46 h6_main_c_10
  obtain ⟨h8_main_arg0, h8_main_arg1, h8_main_v1, h8_main_v6, h8_main_v8, h8_main_v10, h8_main_v12, h8_main_v21, h8_main_v40, h8_main_v41, h8_main_v58, h8_main_v59, h8_main_v60⟩ := cut8 (F := F) (V := (StableHlo.after (rops6 : List (HloOp τ sig (Elt F))) (StableHlo.after (rops5 : List (HloOp τ sig (Elt F))) (StableHlo.after (rops4 : List (HloOp τ sig (Elt F))) (StableHlo.after (rops3 : List (HloOp τ sig (Elt F))) (StableHlo.after (rops2 : List (HloOp τ sig (Elt F))) (StableHlo.after (rops1 : List (HloOp τ sig (Elt F))) (StableHlo.after (rops0 : List (HloOp τ sig (Elt F))) W)))))))) h7_main_arg0 h7_main_arg1 h7_main_v1 h7_main_v4 h7_main_v6 h7_main_v8 h7_main_v10 h7_main_v12 h7_main_v21 h7_main_v40 h7_main_v41 h7_main_v46 h7_main_v51 h7_main_v53 h7_main_c_13
  obtain ⟨h9_main_arg0, h9_main_arg1, h9_main_v1, h9_main_v6, h9_main_v8, h9_main_v10, h9_main_v12, h9_main_v40, h9_main_v63, h9_main_v64, h9_main_v65, h9_main_call0_v1, h9_main_call0_c_0⟩ := cut9 (F := F) (V := (StableHlo.after (rops7 : List (HloOp τ sig (Elt F))) (StableHlo.after (rops6 : List (HloOp τ sig (Elt F))) (StableHlo.after (rops5 : List (HloOp τ sig (Elt F))) (StableHlo.after (rops4 : List (HloOp τ sig (Elt F))) (StableHlo.after (rops3 : List (HloOp τ sig (Elt F))) (StableHlo.after (rops2 : List (HloOp τ sig (Elt F))) (StableHlo.after (rops1 : List (HloOp τ sig (Elt F))) (StableHlo.after (rops0 : List (HloOp τ sig (Elt F))) W))))))))) h8_main_arg0 h8_main_arg1 h8_main_v1 h8_main_v6 h8_main_v8 h8_main_v10 h8_main_v12 h8_main_v21 h8_main_v40 h8_main_v41 h8_main_v58 h8_main_v59 h8_main_v60
  obtain ⟨h10_main_arg0, h10_main_arg1, h10_main_v1, h10_main_v6, h10_main_v8, h10_main_v10, h10_main_v12, h10_main_v40, h10_main_v63, h10_main_v64, h10_main_call0_v4, h10_main_call0_v6, h10_main_call0_v9⟩ := cut10 (F := F) (V := (StableHlo.after (rops8 : List (HloOp τ sig (Elt F))) (StableHlo.after (rops7 : List (HloOp τ sig (Elt F))) (StableHlo.after (rops6 : List (HloOp τ sig (Elt F))) (StableHlo.after (rops5 : List (HloOp τ sig (Elt F))) (StableHlo.after (rops4 : List (HloOp τ sig (Elt F))) (StableHlo.after (rops3 : List (HloOp τ sig (Elt F))) (StableHlo.after (rops2 : List (HloOp τ sig (Elt F))) (StableHlo.after (rops1 : List (HloOp τ sig (Elt F))) (StableHlo.after (rops0 : List (HloOp τ sig (Elt F))) W)))))))))) h9_main_arg0 h9_main_arg1 h9_main_v1 h9_main_v6 h9_main_v8 h9_main_v10 h9_main_v12 h9_main_v40 h9_main_v63 h9_main_v64 h9_main_v65 h9_main_call0_v1 h9_main_call0_c_0
  obtain ⟨h11_main_arg0, h11_main_arg1, h11_main_v1, h11_main_v6, h11_main_v8, h11_main_v10, h11_main_v12, h11_main_v40, h11_main_v63, h11_main_v66, h11_main_v68⟩ := cut11 (F := F) (V := (StableHlo.after (rops9 : List (HloOp τ sig (Elt F))) (StableHlo.after (rops8 : List (HloOp τ sig (Elt F))) (StableHlo.after (rops7 : List (HloOp τ sig (Elt F))) (StableHlo.after (rops6 : List (HloOp τ sig (Elt F))) (StableHlo.after (rops5 : List (HloOp τ sig (Elt F))) (StableHlo.after (rops4 : List (HloOp τ sig (Elt F))) (StableHlo.after (rops3 : List (HloOp τ sig (Elt F))) (StableHlo.after (rops2 : List (HloOp τ sig (Elt F))) (StableHlo.after (rops1 : List (HloOp τ sig (Elt F))) (StableHlo.after (rops0 : List (HloOp τ sig (Elt F))) W))))))))))) h10_main_arg0 h10_main_arg1 h10_main_v1 h10_main_v6 h10_main_v8 h10_main_v10 h10_main_v12 h10_main_v40 h10_main_v63 h10_main_v64 h10_main_call0_v4 h10_main_call0_v6 h10_main_call0_v9
  obtain ⟨h12_main_arg0, h12_main_arg1, h12_main_v1, h12_main_v6, h12_main_v8, h12_main_v10, h12_main_v12, h12_main_v40, h12_main_v63, h12_main_v68, h12_main_v70, h12_main_v72, h12_main_v74, h12_main_v77⟩ := cut12 (F := F) (V := (StableHlo.after (rops10 : List (HloOp τ sig (Elt F))) (StableHlo.after (rops9 : List (HloOp τ sig (Elt F))) (StableHlo.after (rops8 : List (HloOp τ sig (Elt F))) (StableHlo.after (rops7 : List (HloOp τ sig (Elt F))) (StableHlo.after (rops6 : List (HloOp τ sig (Elt F))) (StableHlo.after (rops5 : List (HloOp τ sig (Elt F))) (StableHlo.after (rops4 : List (HloOp τ sig (Elt F))) (StableHlo.after (rops3 : List (HloOp τ sig (Elt F))) (StableHlo.after (rops2 : List (HloOp τ sig (Elt F))) (StableHlo.after (rops1 : List (HloOp τ sig (Elt F))) (StableHlo.after (rops0 : List (HloOp τ sig (Elt F))) W)))))))))))) h11_main_arg0 h11_main_arg1 h11_main_v1 h11_main_v6 h11_main_v8 h11_main_v10 h11_main_v12 h11_main_v40 h11_main_v63 h11_main_v66 h11_main_v68
  obtain ⟨h13_main_arg0, h13_main_arg1, h13_main_v1, h13_main_v6, h13_main_v8, h13_main_v10, h13_main_v12, h13_main_v40, h13_main_v63, h13_main_v70, h13_main_v74, h13_main_v77, h13_main_v80, h13_main_v83, h13_main_v84⟩ := cut13 (F := F) (V := (StableHlo.after (rops11 : List (HloOp τ sig (Elt F))) (StableHlo.after (rops10 : List (HloOp τ sig (Elt F))) (StableHlo.after (rops9 : List (HloOp τ sig (Elt F))) (StableHlo.after (rops8 : List (HloOp τ sig (Elt F))) (StableHlo.after (rops7 : List (HloOp τ sig (Elt F))) (StableHlo.after (rops6 : List (HloOp τ sig (Elt F))) (StableHlo.after (rops5 : List (HloOp τ sig (Elt F))) (StableHlo.after (rops4 : List (HloOp τ sig (Elt F))) (StableHlo.after (rops3 : List (HloOp τ sig (Elt F))) (StableHlo.after (rops2 : List (HloOp τ sig (Elt F))) (StableHlo.after (rops1 : List (HloOp τ sig (Elt F))) (StableHlo.after (rops0 : List (HloOp τ sig (Elt F))) W))))))))))))) h12_main_arg0 h12_main_arg1 h12_main_v1 h12_main_v6 h12_main_v8 h12_main_v10 h12_main_v12 h12_main_v40 h12_main_v63 h12_main_v68 h12_main_v70 h12_main_v72 h12_main_v74 h12_main_v77
  obtain ⟨h14_main_arg0, h14_main_arg1, h14_main_v1, h14_main_v6, h14_main_v8, h14_main_v10, h14_main_v12, h14_main_v40, h14_main_v63, h14_main_v87, h14_main_v88, h14_main_v89, h14_main_v90⟩ := cut14 (F := F) (V := (StableHlo.after (rops12 : List (HloOp τ sig (Elt F))) (StableHlo.after (rops11 : List (HloOp τ sig (Elt F))) (StableHlo.after (rops10 : List (HloOp τ sig (Elt F))) (StableHlo.after (rops9 : List (HloOp τ sig (Elt F))) (StableHlo.after (rops8 : List (HloOp τ sig (Elt F))) (StableHlo.after (rops7 : List (HloOp τ sig (Elt F))) (StableHlo.after (rops6 : List (HloOp τ sig (Elt F))) (StableHlo.after (rops5 : List (HloOp τ sig (Elt F))) (StableHlo.after (rops4 : List (HloOp τ sig (Elt F))) (StableHlo.after (rops3 : List (HloOp τ sig (Elt F))) (StableHlo.after (rops2 : List (HloOp τ sig (Elt F))) (StableHlo.after (rops1 : List (HloOp τ sig (Elt F))) (StableHlo.after (rops0 : List (HloOp τ sig (Elt F))) W)))))))))))))) h13_main_arg0 h13_main_arg1 h13_main_v1 h13_main_v6 h13_main_v8 h13_main_v10 h13_main_v12 h13_main_v40 h13_main_v63 h13_main_v70 h13_main_v74 h13_main_v77 h13_main_v80 h13_main_v83 h13_main_v84
  obtain ⟨h15_main_arg0, h15_main_arg1, h15_main_v1, h15_main_v6, h15_main_v8, h15_main_v10, h15_main_v12, h15_main_v40, h15_main_v63, h15_main_v91, h15_main_v96, h15_main_v97⟩ := cut15 (F := F) (V := (StableHlo.after (rops13 : List (HloOp τ sig (Elt F))) (StableHlo.after (rops12 : List (HloOp τ sig (Elt F))) (StableHlo.after (rops11 : List (HloOp τ sig (Elt F))) (StableHlo.after (rops10 : List (HloOp τ sig (Elt F))) (StableHlo.after (rops9 : List (HloOp τ sig (Elt F))) (StableHlo.after (rops8 : List (HloOp τ sig (Elt F))) (StableHlo.after (rops7 : List (HloOp τ sig (Elt F))) (StableHlo.after (rops6 : List (HloOp τ sig (Elt F))) (StableHlo.after (rops5 : List (HloOp τ sig (Elt F))) (StableHlo.after (rops4 : List (HloOp τ sig (Elt F))) (StableHlo.after (rops3 : List (HloOp τ sig (Elt F))) (StableHlo.after (rops2 : List (HloOp τ sig (Elt F))) (StableHlo.after (rops1 : List (HloOp τ sig (Elt F))) (StableHlo.after (rops0 : List (HloOp τ sig (Elt F))) W))))))))))))))) h14_main_arg0 h14_main_arg1 h14_main_v1 h14_main_v6 h14_main_v8 h14_main_v10 h14_main_v12 h14_main_v40 h14_main_v63 h14_main_v87 h14_main_v88 h14_main_v89 h14_main_v90
  obtain ⟨h16_main_arg0, h16_main_arg1, h16_main_v1, h16_main_v8, h16_main_v12, h16_main_v40, h16_main_v63, h16_main_v91, h16_main_v96, h16_main_v101, h16_main_v104, h16_main_cst_24⟩ := cut16 (F := F) (V := (StableHlo.after (rops14 : List (HloOp τ sig (Elt F))) (StableHlo.after (rops13 : List (HloOp τ sig (Elt F))) (StableHlo.after (rops12 : List (HloOp τ sig (Elt F))) (StableHlo.after (rops11 : List (HloOp τ sig (Elt F))) (StableHlo.after (rops10 : List (HloOp τ sig (Elt F))) (StableHlo.after (rops9 : List (HloOp τ sig (Elt F))) (StableHlo.after (rops8 : List (HloOp τ sig (Elt F))) (StableHlo.after (rops7 : List (HloOp τ sig (Elt F))) (StableHlo.after (rops6 : List (HloOp τ sig (Elt F))) (StableHlo.after (rops5 : List (HloOp τ sig (Elt F))) (StableHlo.after (rops4 : List (HloOp τ sig (Elt F))) (StableHlo.after (rops3 : List (HloOp τ sig (Elt F))) (StableHlo.after (rops2 : List (HloOp τ sig (Elt F))) (StableHlo.after (rops1 : List (HloOp τ sig (Elt F))) (StableHlo.after (rops0 : List (HloOp τ sig (Elt F))) W)))))))))))))))) h15_main_arg0 h15_main_arg1 h15_main_v1 h15_main_v6 h15_main_v8 h15_main_v10 h15_main_v12 h15_main_v40 h15_main_v63 h15_main_v91 h15_main_v96 h15_main_v97
  obtain ⟨h17_main_arg0, h17_main_arg1, h17_main_v1, h17_main_v40, h17_main_v63, h17_main_v91, h17_main_v101, h17_main_v106, h17_main_v111, h17_main_v112⟩ := cut17 (F := F) (V := (StableHlo.after (rops15 : List (HloOp τ sig (Elt F))) (StableHlo.after (rops14 : List (HloOp τ sig (Elt F))) (StableHlo.after (rops13 : List (HloOp τ sig (Elt F))) (StableHlo.after (rops12 : List (HloOp τ sig (Elt F))) (StableHlo.after (rops11 : List (HloOp τ sig (Elt F))) (StableHlo.after (rops10 : List (HloOp τ sig (Elt F))) (StableHlo.after (rops9 : List (HloOp τ sig (Elt F))) (StableHlo.after (rops8 : List (HloOp τ sig (Elt F))) (StableHlo.after (rops7 : List (HloOp τ sig (Elt F))) (StableHlo.after (rops6 : List (HloOp τ sig (Elt F))) (StableHlo.after (rops5 : List (HloOp τ sig (Elt F))) (StableHlo.after (rops4 : List (HloOp τ sig (Elt F))) (StableHlo.after (rops3 : List (HloOp τ sig (Elt F))) (StableHlo.after (rops2 : List (HloOp τ sig (Elt F))) (StableHlo.after (rops1 : List (HloOp τ sig (Elt F))) (StableHlo.after (rops0 : List (HloOp τ sig (Elt F))) W))))))))))))))))) h16_main_arg0 h16_main_arg1 h16_main_v1 h16_main_v8 h16_main_v12 h16_main_v40 h16_main_v63 h16_main_v91 h16_main_v96 h16_main_v101 h16_main_v104 h16_main_cst_24
  obtain ⟨h18_main_arg0, h18_main_arg1, h18_main_v1, h18_main_v40, h18_main_v63, h18_main_v91, h18_main_v112, h18_main_v113, h18_main_v114, h18_main_v115⟩ := cut18 (F := F) (V := (StableHlo.after (rops16 : List (HloOp τ sig (Elt F))) (StableHlo.after (rops15 : List (HloOp τ sig (Elt F))) (StableHlo.after (rops14 : List (HloOp τ sig (Elt F))) (StableHlo.after (rops13 : List (HloOp τ sig (Elt F))) (StableHlo.after (rops12 : List (HloOp τ sig (Elt F))) (StableHlo.after (rops11 : List (HloOp τ sig (Elt F))) (StableHlo.after (rops10 : List (HloOp τ sig (Elt F))) (StableHlo.after (rops9 : List (HloOp τ sig (Elt F))) (StableHlo.after (rops8 : List (HloOp τ sig (Elt F))) (StableHlo.after (rops7 : List (HloOp τ sig (Elt F))) (StableHlo.after (rops6 : List (HloOp τ sig (Elt F))) (StableHlo.after (rops5 : List (HloOp τ sig (Elt F))) (StableHlo.after (rops4 : List (HloOp τ sig (Elt F))) (StableHlo.after (rops3 : List (HloOp τ sig (Elt F))) (StableHlo.after (rops2 : List (HloOp τ sig (Elt F))) (StableHlo.after (rops1 : List (HloOp τ sig (Elt F))) (StableHlo.after (rops0 : List (HloOp τ sig (Elt F))) W)))))))))))))))))) h17_main_arg0 h17_main_arg1 h17_main_v1 h17_main_v40 h17_main_v63 h17_main_v91 h17_main_v101 h17_main_v106 h17_main_v111 h17_main_v112
  obtain ⟨h19_main_arg0, h19_main_arg1, h19_main_v1, h19_main_v40, h19_main_v63, h19_main_v91, h19_main_v116, h19_main_v121, h19_main_v123, h19_main_v125⟩ := cut19 (F := F) (V := (StableHlo.after (rops17 : List (HloOp τ sig (Elt F))) (StableHlo.after (rops16 : List (HloOp τ sig (Elt F))) (StableHlo.after (rops15 : List (HloOp τ sig (Elt F))) (StableHlo.after (rops14 : List (HloOp τ sig (Elt F))) (StableHlo.after (rops13 : List (HloOp τ sig (Elt F))) (StableHlo.after (rops12 : List (HloOp τ sig (Elt F))) (StableHlo.after (rops11 : List (HloOp τ sig (Elt F))) (StableHlo.after (rops10 : List (HloOp τ sig (Elt F))) (StableHlo.after (rops9 : List (HloOp τ sig (Elt F))) (StableHlo.after (rops8 : List (HloOp τ sig (Elt F))) (StableHlo.after (rops7 : List (HloOp τ sig (Elt F))) (StableHlo.after (rops6 : List (HloOp τ sig (Elt F))) (StableHlo.after (rops5 : List (HloOp τ sig (Elt F))) (StableHlo.after (rops4 : List (HloOp τ sig (Elt F))) (StableHlo.after (rops3 : List (HloOp τ sig (Elt F))) (StableHlo.after (rops2 : List (HloOp τ sig (Elt F))) (StableHlo.after (rops1 : List (HloOp τ sig (Elt F))) (StableHlo.after (rops0 : List (HloOp τ sig (Elt F))) W))))))))))))))))))) h18_main_arg0 h18_main_arg1 h18_main_v1 h18_main_v40 h18_main_v63 h18_main_v91 h18_main_v112 h18_main_v113 h18_main_v114 h18_main_v115
  obtain ⟨h20_main_arg0, h20_main_arg1, h20_main_v1, h20_main_v40, h20_main_v63, h20_main_v91, h20_main_v116, h20_main_v121, h20_main_v126, h20_main_v131, h20_main_v133, h20_main_v135⟩ := cut20 (F := F) (V := (StableHlo.after (rops18 : List (HloOp τ sig (Elt F))) (StableHlo.after (rops17 : List (HloOp τ sig (Elt F))) (StableHlo.after (rops16 : List (HloOp τ sig (Elt F))) (StableHlo.after (rops15 : List (HloOp τ sig (Elt F))) (StableHlo.after (rops14 : List (HloOp τ sig (Elt F))) (StableHlo.after (rops13 : List (HloOp τ sig (Elt F))) (StableHlo.after (rops12 : List (HloOp τ sig (Elt F))) (StableHlo.after (rops11 : List (HloOp τ sig (Elt F))) (StableHlo.after (rops10 : List (HloOp τ sig (Elt F))) (StableHlo.after (rops9 : List (HloOp τ sig (Elt F))) (StableHlo.after (rops8 : List (HloOp τ sig (Elt F))) (StableHlo.after (rops7 : List (HloOp τ sig (Elt F))) (StableHlo.after (rops6 : List (HloOp τ sig (Elt F))) (StableHlo.after (rops5 : List (HloOp τ sig (Elt F))) (StableHlo.after (rops4 : List (HloOp τ sig (Elt F))) (StableHlo.after (rops3 : List (HloOp τ sig (Elt F))) (StableHlo.after (rops2 : List (HloOp τ sig (Elt F))) (StableHlo.after (rops1 : List (HloOp τ sig (Elt F))) (StableHlo.after (rops0 : List (HloOp τ sig (Elt F))) W)))))))))))))))))))) h19_main_arg0 h19_main_arg1 h19_main_v1 h19_main_v40 h19_main_v63 h19_main_v91 h19_main_v116 h19_main_v121 h19_main_v123 h19_main_v125
  obtain ⟨h21_main_arg0, h21_main_arg1, h21_main_v1, h21_main_v40, h21_main_v63, h21_main_v91, h21_main_v116, h21_main_v138, h21_main_v139, h21_main_call2_v1⟩ := cut21 (F := F) (V := (StableHlo.after (rops19 : List (HloOp τ sig (Elt F))) (StableHlo.after (rops18 : List (HloOp τ sig (Elt F))) (StableHlo.after (rops17 : List (HloOp τ sig (Elt F))) (StableHlo.after (rops16 : List (HloOp τ sig (Elt F))) (StableHlo.after (rops15 : List (HloOp τ sig (Elt F))) (StableHlo.after (rops14 : List (HloOp τ sig (Elt F))) (StableHlo.after (rops13 : List (HloOp τ sig (Elt F))) (StableHlo.after (rops12 : List (HloOp τ sig (Elt F))) (StableHlo.after (rops11 : List (HloOp τ sig (Elt F))) (StableHlo.after (rops10 : List (HloOp τ sig (Elt F))) (StableHlo.after (rops9 : List (HloOp τ sig (Elt F))) (StableHlo.after (rops8 : List (HloOp τ sig (Elt F))) (StableHlo.after (rops7 : List (HloOp τ sig (Elt F))) (StableHlo.after (rops6 : List (HloOp τ sig (Elt F))) (StableHlo.after (rops5 : List (HloOp τ sig (Elt F))) (StableHlo.after (rops4 : List (HloOp τ sig (Elt F))) (StableHlo.after (rops3 : List (HloOp τ sig (Elt F))) (StableHlo.after (rops2 : List (HloOp τ sig (Elt F))) (StableHlo.after (rops1 : List (HloOp τ sig (Elt F))) (StableHlo.after (rops0 : List (HloOp τ sig (Elt F))) W))))))))))))))))))))) h20_main_arg0 h20_main_arg1 h20_main_v1 h20_main_v40 h20_main_v63 h20_main_v91 h20_main_v116 h20_main_v121 h20_main_v126 h20_main_v131 h20_main_v133 h20_main_v135
  obtain ⟨h22_main_arg0, h22_main_arg1, h22_main_v1, h22_main_v40, h22_main_v63, h22_main_v116, h22_main_v141, h22_main_v146, h22_main_v148, h22_main_v149⟩ := cut22 (F := F) (V := (StableHlo.after (rops20 : List (HloOp τ sig (Elt F))) (StableHlo.after (rops19 : List (HloOp τ sig (Elt F))) (StableHlo.after (rops18 : List (HloOp τ sig (Elt F))) (StableHlo.after (rops17 : List (HloOp τ sig (Elt F))) (StableHlo.after (rops16 : List (HloOp τ sig (Elt F))) (StableHlo.after (rops15 : List (HloOp τ sig (Elt F))) (StableHlo.after (rops14 : List (HloOp τ sig (Elt F))) (StableHlo.after (rops13 : List (HloOp τ sig (Elt F))) (StableHlo.after (rops12 : List (HloOp τ sig (Elt F))) (StableHlo.after (rops11 : List (HloOp τ sig (Elt F))) (StableHlo.after (rops10 : List (HloOp τ sig (Elt F))) (StableHlo.after (rops9 : List (HloOp τ sig (Elt F))) (StableHlo.after (rops8 : List (HloOp τ sig (Elt F))) (StableHlo.after (rops7 : List (HloOp τ sig (Elt F))) (StableHlo.after (rops6 : List (HloOp τ sig (Elt F))) (StableHlo.after (rops5 : List (HloOp τ sig (Elt F))) (StableHlo.after (rops4 : List (HloOp τ sig (Elt F))) (StableHlo.after (rops3 : List (HloOp τ sig (Elt F))) (StableHlo.after (rops2 : List (HloOp τ sig (Elt F))) (StableHlo.after (rops1 : List (HloOp τ sig (Elt F))) (StableHlo.after (rops0 : List (HloOp τ sig (Elt F))) W)))))))))))))))))))))) h21_main_arg0 h21_main_arg1 h21_main_v1 h21_main_v40 h21_main_v63 h21_main_v91 h21_main_v116 h21_main_v138 h21_main_v139 h21_main_call2_v1
  obtain ⟨h23_main_arg0, h23_main_arg1, h23_main_v1, h23_main_v40, h23_main_v63, h23_main_v116, h23_main_v141, h23_main_v152, h23_main_v157, h23_main_v159⟩ := cut23 (F := F) (V := (StableHlo.after (rops21 : List (HloOp τ sig (Elt F))) (StableHlo.after (rops20 : List (HloOp τ sig (Elt F))) (StableHlo.after (rops19 : List (HloOp τ sig (Elt F))) (StableHlo.after (rops18 : List (HloOp τ sig (Elt F))) (StableHlo.after (rops17 : List (HloOp τ sig (Elt F))) (StableHlo.after (rops16 : List (HloOp τ sig (Elt F))) (StableHlo.after (rops15 : List (HloOp τ sig (Elt F))) (StableHlo.after (rops14 : List (HloOp τ sig (Elt F))) (StableHlo.after (rops13 : List (HloOp τ sig (Elt F))) (StableHlo.after (rops12 : List (HloOp τ sig (Elt F))) (StableHlo.after (rops11 : List (HloOp τ sig (Elt F))) (StableHlo.after (rops10 : List (HloOp τ sig (Elt F))) (StableHlo.after (rops9 : List (HloOp τ sig (Elt F))) (StableHlo.after (rops8 : List (HloOp τ sig (Elt F))) (StableHlo.after (rops7 : List (HloOp τ sig (Elt F))) (StableHlo.after (rops6 : List (HloOp τ sig (Elt F))) (StableHlo.after (rops5 : List (HloOp τ sig (Elt F))) (StableHlo.after (rops4 : List (HloOp τ sig (Elt F))) (StableHlo.after (rops3 : List (HloOp τ sig (Elt F))) (StableHlo.after (rops2 : List (HloOp τ sig (Elt F))) (StableHlo.after (rops1 : List (HloOp τ sig (Elt F))) (StableHlo.after (rops0 : List (HloOp τ sig (Elt F))) W))))))))))))))))))))))) h22_main_arg0 h22_main_arg1 h22_main_v1 h22_main_v40 h22_main_v63 h22_main_v116 h22_main_v141 h22_main_v146 h22_main_v148 h22_main_v149
  obtain ⟨h24_main_arg0, h24_main_arg1, h24_main_v1, h24_main_v40, h24_main_v63, h24_main_v168⟩ := cut24 (F := F) (V := (StableHlo.after (rops22 : List (HloOp τ sig (Elt F))) (StableHlo.after (rops21 : List (HloOp τ sig (Elt F))) (StableHlo.after (rops20 : List (HloOp τ sig (Elt F))) (StableHlo.after (rops19 : List (HloOp τ sig (Elt F))) (StableHlo.after (rops18 : List (HloOp τ sig (Elt F))) (StableHlo.after (rops17 : List (HloOp τ sig (Elt F))) (StableHlo.after (rops16 : List (HloOp τ sig (Elt F))) (StableHlo.after (rops15 : List (HloOp τ sig (Elt F))) (StableHlo.after (rops14 : List (HloOp τ sig (Elt F))) (StableHlo.after (rops13 : List (HloOp τ sig (Elt F))) (StableHlo.after (rops12 : List (HloOp τ sig (Elt F))) (StableHlo.after (rops11 : List (HloOp τ sig (Elt F))) (StableHlo.after (rops10 : List (HloOp τ sig (Elt F))) (StableHlo.after (rops9 : List (HloOp τ sig (Elt F))) (StableHlo.after (rops8 : List (HloOp τ sig (Elt F))) (StableHlo.after (rops7 : List (HloOp τ sig (Elt F))) (StableHlo.after (rops6 : List (HloOp τ sig (Elt F))) (StableHlo.after (rops5 : List (HloOp τ sig (Elt F))) (StableHlo.after (rops4 : List (HloOp τ sig (Elt F))) (StableHlo.after (rops3 : List (HloOp τ sig (Elt F))) (StableHlo.after (rops2 : List (HloOp τ sig (Elt F))) (StableHlo.after (rops1 : List (HloOp τ sig (Elt F))) (StableHlo.after (rops0 : List (HloOp τ sig (Elt F))) W)))))))))))))))))))))))) h23_main_arg0 h23_main_arg1 h23_main_v1 h23_main_v40 h23_main_v63 h23_main_v116 h23_main_v141 h23_main_v152 h23_main_v157 h23_main_v159
  obtain ⟨h25_main_arg0, h25_main_arg1, h25_main_v1, h25_main_v40, h25_main_v63, h25_main_v171, h25_main_v173, h25_main_call3_cst, h25_main_call3_v1⟩ := cut25 (F := F) (V := (StableHlo.after (rops23 : List (HloOp τ sig (Elt F))) (StableHlo.after (rops22 : List (HloOp τ sig (Elt F))) (StableHlo.after (rops21 : List (HloOp τ sig (Elt F))) (StableHlo.after (rops20 : List (HloOp τ sig (Elt F))) (StableHlo.after (rops19 : List (HloOp τ sig (Elt F))) (StableHlo.after (rops18 : List (HloOp τ sig (Elt F))) (StableHlo.after (rops17 : List (HloOp τ sig (Elt F))) (StableHlo.after (rops16 : List (HloOp τ sig (Elt F))) (StableHlo.after (rops15 : List (HloOp τ sig (Elt F))) (StableHlo.after (rops14 : List (HloOp τ sig (Elt F))) (StableHlo.after (rops13 : List (HloOp τ sig (Elt F))) (StableHlo.after (rops12 : List (HloOp τ sig (Elt F))) (StableHlo.after (rops11 : List (HloOp τ sig (Elt F))) (StableHlo.after (rops10 : List (HloOp τ sig (Elt F))) (StableHlo.after (rops9 : List (HloOp τ sig (Elt F))) (StableHlo.after (rops8 : List (HloOp τ sig (Elt F))) (StableHlo.after (rops7 : List (HloOp τ sig (Elt F))) (StableHlo.after (rops6 : List (HloOp τ sig (Elt F))) (StableHlo.after (rops5 : List (HloOp τ sig (Elt F))) (StableHlo.after (rops4 : List (HloOp τ sig (Elt F))) (StableHlo.after (rops3 : List (HloOp τ sig (Elt F))) (StableHlo.after (rops2 : List (HloOp τ sig (Elt F))) (StableHlo.after (rops1 : List (HloOp τ sig (Elt F))) (StableHlo.after (rops0 : List (HloOp τ sig (Elt F))) W))))))))))))))))))))))))) h24_main_arg0 h24_main_arg1 h24_main_v1 h24_main_v40 h24_main_v63 h24_main_v168
  obtain ⟨h26_main_arg0, h26_main_arg1, h26_main_v1, h26_main_v40, h26_main_v63, h26_main_v171, h26_main_v173, h26_main_call3_v4, h26_main_call3_v6, h26_main_call3_v11⟩ := cut26 (F := F) (V := (StableHlo.after (rops24 : List (HloOp τ sig (Elt F))) (StableHlo.after (rops23 : List (HloOp τ sig (Elt F))) (StableHlo.after (rops22 : List (HloOp τ sig (Elt F))) (StableHlo.after (rops21 : List (HloOp τ sig (Elt F))) (StableHlo.after (rops20 : List (HloOp τ sig (Elt F))) (StableHlo.after (rops19 : List (HloOp τ sig (Elt F))) (StableHlo.after (rops18 : List (HloOp τ sig (Elt F))) (StableHlo.after (rops17 : List (HloOp τ sig (Elt F))) (StableHlo.after (rops16 : List (HloOp τ sig (Elt F))) (StableHlo.after (rops15 : List (HloOp τ sig (Elt F))) (StableHlo.after (rops14 : List (HloOp τ sig (Elt F))) (StableHlo.after (rops13 : List (HloOp τ sig (Elt F))) (StableHlo.after (rops12 : List (HloOp τ sig (Elt F))) (StableHlo.after (rops11 : List (HloOp τ sig (Elt F))) (StableHlo.after (rops10 : List (HloOp τ sig (Elt F))) (StableHlo.after (rops9 : List (HloOp τ sig (Elt F))) (StableHlo.after (rops8 : List (HloOp τ sig (Elt F))) (StableHlo.after (rops7 : List (HloOp τ sig (Elt F))) (StableHlo.after (rops6 : List (HloOp τ sig (Elt F))) (StableHlo.after (rops5 : List (HloOp τ sig (Elt F))) (StableHlo.after (rops4 : List (HloOp τ sig (Elt F))) (StableHlo.after (rops3 : List (HloOp τ sig (Elt F))) (StableHlo.after (rops2 : List (HloOp τ sig (Elt F))) (StableHlo.after (rops1 : List (HloOp τ sig (Elt F))) (StableHlo.after (rops0 : List (HloOp τ sig (Elt F))) W)))))))))))))))))))))))))) h25_main_arg0 h25_main_arg1 h25_main_v1 h25_main_v40 h25_main_v63 h25_main_v171 h25_main_v173 h25_main_call3_cst h25_main_call3_v1
  obtain ⟨h27_main_arg0, h27_main_arg1, h27_main_v1, h27_main_v63, h27_main_v171, h27_main_v180⟩ := cut27 (F := F) (V := (StableHlo.after (rops25 : List (HloOp τ sig (Elt F))) (StableHlo.after (rops24 : List (HloOp τ sig (Elt F))) (StableHlo.after (rops23 : List (HloOp τ sig (Elt F))) (StableHlo.after (rops22 : List (HloOp τ sig (Elt F))) (StableHlo.after (rops21 : List (HloOp τ sig (Elt F))) (StableHlo.after (rops20 : List (HloOp τ sig (Elt F))) (StableHlo.after (rops19 : List (HloOp τ sig (Elt F))) (StableHlo.after (rops18 : List (HloOp τ sig (Elt F))) (StableHlo.after (rops17 : List (HloOp τ sig (Elt F))) (StableHlo.after (rops16 : List (HloOp τ sig (Elt F))) (StableHlo.after (rops15 : List (HloOp τ sig (Elt F))) (StableHlo.after (rops14 : List (HloOp τ sig (Elt F))) (StableHlo.after (rops13 : List (HloOp τ sig (Elt F))) (StableHlo.after (rops12 : List (HloOp τ sig (Elt F))) (StableHlo.after (rops11 : List (HloOp τ sig (Elt F))) (StableHlo.after (rops10 : List (HloOp τ sig (Elt F))) (StableHlo.after (rops9 : List (HloOp τ sig (Elt F))) (StableHlo.after (rops8 : List (HloOp τ sig (Elt F))) (StableHlo.after (rops7 : List (HloOp τ sig (Elt F))) (StableHlo.after (rops6 : List (HloOp τ sig (Elt F))) (StableHlo.after (rops5 : List (HloOp τ sig (Elt F))) (StableHlo.after (rops4 : List (HloOp τ sig (Elt F))) (StableHlo.after (rops3 : List (HloOp τ sig (Elt F))) (StableHlo.after (rops2 : List (HloOp τ sig (Elt F))) (StableHlo.after (rops1 : List (HloOp τ sig (Elt F))) (StableHlo.after (rops0 : List (HloOp τ sig (Elt F))) W))))))))))))))))))))))))))) h26_main_arg0 h26_main_arg1 h26_main_v1 h26_main_v40 h26_main_v63 h26_main_v171 h26_main_v173 h26_main_call3_v4 h26_main_call3_v6 h26_main_call3_v11
  obtain ⟨h28_main_arg0, h28_main_arg1, h28_main_v63, h28_main_v171, h28_main_v180, h28_main_v181, h28_main_call4_v1, h28_main_call4_v4, h28_main_call4_v6, h28_main_call4_v7⟩ := cut28 (F := F) (V := (StableHlo.after (rops26 : List (HloOp τ sig (Elt F))) (StableHlo.after (rops25 : List (HloOp τ sig (Elt F))) (StableHlo.after (rops24 : List (HloOp τ sig (Elt F))) (StableHlo.after (rops23 : List (HloOp τ sig (Elt F))) (StableHlo.after (rops22 : List (HloOp τ sig (Elt F))) (StableHlo.after (rops21 : List (HloOp τ sig (Elt F))) (StableHlo.after (rops20 : List (HloOp τ sig (Elt F))) (StableHlo.after (rops19 : List (HloOp τ sig (Elt F))) (StableHlo.after (rops18 : List (HloOp τ sig (Elt F))) (StableHlo.after (rops17 : List (HloOp τ sig (Elt F))) (StableHlo.after (rops16 : List (HloOp τ sig (Elt F))) (StableHlo.after (rops15 : List (HloOp τ sig (Elt F))) (StableHlo.after (rops14 : List (HloOp τ sig (Elt F))) (StableHlo.after (rops13 : List (HloOp τ sig (Elt F))) (StableHlo.after (rops12 : List (HloOp τ sig (Elt F))) (StableHlo.after (rops11 : List (HloOp τ sig (Elt F))) (StableHlo.after (rops10 : List (HloOp τ sig (Elt F))) (StableHlo.after (rops9 : List (HloOp τ sig (Elt F))) (StableHlo.after (rops8 : List (HloOp τ sig (Elt F))) (StableHlo.after (rops7 : List (HloOp τ sig (Elt F))) (StableHlo.after (rops6 : List (HloOp τ sig (Elt F))) (StableHlo.after (rops5 : List (HloOp τ sig (Elt F))) (StableHlo.after (rops4 : List (HloOp τ sig (Elt F))) (StableHlo.after (rops3 : List (HloOp τ sig (Elt F))) (StableHlo.after (rops2 : List (HloOp τ sig (Elt F))) (StableHlo.after (rops1 : List (HloOp τ sig (Elt F))) (StableHlo.after (rops0 : List (HloOp τ sig (Elt F))) W)))))))))))))))))))))))))))) h27_main_arg0 h27_main_arg1 h27_main_v1 h27_main_v63 h27_main_v171 h27_main_v180
  obtain ⟨h29_main_arg0, h29_main_arg1, h29_main_v171, h29_main_v180, h29_main_v185, h29_main_cst_36⟩ := cut29 (F := F) (V := (StableHlo.after (rops27 : List (HloOp τ sig (Elt F))) (StableHlo.after (rops26 : List (HloOp τ sig (Elt F))) (StableHlo.after (rops25 : List (HloOp τ sig (Elt F))) (StableHlo.after (rops24 : List (HloOp τ sig (Elt F))) (StableHlo.after (rops23 : List (HloOp τ sig (Elt F))) (StableHlo.after (rops22 : List (HloOp τ sig (Elt F))) (StableHlo.after (rops21 : List (HloOp τ sig (Elt F))) (StableHlo.after (rops20 : List (HloOp τ sig (Elt F))) (StableHlo.after (rops19 : List (HloOp τ sig (Elt F))) (StableHlo.after (rops18 : List (HloOp τ sig (Elt F))) (StableHlo.after (rops17 : List (HloOp τ sig (Elt F))) (StableHlo.after (rops16 : List (HloOp τ sig (Elt F))) (StableHlo.after (rops15 : List (HloOp τ sig (Elt F))) (StableHlo.after (rops14 : List (HloOp τ sig (Elt F))) (StableHlo.after (rops13 : List (HloOp τ sig (Elt F))) (StableHlo.after (rops12 : List (HloOp τ sig (Elt F))) (StableHlo.after (rops11 : List (HloOp τ sig (Elt F))) (StableHlo.after (rops10 : List (HloOp τ sig (Elt F))) (StableHlo.after (rops9 : List (HloOp τ sig (Elt F))) (StableHlo.after (rops8 : List (HloOp τ sig (Elt F))) (StableHlo.after (rops7 : List (HloOp τ sig (Elt F))) (StableHlo.after (rops6 : List (HloOp τ sig (Elt F))) (StableHlo.after (rops5 : List (HloOp τ sig (Elt F))) (StableHlo.after (rops4 : List (HloOp τ sig (Elt F))) (StableHlo.after (rops3 : List (HloOp τ sig (Elt F))) (StableHlo.after (rops2 : List (HloOp τ sig (Elt F))) (StableHlo.after (rops1 : List (HloOp τ sig (Elt F))) (StableHlo.after (rops0 : List (HloOp τ sig (Elt F))) W))))))))))))))))))))))))))))) h28_main_arg0 h28_main_arg1 h28_main_v63 h28_main_v171 h28_main_v180 h28_main_v181 h28_main_call4_v1 h28_main_call4_v4 h28_main_call4_v6 h28_main_call4_v7
  obtain ⟨h30_main_arg0, h30_main_arg1, h30_main_v188, h30_main_v191, h30_main_cst_40⟩ := cut30 (F := F) (V := (StableHlo.after (rops28 : List (HloOp τ sig (Elt F))) (StableHlo.after (rops27 : List (HloOp τ sig (Elt F))) (StableHlo.after (rops26 : List (HloOp τ sig (Elt F))) (StableHlo.after (rops25 : List (HloOp τ sig (Elt F))) (StableHlo.after (rops24 : List (HloOp τ sig (Elt F))) (StableHlo.after (rops23 : List (HloOp τ sig (Elt F))) (StableHlo.after (rops22 : List (HloOp τ sig (Elt F))) (StableHlo.after (rops21 : List (HloOp τ sig (Elt F))) (StableHlo.after (rops20 : List (HloOp τ sig (Elt F))) (StableHlo.after (rops19 : List (HloOp τ sig (Elt F))) (StableHlo.after (rops18 : List (HloOp τ sig (Elt F))) (StableHlo.after (rops17 : List (HloOp τ sig (Elt F))) (StableHlo.after (rops16 : List (HloOp τ sig (Elt F))) (StableHlo.after (rops15 : List (HloOp τ sig (Elt F))) (StableHlo.after (rops14 : List (HloOp τ sig (Elt F))) (StableHlo.after (rops13 : List (HloOp τ sig (Elt F))) (StableHlo.after (rops12 : List (HloOp τ sig (Elt F))) (StableHlo.after (rops11 : List (HloOp τ sig (Elt F))) (StableHlo.after (rops10 : List (HloOp τ sig (Elt F))) (StableHlo.after (rops9 : List (HloOp τ sig (Elt F))) (StableHlo.after (rops8 : List (HloOp τ sig (Elt F))) (StableHlo.after (rops7 : List (HloOp τ sig (Elt F))) (StableHlo.after (rops6 : List (HloOp τ sig (Elt F))) (StableHlo.after (rops5 : List (HloOp τ sig (Elt F))) (StableHlo.after (rops4 : List (HloOp τ sig (Elt F))) (StableHlo.after (rops3 : List (HloOp τ sig (Elt F))) (StableHlo.after (rops2 : List (HloOp τ sig (Elt F))) (StableHlo.after (rops1 : List (HloOp τ sig (Elt F))) (StableHlo.after (rops0 : List (HloOp τ sig (Elt F))) W)))))))))))))))))))))))))))))) h29_main_arg0 h29_main_arg1 h29_main_v171 h29_main_v180 h29_main_v185 h29_main_cst_36
  obtain ⟨h31_main_arg0, h31_main_arg1, h31_main_v193⟩ := cut31 (F := F) (V := (StableHlo.after (rops29 : List (HloOp τ sig (Elt F))) (StableHlo.after (rops28 : List (HloOp τ sig (Elt F))) (StableHlo.after (rops27 : List (HloOp τ sig (Elt F))) (StableHlo.after (rops26 : List (HloOp τ sig (Elt F))) (StableHlo.after (rops25 : List (HloOp τ sig (Elt F))) (StableHlo.after (rops24 : List (HloOp τ sig (Elt F))) (StableHlo.after (rops23 : List (HloOp τ sig (Elt F))) (StableHlo.after (rops22 : List (HloOp τ sig (Elt F))) (StableHlo.after (rops21 : List (HloOp τ sig (Elt F))) (StableHlo.after (rops20 : List (HloOp τ sig (Elt F))) (StableHlo.after (rops19 : List (HloOp τ sig (Elt F))) (StableHlo.after (rops18 : List (HloOp τ sig (Elt F))) (StableHlo.after (rops17 : List (HloOp τ sig (Elt F))) (StableHlo.after (rops16 : List (HloOp τ sig (Elt F))) (StableHlo.after (rops15 : List (HloOp τ sig (Elt F))) (StableHlo.after (rops14 : List (HloOp τ sig (Elt F))) (StableHlo.after (rops13 : List (HloOp τ sig (Elt F))) (StableHlo.after (rops12 : List (HloOp τ sig (Elt F))) (StableHlo.after (rops11 : List (HloOp τ sig (Elt F))) (StableHlo.after (rops10 : List (HloOp τ sig (Elt F))) (StableHlo.after (rops9 : List (HloOp τ sig (Elt F))) (StableHlo.after (rops8 : List (HloOp τ sig (Elt F))) (StableHlo.after (rops7 : List (HloOp τ sig (Elt F))) (StableHlo.after (rops6 : List (HloOp τ sig (Elt F))) (StableHlo.after (rops5 : List (HloOp τ sig (Elt F))) (StableHlo.after (rops4 : List (HloOp τ sig (Elt F))) (StableHlo.after (rops3 : List (HloOp τ sig (Elt F))) (StableHlo.after (rops2 : List (HloOp τ sig (Elt F))) (StableHlo.after (rops1 : List (HloOp τ sig (Elt F))) (StableHlo.after (rops0 : List (HloOp τ sig (Elt F))) W))))))))))))))))))))))))))))))) h30_main_arg0 h30_main_arg1 h30_main_v188 h30_main_v191 h30_main_cst_40
  exact ⟨h31_main_v193, h31_main_arg0, h31_main_arg1⟩

end Cert.ReferenceIdeal.RefRun

end
-- ==== Proof.RefRun.lean ====
/-
  The reference program is a straight line of 288 host operations.  Every weakly fair execution of it terminates, with
  the result buffer at the last stage of the operations' table read at the two arguments' launch contents, and the
  arguments unchanged: the line's buffer contents are the fold of the operations' results, read stretch by stretch
  (the table of cuts), and no operation writes an argument.
-/
import proofs.«175006_j89550068121905_1_alg».proof.Proof.RefOps
import proofs.«175006_j89550068121905_1_alg».proof.Proof.RefRead
import proofs.«175006_j89550068121905_1_alg».proof.Proof.RefCuts

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations, in order: the chunks one after the other. -/
abbrev ops : List (HloOp τ sig (Elt F)) := rops0 ++ (rops1 ++ (rops2 ++ (rops3 ++ (rops4 ++ (rops5 ++ (rops6 ++ (rops7 ++ (rops8 ++ (rops9 ++ (rops10 ++ (rops11 ++ (rops12 ++ (rops13 ++ (rops14 ++ (rops15 ++ (rops16 ++ (rops17 ++ (rops18 ++ (rops19 ++ (rops20 ++ (rops21 ++ (rops22 ++ (rops23 ++ (rops24 ++ (rops25 ++ (rops26 ++ (rops27 ++ (rops28 ++ (rops29 ++ (rops30))))))))))))))))))))))))))))))

set_option maxHeartbeats 4000000 in
/-- @main is the line of its operations. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig := by
  refine List.forall_iff_forall_mem.mpr fun op h => ?_
  simp only [ops, List.mem_append] at h
  rcases h with h | h | h | h | h | h | h | h | h | h | h | h | h | h | h | h | h | h | h | h | h | h | h | h | h | h | h | h | h | h | h
  · exact List.forall_iff_forall_mem.mp rops0_sub op h
  · exact List.forall_iff_forall_mem.mp rops1_sub op h
  · exact List.forall_iff_forall_mem.mp rops2_sub op h
  · exact List.forall_iff_forall_mem.mp rops3_sub op h
  · exact List.forall_iff_forall_mem.mp rops4_sub op h
  · exact List.forall_iff_forall_mem.mp rops5_sub op h
  · exact List.forall_iff_forall_mem.mp rops6_sub op h
  · exact List.forall_iff_forall_mem.mp rops7_sub op h
  · exact List.forall_iff_forall_mem.mp rops8_sub op h
  · exact List.forall_iff_forall_mem.mp rops9_sub op h
  · exact List.forall_iff_forall_mem.mp rops10_sub op h
  · exact List.forall_iff_forall_mem.mp rops11_sub op h
  · exact List.forall_iff_forall_mem.mp rops12_sub op h
  · exact List.forall_iff_forall_mem.mp rops13_sub op h
  · exact List.forall_iff_forall_mem.mp rops14_sub op h
  · exact List.forall_iff_forall_mem.mp rops15_sub op h
  · exact List.forall_iff_forall_mem.mp rops16_sub op h
  · exact List.forall_iff_forall_mem.mp rops17_sub op h
  · exact List.forall_iff_forall_mem.mp rops18_sub op h
  · exact List.forall_iff_forall_mem.mp rops19_sub op h
  · exact List.forall_iff_forall_mem.mp rops20_sub op h
  · exact List.forall_iff_forall_mem.mp rops21_sub op h
  · exact List.forall_iff_forall_mem.mp rops22_sub op h
  · exact List.forall_iff_forall_mem.mp rops23_sub op h
  · exact List.forall_iff_forall_mem.mp rops24_sub op h
  · exact List.forall_iff_forall_mem.mp rops25_sub op h
  · exact List.forall_iff_forall_mem.mp rops26_sub op h
  · exact List.forall_iff_forall_mem.mp rops27_sub op h
  · exact List.forall_iff_forall_mem.mp rops28_sub op h
  · exact List.forall_iff_forall_mem.mp rops29_sub op h
  · exact List.forall_iff_forall_mem.mp rops30_sub op h

set_option maxHeartbeats 4000000 in
/-- Every operation determines its results: none allocates. -/
theorem ops_fresh : ∀ op ∈ (ops : List (HloOp τ sig (Elt F))), op.fresh = ∅ := by
  intro op h
  simp only [ops, List.mem_append] at h
  rcases h with h | h | h | h | h | h | h | h | h | h | h | h | h | h | h | h | h | h | h | h | h | h | h | h | h | h | h | h | h | h | h
  · (repeat (cases h with | head => rfl | tail _ h => ?_)); exact nomatch h
  · (repeat (cases h with | head => rfl | tail _ h => ?_)); exact nomatch h
  · (repeat (cases h with | head => rfl | tail _ h => ?_)); exact nomatch h
  · (repeat (cases h with | head => rfl | tail _ h => ?_)); exact nomatch h
  · (repeat (cases h with | head => rfl | tail _ h => ?_)); exact nomatch h
  · (repeat (cases h with | head => rfl | tail _ h => ?_)); exact nomatch h
  · (repeat (cases h with | head => rfl | tail _ h => ?_)); exact nomatch h
  · (repeat (cases h with | head => rfl | tail _ h => ?_)); exact nomatch h
  · (repeat (cases h with | head => rfl | tail _ h => ?_)); exact nomatch h
  · (repeat (cases h with | head => rfl | tail _ h => ?_)); exact nomatch h
  · (repeat (cases h with | head => rfl | tail _ h => ?_)); exact nomatch h
  · (repeat (cases h with | head => rfl | tail _ h => ?_)); exact nomatch h
  · (repeat (cases h with | head => rfl | tail _ h => ?_)); exact nomatch h
  · (repeat (cases h with | head => rfl | tail _ h => ?_)); exact nomatch h
  · (repeat (cases h with | head => rfl | tail _ h => ?_)); exact nomatch h
  · (repeat (cases h with | head => rfl | tail _ h => ?_)); exact nomatch h
  · (repeat (cases h with | head => rfl | tail _ h => ?_)); exact nomatch h
  · (repeat (cases h with | head => rfl | tail _ h => ?_)); exact nomatch h
  · (repeat (cases h with | head => rfl | tail _ h => ?_)); exact nomatch h
  · (repeat (cases h with | head => rfl | tail _ h => ?_)); exact nomatch h
  · (repeat (cases h with | head => rfl | tail _ h => ?_)); exact nomatch h
  · (repeat (cases h with | head => rfl | tail _ h => ?_)); exact nomatch h
  · (repeat (cases h with | head => rfl | tail _ h => ?_)); exact nomatch h
  · (repeat (cases h with | head => rfl | tail _ h => ?_)); exact nomatch h
  · (repeat (cases h with | head => rfl | tail _ h => ?_)); exact nomatch h
  · (repeat (cases h with | head => rfl | tail _ h => ?_)); exact nomatch h
  · (repeat (cases h with | head => rfl | tail _ h => ?_)); exact nomatch h
  · (repeat (cases h with | head => rfl | tail _ h => ?_)); exact nomatch h
  · (repeat (cases h with | head => rfl | tail _ h => ?_)); exact nomatch h
  · (repeat (cases h with | head => rfl | tail _ h => ?_)); exact nomatch h
  · (repeat (cases h with | head => rfl | tail _ h => ?_)); exact nomatch h

/-- THE RUN: on every device, from any memory with zero counters, every weakly fair execution of @main terminates with
    the result at the last stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v193)
          = Cert.ReferenceIdeal.Read.val_main_v193 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v193).trans (line_eq (F := F) _).1, (h c main_arg0).trans (line_eq (F := F) _).2.1, (h c main_arg1).trans (line_eq (F := F) _).2.2⟩)
    (run_seq scopedRefs_eq scopedSems_eq defs main (fun _ => ops) main_eq (fun _ => ops_sub) m ρ (fun _ => ops_fresh))

end Cert.ReferenceIdeal.RefRun

end
-- ==== Proof.LibFirstOcc.lean ====
/-
  First occurrences in a finite family.

  Let `f : Fin N → ι` be a finite family of values.  An index `n` is a *first occurrence* when no smaller index
  takes the value `f n`.  Every value the family takes has exactly one first occurrence (the least index of its
  fibre), and distinct first occurrences carry distinct values.  Hence `f` restricted to the first occurrences is a
  bijection onto the set of values taken, and a sum over the values taken (each counted once) equals the sum over
  the first occurrences of the summand at `f n`.

  Statements:
  * `card_le_eq_one_iff`: among the indices `m ≤ n` exactly one has `f m = f n` iff `n` is a first occurrence;
  * `IsFirst.injOn`: `f` is injective on first occurrences;
  * `exists_isFirst_of_eq`: every value taken has a first occurrence;
  * `image_filter_isFirst`: the image of the first occurrences is the set of values taken;
  * `sum_taken_eq_sum_first`, `sum_mul_taken_eq_sum_first_mul`: the two sum identities.
-/
import Mathlib.Algebra.BigOperators.Group.Finset.Basic
import Mathlib.Data.Finset.Max
import Mathlib.Data.Fintype.Card
import Mathlib.Data.Real.Basic

namespace FirstOcc

variable {N : ℕ} {ι : Type*} [DecidableEq ι]

/-- `n` is the first index at which the family `f` takes the value `f n`. -/
def IsFirst (f : Fin N → ι) (n : Fin N) : Prop := ∀ m : Fin N, m < n → f m ≠ f n

instance (f : Fin N → ι) (n : Fin N) : Decidable (IsFirst f n) := by unfold IsFirst; infer_instance

/-- Among the indices up to `n` exactly one takes the value `f n` precisely when `n` is the first to take it. -/
theorem card_le_eq_one_iff (f : Fin N → ι) (n : Fin N) :
    (Finset.univ.filter fun m : Fin N => f n = f m ∧ m ≤ n).card = 1 ↔ IsFirst f n := by
  have hn : n ∈ Finset.univ.filter fun m : Fin N => f n = f m ∧ m ≤ n :=
    Finset.mem_filter.mpr ⟨Finset.mem_univ _, rfl, le_rfl⟩
  constructor
  · intro h m hm hfm
    obtain ⟨a, ha⟩ := Finset.card_eq_one.mp h
    have h1 : n = a := by rw [ha] at hn; exact Finset.mem_singleton.mp hn
    have h2 : m ∈ Finset.univ.filter fun m : Fin N => f n = f m ∧ m ≤ n :=
      Finset.mem_filter.mpr ⟨Finset.mem_univ _, hfm.symm, hm.le⟩
    rw [ha] at h2
    have h3 : m = a := Finset.mem_singleton.mp h2
    exact absurd (h3.trans h1.symm) hm.ne
  · intro h
    rw [Finset.card_eq_one]
    refine ⟨n, ?_⟩
    ext m
    simp only [Finset.mem_filter, Finset.mem_univ, true_and, Finset.mem_singleton]
    constructor
    · rintro ⟨h1, h2⟩
      rcases lt_or_eq_of_le h2 with h3 | h3
      · exact absurd h1.symm (h m h3)
      · exact h3
    · rintro rfl
      exact ⟨rfl, le_rfl⟩

/-- Two first occurrences with the same value coincide. -/
theorem IsFirst.eq_of_eq {f : Fin N → ι} {a b : Fin N} (ha : IsFirst f a) (hb : IsFirst f b)
    (hab : f a = f b) : a = b := by
  rcases lt_trichotomy a b with h | h | h
  · exact absurd hab (hb a h)
  · exact h
  · exact absurd hab.symm (ha b h)

/-- The family is injective on its first occurrences. -/
theorem IsFirst.injOn (f : Fin N → ι) :
    Set.InjOn f (↑(Finset.univ.filter fun n : Fin N => IsFirst f n) : Set (Fin N)) := by
  intro a ha b hb hab
  rw [Finset.mem_coe, Finset.mem_filter] at ha hb
  exact IsFirst.eq_of_eq ha.2 hb.2 hab

/-- Every value taken by the family has a first occurrence: the least index of its fibre. -/
theorem exists_isFirst_of_eq (f : Fin N → ι) {i : ι} (n : Fin N) (hn : f n = i) :
    ∃ m : Fin N, IsFirst f m ∧ f m = i := by
  have hmem : n ∈ Finset.univ.filter fun m : Fin N => f m = i :=
    Finset.mem_filter.mpr ⟨Finset.mem_univ _, hn⟩
  have hne : (Finset.univ.filter fun m : Fin N => f m = i).Nonempty := ⟨n, hmem⟩
  have hmin := Finset.min'_mem _ hne
  rw [Finset.mem_filter] at hmin
  refine ⟨(Finset.univ.filter fun m : Fin N => f m = i).min' hne, ?_, hmin.2⟩
  intro k hk hfk
  have hkmem : k ∈ Finset.univ.filter fun m : Fin N => f m = i :=
    Finset.mem_filter.mpr ⟨Finset.mem_univ _, hfk.trans hmin.2⟩
  exact absurd (Finset.min'_le _ k hkmem) (not_le.mpr hk)

/-- The image of the first occurrences under the family is the set of values taken. -/
theorem image_filter_isFirst [Fintype ι] (f : Fin N → ι) :
    (Finset.univ.filter fun n : Fin N => IsFirst f n).image f
      = Finset.univ.filter fun i : ι => ∃ n, f n = i := by
  ext i
  simp only [Finset.mem_image, Finset.mem_filter, Finset.mem_univ, true_and]
  constructor
  · rintro ⟨n, _, hn⟩
    exact ⟨n, hn⟩
  · rintro ⟨n, hn⟩
    exact exists_isFirst_of_eq f n hn

/-- Each value the family takes is taken first exactly once: summing `g` over the values taken (each once) is
summing `g (f n)` over the first occurrences. -/
theorem sum_taken_eq_sum_first [Fintype ι] (f : Fin N → ι) (g : ι → ℝ) :
    ∑ i : ι, (if ∃ n, f n = i then g i else 0) = ∑ n : Fin N, (if IsFirst f n then g (f n) else 0) := by
  rw [← Finset.sum_filter, ← Finset.sum_filter, ← image_filter_isFirst,
    Finset.sum_image (IsFirst.injOn f)]

/-- The same with a 0/1 weight: the sum of `g i` times the indicator that `i` is taken equals the sum of the
indicator that `n` is a first occurrence times `g (f n)`. -/
theorem sum_mul_taken_eq_sum_first_mul [Fintype ι] (f : Fin N → ι) (g : ι → ℝ) :
    ∑ i : ι, g i * (if ∃ n, f n = i then (1:ℝ) else 0)
      = ∑ n : Fin N, (if IsFirst f n then (1:ℝ) else 0) * g (f n) := by
  simp only [mul_ite, mul_one, mul_zero, ite_mul, one_mul, zero_mul]
  exact sum_taken_eq_sum_first f g

end FirstOcc
-- ==== Proof.Spec.lean ====
/-
  What the two programs compute, stated once, for both value proofs to meet.

  The detection loss of `preds : f32[16, 85, 128, 128]` and `targets : f32[16, 64, 5]` is
  `0.05 · box + 1 · obj + 0.5 · cls`.  Box `(b, n)` has the class label `cls = ⌊t₀⌋` and the grid cell
  `(gj, gi) = (⌊128·t₂⌋, ⌊128·t₁⌋)` (three integer arrays, functions of `targets` alone; both programs and the
  precondition compute them by the same operations, so they are carried here as those operations and never opened).
  * `box` is the sum over the boxes of `1 − IoU` of the predicted box — channels 0..3 of `preds` at the box's cell —
    against the target box: one chain of host operations (`boxFn`) of the four gathered channels and four columns of
    `targets`, the same chain in both programs.
  * `obj` is `(Σ softplus(channel 4) − Σ' channel 4 at the cell) / 16384`, where `Σ` runs over all batches and
    cells and `Σ'` over the boxes that are the FIRST of their batch to name their cell (a cell named twice counts
    once: the reference sets a 0/1 target per cell, the kernel masks the repeats).
  * `cls` is the same over the 80 class channels, `Σ'` over the boxes that are the first of their batch to name
    their (cell, label) pair, divided by `16384 · 80`.
  On finite inputs both `obj` and `cls` are real numbers, stated here over the reals (`objR`, `clsR`).
-/
import proofs.«175006_j89550068121905_1_alg».proof.Proof.Gen.KernelIdeal
import proofs.«175006_j89550068121905_1_alg».proof.Proof.LibFirstOcc
import Idealize.ShloMosaic.PureOps.Ideal
import Idealize.ShloMosaic.Lib.ValueIdx
import Mathlib.Analysis.SpecialFunctions.Log.Basic
import Mathlib.Analysis.SpecialFunctions.Exp

noncomputable section

open scoped BigOperators

namespace Cert.Spec

open Cert.KernelIdeal Cert.KernelIdeal.Gen Idealize.ShloMosaic Idealize.ShloMosaic.ValueIdx

/-- `preds` and `targets` at the ideal instance: arrays of extended reals. -/
abbrev Preds : Type := FVec Ideal S16x85x128x128 .f32
abbrev Targets : Type := FVec Ideal S16x64x5 .f32
/-- One value per box `(b, n)`. -/
abbrev PerBox : Type := FVec Ideal S16x64 .f32
abbrev Scalar0 : Type := FVec Ideal S_ .f32

/-! ## The columns of `targets` and the three integer arrays -/

/-- Column `k` of `targets`, one value per box: the slice of the last axis at `k`, reshaped. -/
def col0 (tg : Targets) : PerBox := shapeCast _ (extractStridedSlice S16x64x1 ![0, 0, 0] tg slices_S16x64x5_S16x64x1_0_0_0) shapeCasts_S16x64x1_S16x64
def col1 (tg : Targets) : PerBox := shapeCast _ (extractStridedSlice S16x64x1 ![0, 0, 1] tg slices_S16x64x5_S16x64x1_0_0_1) shapeCasts_S16x64x1_S16x64
def col2 (tg : Targets) : PerBox := shapeCast _ (extractStridedSlice S16x64x1 ![0, 0, 2] tg slices_S16x64x5_S16x64x1_0_0_2) shapeCasts_S16x64x1_S16x64
def col3 (tg : Targets) : PerBox := shapeCast _ (extractStridedSlice S16x64x1 ![0, 0, 3] tg slices_S16x64x5_S16x64x1_0_0_3) shapeCasts_S16x64x1_S16x64
def col4 (tg : Targets) : PerBox := shapeCast _ (extractStridedSlice S16x64x1 ![0, 0, 4] tg slices_S16x64x5_S16x64x1_0_0_4) shapeCasts_S16x64x1_S16x64

/-- The scale `128` broadcast over the boxes. -/
def c128 : PerBox := broadcastInDim S16x64 ![] bcast_S_S16x64 (constant (F := Ideal) S_ .f32 0x43000000#32)

/-- The class label of each box: column 0 converted to an integer. -/
def clsA (tg : Targets) : IVec S16x64 32 := fptosi (F := Ideal) (φ := .f32) 32 (col0 tg)
/-- The grid column of each box: `128 ·` column 1, converted to an integer. -/
def giA (tg : Targets) : IVec S16x64 32 := fptosi (F := Ideal) (φ := .f32) 32 (mulf (F := Ideal) (φ := .f32) (col1 tg) c128)
/-- The grid row of each box: `128 ·` column 2, converted to an integer. -/
def gjA (tg : Targets) : IVec S16x64 32 := fptosi (F := Ideal) (φ := .f32) 32 (mulf (F := Ideal) (φ := .f32) (col2 tg) c128)
/-- The flat cell index `gj · 128 + gi` as the programs compute it, in 32-bit words. -/
def idxA (tg : Targets) : IVec S16x64 32 :=
  addi (muli (gjA tg) (broadcastInDim S16x64 ![] bcast_S_S16x64 (constantI S_ 32 128#32))) (giA tg)

/-- The domain of the claim: every label is one of the 80 classes and every box's cell is a cell of the 128 × 128 grid. -/
structure InRange (tg : Targets) : Prop where
  cls_lo : ∀ i, 0 ≤ (clsA tg i).toInt
  cls_hi : ∀ i, (clsA tg i).toInt < 80
  gi_lo : ∀ i, 0 ≤ (giA tg i).toInt
  gi_hi : ∀ i, (giA tg i).toInt < 128
  gj_lo : ∀ i, 0 ≤ (gjA tg i).toInt
  gj_hi : ∀ i, (gjA tg i).toInt < 128

/-- Every entry is a real number. -/
def Finite {s : Shape} (x : s.Idx → EReal) : Prop := ∀ i, x i ≠ ⊤ ∧ x i ≠ ⊥

theorem Finite.coe_toReal {s : Shape} {x : s.Idx → EReal} (h : Finite x) (i : s.Idx) : ((x i).toReal : EReal) = x i :=
  EReal.coe_toReal (h i).1 (h i).2

/-- Label, grid column and grid row of box `(b, n)` as natural numbers. -/
def clsN (tg : Targets) (b : Fin 16) (n : Fin 64) : ℕ := (clsA tg (ix2 b n)).toInt.toNat
def giN (tg : Targets) (b : Fin 16) (n : Fin 64) : ℕ := (giA tg (ix2 b n)).toInt.toNat
def gjN (tg : Targets) (b : Fin 16) (n : Fin 64) : ℕ := (gjA tg (ix2 b n)).toInt.toNat

/-- The flat cell `gj · 128 + gi` of box `(b, n)` among the `128 · 128` cells. -/
def cellIdx (tg : Targets) (b : Fin 16) (n : Fin 64) : Fin 16384 :=
  ⟨(gjN tg b n * 128 + giN tg b n) % 16384, Nat.mod_lt _ (by norm_num)⟩
/-- The (cell, label) pair of box `(b, n)`. -/
def pairIdx (tg : Targets) (b : Fin 16) (n : Fin 64) : Fin 16384 × Fin 80 :=
  (cellIdx tg b n, ⟨clsN tg b n % 80, Nat.mod_lt _ (by norm_num)⟩)

/-- `preds` at batch `b`, channel `c`, row `h`, column `w` (coordinates as naturals, reduced into range), as an extended real. -/
def PE (P : Preds) (b : Fin 16) (c h w : ℕ) : EReal :=
  P (ix4 b ⟨c % 85, Nat.mod_lt _ (by norm_num)⟩ ⟨h % 128, Nat.mod_lt _ (by norm_num)⟩ ⟨w % 128, Nat.mod_lt _ (by norm_num)⟩)
/-- The same as a real number (its value on finite inputs). -/
def PR (P : Preds) (b : Fin 16) (c h w : ℕ) : ℝ := (PE P b c h w).toReal

/-- Channel `ch` of `preds` gathered at each box's cell. -/
def gatA (P : Preds) (tg : Targets) (ch : Fin 16 → Fin 64 → ℕ) : PerBox :=
  fun i => PE P (i 0) (ch (i 0) (i 1)) (gjN tg (i 0) (i 1)) (giN tg (i 0) (i 1))

/-! ## The objectness and class terms, over the reals -/

/-- `softplus x = max x 0 + log (1 + exp (−|x|))`. -/
def spR (x : ℝ) : ℝ := max x 0 + Real.log (1 + Real.exp (-|x|))

/-- The sum of `softplus` over channel 4, all batches and cells. -/
def S1obj (P : Preds) : ℝ := ∑ b : Fin 16, ∑ h : Fin 128, ∑ w : Fin 128, spR (PR P b 4 h w)
/-- The sum of `softplus` over the 80 class channels, all batches and cells. -/
def S1cls (P : Preds) : ℝ := ∑ b : Fin 16, ∑ c : Fin 80, ∑ h : Fin 128, ∑ w : Fin 128, spR (PR P b (5 + c) h w)
/-- Channel 4 at the cells the boxes name, each cell of a batch once (at the first box that names it). -/
def S2obj (P : Preds) (tg : Targets) : ℝ :=
  ∑ b : Fin 16, ∑ n : Fin 64, (if FirstOcc.IsFirst (cellIdx tg b) n then (1 : ℝ) else 0) * PR P b 4 (gjN tg b n) (giN tg b n)
/-- The labelled class channel at the cells the boxes name, each (cell, label) pair of a batch once. -/
def S2cls (P : Preds) (tg : Targets) : ℝ :=
  ∑ b : Fin 16, ∑ n : Fin 64, (if FirstOcc.IsFirst (pairIdx tg b) n then (1 : ℝ) else 0) * PR P b (5 + clsN tg b n) (gjN tg b n) (giN tg b n)
def objR (P : Preds) (tg : Targets) : ℝ := (S1obj P - S2obj P tg) / 16384
def clsR (P : Preds) (tg : Targets) : ℝ := (S1cls P - S2cls P tg) / 1310720

/-- What the kernel's region leaves in its result `f32[1, 2]`: the two `softplus` sums. -/
def IsSums (P : Preds) (o : FVec Ideal S1x2 .f32) : Prop :=
  o (ix2 0 0) = ((S1obj P : ℝ) : EReal) ∧ o (ix2 0 1) = ((S1cls P : ℝ) : EReal)

/-! ## The box term and the weighted sum: the host chains both programs share -/

section Chains
variable {F : FTy → Type} [FloatOps F]

/-- Operations 101–118 of the box chain. -/
def boxFn_part5 (b_v256 : (⟨S16x64x4, .f32⟩ : BufTy).Contents (Elt F)) (b_v281 : (⟨S16x64, .f32⟩ : BufTy).Contents (Elt F)) (b_v292 : (⟨S16x64, .f32⟩ : BufTy).Contents (Elt F)) (b_v294 : (⟨S16x64, .f32⟩ : BufTy).Contents (Elt F)) (b_v296 : (⟨S16x64, .f32⟩ : BufTy).Contents (Elt F)) : (⟨S_, .f32⟩ : BufTy).Contents (Elt F) :=
  let b_v297 : (⟨S16x64, .f32⟩ : BufTy).Contents (Elt F) := (subf : (⟨S16x64, .f32⟩ : BufTy).Contents (Elt F) → (⟨S16x64, .f32⟩ : BufTy).Contents (Elt F) → (⟨S16x64, .f32⟩ : BufTy).Contents (Elt F)) b_v294 b_v296
  let b_v298 : (⟨S16x64x1, .f32⟩ : BufTy).Contents (Elt F) := ((extractStridedSlice S16x64x1 ![0, 0, 3] · slices_S16x64x4_S16x64x1_0_0_3) : (⟨S16x64x4, .f32⟩ : BufTy).Contents (Elt F) → (⟨S16x64x1, .f32⟩ : BufTy).Contents (Elt F)) b_v256
  let b_v299 : (⟨S16x64, .f32⟩ : BufTy).Contents (Elt F) := shapeCast _ b_v298 shapeCasts_S16x64x1_S16x64
  let b_v300 : (⟨S16x64x1, .f32⟩ : BufTy).Contents (Elt F) := ((extractStridedSlice S16x64x1 ![0, 0, 1] · slices_S16x64x4_S16x64x1_0_0_1) : (⟨S16x64x4, .f32⟩ : BufTy).Contents (Elt F) → (⟨S16x64x1, .f32⟩ : BufTy).Contents (Elt F)) b_v256
  let b_v301 : (⟨S16x64, .f32⟩ : BufTy).Contents (Elt F) := shapeCast _ b_v300 shapeCasts_S16x64x1_S16x64
  let b_v302 : (⟨S16x64, .f32⟩ : BufTy).Contents (Elt F) := (subf : (⟨S16x64, .f32⟩ : BufTy).Contents (Elt F) → (⟨S16x64, .f32⟩ : BufTy).Contents (Elt F) → (⟨S16x64, .f32⟩ : BufTy).Contents (Elt F)) b_v299 b_v301
  let b_v303 : (⟨S16x64, .f32⟩ : BufTy).Contents (Elt F) := (mulf : (⟨S16x64, .f32⟩ : BufTy).Contents (Elt F) → (⟨S16x64, .f32⟩ : BufTy).Contents (Elt F) → (⟨S16x64, .f32⟩ : BufTy).Contents (Elt F)) b_v297 b_v302
  let b_v304 : (⟨S16x64, .f32⟩ : BufTy).Contents (Elt F) := (addf : (⟨S16x64, .f32⟩ : BufTy).Contents (Elt F) → (⟨S16x64, .f32⟩ : BufTy).Contents (Elt F) → (⟨S16x64, .f32⟩ : BufTy).Contents (Elt F)) b_v292 b_v303
  let b_v305 : (⟨S16x64, .f32⟩ : BufTy).Contents (Elt F) := (subf : (⟨S16x64, .f32⟩ : BufTy).Contents (Elt F) → (⟨S16x64, .f32⟩ : BufTy).Contents (Elt F) → (⟨S16x64, .f32⟩ : BufTy).Contents (Elt F)) b_v304 b_v281
  let b_cst_71 : (⟨S_, .f32⟩ : BufTy).Contents (Elt F) := constant S_ .f32 0x33D6BF95#32
  let b_v306 : (⟨S16x64, .f32⟩ : BufTy).Contents (Elt F) := (broadcastInDim S16x64 ![] bcast_S_S16x64 : (⟨S_, .f32⟩ : BufTy).Contents (Elt F) → (⟨S16x64, .f32⟩ : BufTy).Contents (Elt F)) b_cst_71
  let b_v307 : (⟨S16x64, .f32⟩ : BufTy).Contents (Elt F) := (addf : (⟨S16x64, .f32⟩ : BufTy).Contents (Elt F) → (⟨S16x64, .f32⟩ : BufTy).Contents (Elt F) → (⟨S16x64, .f32⟩ : BufTy).Contents (Elt F)) b_v305 b_v306
  let b_v308 : (⟨S16x64, .f32⟩ : BufTy).Contents (Elt F) := (Host.divf : (⟨S16x64, .f32⟩ : BufTy).Contents (Elt F) → (⟨S16x64, .f32⟩ : BufTy).Contents (Elt F) → (⟨S16x64, .f32⟩ : BufTy).Contents (Elt F)) b_v281 b_v307
  let b_cst_72 : (⟨S_, .f32⟩ : BufTy).Contents (Elt F) := constant S_ .f32 0x3F800000#32
  let b_v309 : (⟨S16x64, .f32⟩ : BufTy).Contents (Elt F) := (broadcastInDim S16x64 ![] bcast_S_S16x64 : (⟨S_, .f32⟩ : BufTy).Contents (Elt F) → (⟨S16x64, .f32⟩ : BufTy).Contents (Elt F)) b_cst_72
  let b_v310 : (⟨S16x64, .f32⟩ : BufTy).Contents (Elt F) := (subf : (⟨S16x64, .f32⟩ : BufTy).Contents (Elt F) → (⟨S16x64, .f32⟩ : BufTy).Contents (Elt F) → (⟨S16x64, .f32⟩ : BufTy).Contents (Elt F)) b_v309 b_v308
  let b_cst_73 : (⟨S_, .f32⟩ : BufTy).Contents (Elt F) := constant S_ .f32 0x00000000#32
  let b_v311 : (⟨S_, .f32⟩ : BufTy).Contents (Elt F) := ((fun x v => Host.reduceAdd x v reducesTo_S16x64_S_d0_1 h_S_) : (⟨S16x64, .f32⟩ : BufTy).Contents (Elt F) → (⟨S_, .f32⟩ : BufTy).Contents (Elt F) → (⟨S_, .f32⟩ : BufTy).Contents (Elt F)) b_v310 b_cst_73
  b_v311

/-- Operations 81–100 of the box chain. -/
def boxFn_part4 (b_v231 : (⟨S16x64x4, .f32⟩ : BufTy).Contents (Elt F)) (b_v256 : (⟨S16x64x4, .f32⟩ : BufTy).Contents (Elt F)) (b_v278 : (⟨S16x64, .f32⟩ : BufTy).Contents (Elt F)) (b_v279 : (⟨S16x64, .f32⟩ : BufTy).Contents (Elt F)) : (⟨S_, .f32⟩ : BufTy).Contents (Elt F) :=
  let b_c_70 : (⟨S_, .i32⟩ : BufTy).Contents (Elt F) := constantI S_ 32 0#32
  let b_call3_v0 : (⟨S_, .f32⟩ : BufTy).Contents (Elt F) := ((sitofp .f32)) b_c_70
  let b_call3_v1 : (⟨S16x64, .f32⟩ : BufTy).Contents (Elt F) := ((broadcastInDim S16x64 ![] bcast_S_S16x64)) b_call3_v0
  let b_v280 : (⟨S16x64, .f32⟩ : BufTy).Contents (Elt F) := (maximumf) b_call3_v1 b_v279
  let b_v281 : (⟨S16x64, .f32⟩ : BufTy).Contents (Elt F) := (mulf : (⟨S16x64, .f32⟩ : BufTy).Contents (Elt F) → (⟨S16x64, .f32⟩ : BufTy).Contents (Elt F) → (⟨S16x64, .f32⟩ : BufTy).Contents (Elt F)) b_v278 b_v280
  let b_v282 : (⟨S16x64x1, .f32⟩ : BufTy).Contents (Elt F) := ((extractStridedSlice S16x64x1 ![0, 0, 2] · slices_S16x64x4_S16x64x1_0_0_2) : (⟨S16x64x4, .f32⟩ : BufTy).Contents (Elt F) → (⟨S16x64x1, .f32⟩ : BufTy).Contents (Elt F)) b_v231
  let b_v283 : (⟨S16x64, .f32⟩ : BufTy).Contents (Elt F) := shapeCast _ b_v282 shapeCasts_S16x64x1_S16x64
  let b_v284 : (⟨S16x64x1, .f32⟩ : BufTy).Contents (Elt F) := ((extractStridedSlice S16x64x1 ![0, 0, 0] · slices_S16x64x4_S16x64x1_0_0_0) : (⟨S16x64x4, .f32⟩ : BufTy).Contents (Elt F) → (⟨S16x64x1, .f32⟩ : BufTy).Contents (Elt F)) b_v231
  let b_v285 : (⟨S16x64, .f32⟩ : BufTy).Contents (Elt F) := shapeCast _ b_v284 shapeCasts_S16x64x1_S16x64
  let b_v286 : (⟨S16x64, .f32⟩ : BufTy).Contents (Elt F) := (subf : (⟨S16x64, .f32⟩ : BufTy).Contents (Elt F) → (⟨S16x64, .f32⟩ : BufTy).Contents (Elt F) → (⟨S16x64, .f32⟩ : BufTy).Contents (Elt F)) b_v283 b_v285
  let b_v287 : (⟨S16x64x1, .f32⟩ : BufTy).Contents (Elt F) := ((extractStridedSlice S16x64x1 ![0, 0, 3] · slices_S16x64x4_S16x64x1_0_0_3) : (⟨S16x64x4, .f32⟩ : BufTy).Contents (Elt F) → (⟨S16x64x1, .f32⟩ : BufTy).Contents (Elt F)) b_v231
  let b_v288 : (⟨S16x64, .f32⟩ : BufTy).Contents (Elt F) := shapeCast _ b_v287 shapeCasts_S16x64x1_S16x64
  let b_v289 : (⟨S16x64x1, .f32⟩ : BufTy).Contents (Elt F) := ((extractStridedSlice S16x64x1 ![0, 0, 1] · slices_S16x64x4_S16x64x1_0_0_1) : (⟨S16x64x4, .f32⟩ : BufTy).Contents (Elt F) → (⟨S16x64x1, .f32⟩ : BufTy).Contents (Elt F)) b_v231
  let b_v290 : (⟨S16x64, .f32⟩ : BufTy).Contents (Elt F) := shapeCast _ b_v289 shapeCasts_S16x64x1_S16x64
  let b_v291 : (⟨S16x64, .f32⟩ : BufTy).Contents (Elt F) := (subf : (⟨S16x64, .f32⟩ : BufTy).Contents (Elt F) → (⟨S16x64, .f32⟩ : BufTy).Contents (Elt F) → (⟨S16x64, .f32⟩ : BufTy).Contents (Elt F)) b_v288 b_v290
  let b_v292 : (⟨S16x64, .f32⟩ : BufTy).Contents (Elt F) := (mulf : (⟨S16x64, .f32⟩ : BufTy).Contents (Elt F) → (⟨S16x64, .f32⟩ : BufTy).Contents (Elt F) → (⟨S16x64, .f32⟩ : BufTy).Contents (Elt F)) b_v286 b_v291
  let b_v293 : (⟨S16x64x1, .f32⟩ : BufTy).Contents (Elt F) := ((extractStridedSlice S16x64x1 ![0, 0, 2] · slices_S16x64x4_S16x64x1_0_0_2) : (⟨S16x64x4, .f32⟩ : BufTy).Contents (Elt F) → (⟨S16x64x1, .f32⟩ : BufTy).Contents (Elt F)) b_v256
  let b_v294 : (⟨S16x64, .f32⟩ : BufTy).Contents (Elt F) := shapeCast _ b_v293 shapeCasts_S16x64x1_S16x64
  let b_v295 : (⟨S16x64x1, .f32⟩ : BufTy).Contents (Elt F) := ((extractStridedSlice S16x64x1 ![0, 0, 0] · slices_S16x64x4_S16x64x1_0_0_0) : (⟨S16x64x4, .f32⟩ : BufTy).Contents (Elt F) → (⟨S16x64x1, .f32⟩ : BufTy).Contents (Elt F)) b_v256
  let b_v296 : (⟨S16x64, .f32⟩ : BufTy).Contents (Elt F) := shapeCast _ b_v295 shapeCasts_S16x64x1_S16x64
  boxFn_part5 (F := F) b_v256 b_v281 b_v292 b_v294 b_v296

/-- Operations 61–80 of the box chain. -/
def boxFn_part3 (b_v231 : (⟨S16x64x4, .f32⟩ : BufTy).Contents (Elt F)) (b_v256 : (⟨S16x64x4, .f32⟩ : BufTy).Contents (Elt F)) (b_v261 : (⟨S16x64, .f32⟩ : BufTy).Contents (Elt F)) (b_v262 : (⟨S16x64x1, .f32⟩ : BufTy).Contents (Elt F)) : (⟨S_, .f32⟩ : BufTy).Contents (Elt F) :=
  let b_v263 : (⟨S16x64, .f32⟩ : BufTy).Contents (Elt F) := shapeCast _ b_v262 shapeCasts_S16x64x1_S16x64
  let b_v264 : (⟨S16x64x1, .f32⟩ : BufTy).Contents (Elt F) := ((extractStridedSlice S16x64x1 ![0, 0, 1] · slices_S16x64x4_S16x64x1_0_0_1) : (⟨S16x64x4, .f32⟩ : BufTy).Contents (Elt F) → (⟨S16x64x1, .f32⟩ : BufTy).Contents (Elt F)) b_v256
  let b_v265 : (⟨S16x64, .f32⟩ : BufTy).Contents (Elt F) := shapeCast _ b_v264 shapeCasts_S16x64x1_S16x64
  let b_v266 : (⟨S16x64, .f32⟩ : BufTy).Contents (Elt F) := (maximumf : (⟨S16x64, .f32⟩ : BufTy).Contents (Elt F) → (⟨S16x64, .f32⟩ : BufTy).Contents (Elt F) → (⟨S16x64, .f32⟩ : BufTy).Contents (Elt F)) b_v263 b_v265
  let b_v267 : (⟨S16x64x1, .f32⟩ : BufTy).Contents (Elt F) := ((extractStridedSlice S16x64x1 ![0, 0, 2] · slices_S16x64x4_S16x64x1_0_0_2) : (⟨S16x64x4, .f32⟩ : BufTy).Contents (Elt F) → (⟨S16x64x1, .f32⟩ : BufTy).Contents (Elt F)) b_v231
  let b_v268 : (⟨S16x64, .f32⟩ : BufTy).Contents (Elt F) := shapeCast _ b_v267 shapeCasts_S16x64x1_S16x64
  let b_v269 : (⟨S16x64x1, .f32⟩ : BufTy).Contents (Elt F) := ((extractStridedSlice S16x64x1 ![0, 0, 2] · slices_S16x64x4_S16x64x1_0_0_2) : (⟨S16x64x4, .f32⟩ : BufTy).Contents (Elt F) → (⟨S16x64x1, .f32⟩ : BufTy).Contents (Elt F)) b_v256
  let b_v270 : (⟨S16x64, .f32⟩ : BufTy).Contents (Elt F) := shapeCast _ b_v269 shapeCasts_S16x64x1_S16x64
  let b_v271 : (⟨S16x64, .f32⟩ : BufTy).Contents (Elt F) := (minimumf : (⟨S16x64, .f32⟩ : BufTy).Contents (Elt F) → (⟨S16x64, .f32⟩ : BufTy).Contents (Elt F) → (⟨S16x64, .f32⟩ : BufTy).Contents (Elt F)) b_v268 b_v270
  let b_v272 : (⟨S16x64x1, .f32⟩ : BufTy).Contents (Elt F) := ((extractStridedSlice S16x64x1 ![0, 0, 3] · slices_S16x64x4_S16x64x1_0_0_3) : (⟨S16x64x4, .f32⟩ : BufTy).Contents (Elt F) → (⟨S16x64x1, .f32⟩ : BufTy).Contents (Elt F)) b_v231
  let b_v273 : (⟨S16x64, .f32⟩ : BufTy).Contents (Elt F) := shapeCast _ b_v272 shapeCasts_S16x64x1_S16x64
  let b_v274 : (⟨S16x64x1, .f32⟩ : BufTy).Contents (Elt F) := ((extractStridedSlice S16x64x1 ![0, 0, 3] · slices_S16x64x4_S16x64x1_0_0_3) : (⟨S16x64x4, .f32⟩ : BufTy).Contents (Elt F) → (⟨S16x64x1, .f32⟩ : BufTy).Contents (Elt F)) b_v256
  let b_v275 : (⟨S16x64, .f32⟩ : BufTy).Contents (Elt F) := shapeCast _ b_v274 shapeCasts_S16x64x1_S16x64
  let b_v276 : (⟨S16x64, .f32⟩ : BufTy).Contents (Elt F) := (minimumf : (⟨S16x64, .f32⟩ : BufTy).Contents (Elt F) → (⟨S16x64, .f32⟩ : BufTy).Contents (Elt F) → (⟨S16x64, .f32⟩ : BufTy).Contents (Elt F)) b_v273 b_v275
  let b_v277 : (⟨S16x64, .f32⟩ : BufTy).Contents (Elt F) := (subf : (⟨S16x64, .f32⟩ : BufTy).Contents (Elt F) → (⟨S16x64, .f32⟩ : BufTy).Contents (Elt F) → (⟨S16x64, .f32⟩ : BufTy).Contents (Elt F)) b_v271 b_v261
  let b_c_69 : (⟨S_, .i32⟩ : BufTy).Contents (Elt F) := constantI S_ 32 0#32
  let b_call2_v0 : (⟨S_, .f32⟩ : BufTy).Contents (Elt F) := ((sitofp .f32)) b_c_69
  let b_call2_v1 : (⟨S16x64, .f32⟩ : BufTy).Contents (Elt F) := ((broadcastInDim S16x64 ![] bcast_S_S16x64)) b_call2_v0
  let b_v278 : (⟨S16x64, .f32⟩ : BufTy).Contents (Elt F) := (maximumf) b_call2_v1 b_v277
  let b_v279 : (⟨S16x64, .f32⟩ : BufTy).Contents (Elt F) := (subf : (⟨S16x64, .f32⟩ : BufTy).Contents (Elt F) → (⟨S16x64, .f32⟩ : BufTy).Contents (Elt F) → (⟨S16x64, .f32⟩ : BufTy).Contents (Elt F)) b_v276 b_v266
  boxFn_part4 (F := F) b_v231 b_v256 b_v278 b_v279

/-- Operations 41–60 of the box chain. -/
def boxFn_part2 (cy : (⟨S16x64, .f32⟩ : BufTy).Contents (Elt F)) (h : (⟨S16x64, .f32⟩ : BufTy).Contents (Elt F)) (b_v231 : (⟨S16x64x4, .f32⟩ : BufTy).Contents (Elt F)) (b_v236 : (⟨S16x64, .f32⟩ : BufTy).Contents (Elt F)) (b_v241 : (⟨S16x64, .f32⟩ : BufTy).Contents (Elt F)) (b_v244 : (⟨S16x64, .f32⟩ : BufTy).Contents (Elt F)) (b_cst_66 : (⟨S_, .f32⟩ : BufTy).Contents (Elt F)) : (⟨S_, .f32⟩ : BufTy).Contents (Elt F) :=
  let b_v245 : (⟨S16x64, .f32⟩ : BufTy).Contents (Elt F) := (broadcastInDim S16x64 ![] bcast_S_S16x64 : (⟨S_, .f32⟩ : BufTy).Contents (Elt F) → (⟨S16x64, .f32⟩ : BufTy).Contents (Elt F)) b_cst_66
  let b_v246 : (⟨S16x64, .f32⟩ : BufTy).Contents (Elt F) := (mulf : (⟨S16x64, .f32⟩ : BufTy).Contents (Elt F) → (⟨S16x64, .f32⟩ : BufTy).Contents (Elt F) → (⟨S16x64, .f32⟩ : BufTy).Contents (Elt F)) b_v244 b_v245
  let b_cst_67 : (⟨S_, .f32⟩ : BufTy).Contents (Elt F) := constant S_ .f32 0x40000000#32
  let b_v247 : (⟨S16x64, .f32⟩ : BufTy).Contents (Elt F) := (broadcastInDim S16x64 ![] bcast_S_S16x64 : (⟨S_, .f32⟩ : BufTy).Contents (Elt F) → (⟨S16x64, .f32⟩ : BufTy).Contents (Elt F)) b_cst_67
  let b_v248 : (⟨S16x64, .f32⟩ : BufTy).Contents (Elt F) := (Host.divf : (⟨S16x64, .f32⟩ : BufTy).Contents (Elt F) → (⟨S16x64, .f32⟩ : BufTy).Contents (Elt F) → (⟨S16x64, .f32⟩ : BufTy).Contents (Elt F)) h b_v247
  let b_v249 : (⟨S16x64, .f32⟩ : BufTy).Contents (Elt F) := (addf : (⟨S16x64, .f32⟩ : BufTy).Contents (Elt F) → (⟨S16x64, .f32⟩ : BufTy).Contents (Elt F) → (⟨S16x64, .f32⟩ : BufTy).Contents (Elt F)) cy b_v248
  let b_cst_68 : (⟨S_, .f32⟩ : BufTy).Contents (Elt F) := constant S_ .f32 0x43000000#32
  let b_v250 : (⟨S16x64, .f32⟩ : BufTy).Contents (Elt F) := (broadcastInDim S16x64 ![] bcast_S_S16x64 : (⟨S_, .f32⟩ : BufTy).Contents (Elt F) → (⟨S16x64, .f32⟩ : BufTy).Contents (Elt F)) b_cst_68
  let b_v251 : (⟨S16x64, .f32⟩ : BufTy).Contents (Elt F) := (mulf : (⟨S16x64, .f32⟩ : BufTy).Contents (Elt F) → (⟨S16x64, .f32⟩ : BufTy).Contents (Elt F) → (⟨S16x64, .f32⟩ : BufTy).Contents (Elt F)) b_v249 b_v250
  let b_v252 : (⟨S16x64x1, .f32⟩ : BufTy).Contents (Elt F) := (broadcastInDim S16x64x1 ![0, 1] bcast_S16x64_S16x64x1_0_1 : (⟨S16x64, .f32⟩ : BufTy).Contents (Elt F) → (⟨S16x64x1, .f32⟩ : BufTy).Contents (Elt F)) b_v236
  let b_v253 : (⟨S16x64x1, .f32⟩ : BufTy).Contents (Elt F) := (broadcastInDim S16x64x1 ![0, 1] bcast_S16x64_S16x64x1_0_1 : (⟨S16x64, .f32⟩ : BufTy).Contents (Elt F) → (⟨S16x64x1, .f32⟩ : BufTy).Contents (Elt F)) b_v241
  let b_v254 : (⟨S16x64x1, .f32⟩ : BufTy).Contents (Elt F) := (broadcastInDim S16x64x1 ![0, 1] bcast_S16x64_S16x64x1_0_1 : (⟨S16x64, .f32⟩ : BufTy).Contents (Elt F) → (⟨S16x64x1, .f32⟩ : BufTy).Contents (Elt F)) b_v246
  let b_v255 : (⟨S16x64x1, .f32⟩ : BufTy).Contents (Elt F) := (broadcastInDim S16x64x1 ![0, 1] bcast_S16x64_S16x64x1_0_1 : (⟨S16x64, .f32⟩ : BufTy).Contents (Elt F) → (⟨S16x64x1, .f32⟩ : BufTy).Contents (Elt F)) b_v251
  let b_v256 : (⟨S16x64x4, .f32⟩ : BufTy).Contents (Elt F) := concatenate S16x64x4 2 [⟨S16x64x1, b_v252⟩, ⟨S16x64x1, b_v253⟩, ⟨S16x64x1, b_v254⟩, ⟨S16x64x1, b_v255⟩] concatenates_S16x64x1_S16x64x1_S16x64x1_S16x64x1_S16x64x4_d2
  let b_v257 : (⟨S16x64x1, .f32⟩ : BufTy).Contents (Elt F) := ((extractStridedSlice S16x64x1 ![0, 0, 0] · slices_S16x64x4_S16x64x1_0_0_0) : (⟨S16x64x4, .f32⟩ : BufTy).Contents (Elt F) → (⟨S16x64x1, .f32⟩ : BufTy).Contents (Elt F)) b_v231
  let b_v258 : (⟨S16x64, .f32⟩ : BufTy).Contents (Elt F) := shapeCast _ b_v257 shapeCasts_S16x64x1_S16x64
  let b_v259 : (⟨S16x64x1, .f32⟩ : BufTy).Contents (Elt F) := ((extractStridedSlice S16x64x1 ![0, 0, 0] · slices_S16x64x4_S16x64x1_0_0_0) : (⟨S16x64x4, .f32⟩ : BufTy).Contents (Elt F) → (⟨S16x64x1, .f32⟩ : BufTy).Contents (Elt F)) b_v256
  let b_v260 : (⟨S16x64, .f32⟩ : BufTy).Contents (Elt F) := shapeCast _ b_v259 shapeCasts_S16x64x1_S16x64
  let b_v261 : (⟨S16x64, .f32⟩ : BufTy).Contents (Elt F) := (maximumf : (⟨S16x64, .f32⟩ : BufTy).Contents (Elt F) → (⟨S16x64, .f32⟩ : BufTy).Contents (Elt F) → (⟨S16x64, .f32⟩ : BufTy).Contents (Elt F)) b_v258 b_v260
  let b_v262 : (⟨S16x64x1, .f32⟩ : BufTy).Contents (Elt F) := ((extractStridedSlice S16x64x1 ![0, 0, 1] · slices_S16x64x4_S16x64x1_0_0_1) : (⟨S16x64x4, .f32⟩ : BufTy).Contents (Elt F) → (⟨S16x64x1, .f32⟩ : BufTy).Contents (Elt F)) b_v231
  boxFn_part3 (F := F) b_v231 b_v256 b_v261 b_v262

/-- Operations 21–40 of the box chain. -/
def boxFn_part1 (cx : (⟨S16x64, .f32⟩ : BufTy).Contents (Elt F)) (cy : (⟨S16x64, .f32⟩ : BufTy).Contents (Elt F)) (w : (⟨S16x64, .f32⟩ : BufTy).Contents (Elt F)) (h : (⟨S16x64, .f32⟩ : BufTy).Contents (Elt F)) (b_v227 : (⟨S16x64x1, .f32⟩ : BufTy).Contents (Elt F)) (b_v228 : (⟨S16x64x1, .f32⟩ : BufTy).Contents (Elt F)) (b_v229 : (⟨S16x64x1, .f32⟩ : BufTy).Contents (Elt F)) (b_v230 : (⟨S16x64x1, .f32⟩ : BufTy).Contents (Elt F)) : (⟨S_, .f32⟩ : BufTy).Contents (Elt F) :=
  let b_v231 : (⟨S16x64x4, .f32⟩ : BufTy).Contents (Elt F) := concatenate S16x64x4 2 [⟨S16x64x1, b_v227⟩, ⟨S16x64x1, b_v228⟩, ⟨S16x64x1, b_v229⟩, ⟨S16x64x1, b_v230⟩] concatenates_S16x64x1_S16x64x1_S16x64x1_S16x64x1_S16x64x4_d2
  let b_cst_61 : (⟨S_, .f32⟩ : BufTy).Contents (Elt F) := constant S_ .f32 0x40000000#32
  let b_v232 : (⟨S16x64, .f32⟩ : BufTy).Contents (Elt F) := (broadcastInDim S16x64 ![] bcast_S_S16x64 : (⟨S_, .f32⟩ : BufTy).Contents (Elt F) → (⟨S16x64, .f32⟩ : BufTy).Contents (Elt F)) b_cst_61
  let b_v233 : (⟨S16x64, .f32⟩ : BufTy).Contents (Elt F) := (Host.divf : (⟨S16x64, .f32⟩ : BufTy).Contents (Elt F) → (⟨S16x64, .f32⟩ : BufTy).Contents (Elt F) → (⟨S16x64, .f32⟩ : BufTy).Contents (Elt F)) w b_v232
  let b_v234 : (⟨S16x64, .f32⟩ : BufTy).Contents (Elt F) := (subf : (⟨S16x64, .f32⟩ : BufTy).Contents (Elt F) → (⟨S16x64, .f32⟩ : BufTy).Contents (Elt F) → (⟨S16x64, .f32⟩ : BufTy).Contents (Elt F)) cx b_v233
  let b_cst_62 : (⟨S_, .f32⟩ : BufTy).Contents (Elt F) := constant S_ .f32 0x43000000#32
  let b_v235 : (⟨S16x64, .f32⟩ : BufTy).Contents (Elt F) := (broadcastInDim S16x64 ![] bcast_S_S16x64 : (⟨S_, .f32⟩ : BufTy).Contents (Elt F) → (⟨S16x64, .f32⟩ : BufTy).Contents (Elt F)) b_cst_62
  let b_v236 : (⟨S16x64, .f32⟩ : BufTy).Contents (Elt F) := (mulf : (⟨S16x64, .f32⟩ : BufTy).Contents (Elt F) → (⟨S16x64, .f32⟩ : BufTy).Contents (Elt F) → (⟨S16x64, .f32⟩ : BufTy).Contents (Elt F)) b_v234 b_v235
  let b_cst_63 : (⟨S_, .f32⟩ : BufTy).Contents (Elt F) := constant S_ .f32 0x40000000#32
  let b_v237 : (⟨S16x64, .f32⟩ : BufTy).Contents (Elt F) := (broadcastInDim S16x64 ![] bcast_S_S16x64 : (⟨S_, .f32⟩ : BufTy).Contents (Elt F) → (⟨S16x64, .f32⟩ : BufTy).Contents (Elt F)) b_cst_63
  let b_v238 : (⟨S16x64, .f32⟩ : BufTy).Contents (Elt F) := (Host.divf : (⟨S16x64, .f32⟩ : BufTy).Contents (Elt F) → (⟨S16x64, .f32⟩ : BufTy).Contents (Elt F) → (⟨S16x64, .f32⟩ : BufTy).Contents (Elt F)) h b_v237
  let b_v239 : (⟨S16x64, .f32⟩ : BufTy).Contents (Elt F) := (subf : (⟨S16x64, .f32⟩ : BufTy).Contents (Elt F) → (⟨S16x64, .f32⟩ : BufTy).Contents (Elt F) → (⟨S16x64, .f32⟩ : BufTy).Contents (Elt F)) cy b_v238
  let b_cst_64 : (⟨S_, .f32⟩ : BufTy).Contents (Elt F) := constant S_ .f32 0x43000000#32
  let b_v240 : (⟨S16x64, .f32⟩ : BufTy).Contents (Elt F) := (broadcastInDim S16x64 ![] bcast_S_S16x64 : (⟨S_, .f32⟩ : BufTy).Contents (Elt F) → (⟨S16x64, .f32⟩ : BufTy).Contents (Elt F)) b_cst_64
  let b_v241 : (⟨S16x64, .f32⟩ : BufTy).Contents (Elt F) := (mulf : (⟨S16x64, .f32⟩ : BufTy).Contents (Elt F) → (⟨S16x64, .f32⟩ : BufTy).Contents (Elt F) → (⟨S16x64, .f32⟩ : BufTy).Contents (Elt F)) b_v239 b_v240
  let b_cst_65 : (⟨S_, .f32⟩ : BufTy).Contents (Elt F) := constant S_ .f32 0x40000000#32
  let b_v242 : (⟨S16x64, .f32⟩ : BufTy).Contents (Elt F) := (broadcastInDim S16x64 ![] bcast_S_S16x64 : (⟨S_, .f32⟩ : BufTy).Contents (Elt F) → (⟨S16x64, .f32⟩ : BufTy).Contents (Elt F)) b_cst_65
  let b_v243 : (⟨S16x64, .f32⟩ : BufTy).Contents (Elt F) := (Host.divf : (⟨S16x64, .f32⟩ : BufTy).Contents (Elt F) → (⟨S16x64, .f32⟩ : BufTy).Contents (Elt F) → (⟨S16x64, .f32⟩ : BufTy).Contents (Elt F)) w b_v242
  let b_v244 : (⟨S16x64, .f32⟩ : BufTy).Contents (Elt F) := (addf : (⟨S16x64, .f32⟩ : BufTy).Contents (Elt F) → (⟨S16x64, .f32⟩ : BufTy).Contents (Elt F) → (⟨S16x64, .f32⟩ : BufTy).Contents (Elt F)) cx b_v243
  let b_cst_66 : (⟨S_, .f32⟩ : BufTy).Contents (Elt F) := constant S_ .f32 0x43000000#32
  boxFn_part2 (F := F) cy h b_v231 b_v236 b_v241 b_v244 b_cst_66

/-- The sum over the boxes of `1 − IoU` of the predicted box `(px ∓ pw/2, py ∓ ph/2)` against the target box
    `((cx ∓ w/2)·128, (cy ∓ h/2)·128)`, with the intersection's sides clipped at zero and `10⁻⁷` added to the union:
    the programs' operations, in their order (cut into parts of 20, each ending in the call of the next). -/
def boxFn (px : (⟨S16x64, .f32⟩ : BufTy).Contents (Elt F)) (py : (⟨S16x64, .f32⟩ : BufTy).Contents (Elt F)) (pw : (⟨S16x64, .f32⟩ : BufTy).Contents (Elt F)) (ph : (⟨S16x64, .f32⟩ : BufTy).Contents (Elt F)) (cx : (⟨S16x64, .f32⟩ : BufTy).Contents (Elt F)) (cy : (⟨S16x64, .f32⟩ : BufTy).Contents (Elt F)) (w : (⟨S16x64, .f32⟩ : BufTy).Contents (Elt F)) (h : (⟨S16x64, .f32⟩ : BufTy).Contents (Elt F)) : (⟨S_, .f32⟩ : BufTy).Contents (Elt F) :=
  let b_cst_57 : (⟨S_, .f32⟩ : BufTy).Contents (Elt F) := constant S_ .f32 0x40000000#32
  let b_v215 : (⟨S16x64, .f32⟩ : BufTy).Contents (Elt F) := (broadcastInDim S16x64 ![] bcast_S_S16x64 : (⟨S_, .f32⟩ : BufTy).Contents (Elt F) → (⟨S16x64, .f32⟩ : BufTy).Contents (Elt F)) b_cst_57
  let b_v216 : (⟨S16x64, .f32⟩ : BufTy).Contents (Elt F) := (Host.divf : (⟨S16x64, .f32⟩ : BufTy).Contents (Elt F) → (⟨S16x64, .f32⟩ : BufTy).Contents (Elt F) → (⟨S16x64, .f32⟩ : BufTy).Contents (Elt F)) pw b_v215
  let b_v217 : (⟨S16x64, .f32⟩ : BufTy).Contents (Elt F) := (subf : (⟨S16x64, .f32⟩ : BufTy).Contents (Elt F) → (⟨S16x64, .f32⟩ : BufTy).Contents (Elt F) → (⟨S16x64, .f32⟩ : BufTy).Contents (Elt F)) px b_v216
  let b_cst_58 : (⟨S_, .f32⟩ : BufTy).Contents (Elt F) := constant S_ .f32 0x40000000#32
  let b_v218 : (⟨S16x64, .f32⟩ : BufTy).Contents (Elt F) := (broadcastInDim S16x64 ![] bcast_S_S16x64 : (⟨S_, .f32⟩ : BufTy).Contents (Elt F) → (⟨S16x64, .f32⟩ : BufTy).Contents (Elt F)) b_cst_58
  let b_v219 : (⟨S16x64, .f32⟩ : BufTy).Contents (Elt F) := (Host.divf : (⟨S16x64, .f32⟩ : BufTy).Contents (Elt F) → (⟨S16x64, .f32⟩ : BufTy).Contents (Elt F) → (⟨S16x64, .f32⟩ : BufTy).Contents (Elt F)) ph b_v218
  let b_v220 : (⟨S16x64, .f32⟩ : BufTy).Contents (Elt F) := (subf : (⟨S16x64, .f32⟩ : BufTy).Contents (Elt F) → (⟨S16x64, .f32⟩ : BufTy).Contents (Elt F) → (⟨S16x64, .f32⟩ : BufTy).Contents (Elt F)) py b_v219
  let b_cst_59 : (⟨S_, .f32⟩ : BufTy).Contents (Elt F) := constant S_ .f32 0x40000000#32
  let b_v221 : (⟨S16x64, .f32⟩ : BufTy).Contents (Elt F) := (broadcastInDim S16x64 ![] bcast_S_S16x64 : (⟨S_, .f32⟩ : BufTy).Contents (Elt F) → (⟨S16x64, .f32⟩ : BufTy).Contents (Elt F)) b_cst_59
  let b_v222 : (⟨S16x64, .f32⟩ : BufTy).Contents (Elt F) := (Host.divf : (⟨S16x64, .f32⟩ : BufTy).Contents (Elt F) → (⟨S16x64, .f32⟩ : BufTy).Contents (Elt F) → (⟨S16x64, .f32⟩ : BufTy).Contents (Elt F)) pw b_v221
  let b_v223 : (⟨S16x64, .f32⟩ : BufTy).Contents (Elt F) := (addf : (⟨S16x64, .f32⟩ : BufTy).Contents (Elt F) → (⟨S16x64, .f32⟩ : BufTy).Contents (Elt F) → (⟨S16x64, .f32⟩ : BufTy).Contents (Elt F)) px b_v222
  let b_cst_60 : (⟨S_, .f32⟩ : BufTy).Contents (Elt F) := constant S_ .f32 0x40000000#32
  let b_v224 : (⟨S16x64, .f32⟩ : BufTy).Contents (Elt F) := (broadcastInDim S16x64 ![] bcast_S_S16x64 : (⟨S_, .f32⟩ : BufTy).Contents (Elt F) → (⟨S16x64, .f32⟩ : BufTy).Contents (Elt F)) b_cst_60
  let b_v225 : (⟨S16x64, .f32⟩ : BufTy).Contents (Elt F) := (Host.divf : (⟨S16x64, .f32⟩ : BufTy).Contents (Elt F) → (⟨S16x64, .f32⟩ : BufTy).Contents (Elt F) → (⟨S16x64, .f32⟩ : BufTy).Contents (Elt F)) ph b_v224
  let b_v226 : (⟨S16x64, .f32⟩ : BufTy).Contents (Elt F) := (addf : (⟨S16x64, .f32⟩ : BufTy).Contents (Elt F) → (⟨S16x64, .f32⟩ : BufTy).Contents (Elt F) → (⟨S16x64, .f32⟩ : BufTy).Contents (Elt F)) py b_v225
  let b_v227 : (⟨S16x64x1, .f32⟩ : BufTy).Contents (Elt F) := (broadcastInDim S16x64x1 ![0, 1] bcast_S16x64_S16x64x1_0_1 : (⟨S16x64, .f32⟩ : BufTy).Contents (Elt F) → (⟨S16x64x1, .f32⟩ : BufTy).Contents (Elt F)) b_v217
  let b_v228 : (⟨S16x64x1, .f32⟩ : BufTy).Contents (Elt F) := (broadcastInDim S16x64x1 ![0, 1] bcast_S16x64_S16x64x1_0_1 : (⟨S16x64, .f32⟩ : BufTy).Contents (Elt F) → (⟨S16x64x1, .f32⟩ : BufTy).Contents (Elt F)) b_v220
  let b_v229 : (⟨S16x64x1, .f32⟩ : BufTy).Contents (Elt F) := (broadcastInDim S16x64x1 ![0, 1] bcast_S16x64_S16x64x1_0_1 : (⟨S16x64, .f32⟩ : BufTy).Contents (Elt F) → (⟨S16x64x1, .f32⟩ : BufTy).Contents (Elt F)) b_v223
  let b_v230 : (⟨S16x64x1, .f32⟩ : BufTy).Contents (Elt F) := (broadcastInDim S16x64x1 ![0, 1] bcast_S16x64_S16x64x1_0_1 : (⟨S16x64, .f32⟩ : BufTy).Contents (Elt F) → (⟨S16x64x1, .f32⟩ : BufTy).Contents (Elt F)) b_v226
  boxFn_part1 (F := F) cx cy w h b_v227 b_v228 b_v229 b_v230

/-- `0.05 · box + 1 · obj + 0.5 · cls`, in the programs' operations and order. -/
def combine (box obj cls : (⟨S_, .f32⟩ : BufTy).Contents (Elt F)) : (⟨S_, .f32⟩ : BufTy).Contents (Elt F) :=
  addf (addf (mulf (constant S_ .f32 0x3D4CCCCD#32) box) (mulf (constant S_ .f32 0x3F800000#32) obj)) (mulf (constant S_ .f32 0x3F000000#32) cls)

end Chains

/-- The box term of `preds` and `targets`. -/
def BOX (P : Preds) (tg : Targets) : Scalar0 :=
  boxFn (F := Ideal) (gatA P tg fun _ _ => 0) (gatA P tg fun _ _ => 1) (gatA P tg fun _ _ => 2) (gatA P tg fun _ _ => 3) (col1 tg) (col2 tg) (col3 tg) (col4 tg)

/-- THE RESULT both programs end with, on finite inputs in the domain. -/
def G (P : Preds) (tg : Targets) : Scalar0 :=
  combine (F := Ideal) (BOX P tg) (fun _ => ((objR P tg : ℝ) : EReal)) (fun _ => ((clsR P tg : ℝ) : EReal))

end Cert.Spec

end
-- ==== Proof.PreFacts.lean ====
import proofs.«175006_j89550068121905_1_alg».proof.Proof.Spec
import proofs.«175006_j89550068121905_1_alg».proof.Proof.Gen.Pre_finite_inputs
import Idealize.ShloMosaic.Lib.ReduceAll
import Idealize.ShloMosaic.Lib.StableHlo.Predicate
import Idealize.ShloMosaic.Lib.ValueIdx

/-!
# What the precondition says of the inputs

The precondition is the conjunction of eight `all`s: `|preds| < +∞` and `|targets| < +∞` at every
entry, and, for the three integer arrays of the boxes (label, grid column, grid row — computed by the
very operations `clsA`, `giA`, `gjA` name), `0 ≤ label < 80`, `0 ≤ column < 128`, `0 ≤ row < 128` at
every box. An `all` that came out true had a true element at every index; an extended real whose
absolute value lies below `+∞` is neither `+∞` nor `−∞`; a signed comparison of words that came out
true is the comparison of their signed values. So the precondition gives: every entry of `preds` and
of `targets` is a real number, and `targets` is in the domain of the claim.
-/

namespace Cert.Spec

open Idealize.ShloMosaic Idealize.ShloMosaic.ValueIdx

/-- An extended real whose absolute value `max x (-x)` compares below `+∞` is a real number. -/
theorem ne_top_bot_of_abs_lt (x : EReal)
    (h : Ideal.cmp .olt (max x (-x)) (Ideal.ofBits .f32 0x7F800000#32) = 1#1) : x ≠ ⊤ ∧ x ≠ ⊥ := by
  have hc : Ideal.ofBits .f32 0x7F800000#32 = (⊤ : EReal) := by simp [Ideal.ofBits, Ideal.ieee]
  rw [hc] at h
  induction x using EReal.rec with
  | bot => simp [Ideal.cmp] at h
  | top => simp [Ideal.cmp] at h
  | coe r => exact ⟨EReal.coe_ne_top r, EReal.coe_ne_bot r⟩

/-- The scalar shape has one index. -/
local instance : Subsingleton (Cert.Pre_finite_inputs.S_).Idx := ⟨fun a b => funext fun d => d.elim0⟩

/-- The precondition read back: both inputs are real at every entry and every box's label and cell
    are in range. -/
theorem pre_facts (P : Preds) (tg : Targets)
    (h : Cert.Pre_finite_inputs.fn (F := Ideal) P tg = fun _ => 1#1) : Finite P ∧ Finite tg ∧ InRange tg := by
  have h0 := congrFun h ValueIdx.ix0
  dsimp only [Cert.Pre_finite_inputs.fn, Cert.Pre_finite_inputs.fn_part1, Cert.Pre_finite_inputs.fn_part2] at h0
  simp only [andi, IntOp.andi_eq_one] at h0
  obtain ⟨⟨⟨⟨⟨⟨⟨hP, hT⟩, hc0⟩, hc1⟩, hi0⟩, hi1⟩, hj0⟩, hj1⟩ := h0
  refine ⟨?_, ?_, ⟨?_, ?_, ?_, ?_, ?_, ?_⟩⟩
  · intro i
    have := Host.reduce_andi_all _ _ _ _ _ hP i
    exact ne_top_bot_of_abs_lt (P i) this
  · intro i
    have := Host.reduce_andi_all _ _ _ _ _ hT i
    exact ne_top_bot_of_abs_lt (tg i) this
  · intro i
    have e := Host.reduce_andi_all _ _ _ _ _ hc0 i
    have e' : IntOp.cmpi .sge (clsA tg i) (0#32) = 1#1 := e
    have e'' := IntOp.cmpi_sge.1 e'
    rwa [show (0#32 : BitVec 32).toInt = 0 from by decide] at e''
  · intro i
    have e := Host.reduce_andi_all _ _ _ _ _ hc1 i
    have e' : IntOp.cmpi .slt (clsA tg i) (80#32) = 1#1 := e
    have e'' := IntOp.cmpi_slt.1 e'
    rwa [show (80#32 : BitVec 32).toInt = 80 from by decide] at e''
  · intro i
    have e := Host.reduce_andi_all _ _ _ _ _ hi0 i
    have e' : IntOp.cmpi .sge (giA tg i) (0#32) = 1#1 := e
    have e'' := IntOp.cmpi_sge.1 e'
    rwa [show (0#32 : BitVec 32).toInt = 0 from by decide] at e''
  · intro i
    have e := Host.reduce_andi_all _ _ _ _ _ hi1 i
    have e' : IntOp.cmpi .slt (giA tg i) (128#32) = 1#1 := e
    have e'' := IntOp.cmpi_slt.1 e'
    rwa [show (128#32 : BitVec 32).toInt = 128 from by decide] at e''
  · intro i
    have e := Host.reduce_andi_all _ _ _ _ _ hj0 i
    have e' : IntOp.cmpi .sge (gjA tg i) (0#32) = 1#1 := e
    have e'' := IntOp.cmpi_sge.1 e'
    rwa [show (0#32 : BitVec 32).toInt = 0 from by decide] at e''
  · intro i
    have e := Host.reduce_andi_all _ _ _ _ _ hj1 i
    have e' : IntOp.cmpi .slt (gjA tg i) (128#32) = 1#1 := e
    have e'' := IntOp.cmpi_slt.1 e'
    rwa [show (128#32 : BitVec 32).toInt = 128 from by decide] at e''

end Cert.Spec
-- ==== Proof.KPayload.lean ====
/-
  The arithmetic of the kernel body at the ideal instance, on a block of real numbers.

  At every grid point the body loads a block `x : 1 × 85 × 128 × 128`, computes from it two payloads — the sum over the
  `128 × 128` cells of `softplus` of channel 4 (a `1 × 1` value), and for each of the 80 class channels `5 + c` the same
  sum (an `80 × 1 × 1` value) — and stores into its `1 × 2` accumulator the accumulator plus the pair
  (first payload, sum of the second payload over its 80 channels). `softplus` is computed as
  `select (x − 0 ≠ x − 0) (x + 0) (max x 0 + log1p (exp (0 − |x − 0|)))`; on extended reals the comparison is false, and at
  a real `r` the other branch is the real `max r 0 + log (1 + exp (−|r|))`.

  Proved here, for a block whose entries are all finite (`blkR x c h w` is the entry at channel `c`, row `h`, column `w`
  as a real number):
  * `pay2_eq`: the payload that resets the accumulator is zero everywhere;
  * `pay1_obj`: the stored payload's first entry is the accumulator's first entry plus `∑ h w, softplus (blkR x 4 h w)`;
  * `pay1_cls`: its second entry is the accumulator's second entry plus `∑ c h w, softplus (blkR x (5 + c) h w)`.
  The road: the scalar chain at a real (`spS_real`); the chain on a vector read at an index (`spV_real`); each payload
  as a composition of slices, reshapes and one-axis sums (`pay3_unfold`, `pay4_unfold`, `pay1_unfold`), read at its
  indices one operation at a time (a one-axis sum is the `Fin`-indexed sum over that axis; a reshape keeps the
  row-major position; the concatenation reads its first piece at column 0 and its second at column 1); a sum of reals
  read as extended reals is the real sum (`coe_sum`).
-/
import proofs.«175006_j89550068121905_1_alg».proof.Proof.Gen.KernelIdeal.Skeleton
import proofs.«175006_j89550068121905_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Pay

open Cert.KernelIdeal Cert.KernelIdeal.Gen Cert.Spec Idealize.ShloMosaic Idealize.ShloMosaic.ValueIdx

/-- The point's input block at channel `c`, row `h`, column `w` (coordinates as naturals, reduced into range), as a real. -/
def blkR (x : Vec Ideal S1x85x128x128 .f32) (c h w : ℕ) : ℝ :=
  (x (ix4 (0 : Fin 1) ⟨c % 85, Nat.mod_lt _ (by norm_num)⟩ ⟨h % 128, Nat.mod_lt _ (by norm_num)⟩ ⟨w % 128, Nat.mod_lt _ (by norm_num)⟩)).toReal

/-! ## Softplus on one extended real -/

/-- The body's softplus chain on one extended real `x`, `z` standing for the program's zero constant:
    `x - z ≠ x - z` selects between `x + z` and `max x z + log1p (exp (z - |x - z|))`. -/
def spS (z x : EReal) : EReal :=
  Scalar.select (Ideal.cmp .one (x - z) (x - z)) (x + z)
    (max x z + Ideal.log1p (Ideal.exp (z - max (x - z) (-(x - z)))))

/-- At a real number the chain is the real softplus: the comparison is false, `|r|` is `max r (-r)`,
    `exp (-|r|)` is a positive real, so `log1p` of it is the real logarithm of `1 + exp (-|r|)`. -/
theorem spS_real (r : ℝ) : spS 0 (r : EReal) = ((spR r : ℝ) : EReal) := by
  unfold spS
  have hc : Ideal.cmp .one ((r : EReal) - 0) ((r : EReal) - 0) = 0#1 := by
    simp [Ideal.cmp]
  rw [hc, select_zero, sub_zero]
  have habs : max (r : EReal) (-(r : EReal)) = ((|r| : ℝ) : EReal) := by
    rw [← EReal.coe_neg, ← EReal.coe_strictMono.monotone.map_max, ← abs_eq_max_neg]
  rw [habs, zero_sub, ← EReal.coe_neg, Ideal.exp_coe]
  unfold Ideal.log1p
  rw [show (1 : EReal) + ((Real.exp (-|r|) : ℝ) : EReal) = ((1 + Real.exp (-|r|) : ℝ) : EReal) by
    rw [EReal.coe_add, EReal.coe_one]]
  rw [Ideal.log_coe, if_neg (not_le.mpr (by positivity))]
  rw [show max (r : EReal) 0 = ((max r 0 : ℝ) : EReal) by
    rw [EReal.coe_strictMono.monotone.map_max, EReal.coe_zero]]
  rw [← EReal.coe_add]
  rfl

/-! ## Sums of reals inside the extended reals -/

/-- A finite sum of real numbers, each read as an extended real, is the real sum read as an extended real. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-! ## Softplus on a vector -/

/-- The program's zero constant at the ideal instance. -/
abbrev zc : Ideal .f32 := Scalar.ofBits (F := Ideal) .f32 0x00000000#32

/-- The body's softplus chain on a vector of any shape: `max(v, 0)`, `v - 0`, the comparison of `v - 0` with itself,
    `v + 0`, `|v - 0|`, `0 - |…|`, `exp`, `log1p`, the sum, the select. -/
def spV {s : Shape} (v : FVec Ideal s .f32) : FVec Ideal s .f32 :=
  select (cmpf .one (subf v (broadcast s zc)) (subf v (broadcast s zc))) (addf v (broadcast s zc))
    (addf (maximumf v (broadcast s zc)) (log1p (exp (subf (broadcast s zc) (absf (subf v (broadcast s zc)))))))

/-- Read at an index it is the scalar chain on that element. -/
theorem spV_apply {s : Shape} (v : FVec Ideal s .f32) (i : s.Idx) :
    spV v i = spS (Ideal.ofBits .f32 0x00000000#32) (v i) := rfl

/-- At an element that is a real number it is the real softplus. -/
theorem spV_real {s : Shape} (v : FVec Ideal s .f32) (i : s.Idx) (r : ℝ) (h : v i = (r : EReal)) :
    spV v i = ((spR r : ℝ) : EReal) := by
  rw [spV_apply, Ideal.ofBits_zero_f32, h]; exact spS_real r

/-! ## Channel 4: the objectness payload -/

/-- Channel 4 of the block as a `128 × 128` matrix: the slice at channel offset 4, its two unit axes dropped. -/
def chan4 (x : Vec Ideal S1x85x128x128 .f32) : FVec Ideal S128x128 .f32 :=
  shapeCast S128x128 (extractStridedSlice S1x1x128x128 ![0, 4, 0, 0] x slices_S1x85x128x128_o0_4_0_0_S1x1x128x128) shapeCasts_S1x1x128x128_S128x128

theorem chan4_apply (x : Vec Ideal S1x85x128x128 .f32) (h w : Fin 128) :
    chan4 x (ix2 h w) = x (ix4 (0 : Fin 1) (⟨4, by norm_num⟩ : Fin 85) h w) :=
  (shapeCast_apply _ _ (ix2 h w) (ix4 (0 : Fin 1) (0 : Fin 1) h w) (by
    rw [Shape.rowMajor_val_four, Shape.rowMajor_val_two]
    show ((0 * 1 + 0) * 128 + h.val) * 128 + w.val = h.val * 128 + w.val
    omega)).trans
  (slice4_axis1_apply 4 x _ (0 : Fin 1) (0 : Fin 1) h w ⟨4, by norm_num⟩ rfl)

/-- The first payload is: softplus of channel 4, summed along the lanes, the sums stood up as a column, summed along
    the rows, the one sum reshaped to `1 × 1`. -/
theorem pay3_unfold (x : Vec Ideal S1x85x128x128 .f32) :
    k0_pay3 (F := Ideal) x
      = shapeCast S1x1 (multiReduction (F := Ideal) .add [0] S1
          (shapeCast S128x1 (multiReduction (F := Ideal) .add [1] S128 (spV (chan4 x)) 0x00000000#32 reduces_S128x128_S128 (.inl rfl) rfl)
            shapeCasts_S128_S128x1)
          0x00000000#32 reduces_S128x1_S1 (.inl rfl) rfl) shapeCasts_S1_S1x1 := rfl

/-- Read at its one index: the double sum over rows and lanes of softplus of channel 4. -/
theorem pay3_apply (x : Vec Ideal S1x85x128x128 .f32) :
    k0_pay3 (F := Ideal) x (ix2 (0 : Fin 1) (0 : Fin 1)) = ∑ h : Fin 128, ∑ w : Fin 128, spV (chan4 x) (ix2 h w) := by
  rw [pay3_unfold]
  refine (shapeCast_a_1a_apply _ _ (0 : Fin 1) (0 : Fin 1)).trans ?_
  refine (Ideal.multiReduction_add_single _ _ _ _ _ _).trans ?_
  show (∑ h : Fin 128, _) = _
  refine Finset.sum_congr rfl fun h _ => ?_
  refine (shapeCast_apply _ _ _ (ix1 h) (by
    rw [Shape.rowMajor_val_one, Shape.rowMajor_val_two]
    show h.val = h.val * 1 + 0
    omega)).trans ?_
  refine (Ideal.multiReduction_add_single _ _ _ _ _ _).trans ?_
  show (∑ w : Fin 128, _) = _
  refine Finset.sum_congr rfl fun w _ => ?_
  refine congrArg (spV (chan4 x)) ?_
  funext a
  match a with
  | ⟨0, _⟩ => rfl
  | ⟨1, _⟩ => rfl

/-! ## The block on finite inputs -/

/-- On a finite block every entry is the real number `blkR` names. -/
theorem blk_real (x : Vec Ideal S1x85x128x128 .f32) (hx : Finite x) (c : Fin 85) (h w : Fin 128) :
    x (ix4 (0 : Fin 1) c h w) = ((blkR x c.val h.val w.val : ℝ) : EReal) := by
  have e : (ix4 (0 : Fin 1) (⟨c.val % 85, Nat.mod_lt _ (by norm_num)⟩ : Fin 85) (⟨h.val % 128, Nat.mod_lt _ (by norm_num)⟩ : Fin 128)
      (⟨w.val % 128, Nat.mod_lt _ (by norm_num)⟩ : Fin 128)) = ix4 (0 : Fin 1) c h w := by
    funext a
    match a with
    | ⟨0, _⟩ => rfl
    | ⟨1, _⟩ => exact Fin.ext (Nat.mod_eq_of_lt c.isLt)
    | ⟨2, _⟩ => exact Fin.ext (Nat.mod_eq_of_lt h.isLt)
    | ⟨3, _⟩ => exact Fin.ext (Nat.mod_eq_of_lt w.isLt)
  unfold blkR
  rw [e]
  exact (hx.coe_toReal _).symm

/-- The first payload on a finite block: the real sum of softplus over channel 4. -/
theorem pay3_real (x : Vec Ideal S1x85x128x128 .f32) (hx : Finite x) :
    k0_pay3 (F := Ideal) x (ix2 (0 : Fin 1) (0 : Fin 1))
      = ((∑ h : Fin 128, ∑ w : Fin 128, spR (blkR x 4 h w) : ℝ) : EReal) := by
  rw [pay3_apply, ← coe_sum]
  refine Finset.sum_congr rfl fun h _ => ?_
  rw [← coe_sum]
  refine Finset.sum_congr rfl fun w _ => ?_
  exact spV_real _ _ _ ((chan4_apply x h w).trans (blk_real x hx ⟨4, by norm_num⟩ h w))

/-! ## Channels 5 to 84: the class payload -/

/-- The 80 class channels of the block as an `80 × 128 × 128` array: the slice at channel offset 5, its unit axis dropped. -/
def chans (x : Vec Ideal S1x85x128x128 .f32) : FVec Ideal S80x128x128 .f32 :=
  shapeCast S80x128x128 (extractStridedSlice S1x80x128x128 ![0, 5, 0, 0] x slices_S1x85x128x128_o0_5_0_0_S1x80x128x128) shapeCasts_S1x80x128x128_S80x128x128

theorem chans_apply (x : Vec Ideal S1x85x128x128 .f32) (c : Fin 80) (h w : Fin 128) :
    chans x (ix3 c h w) = x (ix4 (0 : Fin 1) (⟨5 + c.val, by have := c.isLt; omega⟩ : Fin 85) h w) :=
  (shapeCast_1abc_abc_apply _ _ c h w).trans
  (slice4_axis1_apply 5 x _ (0 : Fin 1) c h w ⟨5 + c.val, by have := c.isLt; omega⟩ rfl)

/-- The second payload is: softplus of the class channels, summed along the lanes, the sums given a unit axis, summed
    along the rows, the 80 sums reshaped to `80 × 1 × 1`. -/
theorem pay4_unfold (x : Vec Ideal S1x85x128x128 .f32) :
    k0_pay4 (F := Ideal) x
      = shapeCast S80x1x1 (multiReduction (F := Ideal) .add [1] S80x1
          (shapeCast S80x128x1 (multiReduction (F := Ideal) .add [2] S80x128 (spV (chans x)) 0x00000000#32 reduces_S80x128x128_S80x128 (.inl rfl) rfl)
            shapeCasts_S80x128_S80x128x1)
          0x00000000#32 reduces_S80x128x1_S80x1 (.inl rfl) rfl) shapeCasts_S80x1_S80x1x1 := rfl

/-- Read at channel `c`: the double sum over rows and lanes of softplus of that channel. -/
theorem pay4_apply (x : Vec Ideal S1x85x128x128 .f32) (c : Fin 80) :
    k0_pay4 (F := Ideal) x (ix3 c (0 : Fin 1) (0 : Fin 1)) = ∑ h : Fin 128, ∑ w : Fin 128, spV (chans x) (ix3 c h w) := by
  rw [pay4_unfold]
  refine (shapeCast_apply _ _ _ (ix2 c (0 : Fin 1)) (by
    rw [Shape.rowMajor_val_two, Shape.rowMajor_val_three]
    show c.val * 1 + 0 = (c.val * 1 + 0) * 1 + 0
    omega)).trans ?_
  refine (Ideal.multiReduction_add_single _ _ _ _ _ _).trans ?_
  show (∑ h : Fin 128, _) = _
  refine Finset.sum_congr rfl fun h _ => ?_
  refine (shapeCast_apply _ _ _ (ix2 c h) (by
    rw [Shape.rowMajor_val_two, Shape.rowMajor_val_three]
    show c.val * 128 + h.val = (c.val * 128 + h.val) * 1 + 0
    omega)).trans ?_
  refine (Ideal.multiReduction_add_single _ _ _ _ _ _).trans ?_
  show (∑ w : Fin 128, _) = _
  refine Finset.sum_congr rfl fun w _ => ?_
  refine congrArg (spV (chans x)) ?_
  funext a
  match a with
  | ⟨0, _⟩ => rfl
  | ⟨1, _⟩ => rfl
  | ⟨2, _⟩ => rfl

/-- The second payload on a finite block, at channel `c`: the real sum of softplus over class channel `5 + c`. -/
theorem pay4_real (x : Vec Ideal S1x85x128x128 .f32) (hx : Finite x) (c : Fin 80) :
    k0_pay4 (F := Ideal) x (ix3 c (0 : Fin 1) (0 : Fin 1))
      = ((∑ h : Fin 128, ∑ w : Fin 128, spR (blkR x (5 + c) h w) : ℝ) : EReal) := by
  rw [pay4_apply, ← coe_sum]
  refine Finset.sum_congr rfl fun h _ => ?_
  rw [← coe_sum]
  refine Finset.sum_congr rfl fun w _ => ?_
  exact spV_real _ _ _ ((chans_apply x c h w).trans (blk_real x hx ⟨5 + c.val, by have := c.isLt; omega⟩ h w))

/-! ## The accumulator's payload -/

/-- The payload stored into the accumulator: the accumulator plus the pair (first payload, sum of the second payload
    over its 80 channels), the result reshaped to its own shape. -/
theorem pay1_unfold (v39 : FVec Ideal S1x1 .f32) (v43 : FVec Ideal S80x1x1 .f32) (acc : Vec Ideal S1x2 .f32) :
    k0_pay1 (F := Ideal) v39 v43 acc
      = shapeCast S1x2 (addf (F := Ideal) acc (concatenate S1x2 1
          [⟨S1x1, v39⟩, ⟨S1x1, shapeCast S1x1 (shapeCast S1x1x1
            (multiReduction (F := Ideal) .add [0] S1x1 v43 0x00000000#32 reduces_S80x1x1_S1x1 (.inl rfl) rfl) shapeCasts_S1x1_S1x1x1) shapeCasts_S1x1x1_S1x1⟩]
          concatenates_S1x1_S1x1_S1x2_d1)) shapeCasts_S1x2_S1x2 := rfl

/-- Its first entry: the accumulator's first entry plus the first payload. -/
theorem pay1_apply0 (v39 : FVec Ideal S1x1 .f32) (v43 : FVec Ideal S80x1x1 .f32) (acc : Vec Ideal S1x2 .f32) :
    k0_pay1 (F := Ideal) v39 v43 acc (ix2 (0 : Fin 1) (0 : Fin 2))
      = acc (ix2 (0 : Fin 1) (0 : Fin 2)) + v39 (ix2 (0 : Fin 1) (0 : Fin 1)) := by
  rw [pay1_unfold, shapeCast_self, addf_apply]
  congr 1
  exact concatenate_pair_apply_left 1 v39 _ concatenates_S1x1_S1x1_S1x2_d1 (ix2 (0 : Fin 1) (0 : Fin 2)) rfl
    (ix2 (0 : Fin 1) (0 : Fin 1)) (fun b => by
      match b with
      | ⟨0, _⟩ => rfl
      | ⟨1, _⟩ => rfl)

/-- Its second entry: the accumulator's second entry plus the sum of the second payload over the 80 channels. -/
theorem pay1_apply1 (v39 : FVec Ideal S1x1 .f32) (v43 : FVec Ideal S80x1x1 .f32) (acc : Vec Ideal S1x2 .f32) :
    k0_pay1 (F := Ideal) v39 v43 acc (ix2 (0 : Fin 1) (1 : Fin 2))
      = acc (ix2 (0 : Fin 1) (1 : Fin 2)) + ∑ c : Fin 80, v43 (ix3 c (0 : Fin 1) (0 : Fin 1)) := by
  rw [pay1_unfold, shapeCast_self, addf_apply]
  congr 1
  refine (concatenate_pair_apply_right 1 v39 _ concatenates_S1x1_S1x1_S1x2_d1 (ix2 (0 : Fin 1) (1 : Fin 2)) rfl rfl
    (ix2 (0 : Fin 1) (0 : Fin 1)) (fun b hb => by
      match b, hb with
      | ⟨0, _⟩, _ => rfl
      | ⟨1, _⟩, hb => exact absurd rfl hb) rfl).trans ?_
  rw [shapeCast_shapeCast]
  refine (Ideal.multiReduction_add_single _ _ _ _ _ _).trans ?_
  show (∑ c : Fin 80, _) = _
  refine Finset.sum_congr rfl fun c _ => ?_
  refine congrArg v43 ?_
  funext a
  match a with
  | ⟨0, _⟩ => rfl
  | ⟨1, _⟩ => rfl
  | ⟨2, _⟩ => rfl

/-! ## The statements the region's value proof takes -/

/-- The reset payload is zero everywhere. -/
theorem pay2_eq : k0_pay2 (F := Ideal) = fun _ => (0 : EReal) := by
  funext i
  show shapeCast S1x2 (broadcast S1x2 zc) shapeCasts_S1x2_S1x2 i = 0
  rw [shapeCast_self]
  exact Ideal.ofBits_zero_f32

/-- One point's update of the accumulator's first entry on a finite block: the real sum of softplus over channel 4 is
    added. -/
theorem pay1_obj (x : Vec Ideal S1x85x128x128 .f32) (hx : Finite x) (acc : Vec Ideal S1x2 .f32) (a : ℝ)
    (ha : acc (ix2 (0 : Fin 1) (0 : Fin 2)) = (a : EReal)) :
    k0_pay1 (F := Ideal) (k0_pay3 x) (k0_pay4 x) acc (ix2 (0 : Fin 1) (0 : Fin 2))
      = ((a + ∑ h : Fin 128, ∑ w : Fin 128, spR (blkR x 4 h w) : ℝ) : EReal) := by
  rw [pay1_apply0, ha, pay3_real x hx, ← EReal.coe_add]

/-- One point's update of the accumulator's second entry on a finite block: the real sum of softplus over the 80 class
    channels is added. -/
theorem pay1_cls (x : Vec Ideal S1x85x128x128 .f32) (hx : Finite x) (acc : Vec Ideal S1x2 .f32) (a : ℝ)
    (ha : acc (ix2 (0 : Fin 1) (1 : Fin 2)) = (a : EReal)) :
    k0_pay1 (F := Ideal) (k0_pay3 x) (k0_pay4 x) acc (ix2 (0 : Fin 1) (1 : Fin 2))
      = ((a + ∑ c : Fin 80, ∑ h : Fin 128, ∑ w : Fin 128, spR (blkR x (5 + c) h w) : ℝ) : EReal) := by
  rw [pay1_apply1, ha, EReal.coe_add, ← coe_sum]
  congr 1
  exact Finset.sum_congr rfl fun c _ => pay4_real x hx c

end Cert.KernelIdeal.Pay

end
-- ==== Proof.KSums.lean ====
/-
  What the kernel's region leaves in its result array `f32[1, 2]`, at the ideal instance: the two softplus sums of the
  specification.

  The region runs on sixteen grid points, one per batch of the first argument. At every point the body adds to a
  `1 × 2` accumulator, carried in scratch memory, the point's two block sums — the softplus of channel 4 summed over
  the 128 × 128 cells, and the softplus of the 80 class channels summed over channels and cells; at point 0 it first
  stores zeros; at point 15 it copies the accumulator to the output block, which is written back there and nowhere else.

  * What each case's stores leave is the body's one sum-and-add payload over the point's input block and the
    accumulator as the point found it (zeros at point 0): the covering store's payload, its loads reading whole buffers.
  * Entry `(0, ch, h, w)` of the block at point `t` is entry `(t, ch, h, w)` of the array, so a block of a finite array
    is finite and its two block sums are batch `t`'s summands of the specification's sums.
  * By induction on the point, after point `n` the accumulator holds, at (0,0) and (0,1), the REAL sums over the
    batches `0 … n`: on finite inputs each addition is an addition of real numbers.
  * The output's one block is the whole array and is written back at point 15 only, so the result array ends holding
    the accumulator after the last point: the sums over all sixteen batches.
-/
import proofs.«175006_j89550068121905_1_alg».proof.Proof.KI.Frame
import proofs.«175006_j89550068121905_1_alg».proof.Proof.Spec
import proofs.«175006_j89550068121905_1_alg».proof.Proof.KPayload
import Idealize.ShloMosaic.Lib.Pipeline.Value
import Idealize.ShloMosaic.Lib.Tactic
import Mathlib.Data.Fintype.BigOperators

set_option maxRecDepth 16384

noncomputable section

namespace Cert.KernelIdeal.Fr

open Idealize.ShloMosaic Idealize.ShloMosaic.TcCoe Idealize.ShloMosaic.Tactic Idealize.ShloMosaic.ValueIdx
open Idealize.SL Idealize.SL.Sem
open Idealize.ShloMosaic.Pipeline (Dat)
open Cert.KernelIdeal Cert.KernelIdeal.Gen
open scoped BigOperators

variable {F : FTy → Type} [FloatOps F]

/-! ## What each case's stores leave, as values of the body's payloads -/

theorem hz2 : (![0, 0] : Fin 2 → Nat) = fun _ => 0 := funext fun a => by fin_cases a <;> rfl
theorem hz4 : (![0, 0, 0, 0] : Fin 4 → Nat) = fun _ => 0 := funext fun a => by fin_cases a <;> rfl

/-- Case B (points 1 to 14): over an accumulator holding `xs0` the body leaves the accumulator with the point's two
    block sums added — its one covering store's payload, whose loads read the whole buffers. -/
theorem sout_B (c : Dev nD) (i : grid0.Coords) (a1 : Memref sig .tc .vmem S1x85x128x128 .f32) (h1 : a1.IsWhole) (a2 : Memref sig .tc .vmem S1x2 .f32) (h2 : a2.IsWhole) (a3 : Memref sig .tc .vmem S1x2 .f32) (h3 : a3.IsWhole) (hc0 : ¬cond0_0 i) (hc1 : ¬cond0_1 i) (x0 : Vec F S1x85x128x128 .f32) (xs0 : Vec F S1x2 .f32) :
    sout0_B_0 c i a1 h1 a2 h2 a3 h3 hc0 hc1 x0 xs0 = k0_pay1 (k0_pay3 x0) (k0_pay4 x0) xs0 := by
  unfold sout0_B_0
  rw [View.read_writes_eq_canon _ _ _ (scover0_B_0 c i a1 h1 a2 h2 a3 h3 hc0 hc1 x0 xs0)]
  unfold kernelRun0_B
  dsimp only
  sl_unfold_words
  rw [View.canon_unit_zero hz2]
  simp only [View.readAt_eq_ld, h1.read_unread, h3.read_unread, View.ld_unit_zero (S := S1x85x128x128) hz4, View.ld_unit_zero (S := S1x2) hz2, View.readCov_unit_zero (S := S1x2) _ hz2]

/-- Case A (point 0): the body first stores zeros into the accumulator, reads them back, and leaves the point's two
    block sums added to zero — the later of its two covering stores. -/
theorem sout_A (c : Dev nD) (i : grid0.Coords) (a1 : Memref sig .tc .vmem S1x85x128x128 .f32) (h1 : a1.IsWhole) (a2 : Memref sig .tc .vmem S1x2 .f32) (h2 : a2.IsWhole) (a3 : Memref sig .tc .vmem S1x2 .f32) (h3 : a3.IsWhole) (hc0 : cond0_0 i) (hc1 : ¬cond0_1 i) (x0 : Vec F S1x85x128x128 .f32) :
    sout0_A_0 c i a1 h1 a2 h2 a3 h3 hc0 hc1 x0 = k0_pay1 (k0_pay3 x0) (k0_pay4 x0) (k0_pay2 (F := F)) := by
  unfold sout0_A_0
  rw [View.read_writes_eq_canon _ _ _ (scover0_A_0 c i a1 h1 a2 h2 a3 h3 hc0 hc1 x0)]
  unfold kernelRun0_A
  dsimp only
  sl_unfold_words
  rw [View.canon_cons_unit_zero (S := S1x2) hz2]
  simp only [View.readAt_eq_ld, h1.read_unread, h3.read_unread, View.ld_unit_zero (S := S1x85x128x128) hz4, View.ld_unit_zero (S := S1x2) hz2, View.readCov_unit_zero (S := S1x2) _ hz2]

/-- Case C (point 15), the accumulator: as in case B. -/
theorem sout_C (c : Dev nD) (i : grid0.Coords) (a1 : Memref sig .tc .vmem S1x85x128x128 .f32) (h1 : a1.IsWhole) (a2 : Memref sig .tc .vmem S1x2 .f32) (h2 : a2.IsWhole) (a3 : Memref sig .tc .vmem S1x2 .f32) (h3 : a3.IsWhole) (hc0 : ¬cond0_0 i) (hc1 : cond0_1 i) (x0 : Vec F S1x85x128x128 .f32) (xs0 : Vec F S1x2 .f32) :
    sout0_C_0 c i a1 h1 a2 h2 a3 h3 hc0 hc1 x0 xs0 = k0_pay1 (k0_pay3 x0) (k0_pay4 x0) xs0 := by
  unfold sout0_C_0
  rw [View.read_writes_eq_canon _ _ _ (scover0_C_0 c i a1 h1 a2 h2 a3 h3 hc0 hc1 x0 xs0)]
  unfold kernelRun0_C
  dsimp only
  sl_unfold_words
  rw [View.canon_unit_zero hz2]
  simp only [View.readAt_eq_ld, h1.read_unread, h3.read_unread, View.ld_unit_zero (S := S1x85x128x128) hz4, View.ld_unit_zero (S := S1x2) hz2, View.readCov_unit_zero (S := S1x2) _ hz2]

/-- Case C (point 15), the output block: the body copies the accumulator it has just updated into it. -/
theorem out_C (c : Dev nD) (i : grid0.Coords) (a1 : Memref sig .tc .vmem S1x85x128x128 .f32) (h1 : a1.IsWhole) (a2 : Memref sig .tc .vmem S1x2 .f32) (h2 : a2.IsWhole) (a3 : Memref sig .tc .vmem S1x2 .f32) (h3 : a3.IsWhole) (hc0 : ¬cond0_0 i) (hc1 : cond0_1 i) (x0 : Vec F S1x85x128x128 .f32) (xs0 : Vec F S1x2 .f32) :
    out0_C_1 c i a1 h1 a2 h2 a3 h3 hc0 hc1 x0 xs0 = k0_pay1 (k0_pay3 x0) (k0_pay4 x0) xs0 := by
  unfold out0_C_1
  rw [View.read_writes_eq_canon _ _ _ (cover0_C_1 c i a1 h1 a2 h2 a3 h3 hc0 hc1 x0 xs0)]
  unfold kernelRun0_C
  dsimp only
  sl_unfold_words
  rw [View.canon_unit_zero hz2]
  simp only [View.readAt_eq_ld, h1.read_unread, h3.read_unread, View.ld_unit_zero (S := S1x85x128x128) hz4, View.ld_unit_zero (S := S1x2) hz2, View.readCov_unit_zero (S := S1x2) _ hz2]

/-! ## The accumulator after each point, as the body's payloads over the point's block

Generic in the float interpretation: what the accumulator and the output block hold after a point is the body's one
sum-and-add payload over the point's input block and the accumulator the point before left (zeros at point 0). -/

section Steps
variable (m : (ℓ : Loc nD τ sig) → Buf (Elt F) ℓ)

/-- The first argument as the region finds it, and its block at point `t`, named by their literal types. -/
abbrev xarr (c : Dev nD) : Vec F S16x85x128x128 .f32 := V m c main_arg0
abbrev xblk (c : Dev nD) (t : Fin cfg0.N) : Vec F S1x85x128x128 .f32 := iblk m c 0 t

theorem lt16 (t : Fin cfg0.N) : t.val < 16 := lt_of_lt_of_eq t.isLt N_0

/-- After point 0 the accumulator holds the point's block sums added to the zeros just stored. -/
theorem acc_A (c : Dev nD) (t : Fin cfg0.N) (h0 : t.val % 16 = 0) (h1 : ¬t.val % 16 = 15) :
    (outsAt0 m c t.val t.isLt).2 = k0_pay1 (k0_pay3 (xblk m c t)) (k0_pay4 (xblk m c t)) (k0_pay2 (F := F)) := by
  rw [outsAt0_A m c t h0 h1]; dsimp only
  exact sout_A (F := F) c (grid0.coords t) (ms0_0 t) (hs0_0 t) (ms0_1 t) (hs0_1 t) scM0_0 (Memref.isWhole_whole _)
    ((hcond0_0 t).mpr h0) (fun h => h1 ((hcond0_1 t).mp h)) (xblk m c t)

/-- After a later point the accumulator holds the point's block sums added to what the point before left. -/
theorem acc_pos (c : Dev nD) (t : Fin cfg0.N) (h0 : ¬t.val % 16 = 0) :
    (outsAt0 m c t.val t.isLt).2 = k0_pay1 (k0_pay3 (xblk m c t)) (k0_pay4 (xblk m c t))
      (outsAt0 m c (t.val - 1) (Nat.lt_of_le_of_lt (Nat.sub_le _ _) t.isLt)).2 := by
  by_cases h1 : t.val % 16 = 15
  · rw [outsAt0_C m c t h0 h1]; dsimp only
    exact sout_C (F := F) c (grid0.coords t) (ms0_0 t) (hs0_0 t) (ms0_1 t) (hs0_1 t) scM0_0 (Memref.isWhole_whole _)
      (fun h => h0 ((hcond0_0 t).mp h)) ((hcond0_1 t).mpr h1) (xblk m c t)
      (outsAt0 m c (t.val - 1) (Nat.lt_of_le_of_lt (Nat.sub_le _ _) t.isLt)).2
  · rw [outsAt0_B m c t h0 h1]; dsimp only
    exact sout_B (F := F) c (grid0.coords t) (ms0_0 t) (hs0_0 t) (ms0_1 t) (hs0_1 t) scM0_0 (Memref.isWhole_whole _)
      (fun h => h0 ((hcond0_0 t).mp h)) (fun h => h1 ((hcond0_1 t).mp h)) (xblk m c t)
      (outsAt0 m c (t.val - 1) (Nat.lt_of_le_of_lt (Nat.sub_le _ _) t.isLt)).2

/-- At the last point the output block receives the accumulator just updated. -/
theorem out_last (c : Dev nD) (t : Fin cfg0.N) (h0 : ¬t.val % 16 = 0) (h1 : t.val % 16 = 15) :
    (outsAt0 m c t.val t.isLt).1 = (outsAt0 m c t.val t.isLt).2 := by
  rw [outsAt0_C m c t h0 h1]; dsimp only
  exact (out_C (F := F) c (grid0.coords t) (ms0_0 t) (hs0_0 t) (ms0_1 t) (hs0_1 t) scM0_0 (Memref.isWhole_whole _)
      (fun h => h0 ((hcond0_0 t).mp h)) ((hcond0_1 t).mpr h1) (xblk m c t)
      (outsAt0 m c (t.val - 1) (Nat.lt_of_le_of_lt (Nat.sub_le _ _) t.isLt)).2).trans
    (sout_C (F := F) c (grid0.coords t) (ms0_0 t) (hs0_0 t) (ms0_1 t) (hs0_1 t) scM0_0 (Memref.isWhole_whole _)
      (fun h => h0 ((hcond0_0 t).mp h)) ((hcond0_1 t).mpr h1) (xblk m c t)
      (outsAt0 m c (t.val - 1) (Nat.lt_of_le_of_lt (Nat.sub_le _ _) t.isLt)).2).symm

/-- The input window's block index at point `t` is `(t, 0, 0, 0)` — decided over the grid. -/
theorem idx_facts : ∀ t : Fin cfg0.N, win0_0.index t 0 = t.val ∧ win0_0.index t 1 = 0 ∧ win0_0.index t 2 = 0 ∧ win0_0.index t 3 = 0 :=
  (by decide +kernel : ∀ t : Fin grid0.N, win0_0.index t 0 = t.val ∧ win0_0.index t 1 = 0 ∧ win0_0.index t 2 = 0 ∧ win0_0.index t 3 = 0)

/-- Entry `(0, ch, h, w)` of the block at point `t` is entry `(t, ch, h, w)` of the array: a block's coordinate is
    index × size + the coordinate inside the block. -/
theorem xblk_apply (c : Dev nD) (t : Fin cfg0.N) (ch : Fin 85) (h w : Fin 128) :
    xblk m c t (ix4 0 ch h w) = xarr m c (ix4 ⟨t.val, lt16 t⟩ ch h w) := by
  obtain ⟨e0, e1, e2, e3⟩ := idx_facts t
  show iblk m c 0 t (ix4 0 ch h w) = V m c main_arg0 (ix4 ⟨t.val, lt16 t⟩ ch h w)
  unfold iblk
  rw [View.read_apply]
  show V m c main_arg0 _ = V m c main_arg0 _
  congr 1
  funext a
  apply Fin.ext
  match a with
  | ⟨0, _⟩ => show win0_0.index t 0 * 1 + 1 * 0 = t.val; rw [e0]; omega
  | ⟨1, _⟩ => show win0_0.index t 1 * 85 + 1 * ch.val = ch.val; rw [e1]; omega
  | ⟨2, _⟩ => show win0_0.index t 2 * 128 + 1 * h.val = h.val; rw [e2]; omega
  | ⟨3, _⟩ => show win0_0.index t 3 * 128 + 1 * w.val = w.val; rw [e3]; omega

end Steps

/-! ## The result array: what the last point flushed -/

section Final
variable (m : (ℓ : Loc nD τ sig) → Buf (Elt F) ℓ)

theorem h15 : (15 : ℕ) < cfg0.N := by rw [show cfg0.N = 16 from N_0]; decide

/-- The output block after the last point, as contents of the result array (its one block IS the array). -/
abbrev result (c : Dev nD) : Buf (Elt F) ((c : Thread nD τ).loc main_v0) := (outsAt0 m c 15 h15).1

/-- The one write-back, at point 15, writes it: block (0, 0) of the 1 × 2 array read through zero offsets is the array. -/
theorem flushed_eq (c : Dev nD) (t : Fin cfg0.N) (hf : (cfg0.win 1).flush t = true) :
    (dats m 0 c).flushed 1 t = ((cfg0.win 1).blk t).view.read (Elt F) (result m c) := by
  have hN : cfg0.N = 16 := N_0
  have ht : t.val = 15 := by have := (flush0_1 t).mp hf; have := t.isLt; omega
  obtain rfl : t = t0_15 := Fin.ext ht
  show (cfg0.win 1).cut (grid0.coords t0_15) ((dats m 0 c).after 1 t0_15) = _
  rw [after0_1]
  have hz' : (fun a => win0_1.index t0_15 a * main_v0.ty.shape.size a) = fun _ => 0 := funext fun a => by fin_cases a <;> decide
  exact (Memref.read_access_unit_zero (Elt F) main_v0 hz' (fun a => by rw [congrFun hz' a]; simp) (result m c)).symm

/-- So the result array ends holding the output block of the last point: that point's block covers the array. -/
theorem final_o (c : Dev nD) : (dats m 0 c).arrAt 1 cfg0.N = result m c :=
  (dats m 0 c).arrAt_eq_of_cover 1 (result m c) (flushed_eq m c) fun i =>
    ⟨t0_15, (flush0_1 t0_15).mpr rfl, by
      show i ∈ ((View.whole main_v0).slice (win0_1.rect t0_15)).set
      rw [View.set_slice_whole, Rect.mem_set_unit]
      intro a
      have i0 : (i 0 : Nat) < 1 := (i 0).isLt
      have i1 : (i 1 : Nat) < 2 := (i 1).isLt
      match a with
      | ⟨0, _⟩ => show win0_1.index t0_15 0 * win0_1.size 0 ≤ (i 0 : Nat) ∧ (i 0 : Nat) < win0_1.index t0_15 0 * win0_1.size 0 + win0_1.xsize (grid0.coords t0_15) 0
                  rw [show win0_1.index t0_15 0 * win0_1.size 0 = 0 from by decide +kernel, show win0_1.xsize (grid0.coords t0_15) 0 = 1 from by decide +kernel]; omega
      | ⟨1, _⟩ => show win0_1.index t0_15 1 * win0_1.size 1 ≤ (i 1 : Nat) ∧ (i 1 : Nat) < win0_1.index t0_15 1 * win0_1.size 1 + win0_1.xsize (grid0.coords t0_15) 1
                  rw [show win0_1.index t0_15 1 * win0_1.size 1 = 0 from by decide +kernel, show win0_1.xsize (grid0.coords t0_15) 1 = 2 from by decide +kernel]; omega⟩

/-- And that block is the accumulator after the last point. -/
theorem final_acc (c : Dev nD) : (dats m 0 c).arrAt 1 cfg0.N = (outsAt0 m c 15 h15).2 :=
  (final_o m c).trans (out_last m c ⟨15, h15⟩ (by decide) (by decide))

end Final

/-! ## At the ideal instance: the accumulator is the running pair of real sums -/

/-- The softplus sum of channel 4 over the cells of batch `b`, and of the 80 class channels. -/
def sObj (P : Cert.Spec.Preds) (b : Fin 16) : ℝ := ∑ h : Fin 128, ∑ w : Fin 128, Cert.Spec.spR (Cert.Spec.PR P b 4 h w)
def sCls (P : Cert.Spec.Preds) (b : Fin 16) : ℝ := ∑ ch : Fin 80, ∑ h : Fin 128, ∑ w : Fin 128, Cert.Spec.spR (Cert.Spec.PR P b (5 + ch) h w)
/-- The same at a natural number (zero past the last batch), to sum over an initial segment. -/
def sObjN (P : Cert.Spec.Preds) (k : ℕ) : ℝ := if h : k < 16 then sObj P ⟨k, h⟩ else 0
def sClsN (P : Cert.Spec.Preds) (k : ℕ) : ℝ := if h : k < 16 then sCls P ⟨k, h⟩ else 0

/-- The two sums of the specification are the sums over all sixteen batches. -/
theorem S1obj_eq (P : Cert.Spec.Preds) : Cert.Spec.S1obj P = ∑ k ∈ Finset.range 16, sObjN P k := by
  rw [← Fin.sum_univ_eq_sum_range (sObjN P) 16]
  unfold Cert.Spec.S1obj
  refine Finset.sum_congr rfl fun b _ => ?_
  unfold sObjN; rw [dif_pos b.isLt]; rfl
theorem S1cls_eq (P : Cert.Spec.Preds) : Cert.Spec.S1cls P = ∑ k ∈ Finset.range 16, sClsN P k := by
  rw [← Fin.sum_univ_eq_sum_range (sClsN P) 16]
  unfold Cert.Spec.S1cls
  refine Finset.sum_congr rfl fun b _ => ?_
  unfold sClsN; rw [dif_pos b.isLt]; rfl

section Sums
variable (m : (ℓ : Loc nD τ sig) → Buf (Elt Ideal) ℓ)

/-- A block of a finite array is finite. -/
theorem xblk_finite (c : Dev nD) (hP : Cert.Spec.Finite (xarr m c)) (t : Fin cfg0.N) : Cert.Spec.Finite (xblk m c t) := by
  intro j
  obtain ⟨a, ch, h, w, rfl⟩ : ∃ a ch h w, j = ix4 a ch h w := ⟨j 0, j 1, j 2, j 3, eq_ix4 j⟩
  obtain rfl : a = 0 := Subsingleton.elim _ _
  rw [xblk_apply]; exact hP _

/-- A block's entry as a real number is the array's entry at the point's batch. -/
theorem blkR_eq (c : Dev nD) (t : Fin cfg0.N) (ch h w : ℕ) :
    Pay.blkR (xblk m c t) ch h w = Cert.Spec.PR (xarr m c) ⟨t.val, lt16 t⟩ ch h w := by
  unfold Pay.blkR Cert.Spec.PR Cert.Spec.PE
  exact congrArg EReal.toReal (xblk_apply m c t _ _ _)

/-- So a block's two sums are its batch's summands of the specification's sums. -/
theorem blk_obj (c : Dev nD) (t : Fin cfg0.N) :
    (∑ h : Fin 128, ∑ w : Fin 128, Cert.Spec.spR (Pay.blkR (xblk m c t) 4 h w)) = sObjN (xarr m c) t.val := by
  unfold sObjN; rw [dif_pos (lt16 t)]; unfold sObj
  exact Finset.sum_congr rfl fun h _ => Finset.sum_congr rfl fun w _ => congrArg Cert.Spec.spR (blkR_eq m c t 4 h w)
theorem blk_cls (c : Dev nD) (t : Fin cfg0.N) :
    (∑ ch : Fin 80, ∑ h : Fin 128, ∑ w : Fin 128, Cert.Spec.spR (Pay.blkR (xblk m c t) (5 + ch) h w)) = sClsN (xarr m c) t.val := by
  unfold sClsN; rw [dif_pos (lt16 t)]; unfold sCls
  exact Finset.sum_congr rfl fun ch _ => Finset.sum_congr rfl fun h _ => Finset.sum_congr rfl fun w _ =>
    congrArg Cert.Spec.spR (blkR_eq m c t (5 + ch) h w)

/-- THE INVARIANT: after point `n` the accumulator holds, at (0,0) and (0,1), the real sums over the batches
    `0 … n` of the two block sums — by induction on the point. -/
theorem acc_inv (c : Dev nD) (hP : Cert.Spec.Finite (xarr m c)) : ∀ (n : ℕ) (hn : n < cfg0.N),
    (outsAt0 m c n hn).2 (ix2 0 0) = ((∑ k ∈ Finset.range (n + 1), sObjN (xarr m c) k : ℝ) : EReal)
    ∧ (outsAt0 m c n hn).2 (ix2 0 1) = ((∑ k ∈ Finset.range (n + 1), sClsN (xarr m c) k : ℝ) : EReal)
  | 0, hn => by
    have e : (outsAt0 m c 0 hn).2 = k0_pay1 (k0_pay3 (xblk m c ⟨0, hn⟩)) (k0_pay4 (xblk m c ⟨0, hn⟩)) (k0_pay2 (F := Ideal)) :=
      acc_A m c ⟨0, hn⟩ rfl (by dsimp only; omega)
    have z0 : (k0_pay2 (F := Ideal)) (ix2 0 0) = ((0 : ℝ) : EReal) := by rw [Pay.pay2_eq]; rfl
    have z1 : (k0_pay2 (F := Ideal)) (ix2 0 1) = ((0 : ℝ) : EReal) := by rw [Pay.pay2_eq]; rfl
    constructor
    · refine (congrFun e (ix2 0 0)).trans ((Pay.pay1_obj (xblk m c ⟨0, hn⟩) (xblk_finite m c hP ⟨0, hn⟩) (k0_pay2 (F := Ideal)) 0 z0).trans ?_)
      rw [blk_obj m c ⟨0, hn⟩, Finset.sum_range_one, zero_add]
    · refine (congrFun e (ix2 0 1)).trans ((Pay.pay1_cls (xblk m c ⟨0, hn⟩) (xblk_finite m c hP ⟨0, hn⟩) (k0_pay2 (F := Ideal)) 0 z1).trans ?_)
      rw [blk_cls m c ⟨0, hn⟩, Finset.sum_range_one, zero_add]
  | n + 1, hn => by
    obtain ⟨ihO, ihC⟩ := acc_inv c hP n (Nat.lt_of_succ_lt hn)
    have hN : n + 1 < 16 := lt_of_lt_of_eq hn N_0
    have e : (outsAt0 m c (n + 1) hn).2 = k0_pay1 (k0_pay3 (xblk m c ⟨n + 1, hn⟩)) (k0_pay4 (xblk m c ⟨n + 1, hn⟩)) (outsAt0 m c n (Nat.lt_of_succ_lt hn)).2 :=
      acc_pos m c ⟨n + 1, hn⟩ (by dsimp only; omega)
    constructor
    · refine (congrFun e (ix2 0 0)).trans ((Pay.pay1_obj (xblk m c ⟨n + 1, hn⟩) (xblk_finite m c hP ⟨n + 1, hn⟩) (outsAt0 m c n (Nat.lt_of_succ_lt hn)).2 _ ihO).trans ?_)
      rw [blk_obj m c ⟨n + 1, hn⟩, Finset.sum_range_succ _ (n + 1)]
    · refine (congrFun e (ix2 0 1)).trans ((Pay.pay1_cls (xblk m c ⟨n + 1, hn⟩) (xblk_finite m c hP ⟨n + 1, hn⟩) (outsAt0 m c n (Nat.lt_of_succ_lt hn)).2 _ ihC).trans ?_)
      rw [blk_cls m c ⟨n + 1, hn⟩, Finset.sum_range_succ _ (n + 1)]

/-- WHAT THE REGION LEAVES in its result array on a finite first argument: the two softplus sums of the specification. -/
theorem regionOut_isSums (c : Dev nD) (hP : Cert.Spec.Finite (m ((c.tc : Thread nD τ).loc main_arg0))) :
    Cert.Spec.IsSums (m ((c.tc : Thread nD τ).loc main_arg0)) ((dats (F := Ideal) m 0 c).arrAt 1 cfg0.N) := by
  have hP' : Cert.Spec.Finite (xarr m c) := hP
  obtain ⟨iO, iC⟩ := acc_inv m c hP' 15 h15
  have eo := final_acc m c
  exact ⟨(congrFun eo (ix2 0 0)).trans (iO.trans (congrArg _ (S1obj_eq _).symm)),
    (congrFun eo (ix2 0 1)).trans (iC.trans (congrArg _ (S1cls_eq _).symm))⟩

end Sums

end Cert.KernelIdeal.Fr

end
-- ==== Proof.SpecFacts.lean ====
import proofs.«175006_j89550068121905_1_alg».proof.Proof.Spec
import Idealize.ShloMosaic.Lib.ValueIdx
import Idealize.ShloMosaic.Lib.StableHlo.Predicate

/-!
# From the 32-bit words of the boxes to their naturals

In the domain of the claim (`InRange`: `0 ≤ label < 80`, `0 ≤ column, row < 128`, all read signed) the
three integer arrays of the boxes are the naturals `clsN`, `giN`, `gjN` read back as words, the flat cell
word `row · 128 + column` does not wrap (its value is below `128 · 128 = 16384`), and so: the cell of a
box is `gjN · 128 + giN` with quotient `gjN` and remainder `giN` by `128`; two boxes of a batch have the
same cell word exactly when they have the same cell, the same label word exactly when they have the same
label, and the same (cell, label) pair exactly when both words agree.
-/

namespace Cert.Spec

open Idealize.ShloMosaic Idealize.ShloMosaic.ValueIdx

variable {tg : Targets}

private theorem bmod32 {k : Int} (h₁ : -2 ^ 31 ≤ k) (h₂ : k < 2 ^ 31) : k.bmod (2 ^ 32) = k :=
  Int.bmod_eq_of_le (by omega) (by omega)

/-! ## The three arrays as naturals -/

/-- The grid column of a box is below `128`. -/
theorem giN_lt (hr : InRange tg) (b : Fin 16) (n : Fin 64) : giN tg b n < 128 := by
  have h0 := hr.gi_lo (ix2 b n)
  have h1 := hr.gi_hi (ix2 b n)
  unfold giN
  omega

/-- The grid row of a box is below `128`. -/
theorem gjN_lt (hr : InRange tg) (b : Fin 16) (n : Fin 64) : gjN tg b n < 128 := by
  have h0 := hr.gj_lo (ix2 b n)
  have h1 := hr.gj_hi (ix2 b n)
  unfold gjN
  omega

/-- The label of a box is below `80`. -/
theorem clsN_lt (hr : InRange tg) (b : Fin 16) (n : Fin 64) : clsN tg b n < 80 := by
  have h0 := hr.cls_lo (ix2 b n)
  have h1 := hr.cls_hi (ix2 b n)
  unfold clsN
  omega

/-- The column word, read signed, is the natural column. -/
theorem giA_toInt (hr : InRange tg) (b : Fin 16) (n : Fin 64) : (giA tg (ix2 b n)).toInt = (giN tg b n : ℤ) := by
  have h0 := hr.gi_lo (ix2 b n)
  unfold giN
  omega

/-- The row word, read signed, is the natural row. -/
theorem gjA_toInt (hr : InRange tg) (b : Fin 16) (n : Fin 64) : (gjA tg (ix2 b n)).toInt = (gjN tg b n : ℤ) := by
  have h0 := hr.gj_lo (ix2 b n)
  unfold gjN
  omega

/-- The label word, read signed, is the natural label. -/
theorem clsA_toInt (hr : InRange tg) (b : Fin 16) (n : Fin 64) : (clsA tg (ix2 b n)).toInt = (clsN tg b n : ℤ) := by
  have h0 := hr.cls_lo (ix2 b n)
  unfold clsN
  omega

/-! ## The flat cell word -/

/-- The cell word `row · 128 + column`, computed in 32-bit words, does not wrap. -/
theorem idxA_toInt (hr : InRange tg) (b : Fin 16) (n : Fin 64) :
    (idxA tg (ix2 b n)).toInt = ((gjN tg b n * 128 + giN tg b n : ℕ) : ℤ) := by
  have hj := gjA_toInt hr b n
  have hi := giA_toInt hr b n
  have hjl := gjN_lt hr b n
  have hil := giN_lt hr b n
  show (IntOp.addi (IntOp.muli (gjA tg (ix2 b n)) (128#32)) (giA tg (ix2 b n))).toInt = _
  unfold IntOp.addi IntOp.muli
  rw [BitVec.toInt_add, BitVec.toInt_mul, hj, hi, show (128#32 : BitVec 32).toInt = 128 from by decide]
  have e1 : ((gjN tg b n : ℤ) * 128).bmod (2 ^ 32) = (gjN tg b n : ℤ) * 128 := bmod32 (by omega) (by omega)
  rw [e1, bmod32 (by omega) (by omega)]
  push_cast
  rfl

theorem idxA_nonneg (hr : InRange tg) (b : Fin 16) (n : Fin 64) : 0 ≤ (idxA tg (ix2 b n)).toInt := by
  rw [idxA_toInt hr b n]
  exact Int.natCast_nonneg _

theorem idxA_lt (hr : InRange tg) (b : Fin 16) (n : Fin 64) : (idxA tg (ix2 b n)).toInt < 16384 := by
  have hjl := gjN_lt hr b n
  have hil := giN_lt hr b n
  rw [idxA_toInt hr b n]
  omega

/-! ## The cell and the (cell, label) pair -/

/-- The cell of a box is `row · 128 + column`: the reduction into range does nothing. -/
theorem cellIdx_val (hr : InRange tg) (b : Fin 16) (n : Fin 64) :
    (cellIdx tg b n).val = gjN tg b n * 128 + giN tg b n := by
  have hjl := gjN_lt hr b n
  have hil := giN_lt hr b n
  show (gjN tg b n * 128 + giN tg b n) % 16384 = _
  omega

theorem cellIdx_div (hr : InRange tg) (b : Fin 16) (n : Fin 64) : (cellIdx tg b n).val / 128 = gjN tg b n := by
  have hil := giN_lt hr b n
  rw [cellIdx_val hr b n]
  omega

theorem cellIdx_mod (hr : InRange tg) (b : Fin 16) (n : Fin 64) : (cellIdx tg b n).val % 128 = giN tg b n := by
  have hil := giN_lt hr b n
  rw [cellIdx_val hr b n]
  omega

/-- Two boxes of a batch have the same cell word exactly when they have the same cell. -/
theorem idxA_eq_iff (hr : InRange tg) (b : Fin 16) (n m : Fin 64) :
    idxA tg (ix2 b n) = idxA tg (ix2 b m) ↔ cellIdx tg b n = cellIdx tg b m := by
  rw [← BitVec.toInt_inj, idxA_toInt hr b n, idxA_toInt hr b m, Fin.ext_iff, cellIdx_val hr b n, cellIdx_val hr b m]
  omega

theorem pairIdx_fst (_hr : InRange tg) (b : Fin 16) (n : Fin 64) : (pairIdx tg b n).1 = cellIdx tg b n := rfl

theorem pairIdx_snd_val (hr : InRange tg) (b : Fin 16) (n : Fin 64) : (pairIdx tg b n).2.val = clsN tg b n := by
  have h := clsN_lt hr b n
  show clsN tg b n % 80 = _
  omega

/-- Two boxes of a batch have the same label word exactly when they have the same label. -/
theorem clsA_eq_iff (hr : InRange tg) (b : Fin 16) (n m : Fin 64) :
    clsA tg (ix2 b n) = clsA tg (ix2 b m) ↔ (pairIdx tg b n).2 = (pairIdx tg b m).2 := by
  rw [← BitVec.toInt_inj, clsA_toInt hr b n, clsA_toInt hr b m, Fin.ext_iff, pairIdx_snd_val hr b n, pairIdx_snd_val hr b m]
  omega

/-- Two boxes of a batch have the same (cell, label) pair exactly when their cell words and their label
    words agree. -/
theorem pairIdx_eq_iff (hr : InRange tg) (b : Fin 16) (n m : Fin 64) :
    pairIdx tg b n = pairIdx tg b m ↔
      idxA tg (ix2 b n) = idxA tg (ix2 b m) ∧ clsA tg (ix2 b n) = clsA tg (ix2 b m) := by
  rw [idxA_eq_iff hr b n m, clsA_eq_iff hr b n m, Prod.ext_iff]
  rfl

end Cert.Spec
-- ==== Proof.KGather.lean ====
/-
  The six gathers of the kernel program's host tail.

  The program reads six channels of `preds : f32[16, 85, 128, 128]` at each box's grid cell: for box `(b, n)` with grid
  row `gj`, grid column `gi` and label `cls`, the elements `preds[b, ch, gj, gi]` for `ch = 4`, `ch = 5 + cls` and
  `ch = 0, 1, 2, 3`. Each is a gather of the whole array at a start index `[b', ch', gj', gi']` — four integer arrays
  `[16, 64]` laid side by side along a new last axis — where every component is first normalised,
  `x' = select (x < 0) (x + size) x`, and the gather reads each component signed and clamped to `[0, size − 1]`.
  In the domain of the claim every component is already in `[0, size)`: the batch component is the row number, the
  channel is a constant below `85` or `5 + cls` with `0 ≤ cls < 80`, and `0 ≤ gj, gi < 128`. So neither the
  normalisation nor the clamp changes anything and the gather is channel `ch` of `preds` at the box's cell (`gatA`).

  First the integer arrays and columns of `targets` the two programs share, which are the specification's by unfolding.
  Then `gather_at` (the gather with this dimension record read at one box), the normalisation (`normI`) and the
  start-index array (`startIdx`) read at an index, `gather_boxes` (the shape the six gathers share), and the six
  instances.
-/
import proofs.«175006_j89550068121905_1_alg».proof.Proof.KTailStages
import proofs.«175006_j89550068121905_1_alg».proof.Proof.Spec
import proofs.«175006_j89550068121905_1_alg».proof.Proof.SpecFacts
import Idealize.ShloMosaic.Lib.ValueIdx
import Idealize.ShloMosaic.Lib.Pipeline.Value
import Idealize.ShloMosaic.Lib.StableHlo.Predicate
import Idealize.ShloMosaic.Lib.WordArith

noncomputable section

namespace Cert.KernelIdeal.Tail

open Cert.Spec Idealize.ShloMosaic.ValueIdx
open Cert.KernelIdeal Cert.KernelIdeal.Gen Idealize.ShloMosaic

/-! ## The integer arrays and the columns of `targets`: the specification's, by unfolding -/

/-- The label array. -/
theorem kt_v7_eq (o : FVec Ideal S1x2 .f32) (P : Preds) (tg : Targets) : kt_main_v7 (F := Ideal) o P tg = clsA tg := rfl
/-- The grid-column array. -/
theorem kt_v18_eq (o : FVec Ideal S1x2 .f32) (P : Preds) (tg : Targets) : kt_main_v18 (F := Ideal) o P tg = giA tg := rfl
/-- The grid-row array. -/
theorem kt_v21_eq (o : FVec Ideal S1x2 .f32) (P : Preds) (tg : Targets) : kt_main_v21 (F := Ideal) o P tg = gjA tg := rfl
/-- The flat cell index `gj · 128 + gi`. -/
theorem kt_v24_eq (o : FVec Ideal S1x2 .f32) (P : Preds) (tg : Targets) : kt_main_v24 (F := Ideal) o P tg = idxA tg := rfl
/-- Column 1 of `targets`. -/
theorem kt_v9_eq (o : FVec Ideal S1x2 .f32) (P : Preds) (tg : Targets) : kt_main_v9 (F := Ideal) o P tg = col1 tg := rfl
/-- Column 2 of `targets`. -/
theorem kt_v11_eq (o : FVec Ideal S1x2 .f32) (P : Preds) (tg : Targets) : kt_main_v11 (F := Ideal) o P tg = col2 tg := rfl
/-- Column 3 of `targets`. -/
theorem kt_v13_eq (o : FVec Ideal S1x2 .f32) (P : Preds) (tg : Targets) : kt_main_v13 (F := Ideal) o P tg = col3 tg := rfl
/-- Column 4 of `targets`. -/
theorem kt_v15_eq (o : FVec Ideal S1x2 .f32) (P : Preds) (tg : Targets) : kt_main_v15 (F := Ideal) o P tg = col4 tg := rfl

/-! ## The gather with this program's dimension record, read at one box -/

/-- The dimension record of the six gathers: every operand axis collapsed and start-indexed, slices of size one, the
    index vector on the last axis of the start indices. -/
abbrev GD : GatherDims S16x85x128x128 S16x64x4 S16x64 := gather_S16x85x128x128_S16x64x4_S16x64_n_0123_n_n_0123_2_1111

/-- The start-indices index that result index `(b, n)` reads component `k` of its start index at is `(b, n, k)`. -/
theorem GD_siIdx (b : Fin 16) (n : Fin 64) (k : Fin 4) (hk : k.val < GD.startIndexMap.length) :
    GD.siIdx (ix2 b n) ⟨k.val, hk⟩ = ix3 b n k := by
  funext a; refine Fin.ext ?_
  match a with
  | ⟨0, _⟩ => rfl
  | ⟨1, _⟩ => rfl
  | ⟨2, _⟩ => rfl

/-- A GATHER OF ONE ELEMENT PER BOX. When the four components of the start index at `(b, n)` are words whose signed
    values are `b`, `c < 85`, `r < 128`, `w < 128`, the clamp to the operand's extents changes nothing and the gather
    reads the operand at `(b, c, r, w)`. -/
theorem gather_at (P : Preds) (idx : IVec S16x64x4 32) (b : Fin 16) (n : Fin 64) (c r w : ℕ)
    (hc : c < 85) (hr : r < 128) (hw : w < 128)
    (h0 : (idx (ix3 b n 0)).toInt = (b.val : ℤ)) (h1 : (idx (ix3 b n 1)).toInt = (c : ℤ))
    (h2 : (idx (ix3 b n 2)).toInt = (r : ℤ)) (h3 : (idx (ix3 b n 3)).toInt = (w : ℤ)) :
    Host.gather GD P idx (ix2 b n) = P (ix4 b ⟨c, hc⟩ ⟨r, hr⟩ ⟨w, hw⟩) := by
  unfold Host.gather
  congr 1
  funext a
  refine Fin.ext ?_
  show GD.start (ix2 b n) idx a + GD.batchCoord (ix2 b n) a + GD.offCoord (ix2 b n) a = _
  have hcoll : a ∈ GD.collapsedSliceDims :=
    (show ∀ a : Fin 4, a ∈ ([0, 1, 2, 3] : List (Fin 4)) by decide) a
  rw [GatherDims.batchCoord_eq_zero _ _ _ List.not_mem_nil,
    GatherDims.offCoord_eq_zero _ _ _ (fun h => ((GatherDims.mem_sKept _ _).mp h).1 hcoll)]
  simp only [Nat.add_zero]
  unfold GatherDims.start
  rw [dif_pos (show a ∈ GD.startIndexMap from hcoll)]
  match a with
  | ⟨0, _⟩ =>
    rw [show (⟨List.idxOf (⟨0, by decide⟩ : Fin 4) GD.startIndexMap, _⟩ : Fin GD.startIndexMap.length) = ⟨(0 : Fin 4).val, by decide⟩ from rfl,
      GD_siIdx b n 0, h0]
    show min (b.val : ℤ).toNat 15 = b.val
    have := b.isLt
    rw [Int.toNat_natCast]; omega
  | ⟨1, _⟩ =>
    rw [show (⟨List.idxOf (⟨1, by decide⟩ : Fin 4) GD.startIndexMap, _⟩ : Fin GD.startIndexMap.length) = ⟨(1 : Fin 4).val, by decide⟩ from rfl,
      GD_siIdx b n 1, h1]
    show min (c : ℤ).toNat 84 = c
    rw [Int.toNat_natCast]; omega
  | ⟨2, _⟩ =>
    rw [show (⟨List.idxOf (⟨2, by decide⟩ : Fin 4) GD.startIndexMap, _⟩ : Fin GD.startIndexMap.length) = ⟨(2 : Fin 4).val, by decide⟩ from rfl,
      GD_siIdx b n 2, h2]
    show min (r : ℤ).toNat 127 = r
    rw [Int.toNat_natCast]; omega
  | ⟨3, _⟩ =>
    rw [show (⟨List.idxOf (⟨3, by decide⟩ : Fin 4) GD.startIndexMap, _⟩ : Fin GD.startIndexMap.length) = ⟨(3 : Fin 4).val, by decide⟩ from rfl,
      GD_siIdx b n 3, h3]
    show min (w : ℤ).toNat 127 = w
    rw [Int.toNat_natCast]; omega

/-! ## The index normalisation and the start-index array -/

/-- `select (x < 0) (x + size) x`: the normalisation the program applies to each component of a start index. -/
def normI (x : IVec S16x64 32) (sz : BitVec 32) : IVec S16x64 32 :=
  select (cmpi .slt x (broadcastInDim S16x64 ![] bcast_S_S16x64 (constantI S_ 32 0#32)))
    (addi x (broadcastInDim S16x64 ![] bcast_S_S16x64 (constantI S_ 32 sz))) x

/-- A word whose signed value is not negative is left as it is by `select (x < 0) (x + size) x`. -/
theorem norm_word (x sz : BitVec 32) (hx : 0 ≤ x.toInt) :
    Scalar.select (IntOp.cmpi .slt x 0#32) (IntOp.addi x sz) x = x := by
  have hlt : x.slt 0#32 = false := by
    simp only [BitVec.slt, BitVec.toInt_zero]
    exact decide_eq_false (by omega)
  have h : IntOp.cmpi .slt x 0#32 = 0#1 := by
    unfold IntOp.cmpi
    show BitVec.ofBool (x.slt 0#32) = 0#1
    rw [hlt]; rfl
  rw [h, select_zero]

/-- The normalisation at an index where the component is not negative. -/
theorem normI_apply (x : IVec S16x64 32) (sz : BitVec 32) (i : S16x64.Idx) (hx : 0 ≤ (x i).toInt) : normI x sz i = x i :=
  norm_word (x i) sz hx

/-- The four components laid side by side along a new last axis: the start-index array of a gather. -/
def startIdx (x0 x1 x2 x3 : IVec S16x64 32) : IVec S16x64x4 32 :=
  concatenate S16x64x4 2 [⟨S16x64x1, broadcastInDim S16x64x1 ![0, 1] bcast_S16x64_S16x64x1_0_1 x0⟩,
    ⟨S16x64x1, broadcastInDim S16x64x1 ![0, 1] bcast_S16x64_S16x64x1_0_1 x1⟩,
    ⟨S16x64x1, broadcastInDim S16x64x1 ![0, 1] bcast_S16x64_S16x64x1_0_1 x2⟩,
    ⟨S16x64x1, broadcastInDim S16x64x1 ![0, 1] bcast_S16x64_S16x64x1_0_1 x3⟩]
    concatenates_S16x64x1_S16x64x1_S16x64x1_S16x64x1_S16x64x4_d2

/-- A per-box array given a unit last axis reads, at `(b, n, 0)`, the array at `(b, n)`. -/
theorem unitLast_apply (x : IVec S16x64 32) (b : Fin 16) (n : Fin 64) :
    broadcastInDim S16x64x1 ![0, 1] bcast_S16x64_S16x64x1_0_1 x (ix3 b n 0) = x (ix2 b n) :=
  broadcastInDim_apply _ _ _ _ _ (fun a => by
    match a with
    | ⟨0, _⟩ => rfl
    | ⟨1, _⟩ => rfl)

/-- Component `k` of the start index at `(b, n)` is the `k`-th array at `(b, n)`. -/
theorem startIdx_apply (x0 x1 x2 x3 : IVec S16x64 32) (b : Fin 16) (n : Fin 64) :
    startIdx x0 x1 x2 x3 (ix3 b n 0) = x0 (ix2 b n) ∧ startIdx x0 x1 x2 x3 (ix3 b n 1) = x1 (ix2 b n) ∧
    startIdx x0 x1 x2 x3 (ix3 b n 2) = x2 (ix2 b n) ∧ startIdx x0 x1 x2 x3 (ix3 b n 3) = x3 (ix2 b n) := by
  refine ⟨?_, ?_, ?_, ?_⟩
  · rw [← unitLast_apply x0 b n]
    unfold startIdx
    refine concatenate_apply_piece (t := S16x64x4) 2 _ _
      (ix3 b n 0) 0 ?_ S16x64x1 _ ?_ rfl 0 ?_ (ix3 b n 0) ?_ ?_
    · exact (by decide : 0 < 4)
    · rfl
    · rfl
    · intro a ha
      match a with
      | ⟨0, _⟩ => rfl
      | ⟨1, _⟩ => rfl
      | ⟨2, _⟩ => exact absurd rfl ha
    · rfl
  · rw [← unitLast_apply x1 b n]
    unfold startIdx
    refine concatenate_apply_piece (t := S16x64x4) 2 _ _
      (ix3 b n 1) 1 ?_ S16x64x1 _ ?_ rfl 1 ?_ (ix3 b n 0) ?_ ?_
    · exact (by decide : 1 < 4)
    · rfl
    · rfl
    · intro a ha
      match a with
      | ⟨0, _⟩ => rfl
      | ⟨1, _⟩ => rfl
      | ⟨2, _⟩ => exact absurd rfl ha
    · rfl
  · rw [← unitLast_apply x2 b n]
    unfold startIdx
    refine concatenate_apply_piece (t := S16x64x4) 2 _ _
      (ix3 b n 2) 2 ?_ S16x64x1 _ ?_ rfl 2 ?_ (ix3 b n 0) ?_ ?_
    · exact (by decide : 2 < 4)
    · rfl
    · rfl
    · intro a ha
      match a with
      | ⟨0, _⟩ => rfl
      | ⟨1, _⟩ => rfl
      | ⟨2, _⟩ => exact absurd rfl ha
    · rfl
  · rw [← unitLast_apply x3 b n]
    unfold startIdx
    refine concatenate_apply_piece (t := S16x64x4) 2 _ _
      (ix3 b n 3) 3 ?_ S16x64x1 _ ?_ rfl 3 ?_ (ix3 b n 0) ?_ ?_
    · exact (by decide : 3 < 4)
    · rfl
    · rfl
    · intro a ha
      match a with
      | ⟨0, _⟩ => rfl
      | ⟨1, _⟩ => rfl
      | ⟨2, _⟩ => exact absurd rfl ha
    · rfl

/-! ## One channel of `preds` gathered at every box's cell -/

/-- THE SHARED SHAPE of the six gathers. The start index of box `(b, n)` has a batch component whose signed value
    is `b`, a channel component whose signed value is `ch b n < 85`, and the normalised grid row and column of the
    box; in the domain of the claim neither the normalisation nor the gather's clamp changes a component, and the
    gather is channel `ch` of `preds` at each box's cell. -/
theorem gather_boxes (P : Preds) (tg : Targets) (hr : InRange tg) (xb xc : IVec S16x64 32) (ch : Fin 16 → Fin 64 → ℕ)
    (hb : ∀ b n, (xb (ix2 b n)).toInt = (b.val : ℤ))
    (hc : ∀ b n, (xc (ix2 b n)).toInt = (ch b n : ℤ)) (hch : ∀ b n, ch b n < 85) :
    Host.gather GD P (startIdx xb xc (normI (gjA tg) 128#32) (normI (giA tg) 128#32)) = gatA P tg ch := by
  funext i
  obtain ⟨b, n, rfl⟩ : ∃ b n, i = ix2 b n := ⟨i 0, i 1, eq_ix2 i⟩
  obtain ⟨e0, e1, e2, e3⟩ := startIdx_apply xb xc (normI (gjA tg) 128#32) (normI (giA tg) 128#32) b n
  rw [gather_at P _ b n (ch b n) (gjN tg b n) (giN tg b n) (hch b n) (gjN_lt hr b n) (giN_lt hr b n)
    (by rw [e0]; exact hb b n) (by rw [e1]; exact hc b n)
    (by rw [e2, normI_apply _ _ _ (hr.gj_lo _)]; exact gjA_toInt hr b n)
    (by rw [e3, normI_apply _ _ _ (hr.gi_lo _)]; exact giA_toInt hr b n)]
  show _ = PE P b (ch b n) (gjN tg b n) (giN tg b n)
  unfold PE
  simp only [Nat.mod_eq_of_lt (hch b n), Nat.mod_eq_of_lt (gjN_lt hr b n), Nat.mod_eq_of_lt (giN_lt hr b n)]

/-- The batch number of every box of batch `b`, as a word: the row number laid along the boxes. -/
theorem kt_v27_apply (o : FVec Ideal S1x2 .f32) (P : Preds) (tg : Targets) (b : Fin 16) (n : Fin 64) :
    kt_main_v27 (F := Ideal) o P tg (ix2 b n) = BitVec.ofNat 32 b.val := rfl

/-- The normalised batch component reads signed as the batch number. -/
theorem batch_toInt (o : FVec Ideal S1x2 .f32) (P : Preds) (tg : Targets) (b : Fin 16) (n : Fin 64) :
    (normI (kt_main_v27 (F := Ideal) o P tg) 16#32 (ix2 b n)).toInt = (b.val : ℤ) := by
  have h : (kt_main_v27 (F := Ideal) o P tg (ix2 b n)).toInt = (b.val : ℤ) := by
    rw [kt_v27_apply]; exact StableHlo.Predicate.toInt_ofNat_small _ (by have := b.isLt; omega)
  rw [normI_apply _ _ _ (by rw [h]; omega), h]

/-- A constant channel number laid over the boxes. -/
def constCh (k : BitVec 32) : IVec S16x64 32 := broadcastInDim S16x64 ![] bcast_S_S16x64 (constantI S_ 32 k)

/-- It reads the constant at every box. -/
theorem constCh_apply (k : BitVec 32) (i : S16x64.Idx) : constCh k i = k := rfl

/-- The gather of a constant channel `k < 85`. -/
theorem gather_constCh (o : FVec Ideal S1x2 .f32) (P : Preds) (tg : Targets) (hr : InRange tg) (k : ℕ) (hk : k < 85) :
    Host.gather GD P (startIdx (normI (kt_main_v27 (F := Ideal) o P tg) 16#32) (constCh (BitVec.ofNat 32 k))
      (normI (gjA tg) 128#32) (normI (giA tg) 128#32)) = gatA P tg (fun _ _ => k) :=
  gather_boxes P tg hr _ _ _ (batch_toInt o P tg)
    (fun b n => by rw [constCh_apply]; exact StableHlo.Predicate.toInt_ofNat_small _ (by omega)) (fun _ _ => hk)

/-- Channel 4 at every box's cell. -/
theorem kt_v50_eq (o : FVec Ideal S1x2 .f32) (P : Preds) (tg : Targets) (hr : InRange tg) :
    kt_main_v50 (F := Ideal) o P tg = gatA P tg (fun _ _ => 4) :=
  gather_constCh o P tg hr 4 (by norm_num)

/-- Channel 0 at every box's cell. -/
theorem kt_v101_eq (o : FVec Ideal S1x2 .f32) (P : Preds) (tg : Targets) (hr : InRange tg) :
    kt_main_v101 (F := Ideal) o P tg = gatA P tg (fun _ _ => 0) :=
  gather_constCh o P tg hr 0 (by norm_num)

/-- Channel 1 at every box's cell. -/
theorem kt_v124_eq (o : FVec Ideal S1x2 .f32) (P : Preds) (tg : Targets) (hr : InRange tg) :
    kt_main_v124 (F := Ideal) o P tg = gatA P tg (fun _ _ => 1) :=
  gather_constCh o P tg hr 1 (by norm_num)

/-- Channel 2 at every box's cell. -/
theorem kt_v147_eq (o : FVec Ideal S1x2 .f32) (P : Preds) (tg : Targets) (hr : InRange tg) :
    kt_main_v147 (F := Ideal) o P tg = gatA P tg (fun _ _ => 2) :=
  gather_constCh o P tg hr 2 (by norm_num)

/-- Channel 3 at every box's cell. -/
theorem kt_v170_eq (o : FVec Ideal S1x2 .f32) (P : Preds) (tg : Targets) (hr : InRange tg) :
    kt_main_v170 (F := Ideal) o P tg = gatA P tg (fun _ _ => 3) :=
  gather_constCh o P tg hr 3 (by norm_num)

/-- The class channel of a box, `5 +` its label in 32-bit words, reads signed as the natural `5 + label`: the sum
    does not wrap. -/
theorem kt_v52_toInt (o : FVec Ideal S1x2 .f32) (P : Preds) (tg : Targets) (hr : InRange tg) (b : Fin 16) (n : Fin 64) :
    (kt_main_v52 (F := Ideal) o P tg (ix2 b n)).toInt = ((5 + clsN tg b n : ℕ) : ℤ) := by
  have e : kt_main_v52 (F := Ideal) o P tg (ix2 b n) = 5#32 + clsA tg (ix2 b n) := rfl
  have h5 : (5#32 : BitVec 32).toInt = 5 := by decide
  have hc := clsA_toInt hr b n
  have hl := clsN_lt hr b n
  rw [e, WordArith.toInt_add_of_bounds _ _ (by rw [h5, hc]; omega) (by rw [h5, hc]; omega), h5, hc]
  omega

/-- The labelled class channel `5 + cls` at every box's cell. -/
theorem kt_v78_eq (o : FVec Ideal S1x2 .f32) (P : Preds) (tg : Targets) (hr : InRange tg) :
    kt_main_v78 (F := Ideal) o P tg = gatA P tg (fun b n => 5 + clsN tg b n) := by
  have e : kt_main_v78 (F := Ideal) o P tg = Host.gather GD P (startIdx (normI (kt_main_v27 (F := Ideal) o P tg) 16#32)
      (normI (kt_main_v52 (F := Ideal) o P tg) 85#32) (normI (gjA tg) 128#32) (normI (giA tg) 128#32)) := rfl
  rw [e]
  exact gather_boxes P tg hr _ _ _ (batch_toInt o P tg)
    (fun b n => by
      rw [normI_apply _ _ _ (by rw [kt_v52_toInt o P tg hr b n]; omega)]
      exact kt_v52_toInt o P tg hr b n)
    (fun b n => by have := clsN_lt hr b n; omega)

end Cert.KernelIdeal.Tail

end
-- ==== Proof.KMask.lean ====
/-
  The two masks of the kernel program's tail: which boxes count.

  A batch's 64 boxes each name a cell of the 128 × 128 grid (and a label). The program keeps, of the boxes of a batch
  that name the same cell, only the first: for every box `n` it counts the boxes `m ≤ n` whose flat cell index equals
  that of `n` (an integer sum of 64 words `0` or `1` along the last axis of a `16 × 64 × 64` box of bits), compares
  the count with `1` and converts the bit to a float. The count is `1` exactly when no earlier box names the cell, i.e.
  when `n` is a first occurrence of its cell in the batch. The class mask is the same with the (cell, label) pair in
  place of the cell.

  * `toNat_reduce_select_count`: the integer sum along the last axis of a box of `1`/`0` words is the number of set bits;
  * on the domain (labels below 80, grid coordinates below 128) equal flat-index words mean equal cells and equal
    label words equal labels (the bridge from words to numbers is the specification's: `idxA_eq_iff`, `pairIdx_eq_iff`);
  * `kt_v177_apply` … `kt_v200_eq_one_iff`: the stages of the two masks read at an index;
  * `kt_v188_toNat`, `kt_v203_toNat`: the two counts;
  * `kt_v191_apply`, `kt_v206_apply`: the two masks are the indicators of the first occurrences.
-/
import proofs.«175006_j89550068121905_1_alg».proof.Proof.KTailStages
import proofs.«175006_j89550068121905_1_alg».proof.Proof.Spec
import proofs.«175006_j89550068121905_1_alg».proof.Proof.SpecFacts
import Idealize.ShloMosaic.Lib.ValueIdx
import Idealize.ShloMosaic.Lib.Pipeline.Value
import Idealize.ShloMosaic.Lib.StableHlo.Predicate

noncomputable section

namespace Cert.KernelIdeal.Tail

open Cert.KernelIdeal Cert.KernelIdeal.Gen Idealize.ShloMosaic Idealize.ShloMosaic.StableHlo
open Cert.Spec Idealize.ShloMosaic.ValueIdx

/-- The comparison of positions: at row `n`, column `m`, the bit of `m ≤ n`. -/
theorem kt_v177_apply (o) (P : Preds) (tg : Targets) (n m : Fin 64) :
    kt_main_v177 (F := Ideal) o P tg (ix2 n m) = IntOp.cmpi .sle (BitVec.ofNat 32 m.val) (BitVec.ofNat 32 n.val) := by
  unfold kt_main_v177
  show IntOp.cmpi .sle (kt_main_v175 (F := Ideal) o P tg (ix2 n m)) (kt_main_v176 (F := Ideal) o P tg (ix2 n m)) = _
  have e1 : kt_main_v175 (F := Ideal) o P tg (ix2 n m) = BitVec.ofNat 32 m.val := by
    unfold kt_main_v175 kt_main_v174 kt_main_v173
    rw [broadcastInDim_apply ![0, 1] bcast_S1x64_S64x64_0_1 _ (ix2 n m) (ix2 (0 : Fin 1) m) (by intro a; fin_cases a <;> rfl)]
    rw [broadcastInDim_apply ![1] bcast_S64_S1x64_1 _ (ix2 (0 : Fin 1) m) (ix1 m) (by intro a; fin_cases a; rfl)]
    rfl
  have e2 : kt_main_v176 (F := Ideal) o P tg (ix2 n m) = BitVec.ofNat 32 n.val := by
    unfold kt_main_v176 kt_main_v172 kt_main_v171
    rw [broadcastInDim_apply ![0, 1] bcast_S64x1_S64x64_0_1 _ (ix2 n m) (ix2 n (0 : Fin 1)) (by intro a; fin_cases a <;> rfl)]
    rw [broadcastInDim_apply ![0] bcast_S64_S64x1_0 _ (ix2 n (0 : Fin 1)) (ix1 n) (by intro a; fin_cases a; rfl)]
    rfl
  rw [e1, e2]

/-! ## Counting along the last axis of a box of bits -/

/-- Summing, along the last axis of an `A × B × C` box, the words `1` where a bit is set and `0` where it is not gives at
`(a, b)` the number of positions `c` whose bit is set (`C` below `2³²`, so the sum of words does not wrap). -/
theorem toNat_reduce_select_count {A B C : Nat} (hC : C < 2 ^ 32) (mask : IVec ⟨3, ![A, B, C]⟩ 1)
    (one zero : IVec ⟨3, ![A, B, C]⟩ 32) (h1 : ∀ i, one i = 1#32) (h0 : ∀ i, zero i = 0#32)
    (h : (⟨3, ![A, B, C]⟩ : Shape).ReducesTo [2] ⟨2, ![A, B]⟩) {u : Shape} (hu : 0 < u.numel) (a : Fin A) (b : Fin B) :
    (Host.reduce IntOp.addi (select mask one zero) (constantI u 32 0#32) h hu (ix2 a b)).toNat
      = (Finset.univ.filter (fun c : Fin C => mask (ix3 a b c) = 1#1)).card := by
  classical
  rw [Host.reduce_eq_fold]
  -- each summand is the indicator of its bit
  have hval : ∀ i, (select mask one zero i).toNat = if mask i = 1#1 then 1 else 0 := by
    intro i
    rw [select_apply, h1, h0]
    rcases BitVec.eq_zero_or_eq_one (mask i) with e | e <;> rw [e] <;> rfl
  -- the indices over `(a, b)` are exactly the `(a, b, c)`
  have hdrop : ∀ i : (⟨3, ![A, B, C]⟩ : Shape).Idx, h.drop i = ix2 a b ↔ (i 0 = a ∧ i 1 = b) := by
    intro i
    have hv0 : (h.drop i 0 : Nat) = i 0 := Shape.ReducesTo.drop_apply_val h i 0
    have hv1 : (h.drop i 1 : Nat) = i 1 := Shape.ReducesTo.drop_apply_val h i 1
    constructor
    · intro e
      rw [e] at hv0 hv1
      exact ⟨Fin.ext hv0.symm, Fin.ext hv1.symm⟩
    · rintro ⟨e0, e1⟩
      funext d
      match d with
      | ⟨0, _⟩ => exact Fin.ext (hv0.trans (congrArg Fin.val e0))
      | ⟨1, _⟩ => exact Fin.ext (hv1.trans (congrArg Fin.val e1))
  obtain ⟨emb, hemb⟩ : ∃ e : Fin C ↪ (⟨3, ![A, B, C]⟩ : Shape).Idx, ∀ c, e c = ix3 a b c :=
    ⟨⟨fun c => ix3 a b c, fun c c' e => congrFun e 2⟩, fun _ => rfl⟩
  have hset : (Finset.univ.filter fun i : (⟨3, ![A, B, C]⟩ : Shape).Idx => h.drop i = ix2 a b) = Finset.univ.map emb := by
    ext i
    simp only [Finset.mem_filter, Finset.mem_univ, true_and, Finset.mem_map]
    rw [hdrop]
    constructor
    · rintro ⟨e0, e1⟩
      refine ⟨i 2, (hemb _).trans ?_⟩
      funext d
      match d with
      | ⟨0, _⟩ => exact e0.symm
      | ⟨1, _⟩ => exact e1.symm
      | ⟨2, _⟩ => rfl
    · rintro ⟨c, rfl⟩
      rw [hemb]
      exact ⟨rfl, rfl⟩
  have hsum : ∑ c : Fin C, ((select mask one zero ∘ emb) c).toNat
      = (Finset.univ.filter (fun c : Fin C => mask (ix3 a b c) = 1#1)).card := by
    rw [Finset.card_filter]
    refine Finset.sum_congr rfl fun c _ => ?_
    rw [Function.comp_apply, hemb, hval]
  show (Finset.fold IntOp.addi 0#32 (select mask one zero) (Finset.univ.filter fun i : (⟨3, ![A, B, C]⟩ : Shape).Idx => h.drop i = ix2 a b)).toNat = _
  rw [hset, Finset.fold_map]
  rw [Predicate.toNat_fold_addi _ _ (by
    rw [hsum]; exact lt_of_le_of_lt (Finset.card_le_univ _) (by simpa using hC)), hsum]

/-! ## The stages read at an index -/

/-- The flat-index stage is the specification's flat-index array, and the label stage its label array: the same operations. -/
private theorem kmask_v24_eq (o) (P : Preds) (tg : Targets) : kt_main_v24 (F := Ideal) o P tg = idxA tg := rfl
private theorem kmask_v7_eq (o) (P : Preds) (tg : Targets) : kt_main_v7 (F := Ideal) o P tg = clsA tg := rfl

/-- A per-box array laid along the second axis of the `16 × 64 × 64` box reads, at `(b, n, m)`, the array at `(b, n)`. -/
private theorem kmask_bcast_rows {α : Type} (x : S16x64.Idx → α) (b : Fin 16) (n m : Fin 64) :
    broadcastInDim S16x64x64 ![0, 1, 2] bcast_S16x64x1_S16x64x64_0_1_2
      (broadcastInDim S16x64x1 ![0, 1] bcast_S16x64_S16x64x1_0_1 x) (ix3 b n m) = x (ix2 b n) := by
  rw [broadcastInDim_apply ![0, 1, 2] bcast_S16x64x1_S16x64x64_0_1_2 _ (ix3 b n m) (ix3 b n (0 : Fin 1)) (by intro a; fin_cases a <;> rfl)]
  rw [broadcastInDim_apply ![0, 1] bcast_S16x64_S16x64x1_0_1 _ (ix3 b n (0 : Fin 1)) (ix2 b n) (by intro a; fin_cases a <;> rfl)]

/-- Laid along the third axis it reads, at `(b, n, m)`, the array at `(b, m)`. -/
private theorem kmask_bcast_cols {α : Type} (x : S16x64.Idx → α) (b : Fin 16) (n m : Fin 64) :
    broadcastInDim S16x64x64 ![0, 1, 2] bcast_S16x1x64_S16x64x64_0_1_2
      (broadcastInDim S16x1x64 ![0, 2] bcast_S16x64_S16x1x64_0_2 x) (ix3 b n m) = x (ix2 b m) := by
  rw [broadcastInDim_apply ![0, 1, 2] bcast_S16x1x64_S16x64x64_0_1_2 _ (ix3 b n m) (ix3 b (0 : Fin 1) m) (by intro a; fin_cases a <;> rfl)]
  rw [broadcastInDim_apply ![0, 2] bcast_S16x64_S16x1x64_0_2 _ (ix3 b (0 : Fin 1) m) (ix2 b m) (by intro a; fin_cases a <;> rfl)]

/-- A `64 × 64` table repeated over the batches reads, at `(b, n, m)`, the table at `(n, m)`. -/
private theorem kmask_bcast_batch {α : Type} (x : S64x64.Idx → α) (b : Fin 16) (n m : Fin 64) :
    broadcastInDim S16x64x64 ![0, 1, 2] bcast_S1x64x64_S16x64x64_0_1_2
      (broadcastInDim S1x64x64 ![1, 2] bcast_S64x64_S1x64x64_1_2 x) (ix3 b n m) = x (ix2 n m) := by
  rw [broadcastInDim_apply ![0, 1, 2] bcast_S1x64x64_S16x64x64_0_1_2 _ (ix3 b n m) (ix3 (0 : Fin 1) n m) (by intro a; fin_cases a <;> rfl)]
  rw [broadcastInDim_apply ![1, 2] bcast_S64x64_S1x64x64_1_2 _ (ix3 (0 : Fin 1) n m) (ix2 n m) (by intro a; fin_cases a <;> rfl)]

/-- Equal flat indices: at `(b, n, m)`, the bit of `idx (b, n) = idx (b, m)`. -/
theorem kt_v182_apply (o) (P : Preds) (tg : Targets) (b : Fin 16) (n m : Fin 64) :
    kt_main_v182 (F := Ideal) o P tg (ix3 b n m) = IntOp.cmpi .eq (idxA tg (ix2 b n)) (idxA tg (ix2 b m)) := by
  show IntOp.cmpi .eq (kt_main_v180 (F := Ideal) o P tg (ix3 b n m)) (kt_main_v181 (F := Ideal) o P tg (ix3 b n m)) = _
  have e1 : kt_main_v180 (F := Ideal) o P tg (ix3 b n m) = idxA tg (ix2 b n) := kmask_bcast_rows (idxA tg) b n m
  have e2 : kt_main_v181 (F := Ideal) o P tg (ix3 b n m) = idxA tg (ix2 b m) := kmask_bcast_cols (idxA tg) b n m
  rw [e1, e2]

/-- Equal labels: at `(b, n, m)`, the bit of `cls (b, n) = cls (b, m)`. -/
theorem kt_v196_apply (o) (P : Preds) (tg : Targets) (b : Fin 16) (n m : Fin 64) :
    kt_main_v196 (F := Ideal) o P tg (ix3 b n m) = IntOp.cmpi .eq (clsA tg (ix2 b n)) (clsA tg (ix2 b m)) := by
  show IntOp.cmpi .eq (kt_main_v194 (F := Ideal) o P tg (ix3 b n m)) (kt_main_v195 (F := Ideal) o P tg (ix3 b n m)) = _
  have e1 : kt_main_v194 (F := Ideal) o P tg (ix3 b n m) = clsA tg (ix2 b n) := kmask_bcast_rows (clsA tg) b n m
  have e2 : kt_main_v195 (F := Ideal) o P tg (ix3 b n m) = clsA tg (ix2 b m) := kmask_bcast_cols (clsA tg) b n m
  rw [e1, e2]

/-- The comparison of positions repeated over the batches: at `(b, n, m)`, the bit of `m ≤ n`. -/
theorem kt_v184_apply (o) (P : Preds) (tg : Targets) (b : Fin 16) (n m : Fin 64) :
    kt_main_v184 (F := Ideal) o P tg (ix3 b n m) = IntOp.cmpi .sle (BitVec.ofNat 32 m.val) (BitVec.ofNat 32 n.val) :=
  (kmask_bcast_batch (kt_main_v177 (F := Ideal) o P tg) b n m).trans (kt_v177_apply o P tg n m)

theorem kt_v199_apply (o) (P : Preds) (tg : Targets) (b : Fin 16) (n m : Fin 64) :
    kt_main_v199 (F := Ideal) o P tg (ix3 b n m) = IntOp.cmpi .sle (BitVec.ofNat 32 m.val) (BitVec.ofNat 32 n.val) :=
  (kmask_bcast_batch (kt_main_v177 (F := Ideal) o P tg) b n m).trans (kt_v177_apply o P tg n m)

/-- The conjunction of two bits is set exactly when both are. -/
private theorem kmask_andi_eq_one_iff (x y : BitVec 1) : IntOp.andi x y = 1#1 ↔ x = 1#1 ∧ y = 1#1 := by
  rcases BitVec.eq_zero_or_eq_one x with rfl | rfl <;> rcases BitVec.eq_zero_or_eq_one y with rfl | rfl <;> decide

/-- Positions compare as numbers. -/
private theorem kmask_sle_pos (n m : Fin 64) :
    IntOp.cmpi .sle (BitVec.ofNat 32 m.val) (BitVec.ofNat 32 n.val) = 1#1 ↔ m ≤ n := by
  have hm := m.isLt
  have hn := n.isLt
  exact (Predicate.sle_ofNat_iff m.val n.val (by omega) (by omega)).trans Fin.le_def.symm

/-- The object mask's bit at `(b, n, m)`: box `m` names the cell of box `n` and is not after it. -/
theorem kt_v185_eq_one_iff (o) (P : Preds) (tg : Targets) (hr : InRange tg) (b : Fin 16) (n m : Fin 64) :
    kt_main_v185 (F := Ideal) o P tg (ix3 b n m) = 1#1 ↔ (cellIdx tg b n = cellIdx tg b m ∧ m ≤ n) := by
  show IntOp.andi (kt_main_v182 (F := Ideal) o P tg (ix3 b n m)) (kt_main_v184 (F := Ideal) o P tg (ix3 b n m)) = 1#1 ↔ _
  rw [kmask_andi_eq_one_iff, kt_v182_apply, kt_v184_apply, Predicate.cmpi_eq_iff, idxA_eq_iff hr b n m, kmask_sle_pos]

/-- The class mask's bit at `(b, n, m)`: box `m` names the (cell, label) pair of box `n` and is not after it. -/
theorem kt_v200_eq_one_iff (o) (P : Preds) (tg : Targets) (hr : InRange tg) (b : Fin 16) (n m : Fin 64) :
    kt_main_v200 (F := Ideal) o P tg (ix3 b n m) = 1#1 ↔ (pairIdx tg b n = pairIdx tg b m ∧ m ≤ n) := by
  show IntOp.andi (IntOp.andi (kt_main_v182 (F := Ideal) o P tg (ix3 b n m)) (kt_main_v196 (F := Ideal) o P tg (ix3 b n m)))
    (kt_main_v199 (F := Ideal) o P tg (ix3 b n m)) = 1#1 ↔ _
  rw [kmask_andi_eq_one_iff, kmask_andi_eq_one_iff, kt_v182_apply, kt_v196_apply, kt_v199_apply, Predicate.cmpi_eq_iff,
    Predicate.cmpi_eq_iff, ← pairIdx_eq_iff hr b n m, kmask_sle_pos]

/-- The object count at box `(b, n)`: the number of boxes up to `n` that name its cell. -/
theorem kt_v188_toNat (o) (P : Preds) (tg : Targets) (hr : InRange tg) (b : Fin 16) (n : Fin 64) :
    (kt_main_v188 (F := Ideal) o P tg (ix2 b n)).toNat
      = (Finset.univ.filter fun m : Fin 64 => cellIdx tg b n = cellIdx tg b m ∧ m ≤ n).card := by
  have h := toNat_reduce_select_count (A := 16) (B := 64) (C := 64) (by norm_num) (kt_main_v185 (F := Ideal) o P tg)
    (kt_main_call0_v0 (F := Ideal) o P tg) (kt_main_call0_v1 (F := Ideal) o P tg) (fun _ => rfl) (fun _ => rfl)
    reducesTo_S16x64x64_S16x64_d2 h_S_ b n
  refine Eq.trans h ?_
  exact congrArg Finset.card (Finset.filter_congr fun m _ => kt_v185_eq_one_iff o P tg hr b n m)

/-- The class count at box `(b, n)`: the number of boxes up to `n` that name its (cell, label) pair. -/
theorem kt_v203_toNat (o) (P : Preds) (tg : Targets) (hr : InRange tg) (b : Fin 16) (n : Fin 64) :
    (kt_main_v203 (F := Ideal) o P tg (ix2 b n)).toNat
      = (Finset.univ.filter fun m : Fin 64 => pairIdx tg b n = pairIdx tg b m ∧ m ≤ n).card := by
  have h := toNat_reduce_select_count (A := 16) (B := 64) (C := 64) (by norm_num) (kt_main_v200 (F := Ideal) o P tg)
    (kt_main_call1_v0 (F := Ideal) o P tg) (kt_main_call1_v1 (F := Ideal) o P tg) (fun _ => rfl) (fun _ => rfl)
    reducesTo_S16x64x64_S16x64_d2 h_S_ b n
  refine Eq.trans h ?_
  exact congrArg Finset.card (Finset.filter_congr fun m _ => kt_v200_eq_one_iff o P tg hr b n m)

/-- A count word compared with `1` and converted to a float is `1` when the count is one and `0` otherwise. -/
private theorem kmask_convert_count_eq_one (c : BitVec 32) (p : Prop) [Decidable p] (hp : c.toNat = 1 ↔ p) :
    (((IntOp.cmpi .eq c 1#32).toNat : ℝ) : EReal) = (((if p then (1 : ℝ) else 0 : ℝ)) : EReal) := by
  by_cases h : p
  · have hc : c = 1#32 := BitVec.eq_of_toNat_eq (hp.2 h)
    have h1 : (IntOp.cmpi .eq (1#32) (1#32)).toNat = 1 := rfl
    rw [if_pos h, hc, h1, Nat.cast_one]
  · have hc : IntOp.cmpi .eq c 1#32 = 0#1 :=
      eq_zero_of_ne_one fun e => h (hp.1 (by rw [Predicate.cmpi_eq_iff.1 e]; rfl))
    have h0 : (0#1 : BitVec 1).toNat = 0 := rfl
    rw [if_neg h, hc, h0, Nat.cast_zero]

/-- THE OBJECT MASK: `1` at the boxes that are the first of their batch to name their cell, `0` at the repeats. -/
theorem kt_v191_apply (o) (P : Preds) (tg : Targets) (hr : InRange tg) (b : Fin 16) (n : Fin 64) :
    kt_main_v191 (F := Ideal) o P tg (ix2 b n) = (((if FirstOcc.IsFirst (cellIdx tg b) n then (1 : ℝ) else 0 : ℝ)) : EReal) := by
  show (((IntOp.cmpi .eq (kt_main_v188 (F := Ideal) o P tg (ix2 b n)) 1#32).toNat : ℝ) : EReal) = _
  refine kmask_convert_count_eq_one _ _ ?_
  rw [kt_v188_toNat o P tg hr b n]
  exact FirstOcc.card_le_eq_one_iff (cellIdx tg b) n

/-- THE CLASS MASK: `1` at the boxes that are the first of their batch to name their (cell, label) pair, `0` at the repeats. -/
theorem kt_v206_apply (o) (P : Preds) (tg : Targets) (hr : InRange tg) (b : Fin 16) (n : Fin 64) :
    kt_main_v206 (F := Ideal) o P tg (ix2 b n) = (((if FirstOcc.IsFirst (pairIdx tg b) n then (1 : ℝ) else 0 : ℝ)) : EReal) := by
  show (((IntOp.cmpi .eq (kt_main_v203 (F := Ideal) o P tg (ix2 b n)) 1#32).toNat : ℝ) : EReal) = _
  refine kmask_convert_count_eq_one _ _ ?_
  rw [kt_v203_toNat o P tg hr b n]
  exact FirstOcc.card_le_eq_one_iff (pairIdx tg b) n

end Cert.KernelIdeal.Tail

end
-- ==== Proof.KObjCls.lean ====
/-
  The kernel program's objectness and class terms.

  The region leaves the two `softplus` sums in a 1 × 2 array; the host reads each as a scalar (a slice, then a reshape).
  For each box `(b, n)` the host multiplies a 0/1 mask (1 at the first box of its batch that names its cell, or its
  (cell, label) pair) by the gathered channel of `preds` at the box's cell, and sums the products over all boxes.
  On finite `preds` every product is a real number, so each sum is the real sum `S2obj`, `S2cls`; the difference
  with the `softplus` sum, divided by the constant 16384 (respectively 1310720 = 16384 · 80), is `objR` (`clsR`).
  The readings of the two masks and of the two gathers are hypotheses here.
-/
import proofs.«175006_j89550068121905_1_alg».proof.Proof.KTailStages
import proofs.«175006_j89550068121905_1_alg».proof.Proof.Spec
import Idealize.ShloMosaic.Lib.ValueIdx
import Idealize.ShloMosaic.Lib.Pipeline.Value
import Idealize.ShloMosaic.PureOps.Ideal.Laws

noncomputable section

open scoped BigOperators

namespace Cert.KernelIdeal.Tail

open Cert.Spec Idealize.ShloMosaic.ValueIdx
open Cert.KernelIdeal Cert.KernelIdeal.Gen Idealize.ShloMosaic

/-- The pattern 0x46800000 is 2¹⁴ = 16384. -/
theorem kobj_ofBits_16384 : Ideal.ofBits .f32 0x46800000#32 = ((16384 : ℝ) : EReal) := by
  simp [Ideal.ofBits, Ideal.ieee, -EReal.coe_mul]; norm_num

/-- The pattern 0x49A00000 is 2²⁰ + 2¹⁸ = 1310720. -/
theorem kobj_ofBits_1310720 : Ideal.ofBits .f32 0x49A00000#32 = ((1310720 : ℝ) : EReal) := by
  simp [Ideal.ofBits, Ideal.ieee, -EReal.coe_mul]; norm_num

/-- A finite sum of coerced reals is the coerced sum. -/
theorem kobj_coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The region's first sum, read as a scalar. -/
theorem kt_v2_apply (o : FVec Ideal S1x2 .f32) (P : Preds) (tg : Targets) (j : S_.Idx) :
    kt_main_v2 (F := Ideal) o P tg j = o (ix2 0 0) := by
  unfold kt_main_v2 kt_main_v1
  rw [shapeCast_apply _ _ j (ix2 (0 : Fin 1) (0 : Fin 1)) (by
    have h1 : (S1x1.rowMajor (ix2 (0 : Fin 1) (0 : Fin 1))).val = 0 :=
      Nat.lt_one_iff.mp (lt_of_lt_of_eq (S1x1.rowMajor _).isLt (by decide))
    have h2 : (S_.rowMajor j).val = 0 := Nat.lt_one_iff.mp (lt_of_lt_of_eq (S_.rowMajor j).isLt (by decide))
    exact h1.trans h2.symm)]
  exact extractStridedSlice_apply _ _ _ _ (ix2 (0 : Fin 1) (0 : Fin 2)) (by
    intro a; match a with | ⟨0, _⟩ => rfl | ⟨1, _⟩ => rfl)

/-- The region's second sum, read as a scalar. -/
theorem kt_v4_apply (o : FVec Ideal S1x2 .f32) (P : Preds) (tg : Targets) (j : S_.Idx) :
    kt_main_v4 (F := Ideal) o P tg j = o (ix2 0 1) := by
  unfold kt_main_v4 kt_main_v3
  rw [shapeCast_apply _ _ j (ix2 (0 : Fin 1) (0 : Fin 1)) (by
    have h1 : (S1x1.rowMajor (ix2 (0 : Fin 1) (0 : Fin 1))).val = 0 :=
      Nat.lt_one_iff.mp (lt_of_lt_of_eq (S1x1.rowMajor _).isLt (by decide))
    have h2 : (S_.rowMajor j).val = 0 := Nat.lt_one_iff.mp (lt_of_lt_of_eq (S_.rowMajor j).isLt (by decide))
    exact h1.trans h2.symm)]
  exact extractStridedSlice_apply _ _ _ _ (ix2 (0 : Fin 1) (1 : Fin 2)) (by
    intro a; match a with | ⟨0, _⟩ => rfl | ⟨1, _⟩ => rfl)

/-- A gathered channel of finite `preds` is the coerced real. -/
theorem kobj_gatA_apply (P : Preds) (tg : Targets) (hP : Finite P) (ch : Fin 16 → Fin 64 → ℕ) (b : Fin 16) (n : Fin 64) :
    gatA P tg ch (ix2 b n) = ((PR P b (ch b n) (gjN tg b n) (giN tg b n) : ℝ) : EReal) := by
  show PE P b (ch b n) (gjN tg b n) (giN tg b n) = _
  unfold PR PE
  exact (hP.coe_toReal _).symm

/-- The host sum over both axes of a per-box array of coerced reals. -/
theorem kobj_hostSum (x : PerBox) (z : Scalar0) (f : Fin 16 → Fin 64 → ℝ) (hz : z = constant (F := Ideal) S_ .f32 0x00000000#32)
    (hx : ∀ b n, x (ix2 b n) = ((f b n : ℝ) : EReal)) (j : S_.Idx) :
    Host.reduceAdd x z reducesTo_S16x64_S_d0_1 h_S_ j = ((∑ b : Fin 16, ∑ n : Fin 64, f b n : ℝ) : EReal) := by
  subst hz
  show Ideal.hostReduceAdd reducesTo_S16x64_S_d0_1 x (constant (F := Ideal) S_ .f32 0x00000000#32 (Shape.Idx.first h_S_)) j = _
  rw [Ideal.hostReduceAdd_total _ (fun b => b.elim0), constant_apply, Ideal.ofBits_zero_f32, zero_add, sum_idx2,
    ← kobj_coe_sum]
  refine Finset.sum_congr rfl fun b _ => ?_
  rw [← kobj_coe_sum]
  exact Finset.sum_congr rfl fun n _ => hx b n

/-- The masked objectness sum. -/
theorem kt_v208_apply (o : FVec Ideal S1x2 .f32) (P : Preds) (tg : Targets) (hP : Finite P)
    (hg : kt_main_v50 (F := Ideal) o P tg = gatA P tg (fun _ _ => 4))
    (hm : ∀ (b : Fin 16) (n : Fin 64), kt_main_v191 (F := Ideal) o P tg (ix2 b n) = (((if FirstOcc.IsFirst (cellIdx tg b) n then (1 : ℝ) else 0 : ℝ)) : EReal))
    (j : S_.Idx) : kt_main_v208 (F := Ideal) o P tg j = ((S2obj P tg : ℝ) : EReal) := by
  unfold kt_main_v208 S2obj
  refine kobj_hostSum _ _ _ rfl (fun b n => ?_) j
  unfold kt_main_v207
  rw [mulf_apply, hm, hg, kobj_gatA_apply P tg hP, EReal.coe_mul]

/-- The masked class sum. -/
theorem kt_v210_apply (o : FVec Ideal S1x2 .f32) (P : Preds) (tg : Targets) (hP : Finite P)
    (hg : kt_main_v78 (F := Ideal) o P tg = gatA P tg (fun b n => 5 + clsN tg b n))
    (hm : ∀ (b : Fin 16) (n : Fin 64), kt_main_v206 (F := Ideal) o P tg (ix2 b n) = (((if FirstOcc.IsFirst (pairIdx tg b) n then (1 : ℝ) else 0 : ℝ)) : EReal))
    (j : S_.Idx) : kt_main_v210 (F := Ideal) o P tg j = ((S2cls P tg : ℝ) : EReal) := by
  unfold kt_main_v210 S2cls
  refine kobj_hostSum _ _ _ rfl (fun b n => ?_) j
  unfold kt_main_v209
  rw [mulf_apply, hm, hg, kobj_gatA_apply P tg hP, EReal.coe_mul]

/-- The objectness term. -/
theorem kt_v212_eq (o : FVec Ideal S1x2 .f32) (P : Preds) (tg : Targets) (hP : Finite P) (hr : InRange tg) (ho : IsSums P o)
    (hg : kt_main_v50 (F := Ideal) o P tg = gatA P tg (fun _ _ => 4))
    (hm : ∀ (b : Fin 16) (n : Fin 64), kt_main_v191 (F := Ideal) o P tg (ix2 b n) = (((if FirstOcc.IsFirst (cellIdx tg b) n then (1 : ℝ) else 0 : ℝ)) : EReal)) :
    kt_main_v212 (F := Ideal) o P tg = fun _ => ((objR P tg : ℝ) : EReal) := by
  funext j
  unfold kt_main_v212 kt_main_v211 kt_main_cst_55
  show Ideal.div (kt_main_v2 (F := Ideal) o P tg j - kt_main_v208 (F := Ideal) o P tg j)
    (constant (F := Ideal) S_ .f32 0x46800000#32 j) = _
  rw [kt_v2_apply, kt_v208_apply o P tg hP hg hm, ho.1, constant_apply, kobj_ofBits_16384,
    Ideal.div_coe (by norm_num), ← EReal.coe_sub, ← EReal.coe_mul]
  unfold objR
  rw [mul_one_div]

/-- The class term. -/
theorem kt_v214_eq (o : FVec Ideal S1x2 .f32) (P : Preds) (tg : Targets) (hP : Finite P) (hr : InRange tg) (ho : IsSums P o)
    (hg : kt_main_v78 (F := Ideal) o P tg = gatA P tg (fun b n => 5 + clsN tg b n))
    (hm : ∀ (b : Fin 16) (n : Fin 64), kt_main_v206 (F := Ideal) o P tg (ix2 b n) = (((if FirstOcc.IsFirst (pairIdx tg b) n then (1 : ℝ) else 0 : ℝ)) : EReal)) :
    kt_main_v214 (F := Ideal) o P tg = fun _ => ((clsR P tg : ℝ) : EReal) := by
  funext j
  unfold kt_main_v214 kt_main_v213 kt_main_cst_56
  show Ideal.div (kt_main_v4 (F := Ideal) o P tg j - kt_main_v210 (F := Ideal) o P tg j)
    (constant (F := Ideal) S_ .f32 0x49A00000#32 j) = _
  rw [kt_v4_apply, kt_v210_apply o P tg hP hg hm, ho.2, constant_apply, kobj_ofBits_1310720,
    Ideal.div_coe (by norm_num), ← EReal.coe_sub, ← EReal.coe_mul]
  unfold clsR
  rw [mul_one_div]

end Cert.KernelIdeal.Tail

end
-- ==== Proof.KFinal.lean ====
/-
  The kernel program's last host operations, read as the shared chains: its box term is the chain `boxFn` of the four
  gathered channels and the four target columns, and its result is `combine` of the box, objectness and class terms.
  Both hold by unfolding the operations' stages: the chains are those operations, in their order.
-/
import proofs.«175006_j89550068121905_1_alg».proof.Proof.KTailStages
import proofs.«175006_j89550068121905_1_alg».proof.Proof.Spec

set_option maxRecDepth 16384

noncomputable section

namespace Cert.KernelIdeal.Tail

open Cert.KernelIdeal Cert.KernelIdeal.Gen Cert.Spec Idealize.ShloMosaic

variable {F : FTy → Type} [FloatOps F]

set_option maxHeartbeats 4000000 in
/-- The box term is the shared chain of the gathered channels 0..3 and columns 1..4 of the targets. -/
theorem kt_v311_eq (o : (⟨S1x2, .f32⟩ : BufTy).Contents (Elt F)) (x0 : (⟨S16x85x128x128, .f32⟩ : BufTy).Contents (Elt F)) (x1 : (⟨S16x64x5, .f32⟩ : BufTy).Contents (Elt F)) :
    kt_main_v311 (F := F) o x0 x1
      = boxFn (F := F) (kt_main_v101 (F := F) o x0 x1) (kt_main_v124 (F := F) o x0 x1) (kt_main_v147 (F := F) o x0 x1) (kt_main_v170 (F := F) o x0 x1)
          (kt_main_v9 (F := F) o x0 x1) (kt_main_v11 (F := F) o x0 x1) (kt_main_v13 (F := F) o x0 x1) (kt_main_v15 (F := F) o x0 x1) := rfl

/-- The result is the weighted sum of the three terms. -/
theorem kt_v316_eq (o : (⟨S1x2, .f32⟩ : BufTy).Contents (Elt F)) (x0 : (⟨S16x85x128x128, .f32⟩ : BufTy).Contents (Elt F)) (x1 : (⟨S16x64x5, .f32⟩ : BufTy).Contents (Elt F)) :
    kt_main_v316 (F := F) o x0 x1
      = combine (F := F) (kt_main_v311 (F := F) o x0 x1) (kt_main_v212 (F := F) o x0 x1) (kt_main_v214 (F := F) o x0 x1) := rfl

end Cert.KernelIdeal.Tail

end
-- ==== Proof.RGather.lean ====
/-
  The reference's gather of the four box channels of `preds` at each box's cell.

  The reference lays `preds` out as `p[b, hw, c]` (a transpose and a reshape), keeps channels 0..3, and
  takes row `idx = gj · 128 + gi` of batch `b` for box `(b, n)`: the index is first normalised
  (`idx + 16384` where `idx < 0`), a mask `0 ≤ idx ≤ 16383` is formed, the row is gathered (with the start
  index clamped into the operand), and the result is kept where the mask holds and replaced by a NaN where it
  does not. In the domain of the claim `0 ≤ gj, gi < 128`, so `0 ≤ idx < 16384`: the normalisation and the
  clamp change nothing, the mask is all ones, and the gathered value is `preds[b, c, gj, gi]`, because
  `(gj · 128 + gi) / 128 = gj` and `(gj · 128 + gi) % 128 = gi`.
-/
import proofs.«175006_j89550068121905_1_alg».proof.Proof.RefRead
import proofs.«175006_j89550068121905_1_alg».proof.Proof.Spec
import proofs.«175006_j89550068121905_1_alg».proof.Proof.SpecFacts
import Idealize.ShloMosaic.Lib.ValueIdx
import Idealize.ShloMosaic.Lib.Pipeline.Value
import Idealize.ShloMosaic.Lib.StableHlo.Predicate

noncomputable section

namespace Cert.ReferenceIdeal.RefValue

open Cert.Spec Cert.ReferenceIdeal.Read Idealize.ShloMosaic Idealize.ShloMosaic.ValueIdx

/-! ## The columns of `targets` and the integer arrays, as the reference computes them -/

theorem val_v4_eq (tg : Targets) : val_main_v4 (F := Ideal) tg = clsA tg := rfl
theorem val_v15_eq (tg : Targets) : val_main_v15 (F := Ideal) tg = giA tg := rfl
theorem val_v18_eq (tg : Targets) : val_main_v18 (F := Ideal) tg = gjA tg := rfl
theorem val_v21_eq (tg : Targets) : val_main_v21 (F := Ideal) tg = idxA tg := rfl

theorem val_v6_eq (tg : Targets) : val_main_v6 (F := Ideal) tg = col1 tg := rfl
theorem val_v8_eq (tg : Targets) : val_main_v8 (F := Ideal) tg = col2 tg := rfl
theorem val_v10_eq (tg : Targets) : val_main_v10 (F := Ideal) tg = col3 tg := rfl
theorem val_v12_eq (tg : Targets) : val_main_v12 (F := Ideal) tg = col4 tg := rfl

/-! ## The normalised start index and the in-bounds mask -/

/-- The start indices `[16, 64, 1]` hold the flat index of box `(b, n)`. -/
theorem val_v65_apply_ix (tg : Targets) (b : Fin 16) (n : Fin 64) (z : Fin 1) :
    val_main_v65 (F := Ideal) tg (ix3 b n z) = idxA tg (ix2 b n) := by
  rw [val_main_v65_apply, val_v21_eq]
  congr 1
  funext a
  match a with
  | ⟨0, _⟩ => rfl
  | ⟨1, _⟩ => rfl

/-- In the domain the flat index is not negative, so the normalisation `select(idx < 0, idx + 16384, idx)`
    keeps it. -/
theorem val_call0_v4_apply_ix (tg : Targets) (hr : InRange tg) (b : Fin 16) (n : Fin 64) (z : Fin 1) :
    val_main_call0_v4 (F := Ideal) tg (ix3 b n z) = idxA tg (ix2 b n) := by
  rw [val_main_call0_v4_apply, val_main_call0_v1_apply, val_main_call0_v0_apply, val_main_call0_c_apply,
    val_v65_apply_ix]
  have hlt : ¬IntOp.cmpi .slt (idxA tg (ix2 b n)) 0#32 = 1#1 := by
    have h0 := idxA_nonneg hr b n
    have e0 : (0#32 : BitVec 32).toInt = 0 := by decide
    rw [IntOp.cmpi_slt, e0]
    omega
  rw [eq_zero_of_ne_one hlt, select_zero]

/-- In the domain `0 ≤ idx ≤ 16383` holds at every box. -/
theorem val_call0_v10_one (tg : Targets) (hr : InRange tg) (i : S16x64x1.Idx) :
    val_main_call0_v10 (F := Ideal) tg i = 1#1 := by
  obtain ⟨b, n, z, rfl⟩ : ∃ b n z, i = ix3 b n z := ⟨i 0, i 1, i 2, eq_ix3 i⟩
  rw [val_main_call0_v10_apply, val_main_call0_v6_apply, val_main_call0_v9_apply, val_call0_v4_apply_ix tg hr,
    val_main_call0_v5_apply, val_main_call0_c_2_apply, val_main_call0_v8_apply, val_main_call0_v7_apply,
    val_main_call0_c_1_apply, IntOp.andi_eq_one, IntOp.cmpi_sge, IntOp.cmpi_sle]
  have e0 : (0#32 : BitVec 32).toInt = 0 := by decide
  have e1 : (16383#32 : BitVec 32).toInt = 16383 := by decide
  have h0 := idxA_nonneg hr b n
  have h1 := idxA_lt hr b n
  rw [e0, e1]
  omega

/-- A left fold by `and` from 1 over words that are all 1 is 1. -/
private theorem rg_foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact rg_foldl_andi_one f hf l

/-- The mask reduced with `and` over its unit axis is all ones. -/
theorem val_call0_v11_one (tg : Targets) (hr : InRange tg) (j : S16x64.Idx) :
    val_main_call0_v11 (F := Ideal) tg j = 1#1 := by
  unfold val_main_call0_v11
  rw [Host.reduce_eq_foldl]
  exact rg_foldl_andi_one _ (val_call0_v10_one tg hr) _

/-! ## The gather with a batching axis, read at an index -/

/-- The operand index that result index `(b, n, c)` reads: batch `b` on the batching axis; on the collapsed,
    start-indexed axis the row `r`, the start index of box `(b, n)` read signed and clamped into `[0, 16383]`;
    channel `c` on the offset axis. -/
theorem gather_operandIdx_ix (idx : IVec S16x64x1 32) (b : Fin 16) (n : Fin 64) (c : Fin 4) (r : Fin 16384)
    (hr : r.val = min (idx (ix3 b n 0)).toInt.toNat 16383) :
    gather_S16x16384x4_S16x64x1_S16x64x4_2_1_0_0_1_2_114.operandIdx (ix3 b n c) idx = ix3 b r c := by
  funext a
  apply Fin.ext
  match a with
  | ⟨0, _⟩ =>
    have hs : gather_S16x16384x4_S16x64x1_S16x64x4_2_1_0_0_1_2_114.start (ix3 b n c) idx 0 = 0 := rfl
    have hb : gather_S16x16384x4_S16x64x1_S16x64x4_2_1_0_0_1_2_114.batchCoord (ix3 b n c) 0 = b.val := rfl
    have ho : gather_S16x16384x4_S16x64x1_S16x64x4_2_1_0_0_1_2_114.offCoord (ix3 b n c) 0 = 0 := rfl
    show gather_S16x16384x4_S16x64x1_S16x64x4_2_1_0_0_1_2_114.start (ix3 b n c) idx 0
        + gather_S16x16384x4_S16x64x1_S16x64x4_2_1_0_0_1_2_114.batchCoord (ix3 b n c) 0
        + gather_S16x16384x4_S16x64x1_S16x64x4_2_1_0_0_1_2_114.offCoord (ix3 b n c) 0 = b.val
    rw [hs, hb, ho, Nat.zero_add, Nat.add_zero]
  | ⟨1, _⟩ =>
    have hi : gather_S16x16384x4_S16x64x1_S16x64x4_2_1_0_0_1_2_114.siIdx (ix3 b n c) ⟨0, by decide⟩ = ix3 b n 0 := by
      funext a'
      match a' with
      | ⟨0, _⟩ => rfl
      | ⟨1, _⟩ => rfl
      | ⟨2, _⟩ => rfl
    have hs : gather_S16x16384x4_S16x64x1_S16x64x4_2_1_0_0_1_2_114.start (ix3 b n c) idx 1
        = min (idx (gather_S16x16384x4_S16x64x1_S16x64x4_2_1_0_0_1_2_114.siIdx (ix3 b n c) ⟨0, by decide⟩)).toInt.toNat 16383 := rfl
    have hb : gather_S16x16384x4_S16x64x1_S16x64x4_2_1_0_0_1_2_114.batchCoord (ix3 b n c) 1 = 0 := rfl
    have ho : gather_S16x16384x4_S16x64x1_S16x64x4_2_1_0_0_1_2_114.offCoord (ix3 b n c) 1 = 0 := rfl
    show gather_S16x16384x4_S16x64x1_S16x64x4_2_1_0_0_1_2_114.start (ix3 b n c) idx 1
        + gather_S16x16384x4_S16x64x1_S16x64x4_2_1_0_0_1_2_114.batchCoord (ix3 b n c) 1
        + gather_S16x16384x4_S16x64x1_S16x64x4_2_1_0_0_1_2_114.offCoord (ix3 b n c) 1 = r.val
    rw [hs, hb, ho, hi]
    omega
  | ⟨2, _⟩ =>
    have hs : gather_S16x16384x4_S16x64x1_S16x64x4_2_1_0_0_1_2_114.start (ix3 b n c) idx 2 = 0 := rfl
    have hb : gather_S16x16384x4_S16x64x1_S16x64x4_2_1_0_0_1_2_114.batchCoord (ix3 b n c) 2 = 0 := rfl
    have ho : gather_S16x16384x4_S16x64x1_S16x64x4_2_1_0_0_1_2_114.offCoord (ix3 b n c) 2 = c.val := rfl
    show gather_S16x16384x4_S16x64x1_S16x64x4_2_1_0_0_1_2_114.start (ix3 b n c) idx 2
        + gather_S16x16384x4_S16x64x1_S16x64x4_2_1_0_0_1_2_114.batchCoord (ix3 b n c) 2
        + gather_S16x16384x4_S16x64x1_S16x64x4_2_1_0_0_1_2_114.offCoord (ix3 b n c) 2 = c.val
    rw [hs, hb, ho, Nat.add_zero, Nat.zero_add]

/-! ## The gathered channels -/

/-- Row `gj · 128 + gi` of the layout `p[b, hw, c]`, at a channel `c < 4`, is `preds[b, c, gj, gi]`: the flat
    position `((b · 16384 + gj · 128 + gi) · 85 + c` of the transposed array has row `gj` and column `gi`. -/
theorem val_v64_apply_ix (P : Preds) (b : Fin 16) (gj gi : ℕ) (hj : gj < 128) (hi : gi < 128) (c : Fin 4) :
    val_main_v64 (F := Ideal) P (ix3 b ⟨gj * 128 + gi, by omega⟩ c) = PE P b c.val gj gi := by
  rw [val_main_v64_apply, val_main_v1_apply, val_main_v0_apply]
  unfold PE
  congr 1
  funext a
  have hb := b.isLt
  have hc := c.isLt
  match a with
  | ⟨0, _⟩ =>
    apply Fin.ext
    show ((b.val * 16384 + (gj * 128 + gi)) * 85 + c.val) / 1392640 = b.val
    omega
  | ⟨1, _⟩ =>
    apply Fin.ext
    show ((b.val * 16384 + (gj * 128 + gi)) * 85 + c.val) % 85 = c.val % 85
    omega
  | ⟨2, _⟩ =>
    apply Fin.ext
    show ((b.val * 16384 + (gj * 128 + gi)) * 85 + c.val) / 10880 % 128 = gj % 128
    omega
  | ⟨3, _⟩ =>
    apply Fin.ext
    show ((b.val * 16384 + (gj * 128 + gi)) * 85 + c.val) / 85 % 128 = gi % 128
    omega

/-- In the domain the gathered and masked array holds `preds[b, c, gj, gi]` at `(b, n, c)`: the mask is one, the
    start index is the flat index, and the clamp leaves it. -/
theorem val_v66_apply_ix (P : Preds) (tg : Targets) (hr : InRange tg) (b : Fin 16) (n : Fin 64) (c : Fin 4) :
    val_main_v66 (F := Ideal) P tg (ix3 b n c) = PE P b c.val (gjN tg b n) (giN tg b n) := by
  have hj := gjN_lt hr b n
  have hi := giN_lt hr b n
  have hrow : gjN tg b n * 128 + giN tg b n
      = min (val_main_call0_v4 (F := Ideal) tg (ix3 b n 0)).toInt.toNat 16383 := by
    rw [val_call0_v4_apply_ix tg hr, idxA_toInt hr b n, Int.toNat_natCast]
    omega
  rw [val_main_v66_apply, val_main_call0_v13_apply, val_call0_v11_one tg hr, select_one]
  unfold val_main_call0_v12 Host.gather
  rw [gather_operandIdx_ix _ b n c ⟨gjN tg b n * 128 + giN tg b n, by omega⟩ hrow]
  exact val_v64_apply_ix P b _ _ hj hi c

/-- The reshape `[16, 64, 1] → [16, 64]` reads box `(b, n)` at `(b, n, 0)`. -/
private theorem rg_reshape_idx (b : Fin 16) (n : Fin 64) : idx_main_v68 (ix2 b n) = ix3 b n 0 := by
  funext a
  have hb := b.isLt
  have hn := n.isLt
  match a with
  | ⟨0, _⟩ =>
    apply Fin.ext
    show (b.val * 64 + n.val) / 64 = b.val
    omega
  | ⟨1, _⟩ =>
    apply Fin.ext
    show (b.val * 64 + n.val) / 1 % 64 = n.val
    omega
  | ⟨2, _⟩ => rfl

/-- A per-box array that reads channel `c` of the gathered array is channel `c` of `preds` at each box's cell. -/
private theorem rg_channel (P : Preds) (tg : Targets) (hr : InRange tg) (c : Fin 4) (v : PerBox)
    (hv : ∀ b n, v (ix2 b n) = val_main_v66 (F := Ideal) P tg (ix3 b n c)) : v = gatA P tg (fun _ _ => c.val) := by
  funext i
  obtain ⟨b, n, rfl⟩ : ∃ b n, i = ix2 b n := ⟨i 0, i 1, eq_ix2 i⟩
  rw [hv, val_v66_apply_ix P tg hr]
  rfl

theorem val_v68_eq (P : Preds) (tg : Targets) (hr : InRange tg) :
    val_main_v68 (F := Ideal) P tg = gatA P tg (fun _ _ => 0) :=
  rg_channel P tg hr 0 _ fun b n => by
    rw [val_main_v68_apply, val_main_v67_apply, rg_reshape_idx]
    congr 1
    funext a
    match a with
    | ⟨0, _⟩ => rfl
    | ⟨1, _⟩ => rfl
    | ⟨2, _⟩ => rfl

theorem val_v70_eq (P : Preds) (tg : Targets) (hr : InRange tg) :
    val_main_v70 (F := Ideal) P tg = gatA P tg (fun _ _ => 1) :=
  rg_channel P tg hr 1 _ fun b n => by
    have hre : idx_main_v70 (ix2 b n) = ix3 b n 0 := rg_reshape_idx b n
    rw [val_main_v70_apply, val_main_v69_apply, hre]
    congr 1
    funext a
    match a with
    | ⟨0, _⟩ => rfl
    | ⟨1, _⟩ => rfl
    | ⟨2, _⟩ => rfl

theorem val_v72_eq (P : Preds) (tg : Targets) (hr : InRange tg) :
    val_main_v72 (F := Ideal) P tg = gatA P tg (fun _ _ => 2) :=
  rg_channel P tg hr 2 _ fun b n => by
    have hre : idx_main_v72 (ix2 b n) = ix3 b n 0 := rg_reshape_idx b n
    rw [val_main_v72_apply, val_main_v71_apply, hre]
    congr 1
    funext a
    match a with
    | ⟨0, _⟩ => rfl
    | ⟨1, _⟩ => rfl
    | ⟨2, _⟩ => rfl

theorem val_v74_eq (P : Preds) (tg : Targets) (hr : InRange tg) :
    val_main_v74 (F := Ideal) P tg = gatA P tg (fun _ _ => 3) :=
  rg_channel P tg hr 3 _ fun b n => by
    have hre : idx_main_v74 (ix2 b n) = ix3 b n 0 := rg_reshape_idx b n
    rw [val_main_v74_apply, val_main_v73_apply, hre]
    congr 1
    funext a
    match a with
    | ⟨0, _⟩ => rfl
    | ⟨1, _⟩ => rfl
    | ⟨2, _⟩ => rfl

end Cert.ReferenceIdeal.RefValue

end
-- ==== Proof.LibScatterSet.lean ====
import Idealize.ShloMosaic.PureOps.ShapeOps

/-!
# A scatter that writes one constant

The host scatter is a left fold, over the update indices in row-major order, of the step that
replaces the operand's element at an update's result index by the body applied to the old
element and the update's element, and leaves the operand alone when the update falls outside.

When the body returns its second argument and every update element is the same constant `c`,
the order of the fold does not matter: an element of the result is `c` exactly when SOME update
index lands on it, and is the operand's element otherwise.

* `List.foldl_set_const`: the fact about folds — a fold whose step at `n` overwrites by `c` the
  places `i` with `p n i` and keeps the others gives, at `i`, `c` when some `n` of the list has
  `p n i`, and the start value otherwise.
* `Host.scatter_set_const`: the scatter's case of it, with the list of all update indices.
-/

namespace Idealize.ShloMosaic

open Classical in
/-- A left fold whose step at `n` overwrites by the constant `c` every place `i` with `p n i` and
    keeps every other place: its value at `i` is `c` when some `n` of the list has `p n i`, and the
    start value at `i` otherwise. -/
theorem List.foldl_set_const {ι β α : Type} (p : ι → β → Prop) (c : α)
    (g : (β → α) → ι → (β → α)) (hg : ∀ r n i, g r n i = if p n i then c else r i)
    (l : List ι) (x : β → α) (i : β) :
    l.foldl g x i = if ∃ n ∈ l, p n i then c else x i := by
  induction l generalizing x with
  | nil => simp
  | cons n l ih =>
    rw [List.foldl_cons, ih, hg]
    by_cases h1 : ∃ m ∈ l, p m i
    · have h1' : ∃ m ∈ n :: l, p m i := by
        obtain ⟨m, hm, hp⟩ := h1
        exact ⟨m, List.mem_cons_of_mem _ hm, hp⟩
      rw [if_pos h1, if_pos h1']
    · rw [if_neg h1]
      by_cases h2 : p n i
      · rw [if_pos h2, if_pos ⟨n, List.mem_cons_self, h2⟩]
      · rw [if_neg h2, if_neg]
        rintro ⟨m, hm, hp⟩
        rcases List.mem_cons.1 hm with rfl | hm
        · exact h2 hp
        · exact h1 ⟨m, hm, hp⟩

open Classical in
/-- A scatter whose body returns the update, of a constant update: an element some update lands
    on holds the constant, every other element what it held. -/
theorem Host.scatter_set_const {α : Type} {s si u : Shape} {w : Nat} (d : ScatterDims s si u)
    (x : s.Idx → α) (idx : IVec si w) (c : α) (i : s.Idx) :
    Host.scatter d (fun _ b => b) x idx (fun _ => c) i =
      if ∃ j : u.Idx, d.resultIdx? j idx = some i then c else x i := by
  unfold Host.scatter
  rw [List.foldl_set_const (fun n i => d.resultIdx? (u.rowMajor.symm n) idx = some i) c]
  · have hiff : (∃ n ∈ List.finRange u.numel, d.resultIdx? (u.rowMajor.symm n) idx = some i) ↔
        ∃ j : u.Idx, d.resultIdx? j idx = some i := by
      constructor
      · rintro ⟨n, -, h⟩
        exact ⟨_, h⟩
      · rintro ⟨j, h⟩
        exact ⟨u.rowMajor j, List.mem_finRange _, by simpa using h⟩
    by_cases h : ∃ j : u.Idx, d.resultIdx? j idx = some i
    · rw [if_pos h, if_pos (hiff.2 h)]
    · rw [if_neg h, if_neg (mt hiff.1 h)]
  · intro r n i'
    cases h : d.resultIdx? (u.rowMajor.symm n) idx with
    | none => simp
    | some i₀ =>
      by_cases h' : i' = i₀
      · simp [h']
      · have : ¬ i₀ = i' := fun e => h' e.symm
        simp [h', this]

end Idealize.ShloMosaic
-- ==== Proof.RefScatterIdx.lean ====
import proofs.«175006_j89550068121905_1_alg».proof.ReferenceIdeal
import Idealize.ShloMosaic.Lib.ValueIdx

/-!
# Where the reference's two scatters land an update

Both scatters of the reference program have every operand axis an inserted window axis (so an
update is a single element and its window coordinate is `0` on every axis), map component `k`
of the index vector to operand axis `k`, and keep the index vector on the LAST axis of the scatter
indices, whose two leading axes are the update's two axes. So update `j = (j₀, j₁)` lands at the
operand index whose coordinate on axis `k` is the signed value of `idx[j₀, j₁, k]`, when that is
inside the operand on every axis, and is dropped otherwise.

* `ScatterDims.resultIdx?_eq_some_iff` (any scatter): an update lands at `i` exactly when start
  plus window coordinate is `i`'s coordinate on every operand axis.
* `resultIdx2_eq_some`, `resultIdx3_eq_some`: the two scatters of the reference, by coordinates.
-/

namespace Idealize.ShloMosaic.ScatterDims

/-- An update lands at `i` exactly when, on every operand axis, its start plus its window
    coordinate is `i`'s coordinate. -/
theorem resultIdx?_eq_some_iff {s si u : Shape} {w : Nat} (d : ScatterDims s si u) (j : u.Idx)
    (idx : IVec si w) (i : s.Idx) :
    d.resultIdx? j idx = some i ↔ ∀ a, d.start j idx a + d.window j a = ((i a).val : Int) := by
  unfold ScatterDims.resultIdx?
  constructor
  · intro h a
    split at h
    · rename_i hb
      have h' := Option.some.inj h
      have e := congrArg (fun f => (f a).val) h'
      simp only at e
      have := hb a
      omega
    · cases h
  · intro h
    have hb : ∀ a, 0 ≤ d.start j idx a + d.window j a ∧ d.start j idx a + d.window j a < s.size a := by
      intro a
      have := h a
      have := (i a).isLt
      omega
    rw [dif_pos hb]
    congr 1
    funext a
    apply Fin.ext
    have := h a
    simp only
    omega

end Idealize.ShloMosaic.ScatterDims

namespace Cert.ReferenceIdeal.RefValue

open Cert.ReferenceIdeal Idealize.ShloMosaic

variable [Cert.ReferenceIdeal.Facts]

/-! ## The scatter into the rank-2 operand -/

/-- Every operand axis is an inserted window axis: the window coordinate is `0`. -/
theorem window2 (j : S16x64.Idx) (a : Fin S16x16384.rank) :
    scatter_S16x16384_S16x64x2_S16x64_n_01_01_2.window j a = 0 := by
  unfold ScatterDims.window
  rw [dif_neg]
  show a ∉ S16x16384.kept [0, 1]
  revert a
  decide

/-- On operand axis 0 the window of update `j` starts at component 0 of `j`'s index vector, read signed. -/
theorem start2_0 (idx : IVec S16x64x2 32) (j : S16x64.Idx) :
    scatter_S16x16384_S16x64x2_S16x64_n_01_01_2.start j idx 0 = (idx (ValueIdx.ix3 (j 0) (j 1) 0)).toInt := by
  unfold ScatterDims.start
  have ha : (0 : Fin S16x16384.rank) ∈ scatter_S16x16384_S16x64x2_S16x64_n_01_01_2.scatterDimsToOperandDims := by
    show (0 : Fin 2) ∈ ([0, 1] : List (Fin 2))
    decide
  rw [dif_pos ha]
  congr 2
  funext b
  match b with
  | ⟨0, _⟩ => rfl
  | ⟨1, _⟩ => rfl
  | ⟨2, _⟩ => rfl

/-- On operand axis 1 the window of update `j` starts at component 1 of `j`'s index vector, read signed. -/
theorem start2_1 (idx : IVec S16x64x2 32) (j : S16x64.Idx) :
    scatter_S16x16384_S16x64x2_S16x64_n_01_01_2.start j idx 1 = (idx (ValueIdx.ix3 (j 0) (j 1) 1)).toInt := by
  unfold ScatterDims.start
  have ha : (1 : Fin S16x16384.rank) ∈ scatter_S16x16384_S16x64x2_S16x64_n_01_01_2.scatterDimsToOperandDims := by
    show (1 : Fin 2) ∈ ([0, 1] : List (Fin 2))
    decide
  rw [dif_pos ha]
  congr 2
  funext b
  match b with
  | ⟨0, _⟩ => rfl
  | ⟨1, _⟩ => rfl
  | ⟨2, _⟩ => rfl

/-- Update `j` lands at `i` exactly when the two components of its index vector, read signed, are
    `i`'s two coordinates. -/
theorem resultIdx2_eq_some (idx : IVec S16x64x2 32) (j : S16x64.Idx) (i : S16x16384.Idx) :
    scatter_S16x16384_S16x64x2_S16x64_n_01_01_2.resultIdx? j idx = some i ↔
      (idx (ValueIdx.ix3 (j 0) (j 1) 0)).toInt = ((i 0).val : Int) ∧
        (idx (ValueIdx.ix3 (j 0) (j 1) 1)).toInt = ((i 1).val : Int) := by
  rw [ScatterDims.resultIdx?_eq_some_iff]
  constructor
  · intro h
    have h0 := h 0
    have h1 := h 1
    rw [window2, Nat.cast_zero, add_zero, start2_0] at h0
    rw [window2, Nat.cast_zero, add_zero, start2_1] at h1
    exact ⟨h0, h1⟩
  · rintro ⟨h0, h1⟩ a
    rw [window2, Nat.cast_zero, add_zero]
    match a with
    | ⟨0, _⟩ => exact (start2_0 idx j).trans h0
    | ⟨1, _⟩ => exact (start2_1 idx j).trans h1

/-! ## The scatter into the rank-3 operand -/

/-- Every operand axis is an inserted window axis: the window coordinate is `0`. -/
theorem window3 (j : S16x64.Idx) (a : Fin S16x16384x80.rank) :
    scatter_S16x16384x80_S16x64x3_S16x64_n_012_012_2.window j a = 0 := by
  unfold ScatterDims.window
  rw [dif_neg]
  show a ∉ S16x16384x80.kept [0, 1, 2]
  revert a
  decide

/-- On operand axis 0 the window of update `j` starts at component 0 of `j`'s index vector, read signed. -/
theorem start3_0 (idx : IVec S16x64x3 32) (j : S16x64.Idx) :
    scatter_S16x16384x80_S16x64x3_S16x64_n_012_012_2.start j idx 0 = (idx (ValueIdx.ix3 (j 0) (j 1) 0)).toInt := by
  unfold ScatterDims.start
  have ha : (0 : Fin S16x16384x80.rank) ∈ scatter_S16x16384x80_S16x64x3_S16x64_n_012_012_2.scatterDimsToOperandDims := by
    show (0 : Fin 3) ∈ ([0, 1, 2] : List (Fin 3))
    decide
  rw [dif_pos ha]
  congr 2
  funext b
  match b with
  | ⟨0, _⟩ => rfl
  | ⟨1, _⟩ => rfl
  | ⟨2, _⟩ => rfl

/-- On operand axis 1 the window of update `j` starts at component 1 of `j`'s index vector, read signed. -/
theorem start3_1 (idx : IVec S16x64x3 32) (j : S16x64.Idx) :
    scatter_S16x16384x80_S16x64x3_S16x64_n_012_012_2.start j idx 1 = (idx (ValueIdx.ix3 (j 0) (j 1) 1)).toInt := by
  unfold ScatterDims.start
  have ha : (1 : Fin S16x16384x80.rank) ∈ scatter_S16x16384x80_S16x64x3_S16x64_n_012_012_2.scatterDimsToOperandDims := by
    show (1 : Fin 3) ∈ ([0, 1, 2] : List (Fin 3))
    decide
  rw [dif_pos ha]
  congr 2
  funext b
  match b with
  | ⟨0, _⟩ => rfl
  | ⟨1, _⟩ => rfl
  | ⟨2, _⟩ => rfl

/-- On operand axis 2 the window of update `j` starts at component 2 of `j`'s index vector, read signed. -/
theorem start3_2 (idx : IVec S16x64x3 32) (j : S16x64.Idx) :
    scatter_S16x16384x80_S16x64x3_S16x64_n_012_012_2.start j idx 2 = (idx (ValueIdx.ix3 (j 0) (j 1) 2)).toInt := by
  unfold ScatterDims.start
  have ha : (2 : Fin S16x16384x80.rank) ∈ scatter_S16x16384x80_S16x64x3_S16x64_n_012_012_2.scatterDimsToOperandDims := by
    show (2 : Fin 3) ∈ ([0, 1, 2] : List (Fin 3))
    decide
  rw [dif_pos ha]
  congr 2
  funext b
  match b with
  | ⟨0, _⟩ => rfl
  | ⟨1, _⟩ => rfl
  | ⟨2, _⟩ => rfl

/-- Update `j` lands at `i` exactly when the three components of its index vector, read signed,
    are `i`'s three coordinates. -/
theorem resultIdx3_eq_some (idx : IVec S16x64x3 32) (j : S16x64.Idx) (i : S16x16384x80.Idx) :
    scatter_S16x16384x80_S16x64x3_S16x64_n_012_012_2.resultIdx? j idx = some i ↔
      (idx (ValueIdx.ix3 (j 0) (j 1) 0)).toInt = ((i 0).val : Int) ∧
        (idx (ValueIdx.ix3 (j 0) (j 1) 1)).toInt = ((i 1).val : Int) ∧
          (idx (ValueIdx.ix3 (j 0) (j 1) 2)).toInt = ((i 2).val : Int) := by
  rw [ScatterDims.resultIdx?_eq_some_iff]
  constructor
  · intro h
    have h0 := h 0
    have h1 := h 1
    have h2 := h 2
    rw [window3, Nat.cast_zero, add_zero, start3_0] at h0
    rw [window3, Nat.cast_zero, add_zero, start3_1] at h1
    rw [window3, Nat.cast_zero, add_zero, start3_2] at h2
    exact ⟨h0, h1, h2⟩
  · rintro ⟨h0, h1, h2⟩ a
    rw [window3, Nat.cast_zero, add_zero]
    match a with
    | ⟨0, _⟩ => exact (start3_0 idx j).trans h0
    | ⟨1, _⟩ => exact (start3_1 idx j).trans h1
    | ⟨2, _⟩ => exact (start3_2 idx j).trans h2

end Cert.ReferenceIdeal.RefValue
-- ==== Proof.RTargets.lean ====
import proofs.«175006_j89550068121905_1_alg».proof.Proof.RefRead
import proofs.«175006_j89550068121905_1_alg».proof.Proof.Spec
import proofs.«175006_j89550068121905_1_alg».proof.Proof.SpecFacts
import proofs.«175006_j89550068121905_1_alg».proof.Proof.LibScatterSet
import proofs.«175006_j89550068121905_1_alg».proof.Proof.RefScatterIdx
import Idealize.ShloMosaic.Lib.ValueIdx
import Idealize.ShloMosaic.Lib.Pipeline.Value
import Idealize.ShloMosaic.Lib.IdealHost
import Idealize.ShloMosaic.Lib.StableHlo.Predicate

/-!
# The reference's two 0/1 targets, element by element

The reference sets, by a scatter of the constant 1 into an array of zeros,
* the objectness target: 1 at (batch b, cell q) when some box of batch b names cell q, 0 elsewhere;
* the class target: 1 at (batch b, cell q, label c) when some box of batch b names that pair, 0 elsewhere.

A scatter of one constant does not depend on the order of its updates: an element holds the constant exactly
when some update lands on it. Update (b', n) of the first scatter lands at the index whose coordinates are the
signed values of the two words of its index vector: the batch number b' (an iota, normalised by
select(x < 0, x + 16, x), which does nothing to a word that is not negative) and the flat cell word
row * 128 + column of box (b', n) (normalised the same way with 16384; in the domain the word is not negative
and is the box's cell). So it lands on (b, q) exactly when b' = b and the cell of box (b, n) is q. The second
scatter has a third word, the label (normalised with 80, not negative in the domain), and lands on (b, q, c)
exactly when moreover the label of the box is c.
-/

noncomputable section

namespace Cert.ReferenceIdeal.RefValue

open Cert.Spec Cert.ReferenceIdeal.Read Idealize.ShloMosaic Idealize.ShloMosaic.ValueIdx

/-- The reference's flat cell word is the one the specification carries. -/
theorem rt_v21_eq (tg : Targets) : val_main_v21 (F := Ideal) tg = idxA tg := rfl
/-- The reference's label word is the one the specification carries. -/
theorem rt_v4_eq (tg : Targets) : val_main_v4 (F := Ideal) tg = clsA tg := rfl

/-! ## Words -/

/-- A word that is not negative is not below zero. -/
private theorem rt_cmpi_slt_zero (a : BitVec 32) (h : 0 ≤ a.toInt) : IntOp.cmpi .slt a 0#32 = 0#1 := by
  have : a.slt 0#32 = false := by
    simp only [BitVec.slt, BitVec.toInt_zero, decide_eq_false_iff_not, not_lt]; exact h
  show BitVec.ofBool (a.slt 0#32) = 0#1
  rw [this]; rfl

/-- The normalisation select(a < 0, c, a) of a word that is not negative is the word. -/
private theorem rt_select_nonneg (a c : BitVec 32) (h : 0 ≤ a.toInt) :
    Scalar.select (IntOp.cmpi .slt a 0#32) c a = a := by
  rw [rt_cmpi_slt_zero a h, select_zero]

private theorem rt_ofNat_nonneg (k : ℕ) (hk : k < 2 ^ 31) : 0 ≤ (BitVec.ofNat 32 k).toInt := by
  rw [StableHlo.Predicate.toInt_ofNat_small k hk]; omega

/-- The cell of a box, as an integer, is its flat cell word read signed. -/
private theorem rt_cellIdx_val (tg : Targets) (hr : InRange tg) (b : Fin 16) (n : Fin 64) :
    ((cellIdx tg b n).val : ℤ) = (idxA tg (ix2 b n)).toInt := by
  rw [idxA_toInt hr b n, cellIdx_val hr b n]

/-- The label of a box, as an integer, is its label word read signed. -/
private theorem rt_pairIdx_snd_val (tg : Targets) (hr : InRange tg) (b : Fin 16) (n : Fin 64) :
    (((pairIdx tg b n).2.val : ℕ) : ℤ) = (clsA tg (ix2 b n)).toInt := by
  rw [clsA_toInt hr b n, pairIdx_snd_val hr b n]

/-! ## The index arrays of the first scatter, element by element -/

/-- The batch number, normalised: an iota is never negative. -/
theorem rt_v29_apply (i : S16x1.Idx) : val_main_v29 (F := Ideal) i = BitVec.ofNat 32 (i 0).val := by
  rw [val_main_v29_apply, val_main_v26_apply, val_main_v25_apply, val_main_c_2_apply, val_main_v23_apply, val_main_v22_apply]
  exact rt_select_nonneg _ _ (rt_ofNat_nonneg _ (by have h : (i 0).val < 16 := (i 0).isLt; show (i 0).val < 2 ^ 31; omega))

theorem rt_v36_apply (b : Fin 16) (n : Fin 64) (k : Fin 1) :
    val_main_v36 (F := Ideal) (ix3 b n k) = BitVec.ofNat 32 b.val := by
  rw [val_main_v36_apply, val_main_v35_apply, rt_v29_apply]

private theorem rt_idx37 (b : Fin 16) (n : Fin 64) (k : Fin 1) : idx_main_v37 (ix3 b n k) = ix2 b n := by
  funext a; match a with | ⟨0, _⟩ => rfl | ⟨1, _⟩ => rfl

/-- The flat cell word, normalised: in the domain it is never negative. -/
theorem rt_v34_apply (tg : Targets) (hr : InRange tg) (b : Fin 16) (n : Fin 64) :
    val_main_v34 (F := Ideal) tg (ix2 b n) = idxA tg (ix2 b n) := by
  rw [val_main_v34_apply, val_main_v31_apply, val_main_v30_apply, val_main_c_4_apply, rt_v21_eq]
  exact rt_select_nonneg _ _ (idxA_nonneg hr b n)

theorem rt_v37_apply (tg : Targets) (hr : InRange tg) (b : Fin 16) (n : Fin 64) (k : Fin 1) :
    val_main_v37 (F := Ideal) tg (ix3 b n k) = idxA tg (ix2 b n) := by
  rw [val_main_v37_apply, rt_idx37, rt_v34_apply tg hr]

/-- Word 0 of the index vector of update (b, n): the batch number. -/
theorem rt_v38_0 (tg : Targets) (b : Fin 16) (n : Fin 64) :
    val_main_v38 (F := Ideal) tg (ix3 b n 0) = BitVec.ofNat 32 b.val := by
  unfold val_main_v38
  exact (concatenate_pair_apply_left (t := S16x64x2) (s₁ := S16x64x1) (s₂ := S16x64x1) 2 _ _ _ _ rfl (ix3 b n 0)
    (fun c => match c with | ⟨0, _⟩ => rfl | ⟨1, _⟩ => rfl | ⟨2, _⟩ => rfl)).trans (rt_v36_apply b n 0)

/-- Word 1 of the index vector of update (b, n): the flat cell word of box (b, n). -/
theorem rt_v38_1 (tg : Targets) (hr : InRange tg) (b : Fin 16) (n : Fin 64) :
    val_main_v38 (F := Ideal) tg (ix3 b n 1) = idxA tg (ix2 b n) := by
  unfold val_main_v38
  exact (concatenate_pair_apply_right (t := S16x64x2) (s₁ := S16x64x1) (s₂ := S16x64x1) 2 _ _ _ _ rfl rfl (ix3 b n 0)
    (fun c hc => match c, hc with | ⟨0, _⟩, _ => rfl | ⟨1, _⟩, _ => rfl | ⟨2, _⟩, hc => absurd rfl hc) rfl).trans
    (rt_v37_apply tg hr b n 0)

/-! ## The objectness target: 1 at the cells the boxes name, 0 elsewhere -/

private theorem rt_v39_eq : val_main_v39 (F := Ideal) = fun _ => (1 : EReal) := by
  funext i
  rw [val_main_v39_apply, val_main_cst_6_apply]
  exact Ideal.ofBits_one_f32

private theorem rt_v24_apply (i : S16x16384.Idx) : val_main_v24 (F := Ideal) i = 0 := by
  rw [val_main_v24_apply, val_main_cst_1_apply]
  exact Ideal.ofBits_zero_f32

/-- Some update of the first scatter lands on cell q of batch b exactly when some box of batch b names cell q. -/
private theorem rt_lands2 (tg : Targets) (hr : InRange tg) (b : Fin 16) (q : Fin 16384) :
    (∃ j : S16x64.Idx, scatter_S16x16384_S16x64x2_S16x64_n_01_01_2.resultIdx? j (val_main_v38 (F := Ideal) tg)
        = some (ix2 b q)) ↔ ∃ n, cellIdx tg b n = q := by
  constructor
  · rintro ⟨j, hj⟩
    obtain ⟨b', n', rfl⟩ : ∃ b' n', j = ix2 b' n' := ⟨j 0, j 1, eq_ix2 j⟩
    rw [resultIdx2_eq_some] at hj
    change (val_main_v38 (F := Ideal) tg (ix3 b' n' 0)).toInt = (b.val : ℤ) ∧
      (val_main_v38 (F := Ideal) tg (ix3 b' n' 1)).toInt = (q.val : ℤ) at hj
    rw [rt_v38_0, rt_v38_1 tg hr, StableHlo.Predicate.toInt_ofNat_small _ (by have := b'.isLt; omega)] at hj
    obtain ⟨h0, h1⟩ := hj
    have e : b' = b := Fin.ext (by omega)
    subst e
    refine ⟨n', Fin.ext ?_⟩
    have := rt_cellIdx_val tg hr b' n'
    omega
  · rintro ⟨n, hn⟩
    refine ⟨ix2 b n, ?_⟩
    rw [resultIdx2_eq_some]
    change (val_main_v38 (F := Ideal) tg (ix3 b n 0)).toInt = (b.val : ℤ) ∧
      (val_main_v38 (F := Ideal) tg (ix3 b n 1)).toInt = (q.val : ℤ)
    rw [rt_v38_0, rt_v38_1 tg hr, StableHlo.Predicate.toInt_ofNat_small _ (by have := b.isLt; omega)]
    refine ⟨rfl, ?_⟩
    rw [← rt_cellIdx_val tg hr b n, hn]

/-- The objectness target at (batch b, cell q): 1 when some box of batch b names cell q, else 0. -/
theorem val_v40_apply (tg : Targets) (hr : InRange tg) (b : Fin 16) (q : Fin 16384) :
    val_main_v40 (F := Ideal) tg (ix2 b q) = (((if ∃ n, cellIdx tg b n = q then (1 : ℝ) else 0 : ℝ)) : EReal) := by
  unfold val_main_v40
  rw [rt_v39_eq, Host.scatter_set_const, rt_v24_apply]
  by_cases h : ∃ n, cellIdx tg b n = q
  · rw [if_pos ((rt_lands2 tg hr b q).2 h), if_pos h]; rfl
  · rw [if_neg (mt (rt_lands2 tg hr b q).1 h), if_neg h]; rfl

/-! ## The index arrays of the second scatter, element by element -/

theorem rt_v46_apply (i : S16x1.Idx) : val_main_v46 (F := Ideal) i = BitVec.ofNat 32 (i 0).val := by
  rw [val_main_v46_apply, val_main_v43_apply, val_main_v42_apply, val_main_c_8_apply, val_main_v23_apply, val_main_v22_apply]
  exact rt_select_nonneg _ _ (rt_ofNat_nonneg _ (by have h : (i 0).val < 16 := (i 0).isLt; show (i 0).val < 2 ^ 31; omega))

theorem rt_v58_apply (b : Fin 16) (n : Fin 64) (k : Fin 1) :
    val_main_v58 (F := Ideal) (ix3 b n k) = BitVec.ofNat 32 b.val := by
  rw [val_main_v58_apply, val_main_v57_apply, rt_v46_apply]

private theorem rt_idx59 (b : Fin 16) (n : Fin 64) (k : Fin 1) : idx_main_v59 (ix3 b n k) = ix2 b n := by
  funext a; match a with | ⟨0, _⟩ => rfl | ⟨1, _⟩ => rfl

private theorem rt_idx60 (b : Fin 16) (n : Fin 64) (k : Fin 1) : idx_main_v60 (ix3 b n k) = ix2 b n := by
  funext a; match a with | ⟨0, _⟩ => rfl | ⟨1, _⟩ => rfl

theorem rt_v59_apply (tg : Targets) (hr : InRange tg) (b : Fin 16) (n : Fin 64) (k : Fin 1) :
    val_main_v59 (F := Ideal) tg (ix3 b n k) = idxA tg (ix2 b n) := by
  rw [val_main_v59_apply, rt_idx59, val_main_v51_apply, val_main_v48_apply, val_main_v47_apply, val_main_c_10_apply, rt_v21_eq]
  exact rt_select_nonneg _ _ (idxA_nonneg hr b n)

/-- The class label, normalised: in the domain it is never negative. -/
theorem rt_v60_apply (tg : Targets) (hr : InRange tg) (b : Fin 16) (n : Fin 64) (k : Fin 1) :
    val_main_v60 (F := Ideal) tg (ix3 b n k) = clsA tg (ix2 b n) := by
  rw [val_main_v60_apply, rt_idx60, val_main_v56_apply, val_main_v53_apply, val_main_v52_apply, val_main_c_12_apply, rt_v4_eq]
  exact rt_select_nonneg _ _ (hr.cls_lo _)

/-- Word 0 of the index vector of update (b, n): the batch number. -/
theorem rt_v61_0 (tg : Targets) (b : Fin 16) (n : Fin 64) :
    val_main_v61 (F := Ideal) tg (ix3 b n 0) = BitVec.ofNat 32 b.val := by
  unfold val_main_v61
  exact (concatenate_apply_piece (t := S16x64x3) 2 _ _ _ 0 (by show (0 : ℕ) < 3; omega) S16x64x1 _ rfl rfl 0 rfl (ix3 b n 0)
    (fun c hc => match c, hc with | ⟨0, _⟩, _ => rfl | ⟨1, _⟩, _ => rfl | ⟨2, _⟩, hc => absurd rfl hc) rfl).trans
    (rt_v58_apply b n 0)

/-- Word 1 of the index vector of update (b, n): the flat cell word of box (b, n). -/
theorem rt_v61_1 (tg : Targets) (hr : InRange tg) (b : Fin 16) (n : Fin 64) :
    val_main_v61 (F := Ideal) tg (ix3 b n 1) = idxA tg (ix2 b n) := by
  unfold val_main_v61
  exact (concatenate_apply_piece (t := S16x64x3) 2 _ _ _ 1 (by show (1 : ℕ) < 3; omega) S16x64x1 _ rfl rfl 1 rfl (ix3 b n 0)
    (fun c hc => match c, hc with | ⟨0, _⟩, _ => rfl | ⟨1, _⟩, _ => rfl | ⟨2, _⟩, hc => absurd rfl hc) rfl).trans
    (rt_v59_apply tg hr b n 0)

/-- Word 2 of the index vector of update (b, n): the label word of box (b, n). -/
theorem rt_v61_2 (tg : Targets) (hr : InRange tg) (b : Fin 16) (n : Fin 64) :
    val_main_v61 (F := Ideal) tg (ix3 b n 2) = clsA tg (ix2 b n) := by
  unfold val_main_v61
  exact (concatenate_apply_piece (t := S16x64x3) 2 _ _ _ 2 (by show (2 : ℕ) < 3; omega) S16x64x1 _ rfl rfl 2 rfl (ix3 b n 0)
    (fun c hc => match c, hc with | ⟨0, _⟩, _ => rfl | ⟨1, _⟩, _ => rfl | ⟨2, _⟩, hc => absurd rfl hc) rfl).trans
    (rt_v60_apply tg hr b n 0)

/-! ## The class target: 1 at the (cell, label) pairs the boxes name, 0 elsewhere -/

private theorem rt_v62_eq : val_main_v62 (F := Ideal) = fun _ => (1 : EReal) := by
  funext i
  rw [val_main_v62_apply, val_main_cst_14_apply]
  exact Ideal.ofBits_one_f32

private theorem rt_v41_apply (i : S16x16384x80.Idx) : val_main_v41 (F := Ideal) i = 0 := by
  rw [val_main_v41_apply, val_main_cst_7_apply]
  exact Ideal.ofBits_zero_f32

/-- Some update of the second scatter lands on (cell q, label c) of batch b exactly when some box of batch b
    names that pair. -/
private theorem rt_lands3 (tg : Targets) (hr : InRange tg) (b : Fin 16) (q : Fin 16384) (c : Fin 80) :
    (∃ j : S16x64.Idx, scatter_S16x16384x80_S16x64x3_S16x64_n_012_012_2.resultIdx? j (val_main_v61 (F := Ideal) tg)
        = some (ix3 b q c)) ↔ ∃ n, pairIdx tg b n = (q, c) := by
  constructor
  · rintro ⟨j, hj⟩
    obtain ⟨b', n', rfl⟩ : ∃ b' n', j = ix2 b' n' := ⟨j 0, j 1, eq_ix2 j⟩
    rw [resultIdx3_eq_some] at hj
    change (val_main_v61 (F := Ideal) tg (ix3 b' n' 0)).toInt = (b.val : ℤ) ∧
      (val_main_v61 (F := Ideal) tg (ix3 b' n' 1)).toInt = (q.val : ℤ) ∧
      (val_main_v61 (F := Ideal) tg (ix3 b' n' 2)).toInt = (c.val : ℤ) at hj
    rw [rt_v61_0, rt_v61_1 tg hr, rt_v61_2 tg hr,
      StableHlo.Predicate.toInt_ofNat_small _ (by have := b'.isLt; omega)] at hj
    obtain ⟨h0, h1, h2⟩ := hj
    have e : b' = b := Fin.ext (by omega)
    subst e
    refine ⟨n', Prod.ext (Fin.ext ?_) (Fin.ext ?_)⟩
    · have := rt_cellIdx_val tg hr b' n'
      show (cellIdx tg b' n').val = q.val
      omega
    · have := rt_pairIdx_snd_val tg hr b' n'
      show (pairIdx tg b' n').2.val = c.val
      omega
  · rintro ⟨n, hn⟩
    refine ⟨ix2 b n, ?_⟩
    rw [resultIdx3_eq_some]
    change (val_main_v61 (F := Ideal) tg (ix3 b n 0)).toInt = (b.val : ℤ) ∧
      (val_main_v61 (F := Ideal) tg (ix3 b n 1)).toInt = (q.val : ℤ) ∧
      (val_main_v61 (F := Ideal) tg (ix3 b n 2)).toInt = (c.val : ℤ)
    rw [rt_v61_0, rt_v61_1 tg hr, rt_v61_2 tg hr,
      StableHlo.Predicate.toInt_ofNat_small _ (by have := b.isLt; omega)]
    have hq : cellIdx tg b n = q := congrArg Prod.fst hn
    have hc : (pairIdx tg b n).2 = c := congrArg Prod.snd hn
    refine ⟨rfl, ?_, ?_⟩
    · rw [← rt_cellIdx_val tg hr b n, hq]
    · rw [← rt_pairIdx_snd_val tg hr b n, hc]

/-- The class target at (batch b, cell q, label c): 1 when some box of batch b names that pair, else 0. -/
theorem val_v63_apply (tg : Targets) (hr : InRange tg) (b : Fin 16) (q : Fin 16384) (c : Fin 80) :
    val_main_v63 (F := Ideal) tg (ix3 b q c) = (((if ∃ n, pairIdx tg b n = (q, c) then (1 : ℝ) else 0 : ℝ)) : EReal) := by
  unfold val_main_v63
  rw [rt_v62_eq, Host.scatter_set_const, rt_v41_apply]
  by_cases h : ∃ n, pairIdx tg b n = (q, c)
  · rw [if_pos ((rt_lands3 tg hr b q c).2 h), if_pos h]; rfl
  · rw [if_neg (mt (rt_lands3 tg hr b q c).1 h), if_neg h]; rfl

end Cert.ReferenceIdeal.RefValue

end
-- ==== Proof.RObj.lean ====
/-
  The reference's objectness term.

  With `p[b, q] = preds[b, 4, q / 128, q % 128]` (channel 4 of the transposed and reshaped `preds`, `q` the flat cell
  among the `128 · 128`) and `T[b, q] ∈ {0, 1}` the target of the cell (`1` when some box of batch `b` names cell `q`),
  the reference computes `Σ_b (Σ_q (softplus(p[b, q]) − p[b, q] · T[b, q])) / 16384`.  On finite inputs every stage is a
  real number at each index:
  * `softplus`'s chain `max x 0 + log1p (exp (−|x − 0|))` (its guard `x − 0 ≠ x − 0` never holds) at a real `r` is `spR r`;
  * the two host sums are finite sums of reals, and the divisor is the constant `16384`;
  * over the reals, the sum over the flat cells of a function of `(q / 128, q % 128)` is the double sum over rows and
    columns, which gives `S1obj`; and `Σ_q p[b, q] · T[b, q]` counts each named cell once, which is the sum over the boxes
    that are the first of their batch to name their cell of `p` at that cell — `S2obj`, the cell of box `(b, n)` being
    `gjN · 128 + giN` with quotient `gjN` and remainder `giN` by `128`.
  Hence the term is `(S1obj − S2obj) / 16384 = objR`.  The reading of the target array `T` is a hypothesis of this module.
-/
import proofs.«175006_j89550068121905_1_alg».proof.Proof.RefRead
import proofs.«175006_j89550068121905_1_alg».proof.Proof.Spec
import proofs.«175006_j89550068121905_1_alg».proof.Proof.SpecFacts
import Idealize.ShloMosaic.Lib.ValueIdx
import Idealize.ShloMosaic.Lib.Pipeline.Value
import Idealize.ShloMosaic.PureOps.Ideal.Laws
import Mathlib.Data.EReal.Basic
import Mathlib.Data.EReal.Operations
import Mathlib.Algebra.BigOperators.Fin
import Mathlib.Algebra.BigOperators.Ring.Finset
import Mathlib.Analysis.SpecialFunctions.Log.Basic

noncomputable section

open scoped BigOperators

namespace Cert.ReferenceIdeal.RefValue

open Cert.Spec Cert.ReferenceIdeal.Read Idealize.ShloMosaic Idealize.ShloMosaic.ValueIdx

/-- The f32 word `0x46800000` denotes `16384`. -/
private theorem ofBits_16384 : Ideal.ofBits .f32 0x46800000#32 = ((16384 : ℝ) : EReal) := by
  simp [Ideal.ofBits, Ideal.ieee, -EReal.coe_mul]; norm_num

/-- A finite sum of real numbers, each read as an extended real, is the real sum read as an extended real. -/
private theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The maximum of two reals, read as extended reals. -/
private theorem coe_max (a b : ℝ) : ((max a b : ℝ) : EReal) = max (a : EReal) (b : EReal) :=
  EReal.coe_strictMono.monotone.map_max

private theorem softplus_at (r : ℝ) :
    Scalar.select (FloatOps.cmpf (F := Ideal) (φ := .f32) .une
        (FloatOps.subf (F := Ideal) (φ := .f32) (r : EReal) (FloatOps.ofBits .f32 0x00000000#32))
        (FloatOps.subf (F := Ideal) (φ := .f32) (r : EReal) (FloatOps.ofBits .f32 0x00000000#32)))
      (FloatOps.addf (F := Ideal) (φ := .f32) (r : EReal) (FloatOps.ofBits .f32 0x00000000#32))
      (FloatOps.addf (F := Ideal) (φ := .f32)
        (FloatOps.maximumf (F := Ideal) (φ := .f32) (r : EReal) (FloatOps.ofBits .f32 0x00000000#32))
        (FloatOps.hostUnary (F := Ideal) (φ := .f32) .log1p (FloatOps.hostUnary (F := Ideal) (φ := .f32) .exp
          (FloatOps.hostNegf (F := Ideal) (φ := .f32) (FloatOps.hostAbsf (F := Ideal) (φ := .f32)
            (FloatOps.subf (F := Ideal) (φ := .f32) (r : EReal) (FloatOps.ofBits .f32 0x00000000#32)))))))
      = ((spR r : ℝ) : EReal) := by
  have hc : FloatOps.cmpf (F := Ideal) (φ := .f32) .une
        (FloatOps.subf (F := Ideal) (φ := .f32) (r : EReal) (FloatOps.ofBits .f32 0x00000000#32))
        (FloatOps.subf (F := Ideal) (φ := .f32) (r : EReal) (FloatOps.ofBits .f32 0x00000000#32)) = 0#1 := by
    show Ideal.cmp .une _ _ = 0#1
    simp [Ideal.cmp]
  rw [hc, select_zero]
  show max (r : EReal) (Ideal.ofBits .f32 0x00000000#32)
      + Ideal.log1p (Ideal.exp (-(max ((r : EReal) - Ideal.ofBits .f32 0x00000000#32) (-((r : EReal) - Ideal.ofBits .f32 0x00000000#32))))) = _
  rw [Ideal.ofBits_zero_f32, sub_zero, ← EReal.coe_neg, ← coe_max, ← abs_eq_max_neg, ← EReal.coe_neg, Ideal.exp_coe,
    Ideal.log1p, ← EReal.coe_one, ← EReal.coe_add, Ideal.log_coe, if_neg (not_le.mpr (by positivity)),
    ← EReal.coe_zero, ← coe_max, ← EReal.coe_add]
  rfl

/-! ## Channel 4 of `preds`, cell by cell -/

/-- Channel 4 at batch `b` and flat cell `q` is `preds` at row `q / 128` and column `q % 128`. -/
theorem val_v173_at (P : Preds) (hP : Finite P) (b : Fin 16) (q : Fin 16384) :
    val_main_v173 (F := Ideal) P (ix2 b q) = ((PR P b 4 (q.val / 128) (q.val % 128) : ℝ) : EReal) := by
  rw [val_main_v173_apply, val_main_v172_apply, val_main_v1_apply, val_main_v0_apply]
  unfold PR PE
  rw [Finite.coe_toReal hP]
  refine congrArg P (funext fun a => Fin.ext ?_)
  have hb := b.isLt
  have hq := q.isLt
  match a with
  | ⟨0, _⟩ => show (((b.val * 16384 + q.val) / 16384 * 16384 + (b.val * 16384 + q.val) / 1 % 16384) * 85 + (4 + 0)) / 1392640 = b.val; omega
  | ⟨1, _⟩ => show (((b.val * 16384 + q.val) / 16384 * 16384 + (b.val * 16384 + q.val) / 1 % 16384) * 85 + (4 + 0)) % 85 = 4 % 85; omega
  | ⟨2, _⟩ => show (((b.val * 16384 + q.val) / 16384 * 16384 + (b.val * 16384 + q.val) / 1 % 16384) * 85 + (4 + 0)) / 10880 % 128 = q.val / 128 % 128; omega
  | ⟨3, _⟩ => show (((b.val * 16384 + q.val) / 16384 * 16384 + (b.val * 16384 + q.val) / 1 % 16384) * 85 + (4 + 0)) / 85 % 128 = q.val % 128 % 128; omega

/-! ## The summand `softplus(p) − p · target`, cell by cell

The 0/1 target of a cell is `1` when some box of the batch names the cell; the reading of the target array is a
hypothesis here, stated for any decision procedure `dec` of "some box names the cell". -/

/-- The softplus of channel 4 at batch `b` and flat cell `q`. -/
theorem val_v174_at (P : Preds) (hP : Finite P) (b : Fin 16) (q : Fin 16384) :
    val_main_v174 (F := Ideal) P (ix2 b q) = ((spR (PR P b 4 (q.val / 128) (q.val % 128)) : ℝ) : EReal) := by
  simp only [val_main_v174_apply, val_main_call3_v4_apply, val_main_call3_v6_apply, val_main_call3_v11_apply,
    val_main_call3_v1_apply, val_main_call3_v10_apply, val_main_call3_v9_apply, val_main_call3_v8_apply,
    val_main_call3_v7_apply, val_main_call3_v3_apply, val_main_call3_v0_apply, val_main_call3_v2_apply,
    val_main_call3_v5_apply, val_main_call3_cst_apply, val_v173_at P hP b q]
  exact softplus_at _

/-- Channel 4 times the 0/1 target, at batch `b` and flat cell `q`. -/
theorem val_v175_at (P : Preds) (tg : Targets) (hP : Finite P) {dec : ∀ (b : Fin 16) (q : Fin 16384), Decidable (∃ n, cellIdx tg b n = q)}
    (hT : ∀ (b : Fin 16) (q : Fin 16384), val_main_v40 (F := Ideal) tg (ix2 b q) = ((@ite ℝ (∃ n, cellIdx tg b n = q) (dec b q) 1 0 : ℝ) : EReal))
    (b : Fin 16) (q : Fin 16384) :
    val_main_v175 (F := Ideal) P tg (ix2 b q)
      = ((PR P b 4 (q.val / 128) (q.val % 128) * @ite ℝ (∃ n, cellIdx tg b n = q) (dec b q) 1 0 : ℝ) : EReal) := by
  rw [val_main_v175_apply, val_v173_at P hP b q, hT b q]
  exact (EReal.coe_mul _ _).symm

/-- The summand of the objectness term at batch `b` and flat cell `q`. -/
theorem val_v176_at (P : Preds) (tg : Targets) (hP : Finite P) {dec : ∀ (b : Fin 16) (q : Fin 16384), Decidable (∃ n, cellIdx tg b n = q)}
    (hT : ∀ (b : Fin 16) (q : Fin 16384), val_main_v40 (F := Ideal) tg (ix2 b q) = ((@ite ℝ (∃ n, cellIdx tg b n = q) (dec b q) 1 0 : ℝ) : EReal))
    (b : Fin 16) (q : Fin 16384) :
    val_main_v176 (F := Ideal) P tg (ix2 b q)
      = ((spR (PR P b 4 (q.val / 128) (q.val % 128))
          - PR P b 4 (q.val / 128) (q.val % 128) * @ite ℝ (∃ n, cellIdx tg b n = q) (dec b q) 1 0 : ℝ) : EReal) := by
  rw [val_main_v176_apply, val_v174_at P hP b q, val_v175_at P tg hP hT b q]
  exact (EReal.coe_sub _ _).symm

/-! ## The sums over the cells and over the batches -/

/-- The sum over the cells of batch `b`. -/
theorem val_v177_at (P : Preds) (tg : Targets) (hP : Finite P) {dec : ∀ (b : Fin 16) (q : Fin 16384), Decidable (∃ n, cellIdx tg b n = q)}
    (hT : ∀ (b : Fin 16) (q : Fin 16384), val_main_v40 (F := Ideal) tg (ix2 b q) = ((@ite ℝ (∃ n, cellIdx tg b n = q) (dec b q) 1 0 : ℝ) : EReal))
    (b : Fin 16) :
    val_main_v177 (F := Ideal) P tg (ix1 b)
      = ((∑ q : Fin 16384, (spR (PR P b 4 (q.val / 128) (q.val % 128))
          - PR P b 4 (q.val / 128) (q.val % 128) * @ite ℝ (∃ n, cellIdx tg b n = q) (dec b q) 1 0) : ℝ) : EReal) := by
  rw [val_main_v177_apply, val_main_cst_32_apply, Ideal.ofBits_def, Ideal.ofBits_zero_f32, zero_add]
  have hi : ∀ k : Fin 16384, idx_main_v177 (ix1 b) k = ix2 b k := fun k => funext fun a => by
    match a with
    | ⟨0, _⟩ => rfl
    | ⟨1, _⟩ => rfl
  simp only [hi, val_v176_at P tg hP hT b]
  exact coe_sum _ _

/-- The mean over the cells of batch `b`. -/
theorem val_v179_at (P : Preds) (tg : Targets) (hP : Finite P) {dec : ∀ (b : Fin 16) (q : Fin 16384), Decidable (∃ n, cellIdx tg b n = q)}
    (hT : ∀ (b : Fin 16) (q : Fin 16384), val_main_v40 (F := Ideal) tg (ix2 b q) = ((@ite ℝ (∃ n, cellIdx tg b n = q) (dec b q) 1 0 : ℝ) : EReal))
    (b : Fin 16) :
    val_main_v179 (F := Ideal) P tg (ix1 b)
      = (((∑ q : Fin 16384, (spR (PR P b 4 (q.val / 128) (q.val % 128))
          - PR P b 4 (q.val / 128) (q.val % 128) * @ite ℝ (∃ n, cellIdx tg b n = q) (dec b q) 1 0)) / 16384 : ℝ) : EReal) := by
  rw [val_main_v179_apply, val_v177_at P tg hP hT b, val_main_v178_apply, val_main_cst_33_apply, Ideal.ofBits_def,
    ofBits_16384, Ideal.hostDivf_def, Ideal.div_coe (by norm_num), ← EReal.coe_mul, mul_one_div]

/-! ## The real sums: cells by rows and columns, and the target counted once per cell -/

/-- A flat cell of the `128 × 128` grid is its row and column. -/
private def cellEquiv : Fin 128 × Fin 128 ≃ Fin 16384 where
  toFun hw := ⟨hw.1.val * 128 + hw.2.val, by have h1 := hw.1.isLt; have h2 := hw.2.isLt; omega⟩
  invFun q := (⟨q.val / 128, by have h := q.isLt; omega⟩, ⟨q.val % 128, Nat.mod_lt _ (by norm_num)⟩)
  left_inv hw := by
    have h1 := hw.1.isLt
    have h2 := hw.2.isLt
    refine Prod.ext (Fin.ext ?_) (Fin.ext ?_)
    · show (hw.1.val * 128 + hw.2.val) / 128 = hw.1.val; omega
    · show (hw.1.val * 128 + hw.2.val) % 128 = hw.2.val; omega
  right_inv q := by
    refine Fin.ext ?_
    show q.val / 128 * 128 + q.val % 128 = q.val; omega

/-- A sum over the flat cells of a function of the row `q / 128` and column `q % 128` is the double sum over rows and columns. -/
private theorem sum_cells (f : ℕ → ℕ → ℝ) :
    ∑ q : Fin 16384, f (q.val / 128) (q.val % 128) = ∑ h : Fin 128, ∑ w : Fin 128, f h.val w.val := by
  rw [← Fintype.sum_prod_type' (fun (h w : Fin 128) => f h.val w.val)]
  refine (Fintype.sum_equiv cellEquiv _ _ fun hw => ?_).symm
  have h1 := hw.1.isLt
  have h2 := hw.2.isLt
  show f hw.1.val hw.2.val = f ((hw.1.val * 128 + hw.2.val) / 128) ((hw.1.val * 128 + hw.2.val) % 128)
  rw [show (hw.1.val * 128 + hw.2.val) / 128 = hw.1.val by omega, show (hw.1.val * 128 + hw.2.val) % 128 = hw.2.val by omega]

/-- The weighted sum over the values a finite family takes, each once, is the sum over the family's first occurrences:
    for any decision procedure of "the value is taken". -/
private theorem sum_mul_taken {N : ℕ} {ι : Type*} [DecidableEq ι] [Fintype ι] (f : Fin N → ι) (g : ι → ℝ)
    (dec : ∀ i : ι, Decidable (∃ n, f n = i)) :
    ∑ i : ι, g i * @ite ℝ (∃ n, f n = i) (dec i) 1 0
      = ∑ n : Fin N, (if FirstOcc.IsFirst f n then (1 : ℝ) else 0) * g (f n) := by
  rw [← FirstOcc.sum_mul_taken_eq_sum_first_mul f g]
  refine Finset.sum_congr rfl fun i _ => ?_
  congr

/-- The sum over batches of the mean over cells of `softplus(p) − p · target` is the objectness term. -/
theorem sum_mean_eq_objR (P : Preds) (tg : Targets) (hr : InRange tg) {dec : ∀ (b : Fin 16) (q : Fin 16384), Decidable (∃ n, cellIdx tg b n = q)} :
    ∑ b : Fin 16, (∑ q : Fin 16384, (spR (PR P b 4 (q.val / 128) (q.val % 128))
        - PR P b 4 (q.val / 128) (q.val % 128) * @ite ℝ (∃ n, cellIdx tg b n = q) (dec b q) 1 0)) / 16384
      = objR P tg := by
  have h1 : ∀ b : Fin 16, ∑ q : Fin 16384, spR (PR P b 4 (q.val / 128) (q.val % 128))
      = ∑ h : Fin 128, ∑ w : Fin 128, spR (PR P b 4 h w) := fun b => sum_cells fun h w => spR (PR P b 4 h w)
  have h2 : ∀ b : Fin 16,
      ∑ q : Fin 16384, PR P b 4 (q.val / 128) (q.val % 128) * @ite ℝ (∃ n, cellIdx tg b n = q) (dec b q) 1 0
        = ∑ n : Fin 64, (if FirstOcc.IsFirst (cellIdx tg b) n then (1 : ℝ) else 0) * PR P b 4 (gjN tg b n) (giN tg b n) := by
    intro b
    refine (sum_mul_taken (cellIdx tg b) (fun q : Fin 16384 => PR P b 4 (q.val / 128) (q.val % 128)) (dec b)).trans
      (Finset.sum_congr rfl fun n _ => ?_)
    show _ * PR P b 4 ((cellIdx tg b n).val / 128) ((cellIdx tg b n).val % 128) = _
    rw [cellIdx_div hr b n, cellIdx_mod hr b n]
  unfold objR S1obj S2obj
  rw [← Finset.sum_div, ← Finset.sum_sub_distrib]
  refine congrArg (fun x : ℝ => x / 16384) (Finset.sum_congr rfl fun b _ => ?_)
  rw [Finset.sum_sub_distrib, h1 b, h2 b]

/-! ## The objectness term -/

/-- A rank-1 index set is its one coordinate's range. -/
private def idx1Equiv : Cert.ReferenceIdeal.S16.Idx ≃ Fin 16 where
  toFun i := i 0
  invFun b := ix1 b
  left_inv i := (eq_ix1 i).symm
  right_inv _ := rfl

/-- The reference's objectness term is `objR`, whatever procedure decides the 0/1 target's condition. -/
theorem val_v180_eq_of (P : Preds) (tg : Targets) (hP : Finite P) (hr : InRange tg) {dec : ∀ (b : Fin 16) (q : Fin 16384), Decidable (∃ n, cellIdx tg b n = q)}
    (hT : ∀ (b : Fin 16) (q : Fin 16384), val_main_v40 (F := Ideal) tg (ix2 b q) = ((@ite ℝ (∃ n, cellIdx tg b n = q) (dec b q) 1 0 : ℝ) : EReal)) :
    val_main_v180 (F := Ideal) P tg = fun _ => ((objR P tg : ℝ) : EReal) := by
  funext i
  rw [val_main_v180_apply, val_main_cst_34_apply, Ideal.ofBits_def, Ideal.ofBits_zero_f32, zero_add,
    ← sum_mean_eq_objR P tg hr (dec := dec), ← coe_sum]
  refine Fintype.sum_equiv idx1Equiv _ _ fun j => ?_
  obtain ⟨b, rfl⟩ : ∃ b, j = ix1 b := ⟨j 0, eq_ix1 j⟩
  exact val_v179_at P tg hP hT b

/-- The reference's objectness term is `objR`. -/
theorem val_v180_eq (P : Preds) (tg : Targets) (hP : Finite P) (hr : InRange tg)
    (hT : ∀ (b : Fin 16) (q : Fin 16384), val_main_v40 (F := Ideal) tg (ix2 b q) = (((if ∃ n, cellIdx tg b n = q then (1 : ℝ) else 0 : ℝ)) : EReal)) :
    val_main_v180 (F := Ideal) P tg = fun _ => ((objR P tg : ℝ) : EReal) :=
  val_v180_eq_of P tg hP hr hT

end Cert.ReferenceIdeal.RefValue

end
-- ==== Proof.RCls.lean ====
/-
  The reference's class term.

  With `p[b, q, c]` the class channel `5 + c` of `preds` at batch `b` and flat cell `q = 128 · row + column`, and
  `t[b, q, c] ∈ {0, 1}` the class target (1 exactly when some box of batch `b` names the pair (cell `q`, label `c`)),
  the reference computes `Σ_b (Σ_{q, c} (softplus p − p · t)) / 1310720`, with `1310720 = 16384 · 80`.

  On finite inputs every summand is a real number, so the whole term is the real
  `(Σ_{b, q, c} softplus p − Σ_{b, q, c} p · t) / 1310720`.  The first sum, regrouped by label, row and column, is
  `S1cls`.  In the second, a pair named by several boxes of a batch still counts once; summing over the pairs that
  are named equals summing over the boxes that are the first of their batch to name their pair, and at such a box the
  channel read is `5 + label` at the box's row and column: this is `S2cls`.  Hence the term is `clsR`.
-/
import proofs.«175006_j89550068121905_1_alg».proof.Proof.RefRead
import proofs.«175006_j89550068121905_1_alg».proof.Proof.Spec
import proofs.«175006_j89550068121905_1_alg».proof.Proof.SpecFacts
import Idealize.ShloMosaic.Lib.ValueIdx
import Idealize.ShloMosaic.Lib.ValueIdxRank1
import Idealize.ShloMosaic.Lib.Pipeline.Value
import Idealize.ShloMosaic.PureOps.Ideal.Laws

noncomputable section

open scoped BigOperators

namespace Cert.ReferenceIdeal.RefValue

open Cert.Spec Cert.ReferenceIdeal Cert.ReferenceIdeal.Read Idealize.ShloMosaic Idealize.ShloMosaic.ValueIdx

/-- The word `0x49A00000` is the count `16384 · 80 = 1310720`. -/
private theorem ofBits_count : Ideal.ofBits .f32 0x49A00000#32 = ((1310720 : ℝ) : EReal) := by
  simp [Ideal.ofBits, Ideal.ieee, -EReal.coe_mul]; norm_num

/-- `max x 0 + log (1 + exp (-max x (-x)))` at a real `r` is `softplus r`. -/
private theorem softplus_coe (r : ℝ) :
    max (r : EReal) 0 + Ideal.log1p (Ideal.exp (-(max (r : EReal) (-(r : EReal))))) = ((spR r : ℝ) : EReal) := by
  have h1 : max (r : EReal) (-(r : EReal)) = ((|r| : ℝ) : EReal) := by
    rw [← EReal.coe_neg, ← EReal.coe_strictMono.monotone.map_max, abs_eq_max_neg]
  have h2 : max (r : EReal) 0 = ((max r 0 : ℝ) : EReal) := by
    rw [← EReal.coe_zero, ← EReal.coe_strictMono.monotone.map_max]
  have h3 : ¬ (1 + Real.exp (-|r|) ≤ 0) := not_le.mpr (by positivity)
  rw [h1, h2, ← EReal.coe_neg, Ideal.exp_coe, Ideal.log1p, ← EReal.coe_one, ← EReal.coe_add, Ideal.log_coe, if_neg h3,
    ← EReal.coe_add]
  rfl

/-- The softplus stage at an index where the sliced channel is a real. -/
private theorem v182_coe (P : Preds) (i : S16x16384x80.Idx) (r : ℝ) (h : val_main_v181 (F := Ideal) P i = (r : EReal)) :
    val_main_v182 (F := Ideal) P i = ((spR r : ℝ) : EReal) := by
  simp only [val_main_v182_apply, val_main_call4_v4_apply, val_main_call4_v6_apply, val_main_call4_v11_apply,
    val_main_call4_v1_apply, val_main_call4_v10_apply, val_main_call4_v9_apply, val_main_call4_v8_apply,
    val_main_call4_v7_apply, val_main_call4_v3_apply, val_main_call4_v0_apply, val_main_call4_v2_apply,
    val_main_call4_v5_apply, val_main_call4_cst_apply, h]
  simp only [Ideal.ofBits_def, Ideal.ofBits_zero_f32, Ideal.subf_def, Ideal.addf_def, Ideal.maximumf_def,
    Ideal.hostUnary_log1p_def, Ideal.hostUnary_exp_def, Ideal.hostNegf_def, Ideal.hostAbsf_def, Ideal.negf_def,
    Ideal.absf_def, Ideal.cmpf_def, sub_zero, add_zero]
  have hc : Ideal.cmp .une (r : EReal) (r : EReal) = 0#1 := by simp [Ideal.cmp]
  rw [hc, select_zero]
  exact softplus_coe r

/-- The class channel `5 + c` at the flat cell `q`, as a real. -/
private def pcl (P : Preds) (b : Fin 16) (q : Fin 16384) (c : Fin 80) : ℝ := PR P b (5 + c.val) (q.val / 128) (q.val % 128)

/-- The 0/1 class target: whether some box of batch `b` names the pair (cell `q`, label `c`). -/
private def tcl (tg : Targets) (b : Fin 16) (q : Fin 16384) (c : Fin 80) : ℝ := if ∃ n, pairIdx tg b n = (q, c) then (1 : ℝ) else 0

/-- Channel `5 + c` of the transposed and flattened predictions at cell `q` is `preds` at channel `5 + c`,
    row `q / 128`, column `q % 128`. -/
private theorem v181_ix3 (P : Preds) (b : Fin 16) (q : Fin 16384) (c : Fin 80) :
    val_main_v181 (F := Ideal) P (ix3 b q c) = PE P b (5 + c.val) (q.val / 128) (q.val % 128) := by
  rw [val_main_v181_apply, val_main_v1_apply, val_main_v0_apply]
  unfold PE
  congr 1
  have hb := b.isLt
  have hq := q.isLt
  have hc := c.isLt
  funext a
  match a with
  | ⟨0, _⟩ =>
    refine Fin.ext ?_
    show ((b.val * 16384 + q.val) * 85 + (5 + c.val)) / 1392640 = b.val
    omega
  | ⟨1, _⟩ =>
    refine Fin.ext ?_
    show ((b.val * 16384 + q.val) * 85 + (5 + c.val)) % 85 = (5 + c.val) % 85
    omega
  | ⟨2, _⟩ =>
    refine Fin.ext ?_
    show ((b.val * 16384 + q.val) * 85 + (5 + c.val)) / 10880 % 128 = q.val / 128 % 128
    omega
  | ⟨3, _⟩ =>
    refine Fin.ext ?_
    show ((b.val * 16384 + q.val) * 85 + (5 + c.val)) / 85 % 128 = q.val % 128 % 128
    omega

private theorem v181_coe (P : Preds) (hP : Finite P) (b : Fin 16) (q : Fin 16384) (c : Fin 80) :
    val_main_v181 (F := Ideal) P (ix3 b q c) = ((pcl P b q c : ℝ) : EReal) := by
  rw [v181_ix3]
  exact (Finite.coe_toReal hP _).symm

/-- The summand `softplus p − p · t` at an index, a real. -/
private theorem v184_coe (P : Preds) (tg : Targets) (hP : Finite P)
    (hT : ∀ (b : Fin 16) (q : Fin 16384) (c : Fin 80), val_main_v63 (F := Ideal) tg (ix3 b q c) = (((if ∃ n, pairIdx tg b n = (q, c) then (1 : ℝ) else 0 : ℝ)) : EReal))
    (b : Fin 16) (q : Fin 16384) (c : Fin 80) :
    val_main_v184 (F := Ideal) P tg (ix3 b q c) = ((spR (pcl P b q c) - pcl P b q c * tcl tg b q c : ℝ) : EReal) := by
  rw [val_main_v184_apply, val_main_v183_apply, v182_coe P _ _ (v181_coe P hP b q c), v181_coe P hP b q c, hT b q c]
  simp only [Ideal.subf_def, Ideal.mulf_def]
  rw [← EReal.coe_mul, ← EReal.coe_sub]
  rfl

/-- A rank-3 index set is the product of its coordinate ranges. -/
private def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- Summing over the last two axes keeps the batch coordinate. -/
private theorem drop_ix3 (b : Fin 16) (q : Fin 16384) (c : Fin 80) :
    Gen.reducesTo_S16x16384x80_S16_d1_2.drop (ix3 b q c) = ix1 b := by
  funext a
  match a with
  | ⟨0, _⟩ => exact Fin.ext (Shape.ReducesTo.drop_apply_val_of_eq Gen.reducesTo_S16x16384x80_S16_d1_2 (ix3 b q c) 0 0)

/-- The indices that reduce to batch `b` are the `(b, q, c)`: the sum over them is the double sum over `q` and `c`. -/
private theorem sum_filter_drop (x : S16x16384x80.Idx → EReal) (b : Fin 16)
    [DecidablePred fun i : S16x16384x80.Idx => Gen.reducesTo_S16x16384x80_S16_d1_2.drop i = ix1 b] :
    ∑ i ∈ Finset.univ.filter (fun i => Gen.reducesTo_S16x16384x80_S16_d1_2.drop i = ix1 b), x i
      = ∑ q : Fin 16384, ∑ c : Fin 80, x (ix3 b q c) := by
  rw [Finset.sum_filter, ← Equiv.sum_comp (idxEquiv3 (n0 := 16) (n1 := 16384) (n2 := 80)).symm, Fintype.sum_prod_type,
    Finset.sum_eq_single b]
  · rw [Fintype.sum_prod_type]
    refine Finset.sum_congr rfl fun q _ => Finset.sum_congr rfl fun c _ => ?_
    exact if_pos (drop_ix3 b q c)
  · intro b' _ hb'
    refine Finset.sum_eq_zero fun p _ => if_neg ?_
    show ¬ Gen.reducesTo_S16x16384x80_S16_d1_2.drop (ix3 b' p.1 p.2) = ix1 b
    rw [drop_ix3]
    intro h
    exact hb' (congrFun h 0)
  · intro h
    exact absurd (Finset.mem_univ b) h

/-- A finite sum of reals, coerced, is the sum of the coerced reals. -/
private theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The per-batch sum over cells and labels. -/
private theorem v185_ix1 (P : Preds) (tg : Targets) (hP : Finite P)
    (hT : ∀ (b : Fin 16) (q : Fin 16384) (c : Fin 80), val_main_v63 (F := Ideal) tg (ix3 b q c) = (((if ∃ n, pairIdx tg b n = (q, c) then (1 : ℝ) else 0 : ℝ)) : EReal))
    (b : Fin 16) :
    val_main_v185 (F := Ideal) P tg (ix1 b)
      = ((∑ q : Fin 16384, ∑ c : Fin 80, (spR (pcl P b q c) - pcl P b q c * tcl tg b q c) : ℝ) : EReal) := by
  unfold val_main_v185
  show Ideal.hostReduceAdd Gen.reducesTo_S16x16384x80_S16_d1_2 (val_main_v184 (F := Ideal) P tg)
    (val_main_cst_35 (F := Ideal) (Shape.Idx.first Gen.h_S_)) (ix1 b) = _
  unfold Ideal.hostReduceAdd
  rw [sum_filter_drop, val_main_cst_35_apply, Ideal.ofBits_def, Ideal.ofBits_zero_f32, zero_add]
  simp only [v184_coe P tg hP hT]
  rw [coe_sum]
  refine Finset.sum_congr rfl fun q _ => ?_
  rw [coe_sum]

/-- The per-batch mean. -/
private theorem v187_ix1 (P : Preds) (tg : Targets) (hP : Finite P)
    (hT : ∀ (b : Fin 16) (q : Fin 16384) (c : Fin 80), val_main_v63 (F := Ideal) tg (ix3 b q c) = (((if ∃ n, pairIdx tg b n = (q, c) then (1 : ℝ) else 0 : ℝ)) : EReal))
    (b : Fin 16) :
    val_main_v187 (F := Ideal) P tg (ix1 b)
      = (((∑ q : Fin 16384, ∑ c : Fin 80, (spR (pcl P b q c) - pcl P b q c * tcl tg b q c)) / 1310720 : ℝ) : EReal) := by
  rw [val_main_v187_apply, v185_ix1 P tg hP hT b, val_main_v186_apply, val_main_cst_36_apply, Ideal.hostDivf_def,
    Ideal.ofBits_def, ofBits_count, Ideal.div_coe (by norm_num), ← EReal.coe_mul, mul_one_div]

/-- A flat cell is its (row, column). -/
private def cellEquiv : Fin 16384 ≃ Fin 128 × Fin 128 where
  toFun q := (⟨q.val / 128, by have := q.isLt; omega⟩, ⟨q.val % 128, by omega⟩)
  invFun p := ⟨p.1.val * 128 + p.2.val, by have := p.1.isLt; have := p.2.isLt; omega⟩
  left_inv q := Fin.ext (by show q.val / 128 * 128 + q.val % 128 = q.val; omega)
  right_inv p := by
    have h1 := p.1.isLt
    have h2 := p.2.isLt
    refine Prod.ext (Fin.ext ?_) (Fin.ext ?_)
    · show (p.1.val * 128 + p.2.val) / 128 = p.1.val
      omega
    · show (p.1.val * 128 + p.2.val) % 128 = p.2.val
      omega

/-- The softplus part of one batch: cells and labels regrouped as labels, rows, columns. -/
private theorem sum_sp (P : Preds) (b : Fin 16) :
    ∑ q : Fin 16384, ∑ c : Fin 80, spR (pcl P b q c)
      = ∑ c : Fin 80, ∑ h : Fin 128, ∑ w : Fin 128, spR (PR P b (5 + c) h w) := by
  rw [Finset.sum_comm]
  refine Finset.sum_congr rfl fun c _ => ?_
  rw [← Equiv.sum_comp cellEquiv.symm, Fintype.sum_prod_type]
  refine Finset.sum_congr rfl fun h _ => Finset.sum_congr rfl fun w _ => ?_
  have h1 := h.isLt
  have h2 := w.isLt
  show spR (PR P b (5 + c.val) ((h.val * 128 + w.val) / 128) ((h.val * 128 + w.val) % 128)) = _
  rw [show (h.val * 128 + w.val) / 128 = h.val by omega, show (h.val * 128 + w.val) % 128 = w.val by omega]

/-- The target part of one batch: each (cell, label) pair named by a box counts once, at its first box. -/
private theorem sum_pt (P : Preds) (tg : Targets) (hr : InRange tg) (b : Fin 16) :
    ∑ q : Fin 16384, ∑ c : Fin 80, pcl P b q c * tcl tg b q c
      = ∑ n : Fin 64, (if FirstOcc.IsFirst (pairIdx tg b) n then (1 : ℝ) else 0)
          * PR P b (5 + clsN tg b n) (gjN tg b n) (giN tg b n) := by
  have key := FirstOcc.sum_mul_taken_eq_sum_first_mul (pairIdx tg b) (fun i : Fin 16384 × Fin 80 => pcl P b i.1 i.2)
  rw [Fintype.sum_prod_type] at key
  refine Eq.trans (Finset.sum_congr rfl fun q _ => Finset.sum_congr rfl fun c _ => ?_) (key.trans ?_)
  · unfold tcl
    by_cases h : ∃ n, pairIdx tg b n = (q, c)
    · simp only [if_pos h]
    · simp only [if_neg h]
  · refine Finset.sum_congr rfl fun n _ => ?_
    show _ * pcl P b (pairIdx tg b n).1 (pairIdx tg b n).2 = _
    unfold pcl
    rw [pairIdx_snd_val hr b n, pairIdx_fst hr b n, cellIdx_div hr b n, cellIdx_mod hr b n]

/-- THE CLASS TERM: the reference's `Σ_b mean_{cell, label} (softplus p − p · target)` is `clsR`. -/
theorem val_v188_eq (P : Preds) (tg : Targets) (hP : Finite P) (hr : InRange tg)
    (hT : ∀ (b : Fin 16) (q : Fin 16384) (c : Fin 80), val_main_v63 (F := Ideal) tg (ix3 b q c) = (((if ∃ n, pairIdx tg b n = (q, c) then (1 : ℝ) else 0 : ℝ)) : EReal)) :
    val_main_v188 (F := Ideal) P tg = fun _ => ((clsR P tg : ℝ) : EReal) := by
  funext i
  rw [val_main_v188_apply, val_main_cst_37_apply, Ideal.ofBits_def, Ideal.ofBits_zero_f32, zero_add,
    ← Equiv.sum_comp (idxEquiv1 (n := 16)).symm]
  show ∑ b : Fin 16, val_main_v187 (F := Ideal) P tg (ix1 b) = _
  simp only [v187_ix1 P tg hP hT]
  rw [← coe_sum]
  refine congrArg (fun x : ℝ => (x : EReal)) ?_
  unfold clsR S1cls S2cls
  rw [← Finset.sum_div, ← Finset.sum_sub_distrib]
  refine congrArg (fun x : ℝ => x / 1310720) ?_
  refine Finset.sum_congr rfl fun b _ => ?_
  have e : ∑ q : Fin 16384, ∑ c : Fin 80, (spR (pcl P b q c) - pcl P b q c * tcl tg b q c)
      = ∑ q : Fin 16384, ∑ c : Fin 80, spR (pcl P b q c) - ∑ q : Fin 16384, ∑ c : Fin 80, pcl P b q c * tcl tg b q c := by
    simp only [Finset.sum_sub_distrib]
  rw [e, sum_sp, sum_pt P tg hr b]

end Cert.ReferenceIdeal.RefValue

end
-- ==== Proof.RFinal.lean ====
/-
  The reference program's last host operations, read as the shared chains: its box term is the chain `boxFn` of the
  four gathered channels and the four target columns, and its result is `combine` of the box, objectness and class
  terms.  Both hold by unfolding the operations' stages: the chains are those operations, in their order.
-/
import proofs.«175006_j89550068121905_1_alg».proof.Proof.RefRead
import proofs.«175006_j89550068121905_1_alg».proof.Proof.Spec

set_option maxRecDepth 16384

noncomputable section

namespace Cert.ReferenceIdeal.RefValue

open Cert.ReferenceIdeal Cert.ReferenceIdeal.Gen Cert.ReferenceIdeal.Read Idealize.ShloMosaic

variable {F : FTy → Type} [FloatOps F]

set_option maxHeartbeats 4000000 in
/-- The box term is the shared chain of the gathered channels 0..3 and columns 1..4 of the targets. -/
theorem val_v171_eq (x0 : (⟨S16x85x128x128, .f32⟩ : BufTy).Contents (Elt F)) (x1 : (⟨S16x64x5, .f32⟩ : BufTy).Contents (Elt F)) :
    val_main_v171 (F := F) x0 x1
      = Cert.Spec.boxFn (F := F) (val_main_v68 (F := F) x0 x1) (val_main_v70 (F := F) x0 x1) (val_main_v72 (F := F) x0 x1) (val_main_v74 (F := F) x0 x1)
          (val_main_v6 (F := F) x1) (val_main_v8 (F := F) x1) (val_main_v10 (F := F) x1) (val_main_v12 (F := F) x1) := rfl

/-- The result is the weighted sum of the three terms. -/
theorem val_v193_eq (x0 : (⟨S16x85x128x128, .f32⟩ : BufTy).Contents (Elt F)) (x1 : (⟨S16x64x5, .f32⟩ : BufTy).Contents (Elt F)) :
    val_main_v193 (F := F) x0 x1
      = Cert.Spec.combine (F := F) (val_main_v171 (F := F) x0 x1) (val_main_v180 (F := F) x0 x1) (val_main_v188 (F := F) x0 x1) := rfl

end Cert.ReferenceIdeal.RefValue

end
-- ==== Proof.Assemble.lean ====
/-
  The five claims.  The two kernel frames are the region's frame run followed by the host operations (the same text at
  the word-level and the ideal instance); the reference's frame is its run with the result dropped; the ideal pass
  rewrote nothing.  For the value claim both runs name their result — the last stage of each program's operations'
  table — and both last stages are the one function `G` of `preds` and `targets` (Spec): the weighted sum `combine` of
  the shared box chain at the gathered channels (the kernel gathers at (gj, gi), the reference at the flat cell
  gj·128 + gi of the transposed array: the same entries on the grid), of the objectness term and of the class term, the
  last two equal real numbers on finite inputs (the kernel subtracts the first-occurrence-masked gathers from its two
  softplus sums, the reference sums softplus − p·target against a 0/1 target set once per named cell).
-/
import proofs.«175006_j89550068121905_1_alg».proof.Defs
import proofs.«175006_j89550068121905_1_alg».proof.Proof.KB.Frame
import proofs.«175006_j89550068121905_1_alg».proof.Proof.KRun
import proofs.«175006_j89550068121905_1_alg».proof.Proof.RefRun
import proofs.«175006_j89550068121905_1_alg».proof.Proof.PreFacts
import proofs.«175006_j89550068121905_1_alg».proof.Proof.KSums
import proofs.«175006_j89550068121905_1_alg».proof.Proof.KGather
import proofs.«175006_j89550068121905_1_alg».proof.Proof.KMask
import proofs.«175006_j89550068121905_1_alg».proof.Proof.KObjCls
import proofs.«175006_j89550068121905_1_alg».proof.Proof.KFinal
import proofs.«175006_j89550068121905_1_alg».proof.Proof.RGather
import proofs.«175006_j89550068121905_1_alg».proof.Proof.RTargets
import proofs.«175006_j89550068121905_1_alg».proof.Proof.RObj
import proofs.«175006_j89550068121905_1_alg».proof.Proof.RCls
import proofs.«175006_j89550068121905_1_alg».proof.Proof.RFinal

set_option maxRecDepth 16384

noncomputable section

namespace Cert.Proof.Claims

open Idealize.ShloMosaic Idealize.ShloMosaic.TcCoe Idealize.SL.Sem Cert.Spec

/-- On finite inputs in the domain, the kernel program's last stage at the two softplus sums is `G`. -/
theorem kernel_result (o : FVec Ideal Cert.KernelIdeal.S1x2 .f32) (P : Preds) (tg : Targets) (hP : Finite P) (hr : InRange tg) (ho : IsSums P o) :
    Cert.KernelIdeal.Tail.kt_main_v316 (F := Ideal) o P tg = G P tg := by
  rw [Cert.KernelIdeal.Tail.kt_v316_eq, Cert.KernelIdeal.Tail.kt_v311_eq,
    Cert.KernelIdeal.Tail.kt_v101_eq o P tg hr, Cert.KernelIdeal.Tail.kt_v124_eq o P tg hr,
    Cert.KernelIdeal.Tail.kt_v147_eq o P tg hr, Cert.KernelIdeal.Tail.kt_v170_eq o P tg hr,
    Cert.KernelIdeal.Tail.kt_v9_eq o P tg, Cert.KernelIdeal.Tail.kt_v11_eq o P tg, Cert.KernelIdeal.Tail.kt_v13_eq o P tg, Cert.KernelIdeal.Tail.kt_v15_eq o P tg,
    Cert.KernelIdeal.Tail.kt_v212_eq o P tg hP hr ho (Cert.KernelIdeal.Tail.kt_v50_eq o P tg hr) (Cert.KernelIdeal.Tail.kt_v191_apply o P tg hr),
    Cert.KernelIdeal.Tail.kt_v214_eq o P tg hP hr ho (Cert.KernelIdeal.Tail.kt_v78_eq o P tg hr) (Cert.KernelIdeal.Tail.kt_v206_apply o P tg hr)]
  rfl

/-- On finite inputs in the domain, the reference program's last stage is `G`. -/
theorem ref_result (P : Preds) (tg : Targets) (hP : Finite P) (hr : InRange tg) :
    Cert.ReferenceIdeal.Read.val_main_v193 (F := Ideal) P tg = G P tg := by
  rw [Cert.ReferenceIdeal.RefValue.val_v193_eq, Cert.ReferenceIdeal.RefValue.val_v171_eq,
    Cert.ReferenceIdeal.RefValue.val_v68_eq P tg hr, Cert.ReferenceIdeal.RefValue.val_v70_eq P tg hr,
    Cert.ReferenceIdeal.RefValue.val_v72_eq P tg hr, Cert.ReferenceIdeal.RefValue.val_v74_eq P tg hr,
    Cert.ReferenceIdeal.RefValue.val_v6_eq tg, Cert.ReferenceIdeal.RefValue.val_v8_eq tg, Cert.ReferenceIdeal.RefValue.val_v10_eq tg, Cert.ReferenceIdeal.RefValue.val_v12_eq tg,
    Cert.ReferenceIdeal.RefValue.val_v180_eq_of P tg hP hr (Cert.ReferenceIdeal.RefValue.val_v40_apply tg hr),
    Cert.ReferenceIdeal.RefValue.val_v188_eq P tg hP hr (fun b q c => by convert Cert.ReferenceIdeal.RefValue.val_v63_apply tg hr b q c)]
  rfl

/-- The word-level kernel program runs and keeps its arguments. -/
theorem frame_k : Cert.frame_Kernel := fun m ρ _ => Cert.Kernel.Fr.frame m ρ
/-- The idealized kernel program runs and keeps its arguments. -/
theorem frame_ki : Cert.frame_KernelIdeal := fun m ρ _ => Cert.KernelIdeal.Fr.frame m ρ
/-- The reference program runs and keeps its arguments: its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)
/-- The ideal pass rewrote no operation. -/
theorem preserves : Cert.preserves_Kernel_KernelIdeal := trivial

/-- From memories agreeing on the arguments, on which the precondition holds, both programs end at `G` of the arguments. -/
theorem algebraic : Cert.algebraic_KernelIdeal_ReferenceIdeal := by
  intro m ρ m' ρ' hpre hagree
  refine ⟨fun c => G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run (Cert.KernelIdeal.defs (F := Ideal)) _ _).mono (fun _ h c => ⟨(h c).1.trans ?_, (h c).2⟩)
      (Cert.KernelIdeal.Fr.run_value (F := Ideal) m ρ)
    obtain ⟨hP, -, hr⟩ := Cert.Spec.pre_facts _ _ (hpre c)
    exact kernel_result _ _ _ hP hr (Cert.KernelIdeal.Fr.regionOut_isSums m c hP)
  · refine (θ_run (Cert.ReferenceIdeal.defs (F := Ideal)) _ _).mono (fun _ h c => ⟨(h c).1.trans ?_, (h c).2⟩)
      (Cert.ReferenceIdeal.RefRun.run (F := Ideal) m' ρ')
    obtain ⟨hP, -, hr⟩ := Cert.Spec.pre_facts _ _ (hpre c)
    rw [(hagree c).1, (hagree c).2]
    exact ref_result _ _ hP hr

end Cert.Proof.Claims

end
-- ==== Proof.lean ====
/-
  The proof of `Cert.Claim`: a detection loss computed by a Pallas kernel (two softplus sums over the whole prediction
  tensor, accumulated over the batch, then gathers at the boxes' grid cells with first-occurrence masks) against its jnp
  reference (0/1 targets scattered per named cell, binary cross-entropy summed over every cell).  Under the precondition
  — finite inputs, class labels among the 80 classes, grid cells inside the 128 × 128 grid — both programs end with the
  same extended real.  The five claims are proved in Proof/Assemble.lean, over: the kernel's frame (Proof/KI, and its
  word-level copy Proof/KB), its run with the result named (Proof/KRun.lean, over the table of its host operations,
  Proof/KTailStages.lean and Proof/KTailCuts.lean), the reference's run (Proof/RefRun.lean, over Proof/RefOps.lean,
  Proof/RefRead.lean and Proof/RefCuts.lean), the statement of what both compute (Proof/Spec.lean) and the value
  lemmas that meet it.  Here the claims are put behind the witnesses of the programs' stated facts.
-/
import proofs.«175006_j89550068121905_1_alg».proof.Defs
import proofs.«175006_j89550068121905_1_alg».proof.Proof.Assemble
import proofs.«175006_j89550068121905_1_alg».proof.Proof.Gen.Kernel
import proofs.«175006_j89550068121905_1_alg».proof.Proof.Gen.KernelIdeal
import proofs.«175006_j89550068121905_1_alg».proof.Proof.Gen.ReferenceIdeal
import proofs.«175006_j89550068121905_1_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
